-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temperature" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S100x256 : Shape := ⟨2, ![100, 256]⟩
abbrev S2x4096 : Shape := ⟨2, ![2, 4096]⟩
abbrev S2x4096x10 : Shape := ⟨3, ![2, 4096, 10]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_arg3 : IVec S2x4096 32) (main_v13 : IVec S_ 1) (main_v15 : IVec S2x4096 1) (main_c_5 : IVec S_ 32) : IVec S_ 1 :=
  let main_v16 : IVec S2x4096 32 := broadcastInDim S2x4096 ![] bcast_S_S2x4096 main_c_5
  let main_v17 : IVec S2x4096 1 := cmpi .slt main_arg3 main_v16
  let main_v18 : IVec S2x4096 1 := andi main_v15 main_v17
  let main_c_6 : IVec S_ 1 := constantI S_ 1 1#1
  let main_v19 : IVec S_ 1 := (fun x v => Host.reduce IntOp.andi x v reducesTo_S2x4096_S_d0_1 h_S_) main_v18 main_c_6
  let main_v20 : IVec S_ 1 := andi main_v13 main_v19
  main_v20

def fn {F : FTy → Type} [FloatOps F] (main_arg0 : FVec F S4096x256 .f32) (main_arg1 : FVec F S4096x256 .f32) (main_arg2 : FVec F S100x256 .f32) (main_arg3 : IVec S2x4096 32) (main_arg4 : IVec S2x4096x10 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S100x256 .f32 := Host.absf main_arg2
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_c_4 : IVec S_ 32 := constantI S_ 32 0#32
  let main_v14 : IVec S2x4096 32 := broadcastInDim S2x4096 ![] bcast_S_S2x4096 main_c_4
  let main_v15 : IVec S2x4096 1 := cmpi .sge main_arg3 main_v14
  let main_c_5 : IVec S_ 32 := constantI S_ 32 100#32
  fn_part1 (F := F) main_arg3 main_v13 main_v15 main_c_5
-- ==== Kernel.lean ====
abbrev S4096x256 : Shape := ⟨2, ![4096, 256]⟩
abbrev S100x256 : Shape := ⟨2, ![100, 256]⟩
abbrev S2x4096 : Shape := ⟨2, ![2, 4096]⟩
abbrev S2x4096x10 : Shape := ⟨3, ![2, 4096, 10]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S8192x10 : Shape := ⟨2, ![8192, 10]⟩
abbrev S100 : Shape := ⟨1, ![100]⟩
abbrev S8192x10x1 : Shape := ⟨3, ![8192, 10, 1]⟩
abbrev S1x1x100 : Shape := ⟨3, ![1, 1, 100]⟩
abbrev S8192x10x100 : Shape := ⟨3, ![8192, 10, 100]⟩
abbrev S8192x100 : Shape := ⟨2, ![8192, 100]⟩
abbrev S8192x1 : Shape := ⟨2, ![8192, 1]⟩
abbrev S1x100 : Shape := ⟨2, ![1, 100]⟩
abbrev S100x1 : Shape := ⟨2, ![100, 1]⟩
abbrev S256x100 : Shape := ⟨2, ![256, 100]⟩
abbrev S100x100 : Shape := ⟨2, ![100, 100]⟩
abbrev S8x8x128 : Shape := ⟨3, ![8, 8, 128]⟩
abbrev S1024x256 : Shape := ⟨2, ![1024, 256]⟩
abbrev S1024x100 : Shape := ⟨2, ![1024, 100]⟩
abbrev S1x8x128 : Shape := ⟨3, ![1, 8, 128]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 191
  | .vmem => 10
  | .smem => 0
  | _ => 0

abbrev hbmTy0_0 (i : Nat) : BufTy := match i % 128 with
  | 0 => ⟨S4096x256, .f32⟩
  | 1 => ⟨S4096x256, .f32⟩
  | 2 => ⟨S100x256, .f32⟩
  | 3 => ⟨S2x4096, .i32⟩
  | 4 => ⟨S2x4096x10, .i32⟩
  | 5 => ⟨S4096x256, .f32⟩
  | 6 => ⟨S_, .f32⟩
  | 7 => ⟨S4096, .f32⟩
  | 8 => ⟨S4096x1, .f32⟩
  | 9 => ⟨S4096x1, .f32⟩
  | 10 => ⟨S_, .f32⟩
  | 11 => ⟨S4096x1, .f32⟩
  | 12 => ⟨S4096x1, .f32⟩
  | 13 => ⟨S4096x256, .f32⟩
  | 14 => ⟨S4096x256, .f32⟩
  | 15 => ⟨S4096x256, .f32⟩
  | 16 => ⟨S_, .f32⟩
  | 17 => ⟨S4096, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x256, .f32⟩
  | 24 => ⟨S4096x256, .f32⟩
  | 25 => ⟨S8192x256, .f32⟩
  | 26 => ⟨S8192, .i32⟩
  | 27 => ⟨S8192x10, .i32⟩
  | 28 => ⟨S100, .i32⟩
  | 29 => ⟨S8192x10x1, .i32⟩
  | 30 => ⟨S1x1x100, .i32⟩
  | 31 => ⟨S8192x10x100, .i32⟩
  | 32 => ⟨S8192x10x100, .i32⟩
  | 33 => ⟨S8192x10x100, .i1⟩
  | 34 => ⟨S_, .i1⟩
  | 35 => ⟨S8192x100, .i1⟩
  | 36 => ⟨S8192x100, .f32⟩
  | 37 => ⟨S8192x1, .i32⟩
  | 38 => ⟨S1x100, .i32⟩
  | 39 => ⟨S8192x100, .i32⟩
  | 40 => ⟨S8192x100, .i32⟩
  | 41 => ⟨S8192x100, .i1⟩
  | 42 => ⟨S8192x100, .f32⟩
  | 43 => ⟨S100x256, .f32⟩
  | 44 => ⟨S_, .f32⟩
  | 45 => ⟨S100, .f32⟩
  | 46 => ⟨S100x1, .f32⟩
  | 47 => ⟨S100x1, .f32⟩
  | 48 => ⟨S_, .f32⟩
  | 49 => ⟨S100x1, .f32⟩
  | 50 => ⟨S100x1, .f32⟩
  | 51 => ⟨S100x256, .f32⟩
  | 52 => ⟨S100x256, .f32⟩
  | 53 => ⟨S256x100, .f32⟩
  | 54 => ⟨S100x100, .f32⟩
  | 55 => ⟨S_, .f32⟩
  | 56 => ⟨S100x100, .f32⟩
  | 57 => ⟨S100x100, .f32⟩
  | 58 => ⟨S_, .f32⟩
  | 59 => ⟨S100, .f32⟩
  | 60 => ⟨S100x100, .i32⟩
  | 61 => ⟨S100x100, .i32⟩
  | 62 => ⟨S_, .i32⟩
  | 63 => ⟨S100x100, .i32⟩
  | 64 => ⟨S100x100, .i32⟩
  | 65 => ⟨S100x100, .i1⟩
  | 66 => ⟨S100x100, .f32⟩
  | 67 => ⟨S1x100, .f32⟩
  | 68 => ⟨S100x100, .f32⟩
  | 69 => ⟨S100x100, .f32⟩
  | 70 => ⟨S_, .f32⟩
  | 71 => ⟨S100x100, .f32⟩
  | 72 => ⟨S100x100, .i1⟩
  | 73 => ⟨S_, .f32⟩
  | 74 => ⟨S_, .f32⟩
  | 75 => ⟨S100x100, .f32⟩
  | 76 => ⟨S100x100, .f32⟩
  | 77 => ⟨S_, .f32⟩
  | 78 => ⟨S_, .f32⟩
  | 79 => ⟨S100x100, .f32⟩
  | 80 => ⟨S100x100, .f32⟩
  | 81 => ⟨S_, .f32⟩
  | 82 => ⟨S100, .f32⟩
  | 83 => ⟨S_, .f32⟩
  | 84 => ⟨S100, .f32⟩
  | 85 => ⟨S100, .f32⟩
  | 86 => ⟨S_, .f32⟩
  | 87 => ⟨S100, .f32⟩
  | 88 => ⟨S_, .f32⟩
  | 89 => ⟨S100, .f32⟩
  | 90 => ⟨S100, .f32⟩
  | 91 => ⟨S100x100, .f32⟩
  | 92 => ⟨S_, .f32⟩
  | 93 => ⟨S100, .f32⟩
  | 94 => ⟨S_, .f32⟩
  | 95 => ⟨S100, .f32⟩
  | 96 => ⟨S100, .f32⟩
  | 97 => ⟨S100x1, .f32⟩
  | 98 => ⟨S100x100, .f32⟩
  | 99 => ⟨S100x100, .f32⟩
  | 100 => ⟨S100x100, .f32⟩
  | 101 => ⟨S100x100, .f32⟩
  | 102 => ⟨S_, .f32⟩
  | 103 => ⟨S100, .f32⟩
  | 104 => ⟨S100, .f32⟩
  | 105 => ⟨S100, .f32⟩
  | 106 => ⟨S_, .f32⟩
  | 107 => ⟨S100, .f32⟩
  | 108 => ⟨S100, .f32⟩
  | 109 => ⟨S_, .f32⟩
  | 110 => ⟨S100, .f32⟩
  | 111 => ⟨S100, .f32⟩
  | 112 => ⟨S100, .f32⟩
  | 113 => ⟨S100, .f32⟩
  | 114 => ⟨S_, .f32⟩
  | 115 => ⟨S100, .f32⟩
  | 116 => ⟨S100, .f32⟩
  | 117 => ⟨S100, .f32⟩
  | 118 => ⟨S100, .f32⟩
  | 119 => ⟨S100, .f32⟩
  | 120 => ⟨S100, .f32⟩
  | 121 => ⟨S100, .f32⟩
  | 122 => ⟨S_, .f32⟩
  | 123 => ⟨S100, .f32⟩
  | 124 => ⟨S100, .f32⟩
  | 125 => ⟨S100, .f32⟩
  | 126 => ⟨S_, .f32⟩
  | 127 => ⟨S100, .f32⟩
  | _ => ⟨S4096x256, .f32⟩

abbrev hbmTy0_1 (i : Nat) : BufTy := match i % 128 with
  | 0 => ⟨S100, .f32⟩
  | 1 => ⟨S100x1, .f32⟩
  | 2 => ⟨S100x100, .f32⟩
  | 3 => ⟨S100x100, .f32⟩
  | 4 => ⟨S100x1, .f32⟩
  | 5 => ⟨S100x100, .f32⟩
  | 6 => ⟨S100x100, .f32⟩
  | 7 => ⟨S1x100, .f32⟩
  | 8 => ⟨S100x100, .f32⟩
  | 9 => ⟨S100x100, .f32⟩
  | 10 => ⟨S100x100, .f32⟩
  | 11 => ⟨S1x100, .f32⟩
  | 12 => ⟨S100x100, .f32⟩
  | 13 => ⟨S100x100, .f32⟩
  | 14 => ⟨S100x100, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192x100, .f32⟩
  | 24 => ⟨S8192x100, .f32⟩
  | 25 => ⟨S8192x100, .bf16⟩
  | 26 => ⟨S8192x256, .bf16⟩
  | 27 => ⟨S4096x256, .f32⟩
  | 28 => ⟨S_, .f32⟩
  | 29 => ⟨S4096, .f32⟩
  | 30 => ⟨S_, .f32⟩
  | 31 => ⟨S4096, .f32⟩
  | 32 => ⟨S4096, .f32⟩
  | 33 => ⟨S4096, .f32⟩
  | 34 => ⟨S8192, .f32⟩
  | 35 => ⟨S8x8x128, .f32⟩
  | 36 => ⟨S8x1x1, .f32⟩
  | 37 => ⟨S8, .f32⟩
  | 38 => ⟨S_, .f32⟩
  | 39 => ⟨S_, .f32⟩
  | 40 => ⟨S8192x256, .f32⟩
  | 41 => ⟨S8192x256, .f32⟩
  | 42 => ⟨S_, .f32⟩
  | 43 => ⟨S8192, .f32⟩
  | 44 => ⟨S_, .f32⟩
  | 45 => ⟨S8192, .f32⟩
  | 46 => ⟨S8192, .f32⟩
  | 47 => ⟨S8192, .f32⟩
  | 48 => ⟨S8192x100, .f32⟩
  | 49 => ⟨S_, .f32⟩
  | 50 => ⟨S8192, .f32⟩
  | 51 => ⟨S8192, .f32⟩
  | 52 => ⟨S_, .f32⟩
  | 53 => ⟨S_, .f32⟩
  | 54 => ⟨S_, .f32⟩
  | 55 => ⟨S8192, .f32⟩
  | 56 => ⟨S8192, .f32⟩
  | 57 => ⟨S8192, .f32⟩
  | 58 => ⟨S8192, .f32⟩
  | 59 => ⟨S_, .f32⟩
  | 60 => ⟨S_, .f32⟩
  | 61 => ⟨S_, .f32⟩
  | 62 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x100, .f32⟩
  | .local _ .vmem, ⟨5, _⟩ => ⟨S1024x100, .f32⟩
  | .local _ .vmem, ⟨6, _⟩ => ⟨S1024x100, .bf16⟩
  | .local _ .vmem, ⟨7, _⟩ => ⟨S1024x100, .bf16⟩
  | .local _ .vmem, ⟨8, _⟩ => ⟨S1x8x128, .f32⟩
  | .local _ .vmem, ⟨9, _⟩ => ⟨S1x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_call3_v0 : Ref sig .tc := ⟨.hbm, 74, rfl⟩
abbrev main_call3_v1 : Ref sig .tc := ⟨.hbm, 75, rfl⟩
abbrev main_v48 : Ref sig .tc := ⟨.hbm, 76, rfl⟩
abbrev main_cst_7 : Ref sig .tc := ⟨.hbm, 77, rfl⟩
abbrev main_call4_v0 : Ref sig .tc := ⟨.hbm, 78, rfl⟩
abbrev main_call4_v1 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_v69 : Ref sig .tc := ⟨.hbm, 108, rfl⟩
abbrev main_cst_16 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_17 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_19 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_20 : Ref sig .tc := ⟨.hbm, 143, rfl⟩
abbrev main_v100 : Ref sig .tc := ⟨.hbm, 144, rfl⟩
abbrev main_v101 : Ref sig .tc := ⟨.hbm, 145, rfl⟩
abbrev main_c_21 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_cst_23 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_24 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_25 : Ref sig .tc := ⟨.hbm, 170, rfl⟩
abbrev main_v122 : Ref sig .tc := ⟨.hbm, 171, rfl⟩
abbrev main_cst_26 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_27 : Ref sig .tc := ⟨.hbm, 177, rfl⟩
abbrev main_v127 : Ref sig .tc := ⟨.hbm, 178, rfl⟩
abbrev main_v128 : Ref sig .tc := ⟨.hbm, 179, rfl⟩
abbrev main_cst_28 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_29 : Ref sig .tc := ⟨.hbm, 187, rfl⟩
abbrev main_v135 : Ref sig .tc := ⟨.hbm, 188, rfl⟩
abbrev main_cst_30 : Ref sig .tc := ⟨.hbm, 189, rfl⟩
abbrev main_v136 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x100 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  shapeCasts_S2x4096_S8192 : S2x4096.ShapeCasts S8192
  shapeCasts_S2x4096x10_S8192x10 : S2x4096x10.ShapeCasts S8192x10
  bcast_S8192x10_S8192x10x1_0_1 : S8192x10.BroadcastsInDim S8192x10x1 (![0, 1] : Fin 2 → Fin S8192x10x1.rank)
  bcast_S100_S1x1x100_2 : S100.BroadcastsInDim S1x1x100 (![2] : Fin 1 → Fin S1x1x100.rank)
  bcast_S8192x10x1_S8192x10x100_0_1_2 : S8192x10x1.BroadcastsInDim S8192x10x100 (![0, 1, 2] : Fin 3 → Fin S8192x10x100.rank)
  bcast_S1x1x100_S8192x10x100_0_1_2 : S1x1x100.BroadcastsInDim S8192x10x100 (![0, 1, 2] : Fin 3 → Fin S8192x10x100.rank)
  reducesTo_S8192x10x100_S8192x100_d1 : S8192x10x100.ReducesTo [1] S8192x100
  bcast_S8192_S8192x1_0 : S8192.BroadcastsInDim S8192x1 (![0] : Fin 1 → Fin S8192x1.rank)
  bcast_S100_S1x100_1 : S100.BroadcastsInDim S1x100 (![1] : Fin 1 → Fin S1x100.rank)
  bcast_S8192x1_S8192x100_0_1 : S8192x1.BroadcastsInDim S8192x100 (![0, 1] : Fin 2 → Fin S8192x100.rank)
  bcast_S1x100_S8192x100_0_1 : S1x100.BroadcastsInDim S8192x100 (![0, 1] : Fin 2 → Fin S8192x100.rank)
  reducesTo_S100x256_S100_d1 : S100x256.ReducesTo [1] S100
  bcast_S100_S100x1_0 : S100.BroadcastsInDim S100x1 (![0] : Fin 1 → Fin S100x1.rank)
  bcast_S_S100x1 : S_.BroadcastsInDim S100x1 (![] : Fin 0 → Fin S100x1.rank)
  bcast_S100x1_S100x256_0_1 : S100x1.BroadcastsInDim S100x256 (![0, 1] : Fin 2 → Fin S100x256.rank)
  transposes_S100x256_S256x100_1_0 : S100x256.Transposes [1, 0] S256x100
  bcast_S_S100x100 : S_.BroadcastsInDim S100x100 (![] : Fin 0 → Fin S100x100.rank)
  reducesTo_S8192x100_S100_d0 : S8192x100.ReducesTo [0] S100
  bcast_S1x100_S100x100_0_1 : S1x100.BroadcastsInDim S100x100 (![0, 1] : Fin 2 → Fin S100x100.rank)
  reducesTo_S100x100_S100_d1 : S100x100.ReducesTo [1] S100
  bcast_S_S100 : S_.BroadcastsInDim S100 (![] : Fin 0 → Fin S100.rank)
  bcast_S100x1_S100x100_0_1 : S100x1.BroadcastsInDim S100x100 (![0, 1] : Fin 2 → Fin S100x100.rank)
  bcast_S_S8192 : S_.BroadcastsInDim S8192 (![] : Fin 0 → Fin S8192.rank)
  bitsLt_bf16_f32 : FTy.bits .bf16 < FTy.bits .f32
  bcast_S_S4096 : S_.BroadcastsInDim S4096 (![] : Fin 0 → Fin S4096.rank)
  concatenates_S4096_S4096_S8192_d0 : Shape.Concatenates [S4096, S4096] S8192 0
  inb_S1x8x128_S1x8x128_0_0_0 : ∀ a, (![0, 0, 0] : Fin 3 → Nat) a + S1x8x128.size a ≤ S1x8x128.size a
  h_S1x8x128 : 0 < S1x8x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  reduces_S1024x100_S1024 : S1024x100.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  shapeCasts_S1x8x128_S1x8x128 : S1x8x128.ShapeCasts S1x8x128
  shapeCasts_S1x1x1_S1x1x1 : S1x1x1.ShapeCasts S1x1x1
  broadcasts_S1x1x1_S1x8x128 : S1x1x1.Broadcasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  reducesTo_S8192x256_S8192_d1 : S8192x256.ReducesTo [1] S8192
  reducesTo_S8192x100_S8192_d1 : S8192x100.ReducesTo [1] S8192
  reducesTo_S8192_S_d0 : S8192.ReducesTo [0] S_
  dot_S100x256_S256x100_S100x100_1_0_0_1_n_n_wf : DotDims.WF S100x256 S256x100 S100x100 [1] [0] [0] [1] [] []
  gather_S100x100_S8192x1_S8192x100_1_0_n_n_0_1_1100_wf : GatherDims.WF S100x100 S8192x1 S8192x100 [1] [0] [] [0] [] 1 ![1, 100]
  dot_S1024x256_S256x1024_S1024x1024_1_0_0_1_n_n_wf : DotDims.WF S1024x256 S256x1024 S1024x1024 [1] [0] [0] [1] [] []
  dot_S1024x1024_S1024x100_S1024x100_1_0_0_1_n_n_wf : DotDims.WF S1024x1024 S1024x100 S1024x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x100.size a ≤ S8192x100.size a
  hwx0_2 : ∀ i : grid0.Coords, EltTy.bits .f32 = 32 ∨ (Rect.block (s := S8192x100) S1024x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S8192x100.size a
  hwx0_3 : ∀ i : grid0.Coords, EltTy.bits .bf16 = 32 ∨ (Rect.block (s := S8192x100) S1024x100.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

def dot_S100x256_S256x100_S100x100_1_0_0_1_n_n : DotDims S100x256 S256x100 S100x100 where
  lhsContracting := [1]
  rhsContracting := [0]
  lhsNonContracting := [0]
  rhsNonContracting := [1]
  lhsBatch := []
  rhsBatch := []
  wf := dot_S100x256_S256x100_S100x100_1_0_0_1_n_n_wf
def gather_S100x100_S8192x1_S8192x100_1_0_n_n_0_1_1100 : GatherDims S100x100 S8192x1 S8192x100 where
  offsetDims := [1]
  collapsedSliceDims := [0]
  operandBatchingDims := []
  startIndicesBatchingDims := []
  startIndexMap := [0]
  indexVectorDim := 1
  sliceSizes := ![1, 100]
  wf := gather_S100x100_S8192x1_S8192x100_1_0_n_n_0_1_1100_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x100_S1024x100_1_0_0_1_n_n : DotDims S1024x1024 S1024x100 S1024x100 where
  lhsContracting := [1]
  rhsContracting := [0]
  lhsNonContracting := [0]
  rhsNonContracting := [1]
  lhsBatch := []
  rhsBatch := []
  wf := dot_S1024x1024_S1024x100_S1024x100_1_0_0_1_n_n_wf

abbrev win0_0 : Pipeline.Window sig grid0 :=
  Pipeline.Window.ofSpec (Memref.whole main_v109) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v109) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v107) S1024x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v108) S1024x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v116) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S100x256 : Shape := ⟨2, ![100, 256]⟩
abbrev S2x4096 : Shape := ⟨2, ![2, 4096]⟩
abbrev S2x4096x10 : Shape := ⟨3, ![2, 4096, 10]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x10 : Shape := ⟨2, ![8192, 10]⟩
abbrev S8192x10x1 : Shape := ⟨3, ![8192, 10, 1]⟩
abbrev S100 : Shape := ⟨1, ![100]⟩
abbrev S1x1x100 : Shape := ⟨3, ![1, 1, 100]⟩
abbrev S8192x10x100 : Shape := ⟨3, ![8192, 10, 100]⟩
abbrev S8192x100 : Shape := ⟨2, ![8192, 100]⟩
abbrev S8192x1 : Shape := ⟨2, ![8192, 1]⟩
abbrev S1 : Shape := ⟨1, ![1]⟩
abbrev S1x1 : Shape := ⟨2, ![1, 1]⟩
abbrev S100x1 : Shape := ⟨2, ![100, 1]⟩
abbrev S256x100 : Shape := ⟨2, ![256, 100]⟩
abbrev S100x100 : Shape := ⟨2, ![100, 100]⟩
abbrev S1x8192 : Shape := ⟨2, ![1, 8192]⟩
abbrev S8192x8192x1 : Shape := ⟨3, ![8192, 8192, 1]⟩
abbrev S8192x8192x2 : Shape := ⟨3, ![8192, 8192, 2]⟩

abbrev nBuf : Space → Nat
  | .hbm => 189
  | .vmem => 0
  | .smem => 0
  | _ => 0

abbrev hbmTy0_0 (i : Nat) : BufTy := match i % 128 with
  | 0 => ⟨S4096x256, .f32⟩
  | 1 => ⟨S4096x256, .f32⟩
  | 2 => ⟨S100x256, .f32⟩
  | 3 => ⟨S2x4096, .i32⟩
  | 4 => ⟨S2x4096x10, .i32⟩
  | 5 => ⟨S4096x256, .f32⟩
  | 6 => ⟨S_, .f32⟩
  | 7 => ⟨S4096, .f32⟩
  | 8 => ⟨S4096x1, .f32⟩
  | 9 => ⟨S4096x1, .f32⟩
  | 10 => ⟨S_, .f32⟩
  | 11 => ⟨S4096x1, .f32⟩
  | 12 => ⟨S4096x1, .f32⟩
  | 13 => ⟨S4096x256, .f32⟩
  | 14 => ⟨S4096x256, .f32⟩
  | 15 => ⟨S4096x256, .f32⟩
  | 16 => ⟨S_, .f32⟩
  | 17 => ⟨S4096, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x256, .f32⟩
  | 24 => ⟨S4096x256, .f32⟩
  | 25 => ⟨S8192x256, .f32⟩
  | 26 => ⟨S256x8192, .f32⟩
  | 27 => ⟨S8192x8192, .f32⟩
  | 28 => ⟨S_, .f32⟩
  | 29 => ⟨S8192x8192, .f32⟩
  | 30 => ⟨S8192x8192, .f32⟩
  | 31 => ⟨S8192x8192, .f32⟩
  | 32 => ⟨S8192x8192, .i32⟩
  | 33 => ⟨S8192x8192, .i32⟩
  | 34 => ⟨S_, .i32⟩
  | 35 => ⟨S8192x8192, .i32⟩
  | 36 => ⟨S8192x8192, .i32⟩
  | 37 => ⟨S8192x8192, .i1⟩
  | 38 => ⟨S8192, .i32⟩
  | 39 => ⟨S8192x10, .i32⟩
  | 40 => ⟨S8192x10x1, .i32⟩
  | 41 => ⟨S100, .i32⟩
  | 42 => ⟨S1x1x100, .i32⟩
  | 43 => ⟨S8192x10x100, .i32⟩
  | 44 => ⟨S8192x10x100, .i32⟩
  | 45 => ⟨S8192x10x100, .i1⟩
  | 46 => ⟨S_, .i1⟩
  | 47 => ⟨S8192x100, .i1⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S1, .i32⟩
  | 57 => ⟨S_, .i32⟩
  | 58 => ⟨S8192x1, .i32⟩
  | 59 => ⟨S8192x1, .i1⟩
  | 60 => ⟨S1x1, .i32⟩
  | 61 => ⟨S8192x1, .i32⟩
  | 62 => ⟨S8192x1, .i1⟩
  | 63 => ⟨S8192x1, .i1⟩
  | 64 => ⟨S_, .i1⟩
  | 65 => ⟨S8192, .i1⟩
  | 66 => ⟨S8192x8192, .i1⟩
  | 67 => ⟨S8192x8192, .i1⟩
  | 68 => ⟨S_, .i1⟩
  | 69 => ⟨S8192x8192, .i1⟩
  | 70 => ⟨S8192x8192, .i1⟩
  | 71 => ⟨S8192x8192, .i1⟩
  | 72 => ⟨S8192x8192, .i1⟩
  | 73 => ⟨S100x256, .f32⟩
  | 74 => ⟨S_, .f32⟩
  | 75 => ⟨S100, .f32⟩
  | 76 => ⟨S100x1, .f32⟩
  | 77 => ⟨S100x1, .f32⟩
  | 78 => ⟨S_, .f32⟩
  | 79 => ⟨S100x1, .f32⟩
  | 80 => ⟨S100x1, .f32⟩
  | 81 => ⟨S100x256, .f32⟩
  | 82 => ⟨S100x256, .f32⟩
  | 83 => ⟨S256x100, .f32⟩
  | 84 => ⟨S100x100, .f32⟩
  | 85 => ⟨S_, .f32⟩
  | 86 => ⟨S100x100, .f32⟩
  | 87 => ⟨S100x100, .f32⟩
  | 88 => ⟨S8192x1, .i32⟩
  | 89 => ⟨S1x8192, .i32⟩
  | 90 => ⟨S_, .i32⟩
  | 91 => ⟨S8192x1, .i32⟩
  | 92 => ⟨S8192x1, .i1⟩
  | 93 => ⟨S_, .i32⟩
  | 94 => ⟨S8192x1, .i32⟩
  | 95 => ⟨S8192x1, .i32⟩
  | 96 => ⟨S8192x1, .i32⟩
  | 97 => ⟨S_, .i32⟩
  | 98 => ⟨S1x8192, .i32⟩
  | 99 => ⟨S1x8192, .i1⟩
  | 100 => ⟨S_, .i32⟩
  | 101 => ⟨S1x8192, .i32⟩
  | 102 => ⟨S1x8192, .i32⟩
  | 103 => ⟨S1x8192, .i32⟩
  | 104 => ⟨S8192x8192, .i32⟩
  | 105 => ⟨S8192x8192, .i32⟩
  | 106 => ⟨S8192x8192x1, .i32⟩
  | 107 => ⟨S8192x8192x1, .i32⟩
  | 108 => ⟨S8192x8192x2, .i32⟩
  | 109 => ⟨S8192x8192, .f32⟩
  | 110 => ⟨S_, .f32⟩
  | 111 => ⟨S_, .f32⟩
  | 112 => ⟨S8192x8192, .f32⟩
  | 113 => ⟨S8192x8192, .f32⟩
  | 114 => ⟨S_, .f32⟩
  | 115 => ⟨S8192, .f32⟩
  | 116 => ⟨S8192x1, .f32⟩
  | 117 => ⟨S_, .f32⟩
  | 118 => ⟨S8192, .f32⟩
  | 119 => ⟨S8192x1, .f32⟩
  | 120 => ⟨S8192x8192, .f32⟩
  | 121 => ⟨S8192x8192, .f32⟩
  | 122 => ⟨S8192x1, .f32⟩
  | 123 => ⟨S8192x8192, .f32⟩
  | 124 => ⟨S8192x8192, .f32⟩
  | 125 => ⟨S_, .f32⟩
  | 126 => ⟨S8192, .f32⟩
  | 127 => ⟨S_, .f32⟩
  | _ => ⟨S4096x256, .f32⟩

abbrev hbmTy0_1 (i : Nat) : BufTy := match i % 128 with
  | 0 => ⟨S8192, .f32⟩
  | 1 => ⟨S8192, .f32⟩
  | 2 => ⟨S_, .i32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S8192x8192, .f32⟩
  | 10 => ⟨S8192x8192, .f32⟩
  | 11 => ⟨S8192x8192, .f32⟩
  | 12 => ⟨S_, .f32⟩
  | 13 => ⟨S_, .f32⟩
  | 14 => ⟨S_, .f32⟩
  | 15 => ⟨S_, .f32⟩
  | 16 => ⟨S8192, .f32⟩
  | 17 => ⟨S8192, .f32⟩
  | 18 => ⟨S8192, .f32⟩
  | 19 => ⟨S_, .f32⟩
  | 20 => ⟨S_, .i1⟩
  | 21 => ⟨S_, .f32⟩
  | 22 => ⟨S_, .f32⟩
  | 23 => ⟨S8192, .f32⟩
  | 24 => ⟨S8192, .f32⟩
  | 25 => ⟨S8192, .f32⟩
  | 26 => ⟨S1x8192, .f32⟩
  | 27 => ⟨S8192x8192, .f32⟩
  | 28 => ⟨S8192x8192, .f32⟩
  | 29 => ⟨S8192x8192, .f32⟩
  | 30 => ⟨S1x8192, .f32⟩
  | 31 => ⟨S1x8192, .f32⟩
  | 32 => ⟨S_, .f32⟩
  | 33 => ⟨S1x8192, .f32⟩
  | 34 => ⟨S1x8192, .f32⟩
  | 35 => ⟨S8192x8192, .f32⟩
  | 36 => ⟨S8192x8192, .f32⟩
  | 37 => ⟨S8192x8192, .f32⟩
  | 38 => ⟨S8192x8192, .f32⟩
  | 39 => ⟨S4096x256, .f32⟩
  | 40 => ⟨S_, .f32⟩
  | 41 => ⟨S4096, .f32⟩
  | 42 => ⟨S_, .f32⟩
  | 43 => ⟨S4096, .f32⟩
  | 44 => ⟨S4096, .f32⟩
  | 45 => ⟨S4096, .f32⟩
  | 46 => ⟨S8192, .f32⟩
  | 47 => ⟨S_, .f32⟩
  | 48 => ⟨S_, .f32⟩
  | 49 => ⟨S8192x8192, .f32⟩
  | 50 => ⟨S8192x8192, .f32⟩
  | 51 => ⟨S_, .f32⟩
  | 52 => ⟨S_, .f32⟩
  | 53 => ⟨S8192, .f32⟩
  | 54 => ⟨S8192, .f32⟩
  | 55 => ⟨S8192, .f32⟩
  | 56 => ⟨S8192, .f32⟩
  | 57 => ⟨S_, .f32⟩
  | 58 => ⟨S_, .f32⟩
  | 59 => ⟨S_, .f32⟩
  | 60 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_c_4 : Ref sig .tc := ⟨.hbm, 68, rfl⟩
abbrev main_call2_v15 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_call3_v2 : Ref sig .tc := ⟨.hbm, 76, rfl⟩
abbrev main_v33 : Ref sig .tc := ⟨.hbm, 77, rfl⟩
abbrev main_cst_3 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_5 : Ref sig .tc := ⟨.hbm, 90, rfl⟩
abbrev main_v44 : Ref sig .tc := ⟨.hbm, 91, rfl⟩
abbrev main_v45 : Ref sig .tc := ⟨.hbm, 92, rfl⟩
abbrev main_c_6 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_7 : Ref sig .tc := ⟨.hbm, 97, rfl⟩
abbrev main_v49 : Ref sig .tc := ⟨.hbm, 98, rfl⟩
abbrev main_v50 : Ref sig .tc := ⟨.hbm, 99, rfl⟩
abbrev main_c_8 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_9 : Ref sig .tc := ⟨.hbm, 110, rfl⟩
abbrev main_call4_v0 : Ref sig .tc := ⟨.hbm, 111, rfl⟩
abbrev main_call4_v1 : Ref sig .tc := ⟨.hbm, 112, rfl⟩
abbrev main_v60 : Ref sig .tc := ⟨.hbm, 113, rfl⟩
abbrev main_cst_10 : Ref sig .tc := ⟨.hbm, 114, rfl⟩
abbrev main_v61 : Ref sig .tc := ⟨.hbm, 115, rfl⟩
abbrev main_v62 : Ref sig .tc := ⟨.hbm, 116, rfl⟩
abbrev main_cst_11 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_12 : Ref sig .tc := ⟨.hbm, 125, rfl⟩
abbrev main_v70 : Ref sig .tc := ⟨.hbm, 126, rfl⟩
abbrev main_cst_13 : Ref sig .tc := ⟨.hbm, 127, rfl⟩
abbrev main_v71 : Ref sig .tc := ⟨.hbm, 128, rfl⟩
abbrev main_v72 : Ref sig .tc := ⟨.hbm, 129, rfl⟩
abbrev main_c_14 : Ref sig .tc := ⟨.hbm, 130, rfl⟩
abbrev main_call5_call0_cst : Ref sig .tc := ⟨.hbm, 131, rfl⟩
abbrev main_call5_call0_v0 : Ref sig .tc := ⟨.hbm, 132, rfl⟩
abbrev main_call5_call0_v1 : Ref sig .tc := ⟨.hbm, 133, rfl⟩
abbrev main_call5_call0_cst_0 : Ref sig .tc := ⟨.hbm, 134, rfl⟩
abbrev main_call5_call0_v2 : Ref sig .tc := ⟨.hbm, 135, rfl⟩
abbrev main_call5_call0_v3 : Ref sig .tc := ⟨.hbm, 136, rfl⟩
abbrev main_call5_call0_v4 : Ref sig .tc := ⟨.hbm, 137, rfl⟩
abbrev main_call5_call0_v5 : Ref sig .tc := ⟨.hbm, 138, rfl⟩
abbrev main_call5_call0_v6 : Ref sig .tc := ⟨.hbm, 139, rfl⟩
abbrev main_call5_call0_v7 : Ref sig .tc := ⟨.hbm, 140, rfl⟩
abbrev main_call5_call0_cst_1 : Ref sig .tc := ⟨.hbm, 141, rfl⟩
abbrev main_call5_call0_v8 : Ref sig .tc := ⟨.hbm, 142, rfl⟩
abbrev main_call5_call0_cst_2 : Ref sig .tc := ⟨.hbm, 143, rfl⟩
abbrev main_call5_call0_v9 : Ref sig .tc := ⟨.hbm, 144, rfl⟩
abbrev main_call5_call0_v10 : Ref sig .tc := ⟨.hbm, 145, rfl⟩
abbrev main_call5_call0_v11 : Ref sig .tc := ⟨.hbm, 146, rfl⟩
abbrev main_call5_call0_cst_3 : Ref sig .tc := ⟨.hbm, 147, rfl⟩
abbrev main_call5_call0_v12 : Ref sig .tc := ⟨.hbm, 148, rfl⟩
abbrev main_call5_call0_cst_4 : Ref sig .tc := ⟨.hbm, 149, rfl⟩
abbrev main_call5_call0_call0_v0 : Ref sig .tc := ⟨.hbm, 150, rfl⟩
abbrev main_call5_call0_call0_v1 : Ref sig .tc := ⟨.hbm, 151, rfl⟩
abbrev main_call5_v0 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_cst_15 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_cst_16 : Ref sig .tc := ⟨.hbm, 168, rfl⟩
abbrev main_v87 : Ref sig .tc := ⟨.hbm, 169, rfl⟩
abbrev main_cst_17 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_18 : Ref sig .tc := ⟨.hbm, 175, rfl⟩
abbrev main_call6_v0 : Ref sig .tc := ⟨.hbm, 176, rfl⟩
abbrev main_call6_v1 : Ref sig .tc := ⟨.hbm, 177, rfl⟩
abbrev main_v92 : Ref sig .tc := ⟨.hbm, 178, rfl⟩
abbrev main_cst_19 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_20 : Ref sig .tc := ⟨.hbm, 185, rfl⟩
abbrev main_v98 : Ref sig .tc := ⟨.hbm, 186, rfl⟩
abbrev main_cst_21 : Ref sig .tc := ⟨.hbm, 187, rfl⟩
abbrev main_v99 : Ref sig .tc := ⟨.hbm, 188, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  shapeCasts_S2x4096_S8192 : S2x4096.ShapeCasts S8192
  shapeCasts_S2x4096x10_S8192x10 : S2x4096x10.ShapeCasts S8192x10
  bcast_S8192x10_S8192x10x1_0_1 : S8192x10.BroadcastsInDim S8192x10x1 (![0, 1] : Fin 2 → Fin S8192x10x1.rank)
  bcast_S100_S1x1x100_2 : S100.BroadcastsInDim S1x1x100 (![2] : Fin 1 → Fin S1x1x100.rank)
  bcast_S8192x10x1_S8192x10x100_0_1_2 : S8192x10x1.BroadcastsInDim S8192x10x100 (![0, 1, 2] : Fin 3 → Fin S8192x10x100.rank)
  bcast_S1x1x100_S8192x10x100_0_1_2 : S1x1x100.BroadcastsInDim S8192x10x100 (![0, 1, 2] : Fin 3 → Fin S8192x10x100.rank)
  reducesTo_S8192x10x100_S8192x100_d1 : S8192x10x100.ReducesTo [1] S8192x100
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x8192_1 : S8192.BroadcastsInDim S8192x8192 (![1] : Fin 1 → Fin S8192x8192.rank)
  reducesTo_S100x256_S100_d1 : S100x256.ReducesTo [1] S100
  bcast_S100_S100x1_0 : S100.BroadcastsInDim S100x1 (![0] : Fin 1 → Fin S100x1.rank)
  bcast_S_S100x1 : S_.BroadcastsInDim S100x1 (![] : Fin 0 → Fin S100x1.rank)
  bcast_S100x1_S100x256_0_1 : S100x1.BroadcastsInDim S100x256 (![0, 1] : Fin 2 → Fin S100x256.rank)
  transposes_S100x256_S256x100_1_0 : S100x256.Transposes [1, 0] S256x100
  bcast_S_S100x100 : S_.BroadcastsInDim S100x100 (![] : Fin 0 → Fin S100x100.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S8192x8192_S8192x8192x1_0_1 : S8192x8192.BroadcastsInDim S8192x8192x1 (![0, 1] : Fin 2 → Fin S8192x8192x1.rank)
  concatenates_S8192x8192x1_S8192x8192x1_S8192x8192x2_d2 : Shape.Concatenates [S8192x8192x1, S8192x8192x1] S8192x8192x2 2
  reducesTo_S8192x8192_S8192_d1 : S8192x8192.ReducesTo [1] S8192
  bcast_S_S4096 : S_.BroadcastsInDim S4096 (![] : Fin 0 → Fin S4096.rank)
  concatenates_S4096_S4096_S8192_d0 : Shape.Concatenates [S4096, S4096] S8192 0
  reducesTo_S8192x8192_S_d0_1 : S8192x8192.ReducesTo [0, 1] S_
  reducesTo_S8192_S_d0 : S8192.ReducesTo [0] S_
  dot_S8192x256_S256x8192_S8192x8192_1_0_0_1_n_n_wf : DotDims.WF S8192x256 S256x8192 S8192x8192 [1] [0] [0] [1] [] []
  gather_S8192x100_S8192x1_S8192x8192_0_1_n_n_1_1_81921_wf : GatherDims.WF S8192x100 S8192x1 S8192x8192 [0] [1] [] [1] [] 1 ![8192, 1]
  dot_S100x256_S256x100_S100x100_1_0_0_1_n_n_wf : DotDims.WF S100x256 S256x100 S100x100 [1] [0] [0] [1] [] []
  gather_S100x100_S8192x8192x2_S8192x8192_n_01_n_n_01_2_11_wf : GatherDims.WF S100x100 S8192x8192x2 S8192x8192 [] [0, 1] [] [0, 1] [] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x100_S8192x1_S8192x8192_0_1_n_n_1_1_81921 : GatherDims S8192x100 S8192x1 S8192x8192 where
  offsetDims := [0]
  collapsedSliceDims := [1]
  operandBatchingDims := []
  startIndicesBatchingDims := []
  startIndexMap := [1]
  indexVectorDim := 1
  sliceSizes := ![8192, 1]
  wf := gather_S8192x100_S8192x1_S8192x8192_0_1_n_n_1_1_81921_wf
def dot_S100x256_S256x100_S100x100_1_0_0_1_n_n : DotDims S100x256 S256x100 S100x100 where
  lhsContracting := [1]
  rhsContracting := [0]
  lhsNonContracting := [0]
  rhsNonContracting := [1]
  lhsBatch := []
  rhsBatch := []
  wf := dot_S100x256_S256x100_S100x100_1_0_0_1_n_n_wf
def gather_S100x100_S8192x8192x2_S8192x8192_n_01_n_n_01_2_11 : GatherDims S100x100 S8192x8192x2 S8192x8192 where
  offsetDims := []
  collapsedSliceDims := [0, 1]
  operandBatchingDims := []
  startIndicesBatchingDims := []
  startIndexMap := [0, 1]
  indexVectorDim := 2
  sliceSizes := ![1, 1]
  wf := gather_S100x100_S8192x8192x2_S8192x8192_n_01_n_n_01_2_11_wf

class Facts : Prop extends Facts₀ where

variable [Facts]
-- ==== Proof.KILaunchA.lean ====
/-
  The launch of a pipeline two of whose windows read one array. The buffers behind the five windows' arrays are four;
  the shared array's full share is halved between its two windows when the region is entered and the halves rejoin when
  it is left. The unscoped buffers held at a valuation are the arrays at it and the bypassing buffers at it, and the host
  lines after the region run within them, writing no array.
-/
import proofs.«427632_j79637283602625_3_alg».proof.Proof.Gen.KernelIdeal.Launch
import proofs.«427632_j79637283602625_3_alg».proof.Proof.Gen.KernelIdeal.Points
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers behind the five windows' arrays are four: the first two windows read one array. -/
theorem arrImage : Finset.univ.image (Pipeline.arrRef spec0) = [main_v109, main_v107, main_v108, main_v116].toFinset := by decide

/-- The four buffers behind the arrays, one by one. -/
theorem arrBufs_explicit (c : Dev nD) (Vx : (b : Ref sig .tc) → Buf (Elt F) ((c.tc : Thread nD τ).loc b)) :
    (Pipeline.arrBufs spec0 c Vx : sProp 𝕄)
      = iprop((((c.tc : Thread nD τ).loc main_v109) ↦{fullShare} Vx main_v109) ∗ (((c.tc : Thread nD τ).loc main_v107) ↦{fullShare} Vx main_v107)
          ∗ (((c.tc : Thread nD τ).loc main_v108) ↦{fullShare} Vx main_v108) ∗ (((c.tc : Thread nD τ).loc main_v116) ↦{fullShare} Vx main_v116)) := by
  unfold Pipeline.arrBufs
  rw [Idealize.SL.BI.bigSep_eq_bigSepL_of_eq _ arrImage (by decide)]
  rfl

/-- The five windows' arrays, one by one: the first two windows hold the two halves of one array's share. -/
theorem arrays_explicit {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fx : (w : Fin cfg0.W) → Buf (Elt F) ((cfg0.win w).arr.view.loc (c.tc : Thread nD τ))) :
    (dat.arrays Fx : sProp 𝕄)
      = iprop((((c.tc : Thread nD τ).loc main_v109) ↦{fullShare.left} Fx 0) ∗ (((c.tc : Thread nD τ).loc main_v109) ↦{fullShare.right} Fx 1)
          ∗ (((c.tc : Thread nD τ).loc main_v107) ↦{fullShare} Fx 2) ∗ (((c.tc : Thread nD τ).loc main_v108) ↦{fullShare} Fx 3)
          ∗ (((c.tc : Thread nD τ).loc main_v116) ↦{fullShare} Fx 4)) := by
  unfold Dat.arrays
  rw [bigSep_W0]
  rw [show dat.share 0 = fullShare.left from hq0, show dat.share 1 = fullShare.right from hq1, show dat.share 2 = fullShare from hq2,
    show dat.share 3 = fullShare from hq3, show dat.share 4 = fullShare from rfl]
  rw [(arr_whole0 0).set_eq_univ, (arr_whole0 2).set_eq_univ, (arr_whole0 3).set_eq_univ, (arr_whole0 4).set_eq_univ]

/-- The whole buffers dealt to the windows: the shared array's share is halved between its two windows. -/
theorem arrBufs_split {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vx : (b : Ref sig .tc) → Buf (Elt F) ((c.tc : Thread nD τ).loc b))
    (Fx : (w : Fin cfg0.W) → Buf (Elt F) ((cfg0.win w).arr.view.loc (c.tc : Thread nD τ))) (hF : ∀ w, Fx w = Vx (Pipeline.arrRef spec0 w)) :
    (Pipeline.arrBufs spec0 c Vx : sProp 𝕄) ⊢ dat.arrays Fx := by
  rw [arrBufs_explicit, arrays_explicit dat hq0 hq1 hq2 hq3, hF 0, hF 1, hF 2, hF 3, hF 4]
  iintro ⟨H0, H2, H3, H4⟩
  ihave H0 := (pointsTo_share (PosShare.mem_left_op_right fullShare)).1 $$ H0
  icases H0 with ⟨Hl, Hr⟩
  isplitl [Hl]; · iexact Hl
  isplitl [Hr]; · iexact Hr
  isplitl [H2]; · iexact H2
  isplitl [H3]; · iexact H3
  iexact H4

/-- And back: the two halves of the shared array, at the same contents, rejoin. -/
theorem arrays_join {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vx : (b : Ref sig .tc) → Buf (Elt F) ((c.tc : Thread nD τ).loc b))
    (Fx : (w : Fin cfg0.W) → Buf (Elt F) ((cfg0.win w).arr.view.loc (c.tc : Thread nD τ))) (hF : ∀ w, Fx w = Vx (Pipeline.arrRef spec0 w)) :
    dat.arrays Fx ⊢ (Pipeline.arrBufs spec0 c Vx : sProp 𝕄) := by
  rw [arrBufs_explicit, arrays_explicit dat hq0 hq1 hq2 hq3, hF 0, hF 1, hF 2, hF 3, hF 4]
  iintro ⟨Hl, Hr, H2, H3, H4⟩
  isplitl [Hl Hr]
  · iapply (pointsTo_share (PosShare.mem_left_op_right fullShare)).2
    isplitl [Hl]; · iexact Hl
    iexact Hr
  isplitl [H2]; · iexact H2
  isplitl [H3]; · iexact H3
  iexact H4

section Launch

variable (V₀ : Dev nD → Valuation τ sig (Elt F))
variable (dats : (p : Fin 1) → (c : Dev nD) → Dat τ (Elt F) Unit ℕ (UR sig nD τ) ℕ (cfgs p) c)

/-- What the core's buffers hold when the region is left: the output array as the write-backs leave it, every other
    buffer as the region found it. -/
def exitVal (c : Dev nD) : Valuation τ sig (Elt F) :=
  Function.update (V₀ c) (Proc.devRef .tc main_v116) ((dats 0 c).arrAt 4 cfg0.N)

theorem exitVal_out (c : Dev nD) : exitVal V₀ dats c (Proc.devRef .tc main_v116) = (dats 0 c).arrAt 4 cfg0.N := by
  unfold exitVal; rw [Function.update_self]

theorem exitVal_of_ne (c : Dev nD) (b : Ref sig .tc) (hb : b ≠ main_v116) : exitVal V₀ dats c (Proc.devRef .tc b) = V₀ c (Proc.devRef .tc b) := by
  unfold exitVal; rw [Function.update_of_ne (StableHlo.devRef_ne_of_ne hb)]

/-- The unscoped buffers held at a valuation are the windows' arrays at it and the bypassing buffers at it. -/
theorem held_eq (c : Dev nD) (W : Valuation τ sig (Elt F)) :
    (StableHlo.held (c.tc : Thread nD τ) (Pipeline.ucRefs τ sig) W : sProp 𝕄)
      = iprop((Pipeline.arrBufs spec0 c (fun b => W (Proc.devRef .tc b)) : sProp 𝕄) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs (0 : Fin 1) winFacts₀0.arr_unscoped c _

/-- The bypassing buffers read the exit valuation where they read the entry one. -/
theorem rest_exit (c : Dev nD) :
    (Pipeline.unscopedRest spec0 c (fun b => exitVal V₀ dats c (Proc.devRef .tc b)) : sProp 𝕄)
      = Pipeline.unscopedRest spec0 c (fun b => V₀ c (Proc.devRef .tc b)) := by
  unfold Pipeline.unscopedRest
  exact bigSep_congr fun b hb => by
    dsimp only
    rw [exitVal_of_ne V₀ dats c b fun e => (Finset.mem_sdiff.mp hb).2 (Finset.mem_image.mpr ⟨4, Finset.mem_univ _, e ▸ rfl⟩)]

variable (hA : ∀ c w, (dats 0 c).A w = V₀ c (Proc.devRef .tc (Pipeline.arrRef spec0 w)))

include hA in
/-- Each array, after every write-back, is what the exit valuation reads: an input as the region found it. -/
theorem arrAt_exit (c : Dev nD) (w : Fin cfg0.W) :
    (dats 0 c).arrAt w cfg0.N = exitVal V₀ dats c (Proc.devRef .tc (Pipeline.arrRef spec0 w)) := by
  fin_cases w
  · exact ((dats 0 c).arrAt_in 0 rfl _).trans ((hA c 0).trans (exitVal_of_ne V₀ dats c _ (by decide)).symm)
  · exact ((dats 0 c).arrAt_in 1 rfl _).trans ((hA c 1).trans (exitVal_of_ne V₀ dats c _ (by decide)).symm)
  · exact ((dats 0 c).arrAt_in 2 rfl _).trans ((hA c 2).trans (exitVal_of_ne V₀ dats c _ (by decide)).symm)
  · exact ((dats 0 c).arrAt_in 3 rfl _).trans ((hA c 3).trans (exitVal_of_ne V₀ dats c _ (by decide)).symm)
  · exact (exitVal_out V₀ dats c).symm

end Launch

/-! ## The lines after the region -/

theorem hostOps1_fresh : (hostOps1 : List (HloOp τ sig (Elt F))).Forall fun op => op.fresh = ∅ := by
  simp only [List.Forall]; repeat' constructor

/-- No line after the region writes an array of the pipeline: each writes its own result buffer. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option backward.isDefEq.respectTransparency.types false in
/-- The lines after the region, run within the unscoped buffers from any contents. -/
theorem tail_run (c : Dev nD) (W : Valuation τ sig (Elt F)) (Q' : PUnit → sProp 𝕄) :
    iprop((iprop(StableHlo.held (c.tc : Thread nD τ) (Pipeline.ucRefs τ sig) (StableHlo.after hostOps1 W)) -∗ Q' ⟨⟩)
        ∗ boundary (c.tc : Thread nD τ) ∗ StableHlo.held (c.tc : Thread nD τ) (Pipeline.ucRefs τ sig) W)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have h := Pipeline.wp_seqs_then (Ix := Unit) (Name := ℕ) (U := UR sig nD τ) (Lvl := ℕ) (fun q => (cfgs q).toPCfg (Val := Elt F)) defs₀ Variants.none c
    (Pipeline.ucRefs τ sig) [] (K := Q') [hostOps1]
    (fun ops ho op h => by
      rw [List.mem_singleton] at ho; subst ho
      exact Pipeline.sub_ucRefs op ((List.forall_iff_forall_mem.mp hostOps1_sub) op h))
    (fun ops ho op h => by
      rw [List.mem_singleton] at ho; subst ho
      exact (List.forall_iff_forall_mem.mp hostOps1_fresh) op h) W
  rw [List.flatten_cons, List.flatten_nil, List.append_nil, List.map_cons, List.map_nil, List.append_nil] at h
  iintro ⟨Hk, Hb⟩
  iapply h $$ Hb
  iintro Hb
  rw [Pipeline.chain_nil, wp_pure]
  imodintro
  iapply Hk
  icases Hb with ⟨-, H⟩
  iexact H

end Cert.KernelIdeal.Hand

end
-- ==== Proof.KILaunch.lean ====
/-
  The run of a program that is host lines, one launch of a pipeline two of whose windows read one array, and host lines.
  The region rule is entered with the shared array's full share halved between its two windows; at the region's exit the
  halves, which hold the same contents, rejoin, the lines after the region run within all the unscoped buffers from the exit
  contents, and the final memory is read off: every array as the write-backs leave it, every other unscoped buffer as those
  lines leave it.
-/
import proofs.«427632_j79637283602625_3_alg».proof.Proof.KILaunchA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The run of @main: host lines, the region with two windows on one array, host lines -/

section Run

variable (m : (ℓ : Loc nD τ sig) → Buf (Elt F) ℓ) (ρ : Dev nD → PrngReg)
variable (mainP : Dev nD → Prog (TpuEff nD τ sig (Elt F) (Pipeline.Sig Λ₀ (Fin 1) fun p => ((cfgs p).toPCfg (Val := Elt F)).Adm) .tc) PUnit)
variable (V₀ : Dev nD → Valuation τ sig (Elt F))
variable (dats : (p : Fin 1) → (c : Dev nD) → Dat τ (Elt F) Unit ℕ (UR sig nD τ) ℕ (cfgs p) c)

/-- Each array, after every write-back, is also what the lines after the region leave in it: they write none. -/
theorem arrAt_after (hA : ∀ c w, (dats 0 c).A w = V₀ c (Proc.devRef .tc (Pipeline.arrRef spec0 w))) (c : Dev nD) (w : Fin cfg0.W) :
    (dats 0 c).arrAt w cfg0.N = StableHlo.after hostOps1 (exitVal V₀ dats c) (Proc.devRef .tc (Pipeline.arrRef spec0 w)) :=
  (arrAt_exit V₀ dats hA c w).trans (StableHlo.after_of_forall_not_mem hostOps1 _ fun op hop => hostOps1_keeps op hop w).symm

/-- At the region's exit the arrays, each after every write-back, and the bypassing buffers, as the region found them, are the
    unscoped buffers held at the exit valuation: the halves of the shared array rejoin. -/
theorem exit_join (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V₀ c (Proc.devRef .tc (Pipeline.arrRef spec0 w))) (c : Dev nD) :
    iprop((dats 0 c).arrays ((dats 0 c).arrAt · cfg0.N) ∗ Pipeline.unscopedRest spec0 c (fun b => V₀ c (Proc.devRef .tc b)))
      ⊢ (StableHlo.held (c.tc : Thread nD τ) (Pipeline.ucRefs τ sig) (exitVal V₀ dats c) : sProp 𝕄) := by
  rw [held_eq, rest_exit]
  iintro ⟨Ha, Hz⟩
  isplitl [Ha]
  · iapply (arrays_join (dats 0 c) (hq0 c) (hq1 c) (hq2 c) (hq3 c) _ _ (arrAt_exit V₀ dats hA c)); iexact Ha
  iexact Hz

/-- After the lines that follow the region the unscoped buffers split again: the arrays, unwritten, and the bypassing buffers
    at what the lines leave. -/
theorem after_split (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V₀ c (Proc.devRef .tc (Pipeline.arrRef spec0 w))) (c : Dev nD) :
    (StableHlo.held (c.tc : Thread nD τ) (Pipeline.ucRefs τ sig) (StableHlo.after hostOps1 (exitVal V₀ dats c)) : sProp 𝕄)
      ⊢ iprop((dats 0 c).arrays ((dats 0 c).arrAt · cfg0.N)
          ∗ Pipeline.unscopedRest spec0 c (fun b => StableHlo.after hostOps1 (exitVal V₀ dats c) (Proc.devRef .tc b))) := by
  rw [held_eq]
  iintro ⟨Ha, Hz⟩
  isplitl [Ha]
  · iapply (arrBufs_split (dats 0 c) (hq0 c) (hq1 c) (hq2 c) (hq3 c) (fun b => StableHlo.after hostOps1 (exitVal V₀ dats c) (Proc.devRef .tc b)) _ (arrAt_after V₀ dats hA c)); iexact Ha
  iexact Hz

/-- What the run leaves: every array of the pipeline at what the write-backs make of it, every other unscoped buffer at what
    the lines after the region compute from the region's exit. -/
def RunPost (r : PUnit × MemSt nD τ sig (Elt F)) : Prop :=
  ∀ c : Dev nD, (∀ w, r.2.mem ((spec0 w).arr.view.loc (c.tc : Thread nD τ)) = (dats 0 c).arrAt w cfg0.N)
    ∧ ∀ b ∈ Pipeline.restRefs sig spec0, r.2.mem ((c.tc : Thread nD τ).loc b) = StableHlo.after hostOps1 (exitVal V₀ dats c) (Proc.devRef .tc b)

set_option backward.isDefEq.respectTransparency.types false in
set_option maxHeartbeats 1600000 in
/-- Every weakly fair execution of @main ends, in a memory as `RunPost` says. The shared array's full share is halved
    between its two windows at the region's entry and rejoined at its exit, where the lines after the region read it whole. -/
theorem run_region
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V₀ c (Proc.devRef .tc (Pipeline.arrRef spec0 w)))
    (hin : ∀ c, Pipeline.ΦA spec0 c ⊢ (dats 0 c).Φ 0) (hout : ∀ c, (dats 0 c).Φ (Fin.last cfg0.N) ⊢ Pipeline.ΦA spec0 c)
    (hbody : ∀ c, Pipeline.BodyObligationLoose (dats 0 c) defs₀ Variants.none () Set.univ)
    (hmain : Pipeline.HMainK (Ix := Unit) (Name := ℕ) (U := UR sig nD τ) (Lvl := ℕ) cfgs 0 defs₀ Variants.none m mainP
      (fun c b => V₀ c (Proc.devRef .tc b)) (fun _ => Pipeline.chain [StableHlo.seq hostOps1])) :
    θ_run (Pipeline.defs (fun q => (cfgs q).toPCfg (Val := Elt F)) defs₀) (onTc (τ := τ) mainP) (s₀ m ρ) (RunPost V₀ dats) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ mainP
    (fun _ => Pipeline.chain [StableHlo.seq hostOps1]) hbody block_pos0 arr_whole0 stage_whole0 howed
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => arrBufs_split (dats 0 c) (hq0 c) (hq1 c) (hq2 c) (hq3 c) _ _ fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => V₀ c (Proc.devRef .tc b)))
    (Z' := fun c => Pipeline.unscopedRest (Ix := Unit) (Name := ℕ) (U := UR sig nD τ) (Lvl := ℕ) spec0 c
      (fun b => StableHlo.after hostOps1 (exitVal V₀ dats c) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      iintro ⟨Hk, Hb, Ha, Hz⟩
      iapply (tail_run c (exitVal V₀ dats c) Q')
      isplitl [Hk]
      · iintro Hh
        iapply Hk
        iapply (after_split V₀ dats hq0 hq1 hq2 hq3 hA c)
        iexact Hh
      isplitl [Hb]; · iexact Hb
      iapply (exit_join V₀ dats hq0 hq1 hq2 hq3 hA c)
      isplitl [Ha] <;> iassumption)
    (QY := fun c s => ∀ b ∈ Pipeline.restRefs sig spec0, s.mem ((c.tc : Thread nD τ).loc b) = StableHlo.after hostOps1 (exitVal V₀ dats c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (exitVal V₀ dats c) (Proc.devRef .tc b)) s')
      isplitl [HU] <;> iassumption)
    (hQ := fun s h c => ⟨(h c).1, (h c).2.2⟩)

end Run

end Cert.KernelIdeal.Hand

end
-- ==== Proof.KIRegionDef.lean ====
/-
  What the launch leaves in the kernel's output array, as a pure function of the three arrays it reads.
  Grid point (bi, bj) loads row-block bi of the stacked unit rows and of the masked table, row-block bj of the unit rows and of the
  one-hot prototype matrix, and adds its scalar (broadcast over an 8 × 128 tile) to block bi's accumulator, which it first
  clears when bj = 0. So block bi of the output ends at the eight-fold accumulation over bj = 0 … 7, started from the cleared tile.
-/
import proofs.«427632_j79637283602625_3_alg».proof.Proof.Gen.KernelIdeal.Skeleton
import Idealize.ShloMosaic.Lib.ValueIdx

noncomputable section

namespace Cert.KernelIdeal.Hand

open Cert.KernelIdeal Cert.KernelIdeal.Gen Idealize.ShloMosaic Idealize.ShloMosaic.ValueIdx
open Cert.KernelIdeal.Facts₀ Cert.KernelIdeal.Facts

variable {F : FTy → Type} [FloatOps F] [Named F] [Cert.KernelIdeal.Facts]

/-- Row-block `b` (1024 rows) of an array of 8192 rows and `n` columns. -/
def rowBlock {n : ℕ} {φ : EltTy} (A : (⟨2, ![8192, n]⟩ : Shape).Idx → Elt F φ) (b : Fin 8) :
    (⟨2, ![1024, n]⟩ : Shape).Idx → Elt F φ :=
  fun y => A (ix2 (⟨b.val * 1024 + (y 0).val, by have := (y 0).isLt; have := b.isLt; simp only [Matrix.cons_val_zero] at *; omega⟩ : Fin 8192) (⟨(y 1).val, by have := (y 1).isLt; simpa using this⟩ : Fin n))

/-- Block `bi`'s accumulator after the column steps 0 … n. -/
def accAt (o : (⟨S8192x256, .bf16⟩ : BufTy).Contents (Elt F)) (v : (⟨S8192x100, .f32⟩ : BufTy).Contents (Elt F))
    (oh : (⟨S8192x100, .bf16⟩ : BufTy).Contents (Elt F)) (bi : Fin 8) : (n : ℕ) → n < 8 → Vec F S1x8x128 .f32
  | 0, _ => k0_pay2 (rowBlock o bi) (rowBlock o 0) (rowBlock oh 0) (rowBlock v bi) (k0_pay1 (F := F))
  | n + 1, h => k0_pay2 (rowBlock o bi) (rowBlock o ⟨n + 1, h⟩) (rowBlock oh ⟨n + 1, h⟩) (rowBlock v bi) (accAt o v oh bi n (by omega))

/-- The output array after the launch. -/
def regionOut (o : (⟨S8192x256, .bf16⟩ : BufTy).Contents (Elt F)) (v : (⟨S8192x100, .f32⟩ : BufTy).Contents (Elt F))
    (oh : (⟨S8192x100, .bf16⟩ : BufTy).Contents (Elt F)) : (⟨S8x8x128, .f32⟩ : BufTy).Contents (Elt F) :=
  fun idx => accAt o v oh (⟨(idx 0).val, by have := (idx 0).isLt; simpa using this⟩ : Fin 8) 7 (by norm_num)
    (ix3 (0 : Fin 1) (⟨(idx 1).val, by have := (idx 1).isLt; simpa using this⟩ : Fin 8) (⟨(idx 2).val, by have := (idx 2).isLt; simpa using this⟩ : Fin 128))

end Cert.KernelIdeal.Hand

end
-- ==== Proof.KIBodyDef.lean ====
/-
  The launch's proof data. The region is entered with every array as the host operations before it leave it; grid point
  t = 8·bi + bj reads row-block bi of the unit rows and of the masked table, row-block bj of the unit rows and of the one-hot
  matrix, and leaves in the output's staging buffer the accumulator of row bi after column step bj: the point's contribution
  added to the cleared tile when bj = 0, else to what the point before left. The unit rows are one array read through two
  windows, each holding half of it.
-/
import proofs.«427632_j79637283602625_3_alg».proof.Proof.Gen.KernelIdeal.Launch
import proofs.«427632_j79637283602625_3_alg».proof.Proof.Gen.KernelIdeal.Skeleton
import proofs.«427632_j79637283602625_3_alg».proof.Proof.Gen.KernelIdeal.Points
import proofs.«427632_j79637283602625_3_alg».proof.Proof.KIRegionDef
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The arrays at the region's entry -/

/-- Core `c`'s buffer contents when the region is entered: after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: rows bi of the unit rows, rows bj of the unit rows,
    rows bi of the masked table, rows bj of the one-hot matrix. -/
abbrev blk0 (c : Dev nD) (t : Fin cfg0.N) : Vec F S1024x256 .bf16 := iblk m c 0 t
abbrev blk1 (c : Dev nD) (t : Fin cfg0.N) : Vec F S1024x256 .bf16 := iblk m c 1 t
abbrev blk2 (c : Dev nD) (t : Fin cfg0.N) : Vec F S1024x100 .f32 := iblk m c 2 t
abbrev blk3 (c : Dev nD) (t : Fin cfg0.N) : Vec F S1024x100 .bf16 := iblk m c 3 t

/-! ## What the output's staging buffer holds after each point -/

/-- THE ACCUMULATION: at the first point of a row of the grid (t ≡ 0 mod 8) the point's contribution over the cleared tile,
    elsewhere over what the point before left. -/
def outsAt0 (c : Dev nD) : (n : ℕ) → n < cfg0.N → Vec F S1x8x128 .f32
  | 0, hn => k0_pay2 (blk0 m c ⟨0, hn⟩) (blk1 m c ⟨0, hn⟩) (blk3 m c ⟨0, hn⟩) (blk2 m c ⟨0, hn⟩) (k0_pay1 (F := F))
  | n + 1, hn =>
    if (n + 1) % 8 = 0 then
      k0_pay2 (blk0 m c ⟨n + 1, hn⟩) (blk1 m c ⟨n + 1, hn⟩) (blk3 m c ⟨n + 1, hn⟩) (blk2 m c ⟨n + 1, hn⟩) (k0_pay1 (F := F))
    else
      k0_pay2 (blk0 m c ⟨n + 1, hn⟩) (blk1 m c ⟨n + 1, hn⟩) (blk3 m c ⟨n + 1, hn⟩) (blk2 m c ⟨n + 1, hn⟩) (outsAt0 c n (Nat.lt_of_succ_lt hn))

/-- At a row's first point: over the cleared tile. -/
theorem outsAt0_reset (c : Dev nD) (t : Fin cfg0.N) (h : t.val % 8 = 0) :
    outsAt0 m c t.val t.isLt = k0_pay2 (blk0 m c t) (blk1 m c t) (blk3 m c t) (blk2 m c t) (k0_pay1 (F := F)) := by
  obtain ⟨n, hn⟩ := t
  cases n with
  | zero => rfl
  | succ n => exact (if_pos h).trans rfl

/-- Elsewhere: over what the point before left. -/
theorem outsAt0_acc (c : Dev nD) (t : Fin cfg0.N) (h : ¬t.val % 8 = 0) :
    outsAt0 m c t.val t.isLt = k0_pay2 (blk0 m c t) (blk1 m c t) (blk3 m c t) (blk2 m c t)
      (outsAt0 m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The proof data of the one pipeline on core `c`: the arrays as the region finds them; after the body at point `t` each
    input's buffer at its block and the output's at `outsAt0`; the invariant the scoped rest; nothing owed; the unit rows'
    array held half by each of its two windows, the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q w := if w = 0 then fullShare.left else if w = 1 then fullShare.right else fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

/-- The shares: the unit rows' array half to each of its windows. -/
theorem q0 (c : Dev nD) : (dats m 0 c).q 0 = fullShare.left := rfl
theorem q1 (c : Dev nD) : (dats m 0 c).q 1 = fullShare.right := rfl
theorem q2 (c : Dev nD) : (dats m 0 c).q 2 = fullShare := rfl
theorem q3 (c : Dev nD) : (dats m 0 c).q 3 = fullShare := rfl
theorem owed_eq (c : Dev nD) (t) : (dats m 0 c).owed t = 0 := rfl
theorem Phi_eq (c : Dev nD) (t) : (dats m 0 c).Φ t = Pipeline.ΦA spec0 c := rfl

end Cert.KernelIdeal.Hand

end
-- ==== Proof.KIBodyA.lean ====
/-
  The body at a row's first grid point (bj = 0): it clears the output's staging buffer, reads the four input blocks and the
  cleared buffer, and stores the point's contribution added to the cleared tile.
-/
import proofs.«427632_j79637283602625_3_alg».proof.Proof.KIBodyDef
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The body's branch condition from the grid coordinates: the column coordinate is zero. -/
abbrev cond0_0 (i : grid0.Coords) : Prop :=
  (Scalar.cmpi .ne (Scalar.extui (Scalar.cmpi .eq (BitVec.ofNat 32 (i 1).val) 0#32)) 0#32) = 1#1

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-block rectangle at zero offsets covers the block, whatever was stored before. -/
theorem cover_cons_unit_zero {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

set_option maxHeartbeats 1000000 in
/-- On whole staging memrefs holding the input blocks, the output's at anything: the body runs to the inputs as they were and
    the output's buffer at the point's contribution over the cleared tile. -/
theorem kernelRun0_A (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x100 .f32) (harg4 : arg4.IsWhole) (arg5 : Memref sig .tc .vmem S1024x100 .bf16) (harg5 : arg5.IsWhole)
    (arg6 : Memref sig .tc .vmem S1x8x128 .f32) (harg6 : arg6.IsWhole)
    (hc0 : cond0_0 i)
    (x0 x1 : Vec F S1024x256 .bf16) (x2 : Vec F S1024x100 .f32) (x3 : Vec F S1024x100 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x3 x2 (k0_pay1 (F := F)))) -∗ K ⟨⟩))
      ⊢ wp frame (wpE (defs₀ (F := F)) Variants.none c none) E (cc0__denom_kernel i arg2 harg2 arg3 harg3 arg4 harg4 arg5 harg5 arg6 harg6) K := by
  simp only [cc0__denom_kernel_eq_skeleton]; unfold cc0__denom_kernel_skel
  unfold owns
  iintro ⟨⟨%f0, %hf0, H0⟩, ⟨%f1, %hf1, H1⟩, ⟨%f2, %hf2, H2⟩, ⟨%f3, %hf3, H3⟩, ⟨%dd, %fo, -, HO⟩, Hk⟩
  obtain rfl := harg2.eq_unread hf0; obtain rfl := harg3.eq_unread hf1; obtain rfl := harg4.eq_unread hf2
  obtain rfl := harg5.eq_unread hf3
  sl_exec (disch := exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HO
  ipureintro
  sl_unfold_words
  rw [View.read_writes_eq_canon _ _ _ (cover_cons_unit_zero hz3 _ _ _), View.canon_cons_unit_zero (S := S1x8x128) hz3,
    View.readCov_unit_zero (S := S1x8x128) _ hz3]
  simp only [View.readAt_eq_ld, harg2.read_unread, harg3.read_unread, harg4.read_unread, harg5.read_unread,
    View.ld_unit_zero (S := S1024x256) hz2, View.ld_unit_zero (S := S1024x100) hz2]

end Cert.KernelIdeal.Hand

end
-- ==== Proof.KIBodyB.lean ====
/-
  The body at a later grid point of a row (bj ≠ 0): it reads the four input blocks and the output's staging buffer as the
  point before left it, and stores the point's contribution added to that.
-/
import proofs.«427632_j79637283602625_3_alg».proof.Proof.KIBodyA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- On whole staging memrefs holding the input blocks and the accumulator so far: the body runs to the inputs as they were
    and the output's buffer at the point's contribution over the accumulator. -/
theorem kernelRun0_B (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x100 .f32) (harg4 : arg4.IsWhole) (arg5 : Memref sig .tc .vmem S1024x100 .bf16) (harg5 : arg5.IsWhole)
    (arg6 : Memref sig .tc .vmem S1x8x128 .f32) (harg6 : arg6.IsWhole)
    (hc0 : ¬cond0_0 i)
    (x0 x1 : Vec F S1024x256 .bf16) (x2 : Vec F S1024x100 .f32) (x3 : Vec F S1024x100 .bf16) (xo : Vec F S1x8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x3 x2 xo)) -∗ K ⟨⟩))
      ⊢ wp frame (wpE (defs₀ (F := F)) Variants.none c none) E (cc0__denom_kernel i arg2 harg2 arg3 harg3 arg4 harg4 arg5 harg5 arg6 harg6) K := by
  simp only [cc0__denom_kernel_eq_skeleton]; unfold cc0__denom_kernel_skel
  unfold owns
  iintro ⟨⟨%f0, %hf0, H0⟩, ⟨%f1, %hf1, H1⟩, ⟨%f2, %hf2, H2⟩, ⟨%f3, %hf3, H3⟩, ⟨%fo, %hfo, HO⟩, Hk⟩
  obtain rfl := harg2.eq_unread hf0; obtain rfl := harg3.eq_unread hf1; obtain rfl := harg4.eq_unread hf2
  obtain rfl := harg5.eq_unread hf3; obtain rfl := harg6.eq_unread hfo
  sl_exec (disch := exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HO
  ipureintro
  rw [View.read_writes_eq_canon _ _ _ (cover_cons_unit_zero hz3 _ _ _), View.canon_unit_zero hz3]
  simp only [View.readAt_eq_ld, harg2.read_unread, harg3.read_unread, harg4.read_unread, harg5.read_unread, harg6.read_unread,
    View.ld_unit_zero (S := S1024x256) hz2, View.ld_unit_zero (S := S1024x100) hz2, View.ld_unit_zero (S := S1x8x128) hz3]

end Cert.KernelIdeal.Hand

end
-- ==== Proof.KIBody.lean ====
/-
  The body of the launch at every grid point: from each window's staging buffer at what the pipeline hands it (the inputs at
  their blocks, the output's at anything at a row's first point and at the accumulator so far elsewhere) to the output's buffer
  at the point's contribution added in, the inputs untouched.
-/
import proofs.«427632_j79637283602625_3_alg».proof.Proof.KIBodyB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The staging memrefs at a point, and the branch condition in closed form -/

/-- Each window's current staging memref at point `t`, as the pipeline passes it to the body, and its wholeness. -/
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x100 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

/-- The column coordinate is zero exactly at the points ≡ 0 (mod 8): decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## What the body finds in each staging buffer -/

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-- The point before a later point of a row does not write the output's block back. -/
theorem noFlush_prev (t : Fin cfg0.N) (h : ¬t.val % 8 = 0) :
    (cfg0.win 4).flush ⟨t.val - 1, Nat.lt_of_le_of_lt (Nat.sub_le _ _) t.isLt⟩ = false := by
  rw [Bool.eq_false_iff]
  intro hf
  have h7 := (flush0_4 ⟨t.val - 1, Nat.lt_of_le_of_lt (Nat.sub_le _ _) t.isLt⟩).mp hf
  simp only at h7
  omega

/-- At a later point of a row the output's staging buffer holds the accumulator the point before left. -/
theorem before0_4 (c : Dev nD) (t : Fin cfg0.N) (h : ¬t.val % 8 = 0) (d) :
    (dats m 0 c).before 4 t d = outsAt0 m c (t.val - 1) (Nat.lt_of_le_of_lt (Nat.sub_le _ _) t.isLt) :=
  ((dats m 0 c).before_out_kept 4 rfl t (fun h0 => h (by rw [h0])) (noFlush_prev t h) (fun _ => rfl) (fun _ _ => rfl) d).trans
    (after0_4 m c _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; at a row's first point the output's buffer holds anything and
    the body leaves the point's contribution over the cleared tile, at a later point it holds the accumulator the point before
    left and the body leaves the contribution added to it; the invariant and what the core owes pass through unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  by_cases h0 : t.val % 8 = 0
  · rw [outsAt0_reset m c t h0]
    iintro ⟨HΦ, Ho, ⟨%d0, H0⟩, ⟨%d1, H1⟩, ⟨%d2, H2⟩, ⟨%d3, H3⟩, ⟨%d4, H4⟩⟩
    iapply (kernelRun0_A c (grid0.coords t) _ _ _ _ _ _ _ _ _ _ ((hcond0_0 t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t h0]
    rw [outsAt0_acc m c t h0]
    iintro ⟨HΦ, Ho, ⟨%d0, H0⟩, ⟨%d1, H1⟩, ⟨%d2, H2⟩, ⟨%d3, H3⟩, ⟨%d4, H4⟩⟩
    iapply (kernelRun0_B c (grid0.coords t) _ _ _ _ _ _ _ _ _ _ (fun h => h0 ((hcond0_0 t).mp h))
      (iblk m c 0 t) (iblk m c 1 t) (iblk m c 2 t) (iblk m c 3 t)
      (outsAt0 m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIArrAt.lean ====
/-
  What the launch leaves in the kernel's output array. The five windows' blocks at grid point t = 8·bi + bj are row-block bi
  (unit rows, masked table), row-block bj (unit rows, one-hot matrix) and block bi of the output; so the output's staging
  buffer after point 8·bi + n holds block bi's accumulator after column step n (induction on n), the block written back
  at 8·bi + 7 is the finished accumulator, and the eight written blocks tile the [8, 8, 128] array.
-/
import proofs.«427632_j79637283602625_3_alg».proof.Proof.KIBodyDef
import proofs.«427632_j79637283602625_3_alg».proof.Proof.KIRegionDef
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-! ## Where the windows' blocks sit in their arrays -/

open Idealize.ShloMosaic.ValueIdx

/-- The block indices of the five windows at every grid point: (t / 8, 0) for the row-block windows, (t % 8, 0) for the
    column-block windows, (t / 8, 0, 0) for the output. -/
theorem idx_facts : ∀ t : Fin cfg0.N,
    (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = t.val % 8 ∧ win0_3.index t 1 = 0)
    ∧ (win0_4.index t 0 = t.val / 8 ∧ win0_4.index t 1 = 0 ∧ win0_4.index t 2 = 0) :=
  (by decide +kernel : ∀ t : Fin grid0.N,
    (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = t.val % 8 ∧ win0_3.index t 1 = 0)
    ∧ (win0_4.index t 0 = t.val / 8 ∧ win0_4.index t 1 = 0 ∧ win0_4.index t 2 = 0))

/-- Window 0's block at point 8·bi + bj is row-block bi of the unit rows. -/
theorem blk0_eq (c : Dev nD) (t : Fin cfg0.N) (bi : Fin 8) (hb : t.val / 8 = bi.val) :
    blk0 m c t = rowBlock (V m c main_v109) bi := by
  have hi := (idx_facts t).1
  funext y
  unfold blk0 iblk rowBlock
  rw [View.read_apply]
  show V m c main_v109 _ = V m c main_v109 _
  congr 1
  funext a
  apply Fin.ext
  match a with
  | ⟨0, _⟩ => show win0_0.index t 0 * 1024 + 1 * (y 0).val = bi.val * 1024 + (y 0).val; rw [hi.1, hb]; omega
  | ⟨1, _⟩ => show win0_0.index t 1 * 256 + 1 * (y 1).val = (y 1).val; rw [hi.2]; omega

/-- Window 1's block there is row-block bj of the unit rows. -/
theorem blk1_eq (c : Dev nD) (t : Fin cfg0.N) (bj : Fin 8) (hb : t.val % 8 = bj.val) :
    blk1 m c t = rowBlock (V m c main_v109) bj := by
  have hi := (idx_facts t).2.1
  funext y
  unfold blk1 iblk rowBlock
  rw [View.read_apply]
  show V m c main_v109 _ = V m c main_v109 _
  congr 1
  funext a
  apply Fin.ext
  match a with
  | ⟨0, _⟩ => show win0_1.index t 0 * 1024 + 1 * (y 0).val = bj.val * 1024 + (y 0).val; rw [hi.1, hb]; omega
  | ⟨1, _⟩ => show win0_1.index t 1 * 256 + 1 * (y 1).val = (y 1).val; rw [hi.2]; omega

/-- Window 2's block there is row-block bi of the masked table. -/
theorem blk2_eq (c : Dev nD) (t : Fin cfg0.N) (bi : Fin 8) (hb : t.val / 8 = bi.val) :
    blk2 m c t = rowBlock (V m c main_v107) bi := by
  have hi := (idx_facts t).2.2.1
  funext y
  unfold blk2 iblk rowBlock
  rw [View.read_apply]
  show V m c main_v107 _ = V m c main_v107 _
  congr 1
  funext a
  apply Fin.ext
  match a with
  | ⟨0, _⟩ => show win0_2.index t 0 * 1024 + 1 * (y 0).val = bi.val * 1024 + (y 0).val; rw [hi.1, hb]; omega
  | ⟨1, _⟩ => show win0_2.index t 1 * 100 + 1 * (y 1).val = (y 1).val; rw [hi.2]; omega

/-- Window 3's block there is row-block bj of the one-hot matrix. -/
theorem blk3_eq (c : Dev nD) (t : Fin cfg0.N) (bj : Fin 8) (hb : t.val % 8 = bj.val) :
    blk3 m c t = rowBlock (V m c main_v108) bj := by
  have hi := (idx_facts t).2.2.2.1
  funext y
  unfold blk3 iblk rowBlock
  rw [View.read_apply]
  show V m c main_v108 _ = V m c main_v108 _
  congr 1
  funext a
  apply Fin.ext
  match a with
  | ⟨0, _⟩ => show win0_3.index t 0 * 1024 + 1 * (y 0).val = bj.val * 1024 + (y 0).val; rw [hi.1, hb]; omega
  | ⟨1, _⟩ => show win0_3.index t 1 * 100 + 1 * (y 1).val = (y 1).val; rw [hi.2]; omega

/-! ## The staging buffer after point 8·bi + n holds block bi's accumulator after column step n -/

theorem outsAt0_congr (c : Dev nD) {a b : ℕ} (e : a = b) (ha : a < cfg0.N) (hb : b < cfg0.N) :
    outsAt0 m c a ha = outsAt0 m c b hb := by subst e; rfl

theorem outsAt0_eq_accAt (c : Dev nD) (bi : Fin 8) : ∀ (n : ℕ) (hn : n < 8) (h : bi.val * 8 + n < cfg0.N),
    outsAt0 m c (bi.val * 8 + n) h = accAt (V m c main_v109) (V m c main_v107) (V m c main_v108) bi n hn
  | 0, hn, h => by
    have hd : (bi.val * 8 + 0) / 8 = bi.val := by omega
    have hm : (bi.val * 8 + 0) % 8 = (0 : Fin 8).val := by show _ = 0; omega
    refine (outsAt0_reset m c ⟨bi.val * 8 + 0, h⟩ (by show (bi.val * 8 + 0) % 8 = 0; omega)).trans ?_
    rw [blk0_eq m c _ bi hd, blk1_eq m c _ 0 hm, blk2_eq m c _ bi hd, blk3_eq m c _ 0 hm]
    rfl
  | n + 1, hn, h => by
    have hd : (bi.val * 8 + (n + 1)) / 8 = bi.val := by omega
    have hm : (bi.val * 8 + (n + 1)) % 8 = (⟨n + 1, hn⟩ : Fin 8).val := by show _ = n + 1; omega
    have hN : cfg0.N = 64 := N_0
    refine (outsAt0_acc m c ⟨bi.val * 8 + (n + 1), h⟩ (by show ¬(bi.val * 8 + (n + 1)) % 8 = 0; omega)).trans ?_
    rw [blk0_eq m c _ bi hd, blk1_eq m c _ ⟨n + 1, hn⟩ hm, blk2_eq m c _ bi hd, blk3_eq m c _ ⟨n + 1, hn⟩ hm,
      outsAt0_congr m c (show bi.val * 8 + (n + 1) - 1 = bi.val * 8 + n by omega) _ (by omega),
      outsAt0_eq_accAt c bi n (by omega)]
    rfl

/-! ## What is written back, and the array after the launch -/

/-- The output array's entry (b, y₁, y₂) is entry (0, y₁, y₂) of block b's finished accumulator. -/
theorem regionOut_apply (o : (⟨S8192x256, .bf16⟩ : BufTy).Contents (Elt F)) (v : (⟨S8192x100, .f32⟩ : BufTy).Contents (Elt F))
    (oh : (⟨S8192x100, .bf16⟩ : BufTy).Contents (Elt F)) (idx : S8x8x128.Idx) (b : Fin 8) (y : S1x8x128.Idx)
    (h0 : (idx 0).val = b.val) (h1 : (idx 1).val = (y 1).val) (h2 : (idx 2).val = (y 2).val) :
    regionOut o v oh idx = accAt o v oh b 7 (by norm_num) y := by
  unfold regionOut
  obtain rfl : b = ⟨(idx 0).val, by have := (idx 0).isLt; simpa using this⟩ := Fin.ext h0.symm
  refine congrArg (accAt o v oh _ 7 _) (funext fun a => Fin.ext ?_)
  match a with
  | ⟨0, _⟩ => have : (y 0).val < 1 := (y 0).isLt; show 0 = (y 0).val; omega
  | ⟨1, _⟩ => exact h1
  | ⟨2, _⟩ => exact h2

/-- The block written back at the last column step of row bi is block bi of that array. -/
theorem flushed_eq (c : Dev nD) (t : Fin cfg0.N) (hf : (cfg0.win 4).flush t = true) :
    (dats m 0 c).flushed 4 t
      = ((cfg0.win 4).blk t).view.read (Elt F) (regionOut (V m c main_v109) (V m c main_v107) (V m c main_v108)) := by
  have h7 : t.val % 8 = 7 := (flush0_4 t).mp hf
  have hN : cfg0.N = 64 := N_0
  have ht := t.isLt
  have hi := (idx_facts t).2.2.2.2
  have hbi : t.val / 8 < 8 := by omega
  show (cfg0.win 4).cut (grid0.coords t) ((dats m 0 c).after 4 t) = _
  rw [after0_4, outsAt0_congr m c (show t.val = (⟨t.val / 8, hbi⟩ : Fin 8).val * 8 + 7 by show t.val = t.val / 8 * 8 + 7; omega) t.isLt (by show t.val / 8 * 8 + 7 < cfg0.N; omega),
    outsAt0_eq_accAt m c ⟨t.val / 8, hbi⟩ 7 (by norm_num)]
  funext y
  rw [View.read_apply]
  refine (regionOut_apply _ _ _ _ ⟨t.val / 8, hbi⟩ _ ?_ ?_ ?_).symm
  · have : (y 0).val < 1 := (y 0).isLt
    show win0_4.index t 0 * 1 + 1 * (y 0).val = t.val / 8
    rw [hi.1]; omega
  · show win0_4.index t 1 * 8 + 1 * (y 1).val = (y 1).val
    rw [hi.2.1]; omega
  · show win0_4.index t 2 * 128 + 1 * (y 2).val = (y 2).val
    rw [hi.2.2]; omega

/-- THE VALUE: after the launch, block bi of the output array is the eight-fold accumulation over the column steps. -/
theorem arrAt_out (c : Dev nD) :
    (dats m 0 c).arrAt 4 cfg0.N = regionOut (V m c main_v109) (V m c main_v107) (V m c main_v108) :=
  (dats m 0 c).arrAt_eq_of_cover 4 _ (flushed_eq m c) fun i => by
    have hN : cfg0.N = 64 := N_0
    have h0 : (i 0 : Nat) < 8 := (i 0).isLt
    have h1 : (i 1 : Nat) < 8 := (i 1).isLt
    have h2 : (i 2 : Nat) < 128 := (i 2).isLt
    have hlt : (i 0 : Nat) * 8 + 7 < cfg0.N := by omega
    refine ⟨⟨(i 0 : Nat) * 8 + 7, hlt⟩, (flush0_4 _).mpr (by show ((i 0 : Nat) * 8 + 7) % 8 = 7; omega), ?_⟩
    have hi := (idx_facts ⟨(i 0 : Nat) * 8 + 7, hlt⟩).2.2.2.2
    show i ∈ ((View.whole main_v116).slice (win0_4.rect ⟨(i 0 : Nat) * 8 + 7, hlt⟩)).set
    rw [View.set_slice_whole, Rect.mem_set_unit]
    intro a
    match a with
    | ⟨0, _⟩ =>
      show win0_4.index ⟨(i 0 : Nat) * 8 + 7, hlt⟩ 0 * 1 ≤ (i 0 : Nat) ∧ (i 0 : Nat) < win0_4.index ⟨(i 0 : Nat) * 8 + 7, hlt⟩ 0 * 1 + 1
      rw [hi.1]; show ((i 0 : Nat) * 8 + 7) / 8 * 1 ≤ (i 0 : Nat) ∧ (i 0 : Nat) < ((i 0 : Nat) * 8 + 7) / 8 * 1 + 1; omega
    | ⟨1, _⟩ =>
      show win0_4.index ⟨(i 0 : Nat) * 8 + 7, hlt⟩ 1 * 8 ≤ (i 1 : Nat) ∧ (i 1 : Nat) < win0_4.index ⟨(i 0 : Nat) * 8 + 7, hlt⟩ 1 * 8 + 8
      rw [hi.2.1]; omega
    | ⟨2, _⟩ =>
      show win0_4.index ⟨(i 0 : Nat) * 8 + 7, hlt⟩ 2 * 128 ≤ (i 2 : Nat) ∧ (i 2 : Nat) < win0_4.index ⟨(i 0 : Nat) * 8 + 7, hlt⟩ 2 * 128 + 128
      rw [hi.2.2]; omega

end Cert.KernelIdeal.Hand

end
-- ==== Proof.KIStages.lean ====
/- A table, not an argument: every host operation of the printed program, in program order, as a definition of its result from its operands'
   (outlined functions inlined at their call sites, their buffers named by the call records), and the same operations as a list. -/
import proofs.«427632_j79637283602625_3_alg».proof.KernelIdeal

set_option maxRecDepth 16384

noncomputable section

namespace Cert.KernelIdeal.Stages

open Cert.KernelIdeal Idealize.ShloMosaic Idealize.ShloMosaic.TcCoe Idealize.SL.Sem
open Cert.KernelIdeal.Facts₀ Cert.KernelIdeal.Facts

variable {F : FTy → Type} [FloatOps F] [Named F] [Cert.KernelIdeal.Facts]

/-! ## Stages -/

/-- `main_call0_v0`: binary of main_arg0, main_arg0. -/
def res_main_call0_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) a0 a0
/-- `main_call0_cst`: nullary. -/
def res_main_call0_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call0_v1`: binary of main_call0_v0, main_call0_cst. -/
def res_main_call0_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F)) (res_main_call0_v0 a0 a1 a2 a3 a4) (res_main_call0_cst a0 a1 a2 a3 a4)
/-- `main_call0_v2`: unary of main_call0_v1. -/
def res_main_call0_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (res_main_call0_v1 a0 a1 a2 a3 a4)
/-- `main_v0`: unary of main_call0_v2. -/
def res_main_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (Host.sqrt : (⟨S4096x1, .f32⟩ : BufTy).Contents (Elt F) → (⟨S4096x1, .f32⟩ : BufTy).Contents (Elt F)) (res_main_call0_v2 a0 a1 a2 a3 a4)
/-- `main_cst`: nullary. -/
def res_main_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v1`: unary of main_cst. -/
def res_main_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![] bcast_S_S4096x1 : (⟨S_, .f32⟩ : BufTy).Contents (Elt F) → (⟨S4096x1, .f32⟩ : BufTy).Contents (Elt F)) (res_main_cst a0 a1 a2 a3 a4)
/-- `main_v2`: binary of main_v0, main_v1. -/
def res_main_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (maximumf : (⟨S4096x1, .f32⟩ : BufTy).Contents (Elt F) → (⟨S4096x1, .f32⟩ : BufTy).Contents (Elt F) → (⟨S4096x1, .f32⟩ : BufTy).Contents (Elt F)) (res_main_v0 a0 a1 a2 a3 a4) (res_main_v1 a0 a1 a2 a3 a4)
/-- `main_v3`: unary of main_v2. -/
def res_main_v3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (broadcastInDim S4096x256 ![0, 1] bcast_S4096x1_S4096x256_0_1 : (⟨S4096x1, .f32⟩ : BufTy).Contents (Elt F) → (⟨S4096x256, .f32⟩ : BufTy).Contents (Elt F)) (res_main_v2 a0 a1 a2 a3 a4)
/-- `main_v4`: binary of main_arg0, main_v3. -/
def res_main_v4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (Host.divf : (⟨S4096x256, .f32⟩ : BufTy).Contents (Elt F) → (⟨S4096x256, .f32⟩ : BufTy).Contents (Elt F) → (⟨S4096x256, .f32⟩ : BufTy).Contents (Elt F)) a0 (res_main_v3 a0 a1 a2 a3 a4)
/-- `main_call1_v0`: binary of main_arg1, main_arg1. -/
def res_main_call1_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) a1 a1
/-- `main_call1_cst`: nullary. -/
def res_main_call1_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call1_v1`: binary of main_call1_v0, main_call1_cst. -/
def res_main_call1_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F)) (res_main_call1_v0 a0 a1 a2 a3 a4) (res_main_call1_cst a0 a1 a2 a3 a4)
/-- `main_call1_v2`: unary of main_call1_v1. -/
def res_main_call1_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (res_main_call1_v1 a0 a1 a2 a3 a4)
/-- `main_v5`: unary of main_call1_v2. -/
def res_main_v5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (Host.sqrt : (⟨S4096x1, .f32⟩ : BufTy).Contents (Elt F) → (⟨S4096x1, .f32⟩ : BufTy).Contents (Elt F)) (res_main_call1_v2 a0 a1 a2 a3 a4)
/-- `main_cst_0`: nullary. -/
def res_main_cst_0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v6`: unary of main_cst_0. -/
def res_main_v6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![] bcast_S_S4096x1 : (⟨S_, .f32⟩ : BufTy).Contents (Elt F) → (⟨S4096x1, .f32⟩ : BufTy).Contents (Elt F)) (res_main_cst_0 a0 a1 a2 a3 a4)
/-- `main_v7`: binary of main_v5, main_v6. -/
def res_main_v7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (maximumf : (⟨S4096x1, .f32⟩ : BufTy).Contents (Elt F) → (⟨S4096x1, .f32⟩ : BufTy).Contents (Elt F) → (⟨S4096x1, .f32⟩ : BufTy).Contents (Elt F)) (res_main_v5 a0 a1 a2 a3 a4) (res_main_v6 a0 a1 a2 a3 a4)
/-- `main_v8`: unary of main_v7. -/
def res_main_v8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (broadcastInDim S4096x256 ![0, 1] bcast_S4096x1_S4096x256_0_1 : (⟨S4096x1, .f32⟩ : BufTy).Contents (Elt F) → (⟨S4096x256, .f32⟩ : BufTy).Contents (Elt F)) (res_main_v7 a0 a1 a2 a3 a4)
/-- `main_v9`: binary of main_arg1, main_v8. -/
def res_main_v9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (Host.divf : (⟨S4096x256, .f32⟩ : BufTy).Contents (Elt F) → (⟨S4096x256, .f32⟩ : BufTy).Contents (Elt F) → (⟨S4096x256, .f32⟩ : BufTy).Contents (Elt F)) a1 (res_main_v8 a0 a1 a2 a3 a4)
/-- `main_v10`: binary of main_v4, main_v9. -/
def res_main_v10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x256, .f32⟩ : BufTy).Contents (Elt F) :=
  ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)) (res_main_v4 a0 a1 a2 a3 a4) (res_main_v9 a0 a1 a2 a3 a4)
/-- `main_v11`: reshape of main_arg3. -/
def res_main_v11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (fun x => shapeCast S8192 x shapeCasts_S2x4096_S8192 : (⟨S2x4096, .i32⟩ : BufTy).Contents (Elt F) → (⟨S8192, .i32⟩ : BufTy).Contents (Elt F)) a3
/-- `main_v12`: reshape of main_arg4. -/
def res_main_v12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10, .i32⟩ : BufTy).Contents (Elt F) :=
  (fun x => shapeCast S8192x10 x shapeCasts_S2x4096x10_S8192x10 : (⟨S2x4096x10, .i32⟩ : BufTy).Contents (Elt F) → (⟨S8192x10, .i32⟩ : BufTy).Contents (Elt F)) a4
/-- `main_v13`: nullary. -/
def res_main_v13 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .i32⟩ : BufTy).Contents (Elt F) :=
  (iotaInDim S100 32 0 : (⟨S100, .i32⟩ : BufTy).Contents (Elt F))
/-- `main_v14`: unary of main_v12. -/
def res_main_v14 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x1, .i32⟩ : BufTy).Contents (Elt F) :=
  (broadcastInDim S8192x10x1 ![0, 1] bcast_S8192x10_S8192x10x1_0_1 : (⟨S8192x10, .i32⟩ : BufTy).Contents (Elt F) → (⟨S8192x10x1, .i32⟩ : BufTy).Contents (Elt F)) (res_main_v12 a0 a1 a2 a3 a4)
/-- `main_v15`: unary of main_v13. -/
def res_main_v15 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x1x100, .i32⟩ : BufTy).Contents (Elt F) :=
  (broadcastInDim S1x1x100 ![2] bcast_S100_S1x1x100_2 : (⟨S100, .i32⟩ : BufTy).Contents (Elt F) → (⟨S1x1x100, .i32⟩ : BufTy).Contents (Elt F)) (res_main_v13 a0 a1 a2 a3 a4)
/-- `main_v16`: unary of main_v14. -/
def res_main_v16 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i32⟩ : BufTy).Contents (Elt F) :=
  (broadcastInDim S8192x10x100 ![0, 1, 2] bcast_S8192x10x1_S8192x10x100_0_1_2 : (⟨S8192x10x1, .i32⟩ : BufTy).Contents (Elt F) → (⟨S8192x10x100, .i32⟩ : BufTy).Contents (Elt F)) (res_main_v14 a0 a1 a2 a3 a4)
/-- `main_v17`: unary of main_v15. -/
def res_main_v17 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i32⟩ : BufTy).Contents (Elt F) :=
  (broadcastInDim S8192x10x100 ![0, 1, 2] bcast_S1x1x100_S8192x10x100_0_1_2 : (⟨S1x1x100, .i32⟩ : BufTy).Contents (Elt F) → (⟨S8192x10x100, .i32⟩ : BufTy).Contents (Elt F)) (res_main_v15 a0 a1 a2 a3 a4)
/-- `main_v18`: binary of main_v16, main_v17. -/
def res_main_v18 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i1⟩ : BufTy).Contents (Elt F) :=
  (cmpi .eq : (⟨S8192x10x100, .i32⟩ : BufTy).Contents (Elt F) → (⟨S8192x10x100, .i32⟩ : BufTy).Contents (Elt F) → (⟨S8192x10x100, .i1⟩ : BufTy).Contents (Elt F)) (res_main_v16 a0 a1 a2 a3 a4) (res_main_v17 a0 a1 a2 a3 a4)
/-- `main_c`: nullary. -/
def res_main_c (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i1⟩ : BufTy).Contents (Elt F) :=
  (constantI S_ 1 0#1 : (⟨S_, .i1⟩ : BufTy).Contents (Elt F))
/-- `main_v19`: binary of main_v18, main_c. -/
def res_main_v19 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i1⟩ : BufTy).Contents (Elt F) :=
  ((fun x v => Host.reduce IntOp.ori x v reducesTo_S8192x10x100_S8192x100_d1 h_S_) : (⟨S8192x10x100, .i1⟩ : BufTy).Contents (Elt F) → (⟨S_, .i1⟩ : BufTy).Contents (Elt F) → (⟨S8192x100, .i1⟩ : BufTy).Contents (Elt F)) (res_main_v18 a0 a1 a2 a3 a4) (res_main_c a0 a1 a2 a3 a4)
/-- `main_v20`: unary of main_v19. -/
def res_main_v20 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  (uitofp .f32 : (⟨S8192x100, .i1⟩ : BufTy).Contents (Elt F) → (⟨S8192x100, .f32⟩ : BufTy).Contents (Elt F)) (res_main_v19 a0 a1 a2 a3 a4)
/-- `main_v21`: unary of main_v11. -/
def res_main_v21 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (res_main_v11 a0 a1 a2 a3 a4)
/-- `main_v22`: unary of main_v13. -/
def res_main_v22 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .i32⟩ : BufTy).Contents (Elt F) :=
  (broadcastInDim S1x100 ![1] bcast_S100_S1x100_1 : (⟨S100, .i32⟩ : BufTy).Contents (Elt F) → (⟨S1x100, .i32⟩ : BufTy).Contents (Elt F)) (res_main_v13 a0 a1 a2 a3 a4)
/-- `main_v23`: unary of main_v21. -/
def res_main_v23 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i32⟩ : BufTy).Contents (Elt F) :=
  (broadcastInDim S8192x100 ![0, 1] bcast_S8192x1_S8192x100_0_1 : (⟨S8192x1, .i32⟩ : BufTy).Contents (Elt F) → (⟨S8192x100, .i32⟩ : BufTy).Contents (Elt F)) (res_main_v21 a0 a1 a2 a3 a4)
/-- `main_v24`: unary of main_v22. -/
def res_main_v24 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i32⟩ : BufTy).Contents (Elt F) :=
  (broadcastInDim S8192x100 ![0, 1] bcast_S1x100_S8192x100_0_1 : (⟨S1x100, .i32⟩ : BufTy).Contents (Elt F) → (⟨S8192x100, .i32⟩ : BufTy).Contents (Elt F)) (res_main_v22 a0 a1 a2 a3 a4)
/-- `main_v25`: binary of main_v23, main_v24. -/
def res_main_v25 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i1⟩ : BufTy).Contents (Elt F) :=
  (cmpi .eq : (⟨S8192x100, .i32⟩ : BufTy).Contents (Elt F) → (⟨S8192x100, .i32⟩ : BufTy).Contents (Elt F) → (⟨S8192x100, .i1⟩ : BufTy).Contents (Elt F)) (res_main_v23 a0 a1 a2 a3 a4) (res_main_v24 a0 a1 a2 a3 a4)
/-- `main_v26`: unary of main_v25. -/
def res_main_v26 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  (uitofp .f32 : (⟨S8192x100, .i1⟩ : BufTy).Contents (Elt F) → (⟨S8192x100, .f32⟩ : BufTy).Contents (Elt F)) (res_main_v25 a0 a1 a2 a3 a4)
/-- `main_call2_v0`: binary of main_arg2, main_arg2. -/
def res_main_call2_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (mulf : (⟨S100x256, .f32⟩ : BufTy).Contents (Elt F) → (⟨S100x256, .f32⟩ : BufTy).Contents (Elt F) → (⟨S100x256, .f32⟩ : BufTy).Contents (Elt F)) a2 a2
/-- `main_call2_cst`: nullary. -/
def res_main_call2_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call2_v1`: binary of main_call2_v0, main_call2_cst. -/
def res_main_call2_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (fun x v => Host.reduceAdd x v reducesTo_S100x256_S100_d1 h_S_ : (⟨S100x256, .f32⟩ : BufTy).Contents (Elt F) → (⟨S_, .f32⟩ : BufTy).Contents (Elt F) → (⟨S100, .f32⟩ : BufTy).Contents (Elt F)) (res_main_call2_v0 a0 a1 a2 a3 a4) (res_main_call2_cst a0 a1 a2 a3 a4)
/-- `main_call2_v2`: unary of main_call2_v1. -/
def res_main_call2_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_call2_v1 a0 a1 a2 a3 a4)
/-- `main_v27`: unary of main_call2_v2. -/
def res_main_v27 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (Host.sqrt : (⟨S100x1, .f32⟩ : BufTy).Contents (Elt F) → (⟨S100x1, .f32⟩ : BufTy).Contents (Elt F)) (res_main_call2_v2 a0 a1 a2 a3 a4)
/-- `main_cst_1`: nullary. -/
def res_main_cst_1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v28`: unary of main_cst_1. -/
def res_main_v28 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![] bcast_S_S100x1 : (⟨S_, .f32⟩ : BufTy).Contents (Elt F) → (⟨S100x1, .f32⟩ : BufTy).Contents (Elt F)) (res_main_cst_1 a0 a1 a2 a3 a4)
/-- `main_v29`: binary of main_v27, main_v28. -/
def res_main_v29 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (maximumf : (⟨S100x1, .f32⟩ : BufTy).Contents (Elt F) → (⟨S100x1, .f32⟩ : BufTy).Contents (Elt F) → (⟨S100x1, .f32⟩ : BufTy).Contents (Elt F)) (res_main_v27 a0 a1 a2 a3 a4) (res_main_v28 a0 a1 a2 a3 a4)
/-- `main_v30`: unary of main_v29. -/
def res_main_v30 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (broadcastInDim S100x256 ![0, 1] bcast_S100x1_S100x256_0_1 : (⟨S100x1, .f32⟩ : BufTy).Contents (Elt F) → (⟨S100x256, .f32⟩ : BufTy).Contents (Elt F)) (res_main_v29 a0 a1 a2 a3 a4)
/-- `main_v31`: binary of main_arg2, main_v30. -/
def res_main_v31 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (Host.divf : (⟨S100x256, .f32⟩ : BufTy).Contents (Elt F) → (⟨S100x256, .f32⟩ : BufTy).Contents (Elt F) → (⟨S100x256, .f32⟩ : BufTy).Contents (Elt F)) a2 (res_main_v30 a0 a1 a2 a3 a4)
/-- `main_v32`: unary of main_v31. -/
def res_main_v32 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S256x100, .f32⟩ : BufTy).Contents (Elt F) :=
  ((transpose S256x100 [1, 0] · transposes_S100x256_S256x100_1_0) : (⟨S100x256, .f32⟩ : BufTy).Contents (Elt F) → (⟨S256x100, .f32⟩ : BufTy).Contents (Elt F)) (res_main_v31 a0 a1 a2 a3 a4)
/-- `main_v33`: binary of main_v31, main_v32. -/
def res_main_v33 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  ((fun l r => Host.dotGeneral dot_S100x256_S256x100_S100x100_1_0_0_1_n_n (some .fp32) l r) : (⟨S100x256, .f32⟩ : BufTy).Contents (Elt F) → (⟨S256x100, .f32⟩ : BufTy).Contents (Elt F) → (⟨S100x100, .f32⟩ : BufTy).Contents (Elt F)) (res_main_v31 a0 a1 a2 a3 a4) (res_main_v32 a0 a1 a2 a3 a4)
/-- `main_cst_2`: nullary. -/
def res_main_cst_2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3F800000#32 : (⟨S_, .f32⟩ : BufTy).Contents (Elt F))
/-- `main_v34`: unary of main_cst_2. -/
def res_main_v34 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_cst_2 a0 a1 a2 a3 a4)
/-- `main_v35`: binary of main_v34, main_v33. -/
def res_main_v35 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v34 a0 a1 a2 a3 a4) (res_main_v33 a0 a1 a2 a3 a4)
/-- `main_cst_3`: nullary. -/
def res_main_cst_3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v36`: binary of main_v26, main_cst_3. -/
def res_main_v36 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduceAdd x v reducesTo_S8192x100_S100_d0 h_S_) : (⟨S8192x100, .f32⟩ : BufTy).Contents (Elt F) → (⟨S_, .f32⟩ : BufTy).Contents (Elt F) → (⟨S100, .f32⟩ : BufTy).Contents (Elt F)) (res_main_v26 a0 a1 a2 a3 a4) (res_main_cst_3 a0 a1 a2 a3 a4)
/-- `main_v37`: nullary. -/
def res_main_v37 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (iotaInDim S100x100 32 0 : (⟨S100x100, .i32⟩ : BufTy).Contents (Elt F))
/-- `main_v38`: nullary. -/
def res_main_v38 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (iotaInDim S100x100 32 1 : (⟨S100x100, .i32⟩ : BufTy).Contents (Elt F))
/-- `main_c_4`: nullary. -/
def res_main_c_4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_v39`: unary of main_c_4. -/
def res_main_v39 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (broadcastInDim S100x100 ![] bcast_S_S100x100 : (⟨S_, .i32⟩ : BufTy).Contents (Elt F) → (⟨S100x100, .i32⟩ : BufTy).Contents (Elt F)) (res_main_c_4 a0 a1 a2 a3 a4)
/-- `main_v40`: binary of main_v37, main_v39. -/
def res_main_v40 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (addi : (⟨S100x100, .i32⟩ : BufTy).Contents (Elt F) → (⟨S100x100, .i32⟩ : BufTy).Contents (Elt F) → (⟨S100x100, .i32⟩ : BufTy).Contents (Elt F)) (res_main_v37 a0 a1 a2 a3 a4) (res_main_v39 a0 a1 a2 a3 a4)
/-- `main_v41`: binary of main_v40, main_v38. -/
def res_main_v41 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i1⟩ : BufTy).Contents (Elt F) :=
  (cmpi .eq : (⟨S100x100, .i32⟩ : BufTy).Contents (Elt F) → (⟨S100x100, .i32⟩ : BufTy).Contents (Elt F) → (⟨S100x100, .i1⟩ : BufTy).Contents (Elt F)) (res_main_v40 a0 a1 a2 a3 a4) (res_main_v38 a0 a1 a2 a3 a4)
/-- `main_v42`: unary of main_v41. -/
def res_main_v42 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (uitofp .f32 : (⟨S100x100, .i1⟩ : BufTy).Contents (Elt F) → (⟨S100x100, .f32⟩ : BufTy).Contents (Elt F)) (res_main_v41 a0 a1 a2 a3 a4)
/-- `main_v43`: unary of main_v36. -/
def res_main_v43 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .f32⟩ : BufTy).Contents (Elt F) :=
  (broadcastInDim S1x100 ![1] bcast_S100_S1x100_1 : (⟨S100, .f32⟩ : BufTy).Contents (Elt F) → (⟨S1x100, .f32⟩ : BufTy).Contents (Elt F)) (res_main_v36 a0 a1 a2 a3 a4)
/-- `main_v44`: unary of main_v43. -/
def res_main_v44 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S1x100_S100x100_0_1 : (⟨S1x100, .f32⟩ : BufTy).Contents (Elt F) → (⟨S100x100, .f32⟩ : BufTy).Contents (Elt F)) (res_main_v43 a0 a1 a2 a3 a4)
/-- `main_v45`: binary of main_v44, main_v42. -/
def res_main_v45 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v44 a0 a1 a2 a3 a4) (res_main_v42 a0 a1 a2 a3 a4)
/-- `main_cst_5`: nullary. -/
def res_main_cst_5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v46`: unary of main_cst_5. -/
def res_main_v46 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_cst_5 a0 a1 a2 a3 a4)
/-- `main_v47`: binary of main_v45, main_v46. -/
def res_main_v47 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i1⟩ : BufTy).Contents (Elt F) :=
  (cmpf .ogt : (⟨S100x100, .f32⟩ : BufTy).Contents (Elt F) → (⟨S100x100, .f32⟩ : BufTy).Contents (Elt F) → (⟨S100x100, .i1⟩ : BufTy).Contents (Elt F)) (res_main_v45 a0 a1 a2 a3 a4) (res_main_v46 a0 a1 a2 a3 a4)
/-- `main_cst_6`: nullary. -/
def res_main_cst_6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x7F800000#32 : (⟨S_, .f32⟩ : BufTy).Contents (Elt F))
/-- `main_call3_v0`: unary of main_cst_6. -/
def res_main_call3_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (id : (⟨S_, .f32⟩ : BufTy).Contents (Elt F) → (⟨S_, .f32⟩ : BufTy).Contents (Elt F)) (res_main_cst_6 a0 a1 a2 a3 a4)
/-- `main_call3_v1`: unary of main_call3_v0. -/
def res_main_call3_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_call3_v0 a0 a1 a2 a3 a4)
/-- `main_v48`: ternary of main_v47, main_v35, main_call3_v1. -/
def res_main_v48 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (select : (⟨S100x100, .i1⟩ : BufTy).Contents (Elt F) → (⟨S100x100, .f32⟩ : BufTy).Contents (Elt F) → (⟨S100x100, .f32⟩ : BufTy).Contents (Elt F) → (⟨S100x100, .f32⟩ : BufTy).Contents (Elt F)) (res_main_v47 a0 a1 a2 a3 a4) (res_main_v35 a0 a1 a2 a3 a4) (res_main_call3_v1 a0 a1 a2 a3 a4)
/-- `main_cst_7`: nullary. -/
def res_main_cst_7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0xFF800000#32 : (⟨S_, .f32⟩ : BufTy).Contents (Elt F))
/-- `main_call4_v0`: unary of main_cst_7. -/
def res_main_call4_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (id : (⟨S_, .f32⟩ : BufTy).Contents (Elt F) → (⟨S_, .f32⟩ : BufTy).Contents (Elt F)) (res_main_cst_7 a0 a1 a2 a3 a4)
/-- `main_call4_v1`: unary of main_call4_v0. -/
def res_main_call4_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_call4_v0 a0 a1 a2 a3 a4)
/-- `main_v49`: ternary of main_v47, main_v35, main_call4_v1. -/
def res_main_v49 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (select : (⟨S100x100, .i1⟩ : BufTy).Contents (Elt F) → (⟨S100x100, .f32⟩ : BufTy).Contents (Elt F) → (⟨S100x100, .f32⟩ : BufTy).Contents (Elt F) → (⟨S100x100, .f32⟩ : BufTy).Contents (Elt F)) (res_main_v47 a0 a1 a2 a3 a4) (res_main_v35 a0 a1 a2 a3 a4) (res_main_call4_v1 a0 a1 a2 a3 a4)
/-- `main_cst_8`: nullary. -/
def res_main_cst_8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x7F800000#32 : (⟨S_, .f32⟩ : BufTy).Contents (Elt F))
/-- `main_v50`: binary of main_v48, main_cst_8. -/
def res_main_v50 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduce FloatOps.minimumf x v reducesTo_S100x100_S100_d1 h_S_) : (⟨S100x100, .f32⟩ : BufTy).Contents (Elt F) → (⟨S_, .f32⟩ : BufTy).Contents (Elt F) → (⟨S100, .f32⟩ : BufTy).Contents (Elt F)) (res_main_v48 a0 a1 a2 a3 a4) (res_main_cst_8 a0 a1 a2 a3 a4)
/-- `main_cst_9`: nullary. -/
def res_main_cst_9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v51`: unary of main_cst_9. -/
def res_main_v51 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_9 a0 a1 a2 a3 a4)
/-- `main_v52`: binary of main_v50, main_v51. -/
def res_main_v52 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (minimumf : (⟨S100, .f32⟩ : BufTy).Contents (Elt F) → (⟨S100, .f32⟩ : BufTy).Contents (Elt F) → (⟨S100, .f32⟩ : BufTy).Contents (Elt F)) (res_main_v50 a0 a1 a2 a3 a4) (res_main_v51 a0 a1 a2 a3 a4)
/-- `main_cst_10`: nullary. -/
def res_main_cst_10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0xFF800000#32 : (⟨S_, .f32⟩ : BufTy).Contents (Elt F))
/-- `main_v53`: binary of main_v49, main_cst_10. -/
def res_main_v53 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduce FloatOps.maximumf x v reducesTo_S100x100_S100_d1 h_S_) : (⟨S100x100, .f32⟩ : BufTy).Contents (Elt F) → (⟨S_, .f32⟩ : BufTy).Contents (Elt F) → (⟨S100, .f32⟩ : BufTy).Contents (Elt F)) (res_main_v49 a0 a1 a2 a3 a4) (res_main_cst_10 a0 a1 a2 a3 a4)
/-- `main_cst_11`: nullary. -/
def res_main_cst_11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v54`: unary of main_cst_11. -/
def res_main_v54 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_11 a0 a1 a2 a3 a4)
/-- `main_v55`: binary of main_v53, main_v54. -/
def res_main_v55 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (maximumf : (⟨S100, .f32⟩ : BufTy).Contents (Elt F) → (⟨S100, .f32⟩ : BufTy).Contents (Elt F) → (⟨S100, .f32⟩ : BufTy).Contents (Elt F)) (res_main_v53 a0 a1 a2 a3 a4) (res_main_v54 a0 a1 a2 a3 a4)
/-- `main_v56`: binary of main_v45, main_v35. -/
def res_main_v56 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v45 a0 a1 a2 a3 a4) (res_main_v35 a0 a1 a2 a3 a4)
/-- `main_cst_12`: nullary. -/
def res_main_cst_12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v57`: binary of main_v56, main_cst_12. -/
def res_main_v57 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)) (res_main_v56 a0 a1 a2 a3 a4) (res_main_cst_12 a0 a1 a2 a3 a4)
/-- `main_cst_13`: nullary. -/
def res_main_cst_13 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x46000000#32 : (⟨S_, .f32⟩ : BufTy).Contents (Elt F))
/-- `main_v58`: unary of main_cst_13. -/
def res_main_v58 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_13 a0 a1 a2 a3 a4)
/-- `main_v59`: binary of main_v57, main_v58. -/
def res_main_v59 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v57 a0 a1 a2 a3 a4) (res_main_v58 a0 a1 a2 a3 a4)
/-- `main_v60`: unary of main_v59. -/
def res_main_v60 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_v59 a0 a1 a2 a3 a4)
/-- `main_v61`: unary of main_v60. -/
def res_main_v61 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S100x1_S100x100_0_1 : (⟨S100x1, .f32⟩ : BufTy).Contents (Elt F) → (⟨S100x100, .f32⟩ : BufTy).Contents (Elt F)) (res_main_v60 a0 a1 a2 a3 a4)
/-- `main_v62`: binary of main_v35, main_v61. -/
def res_main_v62 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v35 a0 a1 a2 a3 a4) (res_main_v61 a0 a1 a2 a3 a4)
/-- `main_v63`: binary of main_v62, main_v62. -/
def res_main_v63 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v62 a0 a1 a2 a3 a4) (res_main_v62 a0 a1 a2 a3 a4)
/-- `main_v64`: binary of main_v45, main_v63. -/
def res_main_v64 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v45 a0 a1 a2 a3 a4) (res_main_v63 a0 a1 a2 a3 a4)
/-- `main_cst_14`: nullary. -/
def res_main_cst_14 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v65`: binary of main_v64, main_cst_14. -/
def res_main_v65 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)) (res_main_v64 a0 a1 a2 a3 a4) (res_main_cst_14 a0 a1 a2 a3 a4)
/-- `main_v66`: binary of main_v59, main_v59. -/
def res_main_v66 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v59 a0 a1 a2 a3 a4) (res_main_v59 a0 a1 a2 a3 a4)
/-- `main_v67`: binary of main_v65, main_v66. -/
def res_main_v67 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (addf : (⟨S100, .f32⟩ : BufTy).Contents (Elt F) → (⟨S100, .f32⟩ : BufTy).Contents (Elt F) → (⟨S100, .f32⟩ : BufTy).Contents (Elt F)) (res_main_v65 a0 a1 a2 a3 a4) (res_main_v66 a0 a1 a2 a3 a4)
/-- `main_cst_15`: nullary. -/
def res_main_cst_15 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x45FFF800#32 : (⟨S_, .f32⟩ : BufTy).Contents (Elt F))
/-- `main_v68`: unary of main_cst_15. -/
def res_main_v68 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_15 a0 a1 a2 a3 a4)
/-- `main_v69`: binary of main_v67, main_v68. -/
def res_main_v69 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v67 a0 a1 a2 a3 a4) (res_main_v68 a0 a1 a2 a3 a4)
/-- `main_cst_16`: nullary. -/
def res_main_cst_16 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v70`: unary of main_cst_16. -/
def res_main_v70 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_16 a0 a1 a2 a3 a4)
/-- `main_v71`: binary of main_v69, main_v70. -/
def res_main_v71 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (maximumf : (⟨S100, .f32⟩ : BufTy).Contents (Elt F) → (⟨S100, .f32⟩ : BufTy).Contents (Elt F) → (⟨S100, .f32⟩ : BufTy).Contents (Elt F)) (res_main_v69 a0 a1 a2 a3 a4) (res_main_v70 a0 a1 a2 a3 a4)
/-- `main_v72`: unary of main_v71. -/
def res_main_v72 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.sqrt : (⟨S100, .f32⟩ : BufTy).Contents (Elt F) → (⟨S100, .f32⟩ : BufTy).Contents (Elt F)) (res_main_v71 a0 a1 a2 a3 a4)
/-- `main_v73`: binary of main_v55, main_v52. -/
def res_main_v73 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (subf : (⟨S100, .f32⟩ : BufTy).Contents (Elt F) → (⟨S100, .f32⟩ : BufTy).Contents (Elt F) → (⟨S100, .f32⟩ : BufTy).Contents (Elt F)) (res_main_v55 a0 a1 a2 a3 a4) (res_main_v52 a0 a1 a2 a3 a4)
/-- `main_cst_17`: nullary. -/
def res_main_cst_17 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3F800000#32 : (⟨S_, .f32⟩ : BufTy).Contents (Elt F))
/-- `main_v74`: unary of main_cst_17. -/
def res_main_v74 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_17 a0 a1 a2 a3 a4)
/-- `main_v75`: binary of main_v74, main_v73. -/
def res_main_v75 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v74 a0 a1 a2 a3 a4) (res_main_v73 a0 a1 a2 a3 a4)
/-- `main_v76`: unary of main_v52. -/
def res_main_v76 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.negf : (⟨S100, .f32⟩ : BufTy).Contents (Elt F) → (⟨S100, .f32⟩ : BufTy).Contents (Elt F)) (res_main_v52 a0 a1 a2 a3 a4)
/-- `main_v77`: binary of main_v76, main_v75. -/
def res_main_v77 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v76 a0 a1 a2 a3 a4) (res_main_v75 a0 a1 a2 a3 a4)
/-- `main_v78`: binary of main_v59, main_v52. -/
def res_main_v78 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (subf : (⟨S100, .f32⟩ : BufTy).Contents (Elt F) → (⟨S100, .f32⟩ : BufTy).Contents (Elt F) → (⟨S100, .f32⟩ : BufTy).Contents (Elt F)) (res_main_v59 a0 a1 a2 a3 a4) (res_main_v52 a0 a1 a2 a3 a4)
/-- `main_v79`: binary of main_v78, main_v75. -/
def res_main_v79 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v78 a0 a1 a2 a3 a4) (res_main_v75 a0 a1 a2 a3 a4)
/-- `main_v80`: binary of main_v72, main_v75. -/
def res_main_v80 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v72 a0 a1 a2 a3 a4) (res_main_v75 a0 a1 a2 a3 a4)
/-- `main_cst_18`: nullary. -/
def res_main_cst_18 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x40000000#32 : (⟨S_, .f32⟩ : BufTy).Contents (Elt F))
/-- `main_v81`: unary of main_cst_18. -/
def res_main_v81 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_18 a0 a1 a2 a3 a4)
/-- `main_v82`: binary of main_v81, main_v80. -/
def res_main_v82 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v81 a0 a1 a2 a3 a4) (res_main_v80 a0 a1 a2 a3 a4)
/-- `main_v83`: binary of main_v82, main_v80. -/
def res_main_v83 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v82 a0 a1 a2 a3 a4) (res_main_v80 a0 a1 a2 a3 a4)
/-- `main_cst_19`: nullary. -/
def res_main_cst_19 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3F800000#32 : (⟨S_, .f32⟩ : BufTy).Contents (Elt F))
/-- `main_v84`: unary of main_cst_19. -/
def res_main_v84 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_19 a0 a1 a2 a3 a4)
/-- `main_v85`: binary of main_v84, main_v83. -/
def res_main_v85 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v84 a0 a1 a2 a3 a4) (res_main_v83 a0 a1 a2 a3 a4)
/-- `main_v86`: unary of main_v75. -/
def res_main_v86 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_v75 a0 a1 a2 a3 a4)
/-- `main_v87`: unary of main_v86. -/
def res_main_v87 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S100x1_S100x100_0_1 : (⟨S100x1, .f32⟩ : BufTy).Contents (Elt F) → (⟨S100x100, .f32⟩ : BufTy).Contents (Elt F)) (res_main_v86 a0 a1 a2 a3 a4)
/-- `main_v88`: binary of main_v87, main_v35. -/
def res_main_v88 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v87 a0 a1 a2 a3 a4) (res_main_v35 a0 a1 a2 a3 a4)
/-- `main_v89`: unary of main_v77. -/
def res_main_v89 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_v77 a0 a1 a2 a3 a4)
/-- `main_v90`: unary of main_v89. -/
def res_main_v90 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S100x1_S100x100_0_1 : (⟨S100x1, .f32⟩ : BufTy).Contents (Elt F) → (⟨S100x100, .f32⟩ : BufTy).Contents (Elt F)) (res_main_v89 a0 a1 a2 a3 a4)
/-- `main_v91`: binary of main_v88, main_v90. -/
def res_main_v91 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (addf : (⟨S100x100, .f32⟩ : BufTy).Contents (Elt F) → (⟨S100x100, .f32⟩ : BufTy).Contents (Elt F) → (⟨S100x100, .f32⟩ : BufTy).Contents (Elt F)) (res_main_v88 a0 a1 a2 a3 a4) (res_main_v90 a0 a1 a2 a3 a4)
/-- `main_v92`: unary of main_v79. -/
def res_main_v92 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .f32⟩ : BufTy).Contents (Elt F) :=
  (broadcastInDim S1x100 ![1] bcast_S100_S1x100_1 : (⟨S100, .f32⟩ : BufTy).Contents (Elt F) → (⟨S1x100, .f32⟩ : BufTy).Contents (Elt F)) (res_main_v79 a0 a1 a2 a3 a4)
/-- `main_v93`: unary of main_v92. -/
def res_main_v93 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S1x100_S100x100_0_1 : (⟨S1x100, .f32⟩ : BufTy).Contents (Elt F) → (⟨S100x100, .f32⟩ : BufTy).Contents (Elt F)) (res_main_v92 a0 a1 a2 a3 a4)
/-- `main_v94`: binary of main_v91, main_v93. -/
def res_main_v94 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v91 a0 a1 a2 a3 a4) (res_main_v93 a0 a1 a2 a3 a4)
/-- `main_v95`: binary of main_v94, main_v94. -/
def res_main_v95 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v94 a0 a1 a2 a3 a4) (res_main_v94 a0 a1 a2 a3 a4)
/-- `main_v96`: unary of main_v85. -/
def res_main_v96 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .f32⟩ : BufTy).Contents (Elt F) :=
  (broadcastInDim S1x100 ![1] bcast_S100_S1x100_1 : (⟨S100, .f32⟩ : BufTy).Contents (Elt F) → (⟨S1x100, .f32⟩ : BufTy).Contents (Elt F)) (res_main_v85 a0 a1 a2 a3 a4)
/-- `main_v97`: unary of main_v96. -/
def res_main_v97 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S1x100_S100x100_0_1 : (⟨S1x100, .f32⟩ : BufTy).Contents (Elt F) → (⟨S100x100, .f32⟩ : BufTy).Contents (Elt F)) (res_main_v96 a0 a1 a2 a3 a4)
/-- `main_v98`: binary of main_v95, main_v97. -/
def res_main_v98 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v95 a0 a1 a2 a3 a4) (res_main_v97 a0 a1 a2 a3 a4)
/-- `main_v99`: unary of main_v98. -/
def res_main_v99 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (Host.exp : (⟨S100x100, .f32⟩ : BufTy).Contents (Elt F) → (⟨S100x100, .f32⟩ : BufTy).Contents (Elt F)) (res_main_v98 a0 a1 a2 a3 a4)
/-- `main_c_20`: nullary. -/
def res_main_c_20 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_v100`: unary of main_c_20. -/
def res_main_v100 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (broadcastInDim S8192 ![] bcast_S_S8192 : (⟨S_, .i32⟩ : BufTy).Contents (Elt F) → (⟨S8192, .i32⟩ : BufTy).Contents (Elt F)) (res_main_c_20 a0 a1 a2 a3 a4)
/-- `main_v101`: binary of main_v11, main_v100. -/
def res_main_v101 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (res_main_v11 a0 a1 a2 a3 a4) (res_main_v100 a0 a1 a2 a3 a4)
/-- `main_c_21`: nullary. -/
def res_main_c_21 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 100#32 : (⟨S_, .i32⟩ : BufTy).Contents (Elt F))
/-- `main_v102`: unary of main_c_21. -/
def res_main_v102 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (broadcastInDim S8192 ![] bcast_S_S8192 : (⟨S_, .i32⟩ : BufTy).Contents (Elt F) → (⟨S8192, .i32⟩ : BufTy).Contents (Elt F)) (res_main_c_21 a0 a1 a2 a3 a4)
/-- `main_v103`: binary of main_v11, main_v102. -/
def res_main_v103 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (res_main_v11 a0 a1 a2 a3 a4) (res_main_v102 a0 a1 a2 a3 a4)
/-- `main_v104`: ternary of main_v101, main_v103, main_v11. -/
def res_main_v104 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (res_main_v101 a0 a1 a2 a3 a4) (res_main_v103 a0 a1 a2 a3 a4) (res_main_v11 a0 a1 a2 a3 a4)
/-- `main_v105`: unary of main_v104. -/
def res_main_v105 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (res_main_v104 a0 a1 a2 a3 a4)
/-- `main_v106`: binary of main_v99, main_v105. -/
def res_main_v106 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  ((fun x i => Host.gather gather_S100x100_S8192x1_S8192x100_1_0_n_n_0_1_1100 x i) : (⟨S100x100, .f32⟩ : BufTy).Contents (Elt F) → (⟨S8192x1, .i32⟩ : BufTy).Contents (Elt F) → (⟨S8192x100, .f32⟩ : BufTy).Contents (Elt F)) (res_main_v99 a0 a1 a2 a3 a4) (res_main_v105 a0 a1 a2 a3 a4)
/-- `main_v107`: binary of main_v20, main_v106. -/
def res_main_v107 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  (mulf : (⟨S8192x100, .f32⟩ : BufTy).Contents (Elt F) → (⟨S8192x100, .f32⟩ : BufTy).Contents (Elt F) → (⟨S8192x100, .f32⟩ : BufTy).Contents (Elt F)) (res_main_v20 a0 a1 a2 a3 a4) (res_main_v106 a0 a1 a2 a3 a4)
/-- `main_v108`: unary of main_v26. -/
def res_main_v108 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .bf16⟩ : BufTy).Contents (Elt F) :=
  ((truncf .bf16 · bitsLt_bf16_f32) : (⟨S8192x100, .f32⟩ : BufTy).Contents (Elt F) → (⟨S8192x100, .bf16⟩ : BufTy).Contents (Elt F)) (res_main_v26 a0 a1 a2 a3 a4)
/-- `main_v109`: unary of main_v10. -/
def res_main_v109 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x256, .bf16⟩ : BufTy).Contents (Elt F) :=
  ((truncf .bf16 · bitsLt_bf16_f32) : (⟨S8192x256, .f32⟩ : BufTy).Contents (Elt F) → (⟨S8192x256, .bf16⟩ : BufTy).Contents (Elt F)) (res_main_v10 a0 a1 a2 a3 a4)
/-- `main_v110`: binary of main_v4, main_v9. -/
def res_main_v110 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) (res_main_v4 a0 a1 a2 a3 a4) (res_main_v9 a0 a1 a2 a3 a4)
/-- `main_cst_22`: nullary. -/
def res_main_cst_22 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v111`: binary of main_v110, main_cst_22. -/
def res_main_v111 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) (res_main_v110 a0 a1 a2 a3 a4) (res_main_cst_22 a0 a1 a2 a3 a4)
/-- `main_cst_23`: nullary. -/
def res_main_cst_23 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3E4CCCCD#32 : (⟨S_, .f32⟩ : BufTy).Contents (Elt F))
/-- `main_v112`: unary of main_cst_23. -/
def res_main_v112 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (broadcastInDim S4096 ![] bcast_S_S4096 : (⟨S_, .f32⟩ : BufTy).Contents (Elt F) → (⟨S4096, .f32⟩ : BufTy).Contents (Elt F)) (res_main_cst_23 a0 a1 a2 a3 a4)
/-- `main_v113`: binary of main_v111, main_v112. -/
def res_main_v113 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (Host.divf : (⟨S4096, .f32⟩ : BufTy).Contents (Elt F) → (⟨S4096, .f32⟩ : BufTy).Contents (Elt F) → (⟨S4096, .f32⟩ : BufTy).Contents (Elt F)) (res_main_v111 a0 a1 a2 a3 a4) (res_main_v112 a0 a1 a2 a3 a4)
/-- `main_v114`: unary of main_v113. -/
def res_main_v114 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (Host.exp : (⟨S4096, .f32⟩ : BufTy).Contents (Elt F) → (⟨S4096, .f32⟩ : BufTy).Contents (Elt F)) (res_main_v113 a0 a1 a2 a3 a4)
/-- `main_v115`: binary of main_v114, main_v114. -/
def res_main_v115 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) (res_main_v114 a0 a1 a2 a3 a4) (res_main_v114 a0 a1 a2 a3 a4)
/-- `main_v117`: unary of main_v116. -/
def res_main_v117 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8x1x1, .f32⟩ : BufTy).Contents (Elt F) :=
  ((extractStridedSlice S8x1x1 ![0, 0, 0] · slices_S8x8x128_S8x1x1_0_0_0) : (⟨S8x8x128, .f32⟩ : BufTy).Contents (Elt F) → (⟨S8x1x1, .f32⟩ : BufTy).Contents (Elt F)) r
/-- `main_v118`: reshape of main_v117. -/
def res_main_v118 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8, .f32⟩ : BufTy).Contents (Elt F) :=
  (fun x => shapeCast S8 x shapeCasts_S8x1x1_S8 : (⟨S8x1x1, .f32⟩ : BufTy).Contents (Elt F) → (⟨S8, .f32⟩ : BufTy).Contents (Elt F)) (res_main_v117 a0 a1 a2 a3 a4 r)
/-- `main_cst_24`: nullary. -/
def res_main_cst_24 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v119`: binary of main_v118, main_cst_24. -/
def res_main_v119 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) (res_main_v118 a0 a1 a2 a3 a4 r) (res_main_cst_24 a0 a1 a2 a3 a4 r)
/-- `main_v120`: unary of main_v109. -/
def res_main_v120 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192x256, .f32⟩ : BufTy).Contents (Elt F) :=
  ((extf .f32 · bitsLt_bf16_f32) : (⟨S8192x256, .bf16⟩ : BufTy).Contents (Elt F) → (⟨S8192x256, .f32⟩ : BufTy).Contents (Elt F)) (res_main_v109 a0 a1 a2 a3 a4)
/-- `main_v121`: binary of main_v120, main_v120. -/
def res_main_v121 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192x256, .f32⟩ : BufTy).Contents (Elt F) :=
  (mulf : (⟨S8192x256, .f32⟩ : BufTy).Contents (Elt F) → (⟨S8192x256, .f32⟩ : BufTy).Contents (Elt F) → (⟨S8192x256, .f32⟩ : BufTy).Contents (Elt F)) (res_main_v120 a0 a1 a2 a3 a4 r) (res_main_v120 a0 a1 a2 a3 a4 r)
/-- `main_cst_25`: nullary. -/
def res_main_cst_25 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v122`: binary of main_v121, main_cst_25. -/
def res_main_v122 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)) (res_main_v121 a0 a1 a2 a3 a4 r) (res_main_cst_25 a0 a1 a2 a3 a4 r)
/-- `main_cst_26`: nullary. -/
def res_main_cst_26 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x3E4CCCCD#32 : (⟨S_, .f32⟩ : BufTy).Contents (Elt F))
/-- `main_v123`: unary of main_cst_26. -/
def res_main_v123 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_cst_26 a0 a1 a2 a3 a4 r)
/-- `main_v124`: binary of main_v122, main_v123. -/
def res_main_v124 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (res_main_v122 a0 a1 a2 a3 a4 r) (res_main_v123 a0 a1 a2 a3 a4 r)
/-- `main_v125`: unary of main_v124. -/
def res_main_v125 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.exp : (⟨S8192, .f32⟩ : BufTy).Contents (Elt F) → (⟨S8192, .f32⟩ : BufTy).Contents (Elt F)) (res_main_v124 a0 a1 a2 a3 a4 r)
/-- `main_v126`: binary of main_v107, main_v26. -/
def res_main_v126 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192x100, .f32⟩ : BufTy).Contents (Elt F) :=
  (mulf : (⟨S8192x100, .f32⟩ : BufTy).Contents (Elt F) → (⟨S8192x100, .f32⟩ : BufTy).Contents (Elt F) → (⟨S8192x100, .f32⟩ : BufTy).Contents (Elt F)) (res_main_v107 a0 a1 a2 a3 a4) (res_main_v26 a0 a1 a2 a3 a4)
/-- `main_cst_27`: nullary. -/
def res_main_cst_27 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v127`: binary of main_v126, main_cst_27. -/
def res_main_v127 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)) (res_main_v126 a0 a1 a2 a3 a4 r) (res_main_cst_27 a0 a1 a2 a3 a4 r)
/-- `main_v128`: binary of main_v125, main_v127. -/
def res_main_v128 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (mulf : (⟨S8192, .f32⟩ : BufTy).Contents (Elt F) → (⟨S8192, .f32⟩ : BufTy).Contents (Elt F) → (⟨S8192, .f32⟩ : BufTy).Contents (Elt F)) (res_main_v125 a0 a1 a2 a3 a4 r) (res_main_v127 a0 a1 a2 a3 a4 r)
/-- `main_cst_28`: nullary. -/
def res_main_cst_28 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v129`: binary of main_v128, main_cst_28. -/
def res_main_v129 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (res_main_v128 a0 a1 a2 a3 a4 r) (res_main_cst_28 a0 a1 a2 a3 a4 r)
/-- `main_v130`: binary of main_v119, main_v129. -/
def res_main_v130 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_v119 a0 a1 a2 a3 a4 r) (res_main_v129 a0 a1 a2 a3 a4 r)
/-- `main_v131`: unary of main_v130. -/
def res_main_v131 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_v130 a0 a1 a2 a3 a4 r)
/-- `main_v132`: binary of main_v115, main_v131. -/
def res_main_v132 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (res_main_v115 a0 a1 a2 a3 a4) (res_main_v131 a0 a1 a2 a3 a4 r)
/-- `main_v133`: unary of main_v132. -/
def res_main_v133 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.log : (⟨S8192, .f32⟩ : BufTy).Contents (Elt F) → (⟨S8192, .f32⟩ : BufTy).Contents (Elt F)) (res_main_v132 a0 a1 a2 a3 a4 r)
/-- `main_v134`: unary of main_v133. -/
def res_main_v134 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.negf : (⟨S8192, .f32⟩ : BufTy).Contents (Elt F) → (⟨S8192, .f32⟩ : BufTy).Contents (Elt F)) (res_main_v133 a0 a1 a2 a3 a4 r)
/-- `main_cst_29`: nullary. -/
def res_main_cst_29 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v135`: binary of main_v134, main_cst_29. -/
def res_main_v135 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (res_main_v134 a0 a1 a2 a3 a4 r) (res_main_cst_29 a0 a1 a2 a3 a4 r)
/-- `main_cst_30`: nullary. -/
def res_main_cst_30 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x46000000#32 : (⟨S_, .f32⟩ : BufTy).Contents (Elt F))
/-- `main_v136`: binary of main_v135, main_cst_30. -/
def res_main_v136 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (res_main_v135 a0 a1 a2 a3 a4 r) (res_main_cst_30 a0 a1 a2 a3 a4 r)

/-! ## The operations as lists -/

/-- The host operations before the kernel launch (all of them, for a program with no launch), in order. -/
abbrev opsPre : List (HloOp τ sig (Elt F)) :=
  [ StableHlo.TRef.binary (.of main_arg0 : StableHlo.TRef sig ⟨S4096x256, .f32⟩) (.of main_arg0 : StableHlo.TRef sig ⟨S4096x256, .f32⟩) (.of main_call0_v0 : StableHlo.TRef sig ⟨S4096x256, .f32⟩) mulf,
    StableHlo.TRef.nullary (.of main_call0_cst : StableHlo.TRef sig ⟨S_, .f32⟩) (constant S_ .f32 0x00000000#32),
    StableHlo.TRef.binary (.of main_call0_v0 : StableHlo.TRef sig ⟨S4096x256, .f32⟩) (.of main_call0_cst : StableHlo.TRef sig ⟨S_, .f32⟩) (.of main_call0_v1 : StableHlo.TRef sig ⟨S4096, .f32⟩) (fun x v => Host.reduceAdd x v reducesTo_S4096x256_S4096_d1 h_S_),
    StableHlo.TRef.unary (.of main_call0_v1 : StableHlo.TRef sig ⟨S4096, .f32⟩) (.of main_call0_v2 : StableHlo.TRef sig ⟨S4096x1, .f32⟩) (broadcastInDim S4096x1 ![0] bcast_S4096_S4096x1_0),
    StableHlo.TRef.unary (.of main_call0_v2 : StableHlo.TRef sig ⟨S4096x1, .f32⟩) (.of main_v0 : StableHlo.TRef sig ⟨S4096x1, .f32⟩) Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (.of main_arg1 : StableHlo.TRef sig ⟨S4096x256, .f32⟩) (.of main_arg1 : StableHlo.TRef sig ⟨S4096x256, .f32⟩) (.of main_call1_v0 : StableHlo.TRef sig ⟨S4096x256, .f32⟩) mulf,
    StableHlo.TRef.nullary (.of main_call1_cst : StableHlo.TRef sig ⟨S_, .f32⟩) (constant S_ .f32 0x00000000#32),
    StableHlo.TRef.binary (.of main_call1_v0 : StableHlo.TRef sig ⟨S4096x256, .f32⟩) (.of main_call1_cst : StableHlo.TRef sig ⟨S_, .f32⟩) (.of main_call1_v1 : StableHlo.TRef sig ⟨S4096, .f32⟩) (fun x v => Host.reduceAdd x v reducesTo_S4096x256_S4096_d1 h_S_),
    StableHlo.TRef.unary (.of main_call1_v1 : StableHlo.TRef sig ⟨S4096, .f32⟩) (.of main_call1_v2 : StableHlo.TRef sig ⟨S4096x1, .f32⟩) (broadcastInDim S4096x1 ![0] bcast_S4096_S4096x1_0),
    StableHlo.TRef.unary (.of main_call1_v2 : StableHlo.TRef sig ⟨S4096x1, .f32⟩) (.of main_v5 : StableHlo.TRef sig ⟨S4096x1, .f32⟩) Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)),
    StableHlo.binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.reshape main_arg3 main_v11 rfl shapeCasts_S2x4096_S8192,
    StableHlo.reshape main_arg4 main_v12 rfl shapeCasts_S2x4096x10_S8192x10,
    StableHlo.nullary main_v13 (iotaInDim S100 32 0),
    StableHlo.unary main_v12 main_v14 (broadcastInDim S8192x10x1 ![0, 1] bcast_S8192x10_S8192x10x1_0_1 : (⟨S8192x10, .i32⟩ : BufTy).Contents (Elt F) → (⟨S8192x10x1, .i32⟩ : BufTy).Contents (Elt F)),
    StableHlo.unary main_v13 main_v15 (broadcastInDim S1x1x100 ![2] bcast_S100_S1x1x100_2 : (⟨S100, .i32⟩ : BufTy).Contents (Elt F) → (⟨S1x1x100, .i32⟩ : BufTy).Contents (Elt F)),
    StableHlo.unary main_v14 main_v16 (broadcastInDim S8192x10x100 ![0, 1, 2] bcast_S8192x10x1_S8192x10x100_0_1_2 : (⟨S8192x10x1, .i32⟩ : BufTy).Contents (Elt F) → (⟨S8192x10x100, .i32⟩ : BufTy).Contents (Elt F)),
    StableHlo.unary main_v15 main_v17 (broadcastInDim S8192x10x100 ![0, 1, 2] bcast_S1x1x100_S8192x10x100_0_1_2 : (⟨S1x1x100, .i32⟩ : BufTy).Contents (Elt F) → (⟨S8192x10x100, .i32⟩ : BufTy).Contents (Elt F)),
    StableHlo.binary main_v16 main_v17 main_v18 (cmpi .eq : (⟨S8192x10x100, .i32⟩ : BufTy).Contents (Elt F) → (⟨S8192x10x100, .i32⟩ : BufTy).Contents (Elt F) → (⟨S8192x10x100, .i1⟩ : BufTy).Contents (Elt F)),
    StableHlo.nullary main_c (constantI S_ 1 0#1),
    StableHlo.binary main_v18 main_c main_v19 ((fun x v => Host.reduce IntOp.ori x v reducesTo_S8192x10x100_S8192x100_d1 h_S_) : (⟨S8192x10x100, .i1⟩ : BufTy).Contents (Elt F) → (⟨S_, .i1⟩ : BufTy).Contents (Elt F) → (⟨S8192x100, .i1⟩ : BufTy).Contents (Elt F)),
    StableHlo.unary main_v19 main_v20 (uitofp .f32 : (⟨S8192x100, .i1⟩ : BufTy).Contents (Elt F) → (⟨S8192x100, .f32⟩ : BufTy).Contents (Elt F)),
    StableHlo.unary main_v11 main_v21 (broadcastInDim S8192x1 ![0] bcast_S8192_S8192x1_0 : (⟨S8192, .i32⟩ : BufTy).Contents (Elt F) → (⟨S8192x1, .i32⟩ : BufTy).Contents (Elt F)),
    StableHlo.unary main_v13 main_v22 (broadcastInDim S1x100 ![1] bcast_S100_S1x100_1 : (⟨S100, .i32⟩ : BufTy).Contents (Elt F) → (⟨S1x100, .i32⟩ : BufTy).Contents (Elt F)),
    StableHlo.unary main_v21 main_v23 (broadcastInDim S8192x100 ![0, 1] bcast_S8192x1_S8192x100_0_1 : (⟨S8192x1, .i32⟩ : BufTy).Contents (Elt F) → (⟨S8192x100, .i32⟩ : BufTy).Contents (Elt F)),
    StableHlo.unary main_v22 main_v24 (broadcastInDim S8192x100 ![0, 1] bcast_S1x100_S8192x100_0_1 : (⟨S1x100, .i32⟩ : BufTy).Contents (Elt F) → (⟨S8192x100, .i32⟩ : BufTy).Contents (Elt F)),
    StableHlo.binary main_v23 main_v24 main_v25 (cmpi .eq : (⟨S8192x100, .i32⟩ : BufTy).Contents (Elt F) → (⟨S8192x100, .i32⟩ : BufTy).Contents (Elt F) → (⟨S8192x100, .i1⟩ : BufTy).Contents (Elt F)),
    StableHlo.unary main_v25 main_v26 (uitofp .f32 : (⟨S8192x100, .i1⟩ : BufTy).Contents (Elt F) → (⟨S8192x100, .f32⟩ : BufTy).Contents (Elt F)),
    StableHlo.TRef.binary (.of main_arg2 : StableHlo.TRef sig ⟨S100x256, .f32⟩) (.of main_arg2 : StableHlo.TRef sig ⟨S100x256, .f32⟩) (.of main_call2_v0 : StableHlo.TRef sig ⟨S100x256, .f32⟩) mulf,
    StableHlo.TRef.nullary (.of main_call2_cst : StableHlo.TRef sig ⟨S_, .f32⟩) (constant S_ .f32 0x00000000#32),
    StableHlo.TRef.binary (.of main_call2_v0 : StableHlo.TRef sig ⟨S100x256, .f32⟩) (.of main_call2_cst : StableHlo.TRef sig ⟨S_, .f32⟩) (.of main_call2_v1 : StableHlo.TRef sig ⟨S100, .f32⟩) (fun x v => Host.reduceAdd x v reducesTo_S100x256_S100_d1 h_S_),
    StableHlo.TRef.unary (.of main_call2_v1 : StableHlo.TRef sig ⟨S100, .f32⟩) (.of main_call2_v2 : StableHlo.TRef sig ⟨S100x1, .f32⟩) (broadcastInDim S100x1 ![0] bcast_S100_S100x1_0),
    StableHlo.TRef.unary (.of main_call2_v2 : StableHlo.TRef sig ⟨S100x1, .f32⟩) (.of main_v27 : StableHlo.TRef sig ⟨S100x1, .f32⟩) Host.sqrt,
    StableHlo.nullary main_cst_1 (constant S_ .f32 0x2B8CBCCC#32),
    StableHlo.unary main_cst_1 main_v28 (broadcastInDim S100x1 ![] bcast_S_S100x1 : (⟨S_, .f32⟩ : BufTy).Contents (Elt F) → (⟨S100x1, .f32⟩ : BufTy).Contents (Elt F)),
    StableHlo.binary main_v27 main_v28 main_v29 (maximumf : (⟨S100x1, .f32⟩ : BufTy).Contents (Elt F) → (⟨S100x1, .f32⟩ : BufTy).Contents (Elt F) → (⟨S100x1, .f32⟩ : BufTy).Contents (Elt F)),
    StableHlo.unary main_v29 main_v30 (broadcastInDim S100x256 ![0, 1] bcast_S100x1_S100x256_0_1 : (⟨S100x1, .f32⟩ : BufTy).Contents (Elt F) → (⟨S100x256, .f32⟩ : BufTy).Contents (Elt F)),
    StableHlo.binary main_arg2 main_v30 main_v31 (Host.divf : (⟨S100x256, .f32⟩ : BufTy).Contents (Elt F) → (⟨S100x256, .f32⟩ : BufTy).Contents (Elt F) → (⟨S100x256, .f32⟩ : BufTy).Contents (Elt F)),
    StableHlo.unary main_v31 main_v32 ((transpose S256x100 [1, 0] · transposes_S100x256_S256x100_1_0) : (⟨S100x256, .f32⟩ : BufTy).Contents (Elt F) → (⟨S256x100, .f32⟩ : BufTy).Contents (Elt F)),
    StableHlo.binary main_v31 main_v32 main_v33 ((fun l r => Host.dotGeneral dot_S100x256_S256x100_S100x100_1_0_0_1_n_n (some .fp32) l r) : (⟨S100x256, .f32⟩ : BufTy).Contents (Elt F) → (⟨S256x100, .f32⟩ : BufTy).Contents (Elt F) → (⟨S100x100, .f32⟩ : BufTy).Contents (Elt F)),
    StableHlo.nullary main_cst_2 (constant S_ .f32 0x3F800000#32),
    StableHlo.unary main_cst_2 main_v34 (broadcastInDim S100x100 ![] bcast_S_S100x100 : (⟨S_, .f32⟩ : BufTy).Contents (Elt F) → (⟨S100x100, .f32⟩ : BufTy).Contents (Elt F)),
    StableHlo.binary main_v34 main_v33 main_v35 (subf : (⟨S100x100, .f32⟩ : BufTy).Contents (Elt F) → (⟨S100x100, .f32⟩ : BufTy).Contents (Elt F) → (⟨S100x100, .f32⟩ : BufTy).Contents (Elt F)),
    StableHlo.nullary main_cst_3 (constant S_ .f32 0x00000000#32),
    StableHlo.binary main_v26 main_cst_3 main_v36 ((fun x v => Host.reduceAdd x v reducesTo_S8192x100_S100_d0 h_S_) : (⟨S8192x100, .f32⟩ : BufTy).Contents (Elt F) → (⟨S_, .f32⟩ : BufTy).Contents (Elt F) → (⟨S100, .f32⟩ : BufTy).Contents (Elt F)),
    StableHlo.nullary main_v37 (iotaInDim S100x100 32 0),
    StableHlo.nullary main_v38 (iotaInDim S100x100 32 1),
    StableHlo.nullary main_c_4 (constantI S_ 32 0#32),
    StableHlo.unary main_c_4 main_v39 (broadcastInDim S100x100 ![] bcast_S_S100x100 : (⟨S_, .i32⟩ : BufTy).Contents (Elt F) → (⟨S100x100, .i32⟩ : BufTy).Contents (Elt F)),
    StableHlo.binary main_v37 main_v39 main_v40 (addi : (⟨S100x100, .i32⟩ : BufTy).Contents (Elt F) → (⟨S100x100, .i32⟩ : BufTy).Contents (Elt F) → (⟨S100x100, .i32⟩ : BufTy).Contents (Elt F)),
    StableHlo.binary main_v40 main_v38 main_v41 (cmpi .eq : (⟨S100x100, .i32⟩ : BufTy).Contents (Elt F) → (⟨S100x100, .i32⟩ : BufTy).Contents (Elt F) → (⟨S100x100, .i1⟩ : BufTy).Contents (Elt F)),
    StableHlo.unary main_v41 main_v42 (uitofp .f32 : (⟨S100x100, .i1⟩ : BufTy).Contents (Elt F) → (⟨S100x100, .f32⟩ : BufTy).Contents (Elt F)),
    StableHlo.unary main_v36 main_v43 (broadcastInDim S1x100 ![1] bcast_S100_S1x100_1 : (⟨S100, .f32⟩ : BufTy).Contents (Elt F) → (⟨S1x100, .f32⟩ : BufTy).Contents (Elt F)),
    StableHlo.unary main_v43 main_v44 (broadcastInDim S100x100 ![0, 1] bcast_S1x100_S100x100_0_1 : (⟨S1x100, .f32⟩ : BufTy).Contents (Elt F) → (⟨S100x100, .f32⟩ : BufTy).Contents (Elt F)),
    StableHlo.binary main_v44 main_v42 main_v45 (subf : (⟨S100x100, .f32⟩ : BufTy).Contents (Elt F) → (⟨S100x100, .f32⟩ : BufTy).Contents (Elt F) → (⟨S100x100, .f32⟩ : BufTy).Contents (Elt F)),
    StableHlo.nullary main_cst_5 (constant S_ .f32 0x00000000#32),
    StableHlo.unary main_cst_5 main_v46 (broadcastInDim S100x100 ![] bcast_S_S100x100 : (⟨S_, .f32⟩ : BufTy).Contents (Elt F) → (⟨S100x100, .f32⟩ : BufTy).Contents (Elt F)),
    StableHlo.binary main_v45 main_v46 main_v47 (cmpf .ogt : (⟨S100x100, .f32⟩ : BufTy).Contents (Elt F) → (⟨S100x100, .f32⟩ : BufTy).Contents (Elt F) → (⟨S100x100, .i1⟩ : BufTy).Contents (Elt F)),
    StableHlo.nullary main_cst_6 (constant S_ .f32 0x7F800000#32),
    StableHlo.TRef.unary (.of main_cst_6 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100x100, .f32⟩) (broadcastInDim S100x100 ![] bcast_S_S100x100),
    StableHlo.TRef.ternary (.of main_v47 : StableHlo.TRef sig ⟨S100x100, .i1⟩) (.of main_v35 : StableHlo.TRef sig ⟨S100x100, .f32⟩) (.of main_call3_v1 : StableHlo.TRef sig ⟨S100x100, .f32⟩) (.of main_v48 : StableHlo.TRef sig ⟨S100x100, .f32⟩) select,
    StableHlo.nullary main_cst_7 (constant S_ .f32 0xFF800000#32),
    StableHlo.TRef.unary (.of main_cst_7 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S100x100, .f32⟩) (broadcastInDim S100x100 ![] bcast_S_S100x100),
    StableHlo.TRef.ternary (.of main_v47 : StableHlo.TRef sig ⟨S100x100, .i1⟩) (.of main_v35 : StableHlo.TRef sig ⟨S100x100, .f32⟩) (.of main_call4_v1 : StableHlo.TRef sig ⟨S100x100, .f32⟩) (.of main_v49 : StableHlo.TRef sig ⟨S100x100, .f32⟩) select,
    StableHlo.nullary main_cst_8 (constant S_ .f32 0x7F800000#32),
    StableHlo.binary main_v48 main_cst_8 main_v50 ((fun x v => Host.reduce FloatOps.minimumf x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_9 (constant S_ .f32 0x00000000#32),
    StableHlo.unary main_cst_9 main_v51 (broadcastInDim S100 ![] bcast_S_S100 : (⟨S_, .f32⟩ : BufTy).Contents (Elt F) → (⟨S100, .f32⟩ : BufTy).Contents (Elt F)),
    StableHlo.binary main_v50 main_v51 main_v52 (minimumf : (⟨S100, .f32⟩ : BufTy).Contents (Elt F) → (⟨S100, .f32⟩ : BufTy).Contents (Elt F) → (⟨S100, .f32⟩ : BufTy).Contents (Elt F)),
    StableHlo.nullary main_cst_10 (constant S_ .f32 0xFF800000#32),
    StableHlo.binary main_v49 main_cst_10 main_v53 ((fun x v => Host.reduce FloatOps.maximumf x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_11 (constant S_ .f32 0x00000000#32),
    StableHlo.unary main_cst_11 main_v54 (broadcastInDim S100 ![] bcast_S_S100 : (⟨S_, .f32⟩ : BufTy).Contents (Elt F) → (⟨S100, .f32⟩ : BufTy).Contents (Elt F)),
    StableHlo.binary main_v53 main_v54 main_v55 (maximumf : (⟨S100, .f32⟩ : BufTy).Contents (Elt F) → (⟨S100, .f32⟩ : BufTy).Contents (Elt F) → (⟨S100, .f32⟩ : BufTy).Contents (Elt F)),
    StableHlo.binary main_v45 main_v35 main_v56 (mulf : (⟨S100x100, .f32⟩ : BufTy).Contents (Elt F) → (⟨S100x100, .f32⟩ : BufTy).Contents (Elt F) → (⟨S100x100, .f32⟩ : BufTy).Contents (Elt F)),
    StableHlo.nullary main_cst_12 (constant S_ .f32 0x00000000#32),
    StableHlo.binary main_v56 main_cst_12 main_v57 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_13 (constant S_ .f32 0x46000000#32),
    StableHlo.unary main_cst_13 main_v58 (broadcastInDim S100 ![] bcast_S_S100 : (⟨S_, .f32⟩ : BufTy).Contents (Elt F) → (⟨S100, .f32⟩ : BufTy).Contents (Elt F)),
    StableHlo.binary main_v57 main_v58 main_v59 (Host.divf : (⟨S100, .f32⟩ : BufTy).Contents (Elt F) → (⟨S100, .f32⟩ : BufTy).Contents (Elt F) → (⟨S100, .f32⟩ : BufTy).Contents (Elt F)),
    StableHlo.unary main_v59 main_v60 (broadcastInDim S100x1 ![0] bcast_S100_S100x1_0 : (⟨S100, .f32⟩ : BufTy).Contents (Elt F) → (⟨S100x1, .f32⟩ : BufTy).Contents (Elt F)),
    StableHlo.unary main_v60 main_v61 (broadcastInDim S100x100 ![0, 1] bcast_S100x1_S100x100_0_1 : (⟨S100x1, .f32⟩ : BufTy).Contents (Elt F) → (⟨S100x100, .f32⟩ : BufTy).Contents (Elt F)),
    StableHlo.binary main_v35 main_v61 main_v62 (subf : (⟨S100x100, .f32⟩ : BufTy).Contents (Elt F) → (⟨S100x100, .f32⟩ : BufTy).Contents (Elt F) → (⟨S100x100, .f32⟩ : BufTy).Contents (Elt F)),
    StableHlo.binary main_v62 main_v62 main_v63 (mulf : (⟨S100x100, .f32⟩ : BufTy).Contents (Elt F) → (⟨S100x100, .f32⟩ : BufTy).Contents (Elt F) → (⟨S100x100, .f32⟩ : BufTy).Contents (Elt F)),
    StableHlo.binary main_v45 main_v63 main_v64 (mulf : (⟨S100x100, .f32⟩ : BufTy).Contents (Elt F) → (⟨S100x100, .f32⟩ : BufTy).Contents (Elt F) → (⟨S100x100, .f32⟩ : BufTy).Contents (Elt F)),
    StableHlo.nullary main_cst_14 (constant S_ .f32 0x00000000#32),
    StableHlo.binary main_v64 main_cst_14 main_v65 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.binary main_v59 main_v59 main_v66 (mulf : (⟨S100, .f32⟩ : BufTy).Contents (Elt F) → (⟨S100, .f32⟩ : BufTy).Contents (Elt F) → (⟨S100, .f32⟩ : BufTy).Contents (Elt F)),
    StableHlo.binary main_v65 main_v66 main_v67 (addf : (⟨S100, .f32⟩ : BufTy).Contents (Elt F) → (⟨S100, .f32⟩ : BufTy).Contents (Elt F) → (⟨S100, .f32⟩ : BufTy).Contents (Elt F)),
    StableHlo.nullary main_cst_15 (constant S_ .f32 0x45FFF800#32),
    StableHlo.unary main_cst_15 main_v68 (broadcastInDim S100 ![] bcast_S_S100 : (⟨S_, .f32⟩ : BufTy).Contents (Elt F) → (⟨S100, .f32⟩ : BufTy).Contents (Elt F)),
    StableHlo.binary main_v67 main_v68 main_v69 (Host.divf : (⟨S100, .f32⟩ : BufTy).Contents (Elt F) → (⟨S100, .f32⟩ : BufTy).Contents (Elt F) → (⟨S100, .f32⟩ : BufTy).Contents (Elt F)),
    StableHlo.nullary main_cst_16 (constant S_ .f32 0x00000000#32),
    StableHlo.unary main_cst_16 main_v70 (broadcastInDim S100 ![] bcast_S_S100 : (⟨S_, .f32⟩ : BufTy).Contents (Elt F) → (⟨S100, .f32⟩ : BufTy).Contents (Elt F)),
    StableHlo.binary main_v69 main_v70 main_v71 (maximumf : (⟨S100, .f32⟩ : BufTy).Contents (Elt F) → (⟨S100, .f32⟩ : BufTy).Contents (Elt F) → (⟨S100, .f32⟩ : BufTy).Contents (Elt F)),
    StableHlo.unary main_v71 main_v72 (Host.sqrt : (⟨S100, .f32⟩ : BufTy).Contents (Elt F) → (⟨S100, .f32⟩ : BufTy).Contents (Elt F)),
    StableHlo.binary main_v55 main_v52 main_v73 (subf : (⟨S100, .f32⟩ : BufTy).Contents (Elt F) → (⟨S100, .f32⟩ : BufTy).Contents (Elt F) → (⟨S100, .f32⟩ : BufTy).Contents (Elt F)),
    StableHlo.nullary main_cst_17 (constant S_ .f32 0x3F800000#32),
    StableHlo.unary main_cst_17 main_v74 (broadcastInDim S100 ![] bcast_S_S100 : (⟨S_, .f32⟩ : BufTy).Contents (Elt F) → (⟨S100, .f32⟩ : BufTy).Contents (Elt F)),
    StableHlo.binary main_v74 main_v73 main_v75 (Host.divf : (⟨S100, .f32⟩ : BufTy).Contents (Elt F) → (⟨S100, .f32⟩ : BufTy).Contents (Elt F) → (⟨S100, .f32⟩ : BufTy).Contents (Elt F)),
    StableHlo.unary main_v52 main_v76 (Host.negf : (⟨S100, .f32⟩ : BufTy).Contents (Elt F) → (⟨S100, .f32⟩ : BufTy).Contents (Elt F)),
    StableHlo.binary main_v76 main_v75 main_v77 (mulf : (⟨S100, .f32⟩ : BufTy).Contents (Elt F) → (⟨S100, .f32⟩ : BufTy).Contents (Elt F) → (⟨S100, .f32⟩ : BufTy).Contents (Elt F)),
    StableHlo.binary main_v59 main_v52 main_v78 (subf : (⟨S100, .f32⟩ : BufTy).Contents (Elt F) → (⟨S100, .f32⟩ : BufTy).Contents (Elt F) → (⟨S100, .f32⟩ : BufTy).Contents (Elt F)),
    StableHlo.binary main_v78 main_v75 main_v79 (mulf : (⟨S100, .f32⟩ : BufTy).Contents (Elt F) → (⟨S100, .f32⟩ : BufTy).Contents (Elt F) → (⟨S100, .f32⟩ : BufTy).Contents (Elt F)),
    StableHlo.binary main_v72 main_v75 main_v80 (mulf : (⟨S100, .f32⟩ : BufTy).Contents (Elt F) → (⟨S100, .f32⟩ : BufTy).Contents (Elt F) → (⟨S100, .f32⟩ : BufTy).Contents (Elt F)),
    StableHlo.nullary main_cst_18 (constant S_ .f32 0x40000000#32),
    StableHlo.unary main_cst_18 main_v81 (broadcastInDim S100 ![] bcast_S_S100 : (⟨S_, .f32⟩ : BufTy).Contents (Elt F) → (⟨S100, .f32⟩ : BufTy).Contents (Elt F)),
    StableHlo.binary main_v81 main_v80 main_v82 (mulf : (⟨S100, .f32⟩ : BufTy).Contents (Elt F) → (⟨S100, .f32⟩ : BufTy).Contents (Elt F) → (⟨S100, .f32⟩ : BufTy).Contents (Elt F)),
    StableHlo.binary main_v82 main_v80 main_v83 (mulf : (⟨S100, .f32⟩ : BufTy).Contents (Elt F) → (⟨S100, .f32⟩ : BufTy).Contents (Elt F) → (⟨S100, .f32⟩ : BufTy).Contents (Elt F)),
    StableHlo.nullary main_cst_19 (constant S_ .f32 0x3F800000#32),
    StableHlo.unary main_cst_19 main_v84 (broadcastInDim S100 ![] bcast_S_S100 : (⟨S_, .f32⟩ : BufTy).Contents (Elt F) → (⟨S100, .f32⟩ : BufTy).Contents (Elt F)),
    StableHlo.binary main_v84 main_v83 main_v85 (Host.divf : (⟨S100, .f32⟩ : BufTy).Contents (Elt F) → (⟨S100, .f32⟩ : BufTy).Contents (Elt F) → (⟨S100, .f32⟩ : BufTy).Contents (Elt F)),
    StableHlo.unary main_v75 main_v86 (broadcastInDim S100x1 ![0] bcast_S100_S100x1_0 : (⟨S100, .f32⟩ : BufTy).Contents (Elt F) → (⟨S100x1, .f32⟩ : BufTy).Contents (Elt F)),
    StableHlo.unary main_v86 main_v87 (broadcastInDim S100x100 ![0, 1] bcast_S100x1_S100x100_0_1 : (⟨S100x1, .f32⟩ : BufTy).Contents (Elt F) → (⟨S100x100, .f32⟩ : BufTy).Contents (Elt F)),
    StableHlo.binary main_v87 main_v35 main_v88 (mulf : (⟨S100x100, .f32⟩ : BufTy).Contents (Elt F) → (⟨S100x100, .f32⟩ : BufTy).Contents (Elt F) → (⟨S100x100, .f32⟩ : BufTy).Contents (Elt F)),
    StableHlo.unary main_v77 main_v89 (broadcastInDim S100x1 ![0] bcast_S100_S100x1_0 : (⟨S100, .f32⟩ : BufTy).Contents (Elt F) → (⟨S100x1, .f32⟩ : BufTy).Contents (Elt F)),
    StableHlo.unary main_v89 main_v90 (broadcastInDim S100x100 ![0, 1] bcast_S100x1_S100x100_0_1 : (⟨S100x1, .f32⟩ : BufTy).Contents (Elt F) → (⟨S100x100, .f32⟩ : BufTy).Contents (Elt F)),
    StableHlo.binary main_v88 main_v90 main_v91 (addf : (⟨S100x100, .f32⟩ : BufTy).Contents (Elt F) → (⟨S100x100, .f32⟩ : BufTy).Contents (Elt F) → (⟨S100x100, .f32⟩ : BufTy).Contents (Elt F)),
    StableHlo.unary main_v79 main_v92 (broadcastInDim S1x100 ![1] bcast_S100_S1x100_1 : (⟨S100, .f32⟩ : BufTy).Contents (Elt F) → (⟨S1x100, .f32⟩ : BufTy).Contents (Elt F)),
    StableHlo.unary main_v92 main_v93 (broadcastInDim S100x100 ![0, 1] bcast_S1x100_S100x100_0_1 : (⟨S1x100, .f32⟩ : BufTy).Contents (Elt F) → (⟨S100x100, .f32⟩ : BufTy).Contents (Elt F)),
    StableHlo.binary main_v91 main_v93 main_v94 (subf : (⟨S100x100, .f32⟩ : BufTy).Contents (Elt F) → (⟨S100x100, .f32⟩ : BufTy).Contents (Elt F) → (⟨S100x100, .f32⟩ : BufTy).Contents (Elt F)),
    StableHlo.binary main_v94 main_v94 main_v95 (mulf : (⟨S100x100, .f32⟩ : BufTy).Contents (Elt F) → (⟨S100x100, .f32⟩ : BufTy).Contents (Elt F) → (⟨S100x100, .f32⟩ : BufTy).Contents (Elt F)),
    StableHlo.unary main_v85 main_v96 (broadcastInDim S1x100 ![1] bcast_S100_S1x100_1 : (⟨S100, .f32⟩ : BufTy).Contents (Elt F) → (⟨S1x100, .f32⟩ : BufTy).Contents (Elt F)),
    StableHlo.unary main_v96 main_v97 (broadcastInDim S100x100 ![0, 1] bcast_S1x100_S100x100_0_1 : (⟨S1x100, .f32⟩ : BufTy).Contents (Elt F) → (⟨S100x100, .f32⟩ : BufTy).Contents (Elt F)),
    StableHlo.binary main_v95 main_v97 main_v98 (mulf : (⟨S100x100, .f32⟩ : BufTy).Contents (Elt F) → (⟨S100x100, .f32⟩ : BufTy).Contents (Elt F) → (⟨S100x100, .f32⟩ : BufTy).Contents (Elt F)),
    StableHlo.unary main_v98 main_v99 (Host.exp : (⟨S100x100, .f32⟩ : BufTy).Contents (Elt F) → (⟨S100x100, .f32⟩ : BufTy).Contents (Elt F)),
    StableHlo.nullary main_c_20 (constantI S_ 32 0#32),
    StableHlo.unary main_c_20 main_v100 (broadcastInDim S8192 ![] bcast_S_S8192 : (⟨S_, .i32⟩ : BufTy).Contents (Elt F) → (⟨S8192, .i32⟩ : BufTy).Contents (Elt F)),
    StableHlo.binary main_v11 main_v100 main_v101 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 100#32),
    StableHlo.unary main_c_21 main_v102 (broadcastInDim S8192 ![] bcast_S_S8192 : (⟨S_, .i32⟩ : BufTy).Contents (Elt F) → (⟨S8192, .i32⟩ : BufTy).Contents (Elt F)),
    StableHlo.binary main_v11 main_v102 main_v103 (addi : (⟨S8192, .i32⟩ : BufTy).Contents (Elt F) → (⟨S8192, .i32⟩ : BufTy).Contents (Elt F) → (⟨S8192, .i32⟩ : BufTy).Contents (Elt F)),
    StableHlo.ternary main_v101 main_v103 main_v11 main_v104 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v104 main_v105 (broadcastInDim S8192x1 ![0] bcast_S8192_S8192x1_0 : (⟨S8192, .i32⟩ : BufTy).Contents (Elt F) → (⟨S8192x1, .i32⟩ : BufTy).Contents (Elt F)),
    StableHlo.binary main_v99 main_v105 main_v106 ((fun x i => Host.gather gather_S100x100_S8192x1_S8192x100_1_0_n_n_0_1_1100 x i) : (⟨S100x100, .f32⟩ : BufTy).Contents (Elt F) → (⟨S8192x1, .i32⟩ : BufTy).Contents (Elt F) → (⟨S8192x100, .f32⟩ : BufTy).Contents (Elt F)),
    StableHlo.binary main_v20 main_v106 main_v107 (mulf : (⟨S8192x100, .f32⟩ : BufTy).Contents (Elt F) → (⟨S8192x100, .f32⟩ : BufTy).Contents (Elt F) → (⟨S8192x100, .f32⟩ : BufTy).Contents (Elt F)),
    StableHlo.unary main_v26 main_v108 ((truncf .bf16 · bitsLt_bf16_f32) : (⟨S8192x100, .f32⟩ : BufTy).Contents (Elt F) → (⟨S8192x100, .bf16⟩ : BufTy).Contents (Elt F)),
    StableHlo.unary main_v10 main_v109 ((truncf .bf16 · bitsLt_bf16_f32) : (⟨S8192x256, .f32⟩ : BufTy).Contents (Elt F) → (⟨S8192x256, .bf16⟩ : BufTy).Contents (Elt F)),
    StableHlo.binary main_v4 main_v9 main_v110 (mulf : (⟨S4096x256, .f32⟩ : BufTy).Contents (Elt F) → (⟨S4096x256, .f32⟩ : BufTy).Contents (Elt F) → (⟨S4096x256, .f32⟩ : BufTy).Contents (Elt F)),
    StableHlo.nullary main_cst_22 (constant S_ .f32 0x00000000#32),
    StableHlo.binary main_v110 main_cst_22 main_v111 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.nullary main_cst_23 (constant S_ .f32 0x3E4CCCCD#32),
    StableHlo.unary main_cst_23 main_v112 (broadcastInDim S4096 ![] bcast_S_S4096 : (⟨S_, .f32⟩ : BufTy).Contents (Elt F) → (⟨S4096, .f32⟩ : BufTy).Contents (Elt F)),
    StableHlo.binary main_v111 main_v112 main_v113 (Host.divf : (⟨S4096, .f32⟩ : BufTy).Contents (Elt F) → (⟨S4096, .f32⟩ : BufTy).Contents (Elt F) → (⟨S4096, .f32⟩ : BufTy).Contents (Elt F)),
    StableHlo.unary main_v113 main_v114 (Host.exp : (⟨S4096, .f32⟩ : BufTy).Contents (Elt F) → (⟨S4096, .f32⟩ : BufTy).Contents (Elt F)),
    StableHlo.binary main_v114 main_v114 main_v115 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) ]

/-- The host operations after the kernel launch, in order. -/
abbrev opsPost : List (HloOp τ sig (Elt F)) :=
  [ StableHlo.unary main_v116 main_v117 ((extractStridedSlice S8x1x1 ![0, 0, 0] · slices_S8x8x128_S8x1x1_0_0_0) : (⟨S8x8x128, .f32⟩ : BufTy).Contents (Elt F) → (⟨S8x1x1, .f32⟩ : BufTy).Contents (Elt F)),
    StableHlo.reshape main_v117 main_v118 rfl shapeCasts_S8x1x1_S8,
    StableHlo.nullary main_cst_24 (constant S_ .f32 0x00000000#32),
    StableHlo.binary main_v118 main_cst_24 main_v119 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v109 main_v120 ((extf .f32 · bitsLt_bf16_f32) : (⟨S8192x256, .bf16⟩ : BufTy).Contents (Elt F) → (⟨S8192x256, .f32⟩ : BufTy).Contents (Elt F)),
    StableHlo.binary main_v120 main_v120 main_v121 (mulf : (⟨S8192x256, .f32⟩ : BufTy).Contents (Elt F) → (⟨S8192x256, .f32⟩ : BufTy).Contents (Elt F) → (⟨S8192x256, .f32⟩ : BufTy).Contents (Elt F)),
    StableHlo.nullary main_cst_25 (constant S_ .f32 0x00000000#32),
    StableHlo.binary main_v121 main_cst_25 main_v122 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.nullary main_cst_26 (constant S_ .f32 0x3E4CCCCD#32),
    StableHlo.unary main_cst_26 main_v123 (broadcastInDim S8192 ![] bcast_S_S8192 : (⟨S_, .f32⟩ : BufTy).Contents (Elt F) → (⟨S8192, .f32⟩ : BufTy).Contents (Elt F)),
    StableHlo.binary main_v122 main_v123 main_v124 (Host.divf : (⟨S8192, .f32⟩ : BufTy).Contents (Elt F) → (⟨S8192, .f32⟩ : BufTy).Contents (Elt F) → (⟨S8192, .f32⟩ : BufTy).Contents (Elt F)),
    StableHlo.unary main_v124 main_v125 (Host.exp : (⟨S8192, .f32⟩ : BufTy).Contents (Elt F) → (⟨S8192, .f32⟩ : BufTy).Contents (Elt F)),
    StableHlo.binary main_v107 main_v26 main_v126 (mulf : (⟨S8192x100, .f32⟩ : BufTy).Contents (Elt F) → (⟨S8192x100, .f32⟩ : BufTy).Contents (Elt F) → (⟨S8192x100, .f32⟩ : BufTy).Contents (Elt F)),
    StableHlo.nullary main_cst_27 (constant S_ .f32 0x00000000#32),
    StableHlo.binary main_v126 main_cst_27 main_v127 ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)),
    StableHlo.binary main_v125 main_v127 main_v128 (mulf : (⟨S8192, .f32⟩ : BufTy).Contents (Elt F) → (⟨S8192, .f32⟩ : BufTy).Contents (Elt F) → (⟨S8192, .f32⟩ : BufTy).Contents (Elt F)),
    StableHlo.nullary main_cst_28 (constant S_ .f32 0x00000000#32),
    StableHlo.binary main_v128 main_cst_28 main_v129 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v119 main_v129 main_v130 (subf : (⟨S_, .f32⟩ : BufTy).Contents (Elt F) → (⟨S_, .f32⟩ : BufTy).Contents (Elt F) → (⟨S_, .f32⟩ : BufTy).Contents (Elt F)),
    StableHlo.unary main_v130 main_v131 (broadcastInDim S8192 ![] bcast_S_S8192 : (⟨S_, .f32⟩ : BufTy).Contents (Elt F) → (⟨S8192, .f32⟩ : BufTy).Contents (Elt F)),
    StableHlo.binary main_v115 main_v131 main_v132 (Host.divf : (⟨S8192, .f32⟩ : BufTy).Contents (Elt F) → (⟨S8192, .f32⟩ : BufTy).Contents (Elt F) → (⟨S8192, .f32⟩ : BufTy).Contents (Elt F)),
    StableHlo.unary main_v132 main_v133 (Host.log : (⟨S8192, .f32⟩ : BufTy).Contents (Elt F) → (⟨S8192, .f32⟩ : BufTy).Contents (Elt F)),
    StableHlo.unary main_v133 main_v134 (Host.negf : (⟨S8192, .f32⟩ : BufTy).Contents (Elt F) → (⟨S8192, .f32⟩ : BufTy).Contents (Elt F)),
    StableHlo.nullary main_cst_29 (constant S_ .f32 0x00000000#32),
    StableHlo.binary main_v134 main_cst_29 main_v135 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_30 (constant S_ .f32 0x46000000#32),
    StableHlo.binary main_v135 main_cst_30 main_v136 (Host.divf : (⟨S_, .f32⟩ : BufTy).Contents (Elt F) → (⟨S_, .f32⟩ : BufTy).Contents (Elt F) → (⟨S_, .f32⟩ : BufTy).Contents (Elt F)) ]

end Cert.KernelIdeal.Stages

end
-- ==== Proof.AfterLib.lean ====
/-
  A straight line of host operations in single-assignment form, read at one buffer.
  Operation k of the line writes reference k of a list of distinct references, and nothing else. Then the buffer of
  reference k holds, when the line has run, what operation k left in it; and a buffer an operation reads — written by an
  earlier operation, or by none — already held, when the operation ran, what it holds at the end. So each buffer's final
  contents are its operation's function of its operands' FINAL contents, and the line can be read one buffer at a time, in
  program order, without ever composing the operations' terms.
-/
import Idealize.ShloMosaic.Lib.StableHlo.Run

noncomputable section

namespace Cert.AfterLib

open Idealize.ShloMosaic Idealize.SL.Sem
open Idealize.ShloMosaic.StableHlo (after after_cons after_nil)

variable {τ : Topo} {sig : RefSig} {Val : EltTy → Type}

/-- Operation by operation, the line writes exactly the listed references. -/
abbrev Writes (ops : List (HloOp τ sig Val)) (wr : List (Ref sig .tc)) : Prop :=
  List.Forall₂ (fun op r => op.writes = {Proc.devRef (τ := τ) .tc r}) ops wr

/-- A reference the line never writes keeps its contents. -/
theorem after_of_not_mem : ∀ {ops : List (HloOp τ sig Val)} {wr : List (Ref sig .tc)}, Writes ops wr →
    ∀ {r : Ref sig .tc}, r ∉ wr → ∀ V : Valuation τ sig Val, after ops V (Proc.devRef .tc r) = V (Proc.devRef .tc r)
  | _, _, .nil, _, _, _ => rfl
  | _, _, .cons (a := op) (b := r') hw h, r, hr, V => by
    rw [after_cons, after_of_not_mem h (fun hm => hr (List.mem_cons_of_mem _ hm)),
      HloOp.result_of_not_mem _ _ (by
        rw [hw, Finset.mem_singleton]
        exact StableHlo.devRef_ne_of_ne (fun e => hr (e ▸ List.mem_cons_self)))]

/-- The same for the operations before operation `k`. -/
theorem after_take_of_not_mem {ops : List (HloOp τ sig Val)} {wr : List (Ref sig .tc)} (h : Writes ops wr)
    {r : Ref sig .tc} (hr : r ∉ wr) (k : Nat) (V : Valuation τ sig Val) :
    after (ops.take k) V (Proc.devRef .tc r) = V (Proc.devRef .tc r) :=
  after_of_not_mem (List.forall₂_take k h) (fun hm => hr (List.mem_of_mem_take hm)) V

/-- The buffer of reference `k` ends holding what operation `k` wrote into it, from the contents the operations before it left:
    no later operation writes it, the references being distinct. -/
theorem after_written : ∀ {ops : List (HloOp τ sig Val)} {wr : List (Ref sig .tc)}, Writes ops wr → wr.Nodup →
    ∀ (k : Nat) {op : HloOp τ sig Val} {y : Ref sig .tc}, ops[k]? = some op → wr[k]? = some y → ∀ V : Valuation τ sig Val,
      after ops V (Proc.devRef .tc y) = op.result (after (ops.take k) V) (Proc.devRef .tc y)
  | _, _, .nil, _, _, _, _, hop, _, _ => by simp at hop
  | _, _, .cons (a := o) (b := r) hw h, hnd, 0, op, y, hop, hy, V => by
    obtain rfl : o = op := by simpa using hop
    obtain rfl : r = y := by simpa using hy
    exact after_of_not_mem h (List.nodup_cons.mp hnd).1 _
  | _, _, .cons (a := o) (b := r) hw h, hnd, k + 1, op, y, hop, hy, V => by
    have := after_written h (List.nodup_cons.mp hnd).2 k (by simpa using hop) (by simpa using hy) (o.result V)
    simpa only [after_cons, List.take_succ_cons] using this

/-- What the operations before operation `k` left in the buffer of an earlier reference `j` is what the whole line leaves there. -/
theorem after_take_written : ∀ {ops : List (HloOp τ sig Val)} {wr : List (Ref sig .tc)}, Writes ops wr → wr.Nodup →
    ∀ (j k : Nat) {a : Ref sig .tc}, wr[j]? = some a → j < k → ∀ V : Valuation τ sig Val,
      after (ops.take k) V (Proc.devRef .tc a) = after ops V (Proc.devRef .tc a)
  | _, _, .nil, _, _, _, _, hj, _, _ => by simp at hj
  | _, _, .cons (a := o) (b := r) hw h, hnd, 0, k + 1, a, hj, _, V => by
    obtain rfl : r = a := by simpa using hj
    have hr := (List.nodup_cons.mp hnd).1
    rw [List.take_succ_cons, after_cons, after_cons, after_of_not_mem h hr, after_take_of_not_mem h hr]
  | _, _, .cons (a := o) (b := r) hw h, hnd, j + 1, k + 1, a, hj, hjk, V => by
    have := after_take_written h (List.nodup_cons.mp hnd).2 j k (by simpa using hj) (Nat.lt_of_succ_lt_succ hjk) (o.result V)
    simpa only [after_cons, List.take_succ_cons] using this

/-- One buffer of a single-assignment line. `lem k rfl rfl _` is `after_written` at the line: operation `k` and the
    reference it writes are read off the two lists; then that operation's result (`res`, the result lemma of its kind), then
    each operand's buffer by the fact given for it (for an earlier operation's buffer: it was final when read, and the lemma
    already proved for it). What is left is the stage's own definition, unfolded once. -/
syntax "stage_at " ident num ident " [" term,* "]" : tactic
macro_rules
  | `(tactic| stage_at $lem:ident $k:num $res:ident [$facts,*]) => `(tactic|
    (refine ($lem $k rfl rfl _).trans (($res ..).trans ?_)
     try simp only [StableHlo.TRef.ofBuf, StableHlo.TRef.toBuf, cast_eq]
     try rw [$[$facts:term],*]
     rfl))

end Cert.AfterLib

end
-- ==== Proof.KIStageRun.lean ====
/- A table, not an argument: for every buffer the host operations write, in program order, that the buffer ends at its stage of
   the table — the operation that writes it, its operands' buffers by the lemmas above it, the stage's definition. The argument is
   Proof/AfterLib.lean's: the line is in single-assignment form, so each buffer is read on its own. -/
import proofs.«427632_j79637283602625_3_alg».proof.Proof.KIStages
import proofs.«427632_j79637283602625_3_alg».proof.Proof.Gen.KernelIdeal.Launch
import proofs.«427632_j79637283602625_3_alg».proof.Proof.AfterLib

set_option maxRecDepth 16384

noncomputable section

namespace Cert.KernelIdeal.Hand

open Cert.KernelIdeal Idealize.ShloMosaic Idealize.ShloMosaic.TcCoe Idealize.SL.Sem
open Idealize.ShloMosaic.StableHlo (after)
open Cert.AfterLib

variable {F : FTy → Type} [FloatOps F] [Named F]

/-! ## The generated lists are the table's -/

theorem flatten_pre : (List.flatten [Gen.hostOps0, Gen.hostOps0_1, Gen.hostOps0_2, Gen.hostOps0_3, Gen.hostOps0_4, Gen.hostOps0_5, Gen.hostOps0_6, Gen.hostOps0_7, Gen.hostOps0_8, Gen.hostOps0_9] : List (HloOp τ sig (Elt F))) = Stages.opsPre := rfl

theorem post_eq : (Gen.hostOps1 : List (HloOp τ sig (Elt F))) = Stages.opsPost := rfl

/-! ## The two lines are in single-assignment form -/

/-- The references the operations before the launch write, in order. -/
abbrev wrPre : List (Ref sig .tc) :=
  [main_call0_v0, main_call0_cst, main_call0_v1, main_call0_v2, main_v0, main_cst, main_v1, main_v2, main_v3, main_v4, main_call1_v0, main_call1_cst, main_call1_v1, main_call1_v2, main_v5, main_cst_0, main_v6, main_v7, main_v8, main_v9, main_v10, main_v11, main_v12, main_v13, main_v14, main_v15, main_v16, main_v17, main_v18, main_c, main_v19, main_v20, main_v21, main_v22, main_v23, main_v24, main_v25, main_v26, main_call2_v0, main_call2_cst, main_call2_v1, main_call2_v2, main_v27, main_cst_1, main_v28, main_v29, main_v30, main_v31, main_v32, main_v33, main_cst_2, main_v34, main_v35, main_cst_3, main_v36, main_v37, main_v38, main_c_4, main_v39, main_v40, main_v41, main_v42, main_v43, main_v44, main_v45, main_cst_5, main_v46, main_v47, main_cst_6, main_call3_v0, main_call3_v1, main_v48, main_cst_7, main_call4_v0, main_call4_v1, main_v49, main_cst_8, main_v50, main_cst_9, main_v51, main_v52, main_cst_10, main_v53, main_cst_11, main_v54, main_v55, main_v56, main_cst_12, main_v57, main_cst_13, main_v58, main_v59, main_v60, main_v61, main_v62, main_v63, main_v64, main_cst_14, main_v65, main_v66, main_v67, main_cst_15, main_v68, main_v69, main_cst_16, main_v70, main_v71, main_v72, main_v73, main_cst_17, main_v74, main_v75, main_v76, main_v77, main_v78, main_v79, main_v80, main_cst_18, main_v81, main_v82, main_v83, main_cst_19, main_v84, main_v85, main_v86, main_v87, main_v88, main_v89, main_v90, main_v91, main_v92, main_v93, main_v94, main_v95, main_v96, main_v97, main_v98, main_v99, main_c_20, main_v100, main_v101, main_c_21, main_v102, main_v103, main_v104, main_v105, main_v106, main_v107, main_v108, main_v109, main_v110, main_cst_22, main_v111, main_cst_23, main_v112, main_v113, main_v114, main_v115]

/-- Operation by operation, that line writes these references. -/
theorem writesPre : Writes (Stages.opsPre (F := F)) wrPre := by
  repeat (first | exact List.Forall₂.nil | refine List.Forall₂.cons rfl ?_)

/-- They are distinct (their places in the signature's table are). -/
theorem nodupPre : wrPre.Nodup := List.Nodup.of_map (fun r => r.idx.val) (by decide +kernel)
theorem main_arg0_not_mem_wrPre : main_arg0 ∉ wrPre := by decide +kernel
theorem main_arg1_not_mem_wrPre : main_arg1 ∉ wrPre := by decide +kernel
theorem main_arg2_not_mem_wrPre : main_arg2 ∉ wrPre := by decide +kernel
theorem main_arg3_not_mem_wrPre : main_arg3 ∉ wrPre := by decide +kernel
theorem main_arg4_not_mem_wrPre : main_arg4 ∉ wrPre := by decide +kernel

/-- The buffer the k-th operation writes, when the line has run. -/
theorem atPre (k : Nat) {op : HloOp τ sig (Elt F)} {y : Ref sig .tc} (hop : (Stages.opsPre (F := F))[k]? = some op) (hy : wrPre[k]? = some y)
    (V : Valuation τ sig (Elt F)) :
    after (Stages.opsPre (F := F)) V (Proc.devRef .tc y) = op.result (after ((Stages.opsPre (F := F)).take k) V) (Proc.devRef .tc y) :=
  after_written writesPre nodupPre k hop hy V
/-- What operation k reads in an earlier operation's buffer is what the whole line leaves there. -/
theorem rdPre (j k : Nat) {a : Ref sig .tc} (hj : wrPre[j]? = some a) (hjk : j < k) (V : Valuation τ sig (Elt F)) :
    after ((Stages.opsPre (F := F)).take k) V (Proc.devRef .tc a) = after (Stages.opsPre (F := F)) V (Proc.devRef .tc a) :=
  after_take_written writesPre nodupPre j k hj hjk V
/-- The line never writes main_arg0. -/
theorem rdPre_main_arg0 (k : Nat) (V : Valuation τ sig (Elt F)) : after ((Stages.opsPre (F := F)).take k) V (Proc.devRef .tc main_arg0) = V (Proc.devRef .tc main_arg0) :=
  after_take_of_not_mem writesPre main_arg0_not_mem_wrPre k V
theorem keepPre_main_arg0 (V : Valuation τ sig (Elt F)) : after (Stages.opsPre (F := F)) V (Proc.devRef .tc main_arg0) = V (Proc.devRef .tc main_arg0) :=
  after_of_not_mem writesPre main_arg0_not_mem_wrPre V
/-- The line never writes main_arg1. -/
theorem rdPre_main_arg1 (k : Nat) (V : Valuation τ sig (Elt F)) : after ((Stages.opsPre (F := F)).take k) V (Proc.devRef .tc main_arg1) = V (Proc.devRef .tc main_arg1) :=
  after_take_of_not_mem writesPre main_arg1_not_mem_wrPre k V
theorem keepPre_main_arg1 (V : Valuation τ sig (Elt F)) : after (Stages.opsPre (F := F)) V (Proc.devRef .tc main_arg1) = V (Proc.devRef .tc main_arg1) :=
  after_of_not_mem writesPre main_arg1_not_mem_wrPre V
/-- The line never writes main_arg2. -/
theorem rdPre_main_arg2 (k : Nat) (V : Valuation τ sig (Elt F)) : after ((Stages.opsPre (F := F)).take k) V (Proc.devRef .tc main_arg2) = V (Proc.devRef .tc main_arg2) :=
  after_take_of_not_mem writesPre main_arg2_not_mem_wrPre k V
theorem keepPre_main_arg2 (V : Valuation τ sig (Elt F)) : after (Stages.opsPre (F := F)) V (Proc.devRef .tc main_arg2) = V (Proc.devRef .tc main_arg2) :=
  after_of_not_mem writesPre main_arg2_not_mem_wrPre V
/-- The line never writes main_arg3. -/
theorem rdPre_main_arg3 (k : Nat) (V : Valuation τ sig (Elt F)) : after ((Stages.opsPre (F := F)).take k) V (Proc.devRef .tc main_arg3) = V (Proc.devRef .tc main_arg3) :=
  after_take_of_not_mem writesPre main_arg3_not_mem_wrPre k V
theorem keepPre_main_arg3 (V : Valuation τ sig (Elt F)) : after (Stages.opsPre (F := F)) V (Proc.devRef .tc main_arg3) = V (Proc.devRef .tc main_arg3) :=
  after_of_not_mem writesPre main_arg3_not_mem_wrPre V
/-- The line never writes main_arg4. -/
theorem rdPre_main_arg4 (k : Nat) (V : Valuation τ sig (Elt F)) : after ((Stages.opsPre (F := F)).take k) V (Proc.devRef .tc main_arg4) = V (Proc.devRef .tc main_arg4) :=
  after_take_of_not_mem writesPre main_arg4_not_mem_wrPre k V
theorem keepPre_main_arg4 (V : Valuation τ sig (Elt F)) : after (Stages.opsPre (F := F)) V (Proc.devRef .tc main_arg4) = V (Proc.devRef .tc main_arg4) :=
  after_of_not_mem writesPre main_arg4_not_mem_wrPre V

/-- The references the operations after the launch write, in order. -/
abbrev wrPost : List (Ref sig .tc) :=
  [main_v117, main_v118, main_cst_24, main_v119, main_v120, main_v121, main_cst_25, main_v122, main_cst_26, main_v123, main_v124, main_v125, main_v126, main_cst_27, main_v127, main_v128, main_cst_28, main_v129, main_v130, main_v131, main_v132, main_v133, main_v134, main_cst_29, main_v135, main_cst_30, main_v136]

/-- Operation by operation, that line writes these references. -/
theorem writesPost : Writes (Stages.opsPost (F := F)) wrPost := by
  repeat (first | exact List.Forall₂.nil | refine List.Forall₂.cons rfl ?_)

/-- They are distinct (their places in the signature's table are). -/
theorem nodupPost : wrPost.Nodup := List.Nodup.of_map (fun r => r.idx.val) (by decide +kernel)
theorem main_arg0_not_mem_wrPost : main_arg0 ∉ wrPost := by decide +kernel
theorem main_arg1_not_mem_wrPost : main_arg1 ∉ wrPost := by decide +kernel
theorem main_arg2_not_mem_wrPost : main_arg2 ∉ wrPost := by decide +kernel
theorem main_arg3_not_mem_wrPost : main_arg3 ∉ wrPost := by decide +kernel
theorem main_arg4_not_mem_wrPost : main_arg4 ∉ wrPost := by decide +kernel
theorem main_v116_not_mem_wrPost : main_v116 ∉ wrPost := by decide +kernel
theorem main_v109_not_mem_wrPost : main_v109 ∉ wrPost := by decide +kernel
theorem main_v107_not_mem_wrPost : main_v107 ∉ wrPost := by decide +kernel
theorem main_v26_not_mem_wrPost : main_v26 ∉ wrPost := by decide +kernel
theorem main_v115_not_mem_wrPost : main_v115 ∉ wrPost := by decide +kernel

/-- The buffer the k-th operation writes, when the line has run. -/
theorem atPost (k : Nat) {op : HloOp τ sig (Elt F)} {y : Ref sig .tc} (hop : (Stages.opsPost (F := F))[k]? = some op) (hy : wrPost[k]? = some y)
    (V : Valuation τ sig (Elt F)) :
    after (Stages.opsPost (F := F)) V (Proc.devRef .tc y) = op.result (after ((Stages.opsPost (F := F)).take k) V) (Proc.devRef .tc y) :=
  after_written writesPost nodupPost k hop hy V
/-- What operation k reads in an earlier operation's buffer is what the whole line leaves there. -/
theorem rdPost (j k : Nat) {a : Ref sig .tc} (hj : wrPost[j]? = some a) (hjk : j < k) (V : Valuation τ sig (Elt F)) :
    after ((Stages.opsPost (F := F)).take k) V (Proc.devRef .tc a) = after (Stages.opsPost (F := F)) V (Proc.devRef .tc a) :=
  after_take_written writesPost nodupPost j k hj hjk V
/-- The line never writes main_arg0. -/
theorem rdPost_main_arg0 (k : Nat) (V : Valuation τ sig (Elt F)) : after ((Stages.opsPost (F := F)).take k) V (Proc.devRef .tc main_arg0) = V (Proc.devRef .tc main_arg0) :=
  after_take_of_not_mem writesPost main_arg0_not_mem_wrPost k V
theorem keepPost_main_arg0 (V : Valuation τ sig (Elt F)) : after (Stages.opsPost (F := F)) V (Proc.devRef .tc main_arg0) = V (Proc.devRef .tc main_arg0) :=
  after_of_not_mem writesPost main_arg0_not_mem_wrPost V
/-- The line never writes main_arg1. -/
theorem rdPost_main_arg1 (k : Nat) (V : Valuation τ sig (Elt F)) : after ((Stages.opsPost (F := F)).take k) V (Proc.devRef .tc main_arg1) = V (Proc.devRef .tc main_arg1) :=
  after_take_of_not_mem writesPost main_arg1_not_mem_wrPost k V
theorem keepPost_main_arg1 (V : Valuation τ sig (Elt F)) : after (Stages.opsPost (F := F)) V (Proc.devRef .tc main_arg1) = V (Proc.devRef .tc main_arg1) :=
  after_of_not_mem writesPost main_arg1_not_mem_wrPost V
/-- The line never writes main_arg2. -/
theorem rdPost_main_arg2 (k : Nat) (V : Valuation τ sig (Elt F)) : after ((Stages.opsPost (F := F)).take k) V (Proc.devRef .tc main_arg2) = V (Proc.devRef .tc main_arg2) :=
  after_take_of_not_mem writesPost main_arg2_not_mem_wrPost k V
theorem keepPost_main_arg2 (V : Valuation τ sig (Elt F)) : after (Stages.opsPost (F := F)) V (Proc.devRef .tc main_arg2) = V (Proc.devRef .tc main_arg2) :=
  after_of_not_mem writesPost main_arg2_not_mem_wrPost V
/-- The line never writes main_arg3. -/
theorem rdPost_main_arg3 (k : Nat) (V : Valuation τ sig (Elt F)) : after ((Stages.opsPost (F := F)).take k) V (Proc.devRef .tc main_arg3) = V (Proc.devRef .tc main_arg3) :=
  after_take_of_not_mem writesPost main_arg3_not_mem_wrPost k V
theorem keepPost_main_arg3 (V : Valuation τ sig (Elt F)) : after (Stages.opsPost (F := F)) V (Proc.devRef .tc main_arg3) = V (Proc.devRef .tc main_arg3) :=
  after_of_not_mem writesPost main_arg3_not_mem_wrPost V
/-- The line never writes main_arg4. -/
theorem rdPost_main_arg4 (k : Nat) (V : Valuation τ sig (Elt F)) : after ((Stages.opsPost (F := F)).take k) V (Proc.devRef .tc main_arg4) = V (Proc.devRef .tc main_arg4) :=
  after_take_of_not_mem writesPost main_arg4_not_mem_wrPost k V
theorem keepPost_main_arg4 (V : Valuation τ sig (Elt F)) : after (Stages.opsPost (F := F)) V (Proc.devRef .tc main_arg4) = V (Proc.devRef .tc main_arg4) :=
  after_of_not_mem writesPost main_arg4_not_mem_wrPost V
/-- The line never writes main_v116. -/
theorem rdPost_main_v116 (k : Nat) (V : Valuation τ sig (Elt F)) : after ((Stages.opsPost (F := F)).take k) V (Proc.devRef .tc main_v116) = V (Proc.devRef .tc main_v116) :=
  after_take_of_not_mem writesPost main_v116_not_mem_wrPost k V
theorem keepPost_main_v116 (V : Valuation τ sig (Elt F)) : after (Stages.opsPost (F := F)) V (Proc.devRef .tc main_v116) = V (Proc.devRef .tc main_v116) :=
  after_of_not_mem writesPost main_v116_not_mem_wrPost V
/-- The line never writes main_v109. -/
theorem rdPost_main_v109 (k : Nat) (V : Valuation τ sig (Elt F)) : after ((Stages.opsPost (F := F)).take k) V (Proc.devRef .tc main_v109) = V (Proc.devRef .tc main_v109) :=
  after_take_of_not_mem writesPost main_v109_not_mem_wrPost k V
theorem keepPost_main_v109 (V : Valuation τ sig (Elt F)) : after (Stages.opsPost (F := F)) V (Proc.devRef .tc main_v109) = V (Proc.devRef .tc main_v109) :=
  after_of_not_mem writesPost main_v109_not_mem_wrPost V
/-- The line never writes main_v107. -/
theorem rdPost_main_v107 (k : Nat) (V : Valuation τ sig (Elt F)) : after ((Stages.opsPost (F := F)).take k) V (Proc.devRef .tc main_v107) = V (Proc.devRef .tc main_v107) :=
  after_take_of_not_mem writesPost main_v107_not_mem_wrPost k V
theorem keepPost_main_v107 (V : Valuation τ sig (Elt F)) : after (Stages.opsPost (F := F)) V (Proc.devRef .tc main_v107) = V (Proc.devRef .tc main_v107) :=
  after_of_not_mem writesPost main_v107_not_mem_wrPost V
/-- The line never writes main_v26. -/
theorem rdPost_main_v26 (k : Nat) (V : Valuation τ sig (Elt F)) : after ((Stages.opsPost (F := F)).take k) V (Proc.devRef .tc main_v26) = V (Proc.devRef .tc main_v26) :=
  after_take_of_not_mem writesPost main_v26_not_mem_wrPost k V
theorem keepPost_main_v26 (V : Valuation τ sig (Elt F)) : after (Stages.opsPost (F := F)) V (Proc.devRef .tc main_v26) = V (Proc.devRef .tc main_v26) :=
  after_of_not_mem writesPost main_v26_not_mem_wrPost V
/-- The line never writes main_v115. -/
theorem rdPost_main_v115 (k : Nat) (V : Valuation τ sig (Elt F)) : after ((Stages.opsPost (F := F)).take k) V (Proc.devRef .tc main_v115) = V (Proc.devRef .tc main_v115) :=
  after_take_of_not_mem writesPost main_v115_not_mem_wrPost k V
theorem keepPost_main_v115 (V : Valuation τ sig (Elt F)) : after (Stages.opsPost (F := F)) V (Proc.devRef .tc main_v115) = V (Proc.devRef .tc main_v115) :=
  after_of_not_mem writesPost main_v115_not_mem_wrPost V

/-! ## Before the launch: every written buffer is its stage of the argument arrays -/

theorem pre_main_call0_v0 (V : Valuation τ sig (Elt F)) : after (Stages.opsPre (F := F)) V (Proc.devRef .tc main_call0_v0) = Stages.res_main_call0_v0 (V (Proc.devRef .tc main_arg0)) (V (Proc.devRef .tc main_arg1)) (V (Proc.devRef .tc main_arg2)) (V (Proc.devRef .tc main_arg3)) (V (Proc.devRef .tc main_arg4)) := by
  stage_at atPre 0 StableHlo.binary_result [rdPre_main_arg0 0 V]
theorem pre_main_call0_cst (V : Valuation τ sig (Elt F)) : after (Stages.opsPre (F := F)) V (Proc.devRef .tc main_call0_cst) = Stages.res_main_call0_cst (V (Proc.devRef .tc main_arg0)) (V (Proc.devRef .tc main_arg1)) (V (Proc.devRef .tc main_arg2)) (V (Proc.devRef .tc main_arg3)) (V (Proc.devRef .tc main_arg4)) := by
  stage_at atPre 1 StableHlo.nullary_result []
theorem pre_main_call0_v1 (V : Valuation τ sig (Elt F)) : after (Stages.opsPre (F := F)) V (Proc.devRef .tc main_call0_v1) = Stages.res_main_call0_v1 (V (Proc.devRef .tc main_arg0)) (V (Proc.devRef .tc main_arg1)) (V (Proc.devRef .tc main_arg2)) (V (Proc.devRef .tc main_arg3)) (V (Proc.devRef .tc main_arg4)) := by
  stage_at atPre 2 StableHlo.binary_result [(rdPre 0 2 rfl (by decide) V).trans (pre_main_call0_v0 V), (rdPre 1 2 rfl (by decide) V).trans (pre_main_call0_cst V)]
theorem pre_main_call0_v2 (V : Valuation τ sig (Elt F)) : after (Stages.opsPre (F := F)) V (Proc.devRef .tc main_call0_v2) = Stages.res_main_call0_v2 (V (Proc.devRef .tc main_arg0)) (V (Proc.devRef .tc main_arg1)) (V (Proc.devRef .tc main_arg2)) (V (Proc.devRef .tc main_arg3)) (V (Proc.devRef .tc main_arg4)) := by
  stage_at atPre 3 StableHlo.unary_result [(rdPre 2 3 rfl (by decide) V).trans (pre_main_call0_v1 V)]
theorem pre_main_v0 (V : Valuation τ sig (Elt F)) : after (Stages.opsPre (F := F)) V (Proc.devRef .tc main_v0) = Stages.res_main_v0 (V (Proc.devRef .tc main_arg0)) (V (Proc.devRef .tc main_arg1)) (V (Proc.devRef .tc main_arg2)) (V (Proc.devRef .tc main_arg3)) (V (Proc.devRef .tc main_arg4)) := by
  stage_at atPre 4 StableHlo.unary_result [(rdPre 3 4 rfl (by decide) V).trans (pre_main_call0_v2 V)]
theorem pre_main_cst (V : Valuation τ sig (Elt F)) : after (Stages.opsPre (F := F)) V (Proc.devRef .tc main_cst) = Stages.res_main_cst (V (Proc.devRef .tc main_arg0)) (V (Proc.devRef .tc main_arg1)) (V (Proc.devRef .tc main_arg2)) (V (Proc.devRef .tc main_arg3)) (V (Proc.devRef .tc main_arg4)) := by
  stage_at atPre 5 StableHlo.nullary_result []
theorem pre_main_v1 (V : Valuation τ sig (Elt F)) : after (Stages.opsPre (F := F)) V (Proc.devRef .tc main_v1) = Stages.res_main_v1 (V (Proc.devRef .tc main_arg0)) (V (Proc.devRef .tc main_arg1)) (V (Proc.devRef .tc main_arg2)) (V (Proc.devRef .tc main_arg3)) (V (Proc.devRef .tc main_arg4)) := by
  stage_at atPre 6 StableHlo.unary_result [(rdPre 5 6 rfl (by decide) V).trans (pre_main_cst V)]
theorem pre_main_v2 (V : Valuation τ sig (Elt F)) : after (Stages.opsPre (F := F)) V (Proc.devRef .tc main_v2) = Stages.res_main_v2 (V (Proc.devRef .tc main_arg0)) (V (Proc.devRef .tc main_arg1)) (V (Proc.devRef .tc main_arg2)) (V (Proc.devRef .tc main_arg3)) (V (Proc.devRef .tc main_arg4)) := by
  stage_at atPre 7 StableHlo.binary_result [(rdPre 4 7 rfl (by decide) V).trans (pre_main_v0 V), (rdPre 6 7 rfl (by decide) V).trans (pre_main_v1 V)]
theorem pre_main_v3 (V : Valuation τ sig (Elt F)) : after (Stages.opsPre (F := F)) V (Proc.devRef .tc main_v3) = Stages.res_main_v3 (V (Proc.devRef .tc main_arg0)) (V (Proc.devRef .tc main_arg1)) (V (Proc.devRef .tc main_arg2)) (V (Proc.devRef .tc main_arg3)) (V (Proc.devRef .tc main_arg4)) := by
  stage_at atPre 8 StableHlo.unary_result [(rdPre 7 8 rfl (by decide) V).trans (pre_main_v2 V)]
theorem pre_main_v4 (V : Valuation τ sig (Elt F)) : after (Stages.opsPre (F := F)) V (Proc.devRef .tc main_v4) = Stages.res_main_v4 (V (Proc.devRef .tc main_arg0)) (V (Proc.devRef .tc main_arg1)) (V (Proc.devRef .tc main_arg2)) (V (Proc.devRef .tc main_arg3)) (V (Proc.devRef .tc main_arg4)) := by
  stage_at atPre 9 StableHlo.binary_result [rdPre_main_arg0 9 V, (rdPre 8 9 rfl (by decide) V).trans (pre_main_v3 V)]
theorem pre_main_call1_v0 (V : Valuation τ sig (Elt F)) : after (Stages.opsPre (F := F)) V (Proc.devRef .tc main_call1_v0) = Stages.res_main_call1_v0 (V (Proc.devRef .tc main_arg0)) (V (Proc.devRef .tc main_arg1)) (V (Proc.devRef .tc main_arg2)) (V (Proc.devRef .tc main_arg3)) (V (Proc.devRef .tc main_arg4)) := by
  stage_at atPre 10 StableHlo.binary_result [rdPre_main_arg1 10 V]
theorem pre_main_call1_cst (V : Valuation τ sig (Elt F)) : after (Stages.opsPre (F := F)) V (Proc.devRef .tc main_call1_cst) = Stages.res_main_call1_cst (V (Proc.devRef .tc main_arg0)) (V (Proc.devRef .tc main_arg1)) (V (Proc.devRef .tc main_arg2)) (V (Proc.devRef .tc main_arg3)) (V (Proc.devRef .tc main_arg4)) := by
  stage_at atPre 11 StableHlo.nullary_result []
theorem pre_main_call1_v1 (V : Valuation τ sig (Elt F)) : after (Stages.opsPre (F := F)) V (Proc.devRef .tc main_call1_v1) = Stages.res_main_call1_v1 (V (Proc.devRef .tc main_arg0)) (V (Proc.devRef .tc main_arg1)) (V (Proc.devRef .tc main_arg2)) (V (Proc.devRef .tc main_arg3)) (V (Proc.devRef .tc main_arg4)) := by
  stage_at atPre 12 StableHlo.binary_result [(rdPre 10 12 rfl (by decide) V).trans (pre_main_call1_v0 V), (rdPre 11 12 rfl (by decide) V).trans (pre_main_call1_cst V)]
theorem pre_main_call1_v2 (V : Valuation τ sig (Elt F)) : after (Stages.opsPre (F := F)) V (Proc.devRef .tc main_call1_v2) = Stages.res_main_call1_v2 (V (Proc.devRef .tc main_arg0)) (V (Proc.devRef .tc main_arg1)) (V (Proc.devRef .tc main_arg2)) (V (Proc.devRef .tc main_arg3)) (V (Proc.devRef .tc main_arg4)) := by
  stage_at atPre 13 StableHlo.unary_result [(rdPre 12 13 rfl (by decide) V).trans (pre_main_call1_v1 V)]
theorem pre_main_v5 (V : Valuation τ sig (Elt F)) : after (Stages.opsPre (F := F)) V (Proc.devRef .tc main_v5) = Stages.res_main_v5 (V (Proc.devRef .tc main_arg0)) (V (Proc.devRef .tc main_arg1)) (V (Proc.devRef .tc main_arg2)) (V (Proc.devRef .tc main_arg3)) (V (Proc.devRef .tc main_arg4)) := by
  stage_at atPre 14 StableHlo.unary_result [(rdPre 13 14 rfl (by decide) V).trans (pre_main_call1_v2 V)]
theorem pre_main_cst_0 (V : Valuation τ sig (Elt F)) : after (Stages.opsPre (F := F)) V (Proc.devRef .tc main_cst_0) = Stages.res_main_cst_0 (V (Proc.devRef .tc main_arg0)) (V (Proc.devRef .tc main_arg1)) (V (Proc.devRef .tc main_arg2)) (V (Proc.devRef .tc main_arg3)) (V (Proc.devRef .tc main_arg4)) := by
  stage_at atPre 15 StableHlo.nullary_result []
theorem pre_main_v6 (V : Valuation τ sig (Elt F)) : after (Stages.opsPre (F := F)) V (Proc.devRef .tc main_v6) = Stages.res_main_v6 (V (Proc.devRef .tc main_arg0)) (V (Proc.devRef .tc main_arg1)) (V (Proc.devRef .tc main_arg2)) (V (Proc.devRef .tc main_arg3)) (V (Proc.devRef .tc main_arg4)) := by
  stage_at atPre 16 StableHlo.unary_result [(rdPre 15 16 rfl (by decide) V).trans (pre_main_cst_0 V)]
theorem pre_main_v7 (V : Valuation τ sig (Elt F)) : after (Stages.opsPre (F := F)) V (Proc.devRef .tc main_v7) = Stages.res_main_v7 (V (Proc.devRef .tc main_arg0)) (V (Proc.devRef .tc main_arg1)) (V (Proc.devRef .tc main_arg2)) (V (Proc.devRef .tc main_arg3)) (V (Proc.devRef .tc main_arg4)) := by
  stage_at atPre 17 StableHlo.binary_result [(rdPre 14 17 rfl (by decide) V).trans (pre_main_v5 V), (rdPre 16 17 rfl (by decide) V).trans (pre_main_v6 V)]
theorem pre_main_v8 (V : Valuation τ sig (Elt F)) : after (Stages.opsPre (F := F)) V (Proc.devRef .tc main_v8) = Stages.res_main_v8 (V (Proc.devRef .tc main_arg0)) (V (Proc.devRef .tc main_arg1)) (V (Proc.devRef .tc main_arg2)) (V (Proc.devRef .tc main_arg3)) (V (Proc.devRef .tc main_arg4)) := by
  stage_at atPre 18 StableHlo.unary_result [(rdPre 17 18 rfl (by decide) V).trans (pre_main_v7 V)]
theorem pre_main_v9 (V : Valuation τ sig (Elt F)) : after (Stages.opsPre (F := F)) V (Proc.devRef .tc main_v9) = Stages.res_main_v9 (V (Proc.devRef .tc main_arg0)) (V (Proc.devRef .tc main_arg1)) (V (Proc.devRef .tc main_arg2)) (V (Proc.devRef .tc main_arg3)) (V (Proc.devRef .tc main_arg4)) := by
  stage_at atPre 19 StableHlo.binary_result [rdPre_main_arg1 19 V, (rdPre 18 19 rfl (by decide) V).trans (pre_main_v8 V)]
theorem pre_main_v10 (V : Valuation τ sig (Elt F)) : after (Stages.opsPre (F := F)) V (Proc.devRef .tc main_v10) = Stages.res_main_v10 (V (Proc.devRef .tc main_arg0)) (V (Proc.devRef .tc main_arg1)) (V (Proc.devRef .tc main_arg2)) (V (Proc.devRef .tc main_arg3)) (V (Proc.devRef .tc main_arg4)) := by
  stage_at atPre 20 StableHlo.binary_result [(rdPre 9 20 rfl (by decide) V).trans (pre_main_v4 V), (rdPre 19 20 rfl (by decide) V).trans (pre_main_v9 V)]
theorem pre_main_v11 (V : Valuation τ sig (Elt F)) : after (Stages.opsPre (F := F)) V (Proc.devRef .tc main_v11) = Stages.res_main_v11 (V (Proc.devRef .tc main_arg0)) (V (Proc.devRef .tc main_arg1)) (V (Proc.devRef .tc main_arg2)) (V (Proc.devRef .tc main_arg3)) (V (Proc.devRef .tc main_arg4)) := by
  stage_at atPre 21 StableHlo.reshape_result [rdPre_main_arg3 21 V]
theorem pre_main_v12 (V : Valuation τ sig (Elt F)) : after (Stages.opsPre (F := F)) V (Proc.devRef .tc main_v12) = Stages.res_main_v12 (V (Proc.devRef .tc main_arg0)) (V (Proc.devRef .tc main_arg1)) (V (Proc.devRef .tc main_arg2)) (V (Proc.devRef .tc main_arg3)) (V (Proc.devRef .tc main_arg4)) := by
  stage_at atPre 22 StableHlo.reshape_result [rdPre_main_arg4 22 V]
theorem pre_main_v13 (V : Valuation τ sig (Elt F)) : after (Stages.opsPre (F := F)) V (Proc.devRef .tc main_v13) = Stages.res_main_v13 (V (Proc.devRef .tc main_arg0)) (V (Proc.devRef .tc main_arg1)) (V (Proc.devRef .tc main_arg2)) (V (Proc.devRef .tc main_arg3)) (V (Proc.devRef .tc main_arg4)) := by
  stage_at atPre 23 StableHlo.nullary_result []
theorem pre_main_v14 (V : Valuation τ sig (Elt F)) : after (Stages.opsPre (F := F)) V (Proc.devRef .tc main_v14) = Stages.res_main_v14 (V (Proc.devRef .tc main_arg0)) (V (Proc.devRef .tc main_arg1)) (V (Proc.devRef .tc main_arg2)) (V (Proc.devRef .tc main_arg3)) (V (Proc.devRef .tc main_arg4)) := by
  stage_at atPre 24 StableHlo.unary_result [(rdPre 22 24 rfl (by decide) V).trans (pre_main_v12 V)]
theorem pre_main_v15 (V : Valuation τ sig (Elt F)) : after (Stages.opsPre (F := F)) V (Proc.devRef .tc main_v15) = Stages.res_main_v15 (V (Proc.devRef .tc main_arg0)) (V (Proc.devRef .tc main_arg1)) (V (Proc.devRef .tc main_arg2)) (V (Proc.devRef .tc main_arg3)) (V (Proc.devRef .tc main_arg4)) := by
  stage_at atPre 25 StableHlo.unary_result [(rdPre 23 25 rfl (by decide) V).trans (pre_main_v13 V)]
theorem pre_main_v16 (V : Valuation τ sig (Elt F)) : after (Stages.opsPre (F := F)) V (Proc.devRef .tc main_v16) = Stages.res_main_v16 (V (Proc.devRef .tc main_arg0)) (V (Proc.devRef .tc main_arg1)) (V (Proc.devRef .tc main_arg2)) (V (Proc.devRef .tc main_arg3)) (V (Proc.devRef .tc main_arg4)) := by
  stage_at atPre 26 StableHlo.unary_result [(rdPre 24 26 rfl (by decide) V).trans (pre_main_v14 V)]
theorem pre_main_v17 (V : Valuation τ sig (Elt F)) : after (Stages.opsPre (F := F)) V (Proc.devRef .tc main_v17) = Stages.res_main_v17 (V (Proc.devRef .tc main_arg0)) (V (Proc.devRef .tc main_arg1)) (V (Proc.devRef .tc main_arg2)) (V (Proc.devRef .tc main_arg3)) (V (Proc.devRef .tc main_arg4)) := by
  stage_at atPre 27 StableHlo.unary_result [(rdPre 25 27 rfl (by decide) V).trans (pre_main_v15 V)]
theorem pre_main_v18 (V : Valuation τ sig (Elt F)) : after (Stages.opsPre (F := F)) V (Proc.devRef .tc main_v18) = Stages.res_main_v18 (V (Proc.devRef .tc main_arg0)) (V (Proc.devRef .tc main_arg1)) (V (Proc.devRef .tc main_arg2)) (V (Proc.devRef .tc main_arg3)) (V (Proc.devRef .tc main_arg4)) := by
  stage_at atPre 28 StableHlo.binary_result [(rdPre 26 28 rfl (by decide) V).trans (pre_main_v16 V), (rdPre 27 28 rfl (by decide) V).trans (pre_main_v17 V)]
theorem pre_main_c (V : Valuation τ sig (Elt F)) : after (Stages.opsPre (F := F)) V (Proc.devRef .tc main_c) = Stages.res_main_c (V (Proc.devRef .tc main_arg0)) (V (Proc.devRef .tc main_arg1)) (V (Proc.devRef .tc main_arg2)) (V (Proc.devRef .tc main_arg3)) (V (Proc.devRef .tc main_arg4)) := by
  stage_at atPre 29 StableHlo.nullary_result []
theorem pre_main_v19 (V : Valuation τ sig (Elt F)) : after (Stages.opsPre (F := F)) V (Proc.devRef .tc main_v19) = Stages.res_main_v19 (V (Proc.devRef .tc main_arg0)) (V (Proc.devRef .tc main_arg1)) (V (Proc.devRef .tc main_arg2)) (V (Proc.devRef .tc main_arg3)) (V (Proc.devRef .tc main_arg4)) := by
  stage_at atPre 30 StableHlo.binary_result [(rdPre 28 30 rfl (by decide) V).trans (pre_main_v18 V), (rdPre 29 30 rfl (by decide) V).trans (pre_main_c V)]
theorem pre_main_v20 (V : Valuation τ sig (Elt F)) : after (Stages.opsPre (F := F)) V (Proc.devRef .tc main_v20) = Stages.res_main_v20 (V (Proc.devRef .tc main_arg0)) (V (Proc.devRef .tc main_arg1)) (V (Proc.devRef .tc main_arg2)) (V (Proc.devRef .tc main_arg3)) (V (Proc.devRef .tc main_arg4)) := by
  stage_at atPre 31 StableHlo.unary_result [(rdPre 30 31 rfl (by decide) V).trans (pre_main_v19 V)]
theorem pre_main_v21 (V : Valuation τ sig (Elt F)) : after (Stages.opsPre (F := F)) V (Proc.devRef .tc main_v21) = Stages.res_main_v21 (V (Proc.devRef .tc main_arg0)) (V (Proc.devRef .tc main_arg1)) (V (Proc.devRef .tc main_arg2)) (V (Proc.devRef .tc main_arg3)) (V (Proc.devRef .tc main_arg4)) := by
  stage_at atPre 32 StableHlo.unary_result [(rdPre 21 32 rfl (by decide) V).trans (pre_main_v11 V)]
theorem pre_main_v22 (V : Valuation τ sig (Elt F)) : after (Stages.opsPre (F := F)) V (Proc.devRef .tc main_v22) = Stages.res_main_v22 (V (Proc.devRef .tc main_arg0)) (V (Proc.devRef .tc main_arg1)) (V (Proc.devRef .tc main_arg2)) (V (Proc.devRef .tc main_arg3)) (V (Proc.devRef .tc main_arg4)) := by
  stage_at atPre 33 StableHlo.unary_result [(rdPre 23 33 rfl (by decide) V).trans (pre_main_v13 V)]
theorem pre_main_v23 (V : Valuation τ sig (Elt F)) : after (Stages.opsPre (F := F)) V (Proc.devRef .tc main_v23) = Stages.res_main_v23 (V (Proc.devRef .tc main_arg0)) (V (Proc.devRef .tc main_arg1)) (V (Proc.devRef .tc main_arg2)) (V (Proc.devRef .tc main_arg3)) (V (Proc.devRef .tc main_arg4)) := by
  stage_at atPre 34 StableHlo.unary_result [(rdPre 32 34 rfl (by decide) V).trans (pre_main_v21 V)]
theorem pre_main_v24 (V : Valuation τ sig (Elt F)) : after (Stages.opsPre (F := F)) V (Proc.devRef .tc main_v24) = Stages.res_main_v24 (V (Proc.devRef .tc main_arg0)) (V (Proc.devRef .tc main_arg1)) (V (Proc.devRef .tc main_arg2)) (V (Proc.devRef .tc main_arg3)) (V (Proc.devRef .tc main_arg4)) := by
  stage_at atPre 35 StableHlo.unary_result [(rdPre 33 35 rfl (by decide) V).trans (pre_main_v22 V)]
theorem pre_main_v25 (V : Valuation τ sig (Elt F)) : after (Stages.opsPre (F := F)) V (Proc.devRef .tc main_v25) = Stages.res_main_v25 (V (Proc.devRef .tc main_arg0)) (V (Proc.devRef .tc main_arg1)) (V (Proc.devRef .tc main_arg2)) (V (Proc.devRef .tc main_arg3)) (V (Proc.devRef .tc main_arg4)) := by
  stage_at atPre 36 StableHlo.binary_result [(rdPre 34 36 rfl (by decide) V).trans (pre_main_v23 V), (rdPre 35 36 rfl (by decide) V).trans (pre_main_v24 V)]
theorem pre_main_v26 (V : Valuation τ sig (Elt F)) : after (Stages.opsPre (F := F)) V (Proc.devRef .tc main_v26) = Stages.res_main_v26 (V (Proc.devRef .tc main_arg0)) (V (Proc.devRef .tc main_arg1)) (V (Proc.devRef .tc main_arg2)) (V (Proc.devRef .tc main_arg3)) (V (Proc.devRef .tc main_arg4)) := by
  stage_at atPre 37 StableHlo.unary_result [(rdPre 36 37 rfl (by decide) V).trans (pre_main_v25 V)]
theorem pre_main_call2_v0 (V : Valuation τ sig (Elt F)) : after (Stages.opsPre (F := F)) V (Proc.devRef .tc main_call2_v0) = Stages.res_main_call2_v0 (V (Proc.devRef .tc main_arg0)) (V (Proc.devRef .tc main_arg1)) (V (Proc.devRef .tc main_arg2)) (V (Proc.devRef .tc main_arg3)) (V (Proc.devRef .tc main_arg4)) := by
  stage_at atPre 38 StableHlo.binary_result [rdPre_main_arg2 38 V]
theorem pre_main_call2_cst (V : Valuation τ sig (Elt F)) : after (Stages.opsPre (F := F)) V (Proc.devRef .tc main_call2_cst) = Stages.res_main_call2_cst (V (Proc.devRef .tc main_arg0)) (V (Proc.devRef .tc main_arg1)) (V (Proc.devRef .tc main_arg2)) (V (Proc.devRef .tc main_arg3)) (V (Proc.devRef .tc main_arg4)) := by
  stage_at atPre 39 StableHlo.nullary_result []
theorem pre_main_call2_v1 (V : Valuation τ sig (Elt F)) : after (Stages.opsPre (F := F)) V (Proc.devRef .tc main_call2_v1) = Stages.res_main_call2_v1 (V (Proc.devRef .tc main_arg0)) (V (Proc.devRef .tc main_arg1)) (V (Proc.devRef .tc main_arg2)) (V (Proc.devRef .tc main_arg3)) (V (Proc.devRef .tc main_arg4)) := by
  stage_at atPre 40 StableHlo.binary_result [(rdPre 38 40 rfl (by decide) V).trans (pre_main_call2_v0 V), (rdPre 39 40 rfl (by decide) V).trans (pre_main_call2_cst V)]
theorem pre_main_call2_v2 (V : Valuation τ sig (Elt F)) : after (Stages.opsPre (F := F)) V (Proc.devRef .tc main_call2_v2) = Stages.res_main_call2_v2 (V (Proc.devRef .tc main_arg0)) (V (Proc.devRef .tc main_arg1)) (V (Proc.devRef .tc main_arg2)) (V (Proc.devRef .tc main_arg3)) (V (Proc.devRef .tc main_arg4)) := by
  stage_at atPre 41 StableHlo.unary_result [(rdPre 40 41 rfl (by decide) V).trans (pre_main_call2_v1 V)]
theorem pre_main_v27 (V : Valuation τ sig (Elt F)) : after (Stages.opsPre (F := F)) V (Proc.devRef .tc main_v27) = Stages.res_main_v27 (V (Proc.devRef .tc main_arg0)) (V (Proc.devRef .tc main_arg1)) (V (Proc.devRef .tc main_arg2)) (V (Proc.devRef .tc main_arg3)) (V (Proc.devRef .tc main_arg4)) := by
  stage_at atPre 42 StableHlo.unary_result [(rdPre 41 42 rfl (by decide) V).trans (pre_main_call2_v2 V)]
theorem pre_main_cst_1 (V : Valuation τ sig (Elt F)) : after (Stages.opsPre (F := F)) V (Proc.devRef .tc main_cst_1) = Stages.res_main_cst_1 (V (Proc.devRef .tc main_arg0)) (V (Proc.devRef .tc main_arg1)) (V (Proc.devRef .tc main_arg2)) (V (Proc.devRef .tc main_arg3)) (V (Proc.devRef .tc main_arg4)) := by
  stage_at atPre 43 StableHlo.nullary_result []
theorem pre_main_v28 (V : Valuation τ sig (Elt F)) : after (Stages.opsPre (F := F)) V (Proc.devRef .tc main_v28) = Stages.res_main_v28 (V (Proc.devRef .tc main_arg0)) (V (Proc.devRef .tc main_arg1)) (V (Proc.devRef .tc main_arg2)) (V (Proc.devRef .tc main_arg3)) (V (Proc.devRef .tc main_arg4)) := by
  stage_at atPre 44 StableHlo.unary_result [(rdPre 43 44 rfl (by decide) V).trans (pre_main_cst_1 V)]
theorem pre_main_v29 (V : Valuation τ sig (Elt F)) : after (Stages.opsPre (F := F)) V (Proc.devRef .tc main_v29) = Stages.res_main_v29 (V (Proc.devRef .tc main_arg0)) (V (Proc.devRef .tc main_arg1)) (V (Proc.devRef .tc main_arg2)) (V (Proc.devRef .tc main_arg3)) (V (Proc.devRef .tc main_arg4)) := by
  stage_at atPre 45 StableHlo.binary_result [(rdPre 42 45 rfl (by decide) V).trans (pre_main_v27 V), (rdPre 44 45 rfl (by decide) V).trans (pre_main_v28 V)]
theorem pre_main_v30 (V : Valuation τ sig (Elt F)) : after (Stages.opsPre (F := F)) V (Proc.devRef .tc main_v30) = Stages.res_main_v30 (V (Proc.devRef .tc main_arg0)) (V (Proc.devRef .tc main_arg1)) (V (Proc.devRef .tc main_arg2)) (V (Proc.devRef .tc main_arg3)) (V (Proc.devRef .tc main_arg4)) := by
  stage_at atPre 46 StableHlo.unary_result [(rdPre 45 46 rfl (by decide) V).trans (pre_main_v29 V)]
theorem pre_main_v31 (V : Valuation τ sig (Elt F)) : after (Stages.opsPre (F := F)) V (Proc.devRef .tc main_v31) = Stages.res_main_v31 (V (Proc.devRef .tc main_arg0)) (V (Proc.devRef .tc main_arg1)) (V (Proc.devRef .tc main_arg2)) (V (Proc.devRef .tc main_arg3)) (V (Proc.devRef .tc main_arg4)) := by
  stage_at atPre 47 StableHlo.binary_result [rdPre_main_arg2 47 V, (rdPre 46 47 rfl (by decide) V).trans (pre_main_v30 V)]
theorem pre_main_v32 (V : Valuation τ sig (Elt F)) : after (Stages.opsPre (F := F)) V (Proc.devRef .tc main_v32) = Stages.res_main_v32 (V (Proc.devRef .tc main_arg0)) (V (Proc.devRef .tc main_arg1)) (V (Proc.devRef .tc main_arg2)) (V (Proc.devRef .tc main_arg3)) (V (Proc.devRef .tc main_arg4)) := by
  stage_at atPre 48 StableHlo.unary_result [(rdPre 47 48 rfl (by decide) V).trans (pre_main_v31 V)]
theorem pre_main_v33 (V : Valuation τ sig (Elt F)) : after (Stages.opsPre (F := F)) V (Proc.devRef .tc main_v33) = Stages.res_main_v33 (V (Proc.devRef .tc main_arg0)) (V (Proc.devRef .tc main_arg1)) (V (Proc.devRef .tc main_arg2)) (V (Proc.devRef .tc main_arg3)) (V (Proc.devRef .tc main_arg4)) := by
  stage_at atPre 49 StableHlo.binary_result [(rdPre 47 49 rfl (by decide) V).trans (pre_main_v31 V), (rdPre 48 49 rfl (by decide) V).trans (pre_main_v32 V)]
theorem pre_main_cst_2 (V : Valuation τ sig (Elt F)) : after (Stages.opsPre (F := F)) V (Proc.devRef .tc main_cst_2) = Stages.res_main_cst_2 (V (Proc.devRef .tc main_arg0)) (V (Proc.devRef .tc main_arg1)) (V (Proc.devRef .tc main_arg2)) (V (Proc.devRef .tc main_arg3)) (V (Proc.devRef .tc main_arg4)) := by
  stage_at atPre 50 StableHlo.nullary_result []
theorem pre_main_v34 (V : Valuation τ sig (Elt F)) : after (Stages.opsPre (F := F)) V (Proc.devRef .tc main_v34) = Stages.res_main_v34 (V (Proc.devRef .tc main_arg0)) (V (Proc.devRef .tc main_arg1)) (V (Proc.devRef .tc main_arg2)) (V (Proc.devRef .tc main_arg3)) (V (Proc.devRef .tc main_arg4)) := by
  stage_at atPre 51 StableHlo.unary_result [(rdPre 50 51 rfl (by decide) V).trans (pre_main_cst_2 V)]
theorem pre_main_v35 (V : Valuation τ sig (Elt F)) : after (Stages.opsPre (F := F)) V (Proc.devRef .tc main_v35) = Stages.res_main_v35 (V (Proc.devRef .tc main_arg0)) (V (Proc.devRef .tc main_arg1)) (V (Proc.devRef .tc main_arg2)) (V (Proc.devRef .tc main_arg3)) (V (Proc.devRef .tc main_arg4)) := by
  stage_at atPre 52 StableHlo.binary_result [(rdPre 51 52 rfl (by decide) V).trans (pre_main_v34 V), (rdPre 49 52 rfl (by decide) V).trans (pre_main_v33 V)]
theorem pre_main_cst_3 (V : Valuation τ sig (Elt F)) : after (Stages.opsPre (F := F)) V (Proc.devRef .tc main_cst_3) = Stages.res_main_cst_3 (V (Proc.devRef .tc main_arg0)) (V (Proc.devRef .tc main_arg1)) (V (Proc.devRef .tc main_arg2)) (V (Proc.devRef .tc main_arg3)) (V (Proc.devRef .tc main_arg4)) := by
  stage_at atPre 53 StableHlo.nullary_result []
theorem pre_main_v36 (V : Valuation τ sig (Elt F)) : after (Stages.opsPre (F := F)) V (Proc.devRef .tc main_v36) = Stages.res_main_v36 (V (Proc.devRef .tc main_arg0)) (V (Proc.devRef .tc main_arg1)) (V (Proc.devRef .tc main_arg2)) (V (Proc.devRef .tc main_arg3)) (V (Proc.devRef .tc main_arg4)) := by
  stage_at atPre 54 StableHlo.binary_result [(rdPre 37 54 rfl (by decide) V).trans (pre_main_v26 V), (rdPre 53 54 rfl (by decide) V).trans (pre_main_cst_3 V)]
theorem pre_main_v37 (V : Valuation τ sig (Elt F)) : after (Stages.opsPre (F := F)) V (Proc.devRef .tc main_v37) = Stages.res_main_v37 (V (Proc.devRef .tc main_arg0)) (V (Proc.devRef .tc main_arg1)) (V (Proc.devRef .tc main_arg2)) (V (Proc.devRef .tc main_arg3)) (V (Proc.devRef .tc main_arg4)) := by
  stage_at atPre 55 StableHlo.nullary_result []
theorem pre_main_v38 (V : Valuation τ sig (Elt F)) : after (Stages.opsPre (F := F)) V (Proc.devRef .tc main_v38) = Stages.res_main_v38 (V (Proc.devRef .tc main_arg0)) (V (Proc.devRef .tc main_arg1)) (V (Proc.devRef .tc main_arg2)) (V (Proc.devRef .tc main_arg3)) (V (Proc.devRef .tc main_arg4)) := by
  stage_at atPre 56 StableHlo.nullary_result []
theorem pre_main_c_4 (V : Valuation τ sig (Elt F)) : after (Stages.opsPre (F := F)) V (Proc.devRef .tc main_c_4) = Stages.res_main_c_4 (V (Proc.devRef .tc main_arg0)) (V (Proc.devRef .tc main_arg1)) (V (Proc.devRef .tc main_arg2)) (V (Proc.devRef .tc main_arg3)) (V (Proc.devRef .tc main_arg4)) := by
  stage_at atPre 57 StableHlo.nullary_result []
theorem pre_main_v39 (V : Valuation τ sig (Elt F)) : after (Stages.opsPre (F := F)) V (Proc.devRef .tc main_v39) = Stages.res_main_v39 (V (Proc.devRef .tc main_arg0)) (V (Proc.devRef .tc main_arg1)) (V (Proc.devRef .tc main_arg2)) (V (Proc.devRef .tc main_arg3)) (V (Proc.devRef .tc main_arg4)) := by
  stage_at atPre 58 StableHlo.unary_result [(rdPre 57 58 rfl (by decide) V).trans (pre_main_c_4 V)]
theorem pre_main_v40 (V : Valuation τ sig (Elt F)) : after (Stages.opsPre (F := F)) V (Proc.devRef .tc main_v40) = Stages.res_main_v40 (V (Proc.devRef .tc main_arg0)) (V (Proc.devRef .tc main_arg1)) (V (Proc.devRef .tc main_arg2)) (V (Proc.devRef .tc main_arg3)) (V (Proc.devRef .tc main_arg4)) := by
  stage_at atPre 59 StableHlo.binary_result [(rdPre 55 59 rfl (by decide) V).trans (pre_main_v37 V), (rdPre 58 59 rfl (by decide) V).trans (pre_main_v39 V)]
theorem pre_main_v41 (V : Valuation τ sig (Elt F)) : after (Stages.opsPre (F := F)) V (Proc.devRef .tc main_v41) = Stages.res_main_v41 (V (Proc.devRef .tc main_arg0)) (V (Proc.devRef .tc main_arg1)) (V (Proc.devRef .tc main_arg2)) (V (Proc.devRef .tc main_arg3)) (V (Proc.devRef .tc main_arg4)) := by
  stage_at atPre 60 StableHlo.binary_result [(rdPre 59 60 rfl (by decide) V).trans (pre_main_v40 V), (rdPre 56 60 rfl (by decide) V).trans (pre_main_v38 V)]
theorem pre_main_v42 (V : Valuation τ sig (Elt F)) : after (Stages.opsPre (F := F)) V (Proc.devRef .tc main_v42) = Stages.res_main_v42 (V (Proc.devRef .tc main_arg0)) (V (Proc.devRef .tc main_arg1)) (V (Proc.devRef .tc main_arg2)) (V (Proc.devRef .tc main_arg3)) (V (Proc.devRef .tc main_arg4)) := by
  stage_at atPre 61 StableHlo.unary_result [(rdPre 60 61 rfl (by decide) V).trans (pre_main_v41 V)]
theorem pre_main_v43 (V : Valuation τ sig (Elt F)) : after (Stages.opsPre (F := F)) V (Proc.devRef .tc main_v43) = Stages.res_main_v43 (V (Proc.devRef .tc main_arg0)) (V (Proc.devRef .tc main_arg1)) (V (Proc.devRef .tc main_arg2)) (V (Proc.devRef .tc main_arg3)) (V (Proc.devRef .tc main_arg4)) := by
  stage_at atPre 62 StableHlo.unary_result [(rdPre 54 62 rfl (by decide) V).trans (pre_main_v36 V)]
theorem pre_main_v44 (V : Valuation τ sig (Elt F)) : after (Stages.opsPre (F := F)) V (Proc.devRef .tc main_v44) = Stages.res_main_v44 (V (Proc.devRef .tc main_arg0)) (V (Proc.devRef .tc main_arg1)) (V (Proc.devRef .tc main_arg2)) (V (Proc.devRef .tc main_arg3)) (V (Proc.devRef .tc main_arg4)) := by
  stage_at atPre 63 StableHlo.unary_result [(rdPre 62 63 rfl (by decide) V).trans (pre_main_v43 V)]
theorem pre_main_v45 (V : Valuation τ sig (Elt F)) : after (Stages.opsPre (F := F)) V (Proc.devRef .tc main_v45) = Stages.res_main_v45 (V (Proc.devRef .tc main_arg0)) (V (Proc.devRef .tc main_arg1)) (V (Proc.devRef .tc main_arg2)) (V (Proc.devRef .tc main_arg3)) (V (Proc.devRef .tc main_arg4)) := by
  stage_at atPre 64 StableHlo.binary_result [(rdPre 63 64 rfl (by decide) V).trans (pre_main_v44 V), (rdPre 61 64 rfl (by decide) V).trans (pre_main_v42 V)]
theorem pre_main_cst_5 (V : Valuation τ sig (Elt F)) : after (Stages.opsPre (F := F)) V (Proc.devRef .tc main_cst_5) = Stages.res_main_cst_5 (V (Proc.devRef .tc main_arg0)) (V (Proc.devRef .tc main_arg1)) (V (Proc.devRef .tc main_arg2)) (V (Proc.devRef .tc main_arg3)) (V (Proc.devRef .tc main_arg4)) := by
  stage_at atPre 65 StableHlo.nullary_result []
theorem pre_main_v46 (V : Valuation τ sig (Elt F)) : after (Stages.opsPre (F := F)) V (Proc.devRef .tc main_v46) = Stages.res_main_v46 (V (Proc.devRef .tc main_arg0)) (V (Proc.devRef .tc main_arg1)) (V (Proc.devRef .tc main_arg2)) (V (Proc.devRef .tc main_arg3)) (V (Proc.devRef .tc main_arg4)) := by
  stage_at atPre 66 StableHlo.unary_result [(rdPre 65 66 rfl (by decide) V).trans (pre_main_cst_5 V)]
theorem pre_main_v47 (V : Valuation τ sig (Elt F)) : after (Stages.opsPre (F := F)) V (Proc.devRef .tc main_v47) = Stages.res_main_v47 (V (Proc.devRef .tc main_arg0)) (V (Proc.devRef .tc main_arg1)) (V (Proc.devRef .tc main_arg2)) (V (Proc.devRef .tc main_arg3)) (V (Proc.devRef .tc main_arg4)) := by
  stage_at atPre 67 StableHlo.binary_result [(rdPre 64 67 rfl (by decide) V).trans (pre_main_v45 V), (rdPre 66 67 rfl (by decide) V).trans (pre_main_v46 V)]
theorem pre_main_cst_6 (V : Valuation τ sig (Elt F)) : after (Stages.opsPre (F := F)) V (Proc.devRef .tc main_cst_6) = Stages.res_main_cst_6 (V (Proc.devRef .tc main_arg0)) (V (Proc.devRef .tc main_arg1)) (V (Proc.devRef .tc main_arg2)) (V (Proc.devRef .tc main_arg3)) (V (Proc.devRef .tc main_arg4)) := by
  stage_at atPre 68 StableHlo.nullary_result []
theorem pre_main_call3_v0 (V : Valuation τ sig (Elt F)) : after (Stages.opsPre (F := F)) V (Proc.devRef .tc main_call3_v0) = Stages.res_main_call3_v0 (V (Proc.devRef .tc main_arg0)) (V (Proc.devRef .tc main_arg1)) (V (Proc.devRef .tc main_arg2)) (V (Proc.devRef .tc main_arg3)) (V (Proc.devRef .tc main_arg4)) := by
  stage_at atPre 69 StableHlo.unary_result [(rdPre 68 69 rfl (by decide) V).trans (pre_main_cst_6 V)]
theorem pre_main_call3_v1 (V : Valuation τ sig (Elt F)) : after (Stages.opsPre (F := F)) V (Proc.devRef .tc main_call3_v1) = Stages.res_main_call3_v1 (V (Proc.devRef .tc main_arg0)) (V (Proc.devRef .tc main_arg1)) (V (Proc.devRef .tc main_arg2)) (V (Proc.devRef .tc main_arg3)) (V (Proc.devRef .tc main_arg4)) := by
  stage_at atPre 70 StableHlo.unary_result [(rdPre 69 70 rfl (by decide) V).trans (pre_main_call3_v0 V)]
theorem pre_main_v48 (V : Valuation τ sig (Elt F)) : after (Stages.opsPre (F := F)) V (Proc.devRef .tc main_v48) = Stages.res_main_v48 (V (Proc.devRef .tc main_arg0)) (V (Proc.devRef .tc main_arg1)) (V (Proc.devRef .tc main_arg2)) (V (Proc.devRef .tc main_arg3)) (V (Proc.devRef .tc main_arg4)) := by
  stage_at atPre 71 StableHlo.ternary_result [(rdPre 67 71 rfl (by decide) V).trans (pre_main_v47 V), (rdPre 52 71 rfl (by decide) V).trans (pre_main_v35 V), (rdPre 70 71 rfl (by decide) V).trans (pre_main_call3_v1 V)]
theorem pre_main_cst_7 (V : Valuation τ sig (Elt F)) : after (Stages.opsPre (F := F)) V (Proc.devRef .tc main_cst_7) = Stages.res_main_cst_7 (V (Proc.devRef .tc main_arg0)) (V (Proc.devRef .tc main_arg1)) (V (Proc.devRef .tc main_arg2)) (V (Proc.devRef .tc main_arg3)) (V (Proc.devRef .tc main_arg4)) := by
  stage_at atPre 72 StableHlo.nullary_result []
theorem pre_main_call4_v0 (V : Valuation τ sig (Elt F)) : after (Stages.opsPre (F := F)) V (Proc.devRef .tc main_call4_v0) = Stages.res_main_call4_v0 (V (Proc.devRef .tc main_arg0)) (V (Proc.devRef .tc main_arg1)) (V (Proc.devRef .tc main_arg2)) (V (Proc.devRef .tc main_arg3)) (V (Proc.devRef .tc main_arg4)) := by
  stage_at atPre 73 StableHlo.unary_result [(rdPre 72 73 rfl (by decide) V).trans (pre_main_cst_7 V)]
theorem pre_main_call4_v1 (V : Valuation τ sig (Elt F)) : after (Stages.opsPre (F := F)) V (Proc.devRef .tc main_call4_v1) = Stages.res_main_call4_v1 (V (Proc.devRef .tc main_arg0)) (V (Proc.devRef .tc main_arg1)) (V (Proc.devRef .tc main_arg2)) (V (Proc.devRef .tc main_arg3)) (V (Proc.devRef .tc main_arg4)) := by
  stage_at atPre 74 StableHlo.unary_result [(rdPre 73 74 rfl (by decide) V).trans (pre_main_call4_v0 V)]
theorem pre_main_v49 (V : Valuation τ sig (Elt F)) : after (Stages.opsPre (F := F)) V (Proc.devRef .tc main_v49) = Stages.res_main_v49 (V (Proc.devRef .tc main_arg0)) (V (Proc.devRef .tc main_arg1)) (V (Proc.devRef .tc main_arg2)) (V (Proc.devRef .tc main_arg3)) (V (Proc.devRef .tc main_arg4)) := by
  stage_at atPre 75 StableHlo.ternary_result [(rdPre 67 75 rfl (by decide) V).trans (pre_main_v47 V), (rdPre 52 75 rfl (by decide) V).trans (pre_main_v35 V), (rdPre 74 75 rfl (by decide) V).trans (pre_main_call4_v1 V)]
theorem pre_main_cst_8 (V : Valuation τ sig (Elt F)) : after (Stages.opsPre (F := F)) V (Proc.devRef .tc main_cst_8) = Stages.res_main_cst_8 (V (Proc.devRef .tc main_arg0)) (V (Proc.devRef .tc main_arg1)) (V (Proc.devRef .tc main_arg2)) (V (Proc.devRef .tc main_arg3)) (V (Proc.devRef .tc main_arg4)) := by
  stage_at atPre 76 StableHlo.nullary_result []
theorem pre_main_v50 (V : Valuation τ sig (Elt F)) : after (Stages.opsPre (F := F)) V (Proc.devRef .tc main_v50) = Stages.res_main_v50 (V (Proc.devRef .tc main_arg0)) (V (Proc.devRef .tc main_arg1)) (V (Proc.devRef .tc main_arg2)) (V (Proc.devRef .tc main_arg3)) (V (Proc.devRef .tc main_arg4)) := by
  stage_at atPre 77 StableHlo.binary_result [(rdPre 71 77 rfl (by decide) V).trans (pre_main_v48 V), (rdPre 76 77 rfl (by decide) V).trans (pre_main_cst_8 V)]
theorem pre_main_cst_9 (V : Valuation τ sig (Elt F)) : after (Stages.opsPre (F := F)) V (Proc.devRef .tc main_cst_9) = Stages.res_main_cst_9 (V (Proc.devRef .tc main_arg0)) (V (Proc.devRef .tc main_arg1)) (V (Proc.devRef .tc main_arg2)) (V (Proc.devRef .tc main_arg3)) (V (Proc.devRef .tc main_arg4)) := by
  stage_at atPre 78 StableHlo.nullary_result []
theorem pre_main_v51 (V : Valuation τ sig (Elt F)) : after (Stages.opsPre (F := F)) V (Proc.devRef .tc main_v51) = Stages.res_main_v51 (V (Proc.devRef .tc main_arg0)) (V (Proc.devRef .tc main_arg1)) (V (Proc.devRef .tc main_arg2)) (V (Proc.devRef .tc main_arg3)) (V (Proc.devRef .tc main_arg4)) := by
  stage_at atPre 79 StableHlo.unary_result [(rdPre 78 79 rfl (by decide) V).trans (pre_main_cst_9 V)]
theorem pre_main_v52 (V : Valuation τ sig (Elt F)) : after (Stages.opsPre (F := F)) V (Proc.devRef .tc main_v52) = Stages.res_main_v52 (V (Proc.devRef .tc main_arg0)) (V (Proc.devRef .tc main_arg1)) (V (Proc.devRef .tc main_arg2)) (V (Proc.devRef .tc main_arg3)) (V (Proc.devRef .tc main_arg4)) := by
  stage_at atPre 80 StableHlo.binary_result [(rdPre 77 80 rfl (by decide) V).trans (pre_main_v50 V), (rdPre 79 80 rfl (by decide) V).trans (pre_main_v51 V)]
theorem pre_main_cst_10 (V : Valuation τ sig (Elt F)) : after (Stages.opsPre (F := F)) V (Proc.devRef .tc main_cst_10) = Stages.res_main_cst_10 (V (Proc.devRef .tc main_arg0)) (V (Proc.devRef .tc main_arg1)) (V (Proc.devRef .tc main_arg2)) (V (Proc.devRef .tc main_arg3)) (V (Proc.devRef .tc main_arg4)) := by
  stage_at atPre 81 StableHlo.nullary_result []
theorem pre_main_v53 (V : Valuation τ sig (Elt F)) : after (Stages.opsPre (F := F)) V (Proc.devRef .tc main_v53) = Stages.res_main_v53 (V (Proc.devRef .tc main_arg0)) (V (Proc.devRef .tc main_arg1)) (V (Proc.devRef .tc main_arg2)) (V (Proc.devRef .tc main_arg3)) (V (Proc.devRef .tc main_arg4)) := by
  stage_at atPre 82 StableHlo.binary_result [(rdPre 75 82 rfl (by decide) V).trans (pre_main_v49 V), (rdPre 81 82 rfl (by decide) V).trans (pre_main_cst_10 V)]
theorem pre_main_cst_11 (V : Valuation τ sig (Elt F)) : after (Stages.opsPre (F := F)) V (Proc.devRef .tc main_cst_11) = Stages.res_main_cst_11 (V (Proc.devRef .tc main_arg0)) (V (Proc.devRef .tc main_arg1)) (V (Proc.devRef .tc main_arg2)) (V (Proc.devRef .tc main_arg3)) (V (Proc.devRef .tc main_arg4)) := by
  stage_at atPre 83 StableHlo.nullary_result []
theorem pre_main_v54 (V : Valuation τ sig (Elt F)) : after (Stages.opsPre (F := F)) V (Proc.devRef .tc main_v54) = Stages.res_main_v54 (V (Proc.devRef .tc main_arg0)) (V (Proc.devRef .tc main_arg1)) (V (Proc.devRef .tc main_arg2)) (V (Proc.devRef .tc main_arg3)) (V (Proc.devRef .tc main_arg4)) := by
  stage_at atPre 84 StableHlo.unary_result [(rdPre 83 84 rfl (by decide) V).trans (pre_main_cst_11 V)]
theorem pre_main_v55 (V : Valuation τ sig (Elt F)) : after (Stages.opsPre (F := F)) V (Proc.devRef .tc main_v55) = Stages.res_main_v55 (V (Proc.devRef .tc main_arg0)) (V (Proc.devRef .tc main_arg1)) (V (Proc.devRef .tc main_arg2)) (V (Proc.devRef .tc main_arg3)) (V (Proc.devRef .tc main_arg4)) := by
  stage_at atPre 85 StableHlo.binary_result [(rdPre 82 85 rfl (by decide) V).trans (pre_main_v53 V), (rdPre 84 85 rfl (by decide) V).trans (pre_main_v54 V)]
theorem pre_main_v56 (V : Valuation τ sig (Elt F)) : after (Stages.opsPre (F := F)) V (Proc.devRef .tc main_v56) = Stages.res_main_v56 (V (Proc.devRef .tc main_arg0)) (V (Proc.devRef .tc main_arg1)) (V (Proc.devRef .tc main_arg2)) (V (Proc.devRef .tc main_arg3)) (V (Proc.devRef .tc main_arg4)) := by
  stage_at atPre 86 StableHlo.binary_result [(rdPre 64 86 rfl (by decide) V).trans (pre_main_v45 V), (rdPre 52 86 rfl (by decide) V).trans (pre_main_v35 V)]
theorem pre_main_cst_12 (V : Valuation τ sig (Elt F)) : after (Stages.opsPre (F := F)) V (Proc.devRef .tc main_cst_12) = Stages.res_main_cst_12 (V (Proc.devRef .tc main_arg0)) (V (Proc.devRef .tc main_arg1)) (V (Proc.devRef .tc main_arg2)) (V (Proc.devRef .tc main_arg3)) (V (Proc.devRef .tc main_arg4)) := by
  stage_at atPre 87 StableHlo.nullary_result []
theorem pre_main_v57 (V : Valuation τ sig (Elt F)) : after (Stages.opsPre (F := F)) V (Proc.devRef .tc main_v57) = Stages.res_main_v57 (V (Proc.devRef .tc main_arg0)) (V (Proc.devRef .tc main_arg1)) (V (Proc.devRef .tc main_arg2)) (V (Proc.devRef .tc main_arg3)) (V (Proc.devRef .tc main_arg4)) := by
  stage_at atPre 88 StableHlo.binary_result [(rdPre 86 88 rfl (by decide) V).trans (pre_main_v56 V), (rdPre 87 88 rfl (by decide) V).trans (pre_main_cst_12 V)]
theorem pre_main_cst_13 (V : Valuation τ sig (Elt F)) : after (Stages.opsPre (F := F)) V (Proc.devRef .tc main_cst_13) = Stages.res_main_cst_13 (V (Proc.devRef .tc main_arg0)) (V (Proc.devRef .tc main_arg1)) (V (Proc.devRef .tc main_arg2)) (V (Proc.devRef .tc main_arg3)) (V (Proc.devRef .tc main_arg4)) := by
  stage_at atPre 89 StableHlo.nullary_result []
theorem pre_main_v58 (V : Valuation τ sig (Elt F)) : after (Stages.opsPre (F := F)) V (Proc.devRef .tc main_v58) = Stages.res_main_v58 (V (Proc.devRef .tc main_arg0)) (V (Proc.devRef .tc main_arg1)) (V (Proc.devRef .tc main_arg2)) (V (Proc.devRef .tc main_arg3)) (V (Proc.devRef .tc main_arg4)) := by
  stage_at atPre 90 StableHlo.unary_result [(rdPre 89 90 rfl (by decide) V).trans (pre_main_cst_13 V)]
theorem pre_main_v59 (V : Valuation τ sig (Elt F)) : after (Stages.opsPre (F := F)) V (Proc.devRef .tc main_v59) = Stages.res_main_v59 (V (Proc.devRef .tc main_arg0)) (V (Proc.devRef .tc main_arg1)) (V (Proc.devRef .tc main_arg2)) (V (Proc.devRef .tc main_arg3)) (V (Proc.devRef .tc main_arg4)) := by
  stage_at atPre 91 StableHlo.binary_result [(rdPre 88 91 rfl (by decide) V).trans (pre_main_v57 V), (rdPre 90 91 rfl (by decide) V).trans (pre_main_v58 V)]
theorem pre_main_v60 (V : Valuation τ sig (Elt F)) : after (Stages.opsPre (F := F)) V (Proc.devRef .tc main_v60) = Stages.res_main_v60 (V (Proc.devRef .tc main_arg0)) (V (Proc.devRef .tc main_arg1)) (V (Proc.devRef .tc main_arg2)) (V (Proc.devRef .tc main_arg3)) (V (Proc.devRef .tc main_arg4)) := by
  stage_at atPre 92 StableHlo.unary_result [(rdPre 91 92 rfl (by decide) V).trans (pre_main_v59 V)]
theorem pre_main_v61 (V : Valuation τ sig (Elt F)) : after (Stages.opsPre (F := F)) V (Proc.devRef .tc main_v61) = Stages.res_main_v61 (V (Proc.devRef .tc main_arg0)) (V (Proc.devRef .tc main_arg1)) (V (Proc.devRef .tc main_arg2)) (V (Proc.devRef .tc main_arg3)) (V (Proc.devRef .tc main_arg4)) := by
  stage_at atPre 93 StableHlo.unary_result [(rdPre 92 93 rfl (by decide) V).trans (pre_main_v60 V)]
theorem pre_main_v62 (V : Valuation τ sig (Elt F)) : after (Stages.opsPre (F := F)) V (Proc.devRef .tc main_v62) = Stages.res_main_v62 (V (Proc.devRef .tc main_arg0)) (V (Proc.devRef .tc main_arg1)) (V (Proc.devRef .tc main_arg2)) (V (Proc.devRef .tc main_arg3)) (V (Proc.devRef .tc main_arg4)) := by
  stage_at atPre 94 StableHlo.binary_result [(rdPre 52 94 rfl (by decide) V).trans (pre_main_v35 V), (rdPre 93 94 rfl (by decide) V).trans (pre_main_v61 V)]
theorem pre_main_v63 (V : Valuation τ sig (Elt F)) : after (Stages.opsPre (F := F)) V (Proc.devRef .tc main_v63) = Stages.res_main_v63 (V (Proc.devRef .tc main_arg0)) (V (Proc.devRef .tc main_arg1)) (V (Proc.devRef .tc main_arg2)) (V (Proc.devRef .tc main_arg3)) (V (Proc.devRef .tc main_arg4)) := by
  stage_at atPre 95 StableHlo.binary_result [(rdPre 94 95 rfl (by decide) V).trans (pre_main_v62 V)]
theorem pre_main_v64 (V : Valuation τ sig (Elt F)) : after (Stages.opsPre (F := F)) V (Proc.devRef .tc main_v64) = Stages.res_main_v64 (V (Proc.devRef .tc main_arg0)) (V (Proc.devRef .tc main_arg1)) (V (Proc.devRef .tc main_arg2)) (V (Proc.devRef .tc main_arg3)) (V (Proc.devRef .tc main_arg4)) := by
  stage_at atPre 96 StableHlo.binary_result [(rdPre 64 96 rfl (by decide) V).trans (pre_main_v45 V), (rdPre 95 96 rfl (by decide) V).trans (pre_main_v63 V)]
theorem pre_main_cst_14 (V : Valuation τ sig (Elt F)) : after (Stages.opsPre (F := F)) V (Proc.devRef .tc main_cst_14) = Stages.res_main_cst_14 (V (Proc.devRef .tc main_arg0)) (V (Proc.devRef .tc main_arg1)) (V (Proc.devRef .tc main_arg2)) (V (Proc.devRef .tc main_arg3)) (V (Proc.devRef .tc main_arg4)) := by
  stage_at atPre 97 StableHlo.nullary_result []
theorem pre_main_v65 (V : Valuation τ sig (Elt F)) : after (Stages.opsPre (F := F)) V (Proc.devRef .tc main_v65) = Stages.res_main_v65 (V (Proc.devRef .tc main_arg0)) (V (Proc.devRef .tc main_arg1)) (V (Proc.devRef .tc main_arg2)) (V (Proc.devRef .tc main_arg3)) (V (Proc.devRef .tc main_arg4)) := by
  stage_at atPre 98 StableHlo.binary_result [(rdPre 96 98 rfl (by decide) V).trans (pre_main_v64 V), (rdPre 97 98 rfl (by decide) V).trans (pre_main_cst_14 V)]
theorem pre_main_v66 (V : Valuation τ sig (Elt F)) : after (Stages.opsPre (F := F)) V (Proc.devRef .tc main_v66) = Stages.res_main_v66 (V (Proc.devRef .tc main_arg0)) (V (Proc.devRef .tc main_arg1)) (V (Proc.devRef .tc main_arg2)) (V (Proc.devRef .tc main_arg3)) (V (Proc.devRef .tc main_arg4)) := by
  stage_at atPre 99 StableHlo.binary_result [(rdPre 91 99 rfl (by decide) V).trans (pre_main_v59 V)]
theorem pre_main_v67 (V : Valuation τ sig (Elt F)) : after (Stages.opsPre (F := F)) V (Proc.devRef .tc main_v67) = Stages.res_main_v67 (V (Proc.devRef .tc main_arg0)) (V (Proc.devRef .tc main_arg1)) (V (Proc.devRef .tc main_arg2)) (V (Proc.devRef .tc main_arg3)) (V (Proc.devRef .tc main_arg4)) := by
  stage_at atPre 100 StableHlo.binary_result [(rdPre 98 100 rfl (by decide) V).trans (pre_main_v65 V), (rdPre 99 100 rfl (by decide) V).trans (pre_main_v66 V)]
theorem pre_main_cst_15 (V : Valuation τ sig (Elt F)) : after (Stages.opsPre (F := F)) V (Proc.devRef .tc main_cst_15) = Stages.res_main_cst_15 (V (Proc.devRef .tc main_arg0)) (V (Proc.devRef .tc main_arg1)) (V (Proc.devRef .tc main_arg2)) (V (Proc.devRef .tc main_arg3)) (V (Proc.devRef .tc main_arg4)) := by
  stage_at atPre 101 StableHlo.nullary_result []
theorem pre_main_v68 (V : Valuation τ sig (Elt F)) : after (Stages.opsPre (F := F)) V (Proc.devRef .tc main_v68) = Stages.res_main_v68 (V (Proc.devRef .tc main_arg0)) (V (Proc.devRef .tc main_arg1)) (V (Proc.devRef .tc main_arg2)) (V (Proc.devRef .tc main_arg3)) (V (Proc.devRef .tc main_arg4)) := by
  stage_at atPre 102 StableHlo.unary_result [(rdPre 101 102 rfl (by decide) V).trans (pre_main_cst_15 V)]
theorem pre_main_v69 (V : Valuation τ sig (Elt F)) : after (Stages.opsPre (F := F)) V (Proc.devRef .tc main_v69) = Stages.res_main_v69 (V (Proc.devRef .tc main_arg0)) (V (Proc.devRef .tc main_arg1)) (V (Proc.devRef .tc main_arg2)) (V (Proc.devRef .tc main_arg3)) (V (Proc.devRef .tc main_arg4)) := by
  stage_at atPre 103 StableHlo.binary_result [(rdPre 100 103 rfl (by decide) V).trans (pre_main_v67 V), (rdPre 102 103 rfl (by decide) V).trans (pre_main_v68 V)]
theorem pre_main_cst_16 (V : Valuation τ sig (Elt F)) : after (Stages.opsPre (F := F)) V (Proc.devRef .tc main_cst_16) = Stages.res_main_cst_16 (V (Proc.devRef .tc main_arg0)) (V (Proc.devRef .tc main_arg1)) (V (Proc.devRef .tc main_arg2)) (V (Proc.devRef .tc main_arg3)) (V (Proc.devRef .tc main_arg4)) := by
  stage_at atPre 104 StableHlo.nullary_result []
theorem pre_main_v70 (V : Valuation τ sig (Elt F)) : after (Stages.opsPre (F := F)) V (Proc.devRef .tc main_v70) = Stages.res_main_v70 (V (Proc.devRef .tc main_arg0)) (V (Proc.devRef .tc main_arg1)) (V (Proc.devRef .tc main_arg2)) (V (Proc.devRef .tc main_arg3)) (V (Proc.devRef .tc main_arg4)) := by
  stage_at atPre 105 StableHlo.unary_result [(rdPre 104 105 rfl (by decide) V).trans (pre_main_cst_16 V)]
theorem pre_main_v71 (V : Valuation τ sig (Elt F)) : after (Stages.opsPre (F := F)) V (Proc.devRef .tc main_v71) = Stages.res_main_v71 (V (Proc.devRef .tc main_arg0)) (V (Proc.devRef .tc main_arg1)) (V (Proc.devRef .tc main_arg2)) (V (Proc.devRef .tc main_arg3)) (V (Proc.devRef .tc main_arg4)) := by
  stage_at atPre 106 StableHlo.binary_result [(rdPre 103 106 rfl (by decide) V).trans (pre_main_v69 V), (rdPre 105 106 rfl (by decide) V).trans (pre_main_v70 V)]
theorem pre_main_v72 (V : Valuation τ sig (Elt F)) : after (Stages.opsPre (F := F)) V (Proc.devRef .tc main_v72) = Stages.res_main_v72 (V (Proc.devRef .tc main_arg0)) (V (Proc.devRef .tc main_arg1)) (V (Proc.devRef .tc main_arg2)) (V (Proc.devRef .tc main_arg3)) (V (Proc.devRef .tc main_arg4)) := by
  stage_at atPre 107 StableHlo.unary_result [(rdPre 106 107 rfl (by decide) V).trans (pre_main_v71 V)]
theorem pre_main_v73 (V : Valuation τ sig (Elt F)) : after (Stages.opsPre (F := F)) V (Proc.devRef .tc main_v73) = Stages.res_main_v73 (V (Proc.devRef .tc main_arg0)) (V (Proc.devRef .tc main_arg1)) (V (Proc.devRef .tc main_arg2)) (V (Proc.devRef .tc main_arg3)) (V (Proc.devRef .tc main_arg4)) := by
  stage_at atPre 108 StableHlo.binary_result [(rdPre 85 108 rfl (by decide) V).trans (pre_main_v55 V), (rdPre 80 108 rfl (by decide) V).trans (pre_main_v52 V)]
theorem pre_main_cst_17 (V : Valuation τ sig (Elt F)) : after (Stages.opsPre (F := F)) V (Proc.devRef .tc main_cst_17) = Stages.res_main_cst_17 (V (Proc.devRef .tc main_arg0)) (V (Proc.devRef .tc main_arg1)) (V (Proc.devRef .tc main_arg2)) (V (Proc.devRef .tc main_arg3)) (V (Proc.devRef .tc main_arg4)) := by
  stage_at atPre 109 StableHlo.nullary_result []
theorem pre_main_v74 (V : Valuation τ sig (Elt F)) : after (Stages.opsPre (F := F)) V (Proc.devRef .tc main_v74) = Stages.res_main_v74 (V (Proc.devRef .tc main_arg0)) (V (Proc.devRef .tc main_arg1)) (V (Proc.devRef .tc main_arg2)) (V (Proc.devRef .tc main_arg3)) (V (Proc.devRef .tc main_arg4)) := by
  stage_at atPre 110 StableHlo.unary_result [(rdPre 109 110 rfl (by decide) V).trans (pre_main_cst_17 V)]
theorem pre_main_v75 (V : Valuation τ sig (Elt F)) : after (Stages.opsPre (F := F)) V (Proc.devRef .tc main_v75) = Stages.res_main_v75 (V (Proc.devRef .tc main_arg0)) (V (Proc.devRef .tc main_arg1)) (V (Proc.devRef .tc main_arg2)) (V (Proc.devRef .tc main_arg3)) (V (Proc.devRef .tc main_arg4)) := by
  stage_at atPre 111 StableHlo.binary_result [(rdPre 110 111 rfl (by decide) V).trans (pre_main_v74 V), (rdPre 108 111 rfl (by decide) V).trans (pre_main_v73 V)]
theorem pre_main_v76 (V : Valuation τ sig (Elt F)) : after (Stages.opsPre (F := F)) V (Proc.devRef .tc main_v76) = Stages.res_main_v76 (V (Proc.devRef .tc main_arg0)) (V (Proc.devRef .tc main_arg1)) (V (Proc.devRef .tc main_arg2)) (V (Proc.devRef .tc main_arg3)) (V (Proc.devRef .tc main_arg4)) := by
  stage_at atPre 112 StableHlo.unary_result [(rdPre 80 112 rfl (by decide) V).trans (pre_main_v52 V)]
theorem pre_main_v77 (V : Valuation τ sig (Elt F)) : after (Stages.opsPre (F := F)) V (Proc.devRef .tc main_v77) = Stages.res_main_v77 (V (Proc.devRef .tc main_arg0)) (V (Proc.devRef .tc main_arg1)) (V (Proc.devRef .tc main_arg2)) (V (Proc.devRef .tc main_arg3)) (V (Proc.devRef .tc main_arg4)) := by
  stage_at atPre 113 StableHlo.binary_result [(rdPre 112 113 rfl (by decide) V).trans (pre_main_v76 V), (rdPre 111 113 rfl (by decide) V).trans (pre_main_v75 V)]
theorem pre_main_v78 (V : Valuation τ sig (Elt F)) : after (Stages.opsPre (F := F)) V (Proc.devRef .tc main_v78) = Stages.res_main_v78 (V (Proc.devRef .tc main_arg0)) (V (Proc.devRef .tc main_arg1)) (V (Proc.devRef .tc main_arg2)) (V (Proc.devRef .tc main_arg3)) (V (Proc.devRef .tc main_arg4)) := by
  stage_at atPre 114 StableHlo.binary_result [(rdPre 91 114 rfl (by decide) V).trans (pre_main_v59 V), (rdPre 80 114 rfl (by decide) V).trans (pre_main_v52 V)]
theorem pre_main_v79 (V : Valuation τ sig (Elt F)) : after (Stages.opsPre (F := F)) V (Proc.devRef .tc main_v79) = Stages.res_main_v79 (V (Proc.devRef .tc main_arg0)) (V (Proc.devRef .tc main_arg1)) (V (Proc.devRef .tc main_arg2)) (V (Proc.devRef .tc main_arg3)) (V (Proc.devRef .tc main_arg4)) := by
  stage_at atPre 115 StableHlo.binary_result [(rdPre 114 115 rfl (by decide) V).trans (pre_main_v78 V), (rdPre 111 115 rfl (by decide) V).trans (pre_main_v75 V)]
theorem pre_main_v80 (V : Valuation τ sig (Elt F)) : after (Stages.opsPre (F := F)) V (Proc.devRef .tc main_v80) = Stages.res_main_v80 (V (Proc.devRef .tc main_arg0)) (V (Proc.devRef .tc main_arg1)) (V (Proc.devRef .tc main_arg2)) (V (Proc.devRef .tc main_arg3)) (V (Proc.devRef .tc main_arg4)) := by
  stage_at atPre 116 StableHlo.binary_result [(rdPre 107 116 rfl (by decide) V).trans (pre_main_v72 V), (rdPre 111 116 rfl (by decide) V).trans (pre_main_v75 V)]
theorem pre_main_cst_18 (V : Valuation τ sig (Elt F)) : after (Stages.opsPre (F := F)) V (Proc.devRef .tc main_cst_18) = Stages.res_main_cst_18 (V (Proc.devRef .tc main_arg0)) (V (Proc.devRef .tc main_arg1)) (V (Proc.devRef .tc main_arg2)) (V (Proc.devRef .tc main_arg3)) (V (Proc.devRef .tc main_arg4)) := by
  stage_at atPre 117 StableHlo.nullary_result []
theorem pre_main_v81 (V : Valuation τ sig (Elt F)) : after (Stages.opsPre (F := F)) V (Proc.devRef .tc main_v81) = Stages.res_main_v81 (V (Proc.devRef .tc main_arg0)) (V (Proc.devRef .tc main_arg1)) (V (Proc.devRef .tc main_arg2)) (V (Proc.devRef .tc main_arg3)) (V (Proc.devRef .tc main_arg4)) := by
  stage_at atPre 118 StableHlo.unary_result [(rdPre 117 118 rfl (by decide) V).trans (pre_main_cst_18 V)]
theorem pre_main_v82 (V : Valuation τ sig (Elt F)) : after (Stages.opsPre (F := F)) V (Proc.devRef .tc main_v82) = Stages.res_main_v82 (V (Proc.devRef .tc main_arg0)) (V (Proc.devRef .tc main_arg1)) (V (Proc.devRef .tc main_arg2)) (V (Proc.devRef .tc main_arg3)) (V (Proc.devRef .tc main_arg4)) := by
  stage_at atPre 119 StableHlo.binary_result [(rdPre 118 119 rfl (by decide) V).trans (pre_main_v81 V), (rdPre 116 119 rfl (by decide) V).trans (pre_main_v80 V)]
theorem pre_main_v83 (V : Valuation τ sig (Elt F)) : after (Stages.opsPre (F := F)) V (Proc.devRef .tc main_v83) = Stages.res_main_v83 (V (Proc.devRef .tc main_arg0)) (V (Proc.devRef .tc main_arg1)) (V (Proc.devRef .tc main_arg2)) (V (Proc.devRef .tc main_arg3)) (V (Proc.devRef .tc main_arg4)) := by
  stage_at atPre 120 StableHlo.binary_result [(rdPre 119 120 rfl (by decide) V).trans (pre_main_v82 V), (rdPre 116 120 rfl (by decide) V).trans (pre_main_v80 V)]
theorem pre_main_cst_19 (V : Valuation τ sig (Elt F)) : after (Stages.opsPre (F := F)) V (Proc.devRef .tc main_cst_19) = Stages.res_main_cst_19 (V (Proc.devRef .tc main_arg0)) (V (Proc.devRef .tc main_arg1)) (V (Proc.devRef .tc main_arg2)) (V (Proc.devRef .tc main_arg3)) (V (Proc.devRef .tc main_arg4)) := by
  stage_at atPre 121 StableHlo.nullary_result []
theorem pre_main_v84 (V : Valuation τ sig (Elt F)) : after (Stages.opsPre (F := F)) V (Proc.devRef .tc main_v84) = Stages.res_main_v84 (V (Proc.devRef .tc main_arg0)) (V (Proc.devRef .tc main_arg1)) (V (Proc.devRef .tc main_arg2)) (V (Proc.devRef .tc main_arg3)) (V (Proc.devRef .tc main_arg4)) := by
  stage_at atPre 122 StableHlo.unary_result [(rdPre 121 122 rfl (by decide) V).trans (pre_main_cst_19 V)]
theorem pre_main_v85 (V : Valuation τ sig (Elt F)) : after (Stages.opsPre (F := F)) V (Proc.devRef .tc main_v85) = Stages.res_main_v85 (V (Proc.devRef .tc main_arg0)) (V (Proc.devRef .tc main_arg1)) (V (Proc.devRef .tc main_arg2)) (V (Proc.devRef .tc main_arg3)) (V (Proc.devRef .tc main_arg4)) := by
  stage_at atPre 123 StableHlo.binary_result [(rdPre 122 123 rfl (by decide) V).trans (pre_main_v84 V), (rdPre 120 123 rfl (by decide) V).trans (pre_main_v83 V)]
theorem pre_main_v86 (V : Valuation τ sig (Elt F)) : after (Stages.opsPre (F := F)) V (Proc.devRef .tc main_v86) = Stages.res_main_v86 (V (Proc.devRef .tc main_arg0)) (V (Proc.devRef .tc main_arg1)) (V (Proc.devRef .tc main_arg2)) (V (Proc.devRef .tc main_arg3)) (V (Proc.devRef .tc main_arg4)) := by
  stage_at atPre 124 StableHlo.unary_result [(rdPre 111 124 rfl (by decide) V).trans (pre_main_v75 V)]
theorem pre_main_v87 (V : Valuation τ sig (Elt F)) : after (Stages.opsPre (F := F)) V (Proc.devRef .tc main_v87) = Stages.res_main_v87 (V (Proc.devRef .tc main_arg0)) (V (Proc.devRef .tc main_arg1)) (V (Proc.devRef .tc main_arg2)) (V (Proc.devRef .tc main_arg3)) (V (Proc.devRef .tc main_arg4)) := by
  stage_at atPre 125 StableHlo.unary_result [(rdPre 124 125 rfl (by decide) V).trans (pre_main_v86 V)]
theorem pre_main_v88 (V : Valuation τ sig (Elt F)) : after (Stages.opsPre (F := F)) V (Proc.devRef .tc main_v88) = Stages.res_main_v88 (V (Proc.devRef .tc main_arg0)) (V (Proc.devRef .tc main_arg1)) (V (Proc.devRef .tc main_arg2)) (V (Proc.devRef .tc main_arg3)) (V (Proc.devRef .tc main_arg4)) := by
  stage_at atPre 126 StableHlo.binary_result [(rdPre 125 126 rfl (by decide) V).trans (pre_main_v87 V), (rdPre 52 126 rfl (by decide) V).trans (pre_main_v35 V)]
theorem pre_main_v89 (V : Valuation τ sig (Elt F)) : after (Stages.opsPre (F := F)) V (Proc.devRef .tc main_v89) = Stages.res_main_v89 (V (Proc.devRef .tc main_arg0)) (V (Proc.devRef .tc main_arg1)) (V (Proc.devRef .tc main_arg2)) (V (Proc.devRef .tc main_arg3)) (V (Proc.devRef .tc main_arg4)) := by
  stage_at atPre 127 StableHlo.unary_result [(rdPre 113 127 rfl (by decide) V).trans (pre_main_v77 V)]
theorem pre_main_v90 (V : Valuation τ sig (Elt F)) : after (Stages.opsPre (F := F)) V (Proc.devRef .tc main_v90) = Stages.res_main_v90 (V (Proc.devRef .tc main_arg0)) (V (Proc.devRef .tc main_arg1)) (V (Proc.devRef .tc main_arg2)) (V (Proc.devRef .tc main_arg3)) (V (Proc.devRef .tc main_arg4)) := by
  stage_at atPre 128 StableHlo.unary_result [(rdPre 127 128 rfl (by decide) V).trans (pre_main_v89 V)]
theorem pre_main_v91 (V : Valuation τ sig (Elt F)) : after (Stages.opsPre (F := F)) V (Proc.devRef .tc main_v91) = Stages.res_main_v91 (V (Proc.devRef .tc main_arg0)) (V (Proc.devRef .tc main_arg1)) (V (Proc.devRef .tc main_arg2)) (V (Proc.devRef .tc main_arg3)) (V (Proc.devRef .tc main_arg4)) := by
  stage_at atPre 129 StableHlo.binary_result [(rdPre 126 129 rfl (by decide) V).trans (pre_main_v88 V), (rdPre 128 129 rfl (by decide) V).trans (pre_main_v90 V)]
theorem pre_main_v92 (V : Valuation τ sig (Elt F)) : after (Stages.opsPre (F := F)) V (Proc.devRef .tc main_v92) = Stages.res_main_v92 (V (Proc.devRef .tc main_arg0)) (V (Proc.devRef .tc main_arg1)) (V (Proc.devRef .tc main_arg2)) (V (Proc.devRef .tc main_arg3)) (V (Proc.devRef .tc main_arg4)) := by
  stage_at atPre 130 StableHlo.unary_result [(rdPre 115 130 rfl (by decide) V).trans (pre_main_v79 V)]
theorem pre_main_v93 (V : Valuation τ sig (Elt F)) : after (Stages.opsPre (F := F)) V (Proc.devRef .tc main_v93) = Stages.res_main_v93 (V (Proc.devRef .tc main_arg0)) (V (Proc.devRef .tc main_arg1)) (V (Proc.devRef .tc main_arg2)) (V (Proc.devRef .tc main_arg3)) (V (Proc.devRef .tc main_arg4)) := by
  stage_at atPre 131 StableHlo.unary_result [(rdPre 130 131 rfl (by decide) V).trans (pre_main_v92 V)]
theorem pre_main_v94 (V : Valuation τ sig (Elt F)) : after (Stages.opsPre (F := F)) V (Proc.devRef .tc main_v94) = Stages.res_main_v94 (V (Proc.devRef .tc main_arg0)) (V (Proc.devRef .tc main_arg1)) (V (Proc.devRef .tc main_arg2)) (V (Proc.devRef .tc main_arg3)) (V (Proc.devRef .tc main_arg4)) := by
  stage_at atPre 132 StableHlo.binary_result [(rdPre 129 132 rfl (by decide) V).trans (pre_main_v91 V), (rdPre 131 132 rfl (by decide) V).trans (pre_main_v93 V)]
theorem pre_main_v95 (V : Valuation τ sig (Elt F)) : after (Stages.opsPre (F := F)) V (Proc.devRef .tc main_v95) = Stages.res_main_v95 (V (Proc.devRef .tc main_arg0)) (V (Proc.devRef .tc main_arg1)) (V (Proc.devRef .tc main_arg2)) (V (Proc.devRef .tc main_arg3)) (V (Proc.devRef .tc main_arg4)) := by
  stage_at atPre 133 StableHlo.binary_result [(rdPre 132 133 rfl (by decide) V).trans (pre_main_v94 V)]
theorem pre_main_v96 (V : Valuation τ sig (Elt F)) : after (Stages.opsPre (F := F)) V (Proc.devRef .tc main_v96) = Stages.res_main_v96 (V (Proc.devRef .tc main_arg0)) (V (Proc.devRef .tc main_arg1)) (V (Proc.devRef .tc main_arg2)) (V (Proc.devRef .tc main_arg3)) (V (Proc.devRef .tc main_arg4)) := by
  stage_at atPre 134 StableHlo.unary_result [(rdPre 123 134 rfl (by decide) V).trans (pre_main_v85 V)]
theorem pre_main_v97 (V : Valuation τ sig (Elt F)) : after (Stages.opsPre (F := F)) V (Proc.devRef .tc main_v97) = Stages.res_main_v97 (V (Proc.devRef .tc main_arg0)) (V (Proc.devRef .tc main_arg1)) (V (Proc.devRef .tc main_arg2)) (V (Proc.devRef .tc main_arg3)) (V (Proc.devRef .tc main_arg4)) := by
  stage_at atPre 135 StableHlo.unary_result [(rdPre 134 135 rfl (by decide) V).trans (pre_main_v96 V)]
theorem pre_main_v98 (V : Valuation τ sig (Elt F)) : after (Stages.opsPre (F := F)) V (Proc.devRef .tc main_v98) = Stages.res_main_v98 (V (Proc.devRef .tc main_arg0)) (V (Proc.devRef .tc main_arg1)) (V (Proc.devRef .tc main_arg2)) (V (Proc.devRef .tc main_arg3)) (V (Proc.devRef .tc main_arg4)) := by
  stage_at atPre 136 StableHlo.binary_result [(rdPre 133 136 rfl (by decide) V).trans (pre_main_v95 V), (rdPre 135 136 rfl (by decide) V).trans (pre_main_v97 V)]
theorem pre_main_v99 (V : Valuation τ sig (Elt F)) : after (Stages.opsPre (F := F)) V (Proc.devRef .tc main_v99) = Stages.res_main_v99 (V (Proc.devRef .tc main_arg0)) (V (Proc.devRef .tc main_arg1)) (V (Proc.devRef .tc main_arg2)) (V (Proc.devRef .tc main_arg3)) (V (Proc.devRef .tc main_arg4)) := by
  stage_at atPre 137 StableHlo.unary_result [(rdPre 136 137 rfl (by decide) V).trans (pre_main_v98 V)]
theorem pre_main_c_20 (V : Valuation τ sig (Elt F)) : after (Stages.opsPre (F := F)) V (Proc.devRef .tc main_c_20) = Stages.res_main_c_20 (V (Proc.devRef .tc main_arg0)) (V (Proc.devRef .tc main_arg1)) (V (Proc.devRef .tc main_arg2)) (V (Proc.devRef .tc main_arg3)) (V (Proc.devRef .tc main_arg4)) := by
  stage_at atPre 138 StableHlo.nullary_result []
theorem pre_main_v100 (V : Valuation τ sig (Elt F)) : after (Stages.opsPre (F := F)) V (Proc.devRef .tc main_v100) = Stages.res_main_v100 (V (Proc.devRef .tc main_arg0)) (V (Proc.devRef .tc main_arg1)) (V (Proc.devRef .tc main_arg2)) (V (Proc.devRef .tc main_arg3)) (V (Proc.devRef .tc main_arg4)) := by
  stage_at atPre 139 StableHlo.unary_result [(rdPre 138 139 rfl (by decide) V).trans (pre_main_c_20 V)]
theorem pre_main_v101 (V : Valuation τ sig (Elt F)) : after (Stages.opsPre (F := F)) V (Proc.devRef .tc main_v101) = Stages.res_main_v101 (V (Proc.devRef .tc main_arg0)) (V (Proc.devRef .tc main_arg1)) (V (Proc.devRef .tc main_arg2)) (V (Proc.devRef .tc main_arg3)) (V (Proc.devRef .tc main_arg4)) := by
  stage_at atPre 140 StableHlo.binary_result [(rdPre 21 140 rfl (by decide) V).trans (pre_main_v11 V), (rdPre 139 140 rfl (by decide) V).trans (pre_main_v100 V)]
theorem pre_main_c_21 (V : Valuation τ sig (Elt F)) : after (Stages.opsPre (F := F)) V (Proc.devRef .tc main_c_21) = Stages.res_main_c_21 (V (Proc.devRef .tc main_arg0)) (V (Proc.devRef .tc main_arg1)) (V (Proc.devRef .tc main_arg2)) (V (Proc.devRef .tc main_arg3)) (V (Proc.devRef .tc main_arg4)) := by
  stage_at atPre 141 StableHlo.nullary_result []
theorem pre_main_v102 (V : Valuation τ sig (Elt F)) : after (Stages.opsPre (F := F)) V (Proc.devRef .tc main_v102) = Stages.res_main_v102 (V (Proc.devRef .tc main_arg0)) (V (Proc.devRef .tc main_arg1)) (V (Proc.devRef .tc main_arg2)) (V (Proc.devRef .tc main_arg3)) (V (Proc.devRef .tc main_arg4)) := by
  stage_at atPre 142 StableHlo.unary_result [(rdPre 141 142 rfl (by decide) V).trans (pre_main_c_21 V)]
theorem pre_main_v103 (V : Valuation τ sig (Elt F)) : after (Stages.opsPre (F := F)) V (Proc.devRef .tc main_v103) = Stages.res_main_v103 (V (Proc.devRef .tc main_arg0)) (V (Proc.devRef .tc main_arg1)) (V (Proc.devRef .tc main_arg2)) (V (Proc.devRef .tc main_arg3)) (V (Proc.devRef .tc main_arg4)) := by
  stage_at atPre 143 StableHlo.binary_result [(rdPre 21 143 rfl (by decide) V).trans (pre_main_v11 V), (rdPre 142 143 rfl (by decide) V).trans (pre_main_v102 V)]
theorem pre_main_v104 (V : Valuation τ sig (Elt F)) : after (Stages.opsPre (F := F)) V (Proc.devRef .tc main_v104) = Stages.res_main_v104 (V (Proc.devRef .tc main_arg0)) (V (Proc.devRef .tc main_arg1)) (V (Proc.devRef .tc main_arg2)) (V (Proc.devRef .tc main_arg3)) (V (Proc.devRef .tc main_arg4)) := by
  stage_at atPre 144 StableHlo.ternary_result [(rdPre 140 144 rfl (by decide) V).trans (pre_main_v101 V), (rdPre 143 144 rfl (by decide) V).trans (pre_main_v103 V), (rdPre 21 144 rfl (by decide) V).trans (pre_main_v11 V)]
theorem pre_main_v105 (V : Valuation τ sig (Elt F)) : after (Stages.opsPre (F := F)) V (Proc.devRef .tc main_v105) = Stages.res_main_v105 (V (Proc.devRef .tc main_arg0)) (V (Proc.devRef .tc main_arg1)) (V (Proc.devRef .tc main_arg2)) (V (Proc.devRef .tc main_arg3)) (V (Proc.devRef .tc main_arg4)) := by
  stage_at atPre 145 StableHlo.unary_result [(rdPre 144 145 rfl (by decide) V).trans (pre_main_v104 V)]
theorem pre_main_v106 (V : Valuation τ sig (Elt F)) : after (Stages.opsPre (F := F)) V (Proc.devRef .tc main_v106) = Stages.res_main_v106 (V (Proc.devRef .tc main_arg0)) (V (Proc.devRef .tc main_arg1)) (V (Proc.devRef .tc main_arg2)) (V (Proc.devRef .tc main_arg3)) (V (Proc.devRef .tc main_arg4)) := by
  stage_at atPre 146 StableHlo.binary_result [(rdPre 137 146 rfl (by decide) V).trans (pre_main_v99 V), (rdPre 145 146 rfl (by decide) V).trans (pre_main_v105 V)]
theorem pre_main_v107 (V : Valuation τ sig (Elt F)) : after (Stages.opsPre (F := F)) V (Proc.devRef .tc main_v107) = Stages.res_main_v107 (V (Proc.devRef .tc main_arg0)) (V (Proc.devRef .tc main_arg1)) (V (Proc.devRef .tc main_arg2)) (V (Proc.devRef .tc main_arg3)) (V (Proc.devRef .tc main_arg4)) := by
  stage_at atPre 147 StableHlo.binary_result [(rdPre 31 147 rfl (by decide) V).trans (pre_main_v20 V), (rdPre 146 147 rfl (by decide) V).trans (pre_main_v106 V)]
theorem pre_main_v108 (V : Valuation τ sig (Elt F)) : after (Stages.opsPre (F := F)) V (Proc.devRef .tc main_v108) = Stages.res_main_v108 (V (Proc.devRef .tc main_arg0)) (V (Proc.devRef .tc main_arg1)) (V (Proc.devRef .tc main_arg2)) (V (Proc.devRef .tc main_arg3)) (V (Proc.devRef .tc main_arg4)) := by
  stage_at atPre 148 StableHlo.unary_result [(rdPre 37 148 rfl (by decide) V).trans (pre_main_v26 V)]
theorem pre_main_v109 (V : Valuation τ sig (Elt F)) : after (Stages.opsPre (F := F)) V (Proc.devRef .tc main_v109) = Stages.res_main_v109 (V (Proc.devRef .tc main_arg0)) (V (Proc.devRef .tc main_arg1)) (V (Proc.devRef .tc main_arg2)) (V (Proc.devRef .tc main_arg3)) (V (Proc.devRef .tc main_arg4)) := by
  stage_at atPre 149 StableHlo.unary_result [(rdPre 20 149 rfl (by decide) V).trans (pre_main_v10 V)]
theorem pre_main_v110 (V : Valuation τ sig (Elt F)) : after (Stages.opsPre (F := F)) V (Proc.devRef .tc main_v110) = Stages.res_main_v110 (V (Proc.devRef .tc main_arg0)) (V (Proc.devRef .tc main_arg1)) (V (Proc.devRef .tc main_arg2)) (V (Proc.devRef .tc main_arg3)) (V (Proc.devRef .tc main_arg4)) := by
  stage_at atPre 150 StableHlo.binary_result [(rdPre 9 150 rfl (by decide) V).trans (pre_main_v4 V), (rdPre 19 150 rfl (by decide) V).trans (pre_main_v9 V)]
theorem pre_main_cst_22 (V : Valuation τ sig (Elt F)) : after (Stages.opsPre (F := F)) V (Proc.devRef .tc main_cst_22) = Stages.res_main_cst_22 (V (Proc.devRef .tc main_arg0)) (V (Proc.devRef .tc main_arg1)) (V (Proc.devRef .tc main_arg2)) (V (Proc.devRef .tc main_arg3)) (V (Proc.devRef .tc main_arg4)) := by
  stage_at atPre 151 StableHlo.nullary_result []
theorem pre_main_v111 (V : Valuation τ sig (Elt F)) : after (Stages.opsPre (F := F)) V (Proc.devRef .tc main_v111) = Stages.res_main_v111 (V (Proc.devRef .tc main_arg0)) (V (Proc.devRef .tc main_arg1)) (V (Proc.devRef .tc main_arg2)) (V (Proc.devRef .tc main_arg3)) (V (Proc.devRef .tc main_arg4)) := by
  stage_at atPre 152 StableHlo.binary_result [(rdPre 150 152 rfl (by decide) V).trans (pre_main_v110 V), (rdPre 151 152 rfl (by decide) V).trans (pre_main_cst_22 V)]
theorem pre_main_cst_23 (V : Valuation τ sig (Elt F)) : after (Stages.opsPre (F := F)) V (Proc.devRef .tc main_cst_23) = Stages.res_main_cst_23 (V (Proc.devRef .tc main_arg0)) (V (Proc.devRef .tc main_arg1)) (V (Proc.devRef .tc main_arg2)) (V (Proc.devRef .tc main_arg3)) (V (Proc.devRef .tc main_arg4)) := by
  stage_at atPre 153 StableHlo.nullary_result []
theorem pre_main_v112 (V : Valuation τ sig (Elt F)) : after (Stages.opsPre (F := F)) V (Proc.devRef .tc main_v112) = Stages.res_main_v112 (V (Proc.devRef .tc main_arg0)) (V (Proc.devRef .tc main_arg1)) (V (Proc.devRef .tc main_arg2)) (V (Proc.devRef .tc main_arg3)) (V (Proc.devRef .tc main_arg4)) := by
  stage_at atPre 154 StableHlo.unary_result [(rdPre 153 154 rfl (by decide) V).trans (pre_main_cst_23 V)]
theorem pre_main_v113 (V : Valuation τ sig (Elt F)) : after (Stages.opsPre (F := F)) V (Proc.devRef .tc main_v113) = Stages.res_main_v113 (V (Proc.devRef .tc main_arg0)) (V (Proc.devRef .tc main_arg1)) (V (Proc.devRef .tc main_arg2)) (V (Proc.devRef .tc main_arg3)) (V (Proc.devRef .tc main_arg4)) := by
  stage_at atPre 155 StableHlo.binary_result [(rdPre 152 155 rfl (by decide) V).trans (pre_main_v111 V), (rdPre 154 155 rfl (by decide) V).trans (pre_main_v112 V)]
theorem pre_main_v114 (V : Valuation τ sig (Elt F)) : after (Stages.opsPre (F := F)) V (Proc.devRef .tc main_v114) = Stages.res_main_v114 (V (Proc.devRef .tc main_arg0)) (V (Proc.devRef .tc main_arg1)) (V (Proc.devRef .tc main_arg2)) (V (Proc.devRef .tc main_arg3)) (V (Proc.devRef .tc main_arg4)) := by
  stage_at atPre 156 StableHlo.unary_result [(rdPre 155 156 rfl (by decide) V).trans (pre_main_v113 V)]
theorem pre_main_v115 (V : Valuation τ sig (Elt F)) : after (Stages.opsPre (F := F)) V (Proc.devRef .tc main_v115) = Stages.res_main_v115 (V (Proc.devRef .tc main_arg0)) (V (Proc.devRef .tc main_arg1)) (V (Proc.devRef .tc main_arg2)) (V (Proc.devRef .tc main_arg3)) (V (Proc.devRef .tc main_arg4)) := by
  stage_at atPre 157 StableHlo.binary_result [(rdPre 156 157 rfl (by decide) V).trans (pre_main_v114 V)]

/-! ## After the launch: every written buffer is its stage of the argument arrays and the launch's output,
    from any contents that hold, in the buffers the tail reads, their stages -/

theorem post_main_v117 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v117) = Stages.res_main_v117 A0 A1 A2 A3 A4 (W (Proc.devRef .tc main_v116)) := by
  stage_at atPost 0 StableHlo.unary_result [rdPost_main_v116 0 W]
theorem post_main_v118 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v118) = Stages.res_main_v118 A0 A1 A2 A3 A4 (W (Proc.devRef .tc main_v116)) := by
  stage_at atPost 1 StableHlo.reshape_result [(rdPost 0 1 rfl (by decide) W).trans (post_main_v117 W A0 A1 A2 A3 A4 h109 h107 h26 h115)]
theorem post_main_cst_24 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_24) = Stages.res_main_cst_24 A0 A1 A2 A3 A4 (W (Proc.devRef .tc main_v116)) := by
  stage_at atPost 2 StableHlo.nullary_result []
theorem post_main_v119 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v119) = Stages.res_main_v119 A0 A1 A2 A3 A4 (W (Proc.devRef .tc main_v116)) := by
  stage_at atPost 3 StableHlo.binary_result [(rdPost 1 3 rfl (by decide) W).trans (post_main_v118 W A0 A1 A2 A3 A4 h109 h107 h26 h115), (rdPost 2 3 rfl (by decide) W).trans (post_main_cst_24 W A0 A1 A2 A3 A4 h109 h107 h26 h115)]
theorem post_main_v120 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v120) = Stages.res_main_v120 A0 A1 A2 A3 A4 (W (Proc.devRef .tc main_v116)) := by
  stage_at atPost 4 StableHlo.unary_result [(rdPost_main_v109 4 W).trans h109]
theorem post_main_v121 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v121) = Stages.res_main_v121 A0 A1 A2 A3 A4 (W (Proc.devRef .tc main_v116)) := by
  stage_at atPost 5 StableHlo.binary_result [(rdPost 4 5 rfl (by decide) W).trans (post_main_v120 W A0 A1 A2 A3 A4 h109 h107 h26 h115)]
theorem post_main_cst_25 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_25) = Stages.res_main_cst_25 A0 A1 A2 A3 A4 (W (Proc.devRef .tc main_v116)) := by
  stage_at atPost 6 StableHlo.nullary_result []
theorem post_main_v122 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v122) = Stages.res_main_v122 A0 A1 A2 A3 A4 (W (Proc.devRef .tc main_v116)) := by
  stage_at atPost 7 StableHlo.binary_result [(rdPost 5 7 rfl (by decide) W).trans (post_main_v121 W A0 A1 A2 A3 A4 h109 h107 h26 h115), (rdPost 6 7 rfl (by decide) W).trans (post_main_cst_25 W A0 A1 A2 A3 A4 h109 h107 h26 h115)]
theorem post_main_cst_26 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_26) = Stages.res_main_cst_26 A0 A1 A2 A3 A4 (W (Proc.devRef .tc main_v116)) := by
  stage_at atPost 8 StableHlo.nullary_result []
theorem post_main_v123 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v123) = Stages.res_main_v123 A0 A1 A2 A3 A4 (W (Proc.devRef .tc main_v116)) := by
  stage_at atPost 9 StableHlo.unary_result [(rdPost 8 9 rfl (by decide) W).trans (post_main_cst_26 W A0 A1 A2 A3 A4 h109 h107 h26 h115)]
theorem post_main_v124 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v124) = Stages.res_main_v124 A0 A1 A2 A3 A4 (W (Proc.devRef .tc main_v116)) := by
  stage_at atPost 10 StableHlo.binary_result [(rdPost 7 10 rfl (by decide) W).trans (post_main_v122 W A0 A1 A2 A3 A4 h109 h107 h26 h115), (rdPost 9 10 rfl (by decide) W).trans (post_main_v123 W A0 A1 A2 A3 A4 h109 h107 h26 h115)]
theorem post_main_v125 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v125) = Stages.res_main_v125 A0 A1 A2 A3 A4 (W (Proc.devRef .tc main_v116)) := by
  stage_at atPost 11 StableHlo.unary_result [(rdPost 10 11 rfl (by decide) W).trans (post_main_v124 W A0 A1 A2 A3 A4 h109 h107 h26 h115)]
theorem post_main_v126 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v126) = Stages.res_main_v126 A0 A1 A2 A3 A4 (W (Proc.devRef .tc main_v116)) := by
  stage_at atPost 12 StableHlo.binary_result [(rdPost_main_v107 12 W).trans h107, (rdPost_main_v26 12 W).trans h26]
theorem post_main_cst_27 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_27) = Stages.res_main_cst_27 A0 A1 A2 A3 A4 (W (Proc.devRef .tc main_v116)) := by
  stage_at atPost 13 StableHlo.nullary_result []
theorem post_main_v127 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v127) = Stages.res_main_v127 A0 A1 A2 A3 A4 (W (Proc.devRef .tc main_v116)) := by
  stage_at atPost 14 StableHlo.binary_result [(rdPost 12 14 rfl (by decide) W).trans (post_main_v126 W A0 A1 A2 A3 A4 h109 h107 h26 h115), (rdPost 13 14 rfl (by decide) W).trans (post_main_cst_27 W A0 A1 A2 A3 A4 h109 h107 h26 h115)]
theorem post_main_v128 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v128) = Stages.res_main_v128 A0 A1 A2 A3 A4 (W (Proc.devRef .tc main_v116)) := by
  stage_at atPost 15 StableHlo.binary_result [(rdPost 11 15 rfl (by decide) W).trans (post_main_v125 W A0 A1 A2 A3 A4 h109 h107 h26 h115), (rdPost 14 15 rfl (by decide) W).trans (post_main_v127 W A0 A1 A2 A3 A4 h109 h107 h26 h115)]
theorem post_main_cst_28 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_28) = Stages.res_main_cst_28 A0 A1 A2 A3 A4 (W (Proc.devRef .tc main_v116)) := by
  stage_at atPost 16 StableHlo.nullary_result []
theorem post_main_v129 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v129) = Stages.res_main_v129 A0 A1 A2 A3 A4 (W (Proc.devRef .tc main_v116)) := by
  stage_at atPost 17 StableHlo.binary_result [(rdPost 15 17 rfl (by decide) W).trans (post_main_v128 W A0 A1 A2 A3 A4 h109 h107 h26 h115), (rdPost 16 17 rfl (by decide) W).trans (post_main_cst_28 W A0 A1 A2 A3 A4 h109 h107 h26 h115)]
theorem post_main_v130 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v130) = Stages.res_main_v130 A0 A1 A2 A3 A4 (W (Proc.devRef .tc main_v116)) := by
  stage_at atPost 18 StableHlo.binary_result [(rdPost 3 18 rfl (by decide) W).trans (post_main_v119 W A0 A1 A2 A3 A4 h109 h107 h26 h115), (rdPost 17 18 rfl (by decide) W).trans (post_main_v129 W A0 A1 A2 A3 A4 h109 h107 h26 h115)]
theorem post_main_v131 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v131) = Stages.res_main_v131 A0 A1 A2 A3 A4 (W (Proc.devRef .tc main_v116)) := by
  stage_at atPost 19 StableHlo.unary_result [(rdPost 18 19 rfl (by decide) W).trans (post_main_v130 W A0 A1 A2 A3 A4 h109 h107 h26 h115)]
theorem post_main_v132 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v132) = Stages.res_main_v132 A0 A1 A2 A3 A4 (W (Proc.devRef .tc main_v116)) := by
  stage_at atPost 20 StableHlo.binary_result [(rdPost_main_v115 20 W).trans h115, (rdPost 19 20 rfl (by decide) W).trans (post_main_v131 W A0 A1 A2 A3 A4 h109 h107 h26 h115)]
theorem post_main_v133 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v133) = Stages.res_main_v133 A0 A1 A2 A3 A4 (W (Proc.devRef .tc main_v116)) := by
  stage_at atPost 21 StableHlo.unary_result [(rdPost 20 21 rfl (by decide) W).trans (post_main_v132 W A0 A1 A2 A3 A4 h109 h107 h26 h115)]
theorem post_main_v134 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v134) = Stages.res_main_v134 A0 A1 A2 A3 A4 (W (Proc.devRef .tc main_v116)) := by
  stage_at atPost 22 StableHlo.unary_result [(rdPost 21 22 rfl (by decide) W).trans (post_main_v133 W A0 A1 A2 A3 A4 h109 h107 h26 h115)]
theorem post_main_cst_29 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_29) = Stages.res_main_cst_29 A0 A1 A2 A3 A4 (W (Proc.devRef .tc main_v116)) := by
  stage_at atPost 23 StableHlo.nullary_result []
theorem post_main_v135 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v135) = Stages.res_main_v135 A0 A1 A2 A3 A4 (W (Proc.devRef .tc main_v116)) := by
  stage_at atPost 24 StableHlo.binary_result [(rdPost 22 24 rfl (by decide) W).trans (post_main_v134 W A0 A1 A2 A3 A4 h109 h107 h26 h115), (rdPost 23 24 rfl (by decide) W).trans (post_main_cst_29 W A0 A1 A2 A3 A4 h109 h107 h26 h115)]
theorem post_main_cst_30 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_30) = Stages.res_main_cst_30 A0 A1 A2 A3 A4 (W (Proc.devRef .tc main_v116)) := by
  stage_at atPost 25 StableHlo.nullary_result []
theorem post_main_v136 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v136) = Stages.res_main_v136 A0 A1 A2 A3 A4 (W (Proc.devRef .tc main_v116)) := by
  stage_at atPost 26 StableHlo.binary_result [(rdPost 24 26 rfl (by decide) W).trans (post_main_v135 W A0 A1 A2 A3 A4 h109 h107 h26 h115), (rdPost 25 26 rfl (by decide) W).trans (post_main_cst_30 W A0 A1 A2 A3 A4 h109 h107 h26 h115)]

/-! ## What the launch and the tail read, and the program's result -/

theorem pre_stage_v109 (V : Valuation τ sig (Elt F)) : StableHlo.after (Stages.opsPre (F := F)) V (Proc.devRef .tc main_v109) = Stages.res_main_v109 (V (Proc.devRef .tc main_arg0)) (V (Proc.devRef .tc main_arg1)) (V (Proc.devRef .tc main_arg2)) (V (Proc.devRef .tc main_arg3)) (V (Proc.devRef .tc main_arg4)) :=
  pre_main_v109 V
theorem pre_stage_v107 (V : Valuation τ sig (Elt F)) : StableHlo.after (Stages.opsPre (F := F)) V (Proc.devRef .tc main_v107) = Stages.res_main_v107 (V (Proc.devRef .tc main_arg0)) (V (Proc.devRef .tc main_arg1)) (V (Proc.devRef .tc main_arg2)) (V (Proc.devRef .tc main_arg3)) (V (Proc.devRef .tc main_arg4)) :=
  pre_main_v107 V
theorem pre_stage_v108 (V : Valuation τ sig (Elt F)) : StableHlo.after (Stages.opsPre (F := F)) V (Proc.devRef .tc main_v108) = Stages.res_main_v108 (V (Proc.devRef .tc main_arg0)) (V (Proc.devRef .tc main_arg1)) (V (Proc.devRef .tc main_arg2)) (V (Proc.devRef .tc main_arg3)) (V (Proc.devRef .tc main_arg4)) :=
  pre_main_v108 V
theorem pre_stage_v26 (V : Valuation τ sig (Elt F)) : StableHlo.after (Stages.opsPre (F := F)) V (Proc.devRef .tc main_v26) = Stages.res_main_v26 (V (Proc.devRef .tc main_arg0)) (V (Proc.devRef .tc main_arg1)) (V (Proc.devRef .tc main_arg2)) (V (Proc.devRef .tc main_arg3)) (V (Proc.devRef .tc main_arg4)) :=
  pre_main_v26 V
theorem pre_stage_v115 (V : Valuation τ sig (Elt F)) : StableHlo.after (Stages.opsPre (F := F)) V (Proc.devRef .tc main_v115) = Stages.res_main_v115 (V (Proc.devRef .tc main_arg0)) (V (Proc.devRef .tc main_arg1)) (V (Proc.devRef .tc main_arg2)) (V (Proc.devRef .tc main_arg3)) (V (Proc.devRef .tc main_arg4)) :=
  pre_main_v115 V

/-- The operations before the launch leave the argument arrays as they were. -/
theorem pre_args (V : Valuation τ sig (Elt F)) :
    StableHlo.after (Stages.opsPre (F := F)) V (Proc.devRef .tc main_arg0) = V (Proc.devRef .tc main_arg0) ∧
    StableHlo.after (Stages.opsPre (F := F)) V (Proc.devRef .tc main_arg1) = V (Proc.devRef .tc main_arg1) ∧
    StableHlo.after (Stages.opsPre (F := F)) V (Proc.devRef .tc main_arg2) = V (Proc.devRef .tc main_arg2) ∧
    StableHlo.after (Stages.opsPre (F := F)) V (Proc.devRef .tc main_arg3) = V (Proc.devRef .tc main_arg3) ∧
    StableHlo.after (Stages.opsPre (F := F)) V (Proc.devRef .tc main_arg4) = V (Proc.devRef .tc main_arg4) :=
  ⟨keepPre_main_arg0 V, keepPre_main_arg1 V, keepPre_main_arg2 V, keepPre_main_arg3 V, keepPre_main_arg4 V⟩

theorem post_stage_v136 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F))
    (hA0 : W (Proc.devRef .tc main_arg0) = A0) (hA1 : W (Proc.devRef .tc main_arg1) = A1) (hA2 : W (Proc.devRef .tc main_arg2) = A2) (hA3 : W (Proc.devRef .tc main_arg3) = A3) (hA4 : W (Proc.devRef .tc main_arg4) = A4)
    (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    StableHlo.after (Stages.opsPost (F := F)) W (Proc.devRef .tc main_v136) = Stages.res_main_v136 A0 A1 A2 A3 A4 (W (Proc.devRef .tc main_v116)) :=
  post_main_v136 W A0 A1 A2 A3 A4 h109 h107 h26 h115

/-- The operations after the launch leave the argument arrays as they were. -/
theorem post_args (W : Valuation τ sig (Elt F)) :
    StableHlo.after (Stages.opsPost (F := F)) W (Proc.devRef .tc main_arg0) = W (Proc.devRef .tc main_arg0) ∧
    StableHlo.after (Stages.opsPost (F := F)) W (Proc.devRef .tc main_arg1) = W (Proc.devRef .tc main_arg1) ∧
    StableHlo.after (Stages.opsPost (F := F)) W (Proc.devRef .tc main_arg2) = W (Proc.devRef .tc main_arg2) ∧
    StableHlo.after (Stages.opsPost (F := F)) W (Proc.devRef .tc main_arg3) = W (Proc.devRef .tc main_arg3) ∧
    StableHlo.after (Stages.opsPost (F := F)) W (Proc.devRef .tc main_arg4) = W (Proc.devRef .tc main_arg4) :=
  ⟨keepPost_main_arg0 W, keepPost_main_arg1 W, keepPost_main_arg2 W, keepPost_main_arg3 W, keepPost_main_arg4 W⟩

end Cert.KernelIdeal.Hand

end
-- ==== Proof.KIGlue.lean ====
/-
  From the launch to the program's result. @main is host lines, one launch, host lines. The lines before the launch compute
  the three arrays the launch reads from the five argument arrays; the launch leaves in its output array the accumulation of
  each row block over the column blocks; the lines after it compute the result from that array and buffers of the first
  lines; no line writes an argument array. So whatever memory holds, outside the launch's arrays, the last lines' table read at
  the launch's exit holds the result as a function of the argument arrays alone, and the argument arrays as they were.
-/
import proofs.«427632_j79637283602625_3_alg».proof.Proof.KIBodyDef
import proofs.«427632_j79637283602625_3_alg».proof.Proof.KILaunchA
import proofs.«427632_j79637283602625_3_alg».proof.Proof.KIStageRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## @main around the launch -/

/-- No host line before the launch allocates. -/
theorem pre_fresh : ([hostOps0, hostOps0_1, hostOps0_2, hostOps0_3, hostOps0_4, hostOps0_5, hostOps0_6, hostOps0_7, hostOps0_8, hostOps0_9] : List (List (HloOp τ sig (Elt F)))).Forall
    fun ops => ops.Forall fun op => op.fresh = ∅ := by
  simp only [List.Forall]; repeat' constructor

/-- @main reduces to the launch continued by the later lines, at the contents the earlier lines leave. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main
    [hostOps0, hostOps0_1, hostOps0_2, hostOps0_3, hostOps0_4, hostOps0_5, hostOps0_6, hostOps0_7, hostOps0_8, hostOps0_9] [hostOps1]
    ⟨hostOps0_sub, hostOps0_1_sub, hostOps0_2_sub, hostOps0_3_sub, hostOps0_4_sub, hostOps0_5_sub, hostOps0_6_sub, hostOps0_7_sub, hostOps0_8_sub, hostOps0_9_sub⟩
    pre_fresh main_chain

/-! ## What the lines before the launch leave -/

/-- The entry contents are the first lines' table read from the launch memory. -/
theorem V0_eq (c : Dev nD) : V0 m c = StableHlo.after (Stages.opsPre (F := F)) (fun b => m (c, b)) := by
  show StableHlo.after (List.flatten [hostOps0, hostOps0_1, hostOps0_2, hostOps0_3, hostOps0_4, hostOps0_5, hostOps0_6, hostOps0_7, hostOps0_8, hostOps0_9]) _ = _
  rw [flatten_pre]

/-! ## From the launch's exit to the result -/

/-- If memory holds, at every buffer that is no array of the launch, the last lines' table read at the launch's exit contents,
    and the launch's output array ends at the accumulation over the arrays the launch found, then the result buffer holds the last
    lines' table read at that accumulation, itself read at the first lines' table of the argument arrays, and the argument arrays
    are as they were. -/
theorem glue (c : Dev nD) (mem : (ℓ : Loc nD τ sig) → Buf (Elt F) ℓ)
    (hrest : ∀ b ∈ Pipeline.restRefs sig spec0, mem ((c.tc : Thread nD τ).loc b) = StableHlo.after hostOps1 (exitVal (V0 m) (dats m) c) (Proc.devRef .tc b))
    (hout : (dats m 0 c).arrAt 4 cfg0.N = regionOut (V m c main_v109) (V m c main_v107) (V m c main_v108)) :
    mem ((c.tc : Thread nD τ).loc main_v136)
        = Stages.res_main_v136 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (regionOut
              (Stages.res_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4) := by
  -- the first lines' table at the launch memory
  obtain ⟨ha0, ha1, ha2, ha3, ha4⟩ := pre_args (F := F) (fun b => m (c, b))
  have hE : ∀ b : Ref sig .tc, b ≠ main_v116 → exitVal (V0 m) (dats m) c (Proc.devRef .tc b) = StableHlo.after (Stages.opsPre (F := F)) (fun b => m (c, b)) (Proc.devRef .tc b) :=
    fun b hb => (exitVal_of_ne (V0 m) (dats m) c b hb).trans (congrFun (V0_eq m c) _)
  have hV : ∀ b : Ref sig .tc, V m c b = StableHlo.after (Stages.opsPre (F := F)) (fun b => m (c, b)) (Proc.devRef .tc b) :=
    fun b => congrFun (V0_eq m c) _
  have hW0 := (hE main_arg0 (by decide)).trans ha0
  have hW1 := (hE main_arg1 (by decide)).trans ha1
  have hW2 := (hE main_arg2 (by decide)).trans ha2
  have hW3 := (hE main_arg3 (by decide)).trans ha3
  have hW4 := (hE main_arg4 (by decide)).trans ha4
  have h109 := (hE main_v109 (by decide)).trans (pre_stage_v109 _)
  have h107 := (hE main_v107 (by decide)).trans (pre_stage_v107 _)
  have h26 := (hE main_v26 (by decide)).trans (pre_stage_v26 _)
  have h115 := (hE main_v115 (by decide)).trans (pre_stage_v115 _)
  -- the launch's output array at the launch's exit
  have h116 : exitVal (V0 m) (dats m) c (Proc.devRef .tc main_v116)
      = (regionOut
              (Stages.res_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) := by
    rw [exitVal_out, hout, hV main_v109, hV main_v107, hV main_v108, pre_stage_v109, pre_stage_v107, pre_stage_v108]
  have hpost := post_args (F := F) (exitVal (V0 m) (dats m) c)
  rw [← post_eq] at hpost
  obtain ⟨hp0, hp1, hp2, hp3, hp4⟩ := hpost
  refine ⟨?_, ?_, ?_, ?_, ?_, ?_⟩
  · rw [hrest main_v136 (Pipeline.mem_restRefs_of main_v136 rfl (by decide)), post_eq,
      post_stage_v136 _ _ _ _ _ _ hW0 hW1 hW2 hW3 hW4 h109 h107 h26 h115, h116]
  · exact (hrest main_arg0 (Pipeline.mem_restRefs_of main_arg0 rfl (by decide))).trans (hp0.trans hW0)
  · exact (hrest main_arg1 (Pipeline.mem_restRefs_of main_arg1 rfl (by decide))).trans (hp1.trans hW1)
  · exact (hrest main_arg2 (Pipeline.mem_restRefs_of main_arg2 rfl (by decide))).trans (hp2.trans hW2)
  · exact (hrest main_arg3 (Pipeline.mem_restRefs_of main_arg3 rfl (by decide))).trans (hp3.trans hW3)
  · exact (hrest main_arg4 (Pipeline.mem_restRefs_of main_arg4 rfl (by decide))).trans (hp4.trans hW4)

end Cert.KernelIdeal.Hand

end
-- ==== Proof.KIRun.lean ====
/-
  The kernel program's run. @main is host lines, one launch, host lines. The lines before the launch compute the three arrays
  the launch reads from the five argument arrays; the launch leaves in its output array the eight-fold accumulation of each
  row block over the column blocks; the lines after it compute the result from that array, the arrays the launch read and
  two further buffers of the first lines, and no line writes an argument array.
-/
import proofs.«427632_j79637283602625_3_alg».proof.Proof.KILaunch
import proofs.«427632_j79637283602625_3_alg».proof.Proof.KIBody
import proofs.«427632_j79637283602625_3_alg».proof.Proof.KIArrAt
import proofs.«427632_j79637283602625_3_alg».proof.Proof.KIGlue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Every weakly fair execution of the program ends; the result buffer holds the last lines' table read at the launch's
    accumulated output, itself read at the first lines' table; the argument arrays are as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v136)
        = Stages.res_main_v136 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (regionOut
              (Stages.res_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hrun : θ_run (defs (F := F)) (onTc (τ := τ) (main (F := F))) (s₀ m ρ) (RunPost (V0 m) (dats m)) :=
    run_region m ρ (main (F := F)) (V0 m) (dats m) (q0 m) (q1 m) (q2 m) (q3 m) (owed_eq m) (A_eq m)
      (fun c => by rw [Phi_eq]) (fun c => by rw [Phi_eq]) (fun c => (body_obligation m c).loose) (hmain m)
  refine (θ_run (defs (F := F)) _ _).mono ?_ hrun
  intro r h c
  exact glue m c r.2.mem (h c).2 (arrAt_out m c)

end Cert.KernelIdeal.Hand

end
-- ==== Proof.KLaunchA.lean ====
/- The word-level program's copy of KILaunchA.lean: the same text with Cert.KernelIdeal ↦ Cert.Kernel, Gen.KernelIdeal ↦ Gen.Kernel,
   KIStages ↦ KStages, the hand modules KI<Name> ↦ K<Name>, and the instance argument [Named F] dropped. -/
/-
  The launch of a pipeline two of whose windows read one array. The buffers behind the five windows' arrays are four;
  the shared array's full share is halved between its two windows when the region is entered and the halves rejoin when
  it is left. The unscoped buffers held at a valuation are the arrays at it and the bypassing buffers at it, and the host
  lines after the region run within them, writing no array.
-/
import proofs.«427632_j79637283602625_3_alg».proof.Proof.Gen.Kernel.Launch
import proofs.«427632_j79637283602625_3_alg».proof.Proof.Gen.Kernel.Points
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the five windows' arrays are four: the first two windows read one array. -/
theorem arrImage : Finset.univ.image (Pipeline.arrRef spec0) = [main_v109, main_v107, main_v108, main_v116].toFinset := by decide

/-- The four buffers behind the arrays, one by one. -/
theorem arrBufs_explicit (c : Dev nD) (Vx : (b : Ref sig .tc) → Buf (Elt F) ((c.tc : Thread nD τ).loc b)) :
    (Pipeline.arrBufs spec0 c Vx : sProp 𝕄)
      = iprop((((c.tc : Thread nD τ).loc main_v109) ↦{fullShare} Vx main_v109) ∗ (((c.tc : Thread nD τ).loc main_v107) ↦{fullShare} Vx main_v107)
          ∗ (((c.tc : Thread nD τ).loc main_v108) ↦{fullShare} Vx main_v108) ∗ (((c.tc : Thread nD τ).loc main_v116) ↦{fullShare} Vx main_v116)) := by
  unfold Pipeline.arrBufs
  rw [Idealize.SL.BI.bigSep_eq_bigSepL_of_eq _ arrImage (by decide)]
  rfl

/-- The five windows' arrays, one by one: the first two windows hold the two halves of one array's share. -/
theorem arrays_explicit {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fx : (w : Fin cfg0.W) → Buf (Elt F) ((cfg0.win w).arr.view.loc (c.tc : Thread nD τ))) :
    (dat.arrays Fx : sProp 𝕄)
      = iprop((((c.tc : Thread nD τ).loc main_v109) ↦{fullShare.left} Fx 0) ∗ (((c.tc : Thread nD τ).loc main_v109) ↦{fullShare.right} Fx 1)
          ∗ (((c.tc : Thread nD τ).loc main_v107) ↦{fullShare} Fx 2) ∗ (((c.tc : Thread nD τ).loc main_v108) ↦{fullShare} Fx 3)
          ∗ (((c.tc : Thread nD τ).loc main_v116) ↦{fullShare} Fx 4)) := by
  unfold Dat.arrays
  rw [bigSep_W0]
  rw [show dat.share 0 = fullShare.left from hq0, show dat.share 1 = fullShare.right from hq1, show dat.share 2 = fullShare from hq2,
    show dat.share 3 = fullShare from hq3, show dat.share 4 = fullShare from rfl]
  rw [(arr_whole0 0).set_eq_univ, (arr_whole0 2).set_eq_univ, (arr_whole0 3).set_eq_univ, (arr_whole0 4).set_eq_univ]

/-- The whole buffers dealt to the windows: the shared array's share is halved between its two windows. -/
theorem arrBufs_split {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vx : (b : Ref sig .tc) → Buf (Elt F) ((c.tc : Thread nD τ).loc b))
    (Fx : (w : Fin cfg0.W) → Buf (Elt F) ((cfg0.win w).arr.view.loc (c.tc : Thread nD τ))) (hF : ∀ w, Fx w = Vx (Pipeline.arrRef spec0 w)) :
    (Pipeline.arrBufs spec0 c Vx : sProp 𝕄) ⊢ dat.arrays Fx := by
  rw [arrBufs_explicit, arrays_explicit dat hq0 hq1 hq2 hq3, hF 0, hF 1, hF 2, hF 3, hF 4]
  iintro ⟨H0, H2, H3, H4⟩
  ihave H0 := (pointsTo_share (PosShare.mem_left_op_right fullShare)).1 $$ H0
  icases H0 with ⟨Hl, Hr⟩
  isplitl [Hl]; · iexact Hl
  isplitl [Hr]; · iexact Hr
  isplitl [H2]; · iexact H2
  isplitl [H3]; · iexact H3
  iexact H4

/-- And back: the two halves of the shared array, at the same contents, rejoin. -/
theorem arrays_join {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vx : (b : Ref sig .tc) → Buf (Elt F) ((c.tc : Thread nD τ).loc b))
    (Fx : (w : Fin cfg0.W) → Buf (Elt F) ((cfg0.win w).arr.view.loc (c.tc : Thread nD τ))) (hF : ∀ w, Fx w = Vx (Pipeline.arrRef spec0 w)) :
    dat.arrays Fx ⊢ (Pipeline.arrBufs spec0 c Vx : sProp 𝕄) := by
  rw [arrBufs_explicit, arrays_explicit dat hq0 hq1 hq2 hq3, hF 0, hF 1, hF 2, hF 3, hF 4]
  iintro ⟨Hl, Hr, H2, H3, H4⟩
  isplitl [Hl Hr]
  · iapply (pointsTo_share (PosShare.mem_left_op_right fullShare)).2
    isplitl [Hl]; · iexact Hl
    iexact Hr
  isplitl [H2]; · iexact H2
  isplitl [H3]; · iexact H3
  iexact H4

section Launch

variable (V₀ : Dev nD → Valuation τ sig (Elt F))
variable (dats : (p : Fin 1) → (c : Dev nD) → Dat τ (Elt F) Unit ℕ (UR sig nD τ) ℕ (cfgs p) c)

/-- What the core's buffers hold when the region is left: the output array as the write-backs leave it, every other
    buffer as the region found it. -/
def exitVal (c : Dev nD) : Valuation τ sig (Elt F) :=
  Function.update (V₀ c) (Proc.devRef .tc main_v116) ((dats 0 c).arrAt 4 cfg0.N)

theorem exitVal_out (c : Dev nD) : exitVal V₀ dats c (Proc.devRef .tc main_v116) = (dats 0 c).arrAt 4 cfg0.N := by
  unfold exitVal; rw [Function.update_self]

theorem exitVal_of_ne (c : Dev nD) (b : Ref sig .tc) (hb : b ≠ main_v116) : exitVal V₀ dats c (Proc.devRef .tc b) = V₀ c (Proc.devRef .tc b) := by
  unfold exitVal; rw [Function.update_of_ne (StableHlo.devRef_ne_of_ne hb)]

/-- The unscoped buffers held at a valuation are the windows' arrays at it and the bypassing buffers at it. -/
theorem held_eq (c : Dev nD) (W : Valuation τ sig (Elt F)) :
    (StableHlo.held (c.tc : Thread nD τ) (Pipeline.ucRefs τ sig) W : sProp 𝕄)
      = iprop((Pipeline.arrBufs spec0 c (fun b => W (Proc.devRef .tc b)) : sProp 𝕄) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs (0 : Fin 1) winFacts₀0.arr_unscoped c _

/-- The bypassing buffers read the exit valuation where they read the entry one. -/
theorem rest_exit (c : Dev nD) :
    (Pipeline.unscopedRest spec0 c (fun b => exitVal V₀ dats c (Proc.devRef .tc b)) : sProp 𝕄)
      = Pipeline.unscopedRest spec0 c (fun b => V₀ c (Proc.devRef .tc b)) := by
  unfold Pipeline.unscopedRest
  exact bigSep_congr fun b hb => by
    dsimp only
    rw [exitVal_of_ne V₀ dats c b fun e => (Finset.mem_sdiff.mp hb).2 (Finset.mem_image.mpr ⟨4, Finset.mem_univ _, e ▸ rfl⟩)]

variable (hA : ∀ c w, (dats 0 c).A w = V₀ c (Proc.devRef .tc (Pipeline.arrRef spec0 w)))

include hA in
/-- Each array, after every write-back, is what the exit valuation reads: an input as the region found it. -/
theorem arrAt_exit (c : Dev nD) (w : Fin cfg0.W) :
    (dats 0 c).arrAt w cfg0.N = exitVal V₀ dats c (Proc.devRef .tc (Pipeline.arrRef spec0 w)) := by
  fin_cases w
  · exact ((dats 0 c).arrAt_in 0 rfl _).trans ((hA c 0).trans (exitVal_of_ne V₀ dats c _ (by decide)).symm)
  · exact ((dats 0 c).arrAt_in 1 rfl _).trans ((hA c 1).trans (exitVal_of_ne V₀ dats c _ (by decide)).symm)
  · exact ((dats 0 c).arrAt_in 2 rfl _).trans ((hA c 2).trans (exitVal_of_ne V₀ dats c _ (by decide)).symm)
  · exact ((dats 0 c).arrAt_in 3 rfl _).trans ((hA c 3).trans (exitVal_of_ne V₀ dats c _ (by decide)).symm)
  · exact (exitVal_out V₀ dats c).symm

end Launch

/-! ## The lines after the region -/

theorem hostOps1_fresh : (hostOps1 : List (HloOp τ sig (Elt F))).Forall fun op => op.fresh = ∅ := by
  simp only [List.Forall]; repeat' constructor

/-- No line after the region writes an array of the pipeline: each writes its own result buffer. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option backward.isDefEq.respectTransparency.types false in
/-- The lines after the region, run within the unscoped buffers from any contents. -/
theorem tail_run (c : Dev nD) (W : Valuation τ sig (Elt F)) (Q' : PUnit → sProp 𝕄) :
    iprop((iprop(StableHlo.held (c.tc : Thread nD τ) (Pipeline.ucRefs τ sig) (StableHlo.after hostOps1 W)) -∗ Q' ⟨⟩)
        ∗ boundary (c.tc : Thread nD τ) ∗ StableHlo.held (c.tc : Thread nD τ) (Pipeline.ucRefs τ sig) W)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have h := Pipeline.wp_seqs_then (Ix := Unit) (Name := ℕ) (U := UR sig nD τ) (Lvl := ℕ) (fun q => (cfgs q).toPCfg (Val := Elt F)) defs₀ Variants.none c
    (Pipeline.ucRefs τ sig) [] (K := Q') [hostOps1]
    (fun ops ho op h => by
      rw [List.mem_singleton] at ho; subst ho
      exact Pipeline.sub_ucRefs op ((List.forall_iff_forall_mem.mp hostOps1_sub) op h))
    (fun ops ho op h => by
      rw [List.mem_singleton] at ho; subst ho
      exact (List.forall_iff_forall_mem.mp hostOps1_fresh) op h) W
  rw [List.flatten_cons, List.flatten_nil, List.append_nil, List.map_cons, List.map_nil, List.append_nil] at h
  iintro ⟨Hk, Hb⟩
  iapply h $$ Hb
  iintro Hb
  rw [Pipeline.chain_nil, wp_pure]
  imodintro
  iapply Hk
  icases Hb with ⟨-, H⟩
  iexact H

end Cert.Kernel.Hand

end
-- ==== Proof.KLaunch.lean ====
/- The word-level program's copy of KILaunch.lean: the same text with Cert.KernelIdeal ↦ Cert.Kernel, Gen.KernelIdeal ↦ Gen.Kernel,
   KIStages ↦ KStages, the hand modules KI<Name> ↦ K<Name>, and the instance argument [Named F] dropped. -/
/-
  The run of a program that is host lines, one launch of a pipeline two of whose windows read one array, and host lines.
  The region rule is entered with the shared array's full share halved between its two windows; at the region's exit the
  halves, which hold the same contents, rejoin, the lines after the region run within all the unscoped buffers from the exit
  contents, and the final memory is read off: every array as the write-backs leave it, every other unscoped buffer as those
  lines leave it.
-/
import proofs.«427632_j79637283602625_3_alg».proof.Proof.KLaunchA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run of @main: host lines, the region with two windows on one array, host lines -/

section Run

variable (m : (ℓ : Loc nD τ sig) → Buf (Elt F) ℓ) (ρ : Dev nD → PrngReg)
variable (mainP : Dev nD → Prog (TpuEff nD τ sig (Elt F) (Pipeline.Sig Λ₀ (Fin 1) fun p => ((cfgs p).toPCfg (Val := Elt F)).Adm) .tc) PUnit)
variable (V₀ : Dev nD → Valuation τ sig (Elt F))
variable (dats : (p : Fin 1) → (c : Dev nD) → Dat τ (Elt F) Unit ℕ (UR sig nD τ) ℕ (cfgs p) c)

/-- Each array, after every write-back, is also what the lines after the region leave in it: they write none. -/
theorem arrAt_after (hA : ∀ c w, (dats 0 c).A w = V₀ c (Proc.devRef .tc (Pipeline.arrRef spec0 w))) (c : Dev nD) (w : Fin cfg0.W) :
    (dats 0 c).arrAt w cfg0.N = StableHlo.after hostOps1 (exitVal V₀ dats c) (Proc.devRef .tc (Pipeline.arrRef spec0 w)) :=
  (arrAt_exit V₀ dats hA c w).trans (StableHlo.after_of_forall_not_mem hostOps1 _ fun op hop => hostOps1_keeps op hop w).symm

/-- At the region's exit the arrays, each after every write-back, and the bypassing buffers, as the region found them, are the
    unscoped buffers held at the exit valuation: the halves of the shared array rejoin. -/
theorem exit_join (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V₀ c (Proc.devRef .tc (Pipeline.arrRef spec0 w))) (c : Dev nD) :
    iprop((dats 0 c).arrays ((dats 0 c).arrAt · cfg0.N) ∗ Pipeline.unscopedRest spec0 c (fun b => V₀ c (Proc.devRef .tc b)))
      ⊢ (StableHlo.held (c.tc : Thread nD τ) (Pipeline.ucRefs τ sig) (exitVal V₀ dats c) : sProp 𝕄) := by
  rw [held_eq, rest_exit]
  iintro ⟨Ha, Hz⟩
  isplitl [Ha]
  · iapply (arrays_join (dats 0 c) (hq0 c) (hq1 c) (hq2 c) (hq3 c) _ _ (arrAt_exit V₀ dats hA c)); iexact Ha
  iexact Hz

/-- After the lines that follow the region the unscoped buffers split again: the arrays, unwritten, and the bypassing buffers
    at what the lines leave. -/
theorem after_split (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V₀ c (Proc.devRef .tc (Pipeline.arrRef spec0 w))) (c : Dev nD) :
    (StableHlo.held (c.tc : Thread nD τ) (Pipeline.ucRefs τ sig) (StableHlo.after hostOps1 (exitVal V₀ dats c)) : sProp 𝕄)
      ⊢ iprop((dats 0 c).arrays ((dats 0 c).arrAt · cfg0.N)
          ∗ Pipeline.unscopedRest spec0 c (fun b => StableHlo.after hostOps1 (exitVal V₀ dats c) (Proc.devRef .tc b))) := by
  rw [held_eq]
  iintro ⟨Ha, Hz⟩
  isplitl [Ha]
  · iapply (arrBufs_split (dats 0 c) (hq0 c) (hq1 c) (hq2 c) (hq3 c) (fun b => StableHlo.after hostOps1 (exitVal V₀ dats c) (Proc.devRef .tc b)) _ (arrAt_after V₀ dats hA c)); iexact Ha
  iexact Hz

/-- What the run leaves: every array of the pipeline at what the write-backs make of it, every other unscoped buffer at what
    the lines after the region compute from the region's exit. -/
def RunPost (r : PUnit × MemSt nD τ sig (Elt F)) : Prop :=
  ∀ c : Dev nD, (∀ w, r.2.mem ((spec0 w).arr.view.loc (c.tc : Thread nD τ)) = (dats 0 c).arrAt w cfg0.N)
    ∧ ∀ b ∈ Pipeline.restRefs sig spec0, r.2.mem ((c.tc : Thread nD τ).loc b) = StableHlo.after hostOps1 (exitVal V₀ dats c) (Proc.devRef .tc b)

set_option backward.isDefEq.respectTransparency.types false in
set_option maxHeartbeats 1600000 in
/-- Every weakly fair execution of @main ends, in a memory as `RunPost` says. The shared array's full share is halved
    between its two windows at the region's entry and rejoined at its exit, where the lines after the region read it whole. -/
theorem run_region
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V₀ c (Proc.devRef .tc (Pipeline.arrRef spec0 w)))
    (hin : ∀ c, Pipeline.ΦA spec0 c ⊢ (dats 0 c).Φ 0) (hout : ∀ c, (dats 0 c).Φ (Fin.last cfg0.N) ⊢ Pipeline.ΦA spec0 c)
    (hbody : ∀ c, Pipeline.BodyObligationLoose (dats 0 c) defs₀ Variants.none () Set.univ)
    (hmain : Pipeline.HMainK (Ix := Unit) (Name := ℕ) (U := UR sig nD τ) (Lvl := ℕ) cfgs 0 defs₀ Variants.none m mainP
      (fun c b => V₀ c (Proc.devRef .tc b)) (fun _ => Pipeline.chain [StableHlo.seq hostOps1])) :
    θ_run (Pipeline.defs (fun q => (cfgs q).toPCfg (Val := Elt F)) defs₀) (onTc (τ := τ) mainP) (s₀ m ρ) (RunPost V₀ dats) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ mainP
    (fun _ => Pipeline.chain [StableHlo.seq hostOps1]) hbody block_pos0 arr_whole0 stage_whole0 howed
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => arrBufs_split (dats 0 c) (hq0 c) (hq1 c) (hq2 c) (hq3 c) _ _ fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => V₀ c (Proc.devRef .tc b)))
    (Z' := fun c => Pipeline.unscopedRest (Ix := Unit) (Name := ℕ) (U := UR sig nD τ) (Lvl := ℕ) spec0 c
      (fun b => StableHlo.after hostOps1 (exitVal V₀ dats c) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      iintro ⟨Hk, Hb, Ha, Hz⟩
      iapply (tail_run c (exitVal V₀ dats c) Q')
      isplitl [Hk]
      · iintro Hh
        iapply Hk
        iapply (after_split V₀ dats hq0 hq1 hq2 hq3 hA c)
        iexact Hh
      isplitl [Hb]; · iexact Hb
      iapply (exit_join V₀ dats hq0 hq1 hq2 hq3 hA c)
      isplitl [Ha] <;> iassumption)
    (QY := fun c s => ∀ b ∈ Pipeline.restRefs sig spec0, s.mem ((c.tc : Thread nD τ).loc b) = StableHlo.after hostOps1 (exitVal V₀ dats c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (exitVal V₀ dats c) (Proc.devRef .tc b)) s')
      isplitl [HU] <;> iassumption)
    (hQ := fun s h c => ⟨(h c).1, (h c).2.2⟩)

end Run

end Cert.Kernel.Hand

end
-- ==== Proof.KRegionDef.lean ====
/- The word-level program's copy of KIRegionDef.lean: the same text with Cert.KernelIdeal ↦ Cert.Kernel, Gen.KernelIdeal ↦ Gen.Kernel,
   KIStages ↦ KStages, the hand modules KI<Name> ↦ K<Name>, and the instance argument [Named F] dropped. -/
/-
  What the launch leaves in the kernel's output array, as a pure function of the three arrays it reads.
  Grid point (bi, bj) loads row-block bi of the stacked unit rows and of the masked table, row-block bj of the unit rows and of the
  one-hot prototype matrix, and adds its scalar (broadcast over an 8 × 128 tile) to block bi's accumulator, which it first
  clears when bj = 0. So block bi of the output ends at the eight-fold accumulation over bj = 0 … 7, started from the cleared tile.
-/
import proofs.«427632_j79637283602625_3_alg».proof.Proof.Gen.Kernel.Skeleton
import Idealize.ShloMosaic.Lib.ValueIdx

noncomputable section

namespace Cert.Kernel.Hand

open Cert.Kernel Cert.Kernel.Gen Idealize.ShloMosaic Idealize.ShloMosaic.ValueIdx
open Cert.Kernel.Facts₀ Cert.Kernel.Facts

variable {F : FTy → Type} [FloatOps F] [Cert.Kernel.Facts]

/-- Row-block `b` (1024 rows) of an array of 8192 rows and `n` columns. -/
def rowBlock {n : ℕ} {φ : EltTy} (A : (⟨2, ![8192, n]⟩ : Shape).Idx → Elt F φ) (b : Fin 8) :
    (⟨2, ![1024, n]⟩ : Shape).Idx → Elt F φ :=
  fun y => A (ix2 (⟨b.val * 1024 + (y 0).val, by have := (y 0).isLt; have := b.isLt; simp only [Matrix.cons_val_zero] at *; omega⟩ : Fin 8192) (⟨(y 1).val, by have := (y 1).isLt; simpa using this⟩ : Fin n))

/-- Block `bi`'s accumulator after the column steps 0 … n. -/
def accAt (o : (⟨S8192x256, .bf16⟩ : BufTy).Contents (Elt F)) (v : (⟨S8192x100, .f32⟩ : BufTy).Contents (Elt F))
    (oh : (⟨S8192x100, .bf16⟩ : BufTy).Contents (Elt F)) (bi : Fin 8) : (n : ℕ) → n < 8 → Vec F S1x8x128 .f32
  | 0, _ => k0_pay2 (rowBlock o bi) (rowBlock o 0) (rowBlock oh 0) (rowBlock v bi) (k0_pay1 (F := F))
  | n + 1, h => k0_pay2 (rowBlock o bi) (rowBlock o ⟨n + 1, h⟩) (rowBlock oh ⟨n + 1, h⟩) (rowBlock v bi) (accAt o v oh bi n (by omega))

/-- The output array after the launch. -/
def regionOut (o : (⟨S8192x256, .bf16⟩ : BufTy).Contents (Elt F)) (v : (⟨S8192x100, .f32⟩ : BufTy).Contents (Elt F))
    (oh : (⟨S8192x100, .bf16⟩ : BufTy).Contents (Elt F)) : (⟨S8x8x128, .f32⟩ : BufTy).Contents (Elt F) :=
  fun idx => accAt o v oh (⟨(idx 0).val, by have := (idx 0).isLt; simpa using this⟩ : Fin 8) 7 (by norm_num)
    (ix3 (0 : Fin 1) (⟨(idx 1).val, by have := (idx 1).isLt; simpa using this⟩ : Fin 8) (⟨(idx 2).val, by have := (idx 2).isLt; simpa using this⟩ : Fin 128))

end Cert.Kernel.Hand

end
-- ==== Proof.KBodyDef.lean ====
/- The word-level program's copy of KIBodyDef.lean: the same text with Cert.KernelIdeal ↦ Cert.Kernel, Gen.KernelIdeal ↦ Gen.Kernel,
   KIStages ↦ KStages, the hand modules KI<Name> ↦ K<Name>, and the instance argument [Named F] dropped. -/
/-
  The launch's proof data. The region is entered with every array as the host operations before it leave it; grid point
  t = 8·bi + bj reads row-block bi of the unit rows and of the masked table, row-block bj of the unit rows and of the one-hot
  matrix, and leaves in the output's staging buffer the accumulator of row bi after column step bj: the point's contribution
  added to the cleared tile when bj = 0, else to what the point before left. The unit rows are one array read through two
  windows, each holding half of it.
-/
import proofs.«427632_j79637283602625_3_alg».proof.Proof.Gen.Kernel.Launch
import proofs.«427632_j79637283602625_3_alg».proof.Proof.Gen.Kernel.Skeleton
import proofs.«427632_j79637283602625_3_alg».proof.Proof.Gen.Kernel.Points
import proofs.«427632_j79637283602625_3_alg».proof.Proof.KRegionDef
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at the region's entry -/

/-- Core `c`'s buffer contents when the region is entered: after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: rows bi of the unit rows, rows bj of the unit rows,
    rows bi of the masked table, rows bj of the one-hot matrix. -/
abbrev blk0 (c : Dev nD) (t : Fin cfg0.N) : Vec F S1024x256 .bf16 := iblk m c 0 t
abbrev blk1 (c : Dev nD) (t : Fin cfg0.N) : Vec F S1024x256 .bf16 := iblk m c 1 t
abbrev blk2 (c : Dev nD) (t : Fin cfg0.N) : Vec F S1024x100 .f32 := iblk m c 2 t
abbrev blk3 (c : Dev nD) (t : Fin cfg0.N) : Vec F S1024x100 .bf16 := iblk m c 3 t

/-! ## What the output's staging buffer holds after each point -/

/-- THE ACCUMULATION: at the first point of a row of the grid (t ≡ 0 mod 8) the point's contribution over the cleared tile,
    elsewhere over what the point before left. -/
def outsAt0 (c : Dev nD) : (n : ℕ) → n < cfg0.N → Vec F S1x8x128 .f32
  | 0, hn => k0_pay2 (blk0 m c ⟨0, hn⟩) (blk1 m c ⟨0, hn⟩) (blk3 m c ⟨0, hn⟩) (blk2 m c ⟨0, hn⟩) (k0_pay1 (F := F))
  | n + 1, hn =>
    if (n + 1) % 8 = 0 then
      k0_pay2 (blk0 m c ⟨n + 1, hn⟩) (blk1 m c ⟨n + 1, hn⟩) (blk3 m c ⟨n + 1, hn⟩) (blk2 m c ⟨n + 1, hn⟩) (k0_pay1 (F := F))
    else
      k0_pay2 (blk0 m c ⟨n + 1, hn⟩) (blk1 m c ⟨n + 1, hn⟩) (blk3 m c ⟨n + 1, hn⟩) (blk2 m c ⟨n + 1, hn⟩) (outsAt0 c n (Nat.lt_of_succ_lt hn))

/-- At a row's first point: over the cleared tile. -/
theorem outsAt0_reset (c : Dev nD) (t : Fin cfg0.N) (h : t.val % 8 = 0) :
    outsAt0 m c t.val t.isLt = k0_pay2 (blk0 m c t) (blk1 m c t) (blk3 m c t) (blk2 m c t) (k0_pay1 (F := F)) := by
  obtain ⟨n, hn⟩ := t
  cases n with
  | zero => rfl
  | succ n => exact (if_pos h).trans rfl

/-- Elsewhere: over what the point before left. -/
theorem outsAt0_acc (c : Dev nD) (t : Fin cfg0.N) (h : ¬t.val % 8 = 0) :
    outsAt0 m c t.val t.isLt = k0_pay2 (blk0 m c t) (blk1 m c t) (blk3 m c t) (blk2 m c t)
      (outsAt0 m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The proof data of the one pipeline on core `c`: the arrays as the region finds them; after the body at point `t` each
    input's buffer at its block and the output's at `outsAt0`; the invariant the scoped rest; nothing owed; the unit rows'
    array held half by each of its two windows, the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q w := if w = 0 then fullShare.left else if w = 1 then fullShare.right else fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

/-- The shares: the unit rows' array half to each of its windows. -/
theorem q0 (c : Dev nD) : (dats m 0 c).q 0 = fullShare.left := rfl
theorem q1 (c : Dev nD) : (dats m 0 c).q 1 = fullShare.right := rfl
theorem q2 (c : Dev nD) : (dats m 0 c).q 2 = fullShare := rfl
theorem q3 (c : Dev nD) : (dats m 0 c).q 3 = fullShare := rfl
theorem owed_eq (c : Dev nD) (t) : (dats m 0 c).owed t = 0 := rfl
theorem Phi_eq (c : Dev nD) (t) : (dats m 0 c).Φ t = Pipeline.ΦA spec0 c := rfl

end Cert.Kernel.Hand

end
-- ==== Proof.KBodyA.lean ====
/- The word-level program's copy of KIBodyA.lean: the same text with Cert.KernelIdeal ↦ Cert.Kernel, Gen.KernelIdeal ↦ Gen.Kernel,
   KIStages ↦ KStages, the hand modules KI<Name> ↦ K<Name>, and the instance argument [Named F] dropped. -/
/-
  The body at a row's first grid point (bj = 0): it clears the output's staging buffer, reads the four input blocks and the
  cleared buffer, and stores the point's contribution added to the cleared tile.
-/
import proofs.«427632_j79637283602625_3_alg».proof.Proof.KBodyDef
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The body's branch condition from the grid coordinates: the column coordinate is zero. -/
abbrev cond0_0 (i : grid0.Coords) : Prop :=
  (Scalar.cmpi .ne (Scalar.extui (Scalar.cmpi .eq (BitVec.ofNat 32 (i 1).val) 0#32)) 0#32) = 1#1

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-block rectangle at zero offsets covers the block, whatever was stored before. -/
theorem cover_cons_unit_zero {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

set_option maxHeartbeats 1000000 in
/-- On whole staging memrefs holding the input blocks, the output's at anything: the body runs to the inputs as they were and
    the output's buffer at the point's contribution over the cleared tile. -/
theorem kernelRun0_A (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x100 .f32) (harg4 : arg4.IsWhole) (arg5 : Memref sig .tc .vmem S1024x100 .bf16) (harg5 : arg5.IsWhole)
    (arg6 : Memref sig .tc .vmem S1x8x128 .f32) (harg6 : arg6.IsWhole)
    (hc0 : cond0_0 i)
    (x0 x1 : Vec F S1024x256 .bf16) (x2 : Vec F S1024x100 .f32) (x3 : Vec F S1024x100 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x3 x2 (k0_pay1 (F := F)))) -∗ K ⟨⟩))
      ⊢ wp frame (wpE (defs₀ (F := F)) Variants.none c none) E (cc0__denom_kernel i arg2 harg2 arg3 harg3 arg4 harg4 arg5 harg5 arg6 harg6) K := by
  simp only [cc0__denom_kernel_eq_skeleton]; unfold cc0__denom_kernel_skel
  unfold owns
  iintro ⟨⟨%f0, %hf0, H0⟩, ⟨%f1, %hf1, H1⟩, ⟨%f2, %hf2, H2⟩, ⟨%f3, %hf3, H3⟩, ⟨%dd, %fo, -, HO⟩, Hk⟩
  obtain rfl := harg2.eq_unread hf0; obtain rfl := harg3.eq_unread hf1; obtain rfl := harg4.eq_unread hf2
  obtain rfl := harg5.eq_unread hf3
  sl_exec (disch := exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HO
  ipureintro
  sl_unfold_words
  rw [View.read_writes_eq_canon _ _ _ (cover_cons_unit_zero hz3 _ _ _), View.canon_cons_unit_zero (S := S1x8x128) hz3,
    View.readCov_unit_zero (S := S1x8x128) _ hz3]
  simp only [View.readAt_eq_ld, harg2.read_unread, harg3.read_unread, harg4.read_unread, harg5.read_unread,
    View.ld_unit_zero (S := S1024x256) hz2, View.ld_unit_zero (S := S1024x100) hz2]

end Cert.Kernel.Hand

end
-- ==== Proof.KBodyB.lean ====
/- The word-level program's copy of KIBodyB.lean: the same text with Cert.KernelIdeal ↦ Cert.Kernel, Gen.KernelIdeal ↦ Gen.Kernel,
   KIStages ↦ KStages, the hand modules KI<Name> ↦ K<Name>, and the instance argument [Named F] dropped. -/
/-
  The body at a later grid point of a row (bj ≠ 0): it reads the four input blocks and the output's staging buffer as the
  point before left it, and stores the point's contribution added to that.
-/
import proofs.«427632_j79637283602625_3_alg».proof.Proof.KBodyA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- On whole staging memrefs holding the input blocks and the accumulator so far: the body runs to the inputs as they were
    and the output's buffer at the point's contribution over the accumulator. -/
theorem kernelRun0_B (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x100 .f32) (harg4 : arg4.IsWhole) (arg5 : Memref sig .tc .vmem S1024x100 .bf16) (harg5 : arg5.IsWhole)
    (arg6 : Memref sig .tc .vmem S1x8x128 .f32) (harg6 : arg6.IsWhole)
    (hc0 : ¬cond0_0 i)
    (x0 x1 : Vec F S1024x256 .bf16) (x2 : Vec F S1024x100 .f32) (x3 : Vec F S1024x100 .bf16) (xo : Vec F S1x8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x3 x2 xo)) -∗ K ⟨⟩))
      ⊢ wp frame (wpE (defs₀ (F := F)) Variants.none c none) E (cc0__denom_kernel i arg2 harg2 arg3 harg3 arg4 harg4 arg5 harg5 arg6 harg6) K := by
  simp only [cc0__denom_kernel_eq_skeleton]; unfold cc0__denom_kernel_skel
  unfold owns
  iintro ⟨⟨%f0, %hf0, H0⟩, ⟨%f1, %hf1, H1⟩, ⟨%f2, %hf2, H2⟩, ⟨%f3, %hf3, H3⟩, ⟨%fo, %hfo, HO⟩, Hk⟩
  obtain rfl := harg2.eq_unread hf0; obtain rfl := harg3.eq_unread hf1; obtain rfl := harg4.eq_unread hf2
  obtain rfl := harg5.eq_unread hf3; obtain rfl := harg6.eq_unread hfo
  sl_exec (disch := exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HO
  ipureintro
  rw [View.read_writes_eq_canon _ _ _ (cover_cons_unit_zero hz3 _ _ _), View.canon_unit_zero hz3]
  simp only [View.readAt_eq_ld, harg2.read_unread, harg3.read_unread, harg4.read_unread, harg5.read_unread, harg6.read_unread,
    View.ld_unit_zero (S := S1024x256) hz2, View.ld_unit_zero (S := S1024x100) hz2, View.ld_unit_zero (S := S1x8x128) hz3]

end Cert.Kernel.Hand

end
-- ==== Proof.KBody.lean ====
/- The word-level program's copy of KIBody.lean: the same text with Cert.KernelIdeal ↦ Cert.Kernel, Gen.KernelIdeal ↦ Gen.Kernel,
   KIStages ↦ KStages, the hand modules KI<Name> ↦ K<Name>, and the instance argument [Named F] dropped. -/
/-
  The body of the launch at every grid point: from each window's staging buffer at what the pipeline hands it (the inputs at
  their blocks, the output's at anything at a row's first point and at the accumulator so far elsewhere) to the output's buffer
  at the point's contribution added in, the inputs untouched.
-/
import proofs.«427632_j79637283602625_3_alg».proof.Proof.KBodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The staging memrefs at a point, and the branch condition in closed form -/

/-- Each window's current staging memref at point `t`, as the pipeline passes it to the body, and its wholeness. -/
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x100 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

/-- The column coordinate is zero exactly at the points ≡ 0 (mod 8): decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## What the body finds in each staging buffer -/

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-- The point before a later point of a row does not write the output's block back. -/
theorem noFlush_prev (t : Fin cfg0.N) (h : ¬t.val % 8 = 0) :
    (cfg0.win 4).flush ⟨t.val - 1, Nat.lt_of_le_of_lt (Nat.sub_le _ _) t.isLt⟩ = false := by
  rw [Bool.eq_false_iff]
  intro hf
  have h7 := (flush0_4 ⟨t.val - 1, Nat.lt_of_le_of_lt (Nat.sub_le _ _) t.isLt⟩).mp hf
  simp only at h7
  omega

/-- At a later point of a row the output's staging buffer holds the accumulator the point before left. -/
theorem before0_4 (c : Dev nD) (t : Fin cfg0.N) (h : ¬t.val % 8 = 0) (d) :
    (dats m 0 c).before 4 t d = outsAt0 m c (t.val - 1) (Nat.lt_of_le_of_lt (Nat.sub_le _ _) t.isLt) :=
  ((dats m 0 c).before_out_kept 4 rfl t (fun h0 => h (by rw [h0])) (noFlush_prev t h) (fun _ => rfl) (fun _ _ => rfl) d).trans
    (after0_4 m c _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; at a row's first point the output's buffer holds anything and
    the body leaves the point's contribution over the cleared tile, at a later point it holds the accumulator the point before
    left and the body leaves the contribution added to it; the invariant and what the core owes pass through unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  by_cases h0 : t.val % 8 = 0
  · rw [outsAt0_reset m c t h0]
    iintro ⟨HΦ, Ho, ⟨%d0, H0⟩, ⟨%d1, H1⟩, ⟨%d2, H2⟩, ⟨%d3, H3⟩, ⟨%d4, H4⟩⟩
    iapply (kernelRun0_A c (grid0.coords t) _ _ _ _ _ _ _ _ _ _ ((hcond0_0 t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t h0]
    rw [outsAt0_acc m c t h0]
    iintro ⟨HΦ, Ho, ⟨%d0, H0⟩, ⟨%d1, H1⟩, ⟨%d2, H2⟩, ⟨%d3, H3⟩, ⟨%d4, H4⟩⟩
    iapply (kernelRun0_B c (grid0.coords t) _ _ _ _ _ _ _ _ _ _ (fun h => h0 ((hcond0_0 t).mp h))
      (iblk m c 0 t) (iblk m c 1 t) (iblk m c 2 t) (iblk m c 3 t)
      (outsAt0 m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KArrAt.lean ====
/- The word-level program's copy of KIArrAt.lean: the same text with Cert.KernelIdeal ↦ Cert.Kernel, Gen.KernelIdeal ↦ Gen.Kernel,
   KIStages ↦ KStages, the hand modules KI<Name> ↦ K<Name>, and the instance argument [Named F] dropped. -/
/-
  What the launch leaves in the kernel's output array. The five windows' blocks at grid point t = 8·bi + bj are row-block bi
  (unit rows, masked table), row-block bj (unit rows, one-hot matrix) and block bi of the output; so the output's staging
  buffer after point 8·bi + n holds block bi's accumulator after column step n (induction on n), the block written back
  at 8·bi + 7 is the finished accumulator, and the eight written blocks tile the [8, 8, 128] array.
-/
import proofs.«427632_j79637283602625_3_alg».proof.Proof.KBodyDef
import proofs.«427632_j79637283602625_3_alg».proof.Proof.KRegionDef
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Where the windows' blocks sit in their arrays -/

open Idealize.ShloMosaic.ValueIdx

/-- The block indices of the five windows at every grid point: (t / 8, 0) for the row-block windows, (t % 8, 0) for the
    column-block windows, (t / 8, 0, 0) for the output. -/
theorem idx_facts : ∀ t : Fin cfg0.N,
    (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = t.val % 8 ∧ win0_3.index t 1 = 0)
    ∧ (win0_4.index t 0 = t.val / 8 ∧ win0_4.index t 1 = 0 ∧ win0_4.index t 2 = 0) :=
  (by decide +kernel : ∀ t : Fin grid0.N,
    (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = t.val % 8 ∧ win0_3.index t 1 = 0)
    ∧ (win0_4.index t 0 = t.val / 8 ∧ win0_4.index t 1 = 0 ∧ win0_4.index t 2 = 0))

/-- Window 0's block at point 8·bi + bj is row-block bi of the unit rows. -/
theorem blk0_eq (c : Dev nD) (t : Fin cfg0.N) (bi : Fin 8) (hb : t.val / 8 = bi.val) :
    blk0 m c t = rowBlock (V m c main_v109) bi := by
  have hi := (idx_facts t).1
  funext y
  unfold blk0 iblk rowBlock
  rw [View.read_apply]
  show V m c main_v109 _ = V m c main_v109 _
  congr 1
  funext a
  apply Fin.ext
  match a with
  | ⟨0, _⟩ => show win0_0.index t 0 * 1024 + 1 * (y 0).val = bi.val * 1024 + (y 0).val; rw [hi.1, hb]; omega
  | ⟨1, _⟩ => show win0_0.index t 1 * 256 + 1 * (y 1).val = (y 1).val; rw [hi.2]; omega

/-- Window 1's block there is row-block bj of the unit rows. -/
theorem blk1_eq (c : Dev nD) (t : Fin cfg0.N) (bj : Fin 8) (hb : t.val % 8 = bj.val) :
    blk1 m c t = rowBlock (V m c main_v109) bj := by
  have hi := (idx_facts t).2.1
  funext y
  unfold blk1 iblk rowBlock
  rw [View.read_apply]
  show V m c main_v109 _ = V m c main_v109 _
  congr 1
  funext a
  apply Fin.ext
  match a with
  | ⟨0, _⟩ => show win0_1.index t 0 * 1024 + 1 * (y 0).val = bj.val * 1024 + (y 0).val; rw [hi.1, hb]; omega
  | ⟨1, _⟩ => show win0_1.index t 1 * 256 + 1 * (y 1).val = (y 1).val; rw [hi.2]; omega

/-- Window 2's block there is row-block bi of the masked table. -/
theorem blk2_eq (c : Dev nD) (t : Fin cfg0.N) (bi : Fin 8) (hb : t.val / 8 = bi.val) :
    blk2 m c t = rowBlock (V m c main_v107) bi := by
  have hi := (idx_facts t).2.2.1
  funext y
  unfold blk2 iblk rowBlock
  rw [View.read_apply]
  show V m c main_v107 _ = V m c main_v107 _
  congr 1
  funext a
  apply Fin.ext
  match a with
  | ⟨0, _⟩ => show win0_2.index t 0 * 1024 + 1 * (y 0).val = bi.val * 1024 + (y 0).val; rw [hi.1, hb]; omega
  | ⟨1, _⟩ => show win0_2.index t 1 * 100 + 1 * (y 1).val = (y 1).val; rw [hi.2]; omega

/-- Window 3's block there is row-block bj of the one-hot matrix. -/
theorem blk3_eq (c : Dev nD) (t : Fin cfg0.N) (bj : Fin 8) (hb : t.val % 8 = bj.val) :
    blk3 m c t = rowBlock (V m c main_v108) bj := by
  have hi := (idx_facts t).2.2.2.1
  funext y
  unfold blk3 iblk rowBlock
  rw [View.read_apply]
  show V m c main_v108 _ = V m c main_v108 _
  congr 1
  funext a
  apply Fin.ext
  match a with
  | ⟨0, _⟩ => show win0_3.index t 0 * 1024 + 1 * (y 0).val = bj.val * 1024 + (y 0).val; rw [hi.1, hb]; omega
  | ⟨1, _⟩ => show win0_3.index t 1 * 100 + 1 * (y 1).val = (y 1).val; rw [hi.2]; omega

/-! ## The staging buffer after point 8·bi + n holds block bi's accumulator after column step n -/

theorem outsAt0_congr (c : Dev nD) {a b : ℕ} (e : a = b) (ha : a < cfg0.N) (hb : b < cfg0.N) :
    outsAt0 m c a ha = outsAt0 m c b hb := by subst e; rfl

theorem outsAt0_eq_accAt (c : Dev nD) (bi : Fin 8) : ∀ (n : ℕ) (hn : n < 8) (h : bi.val * 8 + n < cfg0.N),
    outsAt0 m c (bi.val * 8 + n) h = accAt (V m c main_v109) (V m c main_v107) (V m c main_v108) bi n hn
  | 0, hn, h => by
    have hd : (bi.val * 8 + 0) / 8 = bi.val := by omega
    have hm : (bi.val * 8 + 0) % 8 = (0 : Fin 8).val := by show _ = 0; omega
    refine (outsAt0_reset m c ⟨bi.val * 8 + 0, h⟩ (by show (bi.val * 8 + 0) % 8 = 0; omega)).trans ?_
    rw [blk0_eq m c _ bi hd, blk1_eq m c _ 0 hm, blk2_eq m c _ bi hd, blk3_eq m c _ 0 hm]
    rfl
  | n + 1, hn, h => by
    have hd : (bi.val * 8 + (n + 1)) / 8 = bi.val := by omega
    have hm : (bi.val * 8 + (n + 1)) % 8 = (⟨n + 1, hn⟩ : Fin 8).val := by show _ = n + 1; omega
    have hN : cfg0.N = 64 := N_0
    refine (outsAt0_acc m c ⟨bi.val * 8 + (n + 1), h⟩ (by show ¬(bi.val * 8 + (n + 1)) % 8 = 0; omega)).trans ?_
    rw [blk0_eq m c _ bi hd, blk1_eq m c _ ⟨n + 1, hn⟩ hm, blk2_eq m c _ bi hd, blk3_eq m c _ ⟨n + 1, hn⟩ hm,
      outsAt0_congr m c (show bi.val * 8 + (n + 1) - 1 = bi.val * 8 + n by omega) _ (by omega),
      outsAt0_eq_accAt c bi n (by omega)]
    rfl

/-! ## What is written back, and the array after the launch -/

/-- The output array's entry (b, y₁, y₂) is entry (0, y₁, y₂) of block b's finished accumulator. -/
theorem regionOut_apply (o : (⟨S8192x256, .bf16⟩ : BufTy).Contents (Elt F)) (v : (⟨S8192x100, .f32⟩ : BufTy).Contents (Elt F))
    (oh : (⟨S8192x100, .bf16⟩ : BufTy).Contents (Elt F)) (idx : S8x8x128.Idx) (b : Fin 8) (y : S1x8x128.Idx)
    (h0 : (idx 0).val = b.val) (h1 : (idx 1).val = (y 1).val) (h2 : (idx 2).val = (y 2).val) :
    regionOut o v oh idx = accAt o v oh b 7 (by norm_num) y := by
  unfold regionOut
  obtain rfl : b = ⟨(idx 0).val, by have := (idx 0).isLt; simpa using this⟩ := Fin.ext h0.symm
  refine congrArg (accAt o v oh _ 7 _) (funext fun a => Fin.ext ?_)
  match a with
  | ⟨0, _⟩ => have : (y 0).val < 1 := (y 0).isLt; show 0 = (y 0).val; omega
  | ⟨1, _⟩ => exact h1
  | ⟨2, _⟩ => exact h2

/-- The block written back at the last column step of row bi is block bi of that array. -/
theorem flushed_eq (c : Dev nD) (t : Fin cfg0.N) (hf : (cfg0.win 4).flush t = true) :
    (dats m 0 c).flushed 4 t
      = ((cfg0.win 4).blk t).view.read (Elt F) (regionOut (V m c main_v109) (V m c main_v107) (V m c main_v108)) := by
  have h7 : t.val % 8 = 7 := (flush0_4 t).mp hf
  have hN : cfg0.N = 64 := N_0
  have ht := t.isLt
  have hi := (idx_facts t).2.2.2.2
  have hbi : t.val / 8 < 8 := by omega
  show (cfg0.win 4).cut (grid0.coords t) ((dats m 0 c).after 4 t) = _
  rw [after0_4, outsAt0_congr m c (show t.val = (⟨t.val / 8, hbi⟩ : Fin 8).val * 8 + 7 by show t.val = t.val / 8 * 8 + 7; omega) t.isLt (by show t.val / 8 * 8 + 7 < cfg0.N; omega),
    outsAt0_eq_accAt m c ⟨t.val / 8, hbi⟩ 7 (by norm_num)]
  funext y
  rw [View.read_apply]
  refine (regionOut_apply _ _ _ _ ⟨t.val / 8, hbi⟩ _ ?_ ?_ ?_).symm
  · have : (y 0).val < 1 := (y 0).isLt
    show win0_4.index t 0 * 1 + 1 * (y 0).val = t.val / 8
    rw [hi.1]; omega
  · show win0_4.index t 1 * 8 + 1 * (y 1).val = (y 1).val
    rw [hi.2.1]; omega
  · show win0_4.index t 2 * 128 + 1 * (y 2).val = (y 2).val
    rw [hi.2.2]; omega

/-- THE VALUE: after the launch, block bi of the output array is the eight-fold accumulation over the column steps. -/
theorem arrAt_out (c : Dev nD) :
    (dats m 0 c).arrAt 4 cfg0.N = regionOut (V m c main_v109) (V m c main_v107) (V m c main_v108) :=
  (dats m 0 c).arrAt_eq_of_cover 4 _ (flushed_eq m c) fun i => by
    have hN : cfg0.N = 64 := N_0
    have h0 : (i 0 : Nat) < 8 := (i 0).isLt
    have h1 : (i 1 : Nat) < 8 := (i 1).isLt
    have h2 : (i 2 : Nat) < 128 := (i 2).isLt
    have hlt : (i 0 : Nat) * 8 + 7 < cfg0.N := by omega
    refine ⟨⟨(i 0 : Nat) * 8 + 7, hlt⟩, (flush0_4 _).mpr (by show ((i 0 : Nat) * 8 + 7) % 8 = 7; omega), ?_⟩
    have hi := (idx_facts ⟨(i 0 : Nat) * 8 + 7, hlt⟩).2.2.2.2
    show i ∈ ((View.whole main_v116).slice (win0_4.rect ⟨(i 0 : Nat) * 8 + 7, hlt⟩)).set
    rw [View.set_slice_whole, Rect.mem_set_unit]
    intro a
    match a with
    | ⟨0, _⟩ =>
      show win0_4.index ⟨(i 0 : Nat) * 8 + 7, hlt⟩ 0 * 1 ≤ (i 0 : Nat) ∧ (i 0 : Nat) < win0_4.index ⟨(i 0 : Nat) * 8 + 7, hlt⟩ 0 * 1 + 1
      rw [hi.1]; show ((i 0 : Nat) * 8 + 7) / 8 * 1 ≤ (i 0 : Nat) ∧ (i 0 : Nat) < ((i 0 : Nat) * 8 + 7) / 8 * 1 + 1; omega
    | ⟨1, _⟩ =>
      show win0_4.index ⟨(i 0 : Nat) * 8 + 7, hlt⟩ 1 * 8 ≤ (i 1 : Nat) ∧ (i 1 : Nat) < win0_4.index ⟨(i 0 : Nat) * 8 + 7, hlt⟩ 1 * 8 + 8
      rw [hi.2.1]; omega
    | ⟨2, _⟩ =>
      show win0_4.index ⟨(i 0 : Nat) * 8 + 7, hlt⟩ 2 * 128 ≤ (i 2 : Nat) ∧ (i 2 : Nat) < win0_4.index ⟨(i 0 : Nat) * 8 + 7, hlt⟩ 2 * 128 + 128
      rw [hi.2.2]; omega

end Cert.Kernel.Hand

end
-- ==== Proof.KStages.lean ====
/- A table, not an argument: every host operation of the printed program, in program order, as a definition of its result from its operands'
   (outlined functions inlined at their call sites, their buffers named by the call records), and the same operations as a list. -/
import proofs.«427632_j79637283602625_3_alg».proof.Kernel

set_option maxRecDepth 16384

noncomputable section

namespace Cert.Kernel.Stages

open Cert.Kernel Idealize.ShloMosaic Idealize.ShloMosaic.TcCoe Idealize.SL.Sem
open Cert.Kernel.Facts₀ Cert.Kernel.Facts

variable {F : FTy → Type} [FloatOps F] [Cert.Kernel.Facts]

/-! ## Stages -/

/-- `main_call0_v0`: binary of main_arg0, main_arg0. -/
def res_main_call0_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) a0 a0
/-- `main_call0_cst`: nullary. -/
def res_main_call0_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call0_v1`: binary of main_call0_v0, main_call0_cst. -/
def res_main_call0_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F)) (res_main_call0_v0 a0 a1 a2 a3 a4) (res_main_call0_cst a0 a1 a2 a3 a4)
/-- `main_call0_v2`: unary of main_call0_v1. -/
def res_main_call0_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (res_main_call0_v1 a0 a1 a2 a3 a4)
/-- `main_v0`: unary of main_call0_v2. -/
def res_main_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (Host.sqrt : (⟨S4096x1, .f32⟩ : BufTy).Contents (Elt F) → (⟨S4096x1, .f32⟩ : BufTy).Contents (Elt F)) (res_main_call0_v2 a0 a1 a2 a3 a4)
/-- `main_cst`: nullary. -/
def res_main_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v1`: unary of main_cst. -/
def res_main_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![] bcast_S_S4096x1 : (⟨S_, .f32⟩ : BufTy).Contents (Elt F) → (⟨S4096x1, .f32⟩ : BufTy).Contents (Elt F)) (res_main_cst a0 a1 a2 a3 a4)
/-- `main_v2`: binary of main_v0, main_v1. -/
def res_main_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (maximumf : (⟨S4096x1, .f32⟩ : BufTy).Contents (Elt F) → (⟨S4096x1, .f32⟩ : BufTy).Contents (Elt F) → (⟨S4096x1, .f32⟩ : BufTy).Contents (Elt F)) (res_main_v0 a0 a1 a2 a3 a4) (res_main_v1 a0 a1 a2 a3 a4)
/-- `main_v3`: unary of main_v2. -/
def res_main_v3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (broadcastInDim S4096x256 ![0, 1] bcast_S4096x1_S4096x256_0_1 : (⟨S4096x1, .f32⟩ : BufTy).Contents (Elt F) → (⟨S4096x256, .f32⟩ : BufTy).Contents (Elt F)) (res_main_v2 a0 a1 a2 a3 a4)
/-- `main_v4`: binary of main_arg0, main_v3. -/
def res_main_v4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (Host.divf : (⟨S4096x256, .f32⟩ : BufTy).Contents (Elt F) → (⟨S4096x256, .f32⟩ : BufTy).Contents (Elt F) → (⟨S4096x256, .f32⟩ : BufTy).Contents (Elt F)) a0 (res_main_v3 a0 a1 a2 a3 a4)
/-- `main_call1_v0`: binary of main_arg1, main_arg1. -/
def res_main_call1_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) a1 a1
/-- `main_call1_cst`: nullary. -/
def res_main_call1_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call1_v1`: binary of main_call1_v0, main_call1_cst. -/
def res_main_call1_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F)) (res_main_call1_v0 a0 a1 a2 a3 a4) (res_main_call1_cst a0 a1 a2 a3 a4)
/-- `main_call1_v2`: unary of main_call1_v1. -/
def res_main_call1_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (res_main_call1_v1 a0 a1 a2 a3 a4)
/-- `main_v5`: unary of main_call1_v2. -/
def res_main_v5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (Host.sqrt : (⟨S4096x1, .f32⟩ : BufTy).Contents (Elt F) → (⟨S4096x1, .f32⟩ : BufTy).Contents (Elt F)) (res_main_call1_v2 a0 a1 a2 a3 a4)
/-- `main_cst_0`: nullary. -/
def res_main_cst_0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v6`: unary of main_cst_0. -/
def res_main_v6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![] bcast_S_S4096x1 : (⟨S_, .f32⟩ : BufTy).Contents (Elt F) → (⟨S4096x1, .f32⟩ : BufTy).Contents (Elt F)) (res_main_cst_0 a0 a1 a2 a3 a4)
/-- `main_v7`: binary of main_v5, main_v6. -/
def res_main_v7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (maximumf : (⟨S4096x1, .f32⟩ : BufTy).Contents (Elt F) → (⟨S4096x1, .f32⟩ : BufTy).Contents (Elt F) → (⟨S4096x1, .f32⟩ : BufTy).Contents (Elt F)) (res_main_v5 a0 a1 a2 a3 a4) (res_main_v6 a0 a1 a2 a3 a4)
/-- `main_v8`: unary of main_v7. -/
def res_main_v8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (broadcastInDim S4096x256 ![0, 1] bcast_S4096x1_S4096x256_0_1 : (⟨S4096x1, .f32⟩ : BufTy).Contents (Elt F) → (⟨S4096x256, .f32⟩ : BufTy).Contents (Elt F)) (res_main_v7 a0 a1 a2 a3 a4)
/-- `main_v9`: binary of main_arg1, main_v8. -/
def res_main_v9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (Host.divf : (⟨S4096x256, .f32⟩ : BufTy).Contents (Elt F) → (⟨S4096x256, .f32⟩ : BufTy).Contents (Elt F) → (⟨S4096x256, .f32⟩ : BufTy).Contents (Elt F)) a1 (res_main_v8 a0 a1 a2 a3 a4)
/-- `main_v10`: binary of main_v4, main_v9. -/
def res_main_v10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x256, .f32⟩ : BufTy).Contents (Elt F) :=
  ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)) (res_main_v4 a0 a1 a2 a3 a4) (res_main_v9 a0 a1 a2 a3 a4)
/-- `main_v11`: reshape of main_arg3. -/
def res_main_v11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (fun x => shapeCast S8192 x shapeCasts_S2x4096_S8192 : (⟨S2x4096, .i32⟩ : BufTy).Contents (Elt F) → (⟨S8192, .i32⟩ : BufTy).Contents (Elt F)) a3
/-- `main_v12`: reshape of main_arg4. -/
def res_main_v12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10, .i32⟩ : BufTy).Contents (Elt F) :=
  (fun x => shapeCast S8192x10 x shapeCasts_S2x4096x10_S8192x10 : (⟨S2x4096x10, .i32⟩ : BufTy).Contents (Elt F) → (⟨S8192x10, .i32⟩ : BufTy).Contents (Elt F)) a4
/-- `main_v13`: nullary. -/
def res_main_v13 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .i32⟩ : BufTy).Contents (Elt F) :=
  (iotaInDim S100 32 0 : (⟨S100, .i32⟩ : BufTy).Contents (Elt F))
/-- `main_v14`: unary of main_v12. -/
def res_main_v14 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x1, .i32⟩ : BufTy).Contents (Elt F) :=
  (broadcastInDim S8192x10x1 ![0, 1] bcast_S8192x10_S8192x10x1_0_1 : (⟨S8192x10, .i32⟩ : BufTy).Contents (Elt F) → (⟨S8192x10x1, .i32⟩ : BufTy).Contents (Elt F)) (res_main_v12 a0 a1 a2 a3 a4)
/-- `main_v15`: unary of main_v13. -/
def res_main_v15 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x1x100, .i32⟩ : BufTy).Contents (Elt F) :=
  (broadcastInDim S1x1x100 ![2] bcast_S100_S1x1x100_2 : (⟨S100, .i32⟩ : BufTy).Contents (Elt F) → (⟨S1x1x100, .i32⟩ : BufTy).Contents (Elt F)) (res_main_v13 a0 a1 a2 a3 a4)
/-- `main_v16`: unary of main_v14. -/
def res_main_v16 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i32⟩ : BufTy).Contents (Elt F) :=
  (broadcastInDim S8192x10x100 ![0, 1, 2] bcast_S8192x10x1_S8192x10x100_0_1_2 : (⟨S8192x10x1, .i32⟩ : BufTy).Contents (Elt F) → (⟨S8192x10x100, .i32⟩ : BufTy).Contents (Elt F)) (res_main_v14 a0 a1 a2 a3 a4)
/-- `main_v17`: unary of main_v15. -/
def res_main_v17 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i32⟩ : BufTy).Contents (Elt F) :=
  (broadcastInDim S8192x10x100 ![0, 1, 2] bcast_S1x1x100_S8192x10x100_0_1_2 : (⟨S1x1x100, .i32⟩ : BufTy).Contents (Elt F) → (⟨S8192x10x100, .i32⟩ : BufTy).Contents (Elt F)) (res_main_v15 a0 a1 a2 a3 a4)
/-- `main_v18`: binary of main_v16, main_v17. -/
def res_main_v18 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i1⟩ : BufTy).Contents (Elt F) :=
  (cmpi .eq : (⟨S8192x10x100, .i32⟩ : BufTy).Contents (Elt F) → (⟨S8192x10x100, .i32⟩ : BufTy).Contents (Elt F) → (⟨S8192x10x100, .i1⟩ : BufTy).Contents (Elt F)) (res_main_v16 a0 a1 a2 a3 a4) (res_main_v17 a0 a1 a2 a3 a4)
/-- `main_c`: nullary. -/
def res_main_c (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i1⟩ : BufTy).Contents (Elt F) :=
  (constantI S_ 1 0#1 : (⟨S_, .i1⟩ : BufTy).Contents (Elt F))
/-- `main_v19`: binary of main_v18, main_c. -/
def res_main_v19 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i1⟩ : BufTy).Contents (Elt F) :=
  ((fun x v => Host.reduce IntOp.ori x v reducesTo_S8192x10x100_S8192x100_d1 h_S_) : (⟨S8192x10x100, .i1⟩ : BufTy).Contents (Elt F) → (⟨S_, .i1⟩ : BufTy).Contents (Elt F) → (⟨S8192x100, .i1⟩ : BufTy).Contents (Elt F)) (res_main_v18 a0 a1 a2 a3 a4) (res_main_c a0 a1 a2 a3 a4)
/-- `main_v20`: unary of main_v19. -/
def res_main_v20 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  (uitofp .f32 : (⟨S8192x100, .i1⟩ : BufTy).Contents (Elt F) → (⟨S8192x100, .f32⟩ : BufTy).Contents (Elt F)) (res_main_v19 a0 a1 a2 a3 a4)
/-- `main_v21`: unary of main_v11. -/
def res_main_v21 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (res_main_v11 a0 a1 a2 a3 a4)
/-- `main_v22`: unary of main_v13. -/
def res_main_v22 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .i32⟩ : BufTy).Contents (Elt F) :=
  (broadcastInDim S1x100 ![1] bcast_S100_S1x100_1 : (⟨S100, .i32⟩ : BufTy).Contents (Elt F) → (⟨S1x100, .i32⟩ : BufTy).Contents (Elt F)) (res_main_v13 a0 a1 a2 a3 a4)
/-- `main_v23`: unary of main_v21. -/
def res_main_v23 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i32⟩ : BufTy).Contents (Elt F) :=
  (broadcastInDim S8192x100 ![0, 1] bcast_S8192x1_S8192x100_0_1 : (⟨S8192x1, .i32⟩ : BufTy).Contents (Elt F) → (⟨S8192x100, .i32⟩ : BufTy).Contents (Elt F)) (res_main_v21 a0 a1 a2 a3 a4)
/-- `main_v24`: unary of main_v22. -/
def res_main_v24 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i32⟩ : BufTy).Contents (Elt F) :=
  (broadcastInDim S8192x100 ![0, 1] bcast_S1x100_S8192x100_0_1 : (⟨S1x100, .i32⟩ : BufTy).Contents (Elt F) → (⟨S8192x100, .i32⟩ : BufTy).Contents (Elt F)) (res_main_v22 a0 a1 a2 a3 a4)
/-- `main_v25`: binary of main_v23, main_v24. -/
def res_main_v25 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i1⟩ : BufTy).Contents (Elt F) :=
  (cmpi .eq : (⟨S8192x100, .i32⟩ : BufTy).Contents (Elt F) → (⟨S8192x100, .i32⟩ : BufTy).Contents (Elt F) → (⟨S8192x100, .i1⟩ : BufTy).Contents (Elt F)) (res_main_v23 a0 a1 a2 a3 a4) (res_main_v24 a0 a1 a2 a3 a4)
/-- `main_v26`: unary of main_v25. -/
def res_main_v26 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  (uitofp .f32 : (⟨S8192x100, .i1⟩ : BufTy).Contents (Elt F) → (⟨S8192x100, .f32⟩ : BufTy).Contents (Elt F)) (res_main_v25 a0 a1 a2 a3 a4)
/-- `main_call2_v0`: binary of main_arg2, main_arg2. -/
def res_main_call2_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (mulf : (⟨S100x256, .f32⟩ : BufTy).Contents (Elt F) → (⟨S100x256, .f32⟩ : BufTy).Contents (Elt F) → (⟨S100x256, .f32⟩ : BufTy).Contents (Elt F)) a2 a2
/-- `main_call2_cst`: nullary. -/
def res_main_call2_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call2_v1`: binary of main_call2_v0, main_call2_cst. -/
def res_main_call2_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (fun x v => Host.reduceAdd x v reducesTo_S100x256_S100_d1 h_S_ : (⟨S100x256, .f32⟩ : BufTy).Contents (Elt F) → (⟨S_, .f32⟩ : BufTy).Contents (Elt F) → (⟨S100, .f32⟩ : BufTy).Contents (Elt F)) (res_main_call2_v0 a0 a1 a2 a3 a4) (res_main_call2_cst a0 a1 a2 a3 a4)
/-- `main_call2_v2`: unary of main_call2_v1. -/
def res_main_call2_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_call2_v1 a0 a1 a2 a3 a4)
/-- `main_v27`: unary of main_call2_v2. -/
def res_main_v27 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (Host.sqrt : (⟨S100x1, .f32⟩ : BufTy).Contents (Elt F) → (⟨S100x1, .f32⟩ : BufTy).Contents (Elt F)) (res_main_call2_v2 a0 a1 a2 a3 a4)
/-- `main_cst_1`: nullary. -/
def res_main_cst_1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v28`: unary of main_cst_1. -/
def res_main_v28 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![] bcast_S_S100x1 : (⟨S_, .f32⟩ : BufTy).Contents (Elt F) → (⟨S100x1, .f32⟩ : BufTy).Contents (Elt F)) (res_main_cst_1 a0 a1 a2 a3 a4)
/-- `main_v29`: binary of main_v27, main_v28. -/
def res_main_v29 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (maximumf : (⟨S100x1, .f32⟩ : BufTy).Contents (Elt F) → (⟨S100x1, .f32⟩ : BufTy).Contents (Elt F) → (⟨S100x1, .f32⟩ : BufTy).Contents (Elt F)) (res_main_v27 a0 a1 a2 a3 a4) (res_main_v28 a0 a1 a2 a3 a4)
/-- `main_v30`: unary of main_v29. -/
def res_main_v30 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (broadcastInDim S100x256 ![0, 1] bcast_S100x1_S100x256_0_1 : (⟨S100x1, .f32⟩ : BufTy).Contents (Elt F) → (⟨S100x256, .f32⟩ : BufTy).Contents (Elt F)) (res_main_v29 a0 a1 a2 a3 a4)
/-- `main_v31`: binary of main_arg2, main_v30. -/
def res_main_v31 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (Host.divf : (⟨S100x256, .f32⟩ : BufTy).Contents (Elt F) → (⟨S100x256, .f32⟩ : BufTy).Contents (Elt F) → (⟨S100x256, .f32⟩ : BufTy).Contents (Elt F)) a2 (res_main_v30 a0 a1 a2 a3 a4)
/-- `main_v32`: unary of main_v31. -/
def res_main_v32 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S256x100, .f32⟩ : BufTy).Contents (Elt F) :=
  ((transpose S256x100 [1, 0] · transposes_S100x256_S256x100_1_0) : (⟨S100x256, .f32⟩ : BufTy).Contents (Elt F) → (⟨S256x100, .f32⟩ : BufTy).Contents (Elt F)) (res_main_v31 a0 a1 a2 a3 a4)
/-- `main_v33`: binary of main_v31, main_v32. -/
def res_main_v33 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  ((fun l r => Host.dotGeneral dot_S100x256_S256x100_S100x100_1_0_0_1_n_n (some .fp32) l r) : (⟨S100x256, .f32⟩ : BufTy).Contents (Elt F) → (⟨S256x100, .f32⟩ : BufTy).Contents (Elt F) → (⟨S100x100, .f32⟩ : BufTy).Contents (Elt F)) (res_main_v31 a0 a1 a2 a3 a4) (res_main_v32 a0 a1 a2 a3 a4)
/-- `main_cst_2`: nullary. -/
def res_main_cst_2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3F800000#32 : (⟨S_, .f32⟩ : BufTy).Contents (Elt F))
/-- `main_v34`: unary of main_cst_2. -/
def res_main_v34 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_cst_2 a0 a1 a2 a3 a4)
/-- `main_v35`: binary of main_v34, main_v33. -/
def res_main_v35 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v34 a0 a1 a2 a3 a4) (res_main_v33 a0 a1 a2 a3 a4)
/-- `main_cst_3`: nullary. -/
def res_main_cst_3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v36`: binary of main_v26, main_cst_3. -/
def res_main_v36 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduceAdd x v reducesTo_S8192x100_S100_d0 h_S_) : (⟨S8192x100, .f32⟩ : BufTy).Contents (Elt F) → (⟨S_, .f32⟩ : BufTy).Contents (Elt F) → (⟨S100, .f32⟩ : BufTy).Contents (Elt F)) (res_main_v26 a0 a1 a2 a3 a4) (res_main_cst_3 a0 a1 a2 a3 a4)
/-- `main_v37`: nullary. -/
def res_main_v37 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (iotaInDim S100x100 32 0 : (⟨S100x100, .i32⟩ : BufTy).Contents (Elt F))
/-- `main_v38`: nullary. -/
def res_main_v38 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (iotaInDim S100x100 32 1 : (⟨S100x100, .i32⟩ : BufTy).Contents (Elt F))
/-- `main_c_4`: nullary. -/
def res_main_c_4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_v39`: unary of main_c_4. -/
def res_main_v39 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (broadcastInDim S100x100 ![] bcast_S_S100x100 : (⟨S_, .i32⟩ : BufTy).Contents (Elt F) → (⟨S100x100, .i32⟩ : BufTy).Contents (Elt F)) (res_main_c_4 a0 a1 a2 a3 a4)
/-- `main_v40`: binary of main_v37, main_v39. -/
def res_main_v40 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i32⟩ : BufTy).Contents (Elt F) :=
  (addi : (⟨S100x100, .i32⟩ : BufTy).Contents (Elt F) → (⟨S100x100, .i32⟩ : BufTy).Contents (Elt F) → (⟨S100x100, .i32⟩ : BufTy).Contents (Elt F)) (res_main_v37 a0 a1 a2 a3 a4) (res_main_v39 a0 a1 a2 a3 a4)
/-- `main_v41`: binary of main_v40, main_v38. -/
def res_main_v41 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i1⟩ : BufTy).Contents (Elt F) :=
  (cmpi .eq : (⟨S100x100, .i32⟩ : BufTy).Contents (Elt F) → (⟨S100x100, .i32⟩ : BufTy).Contents (Elt F) → (⟨S100x100, .i1⟩ : BufTy).Contents (Elt F)) (res_main_v40 a0 a1 a2 a3 a4) (res_main_v38 a0 a1 a2 a3 a4)
/-- `main_v42`: unary of main_v41. -/
def res_main_v42 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (uitofp .f32 : (⟨S100x100, .i1⟩ : BufTy).Contents (Elt F) → (⟨S100x100, .f32⟩ : BufTy).Contents (Elt F)) (res_main_v41 a0 a1 a2 a3 a4)
/-- `main_v43`: unary of main_v36. -/
def res_main_v43 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .f32⟩ : BufTy).Contents (Elt F) :=
  (broadcastInDim S1x100 ![1] bcast_S100_S1x100_1 : (⟨S100, .f32⟩ : BufTy).Contents (Elt F) → (⟨S1x100, .f32⟩ : BufTy).Contents (Elt F)) (res_main_v36 a0 a1 a2 a3 a4)
/-- `main_v44`: unary of main_v43. -/
def res_main_v44 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S1x100_S100x100_0_1 : (⟨S1x100, .f32⟩ : BufTy).Contents (Elt F) → (⟨S100x100, .f32⟩ : BufTy).Contents (Elt F)) (res_main_v43 a0 a1 a2 a3 a4)
/-- `main_v45`: binary of main_v44, main_v42. -/
def res_main_v45 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v44 a0 a1 a2 a3 a4) (res_main_v42 a0 a1 a2 a3 a4)
/-- `main_cst_5`: nullary. -/
def res_main_cst_5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v46`: unary of main_cst_5. -/
def res_main_v46 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_cst_5 a0 a1 a2 a3 a4)
/-- `main_v47`: binary of main_v45, main_v46. -/
def res_main_v47 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .i1⟩ : BufTy).Contents (Elt F) :=
  (cmpf .ogt : (⟨S100x100, .f32⟩ : BufTy).Contents (Elt F) → (⟨S100x100, .f32⟩ : BufTy).Contents (Elt F) → (⟨S100x100, .i1⟩ : BufTy).Contents (Elt F)) (res_main_v45 a0 a1 a2 a3 a4) (res_main_v46 a0 a1 a2 a3 a4)
/-- `main_cst_6`: nullary. -/
def res_main_cst_6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x7F800000#32 : (⟨S_, .f32⟩ : BufTy).Contents (Elt F))
/-- `main_call3_v0`: unary of main_cst_6. -/
def res_main_call3_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (id : (⟨S_, .f32⟩ : BufTy).Contents (Elt F) → (⟨S_, .f32⟩ : BufTy).Contents (Elt F)) (res_main_cst_6 a0 a1 a2 a3 a4)
/-- `main_call3_v1`: unary of main_call3_v0. -/
def res_main_call3_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_call3_v0 a0 a1 a2 a3 a4)
/-- `main_v48`: ternary of main_v47, main_v35, main_call3_v1. -/
def res_main_v48 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (select : (⟨S100x100, .i1⟩ : BufTy).Contents (Elt F) → (⟨S100x100, .f32⟩ : BufTy).Contents (Elt F) → (⟨S100x100, .f32⟩ : BufTy).Contents (Elt F) → (⟨S100x100, .f32⟩ : BufTy).Contents (Elt F)) (res_main_v47 a0 a1 a2 a3 a4) (res_main_v35 a0 a1 a2 a3 a4) (res_main_call3_v1 a0 a1 a2 a3 a4)
/-- `main_cst_7`: nullary. -/
def res_main_cst_7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0xFF800000#32 : (⟨S_, .f32⟩ : BufTy).Contents (Elt F))
/-- `main_call4_v0`: unary of main_cst_7. -/
def res_main_call4_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (id : (⟨S_, .f32⟩ : BufTy).Contents (Elt F) → (⟨S_, .f32⟩ : BufTy).Contents (Elt F)) (res_main_cst_7 a0 a1 a2 a3 a4)
/-- `main_call4_v1`: unary of main_call4_v0. -/
def res_main_call4_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_call4_v0 a0 a1 a2 a3 a4)
/-- `main_v49`: ternary of main_v47, main_v35, main_call4_v1. -/
def res_main_v49 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (select : (⟨S100x100, .i1⟩ : BufTy).Contents (Elt F) → (⟨S100x100, .f32⟩ : BufTy).Contents (Elt F) → (⟨S100x100, .f32⟩ : BufTy).Contents (Elt F) → (⟨S100x100, .f32⟩ : BufTy).Contents (Elt F)) (res_main_v47 a0 a1 a2 a3 a4) (res_main_v35 a0 a1 a2 a3 a4) (res_main_call4_v1 a0 a1 a2 a3 a4)
/-- `main_cst_8`: nullary. -/
def res_main_cst_8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x7F800000#32 : (⟨S_, .f32⟩ : BufTy).Contents (Elt F))
/-- `main_v50`: binary of main_v48, main_cst_8. -/
def res_main_v50 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduce FloatOps.minimumf x v reducesTo_S100x100_S100_d1 h_S_) : (⟨S100x100, .f32⟩ : BufTy).Contents (Elt F) → (⟨S_, .f32⟩ : BufTy).Contents (Elt F) → (⟨S100, .f32⟩ : BufTy).Contents (Elt F)) (res_main_v48 a0 a1 a2 a3 a4) (res_main_cst_8 a0 a1 a2 a3 a4)
/-- `main_cst_9`: nullary. -/
def res_main_cst_9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v51`: unary of main_cst_9. -/
def res_main_v51 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_9 a0 a1 a2 a3 a4)
/-- `main_v52`: binary of main_v50, main_v51. -/
def res_main_v52 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (minimumf : (⟨S100, .f32⟩ : BufTy).Contents (Elt F) → (⟨S100, .f32⟩ : BufTy).Contents (Elt F) → (⟨S100, .f32⟩ : BufTy).Contents (Elt F)) (res_main_v50 a0 a1 a2 a3 a4) (res_main_v51 a0 a1 a2 a3 a4)
/-- `main_cst_10`: nullary. -/
def res_main_cst_10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0xFF800000#32 : (⟨S_, .f32⟩ : BufTy).Contents (Elt F))
/-- `main_v53`: binary of main_v49, main_cst_10. -/
def res_main_v53 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduce FloatOps.maximumf x v reducesTo_S100x100_S100_d1 h_S_) : (⟨S100x100, .f32⟩ : BufTy).Contents (Elt F) → (⟨S_, .f32⟩ : BufTy).Contents (Elt F) → (⟨S100, .f32⟩ : BufTy).Contents (Elt F)) (res_main_v49 a0 a1 a2 a3 a4) (res_main_cst_10 a0 a1 a2 a3 a4)
/-- `main_cst_11`: nullary. -/
def res_main_cst_11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v54`: unary of main_cst_11. -/
def res_main_v54 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_11 a0 a1 a2 a3 a4)
/-- `main_v55`: binary of main_v53, main_v54. -/
def res_main_v55 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (maximumf : (⟨S100, .f32⟩ : BufTy).Contents (Elt F) → (⟨S100, .f32⟩ : BufTy).Contents (Elt F) → (⟨S100, .f32⟩ : BufTy).Contents (Elt F)) (res_main_v53 a0 a1 a2 a3 a4) (res_main_v54 a0 a1 a2 a3 a4)
/-- `main_v56`: binary of main_v45, main_v35. -/
def res_main_v56 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v45 a0 a1 a2 a3 a4) (res_main_v35 a0 a1 a2 a3 a4)
/-- `main_cst_12`: nullary. -/
def res_main_cst_12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v57`: binary of main_v56, main_cst_12. -/
def res_main_v57 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)) (res_main_v56 a0 a1 a2 a3 a4) (res_main_cst_12 a0 a1 a2 a3 a4)
/-- `main_cst_13`: nullary. -/
def res_main_cst_13 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x46000000#32 : (⟨S_, .f32⟩ : BufTy).Contents (Elt F))
/-- `main_v58`: unary of main_cst_13. -/
def res_main_v58 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_13 a0 a1 a2 a3 a4)
/-- `main_v59`: binary of main_v57, main_v58. -/
def res_main_v59 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v57 a0 a1 a2 a3 a4) (res_main_v58 a0 a1 a2 a3 a4)
/-- `main_v60`: unary of main_v59. -/
def res_main_v60 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_v59 a0 a1 a2 a3 a4)
/-- `main_v61`: unary of main_v60. -/
def res_main_v61 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S100x1_S100x100_0_1 : (⟨S100x1, .f32⟩ : BufTy).Contents (Elt F) → (⟨S100x100, .f32⟩ : BufTy).Contents (Elt F)) (res_main_v60 a0 a1 a2 a3 a4)
/-- `main_v62`: binary of main_v35, main_v61. -/
def res_main_v62 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v35 a0 a1 a2 a3 a4) (res_main_v61 a0 a1 a2 a3 a4)
/-- `main_v63`: binary of main_v62, main_v62. -/
def res_main_v63 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v62 a0 a1 a2 a3 a4) (res_main_v62 a0 a1 a2 a3 a4)
/-- `main_v64`: binary of main_v45, main_v63. -/
def res_main_v64 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v45 a0 a1 a2 a3 a4) (res_main_v63 a0 a1 a2 a3 a4)
/-- `main_cst_14`: nullary. -/
def res_main_cst_14 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v65`: binary of main_v64, main_cst_14. -/
def res_main_v65 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)) (res_main_v64 a0 a1 a2 a3 a4) (res_main_cst_14 a0 a1 a2 a3 a4)
/-- `main_v66`: binary of main_v59, main_v59. -/
def res_main_v66 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v59 a0 a1 a2 a3 a4) (res_main_v59 a0 a1 a2 a3 a4)
/-- `main_v67`: binary of main_v65, main_v66. -/
def res_main_v67 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (addf : (⟨S100, .f32⟩ : BufTy).Contents (Elt F) → (⟨S100, .f32⟩ : BufTy).Contents (Elt F) → (⟨S100, .f32⟩ : BufTy).Contents (Elt F)) (res_main_v65 a0 a1 a2 a3 a4) (res_main_v66 a0 a1 a2 a3 a4)
/-- `main_cst_15`: nullary. -/
def res_main_cst_15 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x45FFF800#32 : (⟨S_, .f32⟩ : BufTy).Contents (Elt F))
/-- `main_v68`: unary of main_cst_15. -/
def res_main_v68 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_15 a0 a1 a2 a3 a4)
/-- `main_v69`: binary of main_v67, main_v68. -/
def res_main_v69 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v67 a0 a1 a2 a3 a4) (res_main_v68 a0 a1 a2 a3 a4)
/-- `main_cst_16`: nullary. -/
def res_main_cst_16 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v70`: unary of main_cst_16. -/
def res_main_v70 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_16 a0 a1 a2 a3 a4)
/-- `main_v71`: binary of main_v69, main_v70. -/
def res_main_v71 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (maximumf : (⟨S100, .f32⟩ : BufTy).Contents (Elt F) → (⟨S100, .f32⟩ : BufTy).Contents (Elt F) → (⟨S100, .f32⟩ : BufTy).Contents (Elt F)) (res_main_v69 a0 a1 a2 a3 a4) (res_main_v70 a0 a1 a2 a3 a4)
/-- `main_v72`: unary of main_v71. -/
def res_main_v72 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.sqrt : (⟨S100, .f32⟩ : BufTy).Contents (Elt F) → (⟨S100, .f32⟩ : BufTy).Contents (Elt F)) (res_main_v71 a0 a1 a2 a3 a4)
/-- `main_v73`: binary of main_v55, main_v52. -/
def res_main_v73 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (subf : (⟨S100, .f32⟩ : BufTy).Contents (Elt F) → (⟨S100, .f32⟩ : BufTy).Contents (Elt F) → (⟨S100, .f32⟩ : BufTy).Contents (Elt F)) (res_main_v55 a0 a1 a2 a3 a4) (res_main_v52 a0 a1 a2 a3 a4)
/-- `main_cst_17`: nullary. -/
def res_main_cst_17 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3F800000#32 : (⟨S_, .f32⟩ : BufTy).Contents (Elt F))
/-- `main_v74`: unary of main_cst_17. -/
def res_main_v74 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_17 a0 a1 a2 a3 a4)
/-- `main_v75`: binary of main_v74, main_v73. -/
def res_main_v75 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v74 a0 a1 a2 a3 a4) (res_main_v73 a0 a1 a2 a3 a4)
/-- `main_v76`: unary of main_v52. -/
def res_main_v76 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.negf : (⟨S100, .f32⟩ : BufTy).Contents (Elt F) → (⟨S100, .f32⟩ : BufTy).Contents (Elt F)) (res_main_v52 a0 a1 a2 a3 a4)
/-- `main_v77`: binary of main_v76, main_v75. -/
def res_main_v77 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v76 a0 a1 a2 a3 a4) (res_main_v75 a0 a1 a2 a3 a4)
/-- `main_v78`: binary of main_v59, main_v52. -/
def res_main_v78 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (subf : (⟨S100, .f32⟩ : BufTy).Contents (Elt F) → (⟨S100, .f32⟩ : BufTy).Contents (Elt F) → (⟨S100, .f32⟩ : BufTy).Contents (Elt F)) (res_main_v59 a0 a1 a2 a3 a4) (res_main_v52 a0 a1 a2 a3 a4)
/-- `main_v79`: binary of main_v78, main_v75. -/
def res_main_v79 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v78 a0 a1 a2 a3 a4) (res_main_v75 a0 a1 a2 a3 a4)
/-- `main_v80`: binary of main_v72, main_v75. -/
def res_main_v80 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v72 a0 a1 a2 a3 a4) (res_main_v75 a0 a1 a2 a3 a4)
/-- `main_cst_18`: nullary. -/
def res_main_cst_18 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x40000000#32 : (⟨S_, .f32⟩ : BufTy).Contents (Elt F))
/-- `main_v81`: unary of main_cst_18. -/
def res_main_v81 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_18 a0 a1 a2 a3 a4)
/-- `main_v82`: binary of main_v81, main_v80. -/
def res_main_v82 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v81 a0 a1 a2 a3 a4) (res_main_v80 a0 a1 a2 a3 a4)
/-- `main_v83`: binary of main_v82, main_v80. -/
def res_main_v83 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (mulf : (⟨S100, .f32⟩ : BufTy).Contents (Elt F) → (⟨S100, .f32⟩ : BufTy).Contents (Elt F) → (⟨S100, .f32⟩ : BufTy).Contents (Elt F)) (res_main_v82 a0 a1 a2 a3 a4) (res_main_v80 a0 a1 a2 a3 a4)
/-- `main_cst_19`: nullary. -/
def res_main_cst_19 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3F800000#32 : (⟨S_, .f32⟩ : BufTy).Contents (Elt F))
/-- `main_v84`: unary of main_cst_19. -/
def res_main_v84 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (broadcastInDim S100 ![] bcast_S_S100 : (⟨S_, .f32⟩ : BufTy).Contents (Elt F) → (⟨S100, .f32⟩ : BufTy).Contents (Elt F)) (res_main_cst_19 a0 a1 a2 a3 a4)
/-- `main_v85`: binary of main_v84, main_v83. -/
def res_main_v85 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (Host.divf : (⟨S100, .f32⟩ : BufTy).Contents (Elt F) → (⟨S100, .f32⟩ : BufTy).Contents (Elt F) → (⟨S100, .f32⟩ : BufTy).Contents (Elt F)) (res_main_v84 a0 a1 a2 a3 a4) (res_main_v83 a0 a1 a2 a3 a4)
/-- `main_v86`: unary of main_v75. -/
def res_main_v86 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_v75 a0 a1 a2 a3 a4)
/-- `main_v87`: unary of main_v86. -/
def res_main_v87 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S100x1_S100x100_0_1 : (⟨S100x1, .f32⟩ : BufTy).Contents (Elt F) → (⟨S100x100, .f32⟩ : BufTy).Contents (Elt F)) (res_main_v86 a0 a1 a2 a3 a4)
/-- `main_v88`: binary of main_v87, main_v35. -/
def res_main_v88 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v87 a0 a1 a2 a3 a4) (res_main_v35 a0 a1 a2 a3 a4)
/-- `main_v89`: unary of main_v77. -/
def res_main_v89 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_v77 a0 a1 a2 a3 a4)
/-- `main_v90`: unary of main_v89. -/
def res_main_v90 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S100x1_S100x100_0_1 : (⟨S100x1, .f32⟩ : BufTy).Contents (Elt F) → (⟨S100x100, .f32⟩ : BufTy).Contents (Elt F)) (res_main_v89 a0 a1 a2 a3 a4)
/-- `main_v91`: binary of main_v88, main_v90. -/
def res_main_v91 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (addf : (⟨S100x100, .f32⟩ : BufTy).Contents (Elt F) → (⟨S100x100, .f32⟩ : BufTy).Contents (Elt F) → (⟨S100x100, .f32⟩ : BufTy).Contents (Elt F)) (res_main_v88 a0 a1 a2 a3 a4) (res_main_v90 a0 a1 a2 a3 a4)
/-- `main_v92`: unary of main_v79. -/
def res_main_v92 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .f32⟩ : BufTy).Contents (Elt F) :=
  (broadcastInDim S1x100 ![1] bcast_S100_S1x100_1 : (⟨S100, .f32⟩ : BufTy).Contents (Elt F) → (⟨S1x100, .f32⟩ : BufTy).Contents (Elt F)) (res_main_v79 a0 a1 a2 a3 a4)
/-- `main_v93`: unary of main_v92. -/
def res_main_v93 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S1x100_S100x100_0_1 : (⟨S1x100, .f32⟩ : BufTy).Contents (Elt F) → (⟨S100x100, .f32⟩ : BufTy).Contents (Elt F)) (res_main_v92 a0 a1 a2 a3 a4)
/-- `main_v94`: binary of main_v91, main_v93. -/
def res_main_v94 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v91 a0 a1 a2 a3 a4) (res_main_v93 a0 a1 a2 a3 a4)
/-- `main_v95`: binary of main_v94, main_v94. -/
def res_main_v95 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v94 a0 a1 a2 a3 a4) (res_main_v94 a0 a1 a2 a3 a4)
/-- `main_v96`: unary of main_v85. -/
def res_main_v96 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x100, .f32⟩ : BufTy).Contents (Elt F) :=
  (broadcastInDim S1x100 ![1] bcast_S100_S1x100_1 : (⟨S100, .f32⟩ : BufTy).Contents (Elt F) → (⟨S1x100, .f32⟩ : BufTy).Contents (Elt F)) (res_main_v85 a0 a1 a2 a3 a4)
/-- `main_v97`: unary of main_v96. -/
def res_main_v97 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![0, 1] bcast_S1x100_S100x100_0_1 : (⟨S1x100, .f32⟩ : BufTy).Contents (Elt F) → (⟨S100x100, .f32⟩ : BufTy).Contents (Elt F)) (res_main_v96 a0 a1 a2 a3 a4)
/-- `main_v98`: binary of main_v95, main_v97. -/
def res_main_v98 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (mulf : (⟨S100x100, .f32⟩ : BufTy).Contents (Elt F) → (⟨S100x100, .f32⟩ : BufTy).Contents (Elt F) → (⟨S100x100, .f32⟩ : BufTy).Contents (Elt F)) (res_main_v95 a0 a1 a2 a3 a4) (res_main_v97 a0 a1 a2 a3 a4)
/-- `main_v99`: unary of main_v98. -/
def res_main_v99 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (Host.exp : (⟨S100x100, .f32⟩ : BufTy).Contents (Elt F) → (⟨S100x100, .f32⟩ : BufTy).Contents (Elt F)) (res_main_v98 a0 a1 a2 a3 a4)
/-- `main_c_20`: nullary. -/
def res_main_c_20 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_v100`: unary of main_c_20. -/
def res_main_v100 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (broadcastInDim S8192 ![] bcast_S_S8192 : (⟨S_, .i32⟩ : BufTy).Contents (Elt F) → (⟨S8192, .i32⟩ : BufTy).Contents (Elt F)) (res_main_c_20 a0 a1 a2 a3 a4)
/-- `main_v101`: binary of main_v11, main_v100. -/
def res_main_v101 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (res_main_v11 a0 a1 a2 a3 a4) (res_main_v100 a0 a1 a2 a3 a4)
/-- `main_c_21`: nullary. -/
def res_main_c_21 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 100#32 : (⟨S_, .i32⟩ : BufTy).Contents (Elt F))
/-- `main_v102`: unary of main_c_21. -/
def res_main_v102 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (broadcastInDim S8192 ![] bcast_S_S8192 : (⟨S_, .i32⟩ : BufTy).Contents (Elt F) → (⟨S8192, .i32⟩ : BufTy).Contents (Elt F)) (res_main_c_21 a0 a1 a2 a3 a4)
/-- `main_v103`: binary of main_v11, main_v102. -/
def res_main_v103 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (res_main_v11 a0 a1 a2 a3 a4) (res_main_v102 a0 a1 a2 a3 a4)
/-- `main_v104`: ternary of main_v101, main_v103, main_v11. -/
def res_main_v104 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (res_main_v101 a0 a1 a2 a3 a4) (res_main_v103 a0 a1 a2 a3 a4) (res_main_v11 a0 a1 a2 a3 a4)
/-- `main_v105`: unary of main_v104. -/
def res_main_v105 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (res_main_v104 a0 a1 a2 a3 a4)
/-- `main_v106`: binary of main_v99, main_v105. -/
def res_main_v106 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  ((fun x i => Host.gather gather_S100x100_S8192x1_S8192x100_1_0_n_n_0_1_1100 x i) : (⟨S100x100, .f32⟩ : BufTy).Contents (Elt F) → (⟨S8192x1, .i32⟩ : BufTy).Contents (Elt F) → (⟨S8192x100, .f32⟩ : BufTy).Contents (Elt F)) (res_main_v99 a0 a1 a2 a3 a4) (res_main_v105 a0 a1 a2 a3 a4)
/-- `main_v107`: binary of main_v20, main_v106. -/
def res_main_v107 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .f32⟩ : BufTy).Contents (Elt F) :=
  (mulf : (⟨S8192x100, .f32⟩ : BufTy).Contents (Elt F) → (⟨S8192x100, .f32⟩ : BufTy).Contents (Elt F) → (⟨S8192x100, .f32⟩ : BufTy).Contents (Elt F)) (res_main_v20 a0 a1 a2 a3 a4) (res_main_v106 a0 a1 a2 a3 a4)
/-- `main_v108`: unary of main_v26. -/
def res_main_v108 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .bf16⟩ : BufTy).Contents (Elt F) :=
  ((truncf .bf16 · bitsLt_bf16_f32) : (⟨S8192x100, .f32⟩ : BufTy).Contents (Elt F) → (⟨S8192x100, .bf16⟩ : BufTy).Contents (Elt F)) (res_main_v26 a0 a1 a2 a3 a4)
/-- `main_v109`: unary of main_v10. -/
def res_main_v109 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x256, .bf16⟩ : BufTy).Contents (Elt F) :=
  ((truncf .bf16 · bitsLt_bf16_f32) : (⟨S8192x256, .f32⟩ : BufTy).Contents (Elt F) → (⟨S8192x256, .bf16⟩ : BufTy).Contents (Elt F)) (res_main_v10 a0 a1 a2 a3 a4)
/-- `main_v110`: binary of main_v4, main_v9. -/
def res_main_v110 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) (res_main_v4 a0 a1 a2 a3 a4) (res_main_v9 a0 a1 a2 a3 a4)
/-- `main_cst_22`: nullary. -/
def res_main_cst_22 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v111`: binary of main_v110, main_cst_22. -/
def res_main_v111 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) (res_main_v110 a0 a1 a2 a3 a4) (res_main_cst_22 a0 a1 a2 a3 a4)
/-- `main_cst_23`: nullary. -/
def res_main_cst_23 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3E4CCCCD#32 : (⟨S_, .f32⟩ : BufTy).Contents (Elt F))
/-- `main_v112`: unary of main_cst_23. -/
def res_main_v112 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (broadcastInDim S4096 ![] bcast_S_S4096 : (⟨S_, .f32⟩ : BufTy).Contents (Elt F) → (⟨S4096, .f32⟩ : BufTy).Contents (Elt F)) (res_main_cst_23 a0 a1 a2 a3 a4)
/-- `main_v113`: binary of main_v111, main_v112. -/
def res_main_v113 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (Host.divf : (⟨S4096, .f32⟩ : BufTy).Contents (Elt F) → (⟨S4096, .f32⟩ : BufTy).Contents (Elt F) → (⟨S4096, .f32⟩ : BufTy).Contents (Elt F)) (res_main_v111 a0 a1 a2 a3 a4) (res_main_v112 a0 a1 a2 a3 a4)
/-- `main_v114`: unary of main_v113. -/
def res_main_v114 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (Host.exp : (⟨S4096, .f32⟩ : BufTy).Contents (Elt F) → (⟨S4096, .f32⟩ : BufTy).Contents (Elt F)) (res_main_v113 a0 a1 a2 a3 a4)
/-- `main_v115`: binary of main_v114, main_v114. -/
def res_main_v115 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) (res_main_v114 a0 a1 a2 a3 a4) (res_main_v114 a0 a1 a2 a3 a4)
/-- `main_v117`: unary of main_v116. -/
def res_main_v117 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8x1x1, .f32⟩ : BufTy).Contents (Elt F) :=
  ((extractStridedSlice S8x1x1 ![0, 0, 0] · slices_S8x8x128_S8x1x1_0_0_0) : (⟨S8x8x128, .f32⟩ : BufTy).Contents (Elt F) → (⟨S8x1x1, .f32⟩ : BufTy).Contents (Elt F)) r
/-- `main_v118`: reshape of main_v117. -/
def res_main_v118 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8, .f32⟩ : BufTy).Contents (Elt F) :=
  (fun x => shapeCast S8 x shapeCasts_S8x1x1_S8 : (⟨S8x1x1, .f32⟩ : BufTy).Contents (Elt F) → (⟨S8, .f32⟩ : BufTy).Contents (Elt F)) (res_main_v117 a0 a1 a2 a3 a4 r)
/-- `main_cst_24`: nullary. -/
def res_main_cst_24 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v119`: binary of main_v118, main_cst_24. -/
def res_main_v119 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) (res_main_v118 a0 a1 a2 a3 a4 r) (res_main_cst_24 a0 a1 a2 a3 a4 r)
/-- `main_v120`: unary of main_v109. -/
def res_main_v120 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192x256, .f32⟩ : BufTy).Contents (Elt F) :=
  ((extf .f32 · bitsLt_bf16_f32) : (⟨S8192x256, .bf16⟩ : BufTy).Contents (Elt F) → (⟨S8192x256, .f32⟩ : BufTy).Contents (Elt F)) (res_main_v109 a0 a1 a2 a3 a4)
/-- `main_v121`: binary of main_v120, main_v120. -/
def res_main_v121 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192x256, .f32⟩ : BufTy).Contents (Elt F) :=
  (mulf : (⟨S8192x256, .f32⟩ : BufTy).Contents (Elt F) → (⟨S8192x256, .f32⟩ : BufTy).Contents (Elt F) → (⟨S8192x256, .f32⟩ : BufTy).Contents (Elt F)) (res_main_v120 a0 a1 a2 a3 a4 r) (res_main_v120 a0 a1 a2 a3 a4 r)
/-- `main_cst_25`: nullary. -/
def res_main_cst_25 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v122`: binary of main_v121, main_cst_25. -/
def res_main_v122 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)) (res_main_v121 a0 a1 a2 a3 a4 r) (res_main_cst_25 a0 a1 a2 a3 a4 r)
/-- `main_cst_26`: nullary. -/
def res_main_cst_26 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x3E4CCCCD#32 : (⟨S_, .f32⟩ : BufTy).Contents (Elt F))
/-- `main_v123`: unary of main_cst_26. -/
def res_main_v123 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_cst_26 a0 a1 a2 a3 a4 r)
/-- `main_v124`: binary of main_v122, main_v123. -/
def res_main_v124 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (res_main_v122 a0 a1 a2 a3 a4 r) (res_main_v123 a0 a1 a2 a3 a4 r)
/-- `main_v125`: unary of main_v124. -/
def res_main_v125 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.exp : (⟨S8192, .f32⟩ : BufTy).Contents (Elt F) → (⟨S8192, .f32⟩ : BufTy).Contents (Elt F)) (res_main_v124 a0 a1 a2 a3 a4 r)
/-- `main_v126`: binary of main_v107, main_v26. -/
def res_main_v126 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192x100, .f32⟩ : BufTy).Contents (Elt F) :=
  (mulf : (⟨S8192x100, .f32⟩ : BufTy).Contents (Elt F) → (⟨S8192x100, .f32⟩ : BufTy).Contents (Elt F) → (⟨S8192x100, .f32⟩ : BufTy).Contents (Elt F)) (res_main_v107 a0 a1 a2 a3 a4) (res_main_v26 a0 a1 a2 a3 a4)
/-- `main_cst_27`: nullary. -/
def res_main_cst_27 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v127`: binary of main_v126, main_cst_27. -/
def res_main_v127 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)) (res_main_v126 a0 a1 a2 a3 a4 r) (res_main_cst_27 a0 a1 a2 a3 a4 r)
/-- `main_v128`: binary of main_v125, main_v127. -/
def res_main_v128 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (mulf : (⟨S8192, .f32⟩ : BufTy).Contents (Elt F) → (⟨S8192, .f32⟩ : BufTy).Contents (Elt F) → (⟨S8192, .f32⟩ : BufTy).Contents (Elt F)) (res_main_v125 a0 a1 a2 a3 a4 r) (res_main_v127 a0 a1 a2 a3 a4 r)
/-- `main_cst_28`: nullary. -/
def res_main_cst_28 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v129`: binary of main_v128, main_cst_28. -/
def res_main_v129 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (res_main_v128 a0 a1 a2 a3 a4 r) (res_main_cst_28 a0 a1 a2 a3 a4 r)
/-- `main_v130`: binary of main_v119, main_v129. -/
def res_main_v130 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_v119 a0 a1 a2 a3 a4 r) (res_main_v129 a0 a1 a2 a3 a4 r)
/-- `main_v131`: unary of main_v130. -/
def res_main_v131 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_v130 a0 a1 a2 a3 a4 r)
/-- `main_v132`: binary of main_v115, main_v131. -/
def res_main_v132 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (res_main_v115 a0 a1 a2 a3 a4) (res_main_v131 a0 a1 a2 a3 a4 r)
/-- `main_v133`: unary of main_v132. -/
def res_main_v133 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.log : (⟨S8192, .f32⟩ : BufTy).Contents (Elt F) → (⟨S8192, .f32⟩ : BufTy).Contents (Elt F)) (res_main_v132 a0 a1 a2 a3 a4 r)
/-- `main_v134`: unary of main_v133. -/
def res_main_v134 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S8192, .f32⟩ : BufTy).Contents (Elt F) :=
  (Host.negf : (⟨S8192, .f32⟩ : BufTy).Contents (Elt F) → (⟨S8192, .f32⟩ : BufTy).Contents (Elt F)) (res_main_v133 a0 a1 a2 a3 a4 r)
/-- `main_cst_29`: nullary. -/
def res_main_cst_29 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x00000000#32 : (⟨S_, .f32⟩ : BufTy).Contents (Elt F))
/-- `main_v135`: binary of main_v134, main_cst_29. -/
def res_main_v135 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (res_main_v134 a0 a1 a2 a3 a4 r) (res_main_cst_29 a0 a1 a2 a3 a4 r)
/-- `main_cst_30`: nullary. -/
def res_main_cst_30 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (constant S_ .f32 0x46000000#32 : (⟨S_, .f32⟩ : BufTy).Contents (Elt F))
/-- `main_v136`: binary of main_v135, main_cst_30. -/
def res_main_v136 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) (r : (⟨S8x8x128, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (res_main_v135 a0 a1 a2 a3 a4 r) (res_main_cst_30 a0 a1 a2 a3 a4 r)

/-! ## The operations as lists -/

/-- The host operations before the kernel launch (all of them, for a program with no launch), in order. -/
abbrev opsPre : List (HloOp τ sig (Elt F)) :=
  [ StableHlo.TRef.binary (.of main_arg0 : StableHlo.TRef sig ⟨S4096x256, .f32⟩) (.of main_arg0 : StableHlo.TRef sig ⟨S4096x256, .f32⟩) (.of main_call0_v0 : StableHlo.TRef sig ⟨S4096x256, .f32⟩) mulf,
    StableHlo.TRef.nullary (.of main_call0_cst : StableHlo.TRef sig ⟨S_, .f32⟩) (constant S_ .f32 0x00000000#32),
    StableHlo.TRef.binary (.of main_call0_v0 : StableHlo.TRef sig ⟨S4096x256, .f32⟩) (.of main_call0_cst : StableHlo.TRef sig ⟨S_, .f32⟩) (.of main_call0_v1 : StableHlo.TRef sig ⟨S4096, .f32⟩) (fun x v => Host.reduceAdd x v reducesTo_S4096x256_S4096_d1 h_S_),
    StableHlo.TRef.unary (.of main_call0_v1 : StableHlo.TRef sig ⟨S4096, .f32⟩) (.of main_call0_v2 : StableHlo.TRef sig ⟨S4096x1, .f32⟩) (broadcastInDim S4096x1 ![0] bcast_S4096_S4096x1_0),
    StableHlo.TRef.unary (.of main_call0_v2 : StableHlo.TRef sig ⟨S4096x1, .f32⟩) (.of main_v0 : StableHlo.TRef sig ⟨S4096x1, .f32⟩) Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (.of main_arg1 : StableHlo.TRef sig ⟨S4096x256, .f32⟩) (.of main_arg1 : StableHlo.TRef sig ⟨S4096x256, .f32⟩) (.of main_call1_v0 : StableHlo.TRef sig ⟨S4096x256, .f32⟩) mulf,
    StableHlo.TRef.nullary (.of main_call1_cst : StableHlo.TRef sig ⟨S_, .f32⟩) (constant S_ .f32 0x00000000#32),
    StableHlo.TRef.binary (.of main_call1_v0 : StableHlo.TRef sig ⟨S4096x256, .f32⟩) (.of main_call1_cst : StableHlo.TRef sig ⟨S_, .f32⟩) (.of main_call1_v1 : StableHlo.TRef sig ⟨S4096, .f32⟩) (fun x v => Host.reduceAdd x v reducesTo_S4096x256_S4096_d1 h_S_),
    StableHlo.TRef.unary (.of main_call1_v1 : StableHlo.TRef sig ⟨S4096, .f32⟩) (.of main_call1_v2 : StableHlo.TRef sig ⟨S4096x1, .f32⟩) (broadcastInDim S4096x1 ![0] bcast_S4096_S4096x1_0),
    StableHlo.TRef.unary (.of main_call1_v2 : StableHlo.TRef sig ⟨S4096x1, .f32⟩) (.of main_v5 : StableHlo.TRef sig ⟨S4096x1, .f32⟩) Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)),
    StableHlo.binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.reshape main_arg3 main_v11 rfl shapeCasts_S2x4096_S8192,
    StableHlo.reshape main_arg4 main_v12 rfl shapeCasts_S2x4096x10_S8192x10,
    StableHlo.nullary main_v13 (iotaInDim S100 32 0),
    StableHlo.unary main_v12 main_v14 (broadcastInDim S8192x10x1 ![0, 1] bcast_S8192x10_S8192x10x1_0_1 : (⟨S8192x10, .i32⟩ : BufTy).Contents (Elt F) → (⟨S8192x10x1, .i32⟩ : BufTy).Contents (Elt F)),
    StableHlo.unary main_v13 main_v15 (broadcastInDim S1x1x100 ![2] bcast_S100_S1x1x100_2 : (⟨S100, .i32⟩ : BufTy).Contents (Elt F) → (⟨S1x1x100, .i32⟩ : BufTy).Contents (Elt F)),
    StableHlo.unary main_v14 main_v16 (broadcastInDim S8192x10x100 ![0, 1, 2] bcast_S8192x10x1_S8192x10x100_0_1_2 : (⟨S8192x10x1, .i32⟩ : BufTy).Contents (Elt F) → (⟨S8192x10x100, .i32⟩ : BufTy).Contents (Elt F)),
    StableHlo.unary main_v15 main_v17 (broadcastInDim S8192x10x100 ![0, 1, 2] bcast_S1x1x100_S8192x10x100_0_1_2 : (⟨S1x1x100, .i32⟩ : BufTy).Contents (Elt F) → (⟨S8192x10x100, .i32⟩ : BufTy).Contents (Elt F)),
    StableHlo.binary main_v16 main_v17 main_v18 (cmpi .eq : (⟨S8192x10x100, .i32⟩ : BufTy).Contents (Elt F) → (⟨S8192x10x100, .i32⟩ : BufTy).Contents (Elt F) → (⟨S8192x10x100, .i1⟩ : BufTy).Contents (Elt F)),
    StableHlo.nullary main_c (constantI S_ 1 0#1),
    StableHlo.binary main_v18 main_c main_v19 ((fun x v => Host.reduce IntOp.ori x v reducesTo_S8192x10x100_S8192x100_d1 h_S_) : (⟨S8192x10x100, .i1⟩ : BufTy).Contents (Elt F) → (⟨S_, .i1⟩ : BufTy).Contents (Elt F) → (⟨S8192x100, .i1⟩ : BufTy).Contents (Elt F)),
    StableHlo.unary main_v19 main_v20 (uitofp .f32 : (⟨S8192x100, .i1⟩ : BufTy).Contents (Elt F) → (⟨S8192x100, .f32⟩ : BufTy).Contents (Elt F)),
    StableHlo.unary main_v11 main_v21 (broadcastInDim S8192x1 ![0] bcast_S8192_S8192x1_0 : (⟨S8192, .i32⟩ : BufTy).Contents (Elt F) → (⟨S8192x1, .i32⟩ : BufTy).Contents (Elt F)),
    StableHlo.unary main_v13 main_v22 (broadcastInDim S1x100 ![1] bcast_S100_S1x100_1 : (⟨S100, .i32⟩ : BufTy).Contents (Elt F) → (⟨S1x100, .i32⟩ : BufTy).Contents (Elt F)),
    StableHlo.unary main_v21 main_v23 (broadcastInDim S8192x100 ![0, 1] bcast_S8192x1_S8192x100_0_1 : (⟨S8192x1, .i32⟩ : BufTy).Contents (Elt F) → (⟨S8192x100, .i32⟩ : BufTy).Contents (Elt F)),
    StableHlo.unary main_v22 main_v24 (broadcastInDim S8192x100 ![0, 1] bcast_S1x100_S8192x100_0_1 : (⟨S1x100, .i32⟩ : BufTy).Contents (Elt F) → (⟨S8192x100, .i32⟩ : BufTy).Contents (Elt F)),
    StableHlo.binary main_v23 main_v24 main_v25 (cmpi .eq : (⟨S8192x100, .i32⟩ : BufTy).Contents (Elt F) → (⟨S8192x100, .i32⟩ : BufTy).Contents (Elt F) → (⟨S8192x100, .i1⟩ : BufTy).Contents (Elt F)),
    StableHlo.unary main_v25 main_v26 (uitofp .f32 : (⟨S8192x100, .i1⟩ : BufTy).Contents (Elt F) → (⟨S8192x100, .f32⟩ : BufTy).Contents (Elt F)),
    StableHlo.TRef.binary (.of main_arg2 : StableHlo.TRef sig ⟨S100x256, .f32⟩) (.of main_arg2 : StableHlo.TRef sig ⟨S100x256, .f32⟩) (.of main_call2_v0 : StableHlo.TRef sig ⟨S100x256, .f32⟩) mulf,
    StableHlo.TRef.nullary (.of main_call2_cst : StableHlo.TRef sig ⟨S_, .f32⟩) (constant S_ .f32 0x00000000#32),
    StableHlo.TRef.binary (.of main_call2_v0 : StableHlo.TRef sig ⟨S100x256, .f32⟩) (.of main_call2_cst : StableHlo.TRef sig ⟨S_, .f32⟩) (.of main_call2_v1 : StableHlo.TRef sig ⟨S100, .f32⟩) (fun x v => Host.reduceAdd x v reducesTo_S100x256_S100_d1 h_S_),
    StableHlo.TRef.unary (.of main_call2_v1 : StableHlo.TRef sig ⟨S100, .f32⟩) (.of main_call2_v2 : StableHlo.TRef sig ⟨S100x1, .f32⟩) (broadcastInDim S100x1 ![0] bcast_S100_S100x1_0),
    StableHlo.TRef.unary (.of main_call2_v2 : StableHlo.TRef sig ⟨S100x1, .f32⟩) (.of main_v27 : StableHlo.TRef sig ⟨S100x1, .f32⟩) Host.sqrt,
    StableHlo.nullary main_cst_1 (constant S_ .f32 0x2B8CBCCC#32),
    StableHlo.unary main_cst_1 main_v28 (broadcastInDim S100x1 ![] bcast_S_S100x1 : (⟨S_, .f32⟩ : BufTy).Contents (Elt F) → (⟨S100x1, .f32⟩ : BufTy).Contents (Elt F)),
    StableHlo.binary main_v27 main_v28 main_v29 (maximumf : (⟨S100x1, .f32⟩ : BufTy).Contents (Elt F) → (⟨S100x1, .f32⟩ : BufTy).Contents (Elt F) → (⟨S100x1, .f32⟩ : BufTy).Contents (Elt F)),
    StableHlo.unary main_v29 main_v30 (broadcastInDim S100x256 ![0, 1] bcast_S100x1_S100x256_0_1 : (⟨S100x1, .f32⟩ : BufTy).Contents (Elt F) → (⟨S100x256, .f32⟩ : BufTy).Contents (Elt F)),
    StableHlo.binary main_arg2 main_v30 main_v31 (Host.divf : (⟨S100x256, .f32⟩ : BufTy).Contents (Elt F) → (⟨S100x256, .f32⟩ : BufTy).Contents (Elt F) → (⟨S100x256, .f32⟩ : BufTy).Contents (Elt F)),
    StableHlo.unary main_v31 main_v32 ((transpose S256x100 [1, 0] · transposes_S100x256_S256x100_1_0) : (⟨S100x256, .f32⟩ : BufTy).Contents (Elt F) → (⟨S256x100, .f32⟩ : BufTy).Contents (Elt F)),
    StableHlo.binary main_v31 main_v32 main_v33 ((fun l r => Host.dotGeneral dot_S100x256_S256x100_S100x100_1_0_0_1_n_n (some .fp32) l r) : (⟨S100x256, .f32⟩ : BufTy).Contents (Elt F) → (⟨S256x100, .f32⟩ : BufTy).Contents (Elt F) → (⟨S100x100, .f32⟩ : BufTy).Contents (Elt F)),
    StableHlo.nullary main_cst_2 (constant S_ .f32 0x3F800000#32),
    StableHlo.unary main_cst_2 main_v34 (broadcastInDim S100x100 ![] bcast_S_S100x100 : (⟨S_, .f32⟩ : BufTy).Contents (Elt F) → (⟨S100x100, .f32⟩ : BufTy).Contents (Elt F)),
    StableHlo.binary main_v34 main_v33 main_v35 (subf : (⟨S100x100, .f32⟩ : BufTy).Contents (Elt F) → (⟨S100x100, .f32⟩ : BufTy).Contents (Elt F) → (⟨S100x100, .f32⟩ : BufTy).Contents (Elt F)),
    StableHlo.nullary main_cst_3 (constant S_ .f32 0x00000000#32),
    StableHlo.binary main_v26 main_cst_3 main_v36 ((fun x v => Host.reduceAdd x v reducesTo_S8192x100_S100_d0 h_S_) : (⟨S8192x100, .f32⟩ : BufTy).Contents (Elt F) → (⟨S_, .f32⟩ : BufTy).Contents (Elt F) → (⟨S100, .f32⟩ : BufTy).Contents (Elt F)),
    StableHlo.nullary main_v37 (iotaInDim S100x100 32 0),
    StableHlo.nullary main_v38 (iotaInDim S100x100 32 1),
    StableHlo.nullary main_c_4 (constantI S_ 32 0#32),
    StableHlo.unary main_c_4 main_v39 (broadcastInDim S100x100 ![] bcast_S_S100x100 : (⟨S_, .i32⟩ : BufTy).Contents (Elt F) → (⟨S100x100, .i32⟩ : BufTy).Contents (Elt F)),
    StableHlo.binary main_v37 main_v39 main_v40 (addi : (⟨S100x100, .i32⟩ : BufTy).Contents (Elt F) → (⟨S100x100, .i32⟩ : BufTy).Contents (Elt F) → (⟨S100x100, .i32⟩ : BufTy).Contents (Elt F)),
    StableHlo.binary main_v40 main_v38 main_v41 (cmpi .eq : (⟨S100x100, .i32⟩ : BufTy).Contents (Elt F) → (⟨S100x100, .i32⟩ : BufTy).Contents (Elt F) → (⟨S100x100, .i1⟩ : BufTy).Contents (Elt F)),
    StableHlo.unary main_v41 main_v42 (uitofp .f32 : (⟨S100x100, .i1⟩ : BufTy).Contents (Elt F) → (⟨S100x100, .f32⟩ : BufTy).Contents (Elt F)),
    StableHlo.unary main_v36 main_v43 (broadcastInDim S1x100 ![1] bcast_S100_S1x100_1 : (⟨S100, .f32⟩ : BufTy).Contents (Elt F) → (⟨S1x100, .f32⟩ : BufTy).Contents (Elt F)),
    StableHlo.unary main_v43 main_v44 (broadcastInDim S100x100 ![0, 1] bcast_S1x100_S100x100_0_1 : (⟨S1x100, .f32⟩ : BufTy).Contents (Elt F) → (⟨S100x100, .f32⟩ : BufTy).Contents (Elt F)),
    StableHlo.binary main_v44 main_v42 main_v45 (subf : (⟨S100x100, .f32⟩ : BufTy).Contents (Elt F) → (⟨S100x100, .f32⟩ : BufTy).Contents (Elt F) → (⟨S100x100, .f32⟩ : BufTy).Contents (Elt F)),
    StableHlo.nullary main_cst_5 (constant S_ .f32 0x00000000#32),
    StableHlo.unary main_cst_5 main_v46 (broadcastInDim S100x100 ![] bcast_S_S100x100 : (⟨S_, .f32⟩ : BufTy).Contents (Elt F) → (⟨S100x100, .f32⟩ : BufTy).Contents (Elt F)),
    StableHlo.binary main_v45 main_v46 main_v47 (cmpf .ogt : (⟨S100x100, .f32⟩ : BufTy).Contents (Elt F) → (⟨S100x100, .f32⟩ : BufTy).Contents (Elt F) → (⟨S100x100, .i1⟩ : BufTy).Contents (Elt F)),
    StableHlo.nullary main_cst_6 (constant S_ .f32 0x7F800000#32),
    StableHlo.TRef.unary (.of main_cst_6 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100x100, .f32⟩) (broadcastInDim S100x100 ![] bcast_S_S100x100),
    StableHlo.TRef.ternary (.of main_v47 : StableHlo.TRef sig ⟨S100x100, .i1⟩) (.of main_v35 : StableHlo.TRef sig ⟨S100x100, .f32⟩) (.of main_call3_v1 : StableHlo.TRef sig ⟨S100x100, .f32⟩) (.of main_v48 : StableHlo.TRef sig ⟨S100x100, .f32⟩) select,
    StableHlo.nullary main_cst_7 (constant S_ .f32 0xFF800000#32),
    StableHlo.TRef.unary (.of main_cst_7 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S100x100, .f32⟩) (broadcastInDim S100x100 ![] bcast_S_S100x100),
    StableHlo.TRef.ternary (.of main_v47 : StableHlo.TRef sig ⟨S100x100, .i1⟩) (.of main_v35 : StableHlo.TRef sig ⟨S100x100, .f32⟩) (.of main_call4_v1 : StableHlo.TRef sig ⟨S100x100, .f32⟩) (.of main_v49 : StableHlo.TRef sig ⟨S100x100, .f32⟩) select,
    StableHlo.nullary main_cst_8 (constant S_ .f32 0x7F800000#32),
    StableHlo.binary main_v48 main_cst_8 main_v50 ((fun x v => Host.reduce FloatOps.minimumf x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_9 (constant S_ .f32 0x00000000#32),
    StableHlo.unary main_cst_9 main_v51 (broadcastInDim S100 ![] bcast_S_S100 : (⟨S_, .f32⟩ : BufTy).Contents (Elt F) → (⟨S100, .f32⟩ : BufTy).Contents (Elt F)),
    StableHlo.binary main_v50 main_v51 main_v52 (minimumf : (⟨S100, .f32⟩ : BufTy).Contents (Elt F) → (⟨S100, .f32⟩ : BufTy).Contents (Elt F) → (⟨S100, .f32⟩ : BufTy).Contents (Elt F)),
    StableHlo.nullary main_cst_10 (constant S_ .f32 0xFF800000#32),
    StableHlo.binary main_v49 main_cst_10 main_v53 ((fun x v => Host.reduce FloatOps.maximumf x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_11 (constant S_ .f32 0x00000000#32),
    StableHlo.unary main_cst_11 main_v54 (broadcastInDim S100 ![] bcast_S_S100 : (⟨S_, .f32⟩ : BufTy).Contents (Elt F) → (⟨S100, .f32⟩ : BufTy).Contents (Elt F)),
    StableHlo.binary main_v53 main_v54 main_v55 (maximumf : (⟨S100, .f32⟩ : BufTy).Contents (Elt F) → (⟨S100, .f32⟩ : BufTy).Contents (Elt F) → (⟨S100, .f32⟩ : BufTy).Contents (Elt F)),
    StableHlo.binary main_v45 main_v35 main_v56 (mulf : (⟨S100x100, .f32⟩ : BufTy).Contents (Elt F) → (⟨S100x100, .f32⟩ : BufTy).Contents (Elt F) → (⟨S100x100, .f32⟩ : BufTy).Contents (Elt F)),
    StableHlo.nullary main_cst_12 (constant S_ .f32 0x00000000#32),
    StableHlo.binary main_v56 main_cst_12 main_v57 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_13 (constant S_ .f32 0x46000000#32),
    StableHlo.unary main_cst_13 main_v58 (broadcastInDim S100 ![] bcast_S_S100 : (⟨S_, .f32⟩ : BufTy).Contents (Elt F) → (⟨S100, .f32⟩ : BufTy).Contents (Elt F)),
    StableHlo.binary main_v57 main_v58 main_v59 (Host.divf : (⟨S100, .f32⟩ : BufTy).Contents (Elt F) → (⟨S100, .f32⟩ : BufTy).Contents (Elt F) → (⟨S100, .f32⟩ : BufTy).Contents (Elt F)),
    StableHlo.unary main_v59 main_v60 (broadcastInDim S100x1 ![0] bcast_S100_S100x1_0 : (⟨S100, .f32⟩ : BufTy).Contents (Elt F) → (⟨S100x1, .f32⟩ : BufTy).Contents (Elt F)),
    StableHlo.unary main_v60 main_v61 (broadcastInDim S100x100 ![0, 1] bcast_S100x1_S100x100_0_1 : (⟨S100x1, .f32⟩ : BufTy).Contents (Elt F) → (⟨S100x100, .f32⟩ : BufTy).Contents (Elt F)),
    StableHlo.binary main_v35 main_v61 main_v62 (subf : (⟨S100x100, .f32⟩ : BufTy).Contents (Elt F) → (⟨S100x100, .f32⟩ : BufTy).Contents (Elt F) → (⟨S100x100, .f32⟩ : BufTy).Contents (Elt F)),
    StableHlo.binary main_v62 main_v62 main_v63 (mulf : (⟨S100x100, .f32⟩ : BufTy).Contents (Elt F) → (⟨S100x100, .f32⟩ : BufTy).Contents (Elt F) → (⟨S100x100, .f32⟩ : BufTy).Contents (Elt F)),
    StableHlo.binary main_v45 main_v63 main_v64 (mulf : (⟨S100x100, .f32⟩ : BufTy).Contents (Elt F) → (⟨S100x100, .f32⟩ : BufTy).Contents (Elt F) → (⟨S100x100, .f32⟩ : BufTy).Contents (Elt F)),
    StableHlo.nullary main_cst_14 (constant S_ .f32 0x00000000#32),
    StableHlo.binary main_v64 main_cst_14 main_v65 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.binary main_v59 main_v59 main_v66 (mulf : (⟨S100, .f32⟩ : BufTy).Contents (Elt F) → (⟨S100, .f32⟩ : BufTy).Contents (Elt F) → (⟨S100, .f32⟩ : BufTy).Contents (Elt F)),
    StableHlo.binary main_v65 main_v66 main_v67 (addf : (⟨S100, .f32⟩ : BufTy).Contents (Elt F) → (⟨S100, .f32⟩ : BufTy).Contents (Elt F) → (⟨S100, .f32⟩ : BufTy).Contents (Elt F)),
    StableHlo.nullary main_cst_15 (constant S_ .f32 0x45FFF800#32),
    StableHlo.unary main_cst_15 main_v68 (broadcastInDim S100 ![] bcast_S_S100 : (⟨S_, .f32⟩ : BufTy).Contents (Elt F) → (⟨S100, .f32⟩ : BufTy).Contents (Elt F)),
    StableHlo.binary main_v67 main_v68 main_v69 (Host.divf : (⟨S100, .f32⟩ : BufTy).Contents (Elt F) → (⟨S100, .f32⟩ : BufTy).Contents (Elt F) → (⟨S100, .f32⟩ : BufTy).Contents (Elt F)),
    StableHlo.nullary main_cst_16 (constant S_ .f32 0x00000000#32),
    StableHlo.unary main_cst_16 main_v70 (broadcastInDim S100 ![] bcast_S_S100 : (⟨S_, .f32⟩ : BufTy).Contents (Elt F) → (⟨S100, .f32⟩ : BufTy).Contents (Elt F)),
    StableHlo.binary main_v69 main_v70 main_v71 (maximumf : (⟨S100, .f32⟩ : BufTy).Contents (Elt F) → (⟨S100, .f32⟩ : BufTy).Contents (Elt F) → (⟨S100, .f32⟩ : BufTy).Contents (Elt F)),
    StableHlo.unary main_v71 main_v72 (Host.sqrt : (⟨S100, .f32⟩ : BufTy).Contents (Elt F) → (⟨S100, .f32⟩ : BufTy).Contents (Elt F)),
    StableHlo.binary main_v55 main_v52 main_v73 (subf : (⟨S100, .f32⟩ : BufTy).Contents (Elt F) → (⟨S100, .f32⟩ : BufTy).Contents (Elt F) → (⟨S100, .f32⟩ : BufTy).Contents (Elt F)),
    StableHlo.nullary main_cst_17 (constant S_ .f32 0x3F800000#32),
    StableHlo.unary main_cst_17 main_v74 (broadcastInDim S100 ![] bcast_S_S100 : (⟨S_, .f32⟩ : BufTy).Contents (Elt F) → (⟨S100, .f32⟩ : BufTy).Contents (Elt F)),
    StableHlo.binary main_v74 main_v73 main_v75 (Host.divf : (⟨S100, .f32⟩ : BufTy).Contents (Elt F) → (⟨S100, .f32⟩ : BufTy).Contents (Elt F) → (⟨S100, .f32⟩ : BufTy).Contents (Elt F)),
    StableHlo.unary main_v52 main_v76 (Host.negf : (⟨S100, .f32⟩ : BufTy).Contents (Elt F) → (⟨S100, .f32⟩ : BufTy).Contents (Elt F)),
    StableHlo.binary main_v76 main_v75 main_v77 (mulf : (⟨S100, .f32⟩ : BufTy).Contents (Elt F) → (⟨S100, .f32⟩ : BufTy).Contents (Elt F) → (⟨S100, .f32⟩ : BufTy).Contents (Elt F)),
    StableHlo.binary main_v59 main_v52 main_v78 (subf : (⟨S100, .f32⟩ : BufTy).Contents (Elt F) → (⟨S100, .f32⟩ : BufTy).Contents (Elt F) → (⟨S100, .f32⟩ : BufTy).Contents (Elt F)),
    StableHlo.binary main_v78 main_v75 main_v79 (mulf : (⟨S100, .f32⟩ : BufTy).Contents (Elt F) → (⟨S100, .f32⟩ : BufTy).Contents (Elt F) → (⟨S100, .f32⟩ : BufTy).Contents (Elt F)),
    StableHlo.binary main_v72 main_v75 main_v80 (mulf : (⟨S100, .f32⟩ : BufTy).Contents (Elt F) → (⟨S100, .f32⟩ : BufTy).Contents (Elt F) → (⟨S100, .f32⟩ : BufTy).Contents (Elt F)),
    StableHlo.nullary main_cst_18 (constant S_ .f32 0x40000000#32),
    StableHlo.unary main_cst_18 main_v81 (broadcastInDim S100 ![] bcast_S_S100 : (⟨S_, .f32⟩ : BufTy).Contents (Elt F) → (⟨S100, .f32⟩ : BufTy).Contents (Elt F)),
    StableHlo.binary main_v81 main_v80 main_v82 (mulf : (⟨S100, .f32⟩ : BufTy).Contents (Elt F) → (⟨S100, .f32⟩ : BufTy).Contents (Elt F) → (⟨S100, .f32⟩ : BufTy).Contents (Elt F)),
    StableHlo.binary main_v82 main_v80 main_v83 (mulf : (⟨S100, .f32⟩ : BufTy).Contents (Elt F) → (⟨S100, .f32⟩ : BufTy).Contents (Elt F) → (⟨S100, .f32⟩ : BufTy).Contents (Elt F)),
    StableHlo.nullary main_cst_19 (constant S_ .f32 0x3F800000#32),
    StableHlo.unary main_cst_19 main_v84 (broadcastInDim S100 ![] bcast_S_S100 : (⟨S_, .f32⟩ : BufTy).Contents (Elt F) → (⟨S100, .f32⟩ : BufTy).Contents (Elt F)),
    StableHlo.binary main_v84 main_v83 main_v85 (Host.divf : (⟨S100, .f32⟩ : BufTy).Contents (Elt F) → (⟨S100, .f32⟩ : BufTy).Contents (Elt F) → (⟨S100, .f32⟩ : BufTy).Contents (Elt F)),
    StableHlo.unary main_v75 main_v86 (broadcastInDim S100x1 ![0] bcast_S100_S100x1_0 : (⟨S100, .f32⟩ : BufTy).Contents (Elt F) → (⟨S100x1, .f32⟩ : BufTy).Contents (Elt F)),
    StableHlo.unary main_v86 main_v87 (broadcastInDim S100x100 ![0, 1] bcast_S100x1_S100x100_0_1 : (⟨S100x1, .f32⟩ : BufTy).Contents (Elt F) → (⟨S100x100, .f32⟩ : BufTy).Contents (Elt F)),
    StableHlo.binary main_v87 main_v35 main_v88 (mulf : (⟨S100x100, .f32⟩ : BufTy).Contents (Elt F) → (⟨S100x100, .f32⟩ : BufTy).Contents (Elt F) → (⟨S100x100, .f32⟩ : BufTy).Contents (Elt F)),
    StableHlo.unary main_v77 main_v89 (broadcastInDim S100x1 ![0] bcast_S100_S100x1_0 : (⟨S100, .f32⟩ : BufTy).Contents (Elt F) → (⟨S100x1, .f32⟩ : BufTy).Contents (Elt F)),
    StableHlo.unary main_v89 main_v90 (broadcastInDim S100x100 ![0, 1] bcast_S100x1_S100x100_0_1 : (⟨S100x1, .f32⟩ : BufTy).Contents (Elt F) → (⟨S100x100, .f32⟩ : BufTy).Contents (Elt F)),
    StableHlo.binary main_v88 main_v90 main_v91 (addf : (⟨S100x100, .f32⟩ : BufTy).Contents (Elt F) → (⟨S100x100, .f32⟩ : BufTy).Contents (Elt F) → (⟨S100x100, .f32⟩ : BufTy).Contents (Elt F)),
    StableHlo.unary main_v79 main_v92 (broadcastInDim S1x100 ![1] bcast_S100_S1x100_1 : (⟨S100, .f32⟩ : BufTy).Contents (Elt F) → (⟨S1x100, .f32⟩ : BufTy).Contents (Elt F)),
    StableHlo.unary main_v92 main_v93 (broadcastInDim S100x100 ![0, 1] bcast_S1x100_S100x100_0_1 : (⟨S1x100, .f32⟩ : BufTy).Contents (Elt F) → (⟨S100x100, .f32⟩ : BufTy).Contents (Elt F)),
    StableHlo.binary main_v91 main_v93 main_v94 (subf : (⟨S100x100, .f32⟩ : BufTy).Contents (Elt F) → (⟨S100x100, .f32⟩ : BufTy).Contents (Elt F) → (⟨S100x100, .f32⟩ : BufTy).Contents (Elt F)),
    StableHlo.binary main_v94 main_v94 main_v95 (mulf : (⟨S100x100, .f32⟩ : BufTy).Contents (Elt F) → (⟨S100x100, .f32⟩ : BufTy).Contents (Elt F) → (⟨S100x100, .f32⟩ : BufTy).Contents (Elt F)),
    StableHlo.unary main_v85 main_v96 (broadcastInDim S1x100 ![1] bcast_S100_S1x100_1 : (⟨S100, .f32⟩ : BufTy).Contents (Elt F) → (⟨S1x100, .f32⟩ : BufTy).Contents (Elt F)),
    StableHlo.unary main_v96 main_v97 (broadcastInDim S100x100 ![0, 1] bcast_S1x100_S100x100_0_1 : (⟨S1x100, .f32⟩ : BufTy).Contents (Elt F) → (⟨S100x100, .f32⟩ : BufTy).Contents (Elt F)),
    StableHlo.binary main_v95 main_v97 main_v98 (mulf : (⟨S100x100, .f32⟩ : BufTy).Contents (Elt F) → (⟨S100x100, .f32⟩ : BufTy).Contents (Elt F) → (⟨S100x100, .f32⟩ : BufTy).Contents (Elt F)),
    StableHlo.unary main_v98 main_v99 (Host.exp : (⟨S100x100, .f32⟩ : BufTy).Contents (Elt F) → (⟨S100x100, .f32⟩ : BufTy).Contents (Elt F)),
    StableHlo.nullary main_c_20 (constantI S_ 32 0#32),
    StableHlo.unary main_c_20 main_v100 (broadcastInDim S8192 ![] bcast_S_S8192 : (⟨S_, .i32⟩ : BufTy).Contents (Elt F) → (⟨S8192, .i32⟩ : BufTy).Contents (Elt F)),
    StableHlo.binary main_v11 main_v100 main_v101 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 100#32),
    StableHlo.unary main_c_21 main_v102 (broadcastInDim S8192 ![] bcast_S_S8192 : (⟨S_, .i32⟩ : BufTy).Contents (Elt F) → (⟨S8192, .i32⟩ : BufTy).Contents (Elt F)),
    StableHlo.binary main_v11 main_v102 main_v103 (addi : (⟨S8192, .i32⟩ : BufTy).Contents (Elt F) → (⟨S8192, .i32⟩ : BufTy).Contents (Elt F) → (⟨S8192, .i32⟩ : BufTy).Contents (Elt F)),
    StableHlo.ternary main_v101 main_v103 main_v11 main_v104 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v104 main_v105 (broadcastInDim S8192x1 ![0] bcast_S8192_S8192x1_0 : (⟨S8192, .i32⟩ : BufTy).Contents (Elt F) → (⟨S8192x1, .i32⟩ : BufTy).Contents (Elt F)),
    StableHlo.binary main_v99 main_v105 main_v106 ((fun x i => Host.gather gather_S100x100_S8192x1_S8192x100_1_0_n_n_0_1_1100 x i) : (⟨S100x100, .f32⟩ : BufTy).Contents (Elt F) → (⟨S8192x1, .i32⟩ : BufTy).Contents (Elt F) → (⟨S8192x100, .f32⟩ : BufTy).Contents (Elt F)),
    StableHlo.binary main_v20 main_v106 main_v107 (mulf : (⟨S8192x100, .f32⟩ : BufTy).Contents (Elt F) → (⟨S8192x100, .f32⟩ : BufTy).Contents (Elt F) → (⟨S8192x100, .f32⟩ : BufTy).Contents (Elt F)),
    StableHlo.unary main_v26 main_v108 ((truncf .bf16 · bitsLt_bf16_f32) : (⟨S8192x100, .f32⟩ : BufTy).Contents (Elt F) → (⟨S8192x100, .bf16⟩ : BufTy).Contents (Elt F)),
    StableHlo.unary main_v10 main_v109 ((truncf .bf16 · bitsLt_bf16_f32) : (⟨S8192x256, .f32⟩ : BufTy).Contents (Elt F) → (⟨S8192x256, .bf16⟩ : BufTy).Contents (Elt F)),
    StableHlo.binary main_v4 main_v9 main_v110 (mulf : (⟨S4096x256, .f32⟩ : BufTy).Contents (Elt F) → (⟨S4096x256, .f32⟩ : BufTy).Contents (Elt F) → (⟨S4096x256, .f32⟩ : BufTy).Contents (Elt F)),
    StableHlo.nullary main_cst_22 (constant S_ .f32 0x00000000#32),
    StableHlo.binary main_v110 main_cst_22 main_v111 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.nullary main_cst_23 (constant S_ .f32 0x3E4CCCCD#32),
    StableHlo.unary main_cst_23 main_v112 (broadcastInDim S4096 ![] bcast_S_S4096 : (⟨S_, .f32⟩ : BufTy).Contents (Elt F) → (⟨S4096, .f32⟩ : BufTy).Contents (Elt F)),
    StableHlo.binary main_v111 main_v112 main_v113 (Host.divf : (⟨S4096, .f32⟩ : BufTy).Contents (Elt F) → (⟨S4096, .f32⟩ : BufTy).Contents (Elt F) → (⟨S4096, .f32⟩ : BufTy).Contents (Elt F)),
    StableHlo.unary main_v113 main_v114 (Host.exp : (⟨S4096, .f32⟩ : BufTy).Contents (Elt F) → (⟨S4096, .f32⟩ : BufTy).Contents (Elt F)),
    StableHlo.binary main_v114 main_v114 main_v115 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) ]

/-- The host operations after the kernel launch, in order. -/
abbrev opsPost : List (HloOp τ sig (Elt F)) :=
  [ StableHlo.unary main_v116 main_v117 ((extractStridedSlice S8x1x1 ![0, 0, 0] · slices_S8x8x128_S8x1x1_0_0_0) : (⟨S8x8x128, .f32⟩ : BufTy).Contents (Elt F) → (⟨S8x1x1, .f32⟩ : BufTy).Contents (Elt F)),
    StableHlo.reshape main_v117 main_v118 rfl shapeCasts_S8x1x1_S8,
    StableHlo.nullary main_cst_24 (constant S_ .f32 0x00000000#32),
    StableHlo.binary main_v118 main_cst_24 main_v119 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v109 main_v120 ((extf .f32 · bitsLt_bf16_f32) : (⟨S8192x256, .bf16⟩ : BufTy).Contents (Elt F) → (⟨S8192x256, .f32⟩ : BufTy).Contents (Elt F)),
    StableHlo.binary main_v120 main_v120 main_v121 (mulf : (⟨S8192x256, .f32⟩ : BufTy).Contents (Elt F) → (⟨S8192x256, .f32⟩ : BufTy).Contents (Elt F) → (⟨S8192x256, .f32⟩ : BufTy).Contents (Elt F)),
    StableHlo.nullary main_cst_25 (constant S_ .f32 0x00000000#32),
    StableHlo.binary main_v121 main_cst_25 main_v122 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.nullary main_cst_26 (constant S_ .f32 0x3E4CCCCD#32),
    StableHlo.unary main_cst_26 main_v123 (broadcastInDim S8192 ![] bcast_S_S8192 : (⟨S_, .f32⟩ : BufTy).Contents (Elt F) → (⟨S8192, .f32⟩ : BufTy).Contents (Elt F)),
    StableHlo.binary main_v122 main_v123 main_v124 (Host.divf : (⟨S8192, .f32⟩ : BufTy).Contents (Elt F) → (⟨S8192, .f32⟩ : BufTy).Contents (Elt F) → (⟨S8192, .f32⟩ : BufTy).Contents (Elt F)),
    StableHlo.unary main_v124 main_v125 (Host.exp : (⟨S8192, .f32⟩ : BufTy).Contents (Elt F) → (⟨S8192, .f32⟩ : BufTy).Contents (Elt F)),
    StableHlo.binary main_v107 main_v26 main_v126 (mulf : (⟨S8192x100, .f32⟩ : BufTy).Contents (Elt F) → (⟨S8192x100, .f32⟩ : BufTy).Contents (Elt F) → (⟨S8192x100, .f32⟩ : BufTy).Contents (Elt F)),
    StableHlo.nullary main_cst_27 (constant S_ .f32 0x00000000#32),
    StableHlo.binary main_v126 main_cst_27 main_v127 ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)),
    StableHlo.binary main_v125 main_v127 main_v128 (mulf : (⟨S8192, .f32⟩ : BufTy).Contents (Elt F) → (⟨S8192, .f32⟩ : BufTy).Contents (Elt F) → (⟨S8192, .f32⟩ : BufTy).Contents (Elt F)),
    StableHlo.nullary main_cst_28 (constant S_ .f32 0x00000000#32),
    StableHlo.binary main_v128 main_cst_28 main_v129 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v119 main_v129 main_v130 (subf : (⟨S_, .f32⟩ : BufTy).Contents (Elt F) → (⟨S_, .f32⟩ : BufTy).Contents (Elt F) → (⟨S_, .f32⟩ : BufTy).Contents (Elt F)),
    StableHlo.unary main_v130 main_v131 (broadcastInDim S8192 ![] bcast_S_S8192 : (⟨S_, .f32⟩ : BufTy).Contents (Elt F) → (⟨S8192, .f32⟩ : BufTy).Contents (Elt F)),
    StableHlo.binary main_v115 main_v131 main_v132 (Host.divf : (⟨S8192, .f32⟩ : BufTy).Contents (Elt F) → (⟨S8192, .f32⟩ : BufTy).Contents (Elt F) → (⟨S8192, .f32⟩ : BufTy).Contents (Elt F)),
    StableHlo.unary main_v132 main_v133 (Host.log : (⟨S8192, .f32⟩ : BufTy).Contents (Elt F) → (⟨S8192, .f32⟩ : BufTy).Contents (Elt F)),
    StableHlo.unary main_v133 main_v134 (Host.negf : (⟨S8192, .f32⟩ : BufTy).Contents (Elt F) → (⟨S8192, .f32⟩ : BufTy).Contents (Elt F)),
    StableHlo.nullary main_cst_29 (constant S_ .f32 0x00000000#32),
    StableHlo.binary main_v134 main_cst_29 main_v135 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_30 (constant S_ .f32 0x46000000#32),
    StableHlo.binary main_v135 main_cst_30 main_v136 (Host.divf : (⟨S_, .f32⟩ : BufTy).Contents (Elt F) → (⟨S_, .f32⟩ : BufTy).Contents (Elt F) → (⟨S_, .f32⟩ : BufTy).Contents (Elt F)) ]

end Cert.Kernel.Stages

end
-- ==== Proof.KStageRun.lean ====
/- A table, not an argument: for every buffer the host operations write, in program order, that the buffer ends at its stage of
   the table — the operation that writes it, its operands' buffers by the lemmas above it, the stage's definition. The argument is
   Proof/AfterLib.lean's: the line is in single-assignment form, so each buffer is read on its own. -/
import proofs.«427632_j79637283602625_3_alg».proof.Proof.KStages
import proofs.«427632_j79637283602625_3_alg».proof.Proof.Gen.Kernel.Launch
import proofs.«427632_j79637283602625_3_alg».proof.Proof.AfterLib

set_option maxRecDepth 16384

noncomputable section

namespace Cert.Kernel.Hand

open Cert.Kernel Idealize.ShloMosaic Idealize.ShloMosaic.TcCoe Idealize.SL.Sem
open Idealize.ShloMosaic.StableHlo (after)
open Cert.AfterLib

variable {F : FTy → Type} [FloatOps F]

/-! ## The generated lists are the table's -/

theorem flatten_pre : (List.flatten [Gen.hostOps0, Gen.hostOps0_1, Gen.hostOps0_2, Gen.hostOps0_3, Gen.hostOps0_4, Gen.hostOps0_5, Gen.hostOps0_6, Gen.hostOps0_7, Gen.hostOps0_8, Gen.hostOps0_9] : List (HloOp τ sig (Elt F))) = Stages.opsPre := rfl

theorem post_eq : (Gen.hostOps1 : List (HloOp τ sig (Elt F))) = Stages.opsPost := rfl

/-! ## The two lines are in single-assignment form -/

/-- The references the operations before the launch write, in order. -/
abbrev wrPre : List (Ref sig .tc) :=
  [main_call0_v0, main_call0_cst, main_call0_v1, main_call0_v2, main_v0, main_cst, main_v1, main_v2, main_v3, main_v4, main_call1_v0, main_call1_cst, main_call1_v1, main_call1_v2, main_v5, main_cst_0, main_v6, main_v7, main_v8, main_v9, main_v10, main_v11, main_v12, main_v13, main_v14, main_v15, main_v16, main_v17, main_v18, main_c, main_v19, main_v20, main_v21, main_v22, main_v23, main_v24, main_v25, main_v26, main_call2_v0, main_call2_cst, main_call2_v1, main_call2_v2, main_v27, main_cst_1, main_v28, main_v29, main_v30, main_v31, main_v32, main_v33, main_cst_2, main_v34, main_v35, main_cst_3, main_v36, main_v37, main_v38, main_c_4, main_v39, main_v40, main_v41, main_v42, main_v43, main_v44, main_v45, main_cst_5, main_v46, main_v47, main_cst_6, main_call3_v0, main_call3_v1, main_v48, main_cst_7, main_call4_v0, main_call4_v1, main_v49, main_cst_8, main_v50, main_cst_9, main_v51, main_v52, main_cst_10, main_v53, main_cst_11, main_v54, main_v55, main_v56, main_cst_12, main_v57, main_cst_13, main_v58, main_v59, main_v60, main_v61, main_v62, main_v63, main_v64, main_cst_14, main_v65, main_v66, main_v67, main_cst_15, main_v68, main_v69, main_cst_16, main_v70, main_v71, main_v72, main_v73, main_cst_17, main_v74, main_v75, main_v76, main_v77, main_v78, main_v79, main_v80, main_cst_18, main_v81, main_v82, main_v83, main_cst_19, main_v84, main_v85, main_v86, main_v87, main_v88, main_v89, main_v90, main_v91, main_v92, main_v93, main_v94, main_v95, main_v96, main_v97, main_v98, main_v99, main_c_20, main_v100, main_v101, main_c_21, main_v102, main_v103, main_v104, main_v105, main_v106, main_v107, main_v108, main_v109, main_v110, main_cst_22, main_v111, main_cst_23, main_v112, main_v113, main_v114, main_v115]

/-- Operation by operation, that line writes these references. -/
theorem writesPre : Writes (Stages.opsPre (F := F)) wrPre := by
  repeat (first | exact List.Forall₂.nil | refine List.Forall₂.cons rfl ?_)

/-- They are distinct (their places in the signature's table are). -/
theorem nodupPre : wrPre.Nodup := List.Nodup.of_map (fun r => r.idx.val) (by decide +kernel)
theorem main_arg0_not_mem_wrPre : main_arg0 ∉ wrPre := by decide +kernel
theorem main_arg1_not_mem_wrPre : main_arg1 ∉ wrPre := by decide +kernel
theorem main_arg2_not_mem_wrPre : main_arg2 ∉ wrPre := by decide +kernel
theorem main_arg3_not_mem_wrPre : main_arg3 ∉ wrPre := by decide +kernel
theorem main_arg4_not_mem_wrPre : main_arg4 ∉ wrPre := by decide +kernel

/-- The buffer the k-th operation writes, when the line has run. -/
theorem atPre (k : Nat) {op : HloOp τ sig (Elt F)} {y : Ref sig .tc} (hop : (Stages.opsPre (F := F))[k]? = some op) (hy : wrPre[k]? = some y)
    (V : Valuation τ sig (Elt F)) :
    after (Stages.opsPre (F := F)) V (Proc.devRef .tc y) = op.result (after ((Stages.opsPre (F := F)).take k) V) (Proc.devRef .tc y) :=
  after_written writesPre nodupPre k hop hy V
/-- What operation k reads in an earlier operation's buffer is what the whole line leaves there. -/
theorem rdPre (j k : Nat) {a : Ref sig .tc} (hj : wrPre[j]? = some a) (hjk : j < k) (V : Valuation τ sig (Elt F)) :
    after ((Stages.opsPre (F := F)).take k) V (Proc.devRef .tc a) = after (Stages.opsPre (F := F)) V (Proc.devRef .tc a) :=
  after_take_written writesPre nodupPre j k hj hjk V
/-- The line never writes main_arg0. -/
theorem rdPre_main_arg0 (k : Nat) (V : Valuation τ sig (Elt F)) : after ((Stages.opsPre (F := F)).take k) V (Proc.devRef .tc main_arg0) = V (Proc.devRef .tc main_arg0) :=
  after_take_of_not_mem writesPre main_arg0_not_mem_wrPre k V
theorem keepPre_main_arg0 (V : Valuation τ sig (Elt F)) : after (Stages.opsPre (F := F)) V (Proc.devRef .tc main_arg0) = V (Proc.devRef .tc main_arg0) :=
  after_of_not_mem writesPre main_arg0_not_mem_wrPre V
/-- The line never writes main_arg1. -/
theorem rdPre_main_arg1 (k : Nat) (V : Valuation τ sig (Elt F)) : after ((Stages.opsPre (F := F)).take k) V (Proc.devRef .tc main_arg1) = V (Proc.devRef .tc main_arg1) :=
  after_take_of_not_mem writesPre main_arg1_not_mem_wrPre k V
theorem keepPre_main_arg1 (V : Valuation τ sig (Elt F)) : after (Stages.opsPre (F := F)) V (Proc.devRef .tc main_arg1) = V (Proc.devRef .tc main_arg1) :=
  after_of_not_mem writesPre main_arg1_not_mem_wrPre V
/-- The line never writes main_arg2. -/
theorem rdPre_main_arg2 (k : Nat) (V : Valuation τ sig (Elt F)) : after ((Stages.opsPre (F := F)).take k) V (Proc.devRef .tc main_arg2) = V (Proc.devRef .tc main_arg2) :=
  after_take_of_not_mem writesPre main_arg2_not_mem_wrPre k V
theorem keepPre_main_arg2 (V : Valuation τ sig (Elt F)) : after (Stages.opsPre (F := F)) V (Proc.devRef .tc main_arg2) = V (Proc.devRef .tc main_arg2) :=
  after_of_not_mem writesPre main_arg2_not_mem_wrPre V
/-- The line never writes main_arg3. -/
theorem rdPre_main_arg3 (k : Nat) (V : Valuation τ sig (Elt F)) : after ((Stages.opsPre (F := F)).take k) V (Proc.devRef .tc main_arg3) = V (Proc.devRef .tc main_arg3) :=
  after_take_of_not_mem writesPre main_arg3_not_mem_wrPre k V
theorem keepPre_main_arg3 (V : Valuation τ sig (Elt F)) : after (Stages.opsPre (F := F)) V (Proc.devRef .tc main_arg3) = V (Proc.devRef .tc main_arg3) :=
  after_of_not_mem writesPre main_arg3_not_mem_wrPre V
/-- The line never writes main_arg4. -/
theorem rdPre_main_arg4 (k : Nat) (V : Valuation τ sig (Elt F)) : after ((Stages.opsPre (F := F)).take k) V (Proc.devRef .tc main_arg4) = V (Proc.devRef .tc main_arg4) :=
  after_take_of_not_mem writesPre main_arg4_not_mem_wrPre k V
theorem keepPre_main_arg4 (V : Valuation τ sig (Elt F)) : after (Stages.opsPre (F := F)) V (Proc.devRef .tc main_arg4) = V (Proc.devRef .tc main_arg4) :=
  after_of_not_mem writesPre main_arg4_not_mem_wrPre V

/-- The references the operations after the launch write, in order. -/
abbrev wrPost : List (Ref sig .tc) :=
  [main_v117, main_v118, main_cst_24, main_v119, main_v120, main_v121, main_cst_25, main_v122, main_cst_26, main_v123, main_v124, main_v125, main_v126, main_cst_27, main_v127, main_v128, main_cst_28, main_v129, main_v130, main_v131, main_v132, main_v133, main_v134, main_cst_29, main_v135, main_cst_30, main_v136]

/-- Operation by operation, that line writes these references. -/
theorem writesPost : Writes (Stages.opsPost (F := F)) wrPost := by
  repeat (first | exact List.Forall₂.nil | refine List.Forall₂.cons rfl ?_)

/-- They are distinct (their places in the signature's table are). -/
theorem nodupPost : wrPost.Nodup := List.Nodup.of_map (fun r => r.idx.val) (by decide +kernel)
theorem main_arg0_not_mem_wrPost : main_arg0 ∉ wrPost := by decide +kernel
theorem main_arg1_not_mem_wrPost : main_arg1 ∉ wrPost := by decide +kernel
theorem main_arg2_not_mem_wrPost : main_arg2 ∉ wrPost := by decide +kernel
theorem main_arg3_not_mem_wrPost : main_arg3 ∉ wrPost := by decide +kernel
theorem main_arg4_not_mem_wrPost : main_arg4 ∉ wrPost := by decide +kernel
theorem main_v116_not_mem_wrPost : main_v116 ∉ wrPost := by decide +kernel
theorem main_v109_not_mem_wrPost : main_v109 ∉ wrPost := by decide +kernel
theorem main_v107_not_mem_wrPost : main_v107 ∉ wrPost := by decide +kernel
theorem main_v26_not_mem_wrPost : main_v26 ∉ wrPost := by decide +kernel
theorem main_v115_not_mem_wrPost : main_v115 ∉ wrPost := by decide +kernel

/-- The buffer the k-th operation writes, when the line has run. -/
theorem atPost (k : Nat) {op : HloOp τ sig (Elt F)} {y : Ref sig .tc} (hop : (Stages.opsPost (F := F))[k]? = some op) (hy : wrPost[k]? = some y)
    (V : Valuation τ sig (Elt F)) :
    after (Stages.opsPost (F := F)) V (Proc.devRef .tc y) = op.result (after ((Stages.opsPost (F := F)).take k) V) (Proc.devRef .tc y) :=
  after_written writesPost nodupPost k hop hy V
/-- What operation k reads in an earlier operation's buffer is what the whole line leaves there. -/
theorem rdPost (j k : Nat) {a : Ref sig .tc} (hj : wrPost[j]? = some a) (hjk : j < k) (V : Valuation τ sig (Elt F)) :
    after ((Stages.opsPost (F := F)).take k) V (Proc.devRef .tc a) = after (Stages.opsPost (F := F)) V (Proc.devRef .tc a) :=
  after_take_written writesPost nodupPost j k hj hjk V
/-- The line never writes main_arg0. -/
theorem rdPost_main_arg0 (k : Nat) (V : Valuation τ sig (Elt F)) : after ((Stages.opsPost (F := F)).take k) V (Proc.devRef .tc main_arg0) = V (Proc.devRef .tc main_arg0) :=
  after_take_of_not_mem writesPost main_arg0_not_mem_wrPost k V
theorem keepPost_main_arg0 (V : Valuation τ sig (Elt F)) : after (Stages.opsPost (F := F)) V (Proc.devRef .tc main_arg0) = V (Proc.devRef .tc main_arg0) :=
  after_of_not_mem writesPost main_arg0_not_mem_wrPost V
/-- The line never writes main_arg1. -/
theorem rdPost_main_arg1 (k : Nat) (V : Valuation τ sig (Elt F)) : after ((Stages.opsPost (F := F)).take k) V (Proc.devRef .tc main_arg1) = V (Proc.devRef .tc main_arg1) :=
  after_take_of_not_mem writesPost main_arg1_not_mem_wrPost k V
theorem keepPost_main_arg1 (V : Valuation τ sig (Elt F)) : after (Stages.opsPost (F := F)) V (Proc.devRef .tc main_arg1) = V (Proc.devRef .tc main_arg1) :=
  after_of_not_mem writesPost main_arg1_not_mem_wrPost V
/-- The line never writes main_arg2. -/
theorem rdPost_main_arg2 (k : Nat) (V : Valuation τ sig (Elt F)) : after ((Stages.opsPost (F := F)).take k) V (Proc.devRef .tc main_arg2) = V (Proc.devRef .tc main_arg2) :=
  after_take_of_not_mem writesPost main_arg2_not_mem_wrPost k V
theorem keepPost_main_arg2 (V : Valuation τ sig (Elt F)) : after (Stages.opsPost (F := F)) V (Proc.devRef .tc main_arg2) = V (Proc.devRef .tc main_arg2) :=
  after_of_not_mem writesPost main_arg2_not_mem_wrPost V
/-- The line never writes main_arg3. -/
theorem rdPost_main_arg3 (k : Nat) (V : Valuation τ sig (Elt F)) : after ((Stages.opsPost (F := F)).take k) V (Proc.devRef .tc main_arg3) = V (Proc.devRef .tc main_arg3) :=
  after_take_of_not_mem writesPost main_arg3_not_mem_wrPost k V
theorem keepPost_main_arg3 (V : Valuation τ sig (Elt F)) : after (Stages.opsPost (F := F)) V (Proc.devRef .tc main_arg3) = V (Proc.devRef .tc main_arg3) :=
  after_of_not_mem writesPost main_arg3_not_mem_wrPost V
/-- The line never writes main_arg4. -/
theorem rdPost_main_arg4 (k : Nat) (V : Valuation τ sig (Elt F)) : after ((Stages.opsPost (F := F)).take k) V (Proc.devRef .tc main_arg4) = V (Proc.devRef .tc main_arg4) :=
  after_take_of_not_mem writesPost main_arg4_not_mem_wrPost k V
theorem keepPost_main_arg4 (V : Valuation τ sig (Elt F)) : after (Stages.opsPost (F := F)) V (Proc.devRef .tc main_arg4) = V (Proc.devRef .tc main_arg4) :=
  after_of_not_mem writesPost main_arg4_not_mem_wrPost V
/-- The line never writes main_v116. -/
theorem rdPost_main_v116 (k : Nat) (V : Valuation τ sig (Elt F)) : after ((Stages.opsPost (F := F)).take k) V (Proc.devRef .tc main_v116) = V (Proc.devRef .tc main_v116) :=
  after_take_of_not_mem writesPost main_v116_not_mem_wrPost k V
theorem keepPost_main_v116 (V : Valuation τ sig (Elt F)) : after (Stages.opsPost (F := F)) V (Proc.devRef .tc main_v116) = V (Proc.devRef .tc main_v116) :=
  after_of_not_mem writesPost main_v116_not_mem_wrPost V
/-- The line never writes main_v109. -/
theorem rdPost_main_v109 (k : Nat) (V : Valuation τ sig (Elt F)) : after ((Stages.opsPost (F := F)).take k) V (Proc.devRef .tc main_v109) = V (Proc.devRef .tc main_v109) :=
  after_take_of_not_mem writesPost main_v109_not_mem_wrPost k V
theorem keepPost_main_v109 (V : Valuation τ sig (Elt F)) : after (Stages.opsPost (F := F)) V (Proc.devRef .tc main_v109) = V (Proc.devRef .tc main_v109) :=
  after_of_not_mem writesPost main_v109_not_mem_wrPost V
/-- The line never writes main_v107. -/
theorem rdPost_main_v107 (k : Nat) (V : Valuation τ sig (Elt F)) : after ((Stages.opsPost (F := F)).take k) V (Proc.devRef .tc main_v107) = V (Proc.devRef .tc main_v107) :=
  after_take_of_not_mem writesPost main_v107_not_mem_wrPost k V
theorem keepPost_main_v107 (V : Valuation τ sig (Elt F)) : after (Stages.opsPost (F := F)) V (Proc.devRef .tc main_v107) = V (Proc.devRef .tc main_v107) :=
  after_of_not_mem writesPost main_v107_not_mem_wrPost V
/-- The line never writes main_v26. -/
theorem rdPost_main_v26 (k : Nat) (V : Valuation τ sig (Elt F)) : after ((Stages.opsPost (F := F)).take k) V (Proc.devRef .tc main_v26) = V (Proc.devRef .tc main_v26) :=
  after_take_of_not_mem writesPost main_v26_not_mem_wrPost k V
theorem keepPost_main_v26 (V : Valuation τ sig (Elt F)) : after (Stages.opsPost (F := F)) V (Proc.devRef .tc main_v26) = V (Proc.devRef .tc main_v26) :=
  after_of_not_mem writesPost main_v26_not_mem_wrPost V
/-- The line never writes main_v115. -/
theorem rdPost_main_v115 (k : Nat) (V : Valuation τ sig (Elt F)) : after ((Stages.opsPost (F := F)).take k) V (Proc.devRef .tc main_v115) = V (Proc.devRef .tc main_v115) :=
  after_take_of_not_mem writesPost main_v115_not_mem_wrPost k V
theorem keepPost_main_v115 (V : Valuation τ sig (Elt F)) : after (Stages.opsPost (F := F)) V (Proc.devRef .tc main_v115) = V (Proc.devRef .tc main_v115) :=
  after_of_not_mem writesPost main_v115_not_mem_wrPost V

/-! ## Before the launch: every written buffer is its stage of the argument arrays -/

theorem pre_main_call0_v0 (V : Valuation τ sig (Elt F)) : after (Stages.opsPre (F := F)) V (Proc.devRef .tc main_call0_v0) = Stages.res_main_call0_v0 (V (Proc.devRef .tc main_arg0)) (V (Proc.devRef .tc main_arg1)) (V (Proc.devRef .tc main_arg2)) (V (Proc.devRef .tc main_arg3)) (V (Proc.devRef .tc main_arg4)) := by
  stage_at atPre 0 StableHlo.binary_result [rdPre_main_arg0 0 V]
theorem pre_main_call0_cst (V : Valuation τ sig (Elt F)) : after (Stages.opsPre (F := F)) V (Proc.devRef .tc main_call0_cst) = Stages.res_main_call0_cst (V (Proc.devRef .tc main_arg0)) (V (Proc.devRef .tc main_arg1)) (V (Proc.devRef .tc main_arg2)) (V (Proc.devRef .tc main_arg3)) (V (Proc.devRef .tc main_arg4)) := by
  stage_at atPre 1 StableHlo.nullary_result []
theorem pre_main_call0_v1 (V : Valuation τ sig (Elt F)) : after (Stages.opsPre (F := F)) V (Proc.devRef .tc main_call0_v1) = Stages.res_main_call0_v1 (V (Proc.devRef .tc main_arg0)) (V (Proc.devRef .tc main_arg1)) (V (Proc.devRef .tc main_arg2)) (V (Proc.devRef .tc main_arg3)) (V (Proc.devRef .tc main_arg4)) := by
  stage_at atPre 2 StableHlo.binary_result [(rdPre 0 2 rfl (by decide) V).trans (pre_main_call0_v0 V), (rdPre 1 2 rfl (by decide) V).trans (pre_main_call0_cst V)]
theorem pre_main_call0_v2 (V : Valuation τ sig (Elt F)) : after (Stages.opsPre (F := F)) V (Proc.devRef .tc main_call0_v2) = Stages.res_main_call0_v2 (V (Proc.devRef .tc main_arg0)) (V (Proc.devRef .tc main_arg1)) (V (Proc.devRef .tc main_arg2)) (V (Proc.devRef .tc main_arg3)) (V (Proc.devRef .tc main_arg4)) := by
  stage_at atPre 3 StableHlo.unary_result [(rdPre 2 3 rfl (by decide) V).trans (pre_main_call0_v1 V)]
theorem pre_main_v0 (V : Valuation τ sig (Elt F)) : after (Stages.opsPre (F := F)) V (Proc.devRef .tc main_v0) = Stages.res_main_v0 (V (Proc.devRef .tc main_arg0)) (V (Proc.devRef .tc main_arg1)) (V (Proc.devRef .tc main_arg2)) (V (Proc.devRef .tc main_arg3)) (V (Proc.devRef .tc main_arg4)) := by
  stage_at atPre 4 StableHlo.unary_result [(rdPre 3 4 rfl (by decide) V).trans (pre_main_call0_v2 V)]
theorem pre_main_cst (V : Valuation τ sig (Elt F)) : after (Stages.opsPre (F := F)) V (Proc.devRef .tc main_cst) = Stages.res_main_cst (V (Proc.devRef .tc main_arg0)) (V (Proc.devRef .tc main_arg1)) (V (Proc.devRef .tc main_arg2)) (V (Proc.devRef .tc main_arg3)) (V (Proc.devRef .tc main_arg4)) := by
  stage_at atPre 5 StableHlo.nullary_result []
theorem pre_main_v1 (V : Valuation τ sig (Elt F)) : after (Stages.opsPre (F := F)) V (Proc.devRef .tc main_v1) = Stages.res_main_v1 (V (Proc.devRef .tc main_arg0)) (V (Proc.devRef .tc main_arg1)) (V (Proc.devRef .tc main_arg2)) (V (Proc.devRef .tc main_arg3)) (V (Proc.devRef .tc main_arg4)) := by
  stage_at atPre 6 StableHlo.unary_result [(rdPre 5 6 rfl (by decide) V).trans (pre_main_cst V)]
theorem pre_main_v2 (V : Valuation τ sig (Elt F)) : after (Stages.opsPre (F := F)) V (Proc.devRef .tc main_v2) = Stages.res_main_v2 (V (Proc.devRef .tc main_arg0)) (V (Proc.devRef .tc main_arg1)) (V (Proc.devRef .tc main_arg2)) (V (Proc.devRef .tc main_arg3)) (V (Proc.devRef .tc main_arg4)) := by
  stage_at atPre 7 StableHlo.binary_result [(rdPre 4 7 rfl (by decide) V).trans (pre_main_v0 V), (rdPre 6 7 rfl (by decide) V).trans (pre_main_v1 V)]
theorem pre_main_v3 (V : Valuation τ sig (Elt F)) : after (Stages.opsPre (F := F)) V (Proc.devRef .tc main_v3) = Stages.res_main_v3 (V (Proc.devRef .tc main_arg0)) (V (Proc.devRef .tc main_arg1)) (V (Proc.devRef .tc main_arg2)) (V (Proc.devRef .tc main_arg3)) (V (Proc.devRef .tc main_arg4)) := by
  stage_at atPre 8 StableHlo.unary_result [(rdPre 7 8 rfl (by decide) V).trans (pre_main_v2 V)]
theorem pre_main_v4 (V : Valuation τ sig (Elt F)) : after (Stages.opsPre (F := F)) V (Proc.devRef .tc main_v4) = Stages.res_main_v4 (V (Proc.devRef .tc main_arg0)) (V (Proc.devRef .tc main_arg1)) (V (Proc.devRef .tc main_arg2)) (V (Proc.devRef .tc main_arg3)) (V (Proc.devRef .tc main_arg4)) := by
  stage_at atPre 9 StableHlo.binary_result [rdPre_main_arg0 9 V, (rdPre 8 9 rfl (by decide) V).trans (pre_main_v3 V)]
theorem pre_main_call1_v0 (V : Valuation τ sig (Elt F)) : after (Stages.opsPre (F := F)) V (Proc.devRef .tc main_call1_v0) = Stages.res_main_call1_v0 (V (Proc.devRef .tc main_arg0)) (V (Proc.devRef .tc main_arg1)) (V (Proc.devRef .tc main_arg2)) (V (Proc.devRef .tc main_arg3)) (V (Proc.devRef .tc main_arg4)) := by
  stage_at atPre 10 StableHlo.binary_result [rdPre_main_arg1 10 V]
theorem pre_main_call1_cst (V : Valuation τ sig (Elt F)) : after (Stages.opsPre (F := F)) V (Proc.devRef .tc main_call1_cst) = Stages.res_main_call1_cst (V (Proc.devRef .tc main_arg0)) (V (Proc.devRef .tc main_arg1)) (V (Proc.devRef .tc main_arg2)) (V (Proc.devRef .tc main_arg3)) (V (Proc.devRef .tc main_arg4)) := by
  stage_at atPre 11 StableHlo.nullary_result []
theorem pre_main_call1_v1 (V : Valuation τ sig (Elt F)) : after (Stages.opsPre (F := F)) V (Proc.devRef .tc main_call1_v1) = Stages.res_main_call1_v1 (V (Proc.devRef .tc main_arg0)) (V (Proc.devRef .tc main_arg1)) (V (Proc.devRef .tc main_arg2)) (V (Proc.devRef .tc main_arg3)) (V (Proc.devRef .tc main_arg4)) := by
  stage_at atPre 12 StableHlo.binary_result [(rdPre 10 12 rfl (by decide) V).trans (pre_main_call1_v0 V), (rdPre 11 12 rfl (by decide) V).trans (pre_main_call1_cst V)]
theorem pre_main_call1_v2 (V : Valuation τ sig (Elt F)) : after (Stages.opsPre (F := F)) V (Proc.devRef .tc main_call1_v2) = Stages.res_main_call1_v2 (V (Proc.devRef .tc main_arg0)) (V (Proc.devRef .tc main_arg1)) (V (Proc.devRef .tc main_arg2)) (V (Proc.devRef .tc main_arg3)) (V (Proc.devRef .tc main_arg4)) := by
  stage_at atPre 13 StableHlo.unary_result [(rdPre 12 13 rfl (by decide) V).trans (pre_main_call1_v1 V)]
theorem pre_main_v5 (V : Valuation τ sig (Elt F)) : after (Stages.opsPre (F := F)) V (Proc.devRef .tc main_v5) = Stages.res_main_v5 (V (Proc.devRef .tc main_arg0)) (V (Proc.devRef .tc main_arg1)) (V (Proc.devRef .tc main_arg2)) (V (Proc.devRef .tc main_arg3)) (V (Proc.devRef .tc main_arg4)) := by
  stage_at atPre 14 StableHlo.unary_result [(rdPre 13 14 rfl (by decide) V).trans (pre_main_call1_v2 V)]
theorem pre_main_cst_0 (V : Valuation τ sig (Elt F)) : after (Stages.opsPre (F := F)) V (Proc.devRef .tc main_cst_0) = Stages.res_main_cst_0 (V (Proc.devRef .tc main_arg0)) (V (Proc.devRef .tc main_arg1)) (V (Proc.devRef .tc main_arg2)) (V (Proc.devRef .tc main_arg3)) (V (Proc.devRef .tc main_arg4)) := by
  stage_at atPre 15 StableHlo.nullary_result []
theorem pre_main_v6 (V : Valuation τ sig (Elt F)) : after (Stages.opsPre (F := F)) V (Proc.devRef .tc main_v6) = Stages.res_main_v6 (V (Proc.devRef .tc main_arg0)) (V (Proc.devRef .tc main_arg1)) (V (Proc.devRef .tc main_arg2)) (V (Proc.devRef .tc main_arg3)) (V (Proc.devRef .tc main_arg4)) := by
  stage_at atPre 16 StableHlo.unary_result [(rdPre 15 16 rfl (by decide) V).trans (pre_main_cst_0 V)]
theorem pre_main_v7 (V : Valuation τ sig (Elt F)) : after (Stages.opsPre (F := F)) V (Proc.devRef .tc main_v7) = Stages.res_main_v7 (V (Proc.devRef .tc main_arg0)) (V (Proc.devRef .tc main_arg1)) (V (Proc.devRef .tc main_arg2)) (V (Proc.devRef .tc main_arg3)) (V (Proc.devRef .tc main_arg4)) := by
  stage_at atPre 17 StableHlo.binary_result [(rdPre 14 17 rfl (by decide) V).trans (pre_main_v5 V), (rdPre 16 17 rfl (by decide) V).trans (pre_main_v6 V)]
theorem pre_main_v8 (V : Valuation τ sig (Elt F)) : after (Stages.opsPre (F := F)) V (Proc.devRef .tc main_v8) = Stages.res_main_v8 (V (Proc.devRef .tc main_arg0)) (V (Proc.devRef .tc main_arg1)) (V (Proc.devRef .tc main_arg2)) (V (Proc.devRef .tc main_arg3)) (V (Proc.devRef .tc main_arg4)) := by
  stage_at atPre 18 StableHlo.unary_result [(rdPre 17 18 rfl (by decide) V).trans (pre_main_v7 V)]
theorem pre_main_v9 (V : Valuation τ sig (Elt F)) : after (Stages.opsPre (F := F)) V (Proc.devRef .tc main_v9) = Stages.res_main_v9 (V (Proc.devRef .tc main_arg0)) (V (Proc.devRef .tc main_arg1)) (V (Proc.devRef .tc main_arg2)) (V (Proc.devRef .tc main_arg3)) (V (Proc.devRef .tc main_arg4)) := by
  stage_at atPre 19 StableHlo.binary_result [rdPre_main_arg1 19 V, (rdPre 18 19 rfl (by decide) V).trans (pre_main_v8 V)]
theorem pre_main_v10 (V : Valuation τ sig (Elt F)) : after (Stages.opsPre (F := F)) V (Proc.devRef .tc main_v10) = Stages.res_main_v10 (V (Proc.devRef .tc main_arg0)) (V (Proc.devRef .tc main_arg1)) (V (Proc.devRef .tc main_arg2)) (V (Proc.devRef .tc main_arg3)) (V (Proc.devRef .tc main_arg4)) := by
  stage_at atPre 20 StableHlo.binary_result [(rdPre 9 20 rfl (by decide) V).trans (pre_main_v4 V), (rdPre 19 20 rfl (by decide) V).trans (pre_main_v9 V)]
theorem pre_main_v11 (V : Valuation τ sig (Elt F)) : after (Stages.opsPre (F := F)) V (Proc.devRef .tc main_v11) = Stages.res_main_v11 (V (Proc.devRef .tc main_arg0)) (V (Proc.devRef .tc main_arg1)) (V (Proc.devRef .tc main_arg2)) (V (Proc.devRef .tc main_arg3)) (V (Proc.devRef .tc main_arg4)) := by
  stage_at atPre 21 StableHlo.reshape_result [rdPre_main_arg3 21 V]
theorem pre_main_v12 (V : Valuation τ sig (Elt F)) : after (Stages.opsPre (F := F)) V (Proc.devRef .tc main_v12) = Stages.res_main_v12 (V (Proc.devRef .tc main_arg0)) (V (Proc.devRef .tc main_arg1)) (V (Proc.devRef .tc main_arg2)) (V (Proc.devRef .tc main_arg3)) (V (Proc.devRef .tc main_arg4)) := by
  stage_at atPre 22 StableHlo.reshape_result [rdPre_main_arg4 22 V]
theorem pre_main_v13 (V : Valuation τ sig (Elt F)) : after (Stages.opsPre (F := F)) V (Proc.devRef .tc main_v13) = Stages.res_main_v13 (V (Proc.devRef .tc main_arg0)) (V (Proc.devRef .tc main_arg1)) (V (Proc.devRef .tc main_arg2)) (V (Proc.devRef .tc main_arg3)) (V (Proc.devRef .tc main_arg4)) := by
  stage_at atPre 23 StableHlo.nullary_result []
theorem pre_main_v14 (V : Valuation τ sig (Elt F)) : after (Stages.opsPre (F := F)) V (Proc.devRef .tc main_v14) = Stages.res_main_v14 (V (Proc.devRef .tc main_arg0)) (V (Proc.devRef .tc main_arg1)) (V (Proc.devRef .tc main_arg2)) (V (Proc.devRef .tc main_arg3)) (V (Proc.devRef .tc main_arg4)) := by
  stage_at atPre 24 StableHlo.unary_result [(rdPre 22 24 rfl (by decide) V).trans (pre_main_v12 V)]
theorem pre_main_v15 (V : Valuation τ sig (Elt F)) : after (Stages.opsPre (F := F)) V (Proc.devRef .tc main_v15) = Stages.res_main_v15 (V (Proc.devRef .tc main_arg0)) (V (Proc.devRef .tc main_arg1)) (V (Proc.devRef .tc main_arg2)) (V (Proc.devRef .tc main_arg3)) (V (Proc.devRef .tc main_arg4)) := by
  stage_at atPre 25 StableHlo.unary_result [(rdPre 23 25 rfl (by decide) V).trans (pre_main_v13 V)]
theorem pre_main_v16 (V : Valuation τ sig (Elt F)) : after (Stages.opsPre (F := F)) V (Proc.devRef .tc main_v16) = Stages.res_main_v16 (V (Proc.devRef .tc main_arg0)) (V (Proc.devRef .tc main_arg1)) (V (Proc.devRef .tc main_arg2)) (V (Proc.devRef .tc main_arg3)) (V (Proc.devRef .tc main_arg4)) := by
  stage_at atPre 26 StableHlo.unary_result [(rdPre 24 26 rfl (by decide) V).trans (pre_main_v14 V)]
theorem pre_main_v17 (V : Valuation τ sig (Elt F)) : after (Stages.opsPre (F := F)) V (Proc.devRef .tc main_v17) = Stages.res_main_v17 (V (Proc.devRef .tc main_arg0)) (V (Proc.devRef .tc main_arg1)) (V (Proc.devRef .tc main_arg2)) (V (Proc.devRef .tc main_arg3)) (V (Proc.devRef .tc main_arg4)) := by
  stage_at atPre 27 StableHlo.unary_result [(rdPre 25 27 rfl (by decide) V).trans (pre_main_v15 V)]
theorem pre_main_v18 (V : Valuation τ sig (Elt F)) : after (Stages.opsPre (F := F)) V (Proc.devRef .tc main_v18) = Stages.res_main_v18 (V (Proc.devRef .tc main_arg0)) (V (Proc.devRef .tc main_arg1)) (V (Proc.devRef .tc main_arg2)) (V (Proc.devRef .tc main_arg3)) (V (Proc.devRef .tc main_arg4)) := by
  stage_at atPre 28 StableHlo.binary_result [(rdPre 26 28 rfl (by decide) V).trans (pre_main_v16 V), (rdPre 27 28 rfl (by decide) V).trans (pre_main_v17 V)]
theorem pre_main_c (V : Valuation τ sig (Elt F)) : after (Stages.opsPre (F := F)) V (Proc.devRef .tc main_c) = Stages.res_main_c (V (Proc.devRef .tc main_arg0)) (V (Proc.devRef .tc main_arg1)) (V (Proc.devRef .tc main_arg2)) (V (Proc.devRef .tc main_arg3)) (V (Proc.devRef .tc main_arg4)) := by
  stage_at atPre 29 StableHlo.nullary_result []
theorem pre_main_v19 (V : Valuation τ sig (Elt F)) : after (Stages.opsPre (F := F)) V (Proc.devRef .tc main_v19) = Stages.res_main_v19 (V (Proc.devRef .tc main_arg0)) (V (Proc.devRef .tc main_arg1)) (V (Proc.devRef .tc main_arg2)) (V (Proc.devRef .tc main_arg3)) (V (Proc.devRef .tc main_arg4)) := by
  stage_at atPre 30 StableHlo.binary_result [(rdPre 28 30 rfl (by decide) V).trans (pre_main_v18 V), (rdPre 29 30 rfl (by decide) V).trans (pre_main_c V)]
theorem pre_main_v20 (V : Valuation τ sig (Elt F)) : after (Stages.opsPre (F := F)) V (Proc.devRef .tc main_v20) = Stages.res_main_v20 (V (Proc.devRef .tc main_arg0)) (V (Proc.devRef .tc main_arg1)) (V (Proc.devRef .tc main_arg2)) (V (Proc.devRef .tc main_arg3)) (V (Proc.devRef .tc main_arg4)) := by
  stage_at atPre 31 StableHlo.unary_result [(rdPre 30 31 rfl (by decide) V).trans (pre_main_v19 V)]
theorem pre_main_v21 (V : Valuation τ sig (Elt F)) : after (Stages.opsPre (F := F)) V (Proc.devRef .tc main_v21) = Stages.res_main_v21 (V (Proc.devRef .tc main_arg0)) (V (Proc.devRef .tc main_arg1)) (V (Proc.devRef .tc main_arg2)) (V (Proc.devRef .tc main_arg3)) (V (Proc.devRef .tc main_arg4)) := by
  stage_at atPre 32 StableHlo.unary_result [(rdPre 21 32 rfl (by decide) V).trans (pre_main_v11 V)]
theorem pre_main_v22 (V : Valuation τ sig (Elt F)) : after (Stages.opsPre (F := F)) V (Proc.devRef .tc main_v22) = Stages.res_main_v22 (V (Proc.devRef .tc main_arg0)) (V (Proc.devRef .tc main_arg1)) (V (Proc.devRef .tc main_arg2)) (V (Proc.devRef .tc main_arg3)) (V (Proc.devRef .tc main_arg4)) := by
  stage_at atPre 33 StableHlo.unary_result [(rdPre 23 33 rfl (by decide) V).trans (pre_main_v13 V)]
theorem pre_main_v23 (V : Valuation τ sig (Elt F)) : after (Stages.opsPre (F := F)) V (Proc.devRef .tc main_v23) = Stages.res_main_v23 (V (Proc.devRef .tc main_arg0)) (V (Proc.devRef .tc main_arg1)) (V (Proc.devRef .tc main_arg2)) (V (Proc.devRef .tc main_arg3)) (V (Proc.devRef .tc main_arg4)) := by
  stage_at atPre 34 StableHlo.unary_result [(rdPre 32 34 rfl (by decide) V).trans (pre_main_v21 V)]
theorem pre_main_v24 (V : Valuation τ sig (Elt F)) : after (Stages.opsPre (F := F)) V (Proc.devRef .tc main_v24) = Stages.res_main_v24 (V (Proc.devRef .tc main_arg0)) (V (Proc.devRef .tc main_arg1)) (V (Proc.devRef .tc main_arg2)) (V (Proc.devRef .tc main_arg3)) (V (Proc.devRef .tc main_arg4)) := by
  stage_at atPre 35 StableHlo.unary_result [(rdPre 33 35 rfl (by decide) V).trans (pre_main_v22 V)]
theorem pre_main_v25 (V : Valuation τ sig (Elt F)) : after (Stages.opsPre (F := F)) V (Proc.devRef .tc main_v25) = Stages.res_main_v25 (V (Proc.devRef .tc main_arg0)) (V (Proc.devRef .tc main_arg1)) (V (Proc.devRef .tc main_arg2)) (V (Proc.devRef .tc main_arg3)) (V (Proc.devRef .tc main_arg4)) := by
  stage_at atPre 36 StableHlo.binary_result [(rdPre 34 36 rfl (by decide) V).trans (pre_main_v23 V), (rdPre 35 36 rfl (by decide) V).trans (pre_main_v24 V)]
theorem pre_main_v26 (V : Valuation τ sig (Elt F)) : after (Stages.opsPre (F := F)) V (Proc.devRef .tc main_v26) = Stages.res_main_v26 (V (Proc.devRef .tc main_arg0)) (V (Proc.devRef .tc main_arg1)) (V (Proc.devRef .tc main_arg2)) (V (Proc.devRef .tc main_arg3)) (V (Proc.devRef .tc main_arg4)) := by
  stage_at atPre 37 StableHlo.unary_result [(rdPre 36 37 rfl (by decide) V).trans (pre_main_v25 V)]
theorem pre_main_call2_v0 (V : Valuation τ sig (Elt F)) : after (Stages.opsPre (F := F)) V (Proc.devRef .tc main_call2_v0) = Stages.res_main_call2_v0 (V (Proc.devRef .tc main_arg0)) (V (Proc.devRef .tc main_arg1)) (V (Proc.devRef .tc main_arg2)) (V (Proc.devRef .tc main_arg3)) (V (Proc.devRef .tc main_arg4)) := by
  stage_at atPre 38 StableHlo.binary_result [rdPre_main_arg2 38 V]
theorem pre_main_call2_cst (V : Valuation τ sig (Elt F)) : after (Stages.opsPre (F := F)) V (Proc.devRef .tc main_call2_cst) = Stages.res_main_call2_cst (V (Proc.devRef .tc main_arg0)) (V (Proc.devRef .tc main_arg1)) (V (Proc.devRef .tc main_arg2)) (V (Proc.devRef .tc main_arg3)) (V (Proc.devRef .tc main_arg4)) := by
  stage_at atPre 39 StableHlo.nullary_result []
theorem pre_main_call2_v1 (V : Valuation τ sig (Elt F)) : after (Stages.opsPre (F := F)) V (Proc.devRef .tc main_call2_v1) = Stages.res_main_call2_v1 (V (Proc.devRef .tc main_arg0)) (V (Proc.devRef .tc main_arg1)) (V (Proc.devRef .tc main_arg2)) (V (Proc.devRef .tc main_arg3)) (V (Proc.devRef .tc main_arg4)) := by
  stage_at atPre 40 StableHlo.binary_result [(rdPre 38 40 rfl (by decide) V).trans (pre_main_call2_v0 V), (rdPre 39 40 rfl (by decide) V).trans (pre_main_call2_cst V)]
theorem pre_main_call2_v2 (V : Valuation τ sig (Elt F)) : after (Stages.opsPre (F := F)) V (Proc.devRef .tc main_call2_v2) = Stages.res_main_call2_v2 (V (Proc.devRef .tc main_arg0)) (V (Proc.devRef .tc main_arg1)) (V (Proc.devRef .tc main_arg2)) (V (Proc.devRef .tc main_arg3)) (V (Proc.devRef .tc main_arg4)) := by
  stage_at atPre 41 StableHlo.unary_result [(rdPre 40 41 rfl (by decide) V).trans (pre_main_call2_v1 V)]
theorem pre_main_v27 (V : Valuation τ sig (Elt F)) : after (Stages.opsPre (F := F)) V (Proc.devRef .tc main_v27) = Stages.res_main_v27 (V (Proc.devRef .tc main_arg0)) (V (Proc.devRef .tc main_arg1)) (V (Proc.devRef .tc main_arg2)) (V (Proc.devRef .tc main_arg3)) (V (Proc.devRef .tc main_arg4)) := by
  stage_at atPre 42 StableHlo.unary_result [(rdPre 41 42 rfl (by decide) V).trans (pre_main_call2_v2 V)]
theorem pre_main_cst_1 (V : Valuation τ sig (Elt F)) : after (Stages.opsPre (F := F)) V (Proc.devRef .tc main_cst_1) = Stages.res_main_cst_1 (V (Proc.devRef .tc main_arg0)) (V (Proc.devRef .tc main_arg1)) (V (Proc.devRef .tc main_arg2)) (V (Proc.devRef .tc main_arg3)) (V (Proc.devRef .tc main_arg4)) := by
  stage_at atPre 43 StableHlo.nullary_result []
theorem pre_main_v28 (V : Valuation τ sig (Elt F)) : after (Stages.opsPre (F := F)) V (Proc.devRef .tc main_v28) = Stages.res_main_v28 (V (Proc.devRef .tc main_arg0)) (V (Proc.devRef .tc main_arg1)) (V (Proc.devRef .tc main_arg2)) (V (Proc.devRef .tc main_arg3)) (V (Proc.devRef .tc main_arg4)) := by
  stage_at atPre 44 StableHlo.unary_result [(rdPre 43 44 rfl (by decide) V).trans (pre_main_cst_1 V)]
theorem pre_main_v29 (V : Valuation τ sig (Elt F)) : after (Stages.opsPre (F := F)) V (Proc.devRef .tc main_v29) = Stages.res_main_v29 (V (Proc.devRef .tc main_arg0)) (V (Proc.devRef .tc main_arg1)) (V (Proc.devRef .tc main_arg2)) (V (Proc.devRef .tc main_arg3)) (V (Proc.devRef .tc main_arg4)) := by
  stage_at atPre 45 StableHlo.binary_result [(rdPre 42 45 rfl (by decide) V).trans (pre_main_v27 V), (rdPre 44 45 rfl (by decide) V).trans (pre_main_v28 V)]
theorem pre_main_v30 (V : Valuation τ sig (Elt F)) : after (Stages.opsPre (F := F)) V (Proc.devRef .tc main_v30) = Stages.res_main_v30 (V (Proc.devRef .tc main_arg0)) (V (Proc.devRef .tc main_arg1)) (V (Proc.devRef .tc main_arg2)) (V (Proc.devRef .tc main_arg3)) (V (Proc.devRef .tc main_arg4)) := by
  stage_at atPre 46 StableHlo.unary_result [(rdPre 45 46 rfl (by decide) V).trans (pre_main_v29 V)]
theorem pre_main_v31 (V : Valuation τ sig (Elt F)) : after (Stages.opsPre (F := F)) V (Proc.devRef .tc main_v31) = Stages.res_main_v31 (V (Proc.devRef .tc main_arg0)) (V (Proc.devRef .tc main_arg1)) (V (Proc.devRef .tc main_arg2)) (V (Proc.devRef .tc main_arg3)) (V (Proc.devRef .tc main_arg4)) := by
  stage_at atPre 47 StableHlo.binary_result [rdPre_main_arg2 47 V, (rdPre 46 47 rfl (by decide) V).trans (pre_main_v30 V)]
theorem pre_main_v32 (V : Valuation τ sig (Elt F)) : after (Stages.opsPre (F := F)) V (Proc.devRef .tc main_v32) = Stages.res_main_v32 (V (Proc.devRef .tc main_arg0)) (V (Proc.devRef .tc main_arg1)) (V (Proc.devRef .tc main_arg2)) (V (Proc.devRef .tc main_arg3)) (V (Proc.devRef .tc main_arg4)) := by
  stage_at atPre 48 StableHlo.unary_result [(rdPre 47 48 rfl (by decide) V).trans (pre_main_v31 V)]
theorem pre_main_v33 (V : Valuation τ sig (Elt F)) : after (Stages.opsPre (F := F)) V (Proc.devRef .tc main_v33) = Stages.res_main_v33 (V (Proc.devRef .tc main_arg0)) (V (Proc.devRef .tc main_arg1)) (V (Proc.devRef .tc main_arg2)) (V (Proc.devRef .tc main_arg3)) (V (Proc.devRef .tc main_arg4)) := by
  stage_at atPre 49 StableHlo.binary_result [(rdPre 47 49 rfl (by decide) V).trans (pre_main_v31 V), (rdPre 48 49 rfl (by decide) V).trans (pre_main_v32 V)]
theorem pre_main_cst_2 (V : Valuation τ sig (Elt F)) : after (Stages.opsPre (F := F)) V (Proc.devRef .tc main_cst_2) = Stages.res_main_cst_2 (V (Proc.devRef .tc main_arg0)) (V (Proc.devRef .tc main_arg1)) (V (Proc.devRef .tc main_arg2)) (V (Proc.devRef .tc main_arg3)) (V (Proc.devRef .tc main_arg4)) := by
  stage_at atPre 50 StableHlo.nullary_result []
theorem pre_main_v34 (V : Valuation τ sig (Elt F)) : after (Stages.opsPre (F := F)) V (Proc.devRef .tc main_v34) = Stages.res_main_v34 (V (Proc.devRef .tc main_arg0)) (V (Proc.devRef .tc main_arg1)) (V (Proc.devRef .tc main_arg2)) (V (Proc.devRef .tc main_arg3)) (V (Proc.devRef .tc main_arg4)) := by
  stage_at atPre 51 StableHlo.unary_result [(rdPre 50 51 rfl (by decide) V).trans (pre_main_cst_2 V)]
theorem pre_main_v35 (V : Valuation τ sig (Elt F)) : after (Stages.opsPre (F := F)) V (Proc.devRef .tc main_v35) = Stages.res_main_v35 (V (Proc.devRef .tc main_arg0)) (V (Proc.devRef .tc main_arg1)) (V (Proc.devRef .tc main_arg2)) (V (Proc.devRef .tc main_arg3)) (V (Proc.devRef .tc main_arg4)) := by
  stage_at atPre 52 StableHlo.binary_result [(rdPre 51 52 rfl (by decide) V).trans (pre_main_v34 V), (rdPre 49 52 rfl (by decide) V).trans (pre_main_v33 V)]
theorem pre_main_cst_3 (V : Valuation τ sig (Elt F)) : after (Stages.opsPre (F := F)) V (Proc.devRef .tc main_cst_3) = Stages.res_main_cst_3 (V (Proc.devRef .tc main_arg0)) (V (Proc.devRef .tc main_arg1)) (V (Proc.devRef .tc main_arg2)) (V (Proc.devRef .tc main_arg3)) (V (Proc.devRef .tc main_arg4)) := by
  stage_at atPre 53 StableHlo.nullary_result []
theorem pre_main_v36 (V : Valuation τ sig (Elt F)) : after (Stages.opsPre (F := F)) V (Proc.devRef .tc main_v36) = Stages.res_main_v36 (V (Proc.devRef .tc main_arg0)) (V (Proc.devRef .tc main_arg1)) (V (Proc.devRef .tc main_arg2)) (V (Proc.devRef .tc main_arg3)) (V (Proc.devRef .tc main_arg4)) := by
  stage_at atPre 54 StableHlo.binary_result [(rdPre 37 54 rfl (by decide) V).trans (pre_main_v26 V), (rdPre 53 54 rfl (by decide) V).trans (pre_main_cst_3 V)]
theorem pre_main_v37 (V : Valuation τ sig (Elt F)) : after (Stages.opsPre (F := F)) V (Proc.devRef .tc main_v37) = Stages.res_main_v37 (V (Proc.devRef .tc main_arg0)) (V (Proc.devRef .tc main_arg1)) (V (Proc.devRef .tc main_arg2)) (V (Proc.devRef .tc main_arg3)) (V (Proc.devRef .tc main_arg4)) := by
  stage_at atPre 55 StableHlo.nullary_result []
theorem pre_main_v38 (V : Valuation τ sig (Elt F)) : after (Stages.opsPre (F := F)) V (Proc.devRef .tc main_v38) = Stages.res_main_v38 (V (Proc.devRef .tc main_arg0)) (V (Proc.devRef .tc main_arg1)) (V (Proc.devRef .tc main_arg2)) (V (Proc.devRef .tc main_arg3)) (V (Proc.devRef .tc main_arg4)) := by
  stage_at atPre 56 StableHlo.nullary_result []
theorem pre_main_c_4 (V : Valuation τ sig (Elt F)) : after (Stages.opsPre (F := F)) V (Proc.devRef .tc main_c_4) = Stages.res_main_c_4 (V (Proc.devRef .tc main_arg0)) (V (Proc.devRef .tc main_arg1)) (V (Proc.devRef .tc main_arg2)) (V (Proc.devRef .tc main_arg3)) (V (Proc.devRef .tc main_arg4)) := by
  stage_at atPre 57 StableHlo.nullary_result []
theorem pre_main_v39 (V : Valuation τ sig (Elt F)) : after (Stages.opsPre (F := F)) V (Proc.devRef .tc main_v39) = Stages.res_main_v39 (V (Proc.devRef .tc main_arg0)) (V (Proc.devRef .tc main_arg1)) (V (Proc.devRef .tc main_arg2)) (V (Proc.devRef .tc main_arg3)) (V (Proc.devRef .tc main_arg4)) := by
  stage_at atPre 58 StableHlo.unary_result [(rdPre 57 58 rfl (by decide) V).trans (pre_main_c_4 V)]
theorem pre_main_v40 (V : Valuation τ sig (Elt F)) : after (Stages.opsPre (F := F)) V (Proc.devRef .tc main_v40) = Stages.res_main_v40 (V (Proc.devRef .tc main_arg0)) (V (Proc.devRef .tc main_arg1)) (V (Proc.devRef .tc main_arg2)) (V (Proc.devRef .tc main_arg3)) (V (Proc.devRef .tc main_arg4)) := by
  stage_at atPre 59 StableHlo.binary_result [(rdPre 55 59 rfl (by decide) V).trans (pre_main_v37 V), (rdPre 58 59 rfl (by decide) V).trans (pre_main_v39 V)]
theorem pre_main_v41 (V : Valuation τ sig (Elt F)) : after (Stages.opsPre (F := F)) V (Proc.devRef .tc main_v41) = Stages.res_main_v41 (V (Proc.devRef .tc main_arg0)) (V (Proc.devRef .tc main_arg1)) (V (Proc.devRef .tc main_arg2)) (V (Proc.devRef .tc main_arg3)) (V (Proc.devRef .tc main_arg4)) := by
  stage_at atPre 60 StableHlo.binary_result [(rdPre 59 60 rfl (by decide) V).trans (pre_main_v40 V), (rdPre 56 60 rfl (by decide) V).trans (pre_main_v38 V)]
theorem pre_main_v42 (V : Valuation τ sig (Elt F)) : after (Stages.opsPre (F := F)) V (Proc.devRef .tc main_v42) = Stages.res_main_v42 (V (Proc.devRef .tc main_arg0)) (V (Proc.devRef .tc main_arg1)) (V (Proc.devRef .tc main_arg2)) (V (Proc.devRef .tc main_arg3)) (V (Proc.devRef .tc main_arg4)) := by
  stage_at atPre 61 StableHlo.unary_result [(rdPre 60 61 rfl (by decide) V).trans (pre_main_v41 V)]
theorem pre_main_v43 (V : Valuation τ sig (Elt F)) : after (Stages.opsPre (F := F)) V (Proc.devRef .tc main_v43) = Stages.res_main_v43 (V (Proc.devRef .tc main_arg0)) (V (Proc.devRef .tc main_arg1)) (V (Proc.devRef .tc main_arg2)) (V (Proc.devRef .tc main_arg3)) (V (Proc.devRef .tc main_arg4)) := by
  stage_at atPre 62 StableHlo.unary_result [(rdPre 54 62 rfl (by decide) V).trans (pre_main_v36 V)]
theorem pre_main_v44 (V : Valuation τ sig (Elt F)) : after (Stages.opsPre (F := F)) V (Proc.devRef .tc main_v44) = Stages.res_main_v44 (V (Proc.devRef .tc main_arg0)) (V (Proc.devRef .tc main_arg1)) (V (Proc.devRef .tc main_arg2)) (V (Proc.devRef .tc main_arg3)) (V (Proc.devRef .tc main_arg4)) := by
  stage_at atPre 63 StableHlo.unary_result [(rdPre 62 63 rfl (by decide) V).trans (pre_main_v43 V)]
theorem pre_main_v45 (V : Valuation τ sig (Elt F)) : after (Stages.opsPre (F := F)) V (Proc.devRef .tc main_v45) = Stages.res_main_v45 (V (Proc.devRef .tc main_arg0)) (V (Proc.devRef .tc main_arg1)) (V (Proc.devRef .tc main_arg2)) (V (Proc.devRef .tc main_arg3)) (V (Proc.devRef .tc main_arg4)) := by
  stage_at atPre 64 StableHlo.binary_result [(rdPre 63 64 rfl (by decide) V).trans (pre_main_v44 V), (rdPre 61 64 rfl (by decide) V).trans (pre_main_v42 V)]
theorem pre_main_cst_5 (V : Valuation τ sig (Elt F)) : after (Stages.opsPre (F := F)) V (Proc.devRef .tc main_cst_5) = Stages.res_main_cst_5 (V (Proc.devRef .tc main_arg0)) (V (Proc.devRef .tc main_arg1)) (V (Proc.devRef .tc main_arg2)) (V (Proc.devRef .tc main_arg3)) (V (Proc.devRef .tc main_arg4)) := by
  stage_at atPre 65 StableHlo.nullary_result []
theorem pre_main_v46 (V : Valuation τ sig (Elt F)) : after (Stages.opsPre (F := F)) V (Proc.devRef .tc main_v46) = Stages.res_main_v46 (V (Proc.devRef .tc main_arg0)) (V (Proc.devRef .tc main_arg1)) (V (Proc.devRef .tc main_arg2)) (V (Proc.devRef .tc main_arg3)) (V (Proc.devRef .tc main_arg4)) := by
  stage_at atPre 66 StableHlo.unary_result [(rdPre 65 66 rfl (by decide) V).trans (pre_main_cst_5 V)]
theorem pre_main_v47 (V : Valuation τ sig (Elt F)) : after (Stages.opsPre (F := F)) V (Proc.devRef .tc main_v47) = Stages.res_main_v47 (V (Proc.devRef .tc main_arg0)) (V (Proc.devRef .tc main_arg1)) (V (Proc.devRef .tc main_arg2)) (V (Proc.devRef .tc main_arg3)) (V (Proc.devRef .tc main_arg4)) := by
  stage_at atPre 67 StableHlo.binary_result [(rdPre 64 67 rfl (by decide) V).trans (pre_main_v45 V), (rdPre 66 67 rfl (by decide) V).trans (pre_main_v46 V)]
theorem pre_main_cst_6 (V : Valuation τ sig (Elt F)) : after (Stages.opsPre (F := F)) V (Proc.devRef .tc main_cst_6) = Stages.res_main_cst_6 (V (Proc.devRef .tc main_arg0)) (V (Proc.devRef .tc main_arg1)) (V (Proc.devRef .tc main_arg2)) (V (Proc.devRef .tc main_arg3)) (V (Proc.devRef .tc main_arg4)) := by
  stage_at atPre 68 StableHlo.nullary_result []
theorem pre_main_call3_v0 (V : Valuation τ sig (Elt F)) : after (Stages.opsPre (F := F)) V (Proc.devRef .tc main_call3_v0) = Stages.res_main_call3_v0 (V (Proc.devRef .tc main_arg0)) (V (Proc.devRef .tc main_arg1)) (V (Proc.devRef .tc main_arg2)) (V (Proc.devRef .tc main_arg3)) (V (Proc.devRef .tc main_arg4)) := by
  stage_at atPre 69 StableHlo.unary_result [(rdPre 68 69 rfl (by decide) V).trans (pre_main_cst_6 V)]
theorem pre_main_call3_v1 (V : Valuation τ sig (Elt F)) : after (Stages.opsPre (F := F)) V (Proc.devRef .tc main_call3_v1) = Stages.res_main_call3_v1 (V (Proc.devRef .tc main_arg0)) (V (Proc.devRef .tc main_arg1)) (V (Proc.devRef .tc main_arg2)) (V (Proc.devRef .tc main_arg3)) (V (Proc.devRef .tc main_arg4)) := by
  stage_at atPre 70 StableHlo.unary_result [(rdPre 69 70 rfl (by decide) V).trans (pre_main_call3_v0 V)]
theorem pre_main_v48 (V : Valuation τ sig (Elt F)) : after (Stages.opsPre (F := F)) V (Proc.devRef .tc main_v48) = Stages.res_main_v48 (V (Proc.devRef .tc main_arg0)) (V (Proc.devRef .tc main_arg1)) (V (Proc.devRef .tc main_arg2)) (V (Proc.devRef .tc main_arg3)) (V (Proc.devRef .tc main_arg4)) := by
  stage_at atPre 71 StableHlo.ternary_result [(rdPre 67 71 rfl (by decide) V).trans (pre_main_v47 V), (rdPre 52 71 rfl (by decide) V).trans (pre_main_v35 V), (rdPre 70 71 rfl (by decide) V).trans (pre_main_call3_v1 V)]
theorem pre_main_cst_7 (V : Valuation τ sig (Elt F)) : after (Stages.opsPre (F := F)) V (Proc.devRef .tc main_cst_7) = Stages.res_main_cst_7 (V (Proc.devRef .tc main_arg0)) (V (Proc.devRef .tc main_arg1)) (V (Proc.devRef .tc main_arg2)) (V (Proc.devRef .tc main_arg3)) (V (Proc.devRef .tc main_arg4)) := by
  stage_at atPre 72 StableHlo.nullary_result []
theorem pre_main_call4_v0 (V : Valuation τ sig (Elt F)) : after (Stages.opsPre (F := F)) V (Proc.devRef .tc main_call4_v0) = Stages.res_main_call4_v0 (V (Proc.devRef .tc main_arg0)) (V (Proc.devRef .tc main_arg1)) (V (Proc.devRef .tc main_arg2)) (V (Proc.devRef .tc main_arg3)) (V (Proc.devRef .tc main_arg4)) := by
  stage_at atPre 73 StableHlo.unary_result [(rdPre 72 73 rfl (by decide) V).trans (pre_main_cst_7 V)]
theorem pre_main_call4_v1 (V : Valuation τ sig (Elt F)) : after (Stages.opsPre (F := F)) V (Proc.devRef .tc main_call4_v1) = Stages.res_main_call4_v1 (V (Proc.devRef .tc main_arg0)) (V (Proc.devRef .tc main_arg1)) (V (Proc.devRef .tc main_arg2)) (V (Proc.devRef .tc main_arg3)) (V (Proc.devRef .tc main_arg4)) := by
  stage_at atPre 74 StableHlo.unary_result [(rdPre 73 74 rfl (by decide) V).trans (pre_main_call4_v0 V)]
theorem pre_main_v49 (V : Valuation τ sig (Elt F)) : after (Stages.opsPre (F := F)) V (Proc.devRef .tc main_v49) = Stages.res_main_v49 (V (Proc.devRef .tc main_arg0)) (V (Proc.devRef .tc main_arg1)) (V (Proc.devRef .tc main_arg2)) (V (Proc.devRef .tc main_arg3)) (V (Proc.devRef .tc main_arg4)) := by
  stage_at atPre 75 StableHlo.ternary_result [(rdPre 67 75 rfl (by decide) V).trans (pre_main_v47 V), (rdPre 52 75 rfl (by decide) V).trans (pre_main_v35 V), (rdPre 74 75 rfl (by decide) V).trans (pre_main_call4_v1 V)]
theorem pre_main_cst_8 (V : Valuation τ sig (Elt F)) : after (Stages.opsPre (F := F)) V (Proc.devRef .tc main_cst_8) = Stages.res_main_cst_8 (V (Proc.devRef .tc main_arg0)) (V (Proc.devRef .tc main_arg1)) (V (Proc.devRef .tc main_arg2)) (V (Proc.devRef .tc main_arg3)) (V (Proc.devRef .tc main_arg4)) := by
  stage_at atPre 76 StableHlo.nullary_result []
theorem pre_main_v50 (V : Valuation τ sig (Elt F)) : after (Stages.opsPre (F := F)) V (Proc.devRef .tc main_v50) = Stages.res_main_v50 (V (Proc.devRef .tc main_arg0)) (V (Proc.devRef .tc main_arg1)) (V (Proc.devRef .tc main_arg2)) (V (Proc.devRef .tc main_arg3)) (V (Proc.devRef .tc main_arg4)) := by
  stage_at atPre 77 StableHlo.binary_result [(rdPre 71 77 rfl (by decide) V).trans (pre_main_v48 V), (rdPre 76 77 rfl (by decide) V).trans (pre_main_cst_8 V)]
theorem pre_main_cst_9 (V : Valuation τ sig (Elt F)) : after (Stages.opsPre (F := F)) V (Proc.devRef .tc main_cst_9) = Stages.res_main_cst_9 (V (Proc.devRef .tc main_arg0)) (V (Proc.devRef .tc main_arg1)) (V (Proc.devRef .tc main_arg2)) (V (Proc.devRef .tc main_arg3)) (V (Proc.devRef .tc main_arg4)) := by
  stage_at atPre 78 StableHlo.nullary_result []
theorem pre_main_v51 (V : Valuation τ sig (Elt F)) : after (Stages.opsPre (F := F)) V (Proc.devRef .tc main_v51) = Stages.res_main_v51 (V (Proc.devRef .tc main_arg0)) (V (Proc.devRef .tc main_arg1)) (V (Proc.devRef .tc main_arg2)) (V (Proc.devRef .tc main_arg3)) (V (Proc.devRef .tc main_arg4)) := by
  stage_at atPre 79 StableHlo.unary_result [(rdPre 78 79 rfl (by decide) V).trans (pre_main_cst_9 V)]
theorem pre_main_v52 (V : Valuation τ sig (Elt F)) : after (Stages.opsPre (F := F)) V (Proc.devRef .tc main_v52) = Stages.res_main_v52 (V (Proc.devRef .tc main_arg0)) (V (Proc.devRef .tc main_arg1)) (V (Proc.devRef .tc main_arg2)) (V (Proc.devRef .tc main_arg3)) (V (Proc.devRef .tc main_arg4)) := by
  stage_at atPre 80 StableHlo.binary_result [(rdPre 77 80 rfl (by decide) V).trans (pre_main_v50 V), (rdPre 79 80 rfl (by decide) V).trans (pre_main_v51 V)]
theorem pre_main_cst_10 (V : Valuation τ sig (Elt F)) : after (Stages.opsPre (F := F)) V (Proc.devRef .tc main_cst_10) = Stages.res_main_cst_10 (V (Proc.devRef .tc main_arg0)) (V (Proc.devRef .tc main_arg1)) (V (Proc.devRef .tc main_arg2)) (V (Proc.devRef .tc main_arg3)) (V (Proc.devRef .tc main_arg4)) := by
  stage_at atPre 81 StableHlo.nullary_result []
theorem pre_main_v53 (V : Valuation τ sig (Elt F)) : after (Stages.opsPre (F := F)) V (Proc.devRef .tc main_v53) = Stages.res_main_v53 (V (Proc.devRef .tc main_arg0)) (V (Proc.devRef .tc main_arg1)) (V (Proc.devRef .tc main_arg2)) (V (Proc.devRef .tc main_arg3)) (V (Proc.devRef .tc main_arg4)) := by
  stage_at atPre 82 StableHlo.binary_result [(rdPre 75 82 rfl (by decide) V).trans (pre_main_v49 V), (rdPre 81 82 rfl (by decide) V).trans (pre_main_cst_10 V)]
theorem pre_main_cst_11 (V : Valuation τ sig (Elt F)) : after (Stages.opsPre (F := F)) V (Proc.devRef .tc main_cst_11) = Stages.res_main_cst_11 (V (Proc.devRef .tc main_arg0)) (V (Proc.devRef .tc main_arg1)) (V (Proc.devRef .tc main_arg2)) (V (Proc.devRef .tc main_arg3)) (V (Proc.devRef .tc main_arg4)) := by
  stage_at atPre 83 StableHlo.nullary_result []
theorem pre_main_v54 (V : Valuation τ sig (Elt F)) : after (Stages.opsPre (F := F)) V (Proc.devRef .tc main_v54) = Stages.res_main_v54 (V (Proc.devRef .tc main_arg0)) (V (Proc.devRef .tc main_arg1)) (V (Proc.devRef .tc main_arg2)) (V (Proc.devRef .tc main_arg3)) (V (Proc.devRef .tc main_arg4)) := by
  stage_at atPre 84 StableHlo.unary_result [(rdPre 83 84 rfl (by decide) V).trans (pre_main_cst_11 V)]
theorem pre_main_v55 (V : Valuation τ sig (Elt F)) : after (Stages.opsPre (F := F)) V (Proc.devRef .tc main_v55) = Stages.res_main_v55 (V (Proc.devRef .tc main_arg0)) (V (Proc.devRef .tc main_arg1)) (V (Proc.devRef .tc main_arg2)) (V (Proc.devRef .tc main_arg3)) (V (Proc.devRef .tc main_arg4)) := by
  stage_at atPre 85 StableHlo.binary_result [(rdPre 82 85 rfl (by decide) V).trans (pre_main_v53 V), (rdPre 84 85 rfl (by decide) V).trans (pre_main_v54 V)]
theorem pre_main_v56 (V : Valuation τ sig (Elt F)) : after (Stages.opsPre (F := F)) V (Proc.devRef .tc main_v56) = Stages.res_main_v56 (V (Proc.devRef .tc main_arg0)) (V (Proc.devRef .tc main_arg1)) (V (Proc.devRef .tc main_arg2)) (V (Proc.devRef .tc main_arg3)) (V (Proc.devRef .tc main_arg4)) := by
  stage_at atPre 86 StableHlo.binary_result [(rdPre 64 86 rfl (by decide) V).trans (pre_main_v45 V), (rdPre 52 86 rfl (by decide) V).trans (pre_main_v35 V)]
theorem pre_main_cst_12 (V : Valuation τ sig (Elt F)) : after (Stages.opsPre (F := F)) V (Proc.devRef .tc main_cst_12) = Stages.res_main_cst_12 (V (Proc.devRef .tc main_arg0)) (V (Proc.devRef .tc main_arg1)) (V (Proc.devRef .tc main_arg2)) (V (Proc.devRef .tc main_arg3)) (V (Proc.devRef .tc main_arg4)) := by
  stage_at atPre 87 StableHlo.nullary_result []
theorem pre_main_v57 (V : Valuation τ sig (Elt F)) : after (Stages.opsPre (F := F)) V (Proc.devRef .tc main_v57) = Stages.res_main_v57 (V (Proc.devRef .tc main_arg0)) (V (Proc.devRef .tc main_arg1)) (V (Proc.devRef .tc main_arg2)) (V (Proc.devRef .tc main_arg3)) (V (Proc.devRef .tc main_arg4)) := by
  stage_at atPre 88 StableHlo.binary_result [(rdPre 86 88 rfl (by decide) V).trans (pre_main_v56 V), (rdPre 87 88 rfl (by decide) V).trans (pre_main_cst_12 V)]
theorem pre_main_cst_13 (V : Valuation τ sig (Elt F)) : after (Stages.opsPre (F := F)) V (Proc.devRef .tc main_cst_13) = Stages.res_main_cst_13 (V (Proc.devRef .tc main_arg0)) (V (Proc.devRef .tc main_arg1)) (V (Proc.devRef .tc main_arg2)) (V (Proc.devRef .tc main_arg3)) (V (Proc.devRef .tc main_arg4)) := by
  stage_at atPre 89 StableHlo.nullary_result []
theorem pre_main_v58 (V : Valuation τ sig (Elt F)) : after (Stages.opsPre (F := F)) V (Proc.devRef .tc main_v58) = Stages.res_main_v58 (V (Proc.devRef .tc main_arg0)) (V (Proc.devRef .tc main_arg1)) (V (Proc.devRef .tc main_arg2)) (V (Proc.devRef .tc main_arg3)) (V (Proc.devRef .tc main_arg4)) := by
  stage_at atPre 90 StableHlo.unary_result [(rdPre 89 90 rfl (by decide) V).trans (pre_main_cst_13 V)]
theorem pre_main_v59 (V : Valuation τ sig (Elt F)) : after (Stages.opsPre (F := F)) V (Proc.devRef .tc main_v59) = Stages.res_main_v59 (V (Proc.devRef .tc main_arg0)) (V (Proc.devRef .tc main_arg1)) (V (Proc.devRef .tc main_arg2)) (V (Proc.devRef .tc main_arg3)) (V (Proc.devRef .tc main_arg4)) := by
  stage_at atPre 91 StableHlo.binary_result [(rdPre 88 91 rfl (by decide) V).trans (pre_main_v57 V), (rdPre 90 91 rfl (by decide) V).trans (pre_main_v58 V)]
theorem pre_main_v60 (V : Valuation τ sig (Elt F)) : after (Stages.opsPre (F := F)) V (Proc.devRef .tc main_v60) = Stages.res_main_v60 (V (Proc.devRef .tc main_arg0)) (V (Proc.devRef .tc main_arg1)) (V (Proc.devRef .tc main_arg2)) (V (Proc.devRef .tc main_arg3)) (V (Proc.devRef .tc main_arg4)) := by
  stage_at atPre 92 StableHlo.unary_result [(rdPre 91 92 rfl (by decide) V).trans (pre_main_v59 V)]
theorem pre_main_v61 (V : Valuation τ sig (Elt F)) : after (Stages.opsPre (F := F)) V (Proc.devRef .tc main_v61) = Stages.res_main_v61 (V (Proc.devRef .tc main_arg0)) (V (Proc.devRef .tc main_arg1)) (V (Proc.devRef .tc main_arg2)) (V (Proc.devRef .tc main_arg3)) (V (Proc.devRef .tc main_arg4)) := by
  stage_at atPre 93 StableHlo.unary_result [(rdPre 92 93 rfl (by decide) V).trans (pre_main_v60 V)]
theorem pre_main_v62 (V : Valuation τ sig (Elt F)) : after (Stages.opsPre (F := F)) V (Proc.devRef .tc main_v62) = Stages.res_main_v62 (V (Proc.devRef .tc main_arg0)) (V (Proc.devRef .tc main_arg1)) (V (Proc.devRef .tc main_arg2)) (V (Proc.devRef .tc main_arg3)) (V (Proc.devRef .tc main_arg4)) := by
  stage_at atPre 94 StableHlo.binary_result [(rdPre 52 94 rfl (by decide) V).trans (pre_main_v35 V), (rdPre 93 94 rfl (by decide) V).trans (pre_main_v61 V)]
theorem pre_main_v63 (V : Valuation τ sig (Elt F)) : after (Stages.opsPre (F := F)) V (Proc.devRef .tc main_v63) = Stages.res_main_v63 (V (Proc.devRef .tc main_arg0)) (V (Proc.devRef .tc main_arg1)) (V (Proc.devRef .tc main_arg2)) (V (Proc.devRef .tc main_arg3)) (V (Proc.devRef .tc main_arg4)) := by
  stage_at atPre 95 StableHlo.binary_result [(rdPre 94 95 rfl (by decide) V).trans (pre_main_v62 V)]
theorem pre_main_v64 (V : Valuation τ sig (Elt F)) : after (Stages.opsPre (F := F)) V (Proc.devRef .tc main_v64) = Stages.res_main_v64 (V (Proc.devRef .tc main_arg0)) (V (Proc.devRef .tc main_arg1)) (V (Proc.devRef .tc main_arg2)) (V (Proc.devRef .tc main_arg3)) (V (Proc.devRef .tc main_arg4)) := by
  stage_at atPre 96 StableHlo.binary_result [(rdPre 64 96 rfl (by decide) V).trans (pre_main_v45 V), (rdPre 95 96 rfl (by decide) V).trans (pre_main_v63 V)]
theorem pre_main_cst_14 (V : Valuation τ sig (Elt F)) : after (Stages.opsPre (F := F)) V (Proc.devRef .tc main_cst_14) = Stages.res_main_cst_14 (V (Proc.devRef .tc main_arg0)) (V (Proc.devRef .tc main_arg1)) (V (Proc.devRef .tc main_arg2)) (V (Proc.devRef .tc main_arg3)) (V (Proc.devRef .tc main_arg4)) := by
  stage_at atPre 97 StableHlo.nullary_result []
theorem pre_main_v65 (V : Valuation τ sig (Elt F)) : after (Stages.opsPre (F := F)) V (Proc.devRef .tc main_v65) = Stages.res_main_v65 (V (Proc.devRef .tc main_arg0)) (V (Proc.devRef .tc main_arg1)) (V (Proc.devRef .tc main_arg2)) (V (Proc.devRef .tc main_arg3)) (V (Proc.devRef .tc main_arg4)) := by
  stage_at atPre 98 StableHlo.binary_result [(rdPre 96 98 rfl (by decide) V).trans (pre_main_v64 V), (rdPre 97 98 rfl (by decide) V).trans (pre_main_cst_14 V)]
theorem pre_main_v66 (V : Valuation τ sig (Elt F)) : after (Stages.opsPre (F := F)) V (Proc.devRef .tc main_v66) = Stages.res_main_v66 (V (Proc.devRef .tc main_arg0)) (V (Proc.devRef .tc main_arg1)) (V (Proc.devRef .tc main_arg2)) (V (Proc.devRef .tc main_arg3)) (V (Proc.devRef .tc main_arg4)) := by
  stage_at atPre 99 StableHlo.binary_result [(rdPre 91 99 rfl (by decide) V).trans (pre_main_v59 V)]
theorem pre_main_v67 (V : Valuation τ sig (Elt F)) : after (Stages.opsPre (F := F)) V (Proc.devRef .tc main_v67) = Stages.res_main_v67 (V (Proc.devRef .tc main_arg0)) (V (Proc.devRef .tc main_arg1)) (V (Proc.devRef .tc main_arg2)) (V (Proc.devRef .tc main_arg3)) (V (Proc.devRef .tc main_arg4)) := by
  stage_at atPre 100 StableHlo.binary_result [(rdPre 98 100 rfl (by decide) V).trans (pre_main_v65 V), (rdPre 99 100 rfl (by decide) V).trans (pre_main_v66 V)]
theorem pre_main_cst_15 (V : Valuation τ sig (Elt F)) : after (Stages.opsPre (F := F)) V (Proc.devRef .tc main_cst_15) = Stages.res_main_cst_15 (V (Proc.devRef .tc main_arg0)) (V (Proc.devRef .tc main_arg1)) (V (Proc.devRef .tc main_arg2)) (V (Proc.devRef .tc main_arg3)) (V (Proc.devRef .tc main_arg4)) := by
  stage_at atPre 101 StableHlo.nullary_result []
theorem pre_main_v68 (V : Valuation τ sig (Elt F)) : after (Stages.opsPre (F := F)) V (Proc.devRef .tc main_v68) = Stages.res_main_v68 (V (Proc.devRef .tc main_arg0)) (V (Proc.devRef .tc main_arg1)) (V (Proc.devRef .tc main_arg2)) (V (Proc.devRef .tc main_arg3)) (V (Proc.devRef .tc main_arg4)) := by
  stage_at atPre 102 StableHlo.unary_result [(rdPre 101 102 rfl (by decide) V).trans (pre_main_cst_15 V)]
theorem pre_main_v69 (V : Valuation τ sig (Elt F)) : after (Stages.opsPre (F := F)) V (Proc.devRef .tc main_v69) = Stages.res_main_v69 (V (Proc.devRef .tc main_arg0)) (V (Proc.devRef .tc main_arg1)) (V (Proc.devRef .tc main_arg2)) (V (Proc.devRef .tc main_arg3)) (V (Proc.devRef .tc main_arg4)) := by
  stage_at atPre 103 StableHlo.binary_result [(rdPre 100 103 rfl (by decide) V).trans (pre_main_v67 V), (rdPre 102 103 rfl (by decide) V).trans (pre_main_v68 V)]
theorem pre_main_cst_16 (V : Valuation τ sig (Elt F)) : after (Stages.opsPre (F := F)) V (Proc.devRef .tc main_cst_16) = Stages.res_main_cst_16 (V (Proc.devRef .tc main_arg0)) (V (Proc.devRef .tc main_arg1)) (V (Proc.devRef .tc main_arg2)) (V (Proc.devRef .tc main_arg3)) (V (Proc.devRef .tc main_arg4)) := by
  stage_at atPre 104 StableHlo.nullary_result []
theorem pre_main_v70 (V : Valuation τ sig (Elt F)) : after (Stages.opsPre (F := F)) V (Proc.devRef .tc main_v70) = Stages.res_main_v70 (V (Proc.devRef .tc main_arg0)) (V (Proc.devRef .tc main_arg1)) (V (Proc.devRef .tc main_arg2)) (V (Proc.devRef .tc main_arg3)) (V (Proc.devRef .tc main_arg4)) := by
  stage_at atPre 105 StableHlo.unary_result [(rdPre 104 105 rfl (by decide) V).trans (pre_main_cst_16 V)]
theorem pre_main_v71 (V : Valuation τ sig (Elt F)) : after (Stages.opsPre (F := F)) V (Proc.devRef .tc main_v71) = Stages.res_main_v71 (V (Proc.devRef .tc main_arg0)) (V (Proc.devRef .tc main_arg1)) (V (Proc.devRef .tc main_arg2)) (V (Proc.devRef .tc main_arg3)) (V (Proc.devRef .tc main_arg4)) := by
  stage_at atPre 106 StableHlo.binary_result [(rdPre 103 106 rfl (by decide) V).trans (pre_main_v69 V), (rdPre 105 106 rfl (by decide) V).trans (pre_main_v70 V)]
theorem pre_main_v72 (V : Valuation τ sig (Elt F)) : after (Stages.opsPre (F := F)) V (Proc.devRef .tc main_v72) = Stages.res_main_v72 (V (Proc.devRef .tc main_arg0)) (V (Proc.devRef .tc main_arg1)) (V (Proc.devRef .tc main_arg2)) (V (Proc.devRef .tc main_arg3)) (V (Proc.devRef .tc main_arg4)) := by
  stage_at atPre 107 StableHlo.unary_result [(rdPre 106 107 rfl (by decide) V).trans (pre_main_v71 V)]
theorem pre_main_v73 (V : Valuation τ sig (Elt F)) : after (Stages.opsPre (F := F)) V (Proc.devRef .tc main_v73) = Stages.res_main_v73 (V (Proc.devRef .tc main_arg0)) (V (Proc.devRef .tc main_arg1)) (V (Proc.devRef .tc main_arg2)) (V (Proc.devRef .tc main_arg3)) (V (Proc.devRef .tc main_arg4)) := by
  stage_at atPre 108 StableHlo.binary_result [(rdPre 85 108 rfl (by decide) V).trans (pre_main_v55 V), (rdPre 80 108 rfl (by decide) V).trans (pre_main_v52 V)]
theorem pre_main_cst_17 (V : Valuation τ sig (Elt F)) : after (Stages.opsPre (F := F)) V (Proc.devRef .tc main_cst_17) = Stages.res_main_cst_17 (V (Proc.devRef .tc main_arg0)) (V (Proc.devRef .tc main_arg1)) (V (Proc.devRef .tc main_arg2)) (V (Proc.devRef .tc main_arg3)) (V (Proc.devRef .tc main_arg4)) := by
  stage_at atPre 109 StableHlo.nullary_result []
theorem pre_main_v74 (V : Valuation τ sig (Elt F)) : after (Stages.opsPre (F := F)) V (Proc.devRef .tc main_v74) = Stages.res_main_v74 (V (Proc.devRef .tc main_arg0)) (V (Proc.devRef .tc main_arg1)) (V (Proc.devRef .tc main_arg2)) (V (Proc.devRef .tc main_arg3)) (V (Proc.devRef .tc main_arg4)) := by
  stage_at atPre 110 StableHlo.unary_result [(rdPre 109 110 rfl (by decide) V).trans (pre_main_cst_17 V)]
theorem pre_main_v75 (V : Valuation τ sig (Elt F)) : after (Stages.opsPre (F := F)) V (Proc.devRef .tc main_v75) = Stages.res_main_v75 (V (Proc.devRef .tc main_arg0)) (V (Proc.devRef .tc main_arg1)) (V (Proc.devRef .tc main_arg2)) (V (Proc.devRef .tc main_arg3)) (V (Proc.devRef .tc main_arg4)) := by
  stage_at atPre 111 StableHlo.binary_result [(rdPre 110 111 rfl (by decide) V).trans (pre_main_v74 V), (rdPre 108 111 rfl (by decide) V).trans (pre_main_v73 V)]
theorem pre_main_v76 (V : Valuation τ sig (Elt F)) : after (Stages.opsPre (F := F)) V (Proc.devRef .tc main_v76) = Stages.res_main_v76 (V (Proc.devRef .tc main_arg0)) (V (Proc.devRef .tc main_arg1)) (V (Proc.devRef .tc main_arg2)) (V (Proc.devRef .tc main_arg3)) (V (Proc.devRef .tc main_arg4)) := by
  stage_at atPre 112 StableHlo.unary_result [(rdPre 80 112 rfl (by decide) V).trans (pre_main_v52 V)]
theorem pre_main_v77 (V : Valuation τ sig (Elt F)) : after (Stages.opsPre (F := F)) V (Proc.devRef .tc main_v77) = Stages.res_main_v77 (V (Proc.devRef .tc main_arg0)) (V (Proc.devRef .tc main_arg1)) (V (Proc.devRef .tc main_arg2)) (V (Proc.devRef .tc main_arg3)) (V (Proc.devRef .tc main_arg4)) := by
  stage_at atPre 113 StableHlo.binary_result [(rdPre 112 113 rfl (by decide) V).trans (pre_main_v76 V), (rdPre 111 113 rfl (by decide) V).trans (pre_main_v75 V)]
theorem pre_main_v78 (V : Valuation τ sig (Elt F)) : after (Stages.opsPre (F := F)) V (Proc.devRef .tc main_v78) = Stages.res_main_v78 (V (Proc.devRef .tc main_arg0)) (V (Proc.devRef .tc main_arg1)) (V (Proc.devRef .tc main_arg2)) (V (Proc.devRef .tc main_arg3)) (V (Proc.devRef .tc main_arg4)) := by
  stage_at atPre 114 StableHlo.binary_result [(rdPre 91 114 rfl (by decide) V).trans (pre_main_v59 V), (rdPre 80 114 rfl (by decide) V).trans (pre_main_v52 V)]
theorem pre_main_v79 (V : Valuation τ sig (Elt F)) : after (Stages.opsPre (F := F)) V (Proc.devRef .tc main_v79) = Stages.res_main_v79 (V (Proc.devRef .tc main_arg0)) (V (Proc.devRef .tc main_arg1)) (V (Proc.devRef .tc main_arg2)) (V (Proc.devRef .tc main_arg3)) (V (Proc.devRef .tc main_arg4)) := by
  stage_at atPre 115 StableHlo.binary_result [(rdPre 114 115 rfl (by decide) V).trans (pre_main_v78 V), (rdPre 111 115 rfl (by decide) V).trans (pre_main_v75 V)]
theorem pre_main_v80 (V : Valuation τ sig (Elt F)) : after (Stages.opsPre (F := F)) V (Proc.devRef .tc main_v80) = Stages.res_main_v80 (V (Proc.devRef .tc main_arg0)) (V (Proc.devRef .tc main_arg1)) (V (Proc.devRef .tc main_arg2)) (V (Proc.devRef .tc main_arg3)) (V (Proc.devRef .tc main_arg4)) := by
  stage_at atPre 116 StableHlo.binary_result [(rdPre 107 116 rfl (by decide) V).trans (pre_main_v72 V), (rdPre 111 116 rfl (by decide) V).trans (pre_main_v75 V)]
theorem pre_main_cst_18 (V : Valuation τ sig (Elt F)) : after (Stages.opsPre (F := F)) V (Proc.devRef .tc main_cst_18) = Stages.res_main_cst_18 (V (Proc.devRef .tc main_arg0)) (V (Proc.devRef .tc main_arg1)) (V (Proc.devRef .tc main_arg2)) (V (Proc.devRef .tc main_arg3)) (V (Proc.devRef .tc main_arg4)) := by
  stage_at atPre 117 StableHlo.nullary_result []
theorem pre_main_v81 (V : Valuation τ sig (Elt F)) : after (Stages.opsPre (F := F)) V (Proc.devRef .tc main_v81) = Stages.res_main_v81 (V (Proc.devRef .tc main_arg0)) (V (Proc.devRef .tc main_arg1)) (V (Proc.devRef .tc main_arg2)) (V (Proc.devRef .tc main_arg3)) (V (Proc.devRef .tc main_arg4)) := by
  stage_at atPre 118 StableHlo.unary_result [(rdPre 117 118 rfl (by decide) V).trans (pre_main_cst_18 V)]
theorem pre_main_v82 (V : Valuation τ sig (Elt F)) : after (Stages.opsPre (F := F)) V (Proc.devRef .tc main_v82) = Stages.res_main_v82 (V (Proc.devRef .tc main_arg0)) (V (Proc.devRef .tc main_arg1)) (V (Proc.devRef .tc main_arg2)) (V (Proc.devRef .tc main_arg3)) (V (Proc.devRef .tc main_arg4)) := by
  stage_at atPre 119 StableHlo.binary_result [(rdPre 118 119 rfl (by decide) V).trans (pre_main_v81 V), (rdPre 116 119 rfl (by decide) V).trans (pre_main_v80 V)]
theorem pre_main_v83 (V : Valuation τ sig (Elt F)) : after (Stages.opsPre (F := F)) V (Proc.devRef .tc main_v83) = Stages.res_main_v83 (V (Proc.devRef .tc main_arg0)) (V (Proc.devRef .tc main_arg1)) (V (Proc.devRef .tc main_arg2)) (V (Proc.devRef .tc main_arg3)) (V (Proc.devRef .tc main_arg4)) := by
  stage_at atPre 120 StableHlo.binary_result [(rdPre 119 120 rfl (by decide) V).trans (pre_main_v82 V), (rdPre 116 120 rfl (by decide) V).trans (pre_main_v80 V)]
theorem pre_main_cst_19 (V : Valuation τ sig (Elt F)) : after (Stages.opsPre (F := F)) V (Proc.devRef .tc main_cst_19) = Stages.res_main_cst_19 (V (Proc.devRef .tc main_arg0)) (V (Proc.devRef .tc main_arg1)) (V (Proc.devRef .tc main_arg2)) (V (Proc.devRef .tc main_arg3)) (V (Proc.devRef .tc main_arg4)) := by
  stage_at atPre 121 StableHlo.nullary_result []
theorem pre_main_v84 (V : Valuation τ sig (Elt F)) : after (Stages.opsPre (F := F)) V (Proc.devRef .tc main_v84) = Stages.res_main_v84 (V (Proc.devRef .tc main_arg0)) (V (Proc.devRef .tc main_arg1)) (V (Proc.devRef .tc main_arg2)) (V (Proc.devRef .tc main_arg3)) (V (Proc.devRef .tc main_arg4)) := by
  stage_at atPre 122 StableHlo.unary_result [(rdPre 121 122 rfl (by decide) V).trans (pre_main_cst_19 V)]
theorem pre_main_v85 (V : Valuation τ sig (Elt F)) : after (Stages.opsPre (F := F)) V (Proc.devRef .tc main_v85) = Stages.res_main_v85 (V (Proc.devRef .tc main_arg0)) (V (Proc.devRef .tc main_arg1)) (V (Proc.devRef .tc main_arg2)) (V (Proc.devRef .tc main_arg3)) (V (Proc.devRef .tc main_arg4)) := by
  stage_at atPre 123 StableHlo.binary_result [(rdPre 122 123 rfl (by decide) V).trans (pre_main_v84 V), (rdPre 120 123 rfl (by decide) V).trans (pre_main_v83 V)]
theorem pre_main_v86 (V : Valuation τ sig (Elt F)) : after (Stages.opsPre (F := F)) V (Proc.devRef .tc main_v86) = Stages.res_main_v86 (V (Proc.devRef .tc main_arg0)) (V (Proc.devRef .tc main_arg1)) (V (Proc.devRef .tc main_arg2)) (V (Proc.devRef .tc main_arg3)) (V (Proc.devRef .tc main_arg4)) := by
  stage_at atPre 124 StableHlo.unary_result [(rdPre 111 124 rfl (by decide) V).trans (pre_main_v75 V)]
theorem pre_main_v87 (V : Valuation τ sig (Elt F)) : after (Stages.opsPre (F := F)) V (Proc.devRef .tc main_v87) = Stages.res_main_v87 (V (Proc.devRef .tc main_arg0)) (V (Proc.devRef .tc main_arg1)) (V (Proc.devRef .tc main_arg2)) (V (Proc.devRef .tc main_arg3)) (V (Proc.devRef .tc main_arg4)) := by
  stage_at atPre 125 StableHlo.unary_result [(rdPre 124 125 rfl (by decide) V).trans (pre_main_v86 V)]
theorem pre_main_v88 (V : Valuation τ sig (Elt F)) : after (Stages.opsPre (F := F)) V (Proc.devRef .tc main_v88) = Stages.res_main_v88 (V (Proc.devRef .tc main_arg0)) (V (Proc.devRef .tc main_arg1)) (V (Proc.devRef .tc main_arg2)) (V (Proc.devRef .tc main_arg3)) (V (Proc.devRef .tc main_arg4)) := by
  stage_at atPre 126 StableHlo.binary_result [(rdPre 125 126 rfl (by decide) V).trans (pre_main_v87 V), (rdPre 52 126 rfl (by decide) V).trans (pre_main_v35 V)]
theorem pre_main_v89 (V : Valuation τ sig (Elt F)) : after (Stages.opsPre (F := F)) V (Proc.devRef .tc main_v89) = Stages.res_main_v89 (V (Proc.devRef .tc main_arg0)) (V (Proc.devRef .tc main_arg1)) (V (Proc.devRef .tc main_arg2)) (V (Proc.devRef .tc main_arg3)) (V (Proc.devRef .tc main_arg4)) := by
  stage_at atPre 127 StableHlo.unary_result [(rdPre 113 127 rfl (by decide) V).trans (pre_main_v77 V)]
theorem pre_main_v90 (V : Valuation τ sig (Elt F)) : after (Stages.opsPre (F := F)) V (Proc.devRef .tc main_v90) = Stages.res_main_v90 (V (Proc.devRef .tc main_arg0)) (V (Proc.devRef .tc main_arg1)) (V (Proc.devRef .tc main_arg2)) (V (Proc.devRef .tc main_arg3)) (V (Proc.devRef .tc main_arg4)) := by
  stage_at atPre 128 StableHlo.unary_result [(rdPre 127 128 rfl (by decide) V).trans (pre_main_v89 V)]
theorem pre_main_v91 (V : Valuation τ sig (Elt F)) : after (Stages.opsPre (F := F)) V (Proc.devRef .tc main_v91) = Stages.res_main_v91 (V (Proc.devRef .tc main_arg0)) (V (Proc.devRef .tc main_arg1)) (V (Proc.devRef .tc main_arg2)) (V (Proc.devRef .tc main_arg3)) (V (Proc.devRef .tc main_arg4)) := by
  stage_at atPre 129 StableHlo.binary_result [(rdPre 126 129 rfl (by decide) V).trans (pre_main_v88 V), (rdPre 128 129 rfl (by decide) V).trans (pre_main_v90 V)]
theorem pre_main_v92 (V : Valuation τ sig (Elt F)) : after (Stages.opsPre (F := F)) V (Proc.devRef .tc main_v92) = Stages.res_main_v92 (V (Proc.devRef .tc main_arg0)) (V (Proc.devRef .tc main_arg1)) (V (Proc.devRef .tc main_arg2)) (V (Proc.devRef .tc main_arg3)) (V (Proc.devRef .tc main_arg4)) := by
  stage_at atPre 130 StableHlo.unary_result [(rdPre 115 130 rfl (by decide) V).trans (pre_main_v79 V)]
theorem pre_main_v93 (V : Valuation τ sig (Elt F)) : after (Stages.opsPre (F := F)) V (Proc.devRef .tc main_v93) = Stages.res_main_v93 (V (Proc.devRef .tc main_arg0)) (V (Proc.devRef .tc main_arg1)) (V (Proc.devRef .tc main_arg2)) (V (Proc.devRef .tc main_arg3)) (V (Proc.devRef .tc main_arg4)) := by
  stage_at atPre 131 StableHlo.unary_result [(rdPre 130 131 rfl (by decide) V).trans (pre_main_v92 V)]
theorem pre_main_v94 (V : Valuation τ sig (Elt F)) : after (Stages.opsPre (F := F)) V (Proc.devRef .tc main_v94) = Stages.res_main_v94 (V (Proc.devRef .tc main_arg0)) (V (Proc.devRef .tc main_arg1)) (V (Proc.devRef .tc main_arg2)) (V (Proc.devRef .tc main_arg3)) (V (Proc.devRef .tc main_arg4)) := by
  stage_at atPre 132 StableHlo.binary_result [(rdPre 129 132 rfl (by decide) V).trans (pre_main_v91 V), (rdPre 131 132 rfl (by decide) V).trans (pre_main_v93 V)]
theorem pre_main_v95 (V : Valuation τ sig (Elt F)) : after (Stages.opsPre (F := F)) V (Proc.devRef .tc main_v95) = Stages.res_main_v95 (V (Proc.devRef .tc main_arg0)) (V (Proc.devRef .tc main_arg1)) (V (Proc.devRef .tc main_arg2)) (V (Proc.devRef .tc main_arg3)) (V (Proc.devRef .tc main_arg4)) := by
  stage_at atPre 133 StableHlo.binary_result [(rdPre 132 133 rfl (by decide) V).trans (pre_main_v94 V)]
theorem pre_main_v96 (V : Valuation τ sig (Elt F)) : after (Stages.opsPre (F := F)) V (Proc.devRef .tc main_v96) = Stages.res_main_v96 (V (Proc.devRef .tc main_arg0)) (V (Proc.devRef .tc main_arg1)) (V (Proc.devRef .tc main_arg2)) (V (Proc.devRef .tc main_arg3)) (V (Proc.devRef .tc main_arg4)) := by
  stage_at atPre 134 StableHlo.unary_result [(rdPre 123 134 rfl (by decide) V).trans (pre_main_v85 V)]
theorem pre_main_v97 (V : Valuation τ sig (Elt F)) : after (Stages.opsPre (F := F)) V (Proc.devRef .tc main_v97) = Stages.res_main_v97 (V (Proc.devRef .tc main_arg0)) (V (Proc.devRef .tc main_arg1)) (V (Proc.devRef .tc main_arg2)) (V (Proc.devRef .tc main_arg3)) (V (Proc.devRef .tc main_arg4)) := by
  stage_at atPre 135 StableHlo.unary_result [(rdPre 134 135 rfl (by decide) V).trans (pre_main_v96 V)]
theorem pre_main_v98 (V : Valuation τ sig (Elt F)) : after (Stages.opsPre (F := F)) V (Proc.devRef .tc main_v98) = Stages.res_main_v98 (V (Proc.devRef .tc main_arg0)) (V (Proc.devRef .tc main_arg1)) (V (Proc.devRef .tc main_arg2)) (V (Proc.devRef .tc main_arg3)) (V (Proc.devRef .tc main_arg4)) := by
  stage_at atPre 136 StableHlo.binary_result [(rdPre 133 136 rfl (by decide) V).trans (pre_main_v95 V), (rdPre 135 136 rfl (by decide) V).trans (pre_main_v97 V)]
theorem pre_main_v99 (V : Valuation τ sig (Elt F)) : after (Stages.opsPre (F := F)) V (Proc.devRef .tc main_v99) = Stages.res_main_v99 (V (Proc.devRef .tc main_arg0)) (V (Proc.devRef .tc main_arg1)) (V (Proc.devRef .tc main_arg2)) (V (Proc.devRef .tc main_arg3)) (V (Proc.devRef .tc main_arg4)) := by
  stage_at atPre 137 StableHlo.unary_result [(rdPre 136 137 rfl (by decide) V).trans (pre_main_v98 V)]
theorem pre_main_c_20 (V : Valuation τ sig (Elt F)) : after (Stages.opsPre (F := F)) V (Proc.devRef .tc main_c_20) = Stages.res_main_c_20 (V (Proc.devRef .tc main_arg0)) (V (Proc.devRef .tc main_arg1)) (V (Proc.devRef .tc main_arg2)) (V (Proc.devRef .tc main_arg3)) (V (Proc.devRef .tc main_arg4)) := by
  stage_at atPre 138 StableHlo.nullary_result []
theorem pre_main_v100 (V : Valuation τ sig (Elt F)) : after (Stages.opsPre (F := F)) V (Proc.devRef .tc main_v100) = Stages.res_main_v100 (V (Proc.devRef .tc main_arg0)) (V (Proc.devRef .tc main_arg1)) (V (Proc.devRef .tc main_arg2)) (V (Proc.devRef .tc main_arg3)) (V (Proc.devRef .tc main_arg4)) := by
  stage_at atPre 139 StableHlo.unary_result [(rdPre 138 139 rfl (by decide) V).trans (pre_main_c_20 V)]
theorem pre_main_v101 (V : Valuation τ sig (Elt F)) : after (Stages.opsPre (F := F)) V (Proc.devRef .tc main_v101) = Stages.res_main_v101 (V (Proc.devRef .tc main_arg0)) (V (Proc.devRef .tc main_arg1)) (V (Proc.devRef .tc main_arg2)) (V (Proc.devRef .tc main_arg3)) (V (Proc.devRef .tc main_arg4)) := by
  stage_at atPre 140 StableHlo.binary_result [(rdPre 21 140 rfl (by decide) V).trans (pre_main_v11 V), (rdPre 139 140 rfl (by decide) V).trans (pre_main_v100 V)]
theorem pre_main_c_21 (V : Valuation τ sig (Elt F)) : after (Stages.opsPre (F := F)) V (Proc.devRef .tc main_c_21) = Stages.res_main_c_21 (V (Proc.devRef .tc main_arg0)) (V (Proc.devRef .tc main_arg1)) (V (Proc.devRef .tc main_arg2)) (V (Proc.devRef .tc main_arg3)) (V (Proc.devRef .tc main_arg4)) := by
  stage_at atPre 141 StableHlo.nullary_result []
theorem pre_main_v102 (V : Valuation τ sig (Elt F)) : after (Stages.opsPre (F := F)) V (Proc.devRef .tc main_v102) = Stages.res_main_v102 (V (Proc.devRef .tc main_arg0)) (V (Proc.devRef .tc main_arg1)) (V (Proc.devRef .tc main_arg2)) (V (Proc.devRef .tc main_arg3)) (V (Proc.devRef .tc main_arg4)) := by
  stage_at atPre 142 StableHlo.unary_result [(rdPre 141 142 rfl (by decide) V).trans (pre_main_c_21 V)]
theorem pre_main_v103 (V : Valuation τ sig (Elt F)) : after (Stages.opsPre (F := F)) V (Proc.devRef .tc main_v103) = Stages.res_main_v103 (V (Proc.devRef .tc main_arg0)) (V (Proc.devRef .tc main_arg1)) (V (Proc.devRef .tc main_arg2)) (V (Proc.devRef .tc main_arg3)) (V (Proc.devRef .tc main_arg4)) := by
  stage_at atPre 143 StableHlo.binary_result [(rdPre 21 143 rfl (by decide) V).trans (pre_main_v11 V), (rdPre 142 143 rfl (by decide) V).trans (pre_main_v102 V)]
theorem pre_main_v104 (V : Valuation τ sig (Elt F)) : after (Stages.opsPre (F := F)) V (Proc.devRef .tc main_v104) = Stages.res_main_v104 (V (Proc.devRef .tc main_arg0)) (V (Proc.devRef .tc main_arg1)) (V (Proc.devRef .tc main_arg2)) (V (Proc.devRef .tc main_arg3)) (V (Proc.devRef .tc main_arg4)) := by
  stage_at atPre 144 StableHlo.ternary_result [(rdPre 140 144 rfl (by decide) V).trans (pre_main_v101 V), (rdPre 143 144 rfl (by decide) V).trans (pre_main_v103 V), (rdPre 21 144 rfl (by decide) V).trans (pre_main_v11 V)]
theorem pre_main_v105 (V : Valuation τ sig (Elt F)) : after (Stages.opsPre (F := F)) V (Proc.devRef .tc main_v105) = Stages.res_main_v105 (V (Proc.devRef .tc main_arg0)) (V (Proc.devRef .tc main_arg1)) (V (Proc.devRef .tc main_arg2)) (V (Proc.devRef .tc main_arg3)) (V (Proc.devRef .tc main_arg4)) := by
  stage_at atPre 145 StableHlo.unary_result [(rdPre 144 145 rfl (by decide) V).trans (pre_main_v104 V)]
theorem pre_main_v106 (V : Valuation τ sig (Elt F)) : after (Stages.opsPre (F := F)) V (Proc.devRef .tc main_v106) = Stages.res_main_v106 (V (Proc.devRef .tc main_arg0)) (V (Proc.devRef .tc main_arg1)) (V (Proc.devRef .tc main_arg2)) (V (Proc.devRef .tc main_arg3)) (V (Proc.devRef .tc main_arg4)) := by
  stage_at atPre 146 StableHlo.binary_result [(rdPre 137 146 rfl (by decide) V).trans (pre_main_v99 V), (rdPre 145 146 rfl (by decide) V).trans (pre_main_v105 V)]
theorem pre_main_v107 (V : Valuation τ sig (Elt F)) : after (Stages.opsPre (F := F)) V (Proc.devRef .tc main_v107) = Stages.res_main_v107 (V (Proc.devRef .tc main_arg0)) (V (Proc.devRef .tc main_arg1)) (V (Proc.devRef .tc main_arg2)) (V (Proc.devRef .tc main_arg3)) (V (Proc.devRef .tc main_arg4)) := by
  stage_at atPre 147 StableHlo.binary_result [(rdPre 31 147 rfl (by decide) V).trans (pre_main_v20 V), (rdPre 146 147 rfl (by decide) V).trans (pre_main_v106 V)]
theorem pre_main_v108 (V : Valuation τ sig (Elt F)) : after (Stages.opsPre (F := F)) V (Proc.devRef .tc main_v108) = Stages.res_main_v108 (V (Proc.devRef .tc main_arg0)) (V (Proc.devRef .tc main_arg1)) (V (Proc.devRef .tc main_arg2)) (V (Proc.devRef .tc main_arg3)) (V (Proc.devRef .tc main_arg4)) := by
  stage_at atPre 148 StableHlo.unary_result [(rdPre 37 148 rfl (by decide) V).trans (pre_main_v26 V)]
theorem pre_main_v109 (V : Valuation τ sig (Elt F)) : after (Stages.opsPre (F := F)) V (Proc.devRef .tc main_v109) = Stages.res_main_v109 (V (Proc.devRef .tc main_arg0)) (V (Proc.devRef .tc main_arg1)) (V (Proc.devRef .tc main_arg2)) (V (Proc.devRef .tc main_arg3)) (V (Proc.devRef .tc main_arg4)) := by
  stage_at atPre 149 StableHlo.unary_result [(rdPre 20 149 rfl (by decide) V).trans (pre_main_v10 V)]
theorem pre_main_v110 (V : Valuation τ sig (Elt F)) : after (Stages.opsPre (F := F)) V (Proc.devRef .tc main_v110) = Stages.res_main_v110 (V (Proc.devRef .tc main_arg0)) (V (Proc.devRef .tc main_arg1)) (V (Proc.devRef .tc main_arg2)) (V (Proc.devRef .tc main_arg3)) (V (Proc.devRef .tc main_arg4)) := by
  stage_at atPre 150 StableHlo.binary_result [(rdPre 9 150 rfl (by decide) V).trans (pre_main_v4 V), (rdPre 19 150 rfl (by decide) V).trans (pre_main_v9 V)]
theorem pre_main_cst_22 (V : Valuation τ sig (Elt F)) : after (Stages.opsPre (F := F)) V (Proc.devRef .tc main_cst_22) = Stages.res_main_cst_22 (V (Proc.devRef .tc main_arg0)) (V (Proc.devRef .tc main_arg1)) (V (Proc.devRef .tc main_arg2)) (V (Proc.devRef .tc main_arg3)) (V (Proc.devRef .tc main_arg4)) := by
  stage_at atPre 151 StableHlo.nullary_result []
theorem pre_main_v111 (V : Valuation τ sig (Elt F)) : after (Stages.opsPre (F := F)) V (Proc.devRef .tc main_v111) = Stages.res_main_v111 (V (Proc.devRef .tc main_arg0)) (V (Proc.devRef .tc main_arg1)) (V (Proc.devRef .tc main_arg2)) (V (Proc.devRef .tc main_arg3)) (V (Proc.devRef .tc main_arg4)) := by
  stage_at atPre 152 StableHlo.binary_result [(rdPre 150 152 rfl (by decide) V).trans (pre_main_v110 V), (rdPre 151 152 rfl (by decide) V).trans (pre_main_cst_22 V)]
theorem pre_main_cst_23 (V : Valuation τ sig (Elt F)) : after (Stages.opsPre (F := F)) V (Proc.devRef .tc main_cst_23) = Stages.res_main_cst_23 (V (Proc.devRef .tc main_arg0)) (V (Proc.devRef .tc main_arg1)) (V (Proc.devRef .tc main_arg2)) (V (Proc.devRef .tc main_arg3)) (V (Proc.devRef .tc main_arg4)) := by
  stage_at atPre 153 StableHlo.nullary_result []
theorem pre_main_v112 (V : Valuation τ sig (Elt F)) : after (Stages.opsPre (F := F)) V (Proc.devRef .tc main_v112) = Stages.res_main_v112 (V (Proc.devRef .tc main_arg0)) (V (Proc.devRef .tc main_arg1)) (V (Proc.devRef .tc main_arg2)) (V (Proc.devRef .tc main_arg3)) (V (Proc.devRef .tc main_arg4)) := by
  stage_at atPre 154 StableHlo.unary_result [(rdPre 153 154 rfl (by decide) V).trans (pre_main_cst_23 V)]
theorem pre_main_v113 (V : Valuation τ sig (Elt F)) : after (Stages.opsPre (F := F)) V (Proc.devRef .tc main_v113) = Stages.res_main_v113 (V (Proc.devRef .tc main_arg0)) (V (Proc.devRef .tc main_arg1)) (V (Proc.devRef .tc main_arg2)) (V (Proc.devRef .tc main_arg3)) (V (Proc.devRef .tc main_arg4)) := by
  stage_at atPre 155 StableHlo.binary_result [(rdPre 152 155 rfl (by decide) V).trans (pre_main_v111 V), (rdPre 154 155 rfl (by decide) V).trans (pre_main_v112 V)]
theorem pre_main_v114 (V : Valuation τ sig (Elt F)) : after (Stages.opsPre (F := F)) V (Proc.devRef .tc main_v114) = Stages.res_main_v114 (V (Proc.devRef .tc main_arg0)) (V (Proc.devRef .tc main_arg1)) (V (Proc.devRef .tc main_arg2)) (V (Proc.devRef .tc main_arg3)) (V (Proc.devRef .tc main_arg4)) := by
  stage_at atPre 156 StableHlo.unary_result [(rdPre 155 156 rfl (by decide) V).trans (pre_main_v113 V)]
theorem pre_main_v115 (V : Valuation τ sig (Elt F)) : after (Stages.opsPre (F := F)) V (Proc.devRef .tc main_v115) = Stages.res_main_v115 (V (Proc.devRef .tc main_arg0)) (V (Proc.devRef .tc main_arg1)) (V (Proc.devRef .tc main_arg2)) (V (Proc.devRef .tc main_arg3)) (V (Proc.devRef .tc main_arg4)) := by
  stage_at atPre 157 StableHlo.binary_result [(rdPre 156 157 rfl (by decide) V).trans (pre_main_v114 V)]

/-! ## After the launch: every written buffer is its stage of the argument arrays and the launch's output,
    from any contents that hold, in the buffers the tail reads, their stages -/

theorem post_main_v117 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v117) = Stages.res_main_v117 A0 A1 A2 A3 A4 (W (Proc.devRef .tc main_v116)) := by
  stage_at atPost 0 StableHlo.unary_result [rdPost_main_v116 0 W]
theorem post_main_v118 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v118) = Stages.res_main_v118 A0 A1 A2 A3 A4 (W (Proc.devRef .tc main_v116)) := by
  stage_at atPost 1 StableHlo.reshape_result [(rdPost 0 1 rfl (by decide) W).trans (post_main_v117 W A0 A1 A2 A3 A4 h109 h107 h26 h115)]
theorem post_main_cst_24 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_24) = Stages.res_main_cst_24 A0 A1 A2 A3 A4 (W (Proc.devRef .tc main_v116)) := by
  stage_at atPost 2 StableHlo.nullary_result []
theorem post_main_v119 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v119) = Stages.res_main_v119 A0 A1 A2 A3 A4 (W (Proc.devRef .tc main_v116)) := by
  stage_at atPost 3 StableHlo.binary_result [(rdPost 1 3 rfl (by decide) W).trans (post_main_v118 W A0 A1 A2 A3 A4 h109 h107 h26 h115), (rdPost 2 3 rfl (by decide) W).trans (post_main_cst_24 W A0 A1 A2 A3 A4 h109 h107 h26 h115)]
theorem post_main_v120 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v120) = Stages.res_main_v120 A0 A1 A2 A3 A4 (W (Proc.devRef .tc main_v116)) := by
  stage_at atPost 4 StableHlo.unary_result [(rdPost_main_v109 4 W).trans h109]
theorem post_main_v121 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v121) = Stages.res_main_v121 A0 A1 A2 A3 A4 (W (Proc.devRef .tc main_v116)) := by
  stage_at atPost 5 StableHlo.binary_result [(rdPost 4 5 rfl (by decide) W).trans (post_main_v120 W A0 A1 A2 A3 A4 h109 h107 h26 h115)]
theorem post_main_cst_25 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_25) = Stages.res_main_cst_25 A0 A1 A2 A3 A4 (W (Proc.devRef .tc main_v116)) := by
  stage_at atPost 6 StableHlo.nullary_result []
theorem post_main_v122 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v122) = Stages.res_main_v122 A0 A1 A2 A3 A4 (W (Proc.devRef .tc main_v116)) := by
  stage_at atPost 7 StableHlo.binary_result [(rdPost 5 7 rfl (by decide) W).trans (post_main_v121 W A0 A1 A2 A3 A4 h109 h107 h26 h115), (rdPost 6 7 rfl (by decide) W).trans (post_main_cst_25 W A0 A1 A2 A3 A4 h109 h107 h26 h115)]
theorem post_main_cst_26 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_26) = Stages.res_main_cst_26 A0 A1 A2 A3 A4 (W (Proc.devRef .tc main_v116)) := by
  stage_at atPost 8 StableHlo.nullary_result []
theorem post_main_v123 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v123) = Stages.res_main_v123 A0 A1 A2 A3 A4 (W (Proc.devRef .tc main_v116)) := by
  stage_at atPost 9 StableHlo.unary_result [(rdPost 8 9 rfl (by decide) W).trans (post_main_cst_26 W A0 A1 A2 A3 A4 h109 h107 h26 h115)]
theorem post_main_v124 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v124) = Stages.res_main_v124 A0 A1 A2 A3 A4 (W (Proc.devRef .tc main_v116)) := by
  stage_at atPost 10 StableHlo.binary_result [(rdPost 7 10 rfl (by decide) W).trans (post_main_v122 W A0 A1 A2 A3 A4 h109 h107 h26 h115), (rdPost 9 10 rfl (by decide) W).trans (post_main_v123 W A0 A1 A2 A3 A4 h109 h107 h26 h115)]
theorem post_main_v125 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v125) = Stages.res_main_v125 A0 A1 A2 A3 A4 (W (Proc.devRef .tc main_v116)) := by
  stage_at atPost 11 StableHlo.unary_result [(rdPost 10 11 rfl (by decide) W).trans (post_main_v124 W A0 A1 A2 A3 A4 h109 h107 h26 h115)]
theorem post_main_v126 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v126) = Stages.res_main_v126 A0 A1 A2 A3 A4 (W (Proc.devRef .tc main_v116)) := by
  stage_at atPost 12 StableHlo.binary_result [(rdPost_main_v107 12 W).trans h107, (rdPost_main_v26 12 W).trans h26]
theorem post_main_cst_27 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_27) = Stages.res_main_cst_27 A0 A1 A2 A3 A4 (W (Proc.devRef .tc main_v116)) := by
  stage_at atPost 13 StableHlo.nullary_result []
theorem post_main_v127 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v127) = Stages.res_main_v127 A0 A1 A2 A3 A4 (W (Proc.devRef .tc main_v116)) := by
  stage_at atPost 14 StableHlo.binary_result [(rdPost 12 14 rfl (by decide) W).trans (post_main_v126 W A0 A1 A2 A3 A4 h109 h107 h26 h115), (rdPost 13 14 rfl (by decide) W).trans (post_main_cst_27 W A0 A1 A2 A3 A4 h109 h107 h26 h115)]
theorem post_main_v128 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v128) = Stages.res_main_v128 A0 A1 A2 A3 A4 (W (Proc.devRef .tc main_v116)) := by
  stage_at atPost 15 StableHlo.binary_result [(rdPost 11 15 rfl (by decide) W).trans (post_main_v125 W A0 A1 A2 A3 A4 h109 h107 h26 h115), (rdPost 14 15 rfl (by decide) W).trans (post_main_v127 W A0 A1 A2 A3 A4 h109 h107 h26 h115)]
theorem post_main_cst_28 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_28) = Stages.res_main_cst_28 A0 A1 A2 A3 A4 (W (Proc.devRef .tc main_v116)) := by
  stage_at atPost 16 StableHlo.nullary_result []
theorem post_main_v129 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v129) = Stages.res_main_v129 A0 A1 A2 A3 A4 (W (Proc.devRef .tc main_v116)) := by
  stage_at atPost 17 StableHlo.binary_result [(rdPost 15 17 rfl (by decide) W).trans (post_main_v128 W A0 A1 A2 A3 A4 h109 h107 h26 h115), (rdPost 16 17 rfl (by decide) W).trans (post_main_cst_28 W A0 A1 A2 A3 A4 h109 h107 h26 h115)]
theorem post_main_v130 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v130) = Stages.res_main_v130 A0 A1 A2 A3 A4 (W (Proc.devRef .tc main_v116)) := by
  stage_at atPost 18 StableHlo.binary_result [(rdPost 3 18 rfl (by decide) W).trans (post_main_v119 W A0 A1 A2 A3 A4 h109 h107 h26 h115), (rdPost 17 18 rfl (by decide) W).trans (post_main_v129 W A0 A1 A2 A3 A4 h109 h107 h26 h115)]
theorem post_main_v131 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v131) = Stages.res_main_v131 A0 A1 A2 A3 A4 (W (Proc.devRef .tc main_v116)) := by
  stage_at atPost 19 StableHlo.unary_result [(rdPost 18 19 rfl (by decide) W).trans (post_main_v130 W A0 A1 A2 A3 A4 h109 h107 h26 h115)]
theorem post_main_v132 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v132) = Stages.res_main_v132 A0 A1 A2 A3 A4 (W (Proc.devRef .tc main_v116)) := by
  stage_at atPost 20 StableHlo.binary_result [(rdPost_main_v115 20 W).trans h115, (rdPost 19 20 rfl (by decide) W).trans (post_main_v131 W A0 A1 A2 A3 A4 h109 h107 h26 h115)]
theorem post_main_v133 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v133) = Stages.res_main_v133 A0 A1 A2 A3 A4 (W (Proc.devRef .tc main_v116)) := by
  stage_at atPost 21 StableHlo.unary_result [(rdPost 20 21 rfl (by decide) W).trans (post_main_v132 W A0 A1 A2 A3 A4 h109 h107 h26 h115)]
theorem post_main_v134 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v134) = Stages.res_main_v134 A0 A1 A2 A3 A4 (W (Proc.devRef .tc main_v116)) := by
  stage_at atPost 22 StableHlo.unary_result [(rdPost 21 22 rfl (by decide) W).trans (post_main_v133 W A0 A1 A2 A3 A4 h109 h107 h26 h115)]
theorem post_main_cst_29 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_29) = Stages.res_main_cst_29 A0 A1 A2 A3 A4 (W (Proc.devRef .tc main_v116)) := by
  stage_at atPost 23 StableHlo.nullary_result []
theorem post_main_v135 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v135) = Stages.res_main_v135 A0 A1 A2 A3 A4 (W (Proc.devRef .tc main_v116)) := by
  stage_at atPost 24 StableHlo.binary_result [(rdPost 22 24 rfl (by decide) W).trans (post_main_v134 W A0 A1 A2 A3 A4 h109 h107 h26 h115), (rdPost 23 24 rfl (by decide) W).trans (post_main_cst_29 W A0 A1 A2 A3 A4 h109 h107 h26 h115)]
theorem post_main_cst_30 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_cst_30) = Stages.res_main_cst_30 A0 A1 A2 A3 A4 (W (Proc.devRef .tc main_v116)) := by
  stage_at atPost 25 StableHlo.nullary_result []
theorem post_main_v136 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F)) (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    after (Stages.opsPost (F := F)) W (Proc.devRef .tc main_v136) = Stages.res_main_v136 A0 A1 A2 A3 A4 (W (Proc.devRef .tc main_v116)) := by
  stage_at atPost 26 StableHlo.binary_result [(rdPost 24 26 rfl (by decide) W).trans (post_main_v135 W A0 A1 A2 A3 A4 h109 h107 h26 h115), (rdPost 25 26 rfl (by decide) W).trans (post_main_cst_30 W A0 A1 A2 A3 A4 h109 h107 h26 h115)]

/-! ## What the launch and the tail read, and the program's result -/

theorem pre_stage_v109 (V : Valuation τ sig (Elt F)) : StableHlo.after (Stages.opsPre (F := F)) V (Proc.devRef .tc main_v109) = Stages.res_main_v109 (V (Proc.devRef .tc main_arg0)) (V (Proc.devRef .tc main_arg1)) (V (Proc.devRef .tc main_arg2)) (V (Proc.devRef .tc main_arg3)) (V (Proc.devRef .tc main_arg4)) :=
  pre_main_v109 V
theorem pre_stage_v107 (V : Valuation τ sig (Elt F)) : StableHlo.after (Stages.opsPre (F := F)) V (Proc.devRef .tc main_v107) = Stages.res_main_v107 (V (Proc.devRef .tc main_arg0)) (V (Proc.devRef .tc main_arg1)) (V (Proc.devRef .tc main_arg2)) (V (Proc.devRef .tc main_arg3)) (V (Proc.devRef .tc main_arg4)) :=
  pre_main_v107 V
theorem pre_stage_v108 (V : Valuation τ sig (Elt F)) : StableHlo.after (Stages.opsPre (F := F)) V (Proc.devRef .tc main_v108) = Stages.res_main_v108 (V (Proc.devRef .tc main_arg0)) (V (Proc.devRef .tc main_arg1)) (V (Proc.devRef .tc main_arg2)) (V (Proc.devRef .tc main_arg3)) (V (Proc.devRef .tc main_arg4)) :=
  pre_main_v108 V
theorem pre_stage_v26 (V : Valuation τ sig (Elt F)) : StableHlo.after (Stages.opsPre (F := F)) V (Proc.devRef .tc main_v26) = Stages.res_main_v26 (V (Proc.devRef .tc main_arg0)) (V (Proc.devRef .tc main_arg1)) (V (Proc.devRef .tc main_arg2)) (V (Proc.devRef .tc main_arg3)) (V (Proc.devRef .tc main_arg4)) :=
  pre_main_v26 V
theorem pre_stage_v115 (V : Valuation τ sig (Elt F)) : StableHlo.after (Stages.opsPre (F := F)) V (Proc.devRef .tc main_v115) = Stages.res_main_v115 (V (Proc.devRef .tc main_arg0)) (V (Proc.devRef .tc main_arg1)) (V (Proc.devRef .tc main_arg2)) (V (Proc.devRef .tc main_arg3)) (V (Proc.devRef .tc main_arg4)) :=
  pre_main_v115 V

/-- The operations before the launch leave the argument arrays as they were. -/
theorem pre_args (V : Valuation τ sig (Elt F)) :
    StableHlo.after (Stages.opsPre (F := F)) V (Proc.devRef .tc main_arg0) = V (Proc.devRef .tc main_arg0) ∧
    StableHlo.after (Stages.opsPre (F := F)) V (Proc.devRef .tc main_arg1) = V (Proc.devRef .tc main_arg1) ∧
    StableHlo.after (Stages.opsPre (F := F)) V (Proc.devRef .tc main_arg2) = V (Proc.devRef .tc main_arg2) ∧
    StableHlo.after (Stages.opsPre (F := F)) V (Proc.devRef .tc main_arg3) = V (Proc.devRef .tc main_arg3) ∧
    StableHlo.after (Stages.opsPre (F := F)) V (Proc.devRef .tc main_arg4) = V (Proc.devRef .tc main_arg4) :=
  ⟨keepPre_main_arg0 V, keepPre_main_arg1 V, keepPre_main_arg2 V, keepPre_main_arg3 V, keepPre_main_arg4 V⟩

theorem post_stage_v136 (W : Valuation τ sig (Elt F)) (A0 : (⟨S4096x256, .f32⟩ : BufTy).Contents (Elt F)) (A1 : (⟨S4096x256, .f32⟩ : BufTy).Contents (Elt F)) (A2 : (⟨S100x256, .f32⟩ : BufTy).Contents (Elt F)) (A3 : (⟨S2x4096, .i32⟩ : BufTy).Contents (Elt F)) (A4 : (⟨S2x4096x10, .i32⟩ : BufTy).Contents (Elt F))
    (hA0 : W (Proc.devRef .tc main_arg0) = A0) (hA1 : W (Proc.devRef .tc main_arg1) = A1) (hA2 : W (Proc.devRef .tc main_arg2) = A2) (hA3 : W (Proc.devRef .tc main_arg3) = A3) (hA4 : W (Proc.devRef .tc main_arg4) = A4)
    (h109 : W (Proc.devRef .tc main_v109) = Stages.res_main_v109 A0 A1 A2 A3 A4) (h107 : W (Proc.devRef .tc main_v107) = Stages.res_main_v107 A0 A1 A2 A3 A4) (h26 : W (Proc.devRef .tc main_v26) = Stages.res_main_v26 A0 A1 A2 A3 A4) (h115 : W (Proc.devRef .tc main_v115) = Stages.res_main_v115 A0 A1 A2 A3 A4) :
    StableHlo.after (Stages.opsPost (F := F)) W (Proc.devRef .tc main_v136) = Stages.res_main_v136 A0 A1 A2 A3 A4 (W (Proc.devRef .tc main_v116)) :=
  post_main_v136 W A0 A1 A2 A3 A4 h109 h107 h26 h115

/-- The operations after the launch leave the argument arrays as they were. -/
theorem post_args (W : Valuation τ sig (Elt F)) :
    StableHlo.after (Stages.opsPost (F := F)) W (Proc.devRef .tc main_arg0) = W (Proc.devRef .tc main_arg0) ∧
    StableHlo.after (Stages.opsPost (F := F)) W (Proc.devRef .tc main_arg1) = W (Proc.devRef .tc main_arg1) ∧
    StableHlo.after (Stages.opsPost (F := F)) W (Proc.devRef .tc main_arg2) = W (Proc.devRef .tc main_arg2) ∧
    StableHlo.after (Stages.opsPost (F := F)) W (Proc.devRef .tc main_arg3) = W (Proc.devRef .tc main_arg3) ∧
    StableHlo.after (Stages.opsPost (F := F)) W (Proc.devRef .tc main_arg4) = W (Proc.devRef .tc main_arg4) :=
  ⟨keepPost_main_arg0 W, keepPost_main_arg1 W, keepPost_main_arg2 W, keepPost_main_arg3 W, keepPost_main_arg4 W⟩

end Cert.Kernel.Hand

end
-- ==== Proof.KGlue.lean ====
/- The word-level program's copy of KIGlue.lean: the same text with Cert.KernelIdeal ↦ Cert.Kernel, Gen.KernelIdeal ↦ Gen.Kernel,
   KIStages ↦ KStages, the hand modules KI<Name> ↦ K<Name>, and the instance argument [Named F] dropped. -/
/-
  From the launch to the program's result. @main is host lines, one launch, host lines. The lines before the launch compute
  the three arrays the launch reads from the five argument arrays; the launch leaves in its output array the accumulation of
  each row block over the column blocks; the lines after it compute the result from that array and buffers of the first
  lines; no line writes an argument array. So whatever memory holds, outside the launch's arrays, the last lines' table read at
  the launch's exit holds the result as a function of the argument arrays alone, and the argument arrays as they were.
-/
import proofs.«427632_j79637283602625_3_alg».proof.Proof.KBodyDef
import proofs.«427632_j79637283602625_3_alg».proof.Proof.KLaunchA
import proofs.«427632_j79637283602625_3_alg».proof.Proof.KStageRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main around the launch -/

/-- No host line before the launch allocates. -/
theorem pre_fresh : ([hostOps0, hostOps0_1, hostOps0_2, hostOps0_3, hostOps0_4, hostOps0_5, hostOps0_6, hostOps0_7, hostOps0_8, hostOps0_9] : List (List (HloOp τ sig (Elt F)))).Forall
    fun ops => ops.Forall fun op => op.fresh = ∅ := by
  simp only [List.Forall]; repeat' constructor

/-- @main reduces to the launch continued by the later lines, at the contents the earlier lines leave. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main
    [hostOps0, hostOps0_1, hostOps0_2, hostOps0_3, hostOps0_4, hostOps0_5, hostOps0_6, hostOps0_7, hostOps0_8, hostOps0_9] [hostOps1]
    ⟨hostOps0_sub, hostOps0_1_sub, hostOps0_2_sub, hostOps0_3_sub, hostOps0_4_sub, hostOps0_5_sub, hostOps0_6_sub, hostOps0_7_sub, hostOps0_8_sub, hostOps0_9_sub⟩
    pre_fresh main_chain

/-! ## What the lines before the launch leave -/

/-- The entry contents are the first lines' table read from the launch memory. -/
theorem V0_eq (c : Dev nD) : V0 m c = StableHlo.after (Stages.opsPre (F := F)) (fun b => m (c, b)) := by
  show StableHlo.after (List.flatten [hostOps0, hostOps0_1, hostOps0_2, hostOps0_3, hostOps0_4, hostOps0_5, hostOps0_6, hostOps0_7, hostOps0_8, hostOps0_9]) _ = _
  rw [flatten_pre]

/-! ## From the launch's exit to the result -/

/-- If memory holds, at every buffer that is no array of the launch, the last lines' table read at the launch's exit contents,
    and the launch's output array ends at the accumulation over the arrays the launch found, then the result buffer holds the last
    lines' table read at that accumulation, itself read at the first lines' table of the argument arrays, and the argument arrays
    are as they were. -/
theorem glue (c : Dev nD) (mem : (ℓ : Loc nD τ sig) → Buf (Elt F) ℓ)
    (hrest : ∀ b ∈ Pipeline.restRefs sig spec0, mem ((c.tc : Thread nD τ).loc b) = StableHlo.after hostOps1 (exitVal (V0 m) (dats m) c) (Proc.devRef .tc b))
    (hout : (dats m 0 c).arrAt 4 cfg0.N = regionOut (V m c main_v109) (V m c main_v107) (V m c main_v108)) :
    mem ((c.tc : Thread nD τ).loc main_v136)
        = Stages.res_main_v136 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (regionOut
              (Stages.res_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4) := by
  -- the first lines' table at the launch memory
  obtain ⟨ha0, ha1, ha2, ha3, ha4⟩ := pre_args (F := F) (fun b => m (c, b))
  have hE : ∀ b : Ref sig .tc, b ≠ main_v116 → exitVal (V0 m) (dats m) c (Proc.devRef .tc b) = StableHlo.after (Stages.opsPre (F := F)) (fun b => m (c, b)) (Proc.devRef .tc b) :=
    fun b hb => (exitVal_of_ne (V0 m) (dats m) c b hb).trans (congrFun (V0_eq m c) _)
  have hV : ∀ b : Ref sig .tc, V m c b = StableHlo.after (Stages.opsPre (F := F)) (fun b => m (c, b)) (Proc.devRef .tc b) :=
    fun b => congrFun (V0_eq m c) _
  have hW0 := (hE main_arg0 (by decide)).trans ha0
  have hW1 := (hE main_arg1 (by decide)).trans ha1
  have hW2 := (hE main_arg2 (by decide)).trans ha2
  have hW3 := (hE main_arg3 (by decide)).trans ha3
  have hW4 := (hE main_arg4 (by decide)).trans ha4
  have h109 := (hE main_v109 (by decide)).trans (pre_stage_v109 _)
  have h107 := (hE main_v107 (by decide)).trans (pre_stage_v107 _)
  have h26 := (hE main_v26 (by decide)).trans (pre_stage_v26 _)
  have h115 := (hE main_v115 (by decide)).trans (pre_stage_v115 _)
  -- the launch's output array at the launch's exit
  have h116 : exitVal (V0 m) (dats m) c (Proc.devRef .tc main_v116)
      = (regionOut
              (Stages.res_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) := by
    rw [exitVal_out, hout, hV main_v109, hV main_v107, hV main_v108, pre_stage_v109, pre_stage_v107, pre_stage_v108]
  have hpost := post_args (F := F) (exitVal (V0 m) (dats m) c)
  rw [← post_eq] at hpost
  obtain ⟨hp0, hp1, hp2, hp3, hp4⟩ := hpost
  refine ⟨?_, ?_, ?_, ?_, ?_, ?_⟩
  · rw [hrest main_v136 (Pipeline.mem_restRefs_of main_v136 rfl (by decide)), post_eq,
      post_stage_v136 _ _ _ _ _ _ hW0 hW1 hW2 hW3 hW4 h109 h107 h26 h115, h116]
  · exact (hrest main_arg0 (Pipeline.mem_restRefs_of main_arg0 rfl (by decide))).trans (hp0.trans hW0)
  · exact (hrest main_arg1 (Pipeline.mem_restRefs_of main_arg1 rfl (by decide))).trans (hp1.trans hW1)
  · exact (hrest main_arg2 (Pipeline.mem_restRefs_of main_arg2 rfl (by decide))).trans (hp2.trans hW2)
  · exact (hrest main_arg3 (Pipeline.mem_restRefs_of main_arg3 rfl (by decide))).trans (hp3.trans hW3)
  · exact (hrest main_arg4 (Pipeline.mem_restRefs_of main_arg4 rfl (by decide))).trans (hp4.trans hW4)

end Cert.Kernel.Hand

end
-- ==== Proof.KRun.lean ====
/- The word-level program's copy of KIRun.lean: the same text with Cert.KernelIdeal ↦ Cert.Kernel, Gen.KernelIdeal ↦ Gen.Kernel,
   KIStages ↦ KStages, the hand modules KI<Name> ↦ K<Name>, and the instance argument [Named F] dropped. -/
/-
  The kernel program's run. @main is host lines, one launch, host lines. The lines before the launch compute the three arrays
  the launch reads from the five argument arrays; the launch leaves in its output array the eight-fold accumulation of each
  row block over the column blocks; the lines after it compute the result from that array, the arrays the launch read and
  two further buffers of the first lines, and no line writes an argument array.
-/
import proofs.«427632_j79637283602625_3_alg».proof.Proof.KLaunch
import proofs.«427632_j79637283602625_3_alg».proof.Proof.KBody
import proofs.«427632_j79637283602625_3_alg».proof.Proof.KArrAt
import proofs.«427632_j79637283602625_3_alg».proof.Proof.KGlue

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every weakly fair execution of the program ends; the result buffer holds the last lines' table read at the launch's
    accumulated output, itself read at the first lines' table; the argument arrays are as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v136)
        = Stages.res_main_v136 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (regionOut
              (Stages.res_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (Stages.res_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hrun : θ_run (defs (F := F)) (onTc (τ := τ) (main (F := F))) (s₀ m ρ) (RunPost (V0 m) (dats m)) :=
    run_region m ρ (main (F := F)) (V0 m) (dats m) (q0 m) (q1 m) (q2 m) (q3 m) (owed_eq m) (A_eq m)
      (fun c => by rw [Phi_eq]) (fun c => by rw [Phi_eq]) (fun c => (body_obligation m c).loose) (hmain m)
  refine (θ_run (defs (F := F)) _ _).mono ?_ hrun
  intro r h c
  exact glue m c r.2.mem (h c).2 (arrAt_out m c)

end Cert.Kernel.Hand

end
-- ==== Proof.RefRunLine.lean ====
/-
  A straight line of host operations, read one operation at a time.

  `pre k ops V` is what the buffers hold after the first `k` operations of the line `ops`, run from contents `V`. Past the
  line's length it is the whole line's fold; one operation further it is that operation's result on the prefix before; and in a
  line whose operations write, in order, exactly the references of a list, a reference that no operation from position `j` on
  writes holds after any longer prefix what it held after the first `j`. So in a line that writes every buffer once, each
  buffer's final contents are its own operation's function of the contents its operands had when that operation ran, and those
  are the operands' final contents: the buffers can be read off in program order, each from the ones before, and no term is
  ever written out twice however often a buffer is read.
-/
import proofs.«427632_j79637283602625_3_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- The contents after the first `k` operations of a line. -/
def pre : ℕ → List (HloOp τ sig (Elt F)) → Valuation τ sig (Elt F) → Valuation τ sig (Elt F)
  | 0, _, V => V
  | _ + 1, [], V => V
  | k + 1, op :: ops, V => pre k ops (op.result V)

theorem pre_zero (ops : List (HloOp τ sig (Elt F))) (V : Valuation τ sig (Elt F)) : pre 0 ops V = V := by
  cases ops <;> rfl

/-- Past the line's length the prefix is the whole line. -/
theorem pre_all : ∀ (ops : List (HloOp τ sig (Elt F))) (V : Valuation τ sig (Elt F)) (k : ℕ), ops.length ≤ k → pre k ops V = after ops V
  | [], _, 0, _ => rfl
  | [], _, _ + 1, _ => rfl
  | _ :: _, _, 0, h => absurd h (Nat.not_succ_le_zero _)
  | op :: ops, V, k + 1, h => by
    show pre k ops (op.result V) = after ops (op.result V)
    exact pre_all ops _ k (Nat.le_of_succ_le_succ h)

/-- One more operation: the prefix one longer is that operation's result on the prefix. -/
theorem pre_step : ∀ (ops : List (HloOp τ sig (Elt F))) (j : ℕ) (V : Valuation τ sig (Elt F)) (op : HloOp τ sig (Elt F)),
    ops[j]? = some op → pre (j + 1) ops V = op.result (pre j ops V)
  | [], _, _, _, h => by simp at h
  | o :: os, 0, V, op, h => by
    have e : o = op := by simpa using h
    subst e
    show pre 0 os (o.result V) = o.result (pre 0 (o :: os) V)
    rw [pre_zero, pre_zero]
  | o :: os, j + 1, V, op, h => by
    have h' : os[j]? = some op := by simpa using h
    show pre (j + 1) os (o.result V) = op.result (pre j os (o.result V))
    exact pre_step os j _ op h'

/-- In a line whose operations write, in order, exactly the references `wr`: a reference that none of the operations from
    position `j` on writes holds after any longer prefix what it held after the first `j`. -/
theorem pre_keep {ops : List (HloOp τ sig (Elt F))} {wr : List (Ref sig .tc)}
    (H : List.Forall₂ (fun op w => op.writes = ({Proc.devRef (τ := τ) .tc w} : Finset (DevRef τ sig))) ops wr)
    (r : Ref sig .tc) : ∀ (j k : ℕ) (V : Valuation τ sig (Elt F)), j ≤ k → r ∉ wr.drop j →
      pre k ops V (Proc.devRef .tc r) = pre j ops V (Proc.devRef .tc r) := by
  induction H with
  | nil =>
    intro j k V _ _
    cases j <;> cases k <;> rfl
  | @cons op w ops wr hw _ ih =>
    intro j k V hjk hr
    cases k with
    | zero =>
      have e : j = 0 := Nat.le_zero.1 hjk
      subst e; rfl
    | succ k =>
      cases j with
      | zero =>
        have hrw : r ∉ w :: wr := by simpa using hr
        have hne : r ≠ w := fun e => hrw (e ▸ List.mem_cons_self)
        have hr' : r ∉ wr.drop 0 := by
          rw [List.drop_zero]; exact fun h => hrw (List.mem_cons_of_mem _ h)
        show pre k ops (op.result V) (Proc.devRef .tc r) = pre 0 (op :: ops) V (Proc.devRef .tc r)
        rw [ih 0 k _ (Nat.zero_le _) hr', pre_zero, pre_zero]
        exact op.result_of_not_mem V (by rw [hw, Finset.mem_singleton]; exact devRef_ne_of_ne hne)
      | succ j =>
        show pre k ops (op.result V) (Proc.devRef .tc r) = pre j ops (op.result V) (Proc.devRef .tc r)
        exact ih j k _ (Nat.le_of_succ_le_succ hjk) (by simpa using hr)

/-! Each builder's result, read at the prefix that ends with it. -/

theorem pre_nullary (ops : List (HloOp τ sig (Elt F))) (j : ℕ) (V : Valuation τ sig (Elt F)) (y : Ref sig .tc) (v : y.ty.Contents (Elt F)) (hy)
    (h : ops[j]? = some (nullary y v hy)) : pre (j + 1) ops V (Proc.devRef .tc y) = v := by
  rw [pre_step ops j V _ h, nullary_result]

theorem pre_unary (ops : List (HloOp τ sig (Elt F))) (j : ℕ) (V : Valuation τ sig (Elt F)) (x y : Ref sig .tc)
    (f : x.ty.Contents (Elt F) → y.ty.Contents (Elt F)) (hx hy) (h : ops[j]? = some (unary x y f hx hy)) :
    pre (j + 1) ops V (Proc.devRef .tc y) = f (pre j ops V (Proc.devRef .tc x)) := by
  rw [pre_step ops j V _ h, unary_result]

theorem pre_binary (ops : List (HloOp τ sig (Elt F))) (j : ℕ) (V : Valuation τ sig (Elt F)) (a b y : Ref sig .tc)
    (f : a.ty.Contents (Elt F) → b.ty.Contents (Elt F) → y.ty.Contents (Elt F)) (ha hb hy) (h : ops[j]? = some (binary a b y f ha hb hy)) :
    pre (j + 1) ops V (Proc.devRef .tc y) = f (pre j ops V (Proc.devRef .tc a)) (pre j ops V (Proc.devRef .tc b)) := by
  rw [pre_step ops j V _ h, binary_result]

theorem pre_ternary (ops : List (HloOp τ sig (Elt F))) (j : ℕ) (V : Valuation τ sig (Elt F)) (c a b y : Ref sig .tc)
    (f : c.ty.Contents (Elt F) → a.ty.Contents (Elt F) → b.ty.Contents (Elt F) → y.ty.Contents (Elt F)) (hc ha hb hy)
    (h : ops[j]? = some (ternary c a b y f hc ha hb hy)) :
    pre (j + 1) ops V (Proc.devRef .tc y)
      = f (pre j ops V (Proc.devRef .tc c)) (pre j ops V (Proc.devRef .tc a)) (pre j ops V (Proc.devRef .tc b)) := by
  rw [pre_step ops j V _ h, ternary_result]

theorem pre_reshape (ops : List (HloOp τ sig (Elt F))) (j : ℕ) (V : Valuation τ sig (Elt F)) (x y : Ref sig .tc) (he hn hx hy)
    (h : ops[j]? = some (reshape (Val := Elt F) x y he hn hx hy)) :
    pre (j + 1) ops V (Proc.devRef .tc y) = fun i => he ▸ shapeCast y.ty.shape (pre j ops V (Proc.devRef .tc x)) hn i := by
  rw [pre_step ops j V _ h, reshape_result]

end Cert.ReferenceIdeal.Hand

end
-- ==== Proof.RefStages.lean ====
/- A table, not an argument: every host operation of the printed program, in program order, as a definition of its result from its operands'
   (outlined functions inlined at their call sites, their buffers named by the call records), and the same operations as a list. -/
import proofs.«427632_j79637283602625_3_alg».proof.ReferenceIdeal

set_option maxRecDepth 16384

noncomputable section

namespace Cert.ReferenceIdeal.Stages

open Cert.ReferenceIdeal Idealize.ShloMosaic Idealize.ShloMosaic.TcCoe Idealize.SL.Sem
open Cert.ReferenceIdeal.Facts₀ Cert.ReferenceIdeal.Facts

variable {F : FTy → Type} [FloatOps F] [Cert.ReferenceIdeal.Facts]

/-! ## Stages -/

/-- `main_call0_v0`: binary of main_arg0, main_arg0. -/
def res_main_call0_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) a0 a0
/-- `main_call0_cst`: nullary. -/
def res_main_call0_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call0_v1`: binary of main_call0_v0, main_call0_cst. -/
def res_main_call0_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F)) (res_main_call0_v0 a0 a1 a2 a3 a4) (res_main_call0_cst a0 a1 a2 a3 a4)
/-- `main_call0_v2`: unary of main_call0_v1. -/
def res_main_call0_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (res_main_call0_v1 a0 a1 a2 a3 a4)
/-- `main_v0`: unary of main_call0_v2. -/
def res_main_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (Host.sqrt : (⟨S4096x1, .f32⟩ : BufTy).Contents (Elt F) → (⟨S4096x1, .f32⟩ : BufTy).Contents (Elt F)) (res_main_call0_v2 a0 a1 a2 a3 a4)
/-- `main_cst`: nullary. -/
def res_main_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v1`: unary of main_cst. -/
def res_main_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![] bcast_S_S4096x1 : (⟨S_, .f32⟩ : BufTy).Contents (Elt F) → (⟨S4096x1, .f32⟩ : BufTy).Contents (Elt F)) (res_main_cst a0 a1 a2 a3 a4)
/-- `main_v2`: binary of main_v0, main_v1. -/
def res_main_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (maximumf : (⟨S4096x1, .f32⟩ : BufTy).Contents (Elt F) → (⟨S4096x1, .f32⟩ : BufTy).Contents (Elt F) → (⟨S4096x1, .f32⟩ : BufTy).Contents (Elt F)) (res_main_v0 a0 a1 a2 a3 a4) (res_main_v1 a0 a1 a2 a3 a4)
/-- `main_v3`: unary of main_v2. -/
def res_main_v3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (broadcastInDim S4096x256 ![0, 1] bcast_S4096x1_S4096x256_0_1 : (⟨S4096x1, .f32⟩ : BufTy).Contents (Elt F) → (⟨S4096x256, .f32⟩ : BufTy).Contents (Elt F)) (res_main_v2 a0 a1 a2 a3 a4)
/-- `main_v4`: binary of main_arg0, main_v3. -/
def res_main_v4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (Host.divf : (⟨S4096x256, .f32⟩ : BufTy).Contents (Elt F) → (⟨S4096x256, .f32⟩ : BufTy).Contents (Elt F) → (⟨S4096x256, .f32⟩ : BufTy).Contents (Elt F)) a0 (res_main_v3 a0 a1 a2 a3 a4)
/-- `main_call1_v0`: binary of main_arg1, main_arg1. -/
def res_main_call1_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) a1 a1
/-- `main_call1_cst`: nullary. -/
def res_main_call1_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call1_v1`: binary of main_call1_v0, main_call1_cst. -/
def res_main_call1_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F)) (res_main_call1_v0 a0 a1 a2 a3 a4) (res_main_call1_cst a0 a1 a2 a3 a4)
/-- `main_call1_v2`: unary of main_call1_v1. -/
def res_main_call1_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (res_main_call1_v1 a0 a1 a2 a3 a4)
/-- `main_v5`: unary of main_call1_v2. -/
def res_main_v5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (Host.sqrt : (⟨S4096x1, .f32⟩ : BufTy).Contents (Elt F) → (⟨S4096x1, .f32⟩ : BufTy).Contents (Elt F)) (res_main_call1_v2 a0 a1 a2 a3 a4)
/-- `main_cst_0`: nullary. -/
def res_main_cst_0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v6`: unary of main_cst_0. -/
def res_main_v6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (broadcastInDim S4096x1 ![] bcast_S_S4096x1 : (⟨S_, .f32⟩ : BufTy).Contents (Elt F) → (⟨S4096x1, .f32⟩ : BufTy).Contents (Elt F)) (res_main_cst_0 a0 a1 a2 a3 a4)
/-- `main_v7`: binary of main_v5, main_v6. -/
def res_main_v7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x1, .f32⟩ : BufTy).Contents (Elt F) :=
  (maximumf : (⟨S4096x1, .f32⟩ : BufTy).Contents (Elt F) → (⟨S4096x1, .f32⟩ : BufTy).Contents (Elt F) → (⟨S4096x1, .f32⟩ : BufTy).Contents (Elt F)) (res_main_v5 a0 a1 a2 a3 a4) (res_main_v6 a0 a1 a2 a3 a4)
/-- `main_v8`: unary of main_v7. -/
def res_main_v8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (broadcastInDim S4096x256 ![0, 1] bcast_S4096x1_S4096x256_0_1 : (⟨S4096x1, .f32⟩ : BufTy).Contents (Elt F) → (⟨S4096x256, .f32⟩ : BufTy).Contents (Elt F)) (res_main_v7 a0 a1 a2 a3 a4)
/-- `main_v9`: binary of main_arg1, main_v8. -/
def res_main_v9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (Host.divf : (⟨S4096x256, .f32⟩ : BufTy).Contents (Elt F) → (⟨S4096x256, .f32⟩ : BufTy).Contents (Elt F) → (⟨S4096x256, .f32⟩ : BufTy).Contents (Elt F)) a1 (res_main_v8 a0 a1 a2 a3 a4)
/-- `main_v10`: binary of main_v4, main_v9. -/
def res_main_v10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x256, .f32⟩ : BufTy).Contents (Elt F) :=
  ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)) (res_main_v4 a0 a1 a2 a3 a4) (res_main_v9 a0 a1 a2 a3 a4)
/-- `main_v11`: unary of main_v10. -/
def res_main_v11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S256x8192, .f32⟩ : BufTy).Contents (Elt F) :=
  ((transpose S256x8192 [1, 0] · transposes_S8192x256_S256x8192_1_0) : (⟨S8192x256, .f32⟩ : BufTy).Contents (Elt F) → (⟨S256x8192, .f32⟩ : BufTy).Contents (Elt F)) (res_main_v10 a0 a1 a2 a3 a4)
/-- `main_v12`: binary of main_v10, main_v11. -/
def res_main_v12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)) (res_main_v10 a0 a1 a2 a3 a4) (res_main_v11 a0 a1 a2 a3 a4)
/-- `main_cst_1`: nullary. -/
def res_main_cst_1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3E4CCCCD#32 : (⟨S_, .f32⟩ : BufTy).Contents (Elt F))
/-- `main_v13`: unary of main_cst_1. -/
def res_main_v13 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![] bcast_S_S8192x8192 : (⟨S_, .f32⟩ : BufTy).Contents (Elt F) → (⟨S8192x8192, .f32⟩ : BufTy).Contents (Elt F)) (res_main_cst_1 a0 a1 a2 a3 a4)
/-- `main_v14`: binary of main_v12, main_v13. -/
def res_main_v14 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (Host.divf : (⟨S8192x8192, .f32⟩ : BufTy).Contents (Elt F) → (⟨S8192x8192, .f32⟩ : BufTy).Contents (Elt F) → (⟨S8192x8192, .f32⟩ : BufTy).Contents (Elt F)) (res_main_v12 a0 a1 a2 a3 a4) (res_main_v13 a0 a1 a2 a3 a4)
/-- `main_v15`: unary of main_v14. -/
def res_main_v15 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (Host.exp : (⟨S8192x8192, .f32⟩ : BufTy).Contents (Elt F) → (⟨S8192x8192, .f32⟩ : BufTy).Contents (Elt F)) (res_main_v14 a0 a1 a2 a3 a4)
/-- `main_v16`: nullary. -/
def res_main_v16 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i32⟩ : BufTy).Contents (Elt F) :=
  (iotaInDim S8192x8192 32 0 : (⟨S8192x8192, .i32⟩ : BufTy).Contents (Elt F))
/-- `main_v17`: nullary. -/
def res_main_v17 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i32⟩ : BufTy).Contents (Elt F) :=
  (iotaInDim S8192x8192 32 1 : (⟨S8192x8192, .i32⟩ : BufTy).Contents (Elt F))
/-- `main_c`: nullary. -/
def res_main_c (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_v18`: unary of main_c. -/
def res_main_v18 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i32⟩ : BufTy).Contents (Elt F) :=
  (broadcastInDim S8192x8192 ![] bcast_S_S8192x8192 : (⟨S_, .i32⟩ : BufTy).Contents (Elt F) → (⟨S8192x8192, .i32⟩ : BufTy).Contents (Elt F)) (res_main_c a0 a1 a2 a3 a4)
/-- `main_v19`: binary of main_v16, main_v18. -/
def res_main_v19 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i32⟩ : BufTy).Contents (Elt F) :=
  (addi : (⟨S8192x8192, .i32⟩ : BufTy).Contents (Elt F) → (⟨S8192x8192, .i32⟩ : BufTy).Contents (Elt F) → (⟨S8192x8192, .i32⟩ : BufTy).Contents (Elt F)) (res_main_v16 a0 a1 a2 a3 a4) (res_main_v18 a0 a1 a2 a3 a4)
/-- `main_v20`: binary of main_v19, main_v17. -/
def res_main_v20 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i1⟩ : BufTy).Contents (Elt F) :=
  (cmpi .eq : (⟨S8192x8192, .i32⟩ : BufTy).Contents (Elt F) → (⟨S8192x8192, .i32⟩ : BufTy).Contents (Elt F) → (⟨S8192x8192, .i1⟩ : BufTy).Contents (Elt F)) (res_main_v19 a0 a1 a2 a3 a4) (res_main_v17 a0 a1 a2 a3 a4)
/-- `main_v21`: reshape of main_arg3. -/
def res_main_v21 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (fun x => shapeCast S8192 x shapeCasts_S2x4096_S8192 : (⟨S2x4096, .i32⟩ : BufTy).Contents (Elt F) → (⟨S8192, .i32⟩ : BufTy).Contents (Elt F)) a3
/-- `main_v22`: reshape of main_arg4. -/
def res_main_v22 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10, .i32⟩ : BufTy).Contents (Elt F) :=
  (fun x => shapeCast S8192x10 x shapeCasts_S2x4096x10_S8192x10 : (⟨S2x4096x10, .i32⟩ : BufTy).Contents (Elt F) → (⟨S8192x10, .i32⟩ : BufTy).Contents (Elt F)) a4
/-- `main_v23`: unary of main_v22. -/
def res_main_v23 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x1, .i32⟩ : BufTy).Contents (Elt F) :=
  (broadcastInDim S8192x10x1 ![0, 1] bcast_S8192x10_S8192x10x1_0_1 : (⟨S8192x10, .i32⟩ : BufTy).Contents (Elt F) → (⟨S8192x10x1, .i32⟩ : BufTy).Contents (Elt F)) (res_main_v22 a0 a1 a2 a3 a4)
/-- `main_v24`: nullary. -/
def res_main_v24 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .i32⟩ : BufTy).Contents (Elt F) :=
  (iotaInDim S100 32 0 : (⟨S100, .i32⟩ : BufTy).Contents (Elt F))
/-- `main_v25`: unary of main_v24. -/
def res_main_v25 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x1x100, .i32⟩ : BufTy).Contents (Elt F) :=
  (broadcastInDim S1x1x100 ![2] bcast_S100_S1x1x100_2 : (⟨S100, .i32⟩ : BufTy).Contents (Elt F) → (⟨S1x1x100, .i32⟩ : BufTy).Contents (Elt F)) (res_main_v24 a0 a1 a2 a3 a4)
/-- `main_v26`: unary of main_v23. -/
def res_main_v26 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i32⟩ : BufTy).Contents (Elt F) :=
  (broadcastInDim S8192x10x100 ![0, 1, 2] bcast_S8192x10x1_S8192x10x100_0_1_2 : (⟨S8192x10x1, .i32⟩ : BufTy).Contents (Elt F) → (⟨S8192x10x100, .i32⟩ : BufTy).Contents (Elt F)) (res_main_v23 a0 a1 a2 a3 a4)
/-- `main_v27`: unary of main_v25. -/
def res_main_v27 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i32⟩ : BufTy).Contents (Elt F) :=
  (broadcastInDim S8192x10x100 ![0, 1, 2] bcast_S1x1x100_S8192x10x100_0_1_2 : (⟨S1x1x100, .i32⟩ : BufTy).Contents (Elt F) → (⟨S8192x10x100, .i32⟩ : BufTy).Contents (Elt F)) (res_main_v25 a0 a1 a2 a3 a4)
/-- `main_v28`: binary of main_v26, main_v27. -/
def res_main_v28 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x10x100, .i1⟩ : BufTy).Contents (Elt F) :=
  (cmpi .eq : (⟨S8192x10x100, .i32⟩ : BufTy).Contents (Elt F) → (⟨S8192x10x100, .i32⟩ : BufTy).Contents (Elt F) → (⟨S8192x10x100, .i1⟩ : BufTy).Contents (Elt F)) (res_main_v26 a0 a1 a2 a3 a4) (res_main_v27 a0 a1 a2 a3 a4)
/-- `main_c_2`: nullary. -/
def res_main_c_2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i1⟩ : BufTy).Contents (Elt F) :=
  (constantI S_ 1 0#1 : (⟨S_, .i1⟩ : BufTy).Contents (Elt F))
/-- `main_v29`: binary of main_v28, main_c_2. -/
def res_main_v29 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x100, .i1⟩ : BufTy).Contents (Elt F) :=
  ((fun x v => Host.reduce IntOp.ori x v reducesTo_S8192x10x100_S8192x100_d1 h_S_) : (⟨S8192x10x100, .i1⟩ : BufTy).Contents (Elt F) → (⟨S_, .i1⟩ : BufTy).Contents (Elt F) → (⟨S8192x100, .i1⟩ : BufTy).Contents (Elt F)) (res_main_v28 a0 a1 a2 a3 a4) (res_main_c_2 a0 a1 a2 a3 a4)
/-- `main_call2_c`: nullary. -/
def res_main_call2_c (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_call2_v0`: unary of main_call2_c. -/
def res_main_call2_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (broadcastInDim S8192 ![] bcast_S_S8192 : (⟨S_, .i32⟩ : BufTy).Contents (Elt F) → (⟨S8192, .i32⟩ : BufTy).Contents (Elt F)) (res_main_call2_c a0 a1 a2 a3 a4)
/-- `main_call2_v1`: binary of main_v21, main_call2_v0. -/
def res_main_call2_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F)) (res_main_v21 a0 a1 a2 a3 a4) (res_main_call2_v0 a0 a1 a2 a3 a4)
/-- `main_call2_c_0`: nullary. -/
def res_main_call2_c_0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 100#32 : (⟨S_, .i32⟩ : BufTy).Contents (Elt F))
/-- `main_call2_v2`: unary of main_call2_c_0. -/
def res_main_call2_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (broadcastInDim S8192 ![] bcast_S_S8192 : (⟨S_, .i32⟩ : BufTy).Contents (Elt F) → (⟨S8192, .i32⟩ : BufTy).Contents (Elt F)) (res_main_call2_c_0 a0 a1 a2 a3 a4)
/-- `main_call2_v3`: binary of main_v21, main_call2_v2. -/
def res_main_call2_v3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (addi : (⟨S8192, .i32⟩ : BufTy).Contents (Elt F) → (⟨S8192, .i32⟩ : BufTy).Contents (Elt F) → (⟨S8192, .i32⟩ : BufTy).Contents (Elt F)) (res_main_v21 a0 a1 a2 a3 a4) (res_main_call2_v2 a0 a1 a2 a3 a4)
/-- `main_call2_v4`: ternary of main_call2_v1, main_call2_v3, main_v21. -/
def res_main_call2_v4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (res_main_call2_v1 a0 a1 a2 a3 a4) (res_main_call2_v3 a0 a1 a2 a3 a4) (res_main_v21 a0 a1 a2 a3 a4)
/-- `main_call2_v5`: unary of main_call2_v4. -/
def res_main_call2_v5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (res_main_call2_v4 a0 a1 a2 a3 a4)
/-- `main_call2_c_1`: nullary. -/
def res_main_call2_c_1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1, .i32⟩ : BufTy).Contents (Elt F) :=
  (constantI S1 32 99#32 : (⟨S1, .i32⟩ : BufTy).Contents (Elt F))
/-- `main_call2_c_2`: nullary. -/
def res_main_call2_c_2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_call2_v6`: unary of main_call2_c_2. -/
def res_main_call2_v6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![] bcast_S_S8192x1 : (⟨S_, .i32⟩ : BufTy).Contents (Elt F) → (⟨S8192x1, .i32⟩ : BufTy).Contents (Elt F)) (res_main_call2_c_2 a0 a1 a2 a3 a4)
/-- `main_call2_v7`: binary of main_call2_v5, main_call2_v6. -/
def res_main_call2_v7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i1⟩ : BufTy).Contents (Elt F) :=
  (cmpi .sge : (⟨S8192x1, .i32⟩ : BufTy).Contents (Elt F) → (⟨S8192x1, .i32⟩ : BufTy).Contents (Elt F) → (⟨S8192x1, .i1⟩ : BufTy).Contents (Elt F)) (res_main_call2_v5 a0 a1 a2 a3 a4) (res_main_call2_v6 a0 a1 a2 a3 a4)
/-- `main_call2_v8`: unary of main_call2_c_1. -/
def res_main_call2_v8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x1, .i32⟩ : BufTy).Contents (Elt F) :=
  (broadcastInDim S1x1 ![1] bcast_S1_S1x1_1 : (⟨S1, .i32⟩ : BufTy).Contents (Elt F) → (⟨S1x1, .i32⟩ : BufTy).Contents (Elt F)) (res_main_call2_c_1 a0 a1 a2 a3 a4)
/-- `main_call2_v9`: unary of main_call2_v8. -/
def res_main_call2_v9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![0, 1] bcast_S1x1_S8192x1_0_1 : (⟨S1x1, .i32⟩ : BufTy).Contents (Elt F) → (⟨S8192x1, .i32⟩ : BufTy).Contents (Elt F)) (res_main_call2_v8 a0 a1 a2 a3 a4)
/-- `main_call2_v10`: binary of main_call2_v5, main_call2_v9. -/
def res_main_call2_v10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i1⟩ : BufTy).Contents (Elt F) :=
  (cmpi .sle : (⟨S8192x1, .i32⟩ : BufTy).Contents (Elt F) → (⟨S8192x1, .i32⟩ : BufTy).Contents (Elt F) → (⟨S8192x1, .i1⟩ : BufTy).Contents (Elt F)) (res_main_call2_v5 a0 a1 a2 a3 a4) (res_main_call2_v9 a0 a1 a2 a3 a4)
/-- `main_call2_v11`: binary of main_call2_v7, main_call2_v10. -/
def res_main_call2_v11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i1⟩ : BufTy).Contents (Elt F) :=
  (andi : (⟨S8192x1, .i1⟩ : BufTy).Contents (Elt F) → (⟨S8192x1, .i1⟩ : BufTy).Contents (Elt F) → (⟨S8192x1, .i1⟩ : BufTy).Contents (Elt F)) (res_main_call2_v7 a0 a1 a2 a3 a4) (res_main_call2_v10 a0 a1 a2 a3 a4)
/-- `main_call2_c_3`: nullary. -/
def res_main_call2_c_3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i1⟩ : BufTy).Contents (Elt F) :=
  (constantI S_ 1 1#1 : (⟨S_, .i1⟩ : BufTy).Contents (Elt F))
/-- `main_call2_v12`: binary of main_call2_v11, main_call2_c_3. -/
def res_main_call2_v12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .i1⟩ : BufTy).Contents (Elt F) :=
  (fun x v => Host.reduce IntOp.andi x v reducesTo_S8192x1_S8192_d1 h_S_ : (⟨S8192x1, .i1⟩ : BufTy).Contents (Elt F) → (⟨S_, .i1⟩ : BufTy).Contents (Elt F) → (⟨S8192, .i1⟩ : BufTy).Contents (Elt F)) (res_main_call2_v11 a0 a1 a2 a3 a4) (res_main_call2_c_3 a0 a1 a2 a3 a4)
/-- `main_call2_v13`: binary of main_v29, main_call2_v5. -/
def res_main_call2_v13 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i1⟩ : BufTy).Contents (Elt F) :=
  (fun x i => Host.gather gather_S8192x100_S8192x1_S8192x8192_0_1_n_n_1_1_81921 x i : (⟨S8192x100, .i1⟩ : BufTy).Contents (Elt F) → (⟨S8192x1, .i32⟩ : BufTy).Contents (Elt F) → (⟨S8192x8192, .i1⟩ : BufTy).Contents (Elt F)) (res_main_v29 a0 a1 a2 a3 a4) (res_main_call2_v5 a0 a1 a2 a3 a4)
/-- `main_call2_v14`: unary of main_call2_v12. -/
def res_main_call2_v14 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i1⟩ : BufTy).Contents (Elt F) :=
  (broadcastInDim S8192x8192 ![1] bcast_S8192_S8192x8192_1 : (⟨S8192, .i1⟩ : BufTy).Contents (Elt F) → (⟨S8192x8192, .i1⟩ : BufTy).Contents (Elt F)) (res_main_call2_v12 a0 a1 a2 a3 a4)
/-- `main_call2_c_4`: nullary. -/
def res_main_call2_c_4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i1⟩ : BufTy).Contents (Elt F) :=
  (constantI S_ 1 1#1 : (⟨S_, .i1⟩ : BufTy).Contents (Elt F))
/-- `main_call2_v15`: unary of main_call2_c_4. -/
def res_main_call2_v15 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i1⟩ : BufTy).Contents (Elt F) :=
  (broadcastInDim S8192x8192 ![] bcast_S_S8192x8192 : (⟨S_, .i1⟩ : BufTy).Contents (Elt F) → (⟨S8192x8192, .i1⟩ : BufTy).Contents (Elt F)) (res_main_call2_c_4 a0 a1 a2 a3 a4)
/-- `main_v30`: ternary of main_call2_v14, main_call2_v13, main_call2_v15. -/
def res_main_v30 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i1⟩ : BufTy).Contents (Elt F) :=
  (select : (⟨S8192x8192, .i1⟩ : BufTy).Contents (Elt F) → (⟨S8192x8192, .i1⟩ : BufTy).Contents (Elt F) → (⟨S8192x8192, .i1⟩ : BufTy).Contents (Elt F) → (⟨S8192x8192, .i1⟩ : BufTy).Contents (Elt F)) (res_main_call2_v14 a0 a1 a2 a3 a4) (res_main_call2_v13 a0 a1 a2 a3 a4) (res_main_call2_v15 a0 a1 a2 a3 a4)
/-- `main_v31`: unary of main_v20. -/
def res_main_v31 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i1⟩ : BufTy).Contents (Elt F) :=
  (noti : (⟨S8192x8192, .i1⟩ : BufTy).Contents (Elt F) → (⟨S8192x8192, .i1⟩ : BufTy).Contents (Elt F)) (res_main_v20 a0 a1 a2 a3 a4)
/-- `main_v32`: binary of main_v31, main_v30. -/
def res_main_v32 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i1⟩ : BufTy).Contents (Elt F) :=
  (andi : (⟨S8192x8192, .i1⟩ : BufTy).Contents (Elt F) → (⟨S8192x8192, .i1⟩ : BufTy).Contents (Elt F) → (⟨S8192x8192, .i1⟩ : BufTy).Contents (Elt F)) (res_main_v31 a0 a1 a2 a3 a4) (res_main_v30 a0 a1 a2 a3 a4)
/-- `main_call3_v0`: binary of main_arg2, main_arg2. -/
def res_main_call3_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (mulf : (⟨S100x256, .f32⟩ : BufTy).Contents (Elt F) → (⟨S100x256, .f32⟩ : BufTy).Contents (Elt F) → (⟨S100x256, .f32⟩ : BufTy).Contents (Elt F)) a2 a2
/-- `main_call3_cst`: nullary. -/
def res_main_call3_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call3_v1`: binary of main_call3_v0, main_call3_cst. -/
def res_main_call3_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100, .f32⟩ : BufTy).Contents (Elt F) :=
  (fun x v => Host.reduceAdd x v reducesTo_S100x256_S100_d1 h_S_ : (⟨S100x256, .f32⟩ : BufTy).Contents (Elt F) → (⟨S_, .f32⟩ : BufTy).Contents (Elt F) → (⟨S100, .f32⟩ : BufTy).Contents (Elt F)) (res_main_call3_v0 a0 a1 a2 a3 a4) (res_main_call3_cst a0 a1 a2 a3 a4)
/-- `main_call3_v2`: unary of main_call3_v1. -/
def res_main_call3_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![0] bcast_S100_S100x1_0 : (⟨S100, .f32⟩ : BufTy).Contents (Elt F) → (⟨S100x1, .f32⟩ : BufTy).Contents (Elt F)) (res_main_call3_v1 a0 a1 a2 a3 a4)
/-- `main_v33`: unary of main_call3_v2. -/
def res_main_v33 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (Host.sqrt : (⟨S100x1, .f32⟩ : BufTy).Contents (Elt F) → (⟨S100x1, .f32⟩ : BufTy).Contents (Elt F)) (res_main_call3_v2 a0 a1 a2 a3 a4)
/-- `main_cst_3`: nullary. -/
def res_main_cst_3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x2B8CBCCC#32 : (⟨S_, .f32⟩ : BufTy).Contents (Elt F))
/-- `main_v34`: unary of main_cst_3. -/
def res_main_v34 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (broadcastInDim S100x1 ![] bcast_S_S100x1 : (⟨S_, .f32⟩ : BufTy).Contents (Elt F) → (⟨S100x1, .f32⟩ : BufTy).Contents (Elt F)) (res_main_cst_3 a0 a1 a2 a3 a4)
/-- `main_v35`: binary of main_v33, main_v34. -/
def res_main_v35 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x1, .f32⟩ : BufTy).Contents (Elt F) :=
  (maximumf : (⟨S100x1, .f32⟩ : BufTy).Contents (Elt F) → (⟨S100x1, .f32⟩ : BufTy).Contents (Elt F) → (⟨S100x1, .f32⟩ : BufTy).Contents (Elt F)) (res_main_v33 a0 a1 a2 a3 a4) (res_main_v34 a0 a1 a2 a3 a4)
/-- `main_v36`: unary of main_v35. -/
def res_main_v36 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (broadcastInDim S100x256 ![0, 1] bcast_S100x1_S100x256_0_1 : (⟨S100x1, .f32⟩ : BufTy).Contents (Elt F) → (⟨S100x256, .f32⟩ : BufTy).Contents (Elt F)) (res_main_v35 a0 a1 a2 a3 a4)
/-- `main_v37`: binary of main_arg2, main_v36. -/
def res_main_v37 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x256, .f32⟩ : BufTy).Contents (Elt F) :=
  (Host.divf : (⟨S100x256, .f32⟩ : BufTy).Contents (Elt F) → (⟨S100x256, .f32⟩ : BufTy).Contents (Elt F) → (⟨S100x256, .f32⟩ : BufTy).Contents (Elt F)) a2 (res_main_v36 a0 a1 a2 a3 a4)
/-- `main_v38`: unary of main_v37. -/
def res_main_v38 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S256x100, .f32⟩ : BufTy).Contents (Elt F) :=
  ((transpose S256x100 [1, 0] · transposes_S100x256_S256x100_1_0) : (⟨S100x256, .f32⟩ : BufTy).Contents (Elt F) → (⟨S256x100, .f32⟩ : BufTy).Contents (Elt F)) (res_main_v37 a0 a1 a2 a3 a4)
/-- `main_v39`: binary of main_v37, main_v38. -/
def res_main_v39 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  ((fun l r => Host.dotGeneral dot_S100x256_S256x100_S100x100_1_0_0_1_n_n none l r) : (⟨S100x256, .f32⟩ : BufTy).Contents (Elt F) → (⟨S256x100, .f32⟩ : BufTy).Contents (Elt F) → (⟨S100x100, .f32⟩ : BufTy).Contents (Elt F)) (res_main_v37 a0 a1 a2 a3 a4) (res_main_v38 a0 a1 a2 a3 a4)
/-- `main_cst_4`: nullary. -/
def res_main_cst_4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3F800000#32 : (⟨S_, .f32⟩ : BufTy).Contents (Elt F))
/-- `main_v40`: unary of main_cst_4. -/
def res_main_v40 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (broadcastInDim S100x100 ![] bcast_S_S100x100 : (⟨S_, .f32⟩ : BufTy).Contents (Elt F) → (⟨S100x100, .f32⟩ : BufTy).Contents (Elt F)) (res_main_cst_4 a0 a1 a2 a3 a4)
/-- `main_v41`: binary of main_v40, main_v39. -/
def res_main_v41 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S100x100, .f32⟩ : BufTy).Contents (Elt F) :=
  (subf : (⟨S100x100, .f32⟩ : BufTy).Contents (Elt F) → (⟨S100x100, .f32⟩ : BufTy).Contents (Elt F) → (⟨S100x100, .f32⟩ : BufTy).Contents (Elt F)) (res_main_v40 a0 a1 a2 a3 a4) (res_main_v39 a0 a1 a2 a3 a4)
/-- `main_v42`: unary of main_v21. -/
def res_main_v42 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) (res_main_v21 a0 a1 a2 a3 a4)
/-- `main_v43`: unary of main_v21. -/
def res_main_v43 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .i32⟩ : BufTy).Contents (Elt F) :=
  (broadcastInDim S1x8192 ![1] bcast_S8192_S1x8192_1 : (⟨S8192, .i32⟩ : BufTy).Contents (Elt F) → (⟨S1x8192, .i32⟩ : BufTy).Contents (Elt F)) (res_main_v21 a0 a1 a2 a3 a4)
/-- `main_c_5`: nullary. -/
def res_main_c_5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_v44`: unary of main_c_5. -/
def res_main_v44 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![] bcast_S_S8192x1 : (⟨S_, .i32⟩ : BufTy).Contents (Elt F) → (⟨S8192x1, .i32⟩ : BufTy).Contents (Elt F)) (res_main_c_5 a0 a1 a2 a3 a4)
/-- `main_v45`: binary of main_v42, main_v44. -/
def res_main_v45 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i1⟩ : BufTy).Contents (Elt F) :=
  (cmpi .slt : (⟨S8192x1, .i32⟩ : BufTy).Contents (Elt F) → (⟨S8192x1, .i32⟩ : BufTy).Contents (Elt F) → (⟨S8192x1, .i1⟩ : BufTy).Contents (Elt F)) (res_main_v42 a0 a1 a2 a3 a4) (res_main_v44 a0 a1 a2 a3 a4)
/-- `main_c_6`: nullary. -/
def res_main_c_6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 100#32 : (⟨S_, .i32⟩ : BufTy).Contents (Elt F))
/-- `main_v46`: unary of main_c_6. -/
def res_main_v46 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (broadcastInDim S8192x1 ![] bcast_S_S8192x1 : (⟨S_, .i32⟩ : BufTy).Contents (Elt F) → (⟨S8192x1, .i32⟩ : BufTy).Contents (Elt F)) (res_main_c_6 a0 a1 a2 a3 a4)
/-- `main_v47`: binary of main_v42, main_v46. -/
def res_main_v47 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (addi : (⟨S8192x1, .i32⟩ : BufTy).Contents (Elt F) → (⟨S8192x1, .i32⟩ : BufTy).Contents (Elt F) → (⟨S8192x1, .i32⟩ : BufTy).Contents (Elt F)) (res_main_v42 a0 a1 a2 a3 a4) (res_main_v46 a0 a1 a2 a3 a4)
/-- `main_v48`: ternary of main_v45, main_v47, main_v42. -/
def res_main_v48 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .i32⟩ : BufTy).Contents (Elt F) :=
  (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (res_main_v45 a0 a1 a2 a3 a4) (res_main_v47 a0 a1 a2 a3 a4) (res_main_v42 a0 a1 a2 a3 a4)
/-- `main_c_7`: nullary. -/
def res_main_c_7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 0#32 : (⟨S_, .i32⟩ : BufTy).Contents (Elt F))
/-- `main_v49`: unary of main_c_7. -/
def res_main_v49 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .i32⟩ : BufTy).Contents (Elt F) :=
  (broadcastInDim S1x8192 ![] bcast_S_S1x8192 : (⟨S_, .i32⟩ : BufTy).Contents (Elt F) → (⟨S1x8192, .i32⟩ : BufTy).Contents (Elt F)) (res_main_c_7 a0 a1 a2 a3 a4)
/-- `main_v50`: binary of main_v43, main_v49. -/
def res_main_v50 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .i1⟩ : BufTy).Contents (Elt F) :=
  (cmpi .slt : (⟨S1x8192, .i32⟩ : BufTy).Contents (Elt F) → (⟨S1x8192, .i32⟩ : BufTy).Contents (Elt F) → (⟨S1x8192, .i1⟩ : BufTy).Contents (Elt F)) (res_main_v43 a0 a1 a2 a3 a4) (res_main_v49 a0 a1 a2 a3 a4)
/-- `main_c_8`: nullary. -/
def res_main_c_8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 100#32 : (⟨S_, .i32⟩ : BufTy).Contents (Elt F))
/-- `main_v51`: unary of main_c_8. -/
def res_main_v51 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .i32⟩ : BufTy).Contents (Elt F) :=
  (broadcastInDim S1x8192 ![] bcast_S_S1x8192 : (⟨S_, .i32⟩ : BufTy).Contents (Elt F) → (⟨S1x8192, .i32⟩ : BufTy).Contents (Elt F)) (res_main_c_8 a0 a1 a2 a3 a4)
/-- `main_v52`: binary of main_v43, main_v51. -/
def res_main_v52 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .i32⟩ : BufTy).Contents (Elt F) :=
  (addi : (⟨S1x8192, .i32⟩ : BufTy).Contents (Elt F) → (⟨S1x8192, .i32⟩ : BufTy).Contents (Elt F) → (⟨S1x8192, .i32⟩ : BufTy).Contents (Elt F)) (res_main_v43 a0 a1 a2 a3 a4) (res_main_v51 a0 a1 a2 a3 a4)
/-- `main_v53`: ternary of main_v50, main_v52, main_v43. -/
def res_main_v53 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .i32⟩ : BufTy).Contents (Elt F) :=
  (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F)) (res_main_v50 a0 a1 a2 a3 a4) (res_main_v52 a0 a1 a2 a3 a4) (res_main_v43 a0 a1 a2 a3 a4)
/-- `main_v54`: unary of main_v48. -/
def res_main_v54 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i32⟩ : BufTy).Contents (Elt F) :=
  (broadcastInDim S8192x8192 ![0, 1] bcast_S8192x1_S8192x8192_0_1 : (⟨S8192x1, .i32⟩ : BufTy).Contents (Elt F) → (⟨S8192x8192, .i32⟩ : BufTy).Contents (Elt F)) (res_main_v48 a0 a1 a2 a3 a4)
/-- `main_v55`: unary of main_v53. -/
def res_main_v55 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .i32⟩ : BufTy).Contents (Elt F) :=
  (broadcastInDim S8192x8192 ![0, 1] bcast_S1x8192_S8192x8192_0_1 : (⟨S1x8192, .i32⟩ : BufTy).Contents (Elt F) → (⟨S8192x8192, .i32⟩ : BufTy).Contents (Elt F)) (res_main_v53 a0 a1 a2 a3 a4)
/-- `main_v56`: unary of main_v54. -/
def res_main_v56 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192x1, .i32⟩ : BufTy).Contents (Elt F) :=
  (broadcastInDim S8192x8192x1 ![0, 1] bcast_S8192x8192_S8192x8192x1_0_1 : (⟨S8192x8192, .i32⟩ : BufTy).Contents (Elt F) → (⟨S8192x8192x1, .i32⟩ : BufTy).Contents (Elt F)) (res_main_v54 a0 a1 a2 a3 a4)
/-- `main_v57`: unary of main_v55. -/
def res_main_v57 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192x1, .i32⟩ : BufTy).Contents (Elt F) :=
  (broadcastInDim S8192x8192x1 ![0, 1] bcast_S8192x8192_S8192x8192x1_0_1 : (⟨S8192x8192, .i32⟩ : BufTy).Contents (Elt F) → (⟨S8192x8192x1, .i32⟩ : BufTy).Contents (Elt F)) (res_main_v55 a0 a1 a2 a3 a4)
/-- `main_v58`: binary of main_v56, main_v57. -/
def res_main_v58 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192x2, .i32⟩ : BufTy).Contents (Elt F) :=
  ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F)) (res_main_v56 a0 a1 a2 a3 a4) (res_main_v57 a0 a1 a2 a3 a4)
/-- `main_v59`: binary of main_v41, main_v58. -/
def res_main_v59 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  ((fun x i => Host.gather gather_S100x100_S8192x8192x2_S8192x8192_n_01_n_n_01_2_11 x i) : (⟨S100x100, .f32⟩ : BufTy).Contents (Elt F) → (⟨S8192x8192x2, .i32⟩ : BufTy).Contents (Elt F) → (⟨S8192x8192, .f32⟩ : BufTy).Contents (Elt F)) (res_main_v41 a0 a1 a2 a3 a4) (res_main_v58 a0 a1 a2 a3 a4)
/-- `main_cst_9`: nullary. -/
def res_main_cst_9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call4_v0`: unary of main_cst_9. -/
def res_main_call4_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (id : (⟨S_, .f32⟩ : BufTy).Contents (Elt F) → (⟨S_, .f32⟩ : BufTy).Contents (Elt F)) (res_main_cst_9 a0 a1 a2 a3 a4)
/-- `main_call4_v1`: unary of main_call4_v0. -/
def res_main_call4_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![] bcast_S_S8192x8192 : (⟨S_, .f32⟩ : BufTy).Contents (Elt F) → (⟨S8192x8192, .f32⟩ : BufTy).Contents (Elt F)) (res_main_call4_v0 a0 a1 a2 a3 a4)
/-- `main_v60`: ternary of main_v20, main_call4_v1, main_v59. -/
def res_main_v60 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) (res_main_v20 a0 a1 a2 a3 a4) (res_main_call4_v1 a0 a1 a2 a3 a4) (res_main_v59 a0 a1 a2 a3 a4)
/-- `main_cst_10`: nullary. -/
def res_main_cst_10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x7F800000#32 : (⟨S_, .f32⟩ : BufTy).Contents (Elt F))
/-- `main_v61`: binary of main_v60, main_cst_10. -/
def res_main_v61 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) (res_main_v60 a0 a1 a2 a3 a4) (res_main_cst_10 a0 a1 a2 a3 a4)
/-- `main_v62`: unary of main_v61. -/
def res_main_v62 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .f32⟩ : BufTy).Contents (Elt F) :=
  (broadcastInDim S8192x1 ![0] bcast_S8192_S8192x1_0 : (⟨S8192, .f32⟩ : BufTy).Contents (Elt F) → (⟨S8192x1, .f32⟩ : BufTy).Contents (Elt F)) (res_main_v61 a0 a1 a2 a3 a4)
/-- `main_cst_11`: nullary. -/
def res_main_cst_11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0xFF800000#32 : (⟨S_, .f32⟩ : BufTy).Contents (Elt F))
/-- `main_v63`: binary of main_v60, main_cst_11. -/
def res_main_v63 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) (res_main_v60 a0 a1 a2 a3 a4) (res_main_cst_11 a0 a1 a2 a3 a4)
/-- `main_v64`: unary of main_v63. -/
def res_main_v64 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .f32⟩ : BufTy).Contents (Elt F) :=
  (broadcastInDim S8192x1 ![0] bcast_S8192_S8192x1_0 : (⟨S8192, .f32⟩ : BufTy).Contents (Elt F) → (⟨S8192x1, .f32⟩ : BufTy).Contents (Elt F)) (res_main_v63 a0 a1 a2 a3 a4)
/-- `main_v65`: unary of main_v62. -/
def res_main_v65 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![0, 1] bcast_S8192x1_S8192x8192_0_1 : (⟨S8192x1, .f32⟩ : BufTy).Contents (Elt F) → (⟨S8192x8192, .f32⟩ : BufTy).Contents (Elt F)) (res_main_v62 a0 a1 a2 a3 a4)
/-- `main_v66`: binary of main_v60, main_v65. -/
def res_main_v66 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (subf : (⟨S8192x8192, .f32⟩ : BufTy).Contents (Elt F) → (⟨S8192x8192, .f32⟩ : BufTy).Contents (Elt F) → (⟨S8192x8192, .f32⟩ : BufTy).Contents (Elt F)) (res_main_v60 a0 a1 a2 a3 a4) (res_main_v65 a0 a1 a2 a3 a4)
/-- `main_v67`: binary of main_v64, main_v62. -/
def res_main_v67 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .f32⟩ : BufTy).Contents (Elt F) :=
  (subf : (⟨S8192x1, .f32⟩ : BufTy).Contents (Elt F) → (⟨S8192x1, .f32⟩ : BufTy).Contents (Elt F) → (⟨S8192x1, .f32⟩ : BufTy).Contents (Elt F)) (res_main_v64 a0 a1 a2 a3 a4) (res_main_v62 a0 a1 a2 a3 a4)
/-- `main_v68`: unary of main_v67. -/
def res_main_v68 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![0, 1] bcast_S8192x1_S8192x8192_0_1 : (⟨S8192x1, .f32⟩ : BufTy).Contents (Elt F) → (⟨S8192x8192, .f32⟩ : BufTy).Contents (Elt F)) (res_main_v67 a0 a1 a2 a3 a4)
/-- `main_v69`: binary of main_v66, main_v68. -/
def res_main_v69 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (Host.divf : (⟨S8192x8192, .f32⟩ : BufTy).Contents (Elt F) → (⟨S8192x8192, .f32⟩ : BufTy).Contents (Elt F) → (⟨S8192x8192, .f32⟩ : BufTy).Contents (Elt F)) (res_main_v66 a0 a1 a2 a3 a4) (res_main_v68 a0 a1 a2 a3 a4)
/-- `main_cst_12`: nullary. -/
def res_main_cst_12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v70`: binary of main_v69, main_cst_12. -/
def res_main_v70 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) (res_main_v69 a0 a1 a2 a3 a4) (res_main_cst_12 a0 a1 a2 a3 a4)
/-- `main_cst_13`: nullary. -/
def res_main_cst_13 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x46000000#32 : (⟨S_, .f32⟩ : BufTy).Contents (Elt F))
/-- `main_v71`: unary of main_cst_13. -/
def res_main_v71 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_cst_13 a0 a1 a2 a3 a4)
/-- `main_v72`: binary of main_v70, main_v71. -/
def res_main_v72 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (res_main_v70 a0 a1 a2 a3 a4) (res_main_v71 a0 a1 a2 a3 a4)
/-- `main_c_14`: nullary. -/
def res_main_c_14 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i32⟩ : BufTy).Contents (Elt F) :=
  (constantI S_ 32 1#32 : (⟨S_, .i32⟩ : BufTy).Contents (Elt F))
/-- `main_call5_call0_cst`: nullary. -/
def res_main_call5_call0_cst (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call5_call0_v0`: binary of main_v69, main_call5_call0_cst. -/
def res_main_call5_call0_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (fun x v => Host.reduceAdd x v reducesTo_S8192x8192_S8192_d1 h_S_ : (⟨S8192x8192, .f32⟩ : BufTy).Contents (Elt F) → (⟨S_, .f32⟩ : BufTy).Contents (Elt F) → (⟨S8192, .f32⟩ : BufTy).Contents (Elt F)) (res_main_v69 a0 a1 a2 a3 a4) (res_main_call5_call0_cst a0 a1 a2 a3 a4)
/-- `main_call5_call0_v1`: unary of main_call5_call0_v0. -/
def res_main_call5_call0_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .f32⟩ : BufTy).Contents (Elt F) :=
  (broadcastInDim S8192x1 ![0] bcast_S8192_S8192x1_0 : (⟨S8192, .f32⟩ : BufTy).Contents (Elt F) → (⟨S8192x1, .f32⟩ : BufTy).Contents (Elt F)) (res_main_call5_call0_v0 a0 a1 a2 a3 a4)
/-- `main_call5_call0_cst_0`: nullary. -/
def res_main_call5_call0_cst_0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x46000000#32 : (⟨S_, .f32⟩ : BufTy).Contents (Elt F))
/-- `main_call5_call0_v2`: unary of main_call5_call0_cst_0. -/
def res_main_call5_call0_v2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .f32⟩ : BufTy).Contents (Elt F) :=
  (broadcastInDim S8192x1 ![] bcast_S_S8192x1 : (⟨S_, .f32⟩ : BufTy).Contents (Elt F) → (⟨S8192x1, .f32⟩ : BufTy).Contents (Elt F)) (res_main_call5_call0_cst_0 a0 a1 a2 a3 a4)
/-- `main_call5_call0_v3`: binary of main_call5_call0_v1, main_call5_call0_v2. -/
def res_main_call5_call0_v3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x1, .f32⟩ : BufTy).Contents (Elt F) :=
  (Host.divf : (⟨S8192x1, .f32⟩ : BufTy).Contents (Elt F) → (⟨S8192x1, .f32⟩ : BufTy).Contents (Elt F) → (⟨S8192x1, .f32⟩ : BufTy).Contents (Elt F)) (res_main_call5_call0_v1 a0 a1 a2 a3 a4) (res_main_call5_call0_v2 a0 a1 a2 a3 a4)
/-- `main_call5_call0_v4`: unary of main_call5_call0_v3. -/
def res_main_call5_call0_v4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![0, 1] bcast_S8192x1_S8192x8192_0_1 : (⟨S8192x1, .f32⟩ : BufTy).Contents (Elt F) → (⟨S8192x8192, .f32⟩ : BufTy).Contents (Elt F)) (res_main_call5_call0_v3 a0 a1 a2 a3 a4)
/-- `main_call5_call0_v5`: binary of main_v69, main_call5_call0_v4. -/
def res_main_call5_call0_v5 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (subf : (⟨S8192x8192, .f32⟩ : BufTy).Contents (Elt F) → (⟨S8192x8192, .f32⟩ : BufTy).Contents (Elt F) → (⟨S8192x8192, .f32⟩ : BufTy).Contents (Elt F)) (res_main_v69 a0 a1 a2 a3 a4) (res_main_call5_call0_v4 a0 a1 a2 a3 a4)
/-- `main_call5_call0_v6`: binary of main_call5_call0_v5, main_call5_call0_v5. -/
def res_main_call5_call0_v6 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (mulf : (⟨S8192x8192, .f32⟩ : BufTy).Contents (Elt F) → (⟨S8192x8192, .f32⟩ : BufTy).Contents (Elt F) → (⟨S8192x8192, .f32⟩ : BufTy).Contents (Elt F)) (res_main_call5_call0_v5 a0 a1 a2 a3 a4) (res_main_call5_call0_v5 a0 a1 a2 a3 a4)
/-- `main_call5_call0_v7`: unary of main_c_14. -/
def res_main_call5_call0_v7 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (sitofp .f32 : (⟨S_, .i32⟩ : BufTy).Contents (Elt F) → (⟨S_, .f32⟩ : BufTy).Contents (Elt F)) (res_main_c_14 a0 a1 a2 a3 a4)
/-- `main_call5_call0_cst_1`: nullary. -/
def res_main_call5_call0_cst_1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x46000000#32 : (⟨S_, .f32⟩ : BufTy).Contents (Elt F))
/-- `main_call5_call0_v8`: binary of main_call5_call0_cst_1, main_call5_call0_v7. -/
def res_main_call5_call0_v8 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call5_call0_cst_1 a0 a1 a2 a3 a4) (res_main_call5_call0_v7 a0 a1 a2 a3 a4)
/-- `main_call5_call0_cst_2`: nullary. -/
def res_main_call5_call0_cst_2 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call5_call0_v9`: binary of main_call5_call0_v6, main_call5_call0_cst_2. -/
def res_main_call5_call0_v9 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (fun x v => Host.reduceAdd x v reducesTo_S8192x8192_S8192_d1 h_S_ : (⟨S8192x8192, .f32⟩ : BufTy).Contents (Elt F) → (⟨S_, .f32⟩ : BufTy).Contents (Elt F) → (⟨S8192, .f32⟩ : BufTy).Contents (Elt F)) (res_main_call5_call0_v6 a0 a1 a2 a3 a4) (res_main_call5_call0_cst_2 a0 a1 a2 a3 a4)
/-- `main_call5_call0_v10`: unary of main_call5_call0_v8. -/
def res_main_call5_call0_v10 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_call5_call0_v8 a0 a1 a2 a3 a4)
/-- `main_call5_call0_v11`: binary of main_call5_call0_v9, main_call5_call0_v10. -/
def res_main_call5_call0_v11 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (res_main_call5_call0_v9 a0 a1 a2 a3 a4) (res_main_call5_call0_v10 a0 a1 a2 a3 a4)
/-- `main_call5_call0_cst_3`: nullary. -/
def res_main_call5_call0_cst_3 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call5_call0_v12`: binary of main_call5_call0_v8, main_call5_call0_cst_3. -/
def res_main_call5_call0_v12 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .i1⟩ : BufTy).Contents (Elt F) :=
  (cmpf .ogt : (⟨S_, .f32⟩ : BufTy).Contents (Elt F) → (⟨S_, .f32⟩ : BufTy).Contents (Elt F) → (⟨S_, .i1⟩ : BufTy).Contents (Elt F)) (res_main_call5_call0_v8 a0 a1 a2 a3 a4) (res_main_call5_call0_cst_3 a0 a1 a2 a3 a4)
/-- `main_call5_call0_cst_4`: nullary. -/
def res_main_call5_call0_cst_4 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x7FC00000#32 : (⟨S_, .f32⟩ : BufTy).Contents (Elt F))
/-- `main_call5_call0_call0_v0`: unary of main_call5_call0_cst_4. -/
def res_main_call5_call0_call0_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (id : (⟨S_, .f32⟩ : BufTy).Contents (Elt F) → (⟨S_, .f32⟩ : BufTy).Contents (Elt F)) (res_main_call5_call0_cst_4 a0 a1 a2 a3 a4)
/-- `main_call5_call0_call0_v1`: unary of main_call5_call0_call0_v0. -/
def res_main_call5_call0_call0_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_call5_call0_call0_v0 a0 a1 a2 a3 a4)
/-- `main_call5_v0`: ternary of main_call5_call0_v12, main_call5_call0_v11, main_call5_call0_call0_v1. -/
def res_main_call5_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (fun p a b => select (broadcastInDim S8192 ![] bcast_S_S8192 p) a b : (⟨S_, .i1⟩ : BufTy).Contents (Elt F) → (⟨S8192, .f32⟩ : BufTy).Contents (Elt F) → (⟨S8192, .f32⟩ : BufTy).Contents (Elt F) → (⟨S8192, .f32⟩ : BufTy).Contents (Elt F)) (res_main_call5_call0_v12 a0 a1 a2 a3 a4) (res_main_call5_call0_v11 a0 a1 a2 a3 a4) (res_main_call5_call0_call0_v1 a0 a1 a2 a3 a4)
/-- `main_v73`: unary of main_call5_v0. -/
def res_main_v73 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (Host.sqrt : (⟨S8192, .f32⟩ : BufTy).Contents (Elt F) → (⟨S8192, .f32⟩ : BufTy).Contents (Elt F)) (res_main_call5_v0 a0 a1 a2 a3 a4)
/-- `main_v74`: unary of main_v72. -/
def res_main_v74 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .f32⟩ : BufTy).Contents (Elt F) :=
  (broadcastInDim S1x8192 ![1] bcast_S8192_S1x8192_1 : (⟨S8192, .f32⟩ : BufTy).Contents (Elt F) → (⟨S1x8192, .f32⟩ : BufTy).Contents (Elt F)) (res_main_v72 a0 a1 a2 a3 a4)
/-- `main_v75`: unary of main_v74. -/
def res_main_v75 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![0, 1] bcast_S1x8192_S8192x8192_0_1 : (⟨S1x8192, .f32⟩ : BufTy).Contents (Elt F) → (⟨S8192x8192, .f32⟩ : BufTy).Contents (Elt F)) (res_main_v74 a0 a1 a2 a3 a4)
/-- `main_v76`: binary of main_v69, main_v75. -/
def res_main_v76 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (subf : (⟨S8192x8192, .f32⟩ : BufTy).Contents (Elt F) → (⟨S8192x8192, .f32⟩ : BufTy).Contents (Elt F) → (⟨S8192x8192, .f32⟩ : BufTy).Contents (Elt F)) (res_main_v69 a0 a1 a2 a3 a4) (res_main_v75 a0 a1 a2 a3 a4)
/-- `main_v77`: binary of main_v76, main_v76. -/
def res_main_v77 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (mulf : (⟨S8192x8192, .f32⟩ : BufTy).Contents (Elt F) → (⟨S8192x8192, .f32⟩ : BufTy).Contents (Elt F) → (⟨S8192x8192, .f32⟩ : BufTy).Contents (Elt F)) (res_main_v76 a0 a1 a2 a3 a4) (res_main_v76 a0 a1 a2 a3 a4)
/-- `main_v78`: unary of main_v73. -/
def res_main_v78 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .f32⟩ : BufTy).Contents (Elt F) :=
  (broadcastInDim S1x8192 ![1] bcast_S8192_S1x8192_1 : (⟨S8192, .f32⟩ : BufTy).Contents (Elt F) → (⟨S1x8192, .f32⟩ : BufTy).Contents (Elt F)) (res_main_v73 a0 a1 a2 a3 a4)
/-- `main_v79`: binary of main_v78, main_v78. -/
def res_main_v79 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .f32⟩ : BufTy).Contents (Elt F) :=
  (mulf : (⟨S1x8192, .f32⟩ : BufTy).Contents (Elt F) → (⟨S1x8192, .f32⟩ : BufTy).Contents (Elt F) → (⟨S1x8192, .f32⟩ : BufTy).Contents (Elt F)) (res_main_v78 a0 a1 a2 a3 a4) (res_main_v78 a0 a1 a2 a3 a4)
/-- `main_cst_15`: nullary. -/
def res_main_cst_15 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x40000000#32 : (⟨S_, .f32⟩ : BufTy).Contents (Elt F))
/-- `main_v80`: unary of main_cst_15. -/
def res_main_v80 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .f32⟩ : BufTy).Contents (Elt F) :=
  (broadcastInDim S1x8192 ![] bcast_S_S1x8192 : (⟨S_, .f32⟩ : BufTy).Contents (Elt F) → (⟨S1x8192, .f32⟩ : BufTy).Contents (Elt F)) (res_main_cst_15 a0 a1 a2 a3 a4)
/-- `main_v81`: binary of main_v80, main_v79. -/
def res_main_v81 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S1x8192, .f32⟩ : BufTy).Contents (Elt F) :=
  (mulf : (⟨S1x8192, .f32⟩ : BufTy).Contents (Elt F) → (⟨S1x8192, .f32⟩ : BufTy).Contents (Elt F) → (⟨S1x8192, .f32⟩ : BufTy).Contents (Elt F)) (res_main_v80 a0 a1 a2 a3 a4) (res_main_v79 a0 a1 a2 a3 a4)
/-- `main_v82`: unary of main_v81. -/
def res_main_v82 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![0, 1] bcast_S1x8192_S8192x8192_0_1 : (⟨S1x8192, .f32⟩ : BufTy).Contents (Elt F) → (⟨S8192x8192, .f32⟩ : BufTy).Contents (Elt F)) (res_main_v81 a0 a1 a2 a3 a4)
/-- `main_v83`: binary of main_v77, main_v82. -/
def res_main_v83 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (Host.divf : (⟨S8192x8192, .f32⟩ : BufTy).Contents (Elt F) → (⟨S8192x8192, .f32⟩ : BufTy).Contents (Elt F) → (⟨S8192x8192, .f32⟩ : BufTy).Contents (Elt F)) (res_main_v77 a0 a1 a2 a3 a4) (res_main_v82 a0 a1 a2 a3 a4)
/-- `main_v84`: unary of main_v83. -/
def res_main_v84 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (Host.exp : (⟨S8192x8192, .f32⟩ : BufTy).Contents (Elt F) → (⟨S8192x8192, .f32⟩ : BufTy).Contents (Elt F)) (res_main_v83 a0 a1 a2 a3 a4)
/-- `main_v85`: binary of main_v15, main_v84. -/
def res_main_v85 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (mulf : (⟨S8192x8192, .f32⟩ : BufTy).Contents (Elt F) → (⟨S8192x8192, .f32⟩ : BufTy).Contents (Elt F) → (⟨S8192x8192, .f32⟩ : BufTy).Contents (Elt F)) (res_main_v15 a0 a1 a2 a3 a4) (res_main_v84 a0 a1 a2 a3 a4)
/-- `main_v86`: binary of main_v4, main_v9. -/
def res_main_v86 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096x256, .f32⟩ : BufTy).Contents (Elt F) :=
  (mulf : (⟨S4096x256, .f32⟩ : BufTy).Contents (Elt F) → (⟨S4096x256, .f32⟩ : BufTy).Contents (Elt F) → (⟨S4096x256, .f32⟩ : BufTy).Contents (Elt F)) (res_main_v4 a0 a1 a2 a3 a4) (res_main_v9 a0 a1 a2 a3 a4)
/-- `main_cst_16`: nullary. -/
def res_main_cst_16 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v87`: binary of main_v86, main_cst_16. -/
def res_main_v87 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) (res_main_v86 a0 a1 a2 a3 a4) (res_main_cst_16 a0 a1 a2 a3 a4)
/-- `main_cst_17`: nullary. -/
def res_main_cst_17 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x3E4CCCCD#32 : (⟨S_, .f32⟩ : BufTy).Contents (Elt F))
/-- `main_v88`: unary of main_cst_17. -/
def res_main_v88 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (broadcastInDim S4096 ![] bcast_S_S4096 : (⟨S_, .f32⟩ : BufTy).Contents (Elt F) → (⟨S4096, .f32⟩ : BufTy).Contents (Elt F)) (res_main_cst_17 a0 a1 a2 a3 a4)
/-- `main_v89`: binary of main_v87, main_v88. -/
def res_main_v89 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (Host.divf : (⟨S4096, .f32⟩ : BufTy).Contents (Elt F) → (⟨S4096, .f32⟩ : BufTy).Contents (Elt F) → (⟨S4096, .f32⟩ : BufTy).Contents (Elt F)) (res_main_v87 a0 a1 a2 a3 a4) (res_main_v88 a0 a1 a2 a3 a4)
/-- `main_v90`: unary of main_v89. -/
def res_main_v90 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S4096, .f32⟩ : BufTy).Contents (Elt F) :=
  (Host.exp : (⟨S4096, .f32⟩ : BufTy).Contents (Elt F) → (⟨S4096, .f32⟩ : BufTy).Contents (Elt F)) (res_main_v89 a0 a1 a2 a3 a4)
/-- `main_v91`: binary of main_v90, main_v90. -/
def res_main_v91 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) (res_main_v90 a0 a1 a2 a3 a4) (res_main_v90 a0 a1 a2 a3 a4)
/-- `main_cst_18`: nullary. -/
def res_main_cst_18 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_call6_v0`: unary of main_cst_18. -/
def res_main_call6_v0 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (id : (⟨S_, .f32⟩ : BufTy).Contents (Elt F) → (⟨S_, .f32⟩ : BufTy).Contents (Elt F)) (res_main_cst_18 a0 a1 a2 a3 a4)
/-- `main_call6_v1`: unary of main_call6_v0. -/
def res_main_call6_v1 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (broadcastInDim S8192x8192 ![] bcast_S_S8192x8192 : (⟨S_, .f32⟩ : BufTy).Contents (Elt F) → (⟨S8192x8192, .f32⟩ : BufTy).Contents (Elt F)) (res_main_call6_v0 a0 a1 a2 a3 a4)
/-- `main_v92`: ternary of main_v32, main_v85, main_call6_v1. -/
def res_main_v92 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192x8192, .f32⟩ : BufTy).Contents (Elt F) :=
  (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) (res_main_v32 a0 a1 a2 a3 a4) (res_main_v85 a0 a1 a2 a3 a4) (res_main_call6_v1 a0 a1 a2 a3 a4)
/-- `main_cst_19`: nullary. -/
def res_main_cst_19 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v93`: binary of main_v92, main_cst_19. -/
def res_main_v93 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) (res_main_v92 a0 a1 a2 a3 a4) (res_main_cst_19 a0 a1 a2 a3 a4)
/-- `main_v94`: unary of main_v93. -/
def res_main_v94 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (res_main_v93 a0 a1 a2 a3 a4)
/-- `main_v95`: binary of main_v91, main_v94. -/
def res_main_v95 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (res_main_v91 a0 a1 a2 a3 a4) (res_main_v94 a0 a1 a2 a3 a4)
/-- `main_v96`: unary of main_v95. -/
def res_main_v96 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (Host.log : (⟨S8192, .f32⟩ : BufTy).Contents (Elt F) → (⟨S8192, .f32⟩ : BufTy).Contents (Elt F)) (res_main_v95 a0 a1 a2 a3 a4)
/-- `main_v97`: unary of main_v96. -/
def res_main_v97 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S8192, .f32⟩ : BufTy).Contents (Elt F) :=
  (Host.negf : (⟨S8192, .f32⟩ : BufTy).Contents (Elt F) → (⟨S8192, .f32⟩ : BufTy).Contents (Elt F)) (res_main_v96 a0 a1 a2 a3 a4)
/-- `main_cst_20`: nullary. -/
def res_main_cst_20 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x00000000#32 : (⟨S_, .f32⟩ : BufTy).Contents (Elt F))
/-- `main_v98`: binary of main_v97, main_cst_20. -/
def res_main_v98 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (res_main_v97 a0 a1 a2 a3 a4) (res_main_cst_20 a0 a1 a2 a3 a4)
/-- `main_cst_21`: nullary. -/
def res_main_cst_21 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (constant S_ .f32 0x46000000#32 : (⟨S_, .f32⟩ : BufTy).Contents (Elt F))
/-- `main_v99`: binary of main_v98, main_cst_21. -/
def res_main_v99 (a0 : (⟨S4096x256, .f32⟩ : BufTy).Contents (Elt F)) (a1 : (⟨S4096x256, .f32⟩ : BufTy).Contents (Elt F)) (a2 : (⟨S100x256, .f32⟩ : BufTy).Contents (Elt F)) (a3 : (⟨S2x4096, .i32⟩ : BufTy).Contents (Elt F)) (a4 : (⟨S2x4096x10, .i32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (res_main_v98 a0 a1 a2 a3 a4) (res_main_cst_21 a0 a1 a2 a3 a4)

/-! ## The operations as lists -/

/-- The host operations before the kernel launch (all of them, for a program with no launch), in order. -/
abbrev opsPre : List (HloOp τ sig (Elt F)) :=
  [ StableHlo.TRef.binary (.of main_arg0 : StableHlo.TRef sig ⟨S4096x256, .f32⟩) (.of main_arg0 : StableHlo.TRef sig ⟨S4096x256, .f32⟩) (.of main_call0_v0 : StableHlo.TRef sig ⟨S4096x256, .f32⟩) mulf,
    StableHlo.TRef.nullary (.of main_call0_cst : StableHlo.TRef sig ⟨S_, .f32⟩) (constant S_ .f32 0x00000000#32),
    StableHlo.TRef.binary (.of main_call0_v0 : StableHlo.TRef sig ⟨S4096x256, .f32⟩) (.of main_call0_cst : StableHlo.TRef sig ⟨S_, .f32⟩) (.of main_call0_v1 : StableHlo.TRef sig ⟨S4096, .f32⟩) (fun x v => Host.reduceAdd x v reducesTo_S4096x256_S4096_d1 h_S_),
    StableHlo.TRef.unary (.of main_call0_v1 : StableHlo.TRef sig ⟨S4096, .f32⟩) (.of main_call0_v2 : StableHlo.TRef sig ⟨S4096x1, .f32⟩) (broadcastInDim S4096x1 ![0] bcast_S4096_S4096x1_0),
    StableHlo.TRef.unary (.of main_call0_v2 : StableHlo.TRef sig ⟨S4096x1, .f32⟩) (.of main_v0 : StableHlo.TRef sig ⟨S4096x1, .f32⟩) Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (.of main_arg1 : StableHlo.TRef sig ⟨S4096x256, .f32⟩) (.of main_arg1 : StableHlo.TRef sig ⟨S4096x256, .f32⟩) (.of main_call1_v0 : StableHlo.TRef sig ⟨S4096x256, .f32⟩) mulf,
    StableHlo.TRef.nullary (.of main_call1_cst : StableHlo.TRef sig ⟨S_, .f32⟩) (constant S_ .f32 0x00000000#32),
    StableHlo.TRef.binary (.of main_call1_v0 : StableHlo.TRef sig ⟨S4096x256, .f32⟩) (.of main_call1_cst : StableHlo.TRef sig ⟨S_, .f32⟩) (.of main_call1_v1 : StableHlo.TRef sig ⟨S4096, .f32⟩) (fun x v => Host.reduceAdd x v reducesTo_S4096x256_S4096_d1 h_S_),
    StableHlo.TRef.unary (.of main_call1_v1 : StableHlo.TRef sig ⟨S4096, .f32⟩) (.of main_call1_v2 : StableHlo.TRef sig ⟨S4096x1, .f32⟩) (broadcastInDim S4096x1 ![0] bcast_S4096_S4096x1_0),
    StableHlo.TRef.unary (.of main_call1_v2 : StableHlo.TRef sig ⟨S4096x1, .f32⟩) (.of main_v5 : StableHlo.TRef sig ⟨S4096x1, .f32⟩) Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)),
    StableHlo.binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.unary main_v10 main_v11 ((transpose S256x8192 [1, 0] · transposes_S8192x256_S256x8192_1_0) : (⟨S8192x256, .f32⟩ : BufTy).Contents (Elt F) → (⟨S256x8192, .f32⟩ : BufTy).Contents (Elt F)),
    StableHlo.binary main_v10 main_v11 main_v12 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst_1 (constant S_ .f32 0x3E4CCCCD#32),
    StableHlo.unary main_cst_1 main_v13 (broadcastInDim S8192x8192 ![] bcast_S_S8192x8192 : (⟨S_, .f32⟩ : BufTy).Contents (Elt F) → (⟨S8192x8192, .f32⟩ : BufTy).Contents (Elt F)),
    StableHlo.binary main_v12 main_v13 main_v14 (Host.divf : (⟨S8192x8192, .f32⟩ : BufTy).Contents (Elt F) → (⟨S8192x8192, .f32⟩ : BufTy).Contents (Elt F) → (⟨S8192x8192, .f32⟩ : BufTy).Contents (Elt F)),
    StableHlo.unary main_v14 main_v15 (Host.exp : (⟨S8192x8192, .f32⟩ : BufTy).Contents (Elt F) → (⟨S8192x8192, .f32⟩ : BufTy).Contents (Elt F)),
    StableHlo.nullary main_v16 (iotaInDim S8192x8192 32 0),
    StableHlo.nullary main_v17 (iotaInDim S8192x8192 32 1),
    StableHlo.nullary main_c (constantI S_ 32 0#32),
    StableHlo.unary main_c main_v18 (broadcastInDim S8192x8192 ![] bcast_S_S8192x8192 : (⟨S_, .i32⟩ : BufTy).Contents (Elt F) → (⟨S8192x8192, .i32⟩ : BufTy).Contents (Elt F)),
    StableHlo.binary main_v16 main_v18 main_v19 (addi : (⟨S8192x8192, .i32⟩ : BufTy).Contents (Elt F) → (⟨S8192x8192, .i32⟩ : BufTy).Contents (Elt F) → (⟨S8192x8192, .i32⟩ : BufTy).Contents (Elt F)),
    StableHlo.binary main_v19 main_v17 main_v20 (cmpi .eq : (⟨S8192x8192, .i32⟩ : BufTy).Contents (Elt F) → (⟨S8192x8192, .i32⟩ : BufTy).Contents (Elt F) → (⟨S8192x8192, .i1⟩ : BufTy).Contents (Elt F)),
    StableHlo.reshape main_arg3 main_v21 rfl shapeCasts_S2x4096_S8192,
    StableHlo.reshape main_arg4 main_v22 rfl shapeCasts_S2x4096x10_S8192x10,
    StableHlo.unary main_v22 main_v23 (broadcastInDim S8192x10x1 ![0, 1] bcast_S8192x10_S8192x10x1_0_1 : (⟨S8192x10, .i32⟩ : BufTy).Contents (Elt F) → (⟨S8192x10x1, .i32⟩ : BufTy).Contents (Elt F)),
    StableHlo.nullary main_v24 (iotaInDim S100 32 0),
    StableHlo.unary main_v24 main_v25 (broadcastInDim S1x1x100 ![2] bcast_S100_S1x1x100_2 : (⟨S100, .i32⟩ : BufTy).Contents (Elt F) → (⟨S1x1x100, .i32⟩ : BufTy).Contents (Elt F)),
    StableHlo.unary main_v23 main_v26 (broadcastInDim S8192x10x100 ![0, 1, 2] bcast_S8192x10x1_S8192x10x100_0_1_2 : (⟨S8192x10x1, .i32⟩ : BufTy).Contents (Elt F) → (⟨S8192x10x100, .i32⟩ : BufTy).Contents (Elt F)),
    StableHlo.unary main_v25 main_v27 (broadcastInDim S8192x10x100 ![0, 1, 2] bcast_S1x1x100_S8192x10x100_0_1_2 : (⟨S1x1x100, .i32⟩ : BufTy).Contents (Elt F) → (⟨S8192x10x100, .i32⟩ : BufTy).Contents (Elt F)),
    StableHlo.binary main_v26 main_v27 main_v28 (cmpi .eq : (⟨S8192x10x100, .i32⟩ : BufTy).Contents (Elt F) → (⟨S8192x10x100, .i32⟩ : BufTy).Contents (Elt F) → (⟨S8192x10x100, .i1⟩ : BufTy).Contents (Elt F)),
    StableHlo.nullary main_c_2 (constantI S_ 1 0#1),
    StableHlo.binary main_v28 main_c_2 main_v29 ((fun x v => Host.reduce IntOp.ori x v reducesTo_S8192x10x100_S8192x100_d1 h_S_) : (⟨S8192x10x100, .i1⟩ : BufTy).Contents (Elt F) → (⟨S_, .i1⟩ : BufTy).Contents (Elt F) → (⟨S8192x100, .i1⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8192, .i32⟩) (broadcastInDim S8192 ![] bcast_S_S8192),
    StableHlo.TRef.binary (.of main_v21 : StableHlo.TRef sig ⟨S8192, .i32⟩) (.of main_call2_v0 : StableHlo.TRef sig ⟨S8192, .i32⟩) (.of main_call2_v1 : StableHlo.TRef sig ⟨S8192, .i1⟩) (cmpi .slt),
    StableHlo.TRef.nullary (.of main_call2_c_0 : StableHlo.TRef sig ⟨S_, .i32⟩) (constantI S_ 32 100#32),
    StableHlo.TRef.unary (.of main_call2_c_0 : StableHlo.TRef sig ⟨S_, .i32⟩) (.of main_call2_v2 : StableHlo.TRef sig ⟨S8192, .i32⟩) (broadcastInDim S8192 ![] bcast_S_S8192),
    StableHlo.TRef.binary (.of main_v21 : StableHlo.TRef sig ⟨S8192, .i32⟩) (.of main_call2_v2 : StableHlo.TRef sig ⟨S8192, .i32⟩) (.of main_call2_v3 : StableHlo.TRef sig ⟨S8192, .i32⟩) addi,
    StableHlo.TRef.ternary (.of main_call2_v1 : StableHlo.TRef sig ⟨S8192, .i1⟩) (.of main_call2_v3 : StableHlo.TRef sig ⟨S8192, .i32⟩) (.of main_v21 : StableHlo.TRef sig ⟨S8192, .i32⟩) (.of main_call2_v4 : StableHlo.TRef sig ⟨S8192, .i32⟩) select,
    StableHlo.TRef.unary (.of main_call2_v4 : StableHlo.TRef sig ⟨S8192, .i32⟩) (.of main_call2_v5 : StableHlo.TRef sig ⟨S8192x1, .i32⟩) (broadcastInDim S8192x1 ![0] bcast_S8192_S8192x1_0),
    StableHlo.TRef.nullary (.of main_call2_c_1 : StableHlo.TRef sig ⟨S1, .i32⟩) (constantI S1 32 99#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8192x1, .i32⟩) (broadcastInDim S8192x1 ![] bcast_S_S8192x1),
    StableHlo.TRef.binary (.of main_call2_v5 : StableHlo.TRef sig ⟨S8192x1, .i32⟩) (.of main_call2_v6 : StableHlo.TRef sig ⟨S8192x1, .i32⟩) (.of main_call2_v7 : StableHlo.TRef sig ⟨S8192x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S8192x1, .i32⟩) (broadcastInDim S8192x1 ![0, 1] bcast_S1x1_S8192x1_0_1),
    StableHlo.TRef.binary (.of main_call2_v5 : StableHlo.TRef sig ⟨S8192x1, .i32⟩) (.of main_call2_v9 : StableHlo.TRef sig ⟨S8192x1, .i32⟩) (.of main_call2_v10 : StableHlo.TRef sig ⟨S8192x1, .i1⟩) (cmpi .sle),
    StableHlo.TRef.binary (.of main_call2_v7 : StableHlo.TRef sig ⟨S8192x1, .i1⟩) (.of main_call2_v10 : StableHlo.TRef sig ⟨S8192x1, .i1⟩) (.of main_call2_v11 : StableHlo.TRef sig ⟨S8192x1, .i1⟩) andi,
    StableHlo.TRef.nullary (.of main_call2_c_3 : StableHlo.TRef sig ⟨S_, .i1⟩) (constantI S_ 1 1#1),
    StableHlo.TRef.binary (.of main_call2_v11 : StableHlo.TRef sig ⟨S8192x1, .i1⟩) (.of main_call2_c_3 : StableHlo.TRef sig ⟨S_, .i1⟩) (.of main_call2_v12 : StableHlo.TRef sig ⟨S8192, .i1⟩) (fun x v => Host.reduce IntOp.andi x v reducesTo_S8192x1_S8192_d1 h_S_),
    StableHlo.TRef.binary (.of main_v29 : StableHlo.TRef sig ⟨S8192x100, .i1⟩) (.of main_call2_v5 : StableHlo.TRef sig ⟨S8192x1, .i32⟩) (.of main_call2_v13 : StableHlo.TRef sig ⟨S8192x8192, .i1⟩) (fun x i => Host.gather gather_S8192x100_S8192x1_S8192x8192_0_1_n_n_1_1_81921 x i),
    StableHlo.TRef.unary (.of main_call2_v12 : StableHlo.TRef sig ⟨S8192, .i1⟩) (.of main_call2_v14 : StableHlo.TRef sig ⟨S8192x8192, .i1⟩) (broadcastInDim S8192x8192 ![1] bcast_S8192_S8192x8192_1),
    StableHlo.TRef.nullary (.of main_call2_c_4 : StableHlo.TRef sig ⟨S_, .i1⟩) (constantI S_ 1 1#1),
    StableHlo.TRef.unary (.of main_call2_c_4 : StableHlo.TRef sig ⟨S_, .i1⟩) (.of main_call2_v15 : StableHlo.TRef sig ⟨S8192x8192, .i1⟩) (broadcastInDim S8192x8192 ![] bcast_S_S8192x8192),
    StableHlo.TRef.ternary (.of main_call2_v14 : StableHlo.TRef sig ⟨S8192x8192, .i1⟩) (.of main_call2_v13 : StableHlo.TRef sig ⟨S8192x8192, .i1⟩) (.of main_call2_v15 : StableHlo.TRef sig ⟨S8192x8192, .i1⟩) (.of main_v30 : StableHlo.TRef sig ⟨S8192x8192, .i1⟩) select,
    StableHlo.unary main_v20 main_v31 (noti : (⟨S8192x8192, .i1⟩ : BufTy).Contents (Elt F) → (⟨S8192x8192, .i1⟩ : BufTy).Contents (Elt F)),
    StableHlo.binary main_v31 main_v30 main_v32 (andi : (⟨S8192x8192, .i1⟩ : BufTy).Contents (Elt F) → (⟨S8192x8192, .i1⟩ : BufTy).Contents (Elt F) → (⟨S8192x8192, .i1⟩ : BufTy).Contents (Elt F)),
    StableHlo.TRef.binary (.of main_arg2 : StableHlo.TRef sig ⟨S100x256, .f32⟩) (.of main_arg2 : StableHlo.TRef sig ⟨S100x256, .f32⟩) (.of main_call3_v0 : StableHlo.TRef sig ⟨S100x256, .f32⟩) mulf,
    StableHlo.TRef.nullary (.of main_call3_cst : StableHlo.TRef sig ⟨S_, .f32⟩) (constant S_ .f32 0x00000000#32),
    StableHlo.TRef.binary (.of main_call3_v0 : StableHlo.TRef sig ⟨S100x256, .f32⟩) (.of main_call3_cst : StableHlo.TRef sig ⟨S_, .f32⟩) (.of main_call3_v1 : StableHlo.TRef sig ⟨S100, .f32⟩) (fun x v => Host.reduceAdd x v reducesTo_S100x256_S100_d1 h_S_),
    StableHlo.TRef.unary (.of main_call3_v1 : StableHlo.TRef sig ⟨S100, .f32⟩) (.of main_call3_v2 : StableHlo.TRef sig ⟨S100x1, .f32⟩) (broadcastInDim S100x1 ![0] bcast_S100_S100x1_0),
    StableHlo.TRef.unary (.of main_call3_v2 : StableHlo.TRef sig ⟨S100x1, .f32⟩) (.of main_v33 : StableHlo.TRef sig ⟨S100x1, .f32⟩) Host.sqrt,
    StableHlo.nullary main_cst_3 (constant S_ .f32 0x2B8CBCCC#32),
    StableHlo.unary main_cst_3 main_v34 (broadcastInDim S100x1 ![] bcast_S_S100x1 : (⟨S_, .f32⟩ : BufTy).Contents (Elt F) → (⟨S100x1, .f32⟩ : BufTy).Contents (Elt F)),
    StableHlo.binary main_v33 main_v34 main_v35 (maximumf : (⟨S100x1, .f32⟩ : BufTy).Contents (Elt F) → (⟨S100x1, .f32⟩ : BufTy).Contents (Elt F) → (⟨S100x1, .f32⟩ : BufTy).Contents (Elt F)),
    StableHlo.unary main_v35 main_v36 (broadcastInDim S100x256 ![0, 1] bcast_S100x1_S100x256_0_1 : (⟨S100x1, .f32⟩ : BufTy).Contents (Elt F) → (⟨S100x256, .f32⟩ : BufTy).Contents (Elt F)),
    StableHlo.binary main_arg2 main_v36 main_v37 (Host.divf : (⟨S100x256, .f32⟩ : BufTy).Contents (Elt F) → (⟨S100x256, .f32⟩ : BufTy).Contents (Elt F) → (⟨S100x256, .f32⟩ : BufTy).Contents (Elt F)),
    StableHlo.unary main_v37 main_v38 ((transpose S256x100 [1, 0] · transposes_S100x256_S256x100_1_0) : (⟨S100x256, .f32⟩ : BufTy).Contents (Elt F) → (⟨S256x100, .f32⟩ : BufTy).Contents (Elt F)),
    StableHlo.binary main_v37 main_v38 main_v39 ((fun l r => Host.dotGeneral dot_S100x256_S256x100_S100x100_1_0_0_1_n_n none l r) : (⟨S100x256, .f32⟩ : BufTy).Contents (Elt F) → (⟨S256x100, .f32⟩ : BufTy).Contents (Elt F) → (⟨S100x100, .f32⟩ : BufTy).Contents (Elt F)),
    StableHlo.nullary main_cst_4 (constant S_ .f32 0x3F800000#32),
    StableHlo.unary main_cst_4 main_v40 (broadcastInDim S100x100 ![] bcast_S_S100x100 : (⟨S_, .f32⟩ : BufTy).Contents (Elt F) → (⟨S100x100, .f32⟩ : BufTy).Contents (Elt F)),
    StableHlo.binary main_v40 main_v39 main_v41 (subf : (⟨S100x100, .f32⟩ : BufTy).Contents (Elt F) → (⟨S100x100, .f32⟩ : BufTy).Contents (Elt F) → (⟨S100x100, .f32⟩ : BufTy).Contents (Elt F)),
    StableHlo.unary main_v21 main_v42 (broadcastInDim S8192x1 ![0] bcast_S8192_S8192x1_0 : (⟨S8192, .i32⟩ : BufTy).Contents (Elt F) → (⟨S8192x1, .i32⟩ : BufTy).Contents (Elt F)),
    StableHlo.unary main_v21 main_v43 (broadcastInDim S1x8192 ![1] bcast_S8192_S1x8192_1 : (⟨S8192, .i32⟩ : BufTy).Contents (Elt F) → (⟨S1x8192, .i32⟩ : BufTy).Contents (Elt F)),
    StableHlo.nullary main_c_5 (constantI S_ 32 0#32),
    StableHlo.unary main_c_5 main_v44 (broadcastInDim S8192x1 ![] bcast_S_S8192x1 : (⟨S_, .i32⟩ : BufTy).Contents (Elt F) → (⟨S8192x1, .i32⟩ : BufTy).Contents (Elt F)),
    StableHlo.binary main_v42 main_v44 main_v45 (cmpi .slt : (⟨S8192x1, .i32⟩ : BufTy).Contents (Elt F) → (⟨S8192x1, .i32⟩ : BufTy).Contents (Elt F) → (⟨S8192x1, .i1⟩ : BufTy).Contents (Elt F)),
    StableHlo.nullary main_c_6 (constantI S_ 32 100#32),
    StableHlo.unary main_c_6 main_v46 (broadcastInDim S8192x1 ![] bcast_S_S8192x1 : (⟨S_, .i32⟩ : BufTy).Contents (Elt F) → (⟨S8192x1, .i32⟩ : BufTy).Contents (Elt F)),
    StableHlo.binary main_v42 main_v46 main_v47 (addi : (⟨S8192x1, .i32⟩ : BufTy).Contents (Elt F) → (⟨S8192x1, .i32⟩ : BufTy).Contents (Elt F) → (⟨S8192x1, .i32⟩ : BufTy).Contents (Elt F)),
    StableHlo.ternary main_v45 main_v47 main_v42 main_v48 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.nullary main_c_7 (constantI S_ 32 0#32),
    StableHlo.unary main_c_7 main_v49 (broadcastInDim S1x8192 ![] bcast_S_S1x8192 : (⟨S_, .i32⟩ : BufTy).Contents (Elt F) → (⟨S1x8192, .i32⟩ : BufTy).Contents (Elt F)),
    StableHlo.binary main_v43 main_v49 main_v50 (cmpi .slt : (⟨S1x8192, .i32⟩ : BufTy).Contents (Elt F) → (⟨S1x8192, .i32⟩ : BufTy).Contents (Elt F) → (⟨S1x8192, .i1⟩ : BufTy).Contents (Elt F)),
    StableHlo.nullary main_c_8 (constantI S_ 32 100#32),
    StableHlo.unary main_c_8 main_v51 (broadcastInDim S1x8192 ![] bcast_S_S1x8192 : (⟨S_, .i32⟩ : BufTy).Contents (Elt F) → (⟨S1x8192, .i32⟩ : BufTy).Contents (Elt F)),
    StableHlo.binary main_v43 main_v51 main_v52 (addi : (⟨S1x8192, .i32⟩ : BufTy).Contents (Elt F) → (⟨S1x8192, .i32⟩ : BufTy).Contents (Elt F) → (⟨S1x8192, .i32⟩ : BufTy).Contents (Elt F)),
    StableHlo.ternary main_v50 main_v52 main_v43 main_v53 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F)),
    StableHlo.unary main_v48 main_v54 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v53 main_v55 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v54 main_v56 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.unary main_v55 main_v57 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.binary main_v56 main_v57 main_v58 ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F)),
    StableHlo.binary main_v41 main_v58 main_v59 ((fun x i => Host.gather gather_S100x100_S8192x8192x2_S8192x8192_n_01_n_n_01_2_11 x i) : (⟨S100x100, .f32⟩ : BufTy).Contents (Elt F) → (⟨S8192x8192x2, .i32⟩ : BufTy).Contents (Elt F) → (⟨S8192x8192, .f32⟩ : BufTy).Contents (Elt F)),
    StableHlo.nullary main_cst_9 (constant S_ .f32 0x00000000#32),
    StableHlo.TRef.unary (.of main_cst_9 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8192x8192, .f32⟩) (broadcastInDim S8192x8192 ![] bcast_S_S8192x8192),
    StableHlo.TRef.ternary (.of main_v20 : StableHlo.TRef sig ⟨S8192x8192, .i1⟩) (.of main_call4_v1 : StableHlo.TRef sig ⟨S8192x8192, .f32⟩) (.of main_v59 : StableHlo.TRef sig ⟨S8192x8192, .f32⟩) (.of main_v60 : StableHlo.TRef sig ⟨S8192x8192, .f32⟩) select,
    StableHlo.nullary main_cst_10 (constant S_ .f32 0x7F800000#32),
    StableHlo.binary main_v60 main_cst_10 main_v61 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v61 main_v62 (broadcastInDim S8192x1 ![0] bcast_S8192_S8192x1_0 : (⟨S8192, .f32⟩ : BufTy).Contents (Elt F) → (⟨S8192x1, .f32⟩ : BufTy).Contents (Elt F)),
    StableHlo.nullary main_cst_11 (constant S_ .f32 0xFF800000#32),
    StableHlo.binary main_v60 main_cst_11 main_v63 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v63 main_v64 (broadcastInDim S8192x1 ![0] bcast_S8192_S8192x1_0 : (⟨S8192, .f32⟩ : BufTy).Contents (Elt F) → (⟨S8192x1, .f32⟩ : BufTy).Contents (Elt F)),
    StableHlo.unary main_v62 main_v65 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v60 main_v65 main_v66 (subf : (⟨S8192x8192, .f32⟩ : BufTy).Contents (Elt F) → (⟨S8192x8192, .f32⟩ : BufTy).Contents (Elt F) → (⟨S8192x8192, .f32⟩ : BufTy).Contents (Elt F)),
    StableHlo.binary main_v64 main_v62 main_v67 (subf : (⟨S8192x1, .f32⟩ : BufTy).Contents (Elt F) → (⟨S8192x1, .f32⟩ : BufTy).Contents (Elt F) → (⟨S8192x1, .f32⟩ : BufTy).Contents (Elt F)),
    StableHlo.unary main_v67 main_v68 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v66 main_v68 main_v69 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_12 (constant S_ .f32 0x00000000#32),
    StableHlo.binary main_v69 main_cst_12 main_v70 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_13 (constant S_ .f32 0x46000000#32),
    StableHlo.unary main_cst_13 main_v71 (broadcastInDim S8192 ![] bcast_S_S8192 : (⟨S_, .f32⟩ : BufTy).Contents (Elt F) → (⟨S8192, .f32⟩ : BufTy).Contents (Elt F)),
    StableHlo.binary main_v70 main_v71 main_v72 (Host.divf : (⟨S8192, .f32⟩ : BufTy).Contents (Elt F) → (⟨S8192, .f32⟩ : BufTy).Contents (Elt F) → (⟨S8192, .f32⟩ : BufTy).Contents (Elt F)),
    StableHlo.nullary main_c_14 (constantI S_ 32 1#32),
    StableHlo.TRef.nullary (.of main_call5_call0_cst : StableHlo.TRef sig ⟨S_, .f32⟩) (constant S_ .f32 0x00000000#32),
    StableHlo.TRef.binary (.of main_v69 : StableHlo.TRef sig ⟨S8192x8192, .f32⟩) (.of main_call5_call0_cst : StableHlo.TRef sig ⟨S_, .f32⟩) (.of main_call5_call0_v0 : StableHlo.TRef sig ⟨S8192, .f32⟩) (fun x v => Host.reduceAdd x v reducesTo_S8192x8192_S8192_d1 h_S_),
    StableHlo.TRef.unary (.of main_call5_call0_v0 : StableHlo.TRef sig ⟨S8192, .f32⟩) (.of main_call5_call0_v1 : StableHlo.TRef sig ⟨S8192x1, .f32⟩) (broadcastInDim S8192x1 ![0] bcast_S8192_S8192x1_0),
    StableHlo.TRef.nullary (.of main_call5_call0_cst_0 : StableHlo.TRef sig ⟨S_, .f32⟩) (constant S_ .f32 0x46000000#32),
    StableHlo.TRef.unary (.of main_call5_call0_cst_0 : StableHlo.TRef sig ⟨S_, .f32⟩) (.of main_call5_call0_v2 : StableHlo.TRef sig ⟨S8192x1, .f32⟩) (broadcastInDim S8192x1 ![] bcast_S_S8192x1),
    StableHlo.TRef.binary (.of main_call5_call0_v1 : StableHlo.TRef sig ⟨S8192x1, .f32⟩) (.of main_call5_call0_v2 : StableHlo.TRef sig ⟨S8192x1, .f32⟩) (.of main_call5_call0_v3 : StableHlo.TRef sig ⟨S8192x1, .f32⟩) Host.divf,
    StableHlo.TRef.unary (.of main_call5_call0_v3 : StableHlo.TRef sig ⟨S8192x1, .f32⟩) (.of main_call5_call0_v4 : StableHlo.TRef sig ⟨S8192x8192, .f32⟩) (broadcastInDim S8192x8192 ![0, 1] bcast_S8192x1_S8192x8192_0_1),
    StableHlo.TRef.binary (.of main_v69 : StableHlo.TRef sig ⟨S8192x8192, .f32⟩) (.of main_call5_call0_v4 : StableHlo.TRef sig ⟨S8192x8192, .f32⟩) (.of main_call5_call0_v5 : StableHlo.TRef sig ⟨S8192x8192, .f32⟩) subf,
    StableHlo.TRef.binary (.of main_call5_call0_v5 : StableHlo.TRef sig ⟨S8192x8192, .f32⟩) (.of main_call5_call0_v5 : StableHlo.TRef sig ⟨S8192x8192, .f32⟩) (.of main_call5_call0_v6 : StableHlo.TRef sig ⟨S8192x8192, .f32⟩) mulf,
    StableHlo.TRef.unary (.of main_c_14 : StableHlo.TRef sig ⟨S_, .i32⟩) (.of main_call5_call0_v7 : StableHlo.TRef sig ⟨S_, .f32⟩) (sitofp .f32),
    StableHlo.TRef.nullary (.of main_call5_call0_cst_1 : StableHlo.TRef sig ⟨S_, .f32⟩) (constant S_ .f32 0x46000000#32),
    StableHlo.TRef.binary (.of main_call5_call0_cst_1 : StableHlo.TRef sig ⟨S_, .f32⟩) (.of main_call5_call0_v7 : StableHlo.TRef sig ⟨S_, .f32⟩) (.of main_call5_call0_v8 : StableHlo.TRef sig ⟨S_, .f32⟩) subf,
    StableHlo.TRef.nullary (.of main_call5_call0_cst_2 : StableHlo.TRef sig ⟨S_, .f32⟩) (constant S_ .f32 0x00000000#32),
    StableHlo.TRef.binary (.of main_call5_call0_v6 : StableHlo.TRef sig ⟨S8192x8192, .f32⟩) (.of main_call5_call0_cst_2 : StableHlo.TRef sig ⟨S_, .f32⟩) (.of main_call5_call0_v9 : StableHlo.TRef sig ⟨S8192, .f32⟩) (fun x v => Host.reduceAdd x v reducesTo_S8192x8192_S8192_d1 h_S_),
    StableHlo.TRef.unary (.of main_call5_call0_v8 : StableHlo.TRef sig ⟨S_, .f32⟩) (.of main_call5_call0_v10 : StableHlo.TRef sig ⟨S8192, .f32⟩) (broadcastInDim S8192 ![] bcast_S_S8192),
    StableHlo.TRef.binary (.of main_call5_call0_v9 : StableHlo.TRef sig ⟨S8192, .f32⟩) (.of main_call5_call0_v10 : StableHlo.TRef sig ⟨S8192, .f32⟩) (.of main_call5_call0_v11 : StableHlo.TRef sig ⟨S8192, .f32⟩) Host.divf,
    StableHlo.TRef.nullary (.of main_call5_call0_cst_3 : StableHlo.TRef sig ⟨S_, .f32⟩) (constant S_ .f32 0x00000000#32),
    StableHlo.TRef.binary (.of main_call5_call0_v8 : StableHlo.TRef sig ⟨S_, .f32⟩) (.of main_call5_call0_cst_3 : StableHlo.TRef sig ⟨S_, .f32⟩) (.of main_call5_call0_v12 : StableHlo.TRef sig ⟨S_, .i1⟩) (cmpf .ogt),
    StableHlo.TRef.nullary (.of main_call5_call0_cst_4 : StableHlo.TRef sig ⟨S_, .f32⟩) (constant S_ .f32 0x7FC00000#32),
    StableHlo.TRef.unary (.of main_call5_call0_cst_4 : StableHlo.TRef sig ⟨S_, .f32⟩) (.of main_call5_call0_call0_v0 : StableHlo.TRef sig ⟨S_, .f32⟩) id,
    StableHlo.TRef.unary (.of main_call5_call0_call0_v0 : StableHlo.TRef sig ⟨S_, .f32⟩) (.of main_call5_call0_call0_v1 : StableHlo.TRef sig ⟨S8192, .f32⟩) (broadcastInDim S8192 ![] bcast_S_S8192),
    StableHlo.TRef.ternary (.of main_call5_call0_v12 : StableHlo.TRef sig ⟨S_, .i1⟩) (.of main_call5_call0_v11 : StableHlo.TRef sig ⟨S8192, .f32⟩) (.of main_call5_call0_call0_v1 : StableHlo.TRef sig ⟨S8192, .f32⟩) (.of main_call5_v0 : StableHlo.TRef sig ⟨S8192, .f32⟩) (fun p a b => select (broadcastInDim S8192 ![] bcast_S_S8192 p) a b),
    StableHlo.TRef.unary (.of main_call5_v0 : StableHlo.TRef sig ⟨S8192, .f32⟩) (.of main_v73 : StableHlo.TRef sig ⟨S8192, .f32⟩) Host.sqrt,
    StableHlo.unary main_v72 main_v74 (broadcastInDim S1x8192 ![1] bcast_S8192_S1x8192_1 : (⟨S8192, .f32⟩ : BufTy).Contents (Elt F) → (⟨S1x8192, .f32⟩ : BufTy).Contents (Elt F)),
    StableHlo.unary main_v74 main_v75 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v69 main_v75 main_v76 (subf : (⟨S8192x8192, .f32⟩ : BufTy).Contents (Elt F) → (⟨S8192x8192, .f32⟩ : BufTy).Contents (Elt F) → (⟨S8192x8192, .f32⟩ : BufTy).Contents (Elt F)),
    StableHlo.binary main_v76 main_v76 main_v77 (mulf : (⟨S8192x8192, .f32⟩ : BufTy).Contents (Elt F) → (⟨S8192x8192, .f32⟩ : BufTy).Contents (Elt F) → (⟨S8192x8192, .f32⟩ : BufTy).Contents (Elt F)),
    StableHlo.unary main_v73 main_v78 (broadcastInDim S1x8192 ![1] bcast_S8192_S1x8192_1 : (⟨S8192, .f32⟩ : BufTy).Contents (Elt F) → (⟨S1x8192, .f32⟩ : BufTy).Contents (Elt F)),
    StableHlo.binary main_v78 main_v78 main_v79 (mulf : (⟨S1x8192, .f32⟩ : BufTy).Contents (Elt F) → (⟨S1x8192, .f32⟩ : BufTy).Contents (Elt F) → (⟨S1x8192, .f32⟩ : BufTy).Contents (Elt F)),
    StableHlo.nullary main_cst_15 (constant S_ .f32 0x40000000#32),
    StableHlo.unary main_cst_15 main_v80 (broadcastInDim S1x8192 ![] bcast_S_S1x8192 : (⟨S_, .f32⟩ : BufTy).Contents (Elt F) → (⟨S1x8192, .f32⟩ : BufTy).Contents (Elt F)),
    StableHlo.binary main_v80 main_v79 main_v81 (mulf : (⟨S1x8192, .f32⟩ : BufTy).Contents (Elt F) → (⟨S1x8192, .f32⟩ : BufTy).Contents (Elt F) → (⟨S1x8192, .f32⟩ : BufTy).Contents (Elt F)),
    StableHlo.unary main_v81 main_v82 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v77 main_v82 main_v83 (Host.divf : (⟨S8192x8192, .f32⟩ : BufTy).Contents (Elt F) → (⟨S8192x8192, .f32⟩ : BufTy).Contents (Elt F) → (⟨S8192x8192, .f32⟩ : BufTy).Contents (Elt F)),
    StableHlo.unary main_v83 main_v84 (Host.exp : (⟨S8192x8192, .f32⟩ : BufTy).Contents (Elt F) → (⟨S8192x8192, .f32⟩ : BufTy).Contents (Elt F)),
    StableHlo.binary main_v15 main_v84 main_v85 (mulf : (⟨S8192x8192, .f32⟩ : BufTy).Contents (Elt F) → (⟨S8192x8192, .f32⟩ : BufTy).Contents (Elt F) → (⟨S8192x8192, .f32⟩ : BufTy).Contents (Elt F)),
    StableHlo.binary main_v4 main_v9 main_v86 (mulf : (⟨S4096x256, .f32⟩ : BufTy).Contents (Elt F) → (⟨S4096x256, .f32⟩ : BufTy).Contents (Elt F) → (⟨S4096x256, .f32⟩ : BufTy).Contents (Elt F)),
    StableHlo.nullary main_cst_16 (constant S_ .f32 0x00000000#32),
    StableHlo.binary main_v86 main_cst_16 main_v87 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.nullary main_cst_17 (constant S_ .f32 0x3E4CCCCD#32),
    StableHlo.unary main_cst_17 main_v88 (broadcastInDim S4096 ![] bcast_S_S4096 : (⟨S_, .f32⟩ : BufTy).Contents (Elt F) → (⟨S4096, .f32⟩ : BufTy).Contents (Elt F)),
    StableHlo.binary main_v87 main_v88 main_v89 (Host.divf : (⟨S4096, .f32⟩ : BufTy).Contents (Elt F) → (⟨S4096, .f32⟩ : BufTy).Contents (Elt F) → (⟨S4096, .f32⟩ : BufTy).Contents (Elt F)),
    StableHlo.unary main_v89 main_v90 (Host.exp : (⟨S4096, .f32⟩ : BufTy).Contents (Elt F) → (⟨S4096, .f32⟩ : BufTy).Contents (Elt F)),
    StableHlo.binary main_v90 main_v90 main_v91 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    StableHlo.nullary main_cst_18 (constant S_ .f32 0x00000000#32),
    StableHlo.TRef.unary (.of main_cst_18 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S8192x8192, .f32⟩) (broadcastInDim S8192x8192 ![] bcast_S_S8192x8192),
    StableHlo.TRef.ternary (.of main_v32 : StableHlo.TRef sig ⟨S8192x8192, .i1⟩) (.of main_v85 : StableHlo.TRef sig ⟨S8192x8192, .f32⟩) (.of main_call6_v1 : StableHlo.TRef sig ⟨S8192x8192, .f32⟩) (.of main_v92 : StableHlo.TRef sig ⟨S8192x8192, .f32⟩) select,
    StableHlo.nullary main_cst_19 (constant S_ .f32 0x00000000#32),
    StableHlo.binary main_v92 main_cst_19 main_v93 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.unary main_v93 main_v94 (broadcastInDim S8192 ![] bcast_S_S8192 : (⟨S_, .f32⟩ : BufTy).Contents (Elt F) → (⟨S8192, .f32⟩ : BufTy).Contents (Elt F)),
    StableHlo.binary main_v91 main_v94 main_v95 (Host.divf : (⟨S8192, .f32⟩ : BufTy).Contents (Elt F) → (⟨S8192, .f32⟩ : BufTy).Contents (Elt F) → (⟨S8192, .f32⟩ : BufTy).Contents (Elt F)),
    StableHlo.unary main_v95 main_v96 (Host.log : (⟨S8192, .f32⟩ : BufTy).Contents (Elt F) → (⟨S8192, .f32⟩ : BufTy).Contents (Elt F)),
    StableHlo.unary main_v96 main_v97 (Host.negf : (⟨S8192, .f32⟩ : BufTy).Contents (Elt F) → (⟨S8192, .f32⟩ : BufTy).Contents (Elt F)),
    StableHlo.nullary main_cst_20 (constant S_ .f32 0x00000000#32),
    StableHlo.binary main_v97 main_cst_20 main_v98 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_21 (constant S_ .f32 0x46000000#32),
    StableHlo.binary main_v98 main_cst_21 main_v99 (Host.divf : (⟨S_, .f32⟩ : BufTy).Contents (Elt F) → (⟨S_, .f32⟩ : BufTy).Contents (Elt F) → (⟨S_, .f32⟩ : BufTy).Contents (Elt F)) ]

end Cert.ReferenceIdeal.Stages

end
-- ==== Proof.RefRunTable.lean ====
/- A table, not an argument: the buffers the line's 184 operations write, in order; per operation that it writes that buffer, touches
   TensorCore buffers only and determines its result; and per written buffer its contents after any prefix that holds its operation — its stage of
   the arguments' contents —, each by the same three steps: the buffer is not written again, its operation's result, the operands' own lemmas. -/
import proofs.«427632_j79637283602625_3_alg».proof.Proof.RefRunLine
import proofs.«427632_j79637283602625_3_alg».proof.Proof.RefStages
import proofs.«427632_j79637283602625_3_alg».proof.Proof.Gen.ReferenceIdeal

set_option maxRecDepth 16384

noncomputable section

namespace Cert.ReferenceIdeal.Hand

open Cert.ReferenceIdeal Cert.ReferenceIdeal.Stages Idealize.ShloMosaic Idealize.ShloMosaic.TcCoe Idealize.SL.Sem Idealize.ShloMosaic.StableHlo
open Cert.ReferenceIdeal.Facts₀ Cert.ReferenceIdeal.Facts

variable {F : FTy → Type} [FloatOps F]

/-- The line's operations, under a name that is not unfolded on sight. -/
def theOps : List (HloOp τ sig (Elt F)) := opsPre
theorem theOps_eq : (theOps : List (HloOp τ sig (Elt F))) = opsPre := rfl
theorem theOps_length : (theOps : List (HloOp τ sig (Elt F))).length = 184 := rfl

/-- The buffer each operation writes, in program order. -/
abbrev written : List (Ref sig .tc) :=
  [main_call0_v0, main_call0_cst, main_call0_v1, main_call0_v2, main_v0, main_cst, main_v1, main_v2, main_v3, main_v4, main_call1_v0, main_call1_cst, main_call1_v1, main_call1_v2, main_v5, main_cst_0, main_v6, main_v7, main_v8, main_v9, main_v10, main_v11, main_v12, main_cst_1, main_v13, main_v14, main_v15, main_v16, main_v17, main_c, main_v18, main_v19, main_v20, main_v21, main_v22, main_v23, main_v24, main_v25, main_v26, main_v27, main_v28, main_c_2, main_v29, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_c_4, main_call2_v15, main_v30, main_v31, main_v32, main_call3_v0, main_call3_cst, main_call3_v1, main_call3_v2, main_v33, main_cst_3, main_v34, main_v35, main_v36, main_v37, main_v38, main_v39, main_cst_4, main_v40, main_v41, main_v42, main_v43, main_c_5, main_v44, main_v45, main_c_6, main_v46, main_v47, main_v48, main_c_7, main_v49, main_v50, main_c_8, main_v51, main_v52, main_v53, main_v54, main_v55, main_v56, main_v57, main_v58, main_v59, main_cst_9, main_call4_v0, main_call4_v1, main_v60, main_cst_10, main_v61, main_v62, main_cst_11, main_v63, main_v64, main_v65, main_v66, main_v67, main_v68, main_v69, main_cst_12, main_v70, main_cst_13, main_v71, main_v72, main_c_14, main_call5_call0_cst, main_call5_call0_v0, main_call5_call0_v1, main_call5_call0_cst_0, main_call5_call0_v2, main_call5_call0_v3, main_call5_call0_v4, main_call5_call0_v5, main_call5_call0_v6, main_call5_call0_v7, main_call5_call0_cst_1, main_call5_call0_v8, main_call5_call0_cst_2, main_call5_call0_v9, main_call5_call0_v10, main_call5_call0_v11, main_call5_call0_cst_3, main_call5_call0_v12, main_call5_call0_cst_4, main_call5_call0_call0_v0, main_call5_call0_call0_v1, main_call5_v0, main_v73, main_v74, main_v75, main_v76, main_v77, main_v78, main_v79, main_cst_15, main_v80, main_v81, main_v82, main_v83, main_v84, main_v85, main_v86, main_cst_16, main_v87, main_cst_17, main_v88, main_v89, main_v90, main_v91, main_cst_18, main_call6_v0, main_call6_v1, main_v92, main_cst_19, main_v93, main_v94, main_v95, main_v96, main_v97, main_cst_20, main_v98, main_cst_21, main_v99]

set_option maxRecDepth 65536 in
theorem theOps_writes : List.Forall₂ (fun op w => op.writes = ({Proc.devRef (τ := τ) .tc w} : Finset (DevRef τ sig))) (theOps (F := F)) written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))))))))))))))))))))))))))))))))))))))))))))))))))))))))

set_option maxRecDepth 65536 in
theorem ops_sub : (opsPre : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., reshape_bufs_sub .., reshape_bufs_sub .., unary_bufs_sub .., nullary_bufs_sub .., unary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., binary_bufs_sub .., unary_bufs_sub .., unary_bufs_sub .., binary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., binary_bufs_sub .., unary_bufs_sub .., binary_bufs_sub .., unary_bufs_sub .., unary_bufs_sub .., nullary_bufs_sub .., binary_bufs_sub .., nullary_bufs_sub .., binary_bufs_sub ..⟩

set_option maxRecDepth 65536 in
theorem ops_fresh : (opsPre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem at_main_arg0 (V : Valuation τ sig (Elt F)) (k : ℕ) : pre k theOps V (Proc.devRef .tc main_arg0) = V (Proc.devRef .tc main_arg0) :=
  (pre_keep theOps_writes main_arg0 0 k V (Nat.zero_le _) (by decide +kernel)).trans (by rw [pre_zero])
theorem at_main_arg1 (V : Valuation τ sig (Elt F)) (k : ℕ) : pre k theOps V (Proc.devRef .tc main_arg1) = V (Proc.devRef .tc main_arg1) :=
  (pre_keep theOps_writes main_arg1 0 k V (Nat.zero_le _) (by decide +kernel)).trans (by rw [pre_zero])
theorem at_main_arg2 (V : Valuation τ sig (Elt F)) (k : ℕ) : pre k theOps V (Proc.devRef .tc main_arg2) = V (Proc.devRef .tc main_arg2) :=
  (pre_keep theOps_writes main_arg2 0 k V (Nat.zero_le _) (by decide +kernel)).trans (by rw [pre_zero])
theorem at_main_arg3 (V : Valuation τ sig (Elt F)) (k : ℕ) : pre k theOps V (Proc.devRef .tc main_arg3) = V (Proc.devRef .tc main_arg3) :=
  (pre_keep theOps_writes main_arg3 0 k V (Nat.zero_le _) (by decide +kernel)).trans (by rw [pre_zero])
theorem at_main_arg4 (V : Valuation τ sig (Elt F)) (k : ℕ) : pre k theOps V (Proc.devRef .tc main_arg4) = V (Proc.devRef .tc main_arg4) :=
  (pre_keep theOps_writes main_arg4 0 k V (Nat.zero_le _) (by decide +kernel)).trans (by rw [pre_zero])

theorem at_main_call0_v0 (V : Valuation τ sig (Elt F)) (k : ℕ) (hk : 0 < k) :
    pre k theOps V (Proc.devRef .tc main_call0_v0) = res_main_call0_v0 (V (Proc.devRef .tc main_arg0)) (V (Proc.devRef .tc main_arg1)) (V (Proc.devRef .tc main_arg2)) (V (Proc.devRef .tc main_arg3)) (V (Proc.devRef .tc main_arg4)) :=
  (pre_keep theOps_writes main_call0_v0 1 k V hk (by decide +kernel)).trans
    ((pre_binary theOps 0 V main_arg0 main_arg0 main_call0_v0 ((mulf : (⟨S4096x256, .f32⟩ : BufTy).Contents (Elt F) → (⟨S4096x256, .f32⟩ : BufTy).Contents (Elt F) → (⟨S4096x256, .f32⟩ : BufTy).Contents (Elt F))) _ _ _ rfl).trans (by rw [at_main_arg0 V 0]; rfl))
theorem at_main_call0_cst (V : Valuation τ sig (Elt F)) (k : ℕ) (hk : 1 < k) :
    pre k theOps V (Proc.devRef .tc main_call0_cst) = res_main_call0_cst (V (Proc.devRef .tc main_arg0)) (V (Proc.devRef .tc main_arg1)) (V (Proc.devRef .tc main_arg2)) (V (Proc.devRef .tc main_arg3)) (V (Proc.devRef .tc main_arg4)) :=
  (pre_keep theOps_writes main_call0_cst 2 k V hk (by decide +kernel)).trans
    ((pre_nullary theOps 1 V main_call0_cst ((constant S_ .f32 0x00000000#32 : (⟨S_, .f32⟩ : BufTy).Contents (Elt F))) _ rfl).trans (by rfl))
theorem at_main_call0_v1 (V : Valuation τ sig (Elt F)) (k : ℕ) (hk : 2 < k) :
    pre k theOps V (Proc.devRef .tc main_call0_v1) = res_main_call0_v1 (V (Proc.devRef .tc main_arg0)) (V (Proc.devRef .tc main_arg1)) (V (Proc.devRef .tc main_arg2)) (V (Proc.devRef .tc main_arg3)) (V (Proc.devRef .tc main_arg4)) :=
  (pre_keep theOps_writes main_call0_v1 3 k V hk (by decide +kernel)).trans
    ((pre_binary theOps 2 V main_call0_v0 main_call0_cst main_call0_v1 ((fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F))) _ _ _ rfl).trans (by rw [at_main_call0_v0 V 2 (by decide), at_main_call0_cst V 2 (by decide)]; rfl))
theorem at_main_call0_v2 (V : Valuation τ sig (Elt F)) (k : ℕ) (hk : 3 < k) :
    pre k theOps V (Proc.devRef .tc main_call0_v2) = res_main_call0_v2 (V (Proc.devRef .tc main_arg0)) (V (Proc.devRef .tc main_arg1)) (V (Proc.devRef .tc main_arg2)) (V (Proc.devRef .tc main_arg3)) (V (Proc.devRef .tc main_arg4)) :=
  (pre_keep theOps_writes main_call0_v2 4 k V hk (by decide +kernel)).trans
    ((pre_unary theOps 3 V main_call0_v1 main_call0_v2 ((broadcastInDim S4096x1 ![0] bcast_S4096_S4096x1_0 : (⟨S4096, .f32⟩ : BufTy).Contents (Elt F) → (⟨S4096x1, .f32⟩ : BufTy).Contents (Elt F))) _ _ rfl).trans (by rw [at_main_call0_v1 V 3 (by decide)]; rfl))
theorem at_main_v0 (V : Valuation τ sig (Elt F)) (k : ℕ) (hk : 4 < k) :
    pre k theOps V (Proc.devRef .tc main_v0) = res_main_v0 (V (Proc.devRef .tc main_arg0)) (V (Proc.devRef .tc main_arg1)) (V (Proc.devRef .tc main_arg2)) (V (Proc.devRef .tc main_arg3)) (V (Proc.devRef .tc main_arg4)) :=
  (pre_keep theOps_writes main_v0 5 k V hk (by decide +kernel)).trans
    ((pre_unary theOps 4 V main_call0_v2 main_v0 ((Host.sqrt : (⟨S4096x1, .f32⟩ : BufTy).Contents (Elt F) → (⟨S4096x1, .f32⟩ : BufTy).Contents (Elt F))) _ _ rfl).trans (by rw [at_main_call0_v2 V 4 (by decide)]; rfl))
theorem at_main_cst (V : Valuation τ sig (Elt F)) (k : ℕ) (hk : 5 < k) :
    pre k theOps V (Proc.devRef .tc main_cst) = res_main_cst (V (Proc.devRef .tc main_arg0)) (V (Proc.devRef .tc main_arg1)) (V (Proc.devRef .tc main_arg2)) (V (Proc.devRef .tc main_arg3)) (V (Proc.devRef .tc main_arg4)) :=
  (pre_keep theOps_writes main_cst 6 k V hk (by decide +kernel)).trans
    ((pre_nullary theOps 5 V main_cst ((constant S_ .f32 0x2B8CBCCC#32 : (⟨S_, .f32⟩ : BufTy).Contents (Elt F))) _ rfl).trans (by rfl))
theorem at_main_v1 (V : Valuation τ sig (Elt F)) (k : ℕ) (hk : 6 < k) :
    pre k theOps V (Proc.devRef .tc main_v1) = res_main_v1 (V (Proc.devRef .tc main_arg0)) (V (Proc.devRef .tc main_arg1)) (V (Proc.devRef .tc main_arg2)) (V (Proc.devRef .tc main_arg3)) (V (Proc.devRef .tc main_arg4)) :=
  (pre_keep theOps_writes main_v1 7 k V hk (by decide +kernel)).trans
    ((pre_unary theOps 6 V main_cst main_v1 ((broadcastInDim S4096x1 ![] bcast_S_S4096x1 : (⟨S_, .f32⟩ : BufTy).Contents (Elt F) → (⟨S4096x1, .f32⟩ : BufTy).Contents (Elt F))) _ _ rfl).trans (by rw [at_main_cst V 6 (by decide)]; rfl))
theorem at_main_v2 (V : Valuation τ sig (Elt F)) (k : ℕ) (hk : 7 < k) :
    pre k theOps V (Proc.devRef .tc main_v2) = res_main_v2 (V (Proc.devRef .tc main_arg0)) (V (Proc.devRef .tc main_arg1)) (V (Proc.devRef .tc main_arg2)) (V (Proc.devRef .tc main_arg3)) (V (Proc.devRef .tc main_arg4)) :=
  (pre_keep theOps_writes main_v2 8 k V hk (by decide +kernel)).trans
    ((pre_binary theOps 7 V main_v0 main_v1 main_v2 ((maximumf : (⟨S4096x1, .f32⟩ : BufTy).Contents (Elt F) → (⟨S4096x1, .f32⟩ : BufTy).Contents (Elt F) → (⟨S4096x1, .f32⟩ : BufTy).Contents (Elt F))) _ _ _ rfl).trans (by rw [at_main_v0 V 7 (by decide), at_main_v1 V 7 (by decide)]; rfl))
theorem at_main_v3 (V : Valuation τ sig (Elt F)) (k : ℕ) (hk : 8 < k) :
    pre k theOps V (Proc.devRef .tc main_v3) = res_main_v3 (V (Proc.devRef .tc main_arg0)) (V (Proc.devRef .tc main_arg1)) (V (Proc.devRef .tc main_arg2)) (V (Proc.devRef .tc main_arg3)) (V (Proc.devRef .tc main_arg4)) :=
  (pre_keep theOps_writes main_v3 9 k V hk (by decide +kernel)).trans
    ((pre_unary theOps 8 V main_v2 main_v3 ((broadcastInDim S4096x256 ![0, 1] bcast_S4096x1_S4096x256_0_1 : (⟨S4096x1, .f32⟩ : BufTy).Contents (Elt F) → (⟨S4096x256, .f32⟩ : BufTy).Contents (Elt F))) _ _ rfl).trans (by rw [at_main_v2 V 8 (by decide)]; rfl))
theorem at_main_v4 (V : Valuation τ sig (Elt F)) (k : ℕ) (hk : 9 < k) :
    pre k theOps V (Proc.devRef .tc main_v4) = res_main_v4 (V (Proc.devRef .tc main_arg0)) (V (Proc.devRef .tc main_arg1)) (V (Proc.devRef .tc main_arg2)) (V (Proc.devRef .tc main_arg3)) (V (Proc.devRef .tc main_arg4)) :=
  (pre_keep theOps_writes main_v4 10 k V hk (by decide +kernel)).trans
    ((pre_binary theOps 9 V main_arg0 main_v3 main_v4 ((Host.divf : (⟨S4096x256, .f32⟩ : BufTy).Contents (Elt F) → (⟨S4096x256, .f32⟩ : BufTy).Contents (Elt F) → (⟨S4096x256, .f32⟩ : BufTy).Contents (Elt F))) _ _ _ rfl).trans (by rw [at_main_arg0 V 9, at_main_v3 V 9 (by decide)]; rfl))
theorem at_main_call1_v0 (V : Valuation τ sig (Elt F)) (k : ℕ) (hk : 10 < k) :
    pre k theOps V (Proc.devRef .tc main_call1_v0) = res_main_call1_v0 (V (Proc.devRef .tc main_arg0)) (V (Proc.devRef .tc main_arg1)) (V (Proc.devRef .tc main_arg2)) (V (Proc.devRef .tc main_arg3)) (V (Proc.devRef .tc main_arg4)) :=
  (pre_keep theOps_writes main_call1_v0 11 k V hk (by decide +kernel)).trans
    ((pre_binary theOps 10 V main_arg1 main_arg1 main_call1_v0 ((mulf : (⟨S4096x256, .f32⟩ : BufTy).Contents (Elt F) → (⟨S4096x256, .f32⟩ : BufTy).Contents (Elt F) → (⟨S4096x256, .f32⟩ : BufTy).Contents (Elt F))) _ _ _ rfl).trans (by rw [at_main_arg1 V 10]; rfl))
theorem at_main_call1_cst (V : Valuation τ sig (Elt F)) (k : ℕ) (hk : 11 < k) :
    pre k theOps V (Proc.devRef .tc main_call1_cst) = res_main_call1_cst (V (Proc.devRef .tc main_arg0)) (V (Proc.devRef .tc main_arg1)) (V (Proc.devRef .tc main_arg2)) (V (Proc.devRef .tc main_arg3)) (V (Proc.devRef .tc main_arg4)) :=
  (pre_keep theOps_writes main_call1_cst 12 k V hk (by decide +kernel)).trans
    ((pre_nullary theOps 11 V main_call1_cst ((constant S_ .f32 0x00000000#32 : (⟨S_, .f32⟩ : BufTy).Contents (Elt F))) _ rfl).trans (by rfl))
theorem at_main_call1_v1 (V : Valuation τ sig (Elt F)) (k : ℕ) (hk : 12 < k) :
    pre k theOps V (Proc.devRef .tc main_call1_v1) = res_main_call1_v1 (V (Proc.devRef .tc main_arg0)) (V (Proc.devRef .tc main_arg1)) (V (Proc.devRef .tc main_arg2)) (V (Proc.devRef .tc main_arg3)) (V (Proc.devRef .tc main_arg4)) :=
  (pre_keep theOps_writes main_call1_v1 13 k V hk (by decide +kernel)).trans
    ((pre_binary theOps 12 V main_call1_v0 main_call1_cst main_call1_v1 ((fun x v => Host.reduceAdd x v reducesTo_S4096x256_S4096_d1 h_S_ : (⟨S4096x256, .f32⟩ : BufTy).Contents (Elt F) → (⟨S_, .f32⟩ : BufTy).Contents (Elt F) → (⟨S4096, .f32⟩ : BufTy).Contents (Elt F))) _ _ _ rfl).trans (by rw [at_main_call1_v0 V 12 (by decide), at_main_call1_cst V 12 (by decide)]; rfl))
theorem at_main_call1_v2 (V : Valuation τ sig (Elt F)) (k : ℕ) (hk : 13 < k) :
    pre k theOps V (Proc.devRef .tc main_call1_v2) = res_main_call1_v2 (V (Proc.devRef .tc main_arg0)) (V (Proc.devRef .tc main_arg1)) (V (Proc.devRef .tc main_arg2)) (V (Proc.devRef .tc main_arg3)) (V (Proc.devRef .tc main_arg4)) :=
  (pre_keep theOps_writes main_call1_v2 14 k V hk (by decide +kernel)).trans
    ((pre_unary theOps 13 V main_call1_v1 main_call1_v2 ((broadcastInDim S4096x1 ![0] bcast_S4096_S4096x1_0 : (⟨S4096, .f32⟩ : BufTy).Contents (Elt F) → (⟨S4096x1, .f32⟩ : BufTy).Contents (Elt F))) _ _ rfl).trans (by rw [at_main_call1_v1 V 13 (by decide)]; rfl))
theorem at_main_v5 (V : Valuation τ sig (Elt F)) (k : ℕ) (hk : 14 < k) :
    pre k theOps V (Proc.devRef .tc main_v5) = res_main_v5 (V (Proc.devRef .tc main_arg0)) (V (Proc.devRef .tc main_arg1)) (V (Proc.devRef .tc main_arg2)) (V (Proc.devRef .tc main_arg3)) (V (Proc.devRef .tc main_arg4)) :=
  (pre_keep theOps_writes main_v5 15 k V hk (by decide +kernel)).trans
    ((pre_unary theOps 14 V main_call1_v2 main_v5 ((Host.sqrt : (⟨S4096x1, .f32⟩ : BufTy).Contents (Elt F) → (⟨S4096x1, .f32⟩ : BufTy).Contents (Elt F))) _ _ rfl).trans (by rw [at_main_call1_v2 V 14 (by decide)]; rfl))
theorem at_main_cst_0 (V : Valuation τ sig (Elt F)) (k : ℕ) (hk : 15 < k) :
    pre k theOps V (Proc.devRef .tc main_cst_0) = res_main_cst_0 (V (Proc.devRef .tc main_arg0)) (V (Proc.devRef .tc main_arg1)) (V (Proc.devRef .tc main_arg2)) (V (Proc.devRef .tc main_arg3)) (V (Proc.devRef .tc main_arg4)) :=
  (pre_keep theOps_writes main_cst_0 16 k V hk (by decide +kernel)).trans
    ((pre_nullary theOps 15 V main_cst_0 ((constant S_ .f32 0x2B8CBCCC#32 : (⟨S_, .f32⟩ : BufTy).Contents (Elt F))) _ rfl).trans (by rfl))
theorem at_main_v6 (V : Valuation τ sig (Elt F)) (k : ℕ) (hk : 16 < k) :
    pre k theOps V (Proc.devRef .tc main_v6) = res_main_v6 (V (Proc.devRef .tc main_arg0)) (V (Proc.devRef .tc main_arg1)) (V (Proc.devRef .tc main_arg2)) (V (Proc.devRef .tc main_arg3)) (V (Proc.devRef .tc main_arg4)) :=
  (pre_keep theOps_writes main_v6 17 k V hk (by decide +kernel)).trans
    ((pre_unary theOps 16 V main_cst_0 main_v6 ((broadcastInDim S4096x1 ![] bcast_S_S4096x1 : (⟨S_, .f32⟩ : BufTy).Contents (Elt F) → (⟨S4096x1, .f32⟩ : BufTy).Contents (Elt F))) _ _ rfl).trans (by rw [at_main_cst_0 V 16 (by decide)]; rfl))
theorem at_main_v7 (V : Valuation τ sig (Elt F)) (k : ℕ) (hk : 17 < k) :
    pre k theOps V (Proc.devRef .tc main_v7) = res_main_v7 (V (Proc.devRef .tc main_arg0)) (V (Proc.devRef .tc main_arg1)) (V (Proc.devRef .tc main_arg2)) (V (Proc.devRef .tc main_arg3)) (V (Proc.devRef .tc main_arg4)) :=
  (pre_keep theOps_writes main_v7 18 k V hk (by decide +kernel)).trans
    ((pre_binary theOps 17 V main_v5 main_v6 main_v7 ((maximumf : (⟨S4096x1, .f32⟩ : BufTy).Contents (Elt F) → (⟨S4096x1, .f32⟩ : BufTy).Contents (Elt F) → (⟨S4096x1, .f32⟩ : BufTy).Contents (Elt F))) _ _ _ rfl).trans (by rw [at_main_v5 V 17 (by decide), at_main_v6 V 17 (by decide)]; rfl))
theorem at_main_v8 (V : Valuation τ sig (Elt F)) (k : ℕ) (hk : 18 < k) :
    pre k theOps V (Proc.devRef .tc main_v8) = res_main_v8 (V (Proc.devRef .tc main_arg0)) (V (Proc.devRef .tc main_arg1)) (V (Proc.devRef .tc main_arg2)) (V (Proc.devRef .tc main_arg3)) (V (Proc.devRef .tc main_arg4)) :=
  (pre_keep theOps_writes main_v8 19 k V hk (by decide +kernel)).trans
    ((pre_unary theOps 18 V main_v7 main_v8 ((broadcastInDim S4096x256 ![0, 1] bcast_S4096x1_S4096x256_0_1 : (⟨S4096x1, .f32⟩ : BufTy).Contents (Elt F) → (⟨S4096x256, .f32⟩ : BufTy).Contents (Elt F))) _ _ rfl).trans (by rw [at_main_v7 V 18 (by decide)]; rfl))
theorem at_main_v9 (V : Valuation τ sig (Elt F)) (k : ℕ) (hk : 19 < k) :
    pre k theOps V (Proc.devRef .tc main_v9) = res_main_v9 (V (Proc.devRef .tc main_arg0)) (V (Proc.devRef .tc main_arg1)) (V (Proc.devRef .tc main_arg2)) (V (Proc.devRef .tc main_arg3)) (V (Proc.devRef .tc main_arg4)) :=
  (pre_keep theOps_writes main_v9 20 k V hk (by decide +kernel)).trans
    ((pre_binary theOps 19 V main_arg1 main_v8 main_v9 ((Host.divf : (⟨S4096x256, .f32⟩ : BufTy).Contents (Elt F) → (⟨S4096x256, .f32⟩ : BufTy).Contents (Elt F) → (⟨S4096x256, .f32⟩ : BufTy).Contents (Elt F))) _ _ _ rfl).trans (by rw [at_main_arg1 V 19, at_main_v8 V 19 (by decide)]; rfl))
theorem at_main_v10 (V : Valuation τ sig (Elt F)) (k : ℕ) (hk : 20 < k) :
    pre k theOps V (Proc.devRef .tc main_v10) = res_main_v10 (V (Proc.devRef .tc main_arg0)) (V (Proc.devRef .tc main_arg1)) (V (Proc.devRef .tc main_arg2)) (V (Proc.devRef .tc main_arg3)) (V (Proc.devRef .tc main_arg4)) :=
  (pre_keep theOps_writes main_v10 21 k V hk (by decide +kernel)).trans
    ((pre_binary theOps 20 V main_v4 main_v9 main_v10 (((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F))) _ _ _ rfl).trans (by rw [at_main_v4 V 20 (by decide), at_main_v9 V 20 (by decide)]; rfl))
theorem at_main_v11 (V : Valuation τ sig (Elt F)) (k : ℕ) (hk : 21 < k) :
    pre k theOps V (Proc.devRef .tc main_v11) = res_main_v11 (V (Proc.devRef .tc main_arg0)) (V (Proc.devRef .tc main_arg1)) (V (Proc.devRef .tc main_arg2)) (V (Proc.devRef .tc main_arg3)) (V (Proc.devRef .tc main_arg4)) :=
  (pre_keep theOps_writes main_v11 22 k V hk (by decide +kernel)).trans
    ((pre_unary theOps 21 V main_v10 main_v11 (((transpose S256x8192 [1, 0] · transposes_S8192x256_S256x8192_1_0) : (⟨S8192x256, .f32⟩ : BufTy).Contents (Elt F) → (⟨S256x8192, .f32⟩ : BufTy).Contents (Elt F))) _ _ rfl).trans (by rw [at_main_v10 V 21 (by decide)]; rfl))
theorem at_main_v12 (V : Valuation τ sig (Elt F)) (k : ℕ) (hk : 22 < k) :
    pre k theOps V (Proc.devRef .tc main_v12) = res_main_v12 (V (Proc.devRef .tc main_arg0)) (V (Proc.devRef .tc main_arg1)) (V (Proc.devRef .tc main_arg2)) (V (Proc.devRef .tc main_arg3)) (V (Proc.devRef .tc main_arg4)) :=
  (pre_keep theOps_writes main_v12 23 k V hk (by decide +kernel)).trans
    ((pre_binary theOps 22 V main_v10 main_v11 main_v12 (((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F))) _ _ _ rfl).trans (by rw [at_main_v10 V 22 (by decide), at_main_v11 V 22 (by decide)]; rfl))
theorem at_main_cst_1 (V : Valuation τ sig (Elt F)) (k : ℕ) (hk : 23 < k) :
    pre k theOps V (Proc.devRef .tc main_cst_1) = res_main_cst_1 (V (Proc.devRef .tc main_arg0)) (V (Proc.devRef .tc main_arg1)) (V (Proc.devRef .tc main_arg2)) (V (Proc.devRef .tc main_arg3)) (V (Proc.devRef .tc main_arg4)) :=
  (pre_keep theOps_writes main_cst_1 24 k V hk (by decide +kernel)).trans
    ((pre_nullary theOps 23 V main_cst_1 ((constant S_ .f32 0x3E4CCCCD#32 : (⟨S_, .f32⟩ : BufTy).Contents (Elt F))) _ rfl).trans (by rfl))
theorem at_main_v13 (V : Valuation τ sig (Elt F)) (k : ℕ) (hk : 24 < k) :
    pre k theOps V (Proc.devRef .tc main_v13) = res_main_v13 (V (Proc.devRef .tc main_arg0)) (V (Proc.devRef .tc main_arg1)) (V (Proc.devRef .tc main_arg2)) (V (Proc.devRef .tc main_arg3)) (V (Proc.devRef .tc main_arg4)) :=
  (pre_keep theOps_writes main_v13 25 k V hk (by decide +kernel)).trans
    ((pre_unary theOps 24 V main_cst_1 main_v13 ((broadcastInDim S8192x8192 ![] bcast_S_S8192x8192 : (⟨S_, .f32⟩ : BufTy).Contents (Elt F) → (⟨S8192x8192, .f32⟩ : BufTy).Contents (Elt F))) _ _ rfl).trans (by rw [at_main_cst_1 V 24 (by decide)]; rfl))
theorem at_main_v14 (V : Valuation τ sig (Elt F)) (k : ℕ) (hk : 25 < k) :
    pre k theOps V (Proc.devRef .tc main_v14) = res_main_v14 (V (Proc.devRef .tc main_arg0)) (V (Proc.devRef .tc main_arg1)) (V (Proc.devRef .tc main_arg2)) (V (Proc.devRef .tc main_arg3)) (V (Proc.devRef .tc main_arg4)) :=
  (pre_keep theOps_writes main_v14 26 k V hk (by decide +kernel)).trans
    ((pre_binary theOps 25 V main_v12 main_v13 main_v14 ((Host.divf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v12 V 25 (by decide), at_main_v13 V 25 (by decide)]; rfl))
theorem at_main_v15 (V : Valuation τ sig (Elt F)) (k : ℕ) (hk : 26 < k) :
    pre k theOps V (Proc.devRef .tc main_v15) = res_main_v15 (V (Proc.devRef .tc main_arg0)) (V (Proc.devRef .tc main_arg1)) (V (Proc.devRef .tc main_arg2)) (V (Proc.devRef .tc main_arg3)) (V (Proc.devRef .tc main_arg4)) :=
  (pre_keep theOps_writes main_v15 27 k V hk (by decide +kernel)).trans
    ((pre_unary theOps 26 V main_v14 main_v15 ((Host.exp : (⟨S8192x8192, .f32⟩ : BufTy).Contents (Elt F) → (⟨S8192x8192, .f32⟩ : BufTy).Contents (Elt F))) _ _ rfl).trans (by rw [at_main_v14 V 26 (by decide)]; rfl))
theorem at_main_v16 (V : Valuation τ sig (Elt F)) (k : ℕ) (hk : 27 < k) :
    pre k theOps V (Proc.devRef .tc main_v16) = res_main_v16 (V (Proc.devRef .tc main_arg0)) (V (Proc.devRef .tc main_arg1)) (V (Proc.devRef .tc main_arg2)) (V (Proc.devRef .tc main_arg3)) (V (Proc.devRef .tc main_arg4)) :=
  (pre_keep theOps_writes main_v16 28 k V hk (by decide +kernel)).trans
    ((pre_nullary theOps 27 V main_v16 ((iotaInDim S8192x8192 32 0 : (⟨S8192x8192, .i32⟩ : BufTy).Contents (Elt F))) _ rfl).trans (by rfl))
theorem at_main_v17 (V : Valuation τ sig (Elt F)) (k : ℕ) (hk : 28 < k) :
    pre k theOps V (Proc.devRef .tc main_v17) = res_main_v17 (V (Proc.devRef .tc main_arg0)) (V (Proc.devRef .tc main_arg1)) (V (Proc.devRef .tc main_arg2)) (V (Proc.devRef .tc main_arg3)) (V (Proc.devRef .tc main_arg4)) :=
  (pre_keep theOps_writes main_v17 29 k V hk (by decide +kernel)).trans
    ((pre_nullary theOps 28 V main_v17 ((iotaInDim S8192x8192 32 1 : (⟨S8192x8192, .i32⟩ : BufTy).Contents (Elt F))) _ rfl).trans (by rfl))
theorem at_main_c (V : Valuation τ sig (Elt F)) (k : ℕ) (hk : 29 < k) :
    pre k theOps V (Proc.devRef .tc main_c) = res_main_c (V (Proc.devRef .tc main_arg0)) (V (Proc.devRef .tc main_arg1)) (V (Proc.devRef .tc main_arg2)) (V (Proc.devRef .tc main_arg3)) (V (Proc.devRef .tc main_arg4)) :=
  (pre_keep theOps_writes main_c 30 k V hk (by decide +kernel)).trans
    ((pre_nullary theOps 29 V main_c ((constantI S_ 32 0#32 : (⟨S_, .i32⟩ : BufTy).Contents (Elt F))) _ rfl).trans (by rfl))
theorem at_main_v18 (V : Valuation τ sig (Elt F)) (k : ℕ) (hk : 30 < k) :
    pre k theOps V (Proc.devRef .tc main_v18) = res_main_v18 (V (Proc.devRef .tc main_arg0)) (V (Proc.devRef .tc main_arg1)) (V (Proc.devRef .tc main_arg2)) (V (Proc.devRef .tc main_arg3)) (V (Proc.devRef .tc main_arg4)) :=
  (pre_keep theOps_writes main_v18 31 k V hk (by decide +kernel)).trans
    ((pre_unary theOps 30 V main_c main_v18 ((broadcastInDim S8192x8192 ![] bcast_S_S8192x8192 : (⟨S_, .i32⟩ : BufTy).Contents (Elt F) → (⟨S8192x8192, .i32⟩ : BufTy).Contents (Elt F))) _ _ rfl).trans (by rw [at_main_c V 30 (by decide)]; rfl))
theorem at_main_v19 (V : Valuation τ sig (Elt F)) (k : ℕ) (hk : 31 < k) :
    pre k theOps V (Proc.devRef .tc main_v19) = res_main_v19 (V (Proc.devRef .tc main_arg0)) (V (Proc.devRef .tc main_arg1)) (V (Proc.devRef .tc main_arg2)) (V (Proc.devRef .tc main_arg3)) (V (Proc.devRef .tc main_arg4)) :=
  (pre_keep theOps_writes main_v19 32 k V hk (by decide +kernel)).trans
    ((pre_binary theOps 31 V main_v16 main_v18 main_v19 ((addi : (⟨S8192x8192, .i32⟩ : BufTy).Contents (Elt F) → (⟨S8192x8192, .i32⟩ : BufTy).Contents (Elt F) → (⟨S8192x8192, .i32⟩ : BufTy).Contents (Elt F))) _ _ _ rfl).trans (by rw [at_main_v16 V 31 (by decide), at_main_v18 V 31 (by decide)]; rfl))
theorem at_main_v20 (V : Valuation τ sig (Elt F)) (k : ℕ) (hk : 32 < k) :
    pre k theOps V (Proc.devRef .tc main_v20) = res_main_v20 (V (Proc.devRef .tc main_arg0)) (V (Proc.devRef .tc main_arg1)) (V (Proc.devRef .tc main_arg2)) (V (Proc.devRef .tc main_arg3)) (V (Proc.devRef .tc main_arg4)) :=
  (pre_keep theOps_writes main_v20 33 k V hk (by decide +kernel)).trans
    ((pre_binary theOps 32 V main_v19 main_v17 main_v20 ((cmpi .eq : (⟨S8192x8192, .i32⟩ : BufTy).Contents (Elt F) → (⟨S8192x8192, .i32⟩ : BufTy).Contents (Elt F) → (⟨S8192x8192, .i1⟩ : BufTy).Contents (Elt F))) _ _ _ rfl).trans (by rw [at_main_v19 V 32 (by decide), at_main_v17 V 32 (by decide)]; rfl))
theorem at_main_v21 (V : Valuation τ sig (Elt F)) (k : ℕ) (hk : 33 < k) :
    pre k theOps V (Proc.devRef .tc main_v21) = res_main_v21 (V (Proc.devRef .tc main_arg0)) (V (Proc.devRef .tc main_arg1)) (V (Proc.devRef .tc main_arg2)) (V (Proc.devRef .tc main_arg3)) (V (Proc.devRef .tc main_arg4)) :=
  (pre_keep theOps_writes main_v21 34 k V hk (by decide +kernel)).trans
    ((pre_reshape theOps 33 V main_arg3 main_v21 _ _ _ _ rfl).trans (by rw [at_main_arg3 V 33]; rfl))
theorem at_main_v22 (V : Valuation τ sig (Elt F)) (k : ℕ) (hk : 34 < k) :
    pre k theOps V (Proc.devRef .tc main_v22) = res_main_v22 (V (Proc.devRef .tc main_arg0)) (V (Proc.devRef .tc main_arg1)) (V (Proc.devRef .tc main_arg2)) (V (Proc.devRef .tc main_arg3)) (V (Proc.devRef .tc main_arg4)) :=
  (pre_keep theOps_writes main_v22 35 k V hk (by decide +kernel)).trans
    ((pre_reshape theOps 34 V main_arg4 main_v22 _ _ _ _ rfl).trans (by rw [at_main_arg4 V 34]; rfl))
theorem at_main_v23 (V : Valuation τ sig (Elt F)) (k : ℕ) (hk : 35 < k) :
    pre k theOps V (Proc.devRef .tc main_v23) = res_main_v23 (V (Proc.devRef .tc main_arg0)) (V (Proc.devRef .tc main_arg1)) (V (Proc.devRef .tc main_arg2)) (V (Proc.devRef .tc main_arg3)) (V (Proc.devRef .tc main_arg4)) :=
  (pre_keep theOps_writes main_v23 36 k V hk (by decide +kernel)).trans
    ((pre_unary theOps 35 V main_v22 main_v23 ((broadcastInDim S8192x10x1 ![0, 1] bcast_S8192x10_S8192x10x1_0_1 : (⟨S8192x10, .i32⟩ : BufTy).Contents (Elt F) → (⟨S8192x10x1, .i32⟩ : BufTy).Contents (Elt F))) _ _ rfl).trans (by rw [at_main_v22 V 35 (by decide)]; rfl))
theorem at_main_v24 (V : Valuation τ sig (Elt F)) (k : ℕ) (hk : 36 < k) :
    pre k theOps V (Proc.devRef .tc main_v24) = res_main_v24 (V (Proc.devRef .tc main_arg0)) (V (Proc.devRef .tc main_arg1)) (V (Proc.devRef .tc main_arg2)) (V (Proc.devRef .tc main_arg3)) (V (Proc.devRef .tc main_arg4)) :=
  (pre_keep theOps_writes main_v24 37 k V hk (by decide +kernel)).trans
    ((pre_nullary theOps 36 V main_v24 ((iotaInDim S100 32 0 : (⟨S100, .i32⟩ : BufTy).Contents (Elt F))) _ rfl).trans (by rfl))
theorem at_main_v25 (V : Valuation τ sig (Elt F)) (k : ℕ) (hk : 37 < k) :
    pre k theOps V (Proc.devRef .tc main_v25) = res_main_v25 (V (Proc.devRef .tc main_arg0)) (V (Proc.devRef .tc main_arg1)) (V (Proc.devRef .tc main_arg2)) (V (Proc.devRef .tc main_arg3)) (V (Proc.devRef .tc main_arg4)) :=
  (pre_keep theOps_writes main_v25 38 k V hk (by decide +kernel)).trans
    ((pre_unary theOps 37 V main_v24 main_v25 ((broadcastInDim S1x1x100 ![2] bcast_S100_S1x1x100_2 : (⟨S100, .i32⟩ : BufTy).Contents (Elt F) → (⟨S1x1x100, .i32⟩ : BufTy).Contents (Elt F))) _ _ rfl).trans (by rw [at_main_v24 V 37 (by decide)]; rfl))
theorem at_main_v26 (V : Valuation τ sig (Elt F)) (k : ℕ) (hk : 38 < k) :
    pre k theOps V (Proc.devRef .tc main_v26) = res_main_v26 (V (Proc.devRef .tc main_arg0)) (V (Proc.devRef .tc main_arg1)) (V (Proc.devRef .tc main_arg2)) (V (Proc.devRef .tc main_arg3)) (V (Proc.devRef .tc main_arg4)) :=
  (pre_keep theOps_writes main_v26 39 k V hk (by decide +kernel)).trans
    ((pre_unary theOps 38 V main_v23 main_v26 ((broadcastInDim S8192x10x100 ![0, 1, 2] bcast_S8192x10x1_S8192x10x100_0_1_2 : (⟨S8192x10x1, .i32⟩ : BufTy).Contents (Elt F) → (⟨S8192x10x100, .i32⟩ : BufTy).Contents (Elt F))) _ _ rfl).trans (by rw [at_main_v23 V 38 (by decide)]; rfl))
theorem at_main_v27 (V : Valuation τ sig (Elt F)) (k : ℕ) (hk : 39 < k) :
    pre k theOps V (Proc.devRef .tc main_v27) = res_main_v27 (V (Proc.devRef .tc main_arg0)) (V (Proc.devRef .tc main_arg1)) (V (Proc.devRef .tc main_arg2)) (V (Proc.devRef .tc main_arg3)) (V (Proc.devRef .tc main_arg4)) :=
  (pre_keep theOps_writes main_v27 40 k V hk (by decide +kernel)).trans
    ((pre_unary theOps 39 V main_v25 main_v27 ((broadcastInDim S8192x10x100 ![0, 1, 2] bcast_S1x1x100_S8192x10x100_0_1_2 : (⟨S1x1x100, .i32⟩ : BufTy).Contents (Elt F) → (⟨S8192x10x100, .i32⟩ : BufTy).Contents (Elt F))) _ _ rfl).trans (by rw [at_main_v25 V 39 (by decide)]; rfl))
theorem at_main_v28 (V : Valuation τ sig (Elt F)) (k : ℕ) (hk : 40 < k) :
    pre k theOps V (Proc.devRef .tc main_v28) = res_main_v28 (V (Proc.devRef .tc main_arg0)) (V (Proc.devRef .tc main_arg1)) (V (Proc.devRef .tc main_arg2)) (V (Proc.devRef .tc main_arg3)) (V (Proc.devRef .tc main_arg4)) :=
  (pre_keep theOps_writes main_v28 41 k V hk (by decide +kernel)).trans
    ((pre_binary theOps 40 V main_v26 main_v27 main_v28 ((cmpi .eq : (⟨S8192x10x100, .i32⟩ : BufTy).Contents (Elt F) → (⟨S8192x10x100, .i32⟩ : BufTy).Contents (Elt F) → (⟨S8192x10x100, .i1⟩ : BufTy).Contents (Elt F))) _ _ _ rfl).trans (by rw [at_main_v26 V 40 (by decide), at_main_v27 V 40 (by decide)]; rfl))
theorem at_main_c_2 (V : Valuation τ sig (Elt F)) (k : ℕ) (hk : 41 < k) :
    pre k theOps V (Proc.devRef .tc main_c_2) = res_main_c_2 (V (Proc.devRef .tc main_arg0)) (V (Proc.devRef .tc main_arg1)) (V (Proc.devRef .tc main_arg2)) (V (Proc.devRef .tc main_arg3)) (V (Proc.devRef .tc main_arg4)) :=
  (pre_keep theOps_writes main_c_2 42 k V hk (by decide +kernel)).trans
    ((pre_nullary theOps 41 V main_c_2 ((constantI S_ 1 0#1 : (⟨S_, .i1⟩ : BufTy).Contents (Elt F))) _ rfl).trans (by rfl))
theorem at_main_v29 (V : Valuation τ sig (Elt F)) (k : ℕ) (hk : 42 < k) :
    pre k theOps V (Proc.devRef .tc main_v29) = res_main_v29 (V (Proc.devRef .tc main_arg0)) (V (Proc.devRef .tc main_arg1)) (V (Proc.devRef .tc main_arg2)) (V (Proc.devRef .tc main_arg3)) (V (Proc.devRef .tc main_arg4)) :=
  (pre_keep theOps_writes main_v29 43 k V hk (by decide +kernel)).trans
    ((pre_binary theOps 42 V main_v28 main_c_2 main_v29 (((fun x v => Host.reduce IntOp.ori x v reducesTo_S8192x10x100_S8192x100_d1 h_S_) : (⟨S8192x10x100, .i1⟩ : BufTy).Contents (Elt F) → (⟨S_, .i1⟩ : BufTy).Contents (Elt F) → (⟨S8192x100, .i1⟩ : BufTy).Contents (Elt F))) _ _ _ rfl).trans (by rw [at_main_v28 V 42 (by decide), at_main_c_2 V 42 (by decide)]; rfl))
theorem at_main_call2_c (V : Valuation τ sig (Elt F)) (k : ℕ) (hk : 43 < k) :
    pre k theOps V (Proc.devRef .tc main_call2_c) = res_main_call2_c (V (Proc.devRef .tc main_arg0)) (V (Proc.devRef .tc main_arg1)) (V (Proc.devRef .tc main_arg2)) (V (Proc.devRef .tc main_arg3)) (V (Proc.devRef .tc main_arg4)) :=
  (pre_keep theOps_writes main_call2_c 44 k V hk (by decide +kernel)).trans
    ((pre_nullary theOps 43 V main_call2_c ((constantI S_ 32 0#32 : (⟨S_, .i32⟩ : BufTy).Contents (Elt F))) _ rfl).trans (by rfl))
theorem at_main_call2_v0 (V : Valuation τ sig (Elt F)) (k : ℕ) (hk : 44 < k) :
    pre k theOps V (Proc.devRef .tc main_call2_v0) = res_main_call2_v0 (V (Proc.devRef .tc main_arg0)) (V (Proc.devRef .tc main_arg1)) (V (Proc.devRef .tc main_arg2)) (V (Proc.devRef .tc main_arg3)) (V (Proc.devRef .tc main_arg4)) :=
  (pre_keep theOps_writes main_call2_v0 45 k V hk (by decide +kernel)).trans
    ((pre_unary theOps 44 V main_call2_c main_call2_v0 ((broadcastInDim S8192 ![] bcast_S_S8192 : (⟨S_, .i32⟩ : BufTy).Contents (Elt F) → (⟨S8192, .i32⟩ : BufTy).Contents (Elt F))) _ _ rfl).trans (by rw [at_main_call2_c V 44 (by decide)]; rfl))
theorem at_main_call2_v1 (V : Valuation τ sig (Elt F)) (k : ℕ) (hk : 45 < k) :
    pre k theOps V (Proc.devRef .tc main_call2_v1) = res_main_call2_v1 (V (Proc.devRef .tc main_arg0)) (V (Proc.devRef .tc main_arg1)) (V (Proc.devRef .tc main_arg2)) (V (Proc.devRef .tc main_arg3)) (V (Proc.devRef .tc main_arg4)) :=
  (pre_keep theOps_writes main_call2_v1 46 k V hk (by decide +kernel)).trans
    ((pre_binary theOps 45 V main_v21 main_call2_v0 main_call2_v1 ((cmpi .slt : (⟨S8192, .i32⟩ : BufTy).Contents (Elt F) → (⟨S8192, .i32⟩ : BufTy).Contents (Elt F) → (⟨S8192, .i1⟩ : BufTy).Contents (Elt F))) _ _ _ rfl).trans (by rw [at_main_v21 V 45 (by decide), at_main_call2_v0 V 45 (by decide)]; rfl))
theorem at_main_call2_c_0 (V : Valuation τ sig (Elt F)) (k : ℕ) (hk : 46 < k) :
    pre k theOps V (Proc.devRef .tc main_call2_c_0) = res_main_call2_c_0 (V (Proc.devRef .tc main_arg0)) (V (Proc.devRef .tc main_arg1)) (V (Proc.devRef .tc main_arg2)) (V (Proc.devRef .tc main_arg3)) (V (Proc.devRef .tc main_arg4)) :=
  (pre_keep theOps_writes main_call2_c_0 47 k V hk (by decide +kernel)).trans
    ((pre_nullary theOps 46 V main_call2_c_0 ((constantI S_ 32 100#32 : (⟨S_, .i32⟩ : BufTy).Contents (Elt F))) _ rfl).trans (by rfl))
theorem at_main_call2_v2 (V : Valuation τ sig (Elt F)) (k : ℕ) (hk : 47 < k) :
    pre k theOps V (Proc.devRef .tc main_call2_v2) = res_main_call2_v2 (V (Proc.devRef .tc main_arg0)) (V (Proc.devRef .tc main_arg1)) (V (Proc.devRef .tc main_arg2)) (V (Proc.devRef .tc main_arg3)) (V (Proc.devRef .tc main_arg4)) :=
  (pre_keep theOps_writes main_call2_v2 48 k V hk (by decide +kernel)).trans
    ((pre_unary theOps 47 V main_call2_c_0 main_call2_v2 ((broadcastInDim S8192 ![] bcast_S_S8192 : (⟨S_, .i32⟩ : BufTy).Contents (Elt F) → (⟨S8192, .i32⟩ : BufTy).Contents (Elt F))) _ _ rfl).trans (by rw [at_main_call2_c_0 V 47 (by decide)]; rfl))
theorem at_main_call2_v3 (V : Valuation τ sig (Elt F)) (k : ℕ) (hk : 48 < k) :
    pre k theOps V (Proc.devRef .tc main_call2_v3) = res_main_call2_v3 (V (Proc.devRef .tc main_arg0)) (V (Proc.devRef .tc main_arg1)) (V (Proc.devRef .tc main_arg2)) (V (Proc.devRef .tc main_arg3)) (V (Proc.devRef .tc main_arg4)) :=
  (pre_keep theOps_writes main_call2_v3 49 k V hk (by decide +kernel)).trans
    ((pre_binary theOps 48 V main_v21 main_call2_v2 main_call2_v3 ((addi : (⟨S8192, .i32⟩ : BufTy).Contents (Elt F) → (⟨S8192, .i32⟩ : BufTy).Contents (Elt F) → (⟨S8192, .i32⟩ : BufTy).Contents (Elt F))) _ _ _ rfl).trans (by rw [at_main_v21 V 48 (by decide), at_main_call2_v2 V 48 (by decide)]; rfl))
theorem at_main_call2_v4 (V : Valuation τ sig (Elt F)) (k : ℕ) (hk : 49 < k) :
    pre k theOps V (Proc.devRef .tc main_call2_v4) = res_main_call2_v4 (V (Proc.devRef .tc main_arg0)) (V (Proc.devRef .tc main_arg1)) (V (Proc.devRef .tc main_arg2)) (V (Proc.devRef .tc main_arg3)) (V (Proc.devRef .tc main_arg4)) :=
  (pre_keep theOps_writes main_call2_v4 50 k V hk (by decide +kernel)).trans
    ((pre_ternary theOps 49 V main_call2_v1 main_call2_v3 main_v21 main_call2_v4 ((select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))) _ _ _ _ rfl).trans (by rw [at_main_call2_v1 V 49 (by decide), at_main_call2_v3 V 49 (by decide), at_main_v21 V 49 (by decide)]; rfl))
theorem at_main_call2_v5 (V : Valuation τ sig (Elt F)) (k : ℕ) (hk : 50 < k) :
    pre k theOps V (Proc.devRef .tc main_call2_v5) = res_main_call2_v5 (V (Proc.devRef .tc main_arg0)) (V (Proc.devRef .tc main_arg1)) (V (Proc.devRef .tc main_arg2)) (V (Proc.devRef .tc main_arg3)) (V (Proc.devRef .tc main_arg4)) :=
  (pre_keep theOps_writes main_call2_v5 51 k V hk (by decide +kernel)).trans
    ((pre_unary theOps 50 V main_call2_v4 main_call2_v5 ((broadcastInDim S8192x1 ![0] bcast_S8192_S8192x1_0 : (⟨S8192, .i32⟩ : BufTy).Contents (Elt F) → (⟨S8192x1, .i32⟩ : BufTy).Contents (Elt F))) _ _ rfl).trans (by rw [at_main_call2_v4 V 50 (by decide)]; rfl))
theorem at_main_call2_c_1 (V : Valuation τ sig (Elt F)) (k : ℕ) (hk : 51 < k) :
    pre k theOps V (Proc.devRef .tc main_call2_c_1) = res_main_call2_c_1 (V (Proc.devRef .tc main_arg0)) (V (Proc.devRef .tc main_arg1)) (V (Proc.devRef .tc main_arg2)) (V (Proc.devRef .tc main_arg3)) (V (Proc.devRef .tc main_arg4)) :=
  (pre_keep theOps_writes main_call2_c_1 52 k V hk (by decide +kernel)).trans
    ((pre_nullary theOps 51 V main_call2_c_1 ((constantI S1 32 99#32 : (⟨S1, .i32⟩ : BufTy).Contents (Elt F))) _ rfl).trans (by rfl))
theorem at_main_call2_c_2 (V : Valuation τ sig (Elt F)) (k : ℕ) (hk : 52 < k) :
    pre k theOps V (Proc.devRef .tc main_call2_c_2) = res_main_call2_c_2 (V (Proc.devRef .tc main_arg0)) (V (Proc.devRef .tc main_arg1)) (V (Proc.devRef .tc main_arg2)) (V (Proc.devRef .tc main_arg3)) (V (Proc.devRef .tc main_arg4)) :=
  (pre_keep theOps_writes main_call2_c_2 53 k V hk (by decide +kernel)).trans
    ((pre_nullary theOps 52 V main_call2_c_2 ((constantI S_ 32 0#32 : (⟨S_, .i32⟩ : BufTy).Contents (Elt F))) _ rfl).trans (by rfl))
theorem at_main_call2_v6 (V : Valuation τ sig (Elt F)) (k : ℕ) (hk : 53 < k) :
    pre k theOps V (Proc.devRef .tc main_call2_v6) = res_main_call2_v6 (V (Proc.devRef .tc main_arg0)) (V (Proc.devRef .tc main_arg1)) (V (Proc.devRef .tc main_arg2)) (V (Proc.devRef .tc main_arg3)) (V (Proc.devRef .tc main_arg4)) :=
  (pre_keep theOps_writes main_call2_v6 54 k V hk (by decide +kernel)).trans
    ((pre_unary theOps 53 V main_call2_c_2 main_call2_v6 ((broadcastInDim S8192x1 ![] bcast_S_S8192x1 : (⟨S_, .i32⟩ : BufTy).Contents (Elt F) → (⟨S8192x1, .i32⟩ : BufTy).Contents (Elt F))) _ _ rfl).trans (by rw [at_main_call2_c_2 V 53 (by decide)]; rfl))
theorem at_main_call2_v7 (V : Valuation τ sig (Elt F)) (k : ℕ) (hk : 54 < k) :
    pre k theOps V (Proc.devRef .tc main_call2_v7) = res_main_call2_v7 (V (Proc.devRef .tc main_arg0)) (V (Proc.devRef .tc main_arg1)) (V (Proc.devRef .tc main_arg2)) (V (Proc.devRef .tc main_arg3)) (V (Proc.devRef .tc main_arg4)) :=
  (pre_keep theOps_writes main_call2_v7 55 k V hk (by decide +kernel)).trans
    ((pre_binary theOps 54 V main_call2_v5 main_call2_v6 main_call2_v7 ((cmpi .sge : (⟨S8192x1, .i32⟩ : BufTy).Contents (Elt F) → (⟨S8192x1, .i32⟩ : BufTy).Contents (Elt F) → (⟨S8192x1, .i1⟩ : BufTy).Contents (Elt F))) _ _ _ rfl).trans (by rw [at_main_call2_v5 V 54 (by decide), at_main_call2_v6 V 54 (by decide)]; rfl))
theorem at_main_call2_v8 (V : Valuation τ sig (Elt F)) (k : ℕ) (hk : 55 < k) :
    pre k theOps V (Proc.devRef .tc main_call2_v8) = res_main_call2_v8 (V (Proc.devRef .tc main_arg0)) (V (Proc.devRef .tc main_arg1)) (V (Proc.devRef .tc main_arg2)) (V (Proc.devRef .tc main_arg3)) (V (Proc.devRef .tc main_arg4)) :=
  (pre_keep theOps_writes main_call2_v8 56 k V hk (by decide +kernel)).trans
    ((pre_unary theOps 55 V main_call2_c_1 main_call2_v8 ((broadcastInDim S1x1 ![1] bcast_S1_S1x1_1 : (⟨S1, .i32⟩ : BufTy).Contents (Elt F) → (⟨S1x1, .i32⟩ : BufTy).Contents (Elt F))) _ _ rfl).trans (by rw [at_main_call2_c_1 V 55 (by decide)]; rfl))
theorem at_main_call2_v9 (V : Valuation τ sig (Elt F)) (k : ℕ) (hk : 56 < k) :
    pre k theOps V (Proc.devRef .tc main_call2_v9) = res_main_call2_v9 (V (Proc.devRef .tc main_arg0)) (V (Proc.devRef .tc main_arg1)) (V (Proc.devRef .tc main_arg2)) (V (Proc.devRef .tc main_arg3)) (V (Proc.devRef .tc main_arg4)) :=
  (pre_keep theOps_writes main_call2_v9 57 k V hk (by decide +kernel)).trans
    ((pre_unary theOps 56 V main_call2_v8 main_call2_v9 ((broadcastInDim S8192x1 ![0, 1] bcast_S1x1_S8192x1_0_1 : (⟨S1x1, .i32⟩ : BufTy).Contents (Elt F) → (⟨S8192x1, .i32⟩ : BufTy).Contents (Elt F))) _ _ rfl).trans (by rw [at_main_call2_v8 V 56 (by decide)]; rfl))
theorem at_main_call2_v10 (V : Valuation τ sig (Elt F)) (k : ℕ) (hk : 57 < k) :
    pre k theOps V (Proc.devRef .tc main_call2_v10) = res_main_call2_v10 (V (Proc.devRef .tc main_arg0)) (V (Proc.devRef .tc main_arg1)) (V (Proc.devRef .tc main_arg2)) (V (Proc.devRef .tc main_arg3)) (V (Proc.devRef .tc main_arg4)) :=
  (pre_keep theOps_writes main_call2_v10 58 k V hk (by decide +kernel)).trans
    ((pre_binary theOps 57 V main_call2_v5 main_call2_v9 main_call2_v10 ((cmpi .sle : (⟨S8192x1, .i32⟩ : BufTy).Contents (Elt F) → (⟨S8192x1, .i32⟩ : BufTy).Contents (Elt F) → (⟨S8192x1, .i1⟩ : BufTy).Contents (Elt F))) _ _ _ rfl).trans (by rw [at_main_call2_v5 V 57 (by decide), at_main_call2_v9 V 57 (by decide)]; rfl))
theorem at_main_call2_v11 (V : Valuation τ sig (Elt F)) (k : ℕ) (hk : 58 < k) :
    pre k theOps V (Proc.devRef .tc main_call2_v11) = res_main_call2_v11 (V (Proc.devRef .tc main_arg0)) (V (Proc.devRef .tc main_arg1)) (V (Proc.devRef .tc main_arg2)) (V (Proc.devRef .tc main_arg3)) (V (Proc.devRef .tc main_arg4)) :=
  (pre_keep theOps_writes main_call2_v11 59 k V hk (by decide +kernel)).trans
    ((pre_binary theOps 58 V main_call2_v7 main_call2_v10 main_call2_v11 ((andi : (⟨S8192x1, .i1⟩ : BufTy).Contents (Elt F) → (⟨S8192x1, .i1⟩ : BufTy).Contents (Elt F) → (⟨S8192x1, .i1⟩ : BufTy).Contents (Elt F))) _ _ _ rfl).trans (by rw [at_main_call2_v7 V 58 (by decide), at_main_call2_v10 V 58 (by decide)]; rfl))
theorem at_main_call2_c_3 (V : Valuation τ sig (Elt F)) (k : ℕ) (hk : 59 < k) :
    pre k theOps V (Proc.devRef .tc main_call2_c_3) = res_main_call2_c_3 (V (Proc.devRef .tc main_arg0)) (V (Proc.devRef .tc main_arg1)) (V (Proc.devRef .tc main_arg2)) (V (Proc.devRef .tc main_arg3)) (V (Proc.devRef .tc main_arg4)) :=
  (pre_keep theOps_writes main_call2_c_3 60 k V hk (by decide +kernel)).trans
    ((pre_nullary theOps 59 V main_call2_c_3 ((constantI S_ 1 1#1 : (⟨S_, .i1⟩ : BufTy).Contents (Elt F))) _ rfl).trans (by rfl))
theorem at_main_call2_v12 (V : Valuation τ sig (Elt F)) (k : ℕ) (hk : 60 < k) :
    pre k theOps V (Proc.devRef .tc main_call2_v12) = res_main_call2_v12 (V (Proc.devRef .tc main_arg0)) (V (Proc.devRef .tc main_arg1)) (V (Proc.devRef .tc main_arg2)) (V (Proc.devRef .tc main_arg3)) (V (Proc.devRef .tc main_arg4)) :=
  (pre_keep theOps_writes main_call2_v12 61 k V hk (by decide +kernel)).trans
    ((pre_binary theOps 60 V main_call2_v11 main_call2_c_3 main_call2_v12 ((fun x v => Host.reduce IntOp.andi x v reducesTo_S8192x1_S8192_d1 h_S_ : (⟨S8192x1, .i1⟩ : BufTy).Contents (Elt F) → (⟨S_, .i1⟩ : BufTy).Contents (Elt F) → (⟨S8192, .i1⟩ : BufTy).Contents (Elt F))) _ _ _ rfl).trans (by rw [at_main_call2_v11 V 60 (by decide), at_main_call2_c_3 V 60 (by decide)]; rfl))
theorem at_main_call2_v13 (V : Valuation τ sig (Elt F)) (k : ℕ) (hk : 61 < k) :
    pre k theOps V (Proc.devRef .tc main_call2_v13) = res_main_call2_v13 (V (Proc.devRef .tc main_arg0)) (V (Proc.devRef .tc main_arg1)) (V (Proc.devRef .tc main_arg2)) (V (Proc.devRef .tc main_arg3)) (V (Proc.devRef .tc main_arg4)) :=
  (pre_keep theOps_writes main_call2_v13 62 k V hk (by decide +kernel)).trans
    ((pre_binary theOps 61 V main_v29 main_call2_v5 main_call2_v13 ((fun x i => Host.gather gather_S8192x100_S8192x1_S8192x8192_0_1_n_n_1_1_81921 x i : (⟨S8192x100, .i1⟩ : BufTy).Contents (Elt F) → (⟨S8192x1, .i32⟩ : BufTy).Contents (Elt F) → (⟨S8192x8192, .i1⟩ : BufTy).Contents (Elt F))) _ _ _ rfl).trans (by rw [at_main_v29 V 61 (by decide), at_main_call2_v5 V 61 (by decide)]; rfl))
theorem at_main_call2_v14 (V : Valuation τ sig (Elt F)) (k : ℕ) (hk : 62 < k) :
    pre k theOps V (Proc.devRef .tc main_call2_v14) = res_main_call2_v14 (V (Proc.devRef .tc main_arg0)) (V (Proc.devRef .tc main_arg1)) (V (Proc.devRef .tc main_arg2)) (V (Proc.devRef .tc main_arg3)) (V (Proc.devRef .tc main_arg4)) :=
  (pre_keep theOps_writes main_call2_v14 63 k V hk (by decide +kernel)).trans
    ((pre_unary theOps 62 V main_call2_v12 main_call2_v14 ((broadcastInDim S8192x8192 ![1] bcast_S8192_S8192x8192_1 : (⟨S8192, .i1⟩ : BufTy).Contents (Elt F) → (⟨S8192x8192, .i1⟩ : BufTy).Contents (Elt F))) _ _ rfl).trans (by rw [at_main_call2_v12 V 62 (by decide)]; rfl))
theorem at_main_call2_c_4 (V : Valuation τ sig (Elt F)) (k : ℕ) (hk : 63 < k) :
    pre k theOps V (Proc.devRef .tc main_call2_c_4) = res_main_call2_c_4 (V (Proc.devRef .tc main_arg0)) (V (Proc.devRef .tc main_arg1)) (V (Proc.devRef .tc main_arg2)) (V (Proc.devRef .tc main_arg3)) (V (Proc.devRef .tc main_arg4)) :=
  (pre_keep theOps_writes main_call2_c_4 64 k V hk (by decide +kernel)).trans
    ((pre_nullary theOps 63 V main_call2_c_4 ((constantI S_ 1 1#1 : (⟨S_, .i1⟩ : BufTy).Contents (Elt F))) _ rfl).trans (by rfl))
theorem at_main_call2_v15 (V : Valuation τ sig (Elt F)) (k : ℕ) (hk : 64 < k) :
    pre k theOps V (Proc.devRef .tc main_call2_v15) = res_main_call2_v15 (V (Proc.devRef .tc main_arg0)) (V (Proc.devRef .tc main_arg1)) (V (Proc.devRef .tc main_arg2)) (V (Proc.devRef .tc main_arg3)) (V (Proc.devRef .tc main_arg4)) :=
  (pre_keep theOps_writes main_call2_v15 65 k V hk (by decide +kernel)).trans
    ((pre_unary theOps 64 V main_call2_c_4 main_call2_v15 ((broadcastInDim S8192x8192 ![] bcast_S_S8192x8192 : (⟨S_, .i1⟩ : BufTy).Contents (Elt F) → (⟨S8192x8192, .i1⟩ : BufTy).Contents (Elt F))) _ _ rfl).trans (by rw [at_main_call2_c_4 V 64 (by decide)]; rfl))
theorem at_main_v30 (V : Valuation τ sig (Elt F)) (k : ℕ) (hk : 65 < k) :
    pre k theOps V (Proc.devRef .tc main_v30) = res_main_v30 (V (Proc.devRef .tc main_arg0)) (V (Proc.devRef .tc main_arg1)) (V (Proc.devRef .tc main_arg2)) (V (Proc.devRef .tc main_arg3)) (V (Proc.devRef .tc main_arg4)) :=
  (pre_keep theOps_writes main_v30 66 k V hk (by decide +kernel)).trans
    ((pre_ternary theOps 65 V main_call2_v14 main_call2_v13 main_call2_v15 main_v30 ((select : (⟨S8192x8192, .i1⟩ : BufTy).Contents (Elt F) → (⟨S8192x8192, .i1⟩ : BufTy).Contents (Elt F) → (⟨S8192x8192, .i1⟩ : BufTy).Contents (Elt F) → (⟨S8192x8192, .i1⟩ : BufTy).Contents (Elt F))) _ _ _ _ rfl).trans (by rw [at_main_call2_v14 V 65 (by decide), at_main_call2_v13 V 65 (by decide), at_main_call2_v15 V 65 (by decide)]; rfl))
theorem at_main_v31 (V : Valuation τ sig (Elt F)) (k : ℕ) (hk : 66 < k) :
    pre k theOps V (Proc.devRef .tc main_v31) = res_main_v31 (V (Proc.devRef .tc main_arg0)) (V (Proc.devRef .tc main_arg1)) (V (Proc.devRef .tc main_arg2)) (V (Proc.devRef .tc main_arg3)) (V (Proc.devRef .tc main_arg4)) :=
  (pre_keep theOps_writes main_v31 67 k V hk (by decide +kernel)).trans
    ((pre_unary theOps 66 V main_v20 main_v31 ((noti : (⟨S8192x8192, .i1⟩ : BufTy).Contents (Elt F) → (⟨S8192x8192, .i1⟩ : BufTy).Contents (Elt F))) _ _ rfl).trans (by rw [at_main_v20 V 66 (by decide)]; rfl))
theorem at_main_v32 (V : Valuation τ sig (Elt F)) (k : ℕ) (hk : 67 < k) :
    pre k theOps V (Proc.devRef .tc main_v32) = res_main_v32 (V (Proc.devRef .tc main_arg0)) (V (Proc.devRef .tc main_arg1)) (V (Proc.devRef .tc main_arg2)) (V (Proc.devRef .tc main_arg3)) (V (Proc.devRef .tc main_arg4)) :=
  (pre_keep theOps_writes main_v32 68 k V hk (by decide +kernel)).trans
    ((pre_binary theOps 67 V main_v31 main_v30 main_v32 ((andi : (⟨S8192x8192, .i1⟩ : BufTy).Contents (Elt F) → (⟨S8192x8192, .i1⟩ : BufTy).Contents (Elt F) → (⟨S8192x8192, .i1⟩ : BufTy).Contents (Elt F))) _ _ _ rfl).trans (by rw [at_main_v31 V 67 (by decide), at_main_v30 V 67 (by decide)]; rfl))
theorem at_main_call3_v0 (V : Valuation τ sig (Elt F)) (k : ℕ) (hk : 68 < k) :
    pre k theOps V (Proc.devRef .tc main_call3_v0) = res_main_call3_v0 (V (Proc.devRef .tc main_arg0)) (V (Proc.devRef .tc main_arg1)) (V (Proc.devRef .tc main_arg2)) (V (Proc.devRef .tc main_arg3)) (V (Proc.devRef .tc main_arg4)) :=
  (pre_keep theOps_writes main_call3_v0 69 k V hk (by decide +kernel)).trans
    ((pre_binary theOps 68 V main_arg2 main_arg2 main_call3_v0 ((mulf : (⟨S100x256, .f32⟩ : BufTy).Contents (Elt F) → (⟨S100x256, .f32⟩ : BufTy).Contents (Elt F) → (⟨S100x256, .f32⟩ : BufTy).Contents (Elt F))) _ _ _ rfl).trans (by rw [at_main_arg2 V 68]; rfl))
theorem at_main_call3_cst (V : Valuation τ sig (Elt F)) (k : ℕ) (hk : 69 < k) :
    pre k theOps V (Proc.devRef .tc main_call3_cst) = res_main_call3_cst (V (Proc.devRef .tc main_arg0)) (V (Proc.devRef .tc main_arg1)) (V (Proc.devRef .tc main_arg2)) (V (Proc.devRef .tc main_arg3)) (V (Proc.devRef .tc main_arg4)) :=
  (pre_keep theOps_writes main_call3_cst 70 k V hk (by decide +kernel)).trans
    ((pre_nullary theOps 69 V main_call3_cst ((constant S_ .f32 0x00000000#32 : (⟨S_, .f32⟩ : BufTy).Contents (Elt F))) _ rfl).trans (by rfl))
theorem at_main_call3_v1 (V : Valuation τ sig (Elt F)) (k : ℕ) (hk : 70 < k) :
    pre k theOps V (Proc.devRef .tc main_call3_v1) = res_main_call3_v1 (V (Proc.devRef .tc main_arg0)) (V (Proc.devRef .tc main_arg1)) (V (Proc.devRef .tc main_arg2)) (V (Proc.devRef .tc main_arg3)) (V (Proc.devRef .tc main_arg4)) :=
  (pre_keep theOps_writes main_call3_v1 71 k V hk (by decide +kernel)).trans
    ((pre_binary theOps 70 V main_call3_v0 main_call3_cst main_call3_v1 ((fun x v => Host.reduceAdd x v reducesTo_S100x256_S100_d1 h_S_ : (⟨S100x256, .f32⟩ : BufTy).Contents (Elt F) → (⟨S_, .f32⟩ : BufTy).Contents (Elt F) → (⟨S100, .f32⟩ : BufTy).Contents (Elt F))) _ _ _ rfl).trans (by rw [at_main_call3_v0 V 70 (by decide), at_main_call3_cst V 70 (by decide)]; rfl))
theorem at_main_call3_v2 (V : Valuation τ sig (Elt F)) (k : ℕ) (hk : 71 < k) :
    pre k theOps V (Proc.devRef .tc main_call3_v2) = res_main_call3_v2 (V (Proc.devRef .tc main_arg0)) (V (Proc.devRef .tc main_arg1)) (V (Proc.devRef .tc main_arg2)) (V (Proc.devRef .tc main_arg3)) (V (Proc.devRef .tc main_arg4)) :=
  (pre_keep theOps_writes main_call3_v2 72 k V hk (by decide +kernel)).trans
    ((pre_unary theOps 71 V main_call3_v1 main_call3_v2 ((broadcastInDim S100x1 ![0] bcast_S100_S100x1_0 : (⟨S100, .f32⟩ : BufTy).Contents (Elt F) → (⟨S100x1, .f32⟩ : BufTy).Contents (Elt F))) _ _ rfl).trans (by rw [at_main_call3_v1 V 71 (by decide)]; rfl))
theorem at_main_v33 (V : Valuation τ sig (Elt F)) (k : ℕ) (hk : 72 < k) :
    pre k theOps V (Proc.devRef .tc main_v33) = res_main_v33 (V (Proc.devRef .tc main_arg0)) (V (Proc.devRef .tc main_arg1)) (V (Proc.devRef .tc main_arg2)) (V (Proc.devRef .tc main_arg3)) (V (Proc.devRef .tc main_arg4)) :=
  (pre_keep theOps_writes main_v33 73 k V hk (by decide +kernel)).trans
    ((pre_unary theOps 72 V main_call3_v2 main_v33 ((Host.sqrt : (⟨S100x1, .f32⟩ : BufTy).Contents (Elt F) → (⟨S100x1, .f32⟩ : BufTy).Contents (Elt F))) _ _ rfl).trans (by rw [at_main_call3_v2 V 72 (by decide)]; rfl))
theorem at_main_cst_3 (V : Valuation τ sig (Elt F)) (k : ℕ) (hk : 73 < k) :
    pre k theOps V (Proc.devRef .tc main_cst_3) = res_main_cst_3 (V (Proc.devRef .tc main_arg0)) (V (Proc.devRef .tc main_arg1)) (V (Proc.devRef .tc main_arg2)) (V (Proc.devRef .tc main_arg3)) (V (Proc.devRef .tc main_arg4)) :=
  (pre_keep theOps_writes main_cst_3 74 k V hk (by decide +kernel)).trans
    ((pre_nullary theOps 73 V main_cst_3 ((constant S_ .f32 0x2B8CBCCC#32 : (⟨S_, .f32⟩ : BufTy).Contents (Elt F))) _ rfl).trans (by rfl))
theorem at_main_v34 (V : Valuation τ sig (Elt F)) (k : ℕ) (hk : 74 < k) :
    pre k theOps V (Proc.devRef .tc main_v34) = res_main_v34 (V (Proc.devRef .tc main_arg0)) (V (Proc.devRef .tc main_arg1)) (V (Proc.devRef .tc main_arg2)) (V (Proc.devRef .tc main_arg3)) (V (Proc.devRef .tc main_arg4)) :=
  (pre_keep theOps_writes main_v34 75 k V hk (by decide +kernel)).trans
    ((pre_unary theOps 74 V main_cst_3 main_v34 ((broadcastInDim S100x1 ![] bcast_S_S100x1 : (⟨S_, .f32⟩ : BufTy).Contents (Elt F) → (⟨S100x1, .f32⟩ : BufTy).Contents (Elt F))) _ _ rfl).trans (by rw [at_main_cst_3 V 74 (by decide)]; rfl))
theorem at_main_v35 (V : Valuation τ sig (Elt F)) (k : ℕ) (hk : 75 < k) :
    pre k theOps V (Proc.devRef .tc main_v35) = res_main_v35 (V (Proc.devRef .tc main_arg0)) (V (Proc.devRef .tc main_arg1)) (V (Proc.devRef .tc main_arg2)) (V (Proc.devRef .tc main_arg3)) (V (Proc.devRef .tc main_arg4)) :=
  (pre_keep theOps_writes main_v35 76 k V hk (by decide +kernel)).trans
    ((pre_binary theOps 75 V main_v33 main_v34 main_v35 ((maximumf : (⟨S100x1, .f32⟩ : BufTy).Contents (Elt F) → (⟨S100x1, .f32⟩ : BufTy).Contents (Elt F) → (⟨S100x1, .f32⟩ : BufTy).Contents (Elt F))) _ _ _ rfl).trans (by rw [at_main_v33 V 75 (by decide), at_main_v34 V 75 (by decide)]; rfl))
theorem at_main_v36 (V : Valuation τ sig (Elt F)) (k : ℕ) (hk : 76 < k) :
    pre k theOps V (Proc.devRef .tc main_v36) = res_main_v36 (V (Proc.devRef .tc main_arg0)) (V (Proc.devRef .tc main_arg1)) (V (Proc.devRef .tc main_arg2)) (V (Proc.devRef .tc main_arg3)) (V (Proc.devRef .tc main_arg4)) :=
  (pre_keep theOps_writes main_v36 77 k V hk (by decide +kernel)).trans
    ((pre_unary theOps 76 V main_v35 main_v36 ((broadcastInDim S100x256 ![0, 1] bcast_S100x1_S100x256_0_1 : (⟨S100x1, .f32⟩ : BufTy).Contents (Elt F) → (⟨S100x256, .f32⟩ : BufTy).Contents (Elt F))) _ _ rfl).trans (by rw [at_main_v35 V 76 (by decide)]; rfl))
theorem at_main_v37 (V : Valuation τ sig (Elt F)) (k : ℕ) (hk : 77 < k) :
    pre k theOps V (Proc.devRef .tc main_v37) = res_main_v37 (V (Proc.devRef .tc main_arg0)) (V (Proc.devRef .tc main_arg1)) (V (Proc.devRef .tc main_arg2)) (V (Proc.devRef .tc main_arg3)) (V (Proc.devRef .tc main_arg4)) :=
  (pre_keep theOps_writes main_v37 78 k V hk (by decide +kernel)).trans
    ((pre_binary theOps 77 V main_arg2 main_v36 main_v37 ((Host.divf : (⟨S100x256, .f32⟩ : BufTy).Contents (Elt F) → (⟨S100x256, .f32⟩ : BufTy).Contents (Elt F) → (⟨S100x256, .f32⟩ : BufTy).Contents (Elt F))) _ _ _ rfl).trans (by rw [at_main_arg2 V 77, at_main_v36 V 77 (by decide)]; rfl))
theorem at_main_v38 (V : Valuation τ sig (Elt F)) (k : ℕ) (hk : 78 < k) :
    pre k theOps V (Proc.devRef .tc main_v38) = res_main_v38 (V (Proc.devRef .tc main_arg0)) (V (Proc.devRef .tc main_arg1)) (V (Proc.devRef .tc main_arg2)) (V (Proc.devRef .tc main_arg3)) (V (Proc.devRef .tc main_arg4)) :=
  (pre_keep theOps_writes main_v38 79 k V hk (by decide +kernel)).trans
    ((pre_unary theOps 78 V main_v37 main_v38 (((transpose S256x100 [1, 0] · transposes_S100x256_S256x100_1_0) : (⟨S100x256, .f32⟩ : BufTy).Contents (Elt F) → (⟨S256x100, .f32⟩ : BufTy).Contents (Elt F))) _ _ rfl).trans (by rw [at_main_v37 V 78 (by decide)]; rfl))
theorem at_main_v39 (V : Valuation τ sig (Elt F)) (k : ℕ) (hk : 79 < k) :
    pre k theOps V (Proc.devRef .tc main_v39) = res_main_v39 (V (Proc.devRef .tc main_arg0)) (V (Proc.devRef .tc main_arg1)) (V (Proc.devRef .tc main_arg2)) (V (Proc.devRef .tc main_arg3)) (V (Proc.devRef .tc main_arg4)) :=
  (pre_keep theOps_writes main_v39 80 k V hk (by decide +kernel)).trans
    ((pre_binary theOps 79 V main_v37 main_v38 main_v39 (((fun l r => Host.dotGeneral dot_S100x256_S256x100_S100x100_1_0_0_1_n_n none l r) : (⟨S100x256, .f32⟩ : BufTy).Contents (Elt F) → (⟨S256x100, .f32⟩ : BufTy).Contents (Elt F) → (⟨S100x100, .f32⟩ : BufTy).Contents (Elt F))) _ _ _ rfl).trans (by rw [at_main_v37 V 79 (by decide), at_main_v38 V 79 (by decide)]; rfl))
theorem at_main_cst_4 (V : Valuation τ sig (Elt F)) (k : ℕ) (hk : 80 < k) :
    pre k theOps V (Proc.devRef .tc main_cst_4) = res_main_cst_4 (V (Proc.devRef .tc main_arg0)) (V (Proc.devRef .tc main_arg1)) (V (Proc.devRef .tc main_arg2)) (V (Proc.devRef .tc main_arg3)) (V (Proc.devRef .tc main_arg4)) :=
  (pre_keep theOps_writes main_cst_4 81 k V hk (by decide +kernel)).trans
    ((pre_nullary theOps 80 V main_cst_4 ((constant S_ .f32 0x3F800000#32 : (⟨S_, .f32⟩ : BufTy).Contents (Elt F))) _ rfl).trans (by rfl))
theorem at_main_v40 (V : Valuation τ sig (Elt F)) (k : ℕ) (hk : 81 < k) :
    pre k theOps V (Proc.devRef .tc main_v40) = res_main_v40 (V (Proc.devRef .tc main_arg0)) (V (Proc.devRef .tc main_arg1)) (V (Proc.devRef .tc main_arg2)) (V (Proc.devRef .tc main_arg3)) (V (Proc.devRef .tc main_arg4)) :=
  (pre_keep theOps_writes main_v40 82 k V hk (by decide +kernel)).trans
    ((pre_unary theOps 81 V main_cst_4 main_v40 ((broadcastInDim S100x100 ![] bcast_S_S100x100 : (⟨S_, .f32⟩ : BufTy).Contents (Elt F) → (⟨S100x100, .f32⟩ : BufTy).Contents (Elt F))) _ _ rfl).trans (by rw [at_main_cst_4 V 81 (by decide)]; rfl))
theorem at_main_v41 (V : Valuation τ sig (Elt F)) (k : ℕ) (hk : 82 < k) :
    pre k theOps V (Proc.devRef .tc main_v41) = res_main_v41 (V (Proc.devRef .tc main_arg0)) (V (Proc.devRef .tc main_arg1)) (V (Proc.devRef .tc main_arg2)) (V (Proc.devRef .tc main_arg3)) (V (Proc.devRef .tc main_arg4)) :=
  (pre_keep theOps_writes main_v41 83 k V hk (by decide +kernel)).trans
    ((pre_binary theOps 82 V main_v40 main_v39 main_v41 ((subf : (⟨S100x100, .f32⟩ : BufTy).Contents (Elt F) → (⟨S100x100, .f32⟩ : BufTy).Contents (Elt F) → (⟨S100x100, .f32⟩ : BufTy).Contents (Elt F))) _ _ _ rfl).trans (by rw [at_main_v40 V 82 (by decide), at_main_v39 V 82 (by decide)]; rfl))
theorem at_main_v42 (V : Valuation τ sig (Elt F)) (k : ℕ) (hk : 83 < k) :
    pre k theOps V (Proc.devRef .tc main_v42) = res_main_v42 (V (Proc.devRef .tc main_arg0)) (V (Proc.devRef .tc main_arg1)) (V (Proc.devRef .tc main_arg2)) (V (Proc.devRef .tc main_arg3)) (V (Proc.devRef .tc main_arg4)) :=
  (pre_keep theOps_writes main_v42 84 k V hk (by decide +kernel)).trans
    ((pre_unary theOps 83 V main_v21 main_v42 ((broadcastInDim S8192x1 ![0] bcast_S8192_S8192x1_0 : (⟨S8192, .i32⟩ : BufTy).Contents (Elt F) → (⟨S8192x1, .i32⟩ : BufTy).Contents (Elt F))) _ _ rfl).trans (by rw [at_main_v21 V 83 (by decide)]; rfl))
theorem at_main_v43 (V : Valuation τ sig (Elt F)) (k : ℕ) (hk : 84 < k) :
    pre k theOps V (Proc.devRef .tc main_v43) = res_main_v43 (V (Proc.devRef .tc main_arg0)) (V (Proc.devRef .tc main_arg1)) (V (Proc.devRef .tc main_arg2)) (V (Proc.devRef .tc main_arg3)) (V (Proc.devRef .tc main_arg4)) :=
  (pre_keep theOps_writes main_v43 85 k V hk (by decide +kernel)).trans
    ((pre_unary theOps 84 V main_v21 main_v43 ((broadcastInDim S1x8192 ![1] bcast_S8192_S1x8192_1 : (⟨S8192, .i32⟩ : BufTy).Contents (Elt F) → (⟨S1x8192, .i32⟩ : BufTy).Contents (Elt F))) _ _ rfl).trans (by rw [at_main_v21 V 84 (by decide)]; rfl))
theorem at_main_c_5 (V : Valuation τ sig (Elt F)) (k : ℕ) (hk : 85 < k) :
    pre k theOps V (Proc.devRef .tc main_c_5) = res_main_c_5 (V (Proc.devRef .tc main_arg0)) (V (Proc.devRef .tc main_arg1)) (V (Proc.devRef .tc main_arg2)) (V (Proc.devRef .tc main_arg3)) (V (Proc.devRef .tc main_arg4)) :=
  (pre_keep theOps_writes main_c_5 86 k V hk (by decide +kernel)).trans
    ((pre_nullary theOps 85 V main_c_5 ((constantI S_ 32 0#32 : (⟨S_, .i32⟩ : BufTy).Contents (Elt F))) _ rfl).trans (by rfl))
theorem at_main_v44 (V : Valuation τ sig (Elt F)) (k : ℕ) (hk : 86 < k) :
    pre k theOps V (Proc.devRef .tc main_v44) = res_main_v44 (V (Proc.devRef .tc main_arg0)) (V (Proc.devRef .tc main_arg1)) (V (Proc.devRef .tc main_arg2)) (V (Proc.devRef .tc main_arg3)) (V (Proc.devRef .tc main_arg4)) :=
  (pre_keep theOps_writes main_v44 87 k V hk (by decide +kernel)).trans
    ((pre_unary theOps 86 V main_c_5 main_v44 ((broadcastInDim S8192x1 ![] bcast_S_S8192x1 : (⟨S_, .i32⟩ : BufTy).Contents (Elt F) → (⟨S8192x1, .i32⟩ : BufTy).Contents (Elt F))) _ _ rfl).trans (by rw [at_main_c_5 V 86 (by decide)]; rfl))
theorem at_main_v45 (V : Valuation τ sig (Elt F)) (k : ℕ) (hk : 87 < k) :
    pre k theOps V (Proc.devRef .tc main_v45) = res_main_v45 (V (Proc.devRef .tc main_arg0)) (V (Proc.devRef .tc main_arg1)) (V (Proc.devRef .tc main_arg2)) (V (Proc.devRef .tc main_arg3)) (V (Proc.devRef .tc main_arg4)) :=
  (pre_keep theOps_writes main_v45 88 k V hk (by decide +kernel)).trans
    ((pre_binary theOps 87 V main_v42 main_v44 main_v45 ((cmpi .slt : (⟨S8192x1, .i32⟩ : BufTy).Contents (Elt F) → (⟨S8192x1, .i32⟩ : BufTy).Contents (Elt F) → (⟨S8192x1, .i1⟩ : BufTy).Contents (Elt F))) _ _ _ rfl).trans (by rw [at_main_v42 V 87 (by decide), at_main_v44 V 87 (by decide)]; rfl))
theorem at_main_c_6 (V : Valuation τ sig (Elt F)) (k : ℕ) (hk : 88 < k) :
    pre k theOps V (Proc.devRef .tc main_c_6) = res_main_c_6 (V (Proc.devRef .tc main_arg0)) (V (Proc.devRef .tc main_arg1)) (V (Proc.devRef .tc main_arg2)) (V (Proc.devRef .tc main_arg3)) (V (Proc.devRef .tc main_arg4)) :=
  (pre_keep theOps_writes main_c_6 89 k V hk (by decide +kernel)).trans
    ((pre_nullary theOps 88 V main_c_6 ((constantI S_ 32 100#32 : (⟨S_, .i32⟩ : BufTy).Contents (Elt F))) _ rfl).trans (by rfl))
theorem at_main_v46 (V : Valuation τ sig (Elt F)) (k : ℕ) (hk : 89 < k) :
    pre k theOps V (Proc.devRef .tc main_v46) = res_main_v46 (V (Proc.devRef .tc main_arg0)) (V (Proc.devRef .tc main_arg1)) (V (Proc.devRef .tc main_arg2)) (V (Proc.devRef .tc main_arg3)) (V (Proc.devRef .tc main_arg4)) :=
  (pre_keep theOps_writes main_v46 90 k V hk (by decide +kernel)).trans
    ((pre_unary theOps 89 V main_c_6 main_v46 ((broadcastInDim S8192x1 ![] bcast_S_S8192x1 : (⟨S_, .i32⟩ : BufTy).Contents (Elt F) → (⟨S8192x1, .i32⟩ : BufTy).Contents (Elt F))) _ _ rfl).trans (by rw [at_main_c_6 V 89 (by decide)]; rfl))
theorem at_main_v47 (V : Valuation τ sig (Elt F)) (k : ℕ) (hk : 90 < k) :
    pre k theOps V (Proc.devRef .tc main_v47) = res_main_v47 (V (Proc.devRef .tc main_arg0)) (V (Proc.devRef .tc main_arg1)) (V (Proc.devRef .tc main_arg2)) (V (Proc.devRef .tc main_arg3)) (V (Proc.devRef .tc main_arg4)) :=
  (pre_keep theOps_writes main_v47 91 k V hk (by decide +kernel)).trans
    ((pre_binary theOps 90 V main_v42 main_v46 main_v47 ((addi : (⟨S8192x1, .i32⟩ : BufTy).Contents (Elt F) → (⟨S8192x1, .i32⟩ : BufTy).Contents (Elt F) → (⟨S8192x1, .i32⟩ : BufTy).Contents (Elt F))) _ _ _ rfl).trans (by rw [at_main_v42 V 90 (by decide), at_main_v46 V 90 (by decide)]; rfl))
theorem at_main_v48 (V : Valuation τ sig (Elt F)) (k : ℕ) (hk : 91 < k) :
    pre k theOps V (Proc.devRef .tc main_v48) = res_main_v48 (V (Proc.devRef .tc main_arg0)) (V (Proc.devRef .tc main_arg1)) (V (Proc.devRef .tc main_arg2)) (V (Proc.devRef .tc main_arg3)) (V (Proc.devRef .tc main_arg4)) :=
  (pre_keep theOps_writes main_v48 92 k V hk (by decide +kernel)).trans
    ((pre_ternary theOps 91 V main_v45 main_v47 main_v42 main_v48 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F))) _ _ _ _ rfl).trans (by rw [at_main_v45 V 91 (by decide), at_main_v47 V 91 (by decide), at_main_v42 V 91 (by decide)]; rfl))
theorem at_main_c_7 (V : Valuation τ sig (Elt F)) (k : ℕ) (hk : 92 < k) :
    pre k theOps V (Proc.devRef .tc main_c_7) = res_main_c_7 (V (Proc.devRef .tc main_arg0)) (V (Proc.devRef .tc main_arg1)) (V (Proc.devRef .tc main_arg2)) (V (Proc.devRef .tc main_arg3)) (V (Proc.devRef .tc main_arg4)) :=
  (pre_keep theOps_writes main_c_7 93 k V hk (by decide +kernel)).trans
    ((pre_nullary theOps 92 V main_c_7 ((constantI S_ 32 0#32 : (⟨S_, .i32⟩ : BufTy).Contents (Elt F))) _ rfl).trans (by rfl))
theorem at_main_v49 (V : Valuation τ sig (Elt F)) (k : ℕ) (hk : 93 < k) :
    pre k theOps V (Proc.devRef .tc main_v49) = res_main_v49 (V (Proc.devRef .tc main_arg0)) (V (Proc.devRef .tc main_arg1)) (V (Proc.devRef .tc main_arg2)) (V (Proc.devRef .tc main_arg3)) (V (Proc.devRef .tc main_arg4)) :=
  (pre_keep theOps_writes main_v49 94 k V hk (by decide +kernel)).trans
    ((pre_unary theOps 93 V main_c_7 main_v49 ((broadcastInDim S1x8192 ![] bcast_S_S1x8192 : (⟨S_, .i32⟩ : BufTy).Contents (Elt F) → (⟨S1x8192, .i32⟩ : BufTy).Contents (Elt F))) _ _ rfl).trans (by rw [at_main_c_7 V 93 (by decide)]; rfl))
theorem at_main_v50 (V : Valuation τ sig (Elt F)) (k : ℕ) (hk : 94 < k) :
    pre k theOps V (Proc.devRef .tc main_v50) = res_main_v50 (V (Proc.devRef .tc main_arg0)) (V (Proc.devRef .tc main_arg1)) (V (Proc.devRef .tc main_arg2)) (V (Proc.devRef .tc main_arg3)) (V (Proc.devRef .tc main_arg4)) :=
  (pre_keep theOps_writes main_v50 95 k V hk (by decide +kernel)).trans
    ((pre_binary theOps 94 V main_v43 main_v49 main_v50 ((cmpi .slt : (⟨S1x8192, .i32⟩ : BufTy).Contents (Elt F) → (⟨S1x8192, .i32⟩ : BufTy).Contents (Elt F) → (⟨S1x8192, .i1⟩ : BufTy).Contents (Elt F))) _ _ _ rfl).trans (by rw [at_main_v43 V 94 (by decide), at_main_v49 V 94 (by decide)]; rfl))
theorem at_main_c_8 (V : Valuation τ sig (Elt F)) (k : ℕ) (hk : 95 < k) :
    pre k theOps V (Proc.devRef .tc main_c_8) = res_main_c_8 (V (Proc.devRef .tc main_arg0)) (V (Proc.devRef .tc main_arg1)) (V (Proc.devRef .tc main_arg2)) (V (Proc.devRef .tc main_arg3)) (V (Proc.devRef .tc main_arg4)) :=
  (pre_keep theOps_writes main_c_8 96 k V hk (by decide +kernel)).trans
    ((pre_nullary theOps 95 V main_c_8 ((constantI S_ 32 100#32 : (⟨S_, .i32⟩ : BufTy).Contents (Elt F))) _ rfl).trans (by rfl))
theorem at_main_v51 (V : Valuation τ sig (Elt F)) (k : ℕ) (hk : 96 < k) :
    pre k theOps V (Proc.devRef .tc main_v51) = res_main_v51 (V (Proc.devRef .tc main_arg0)) (V (Proc.devRef .tc main_arg1)) (V (Proc.devRef .tc main_arg2)) (V (Proc.devRef .tc main_arg3)) (V (Proc.devRef .tc main_arg4)) :=
  (pre_keep theOps_writes main_v51 97 k V hk (by decide +kernel)).trans
    ((pre_unary theOps 96 V main_c_8 main_v51 ((broadcastInDim S1x8192 ![] bcast_S_S1x8192 : (⟨S_, .i32⟩ : BufTy).Contents (Elt F) → (⟨S1x8192, .i32⟩ : BufTy).Contents (Elt F))) _ _ rfl).trans (by rw [at_main_c_8 V 96 (by decide)]; rfl))
theorem at_main_v52 (V : Valuation τ sig (Elt F)) (k : ℕ) (hk : 97 < k) :
    pre k theOps V (Proc.devRef .tc main_v52) = res_main_v52 (V (Proc.devRef .tc main_arg0)) (V (Proc.devRef .tc main_arg1)) (V (Proc.devRef .tc main_arg2)) (V (Proc.devRef .tc main_arg3)) (V (Proc.devRef .tc main_arg4)) :=
  (pre_keep theOps_writes main_v52 98 k V hk (by decide +kernel)).trans
    ((pre_binary theOps 97 V main_v43 main_v51 main_v52 ((addi : (⟨S1x8192, .i32⟩ : BufTy).Contents (Elt F) → (⟨S1x8192, .i32⟩ : BufTy).Contents (Elt F) → (⟨S1x8192, .i32⟩ : BufTy).Contents (Elt F))) _ _ _ rfl).trans (by rw [at_main_v43 V 97 (by decide), at_main_v51 V 97 (by decide)]; rfl))
theorem at_main_v53 (V : Valuation τ sig (Elt F)) (k : ℕ) (hk : 98 < k) :
    pre k theOps V (Proc.devRef .tc main_v53) = res_main_v53 (V (Proc.devRef .tc main_arg0)) (V (Proc.devRef .tc main_arg1)) (V (Proc.devRef .tc main_arg2)) (V (Proc.devRef .tc main_arg3)) (V (Proc.devRef .tc main_arg4)) :=
  (pre_keep theOps_writes main_v53 99 k V hk (by decide +kernel)).trans
    ((pre_ternary theOps 98 V main_v50 main_v52 main_v43 main_v53 ((select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F))) _ _ _ _ rfl).trans (by rw [at_main_v50 V 98 (by decide), at_main_v52 V 98 (by decide), at_main_v43 V 98 (by decide)]; rfl))
theorem at_main_v54 (V : Valuation τ sig (Elt F)) (k : ℕ) (hk : 99 < k) :
    pre k theOps V (Proc.devRef .tc main_v54) = res_main_v54 (V (Proc.devRef .tc main_arg0)) (V (Proc.devRef .tc main_arg1)) (V (Proc.devRef .tc main_arg2)) (V (Proc.devRef .tc main_arg3)) (V (Proc.devRef .tc main_arg4)) :=
  (pre_keep theOps_writes main_v54 100 k V hk (by decide +kernel)).trans
    ((pre_unary theOps 99 V main_v48 main_v54 ((broadcastInDim S8192x8192 ![0, 1] bcast_S8192x1_S8192x8192_0_1 : (⟨S8192x1, .i32⟩ : BufTy).Contents (Elt F) → (⟨S8192x8192, .i32⟩ : BufTy).Contents (Elt F))) _ _ rfl).trans (by rw [at_main_v48 V 99 (by decide)]; rfl))
theorem at_main_v55 (V : Valuation τ sig (Elt F)) (k : ℕ) (hk : 100 < k) :
    pre k theOps V (Proc.devRef .tc main_v55) = res_main_v55 (V (Proc.devRef .tc main_arg0)) (V (Proc.devRef .tc main_arg1)) (V (Proc.devRef .tc main_arg2)) (V (Proc.devRef .tc main_arg3)) (V (Proc.devRef .tc main_arg4)) :=
  (pre_keep theOps_writes main_v55 101 k V hk (by decide +kernel)).trans
    ((pre_unary theOps 100 V main_v53 main_v55 ((broadcastInDim S8192x8192 ![0, 1] bcast_S1x8192_S8192x8192_0_1 : (⟨S1x8192, .i32⟩ : BufTy).Contents (Elt F) → (⟨S8192x8192, .i32⟩ : BufTy).Contents (Elt F))) _ _ rfl).trans (by rw [at_main_v53 V 100 (by decide)]; rfl))
theorem at_main_v56 (V : Valuation τ sig (Elt F)) (k : ℕ) (hk : 101 < k) :
    pre k theOps V (Proc.devRef .tc main_v56) = res_main_v56 (V (Proc.devRef .tc main_arg0)) (V (Proc.devRef .tc main_arg1)) (V (Proc.devRef .tc main_arg2)) (V (Proc.devRef .tc main_arg3)) (V (Proc.devRef .tc main_arg4)) :=
  (pre_keep theOps_writes main_v56 102 k V hk (by decide +kernel)).trans
    ((pre_unary theOps 101 V main_v54 main_v56 ((broadcastInDim S8192x8192x1 ![0, 1] bcast_S8192x8192_S8192x8192x1_0_1 : (⟨S8192x8192, .i32⟩ : BufTy).Contents (Elt F) → (⟨S8192x8192x1, .i32⟩ : BufTy).Contents (Elt F))) _ _ rfl).trans (by rw [at_main_v54 V 101 (by decide)]; rfl))
theorem at_main_v57 (V : Valuation τ sig (Elt F)) (k : ℕ) (hk : 102 < k) :
    pre k theOps V (Proc.devRef .tc main_v57) = res_main_v57 (V (Proc.devRef .tc main_arg0)) (V (Proc.devRef .tc main_arg1)) (V (Proc.devRef .tc main_arg2)) (V (Proc.devRef .tc main_arg3)) (V (Proc.devRef .tc main_arg4)) :=
  (pre_keep theOps_writes main_v57 103 k V hk (by decide +kernel)).trans
    ((pre_unary theOps 102 V main_v55 main_v57 ((broadcastInDim S8192x8192x1 ![0, 1] bcast_S8192x8192_S8192x8192x1_0_1 : (⟨S8192x8192, .i32⟩ : BufTy).Contents (Elt F) → (⟨S8192x8192x1, .i32⟩ : BufTy).Contents (Elt F))) _ _ rfl).trans (by rw [at_main_v55 V 102 (by decide)]; rfl))
theorem at_main_v58 (V : Valuation τ sig (Elt F)) (k : ℕ) (hk : 103 < k) :
    pre k theOps V (Proc.devRef .tc main_v58) = res_main_v58 (V (Proc.devRef .tc main_arg0)) (V (Proc.devRef .tc main_arg1)) (V (Proc.devRef .tc main_arg2)) (V (Proc.devRef .tc main_arg3)) (V (Proc.devRef .tc main_arg4)) :=
  (pre_keep theOps_writes main_v58 104 k V hk (by decide +kernel)).trans
    ((pre_binary theOps 103 V main_v56 main_v57 main_v58 (((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F))) _ _ _ rfl).trans (by rw [at_main_v56 V 103 (by decide), at_main_v57 V 103 (by decide)]; rfl))
theorem at_main_v59 (V : Valuation τ sig (Elt F)) (k : ℕ) (hk : 104 < k) :
    pre k theOps V (Proc.devRef .tc main_v59) = res_main_v59 (V (Proc.devRef .tc main_arg0)) (V (Proc.devRef .tc main_arg1)) (V (Proc.devRef .tc main_arg2)) (V (Proc.devRef .tc main_arg3)) (V (Proc.devRef .tc main_arg4)) :=
  (pre_keep theOps_writes main_v59 105 k V hk (by decide +kernel)).trans
    ((pre_binary theOps 104 V main_v41 main_v58 main_v59 (((fun x i => Host.gather gather_S100x100_S8192x8192x2_S8192x8192_n_01_n_n_01_2_11 x i) : (⟨S100x100, .f32⟩ : BufTy).Contents (Elt F) → (⟨S8192x8192x2, .i32⟩ : BufTy).Contents (Elt F) → (⟨S8192x8192, .f32⟩ : BufTy).Contents (Elt F))) _ _ _ rfl).trans (by rw [at_main_v41 V 104 (by decide), at_main_v58 V 104 (by decide)]; rfl))
theorem at_main_cst_9 (V : Valuation τ sig (Elt F)) (k : ℕ) (hk : 105 < k) :
    pre k theOps V (Proc.devRef .tc main_cst_9) = res_main_cst_9 (V (Proc.devRef .tc main_arg0)) (V (Proc.devRef .tc main_arg1)) (V (Proc.devRef .tc main_arg2)) (V (Proc.devRef .tc main_arg3)) (V (Proc.devRef .tc main_arg4)) :=
  (pre_keep theOps_writes main_cst_9 106 k V hk (by decide +kernel)).trans
    ((pre_nullary theOps 105 V main_cst_9 ((constant S_ .f32 0x00000000#32 : (⟨S_, .f32⟩ : BufTy).Contents (Elt F))) _ rfl).trans (by rfl))
theorem at_main_call4_v0 (V : Valuation τ sig (Elt F)) (k : ℕ) (hk : 106 < k) :
    pre k theOps V (Proc.devRef .tc main_call4_v0) = res_main_call4_v0 (V (Proc.devRef .tc main_arg0)) (V (Proc.devRef .tc main_arg1)) (V (Proc.devRef .tc main_arg2)) (V (Proc.devRef .tc main_arg3)) (V (Proc.devRef .tc main_arg4)) :=
  (pre_keep theOps_writes main_call4_v0 107 k V hk (by decide +kernel)).trans
    ((pre_unary theOps 106 V main_cst_9 main_call4_v0 ((id : (⟨S_, .f32⟩ : BufTy).Contents (Elt F) → (⟨S_, .f32⟩ : BufTy).Contents (Elt F))) _ _ rfl).trans (by rw [at_main_cst_9 V 106 (by decide)]; rfl))
theorem at_main_call4_v1 (V : Valuation τ sig (Elt F)) (k : ℕ) (hk : 107 < k) :
    pre k theOps V (Proc.devRef .tc main_call4_v1) = res_main_call4_v1 (V (Proc.devRef .tc main_arg0)) (V (Proc.devRef .tc main_arg1)) (V (Proc.devRef .tc main_arg2)) (V (Proc.devRef .tc main_arg3)) (V (Proc.devRef .tc main_arg4)) :=
  (pre_keep theOps_writes main_call4_v1 108 k V hk (by decide +kernel)).trans
    ((pre_unary theOps 107 V main_call4_v0 main_call4_v1 ((broadcastInDim S8192x8192 ![] bcast_S_S8192x8192 : (⟨S_, .f32⟩ : BufTy).Contents (Elt F) → (⟨S8192x8192, .f32⟩ : BufTy).Contents (Elt F))) _ _ rfl).trans (by rw [at_main_call4_v0 V 107 (by decide)]; rfl))
theorem at_main_v60 (V : Valuation τ sig (Elt F)) (k : ℕ) (hk : 108 < k) :
    pre k theOps V (Proc.devRef .tc main_v60) = res_main_v60 (V (Proc.devRef .tc main_arg0)) (V (Proc.devRef .tc main_arg1)) (V (Proc.devRef .tc main_arg2)) (V (Proc.devRef .tc main_arg3)) (V (Proc.devRef .tc main_arg4)) :=
  (pre_keep theOps_writes main_v60 109 k V hk (by decide +kernel)).trans
    ((pre_ternary theOps 108 V main_v20 main_call4_v1 main_v59 main_v60 ((select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F))) _ _ _ _ rfl).trans (by rw [at_main_v20 V 108 (by decide), at_main_call4_v1 V 108 (by decide), at_main_v59 V 108 (by decide)]; rfl))
theorem at_main_cst_10 (V : Valuation τ sig (Elt F)) (k : ℕ) (hk : 109 < k) :
    pre k theOps V (Proc.devRef .tc main_cst_10) = res_main_cst_10 (V (Proc.devRef .tc main_arg0)) (V (Proc.devRef .tc main_arg1)) (V (Proc.devRef .tc main_arg2)) (V (Proc.devRef .tc main_arg3)) (V (Proc.devRef .tc main_arg4)) :=
  (pre_keep theOps_writes main_cst_10 110 k V hk (by decide +kernel)).trans
    ((pre_nullary theOps 109 V main_cst_10 ((constant S_ .f32 0x7F800000#32 : (⟨S_, .f32⟩ : BufTy).Contents (Elt F))) _ rfl).trans (by rfl))
theorem at_main_v61 (V : Valuation τ sig (Elt F)) (k : ℕ) (hk : 110 < k) :
    pre k theOps V (Proc.devRef .tc main_v61) = res_main_v61 (V (Proc.devRef .tc main_arg0)) (V (Proc.devRef .tc main_arg1)) (V (Proc.devRef .tc main_arg2)) (V (Proc.devRef .tc main_arg3)) (V (Proc.devRef .tc main_arg4)) :=
  (pre_keep theOps_writes main_v61 111 k V hk (by decide +kernel)).trans
    ((pre_binary theOps 110 V main_v60 main_cst_10 main_v61 (((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F))) _ _ _ rfl).trans (by rw [at_main_v60 V 110 (by decide), at_main_cst_10 V 110 (by decide)]; rfl))
theorem at_main_v62 (V : Valuation τ sig (Elt F)) (k : ℕ) (hk : 111 < k) :
    pre k theOps V (Proc.devRef .tc main_v62) = res_main_v62 (V (Proc.devRef .tc main_arg0)) (V (Proc.devRef .tc main_arg1)) (V (Proc.devRef .tc main_arg2)) (V (Proc.devRef .tc main_arg3)) (V (Proc.devRef .tc main_arg4)) :=
  (pre_keep theOps_writes main_v62 112 k V hk (by decide +kernel)).trans
    ((pre_unary theOps 111 V main_v61 main_v62 ((broadcastInDim S8192x1 ![0] bcast_S8192_S8192x1_0 : (⟨S8192, .f32⟩ : BufTy).Contents (Elt F) → (⟨S8192x1, .f32⟩ : BufTy).Contents (Elt F))) _ _ rfl).trans (by rw [at_main_v61 V 111 (by decide)]; rfl))
theorem at_main_cst_11 (V : Valuation τ sig (Elt F)) (k : ℕ) (hk : 112 < k) :
    pre k theOps V (Proc.devRef .tc main_cst_11) = res_main_cst_11 (V (Proc.devRef .tc main_arg0)) (V (Proc.devRef .tc main_arg1)) (V (Proc.devRef .tc main_arg2)) (V (Proc.devRef .tc main_arg3)) (V (Proc.devRef .tc main_arg4)) :=
  (pre_keep theOps_writes main_cst_11 113 k V hk (by decide +kernel)).trans
    ((pre_nullary theOps 112 V main_cst_11 ((constant S_ .f32 0xFF800000#32 : (⟨S_, .f32⟩ : BufTy).Contents (Elt F))) _ rfl).trans (by rfl))
theorem at_main_v63 (V : Valuation τ sig (Elt F)) (k : ℕ) (hk : 113 < k) :
    pre k theOps V (Proc.devRef .tc main_v63) = res_main_v63 (V (Proc.devRef .tc main_arg0)) (V (Proc.devRef .tc main_arg1)) (V (Proc.devRef .tc main_arg2)) (V (Proc.devRef .tc main_arg3)) (V (Proc.devRef .tc main_arg4)) :=
  (pre_keep theOps_writes main_v63 114 k V hk (by decide +kernel)).trans
    ((pre_binary theOps 113 V main_v60 main_cst_11 main_v63 (((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F))) _ _ _ rfl).trans (by rw [at_main_v60 V 113 (by decide), at_main_cst_11 V 113 (by decide)]; rfl))
theorem at_main_v64 (V : Valuation τ sig (Elt F)) (k : ℕ) (hk : 114 < k) :
    pre k theOps V (Proc.devRef .tc main_v64) = res_main_v64 (V (Proc.devRef .tc main_arg0)) (V (Proc.devRef .tc main_arg1)) (V (Proc.devRef .tc main_arg2)) (V (Proc.devRef .tc main_arg3)) (V (Proc.devRef .tc main_arg4)) :=
  (pre_keep theOps_writes main_v64 115 k V hk (by decide +kernel)).trans
    ((pre_unary theOps 114 V main_v63 main_v64 ((broadcastInDim S8192x1 ![0] bcast_S8192_S8192x1_0 : (⟨S8192, .f32⟩ : BufTy).Contents (Elt F) → (⟨S8192x1, .f32⟩ : BufTy).Contents (Elt F))) _ _ rfl).trans (by rw [at_main_v63 V 114 (by decide)]; rfl))
theorem at_main_v65 (V : Valuation τ sig (Elt F)) (k : ℕ) (hk : 115 < k) :
    pre k theOps V (Proc.devRef .tc main_v65) = res_main_v65 (V (Proc.devRef .tc main_arg0)) (V (Proc.devRef .tc main_arg1)) (V (Proc.devRef .tc main_arg2)) (V (Proc.devRef .tc main_arg3)) (V (Proc.devRef .tc main_arg4)) :=
  (pre_keep theOps_writes main_v65 116 k V hk (by decide +kernel)).trans
    ((pre_unary theOps 115 V main_v62 main_v65 ((broadcastInDim S8192x8192 ![0, 1] bcast_S8192x1_S8192x8192_0_1 : (⟨S8192x1, .f32⟩ : BufTy).Contents (Elt F) → (⟨S8192x8192, .f32⟩ : BufTy).Contents (Elt F))) _ _ rfl).trans (by rw [at_main_v62 V 115 (by decide)]; rfl))
theorem at_main_v66 (V : Valuation τ sig (Elt F)) (k : ℕ) (hk : 116 < k) :
    pre k theOps V (Proc.devRef .tc main_v66) = res_main_v66 (V (Proc.devRef .tc main_arg0)) (V (Proc.devRef .tc main_arg1)) (V (Proc.devRef .tc main_arg2)) (V (Proc.devRef .tc main_arg3)) (V (Proc.devRef .tc main_arg4)) :=
  (pre_keep theOps_writes main_v66 117 k V hk (by decide +kernel)).trans
    ((pre_binary theOps 116 V main_v60 main_v65 main_v66 ((subf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v60 V 116 (by decide), at_main_v65 V 116 (by decide)]; rfl))
theorem at_main_v67 (V : Valuation τ sig (Elt F)) (k : ℕ) (hk : 117 < k) :
    pre k theOps V (Proc.devRef .tc main_v67) = res_main_v67 (V (Proc.devRef .tc main_arg0)) (V (Proc.devRef .tc main_arg1)) (V (Proc.devRef .tc main_arg2)) (V (Proc.devRef .tc main_arg3)) (V (Proc.devRef .tc main_arg4)) :=
  (pre_keep theOps_writes main_v67 118 k V hk (by decide +kernel)).trans
    ((pre_binary theOps 117 V main_v64 main_v62 main_v67 ((subf : (⟨S8192x1, .f32⟩ : BufTy).Contents (Elt F) → (⟨S8192x1, .f32⟩ : BufTy).Contents (Elt F) → (⟨S8192x1, .f32⟩ : BufTy).Contents (Elt F))) _ _ _ rfl).trans (by rw [at_main_v64 V 117 (by decide), at_main_v62 V 117 (by decide)]; rfl))
theorem at_main_v68 (V : Valuation τ sig (Elt F)) (k : ℕ) (hk : 118 < k) :
    pre k theOps V (Proc.devRef .tc main_v68) = res_main_v68 (V (Proc.devRef .tc main_arg0)) (V (Proc.devRef .tc main_arg1)) (V (Proc.devRef .tc main_arg2)) (V (Proc.devRef .tc main_arg3)) (V (Proc.devRef .tc main_arg4)) :=
  (pre_keep theOps_writes main_v68 119 k V hk (by decide +kernel)).trans
    ((pre_unary theOps 118 V main_v67 main_v68 ((broadcastInDim S8192x8192 ![0, 1] bcast_S8192x1_S8192x8192_0_1 : (⟨S8192x1, .f32⟩ : BufTy).Contents (Elt F) → (⟨S8192x8192, .f32⟩ : BufTy).Contents (Elt F))) _ _ rfl).trans (by rw [at_main_v67 V 118 (by decide)]; rfl))
theorem at_main_v69 (V : Valuation τ sig (Elt F)) (k : ℕ) (hk : 119 < k) :
    pre k theOps V (Proc.devRef .tc main_v69) = res_main_v69 (V (Proc.devRef .tc main_arg0)) (V (Proc.devRef .tc main_arg1)) (V (Proc.devRef .tc main_arg2)) (V (Proc.devRef .tc main_arg3)) (V (Proc.devRef .tc main_arg4)) :=
  (pre_keep theOps_writes main_v69 120 k V hk (by decide +kernel)).trans
    ((pre_binary theOps 119 V main_v66 main_v68 main_v69 ((Host.divf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v66 V 119 (by decide), at_main_v68 V 119 (by decide)]; rfl))
theorem at_main_cst_12 (V : Valuation τ sig (Elt F)) (k : ℕ) (hk : 120 < k) :
    pre k theOps V (Proc.devRef .tc main_cst_12) = res_main_cst_12 (V (Proc.devRef .tc main_arg0)) (V (Proc.devRef .tc main_arg1)) (V (Proc.devRef .tc main_arg2)) (V (Proc.devRef .tc main_arg3)) (V (Proc.devRef .tc main_arg4)) :=
  (pre_keep theOps_writes main_cst_12 121 k V hk (by decide +kernel)).trans
    ((pre_nullary theOps 120 V main_cst_12 ((constant S_ .f32 0x00000000#32 : (⟨S_, .f32⟩ : BufTy).Contents (Elt F))) _ rfl).trans (by rfl))
theorem at_main_v70 (V : Valuation τ sig (Elt F)) (k : ℕ) (hk : 121 < k) :
    pre k theOps V (Proc.devRef .tc main_v70) = res_main_v70 (V (Proc.devRef .tc main_arg0)) (V (Proc.devRef .tc main_arg1)) (V (Proc.devRef .tc main_arg2)) (V (Proc.devRef .tc main_arg3)) (V (Proc.devRef .tc main_arg4)) :=
  (pre_keep theOps_writes main_v70 122 k V hk (by decide +kernel)).trans
    ((pre_binary theOps 121 V main_v69 main_cst_12 main_v70 (((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F))) _ _ _ rfl).trans (by rw [at_main_v69 V 121 (by decide), at_main_cst_12 V 121 (by decide)]; rfl))
theorem at_main_cst_13 (V : Valuation τ sig (Elt F)) (k : ℕ) (hk : 122 < k) :
    pre k theOps V (Proc.devRef .tc main_cst_13) = res_main_cst_13 (V (Proc.devRef .tc main_arg0)) (V (Proc.devRef .tc main_arg1)) (V (Proc.devRef .tc main_arg2)) (V (Proc.devRef .tc main_arg3)) (V (Proc.devRef .tc main_arg4)) :=
  (pre_keep theOps_writes main_cst_13 123 k V hk (by decide +kernel)).trans
    ((pre_nullary theOps 122 V main_cst_13 ((constant S_ .f32 0x46000000#32 : (⟨S_, .f32⟩ : BufTy).Contents (Elt F))) _ rfl).trans (by rfl))
theorem at_main_v71 (V : Valuation τ sig (Elt F)) (k : ℕ) (hk : 123 < k) :
    pre k theOps V (Proc.devRef .tc main_v71) = res_main_v71 (V (Proc.devRef .tc main_arg0)) (V (Proc.devRef .tc main_arg1)) (V (Proc.devRef .tc main_arg2)) (V (Proc.devRef .tc main_arg3)) (V (Proc.devRef .tc main_arg4)) :=
  (pre_keep theOps_writes main_v71 124 k V hk (by decide +kernel)).trans
    ((pre_unary theOps 123 V main_cst_13 main_v71 ((broadcastInDim S8192 ![] bcast_S_S8192 : (⟨S_, .f32⟩ : BufTy).Contents (Elt F) → (⟨S8192, .f32⟩ : BufTy).Contents (Elt F))) _ _ rfl).trans (by rw [at_main_cst_13 V 123 (by decide)]; rfl))
theorem at_main_v72 (V : Valuation τ sig (Elt F)) (k : ℕ) (hk : 124 < k) :
    pre k theOps V (Proc.devRef .tc main_v72) = res_main_v72 (V (Proc.devRef .tc main_arg0)) (V (Proc.devRef .tc main_arg1)) (V (Proc.devRef .tc main_arg2)) (V (Proc.devRef .tc main_arg3)) (V (Proc.devRef .tc main_arg4)) :=
  (pre_keep theOps_writes main_v72 125 k V hk (by decide +kernel)).trans
    ((pre_binary theOps 124 V main_v70 main_v71 main_v72 ((Host.divf : (⟨S8192, .f32⟩ : BufTy).Contents (Elt F) → (⟨S8192, .f32⟩ : BufTy).Contents (Elt F) → (⟨S8192, .f32⟩ : BufTy).Contents (Elt F))) _ _ _ rfl).trans (by rw [at_main_v70 V 124 (by decide), at_main_v71 V 124 (by decide)]; rfl))
theorem at_main_c_14 (V : Valuation τ sig (Elt F)) (k : ℕ) (hk : 125 < k) :
    pre k theOps V (Proc.devRef .tc main_c_14) = res_main_c_14 (V (Proc.devRef .tc main_arg0)) (V (Proc.devRef .tc main_arg1)) (V (Proc.devRef .tc main_arg2)) (V (Proc.devRef .tc main_arg3)) (V (Proc.devRef .tc main_arg4)) :=
  (pre_keep theOps_writes main_c_14 126 k V hk (by decide +kernel)).trans
    ((pre_nullary theOps 125 V main_c_14 ((constantI S_ 32 1#32 : (⟨S_, .i32⟩ : BufTy).Contents (Elt F))) _ rfl).trans (by rfl))
theorem at_main_call5_call0_cst (V : Valuation τ sig (Elt F)) (k : ℕ) (hk : 126 < k) :
    pre k theOps V (Proc.devRef .tc main_call5_call0_cst) = res_main_call5_call0_cst (V (Proc.devRef .tc main_arg0)) (V (Proc.devRef .tc main_arg1)) (V (Proc.devRef .tc main_arg2)) (V (Proc.devRef .tc main_arg3)) (V (Proc.devRef .tc main_arg4)) :=
  (pre_keep theOps_writes main_call5_call0_cst 127 k V hk (by decide +kernel)).trans
    ((pre_nullary theOps 126 V main_call5_call0_cst ((constant S_ .f32 0x00000000#32 : (⟨S_, .f32⟩ : BufTy).Contents (Elt F))) _ rfl).trans (by rfl))
theorem at_main_call5_call0_v0 (V : Valuation τ sig (Elt F)) (k : ℕ) (hk : 127 < k) :
    pre k theOps V (Proc.devRef .tc main_call5_call0_v0) = res_main_call5_call0_v0 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v0 128 k V hk (by decide +kernel)).trans
    ((pre_binary theOps 127 V main_v69 main_call5_call0_cst main_call5_call0_v0 ((fun x v => Host.reduceAdd x v reducesTo_S8192x8192_S8192_d1 h_S_ : (⟨S8192x8192, .f32⟩ : BufTy).Contents (Elt F) → (⟨S_, .f32⟩ : BufTy).Contents (Elt F) → (⟨S8192, .f32⟩ : BufTy).Contents (Elt F))) _ _ _ rfl).trans (by rw [at_main_v69 V 127 (by decide), at_main_call5_call0_cst V 127 (by decide)]; rfl))
theorem at_main_call5_call0_v1 (V : Valuation τ sig (Elt F)) (k : ℕ) (hk : 128 < k) :
    pre k theOps V (Proc.devRef .tc main_call5_call0_v1) = res_main_call5_call0_v1 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v1 129 k V hk (by decide +kernel)).trans
    ((pre_unary theOps 128 V main_call5_call0_v0 main_call5_call0_v1 ((broadcastInDim S8192x1 ![0] bcast_S8192_S8192x1_0 : (⟨S8192, .f32⟩ : BufTy).Contents (Elt F) → (⟨S8192x1, .f32⟩ : BufTy).Contents (Elt F))) _ _ rfl).trans (by rw [at_main_call5_call0_v0 V 128 (by decide)]; rfl))
theorem at_main_call5_call0_cst_0 (V : Valuation τ sig (Elt F)) (k : ℕ) (hk : 129 < k) :
    pre k theOps V (Proc.devRef .tc main_call5_call0_cst_0) = res_main_call5_call0_cst_0 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_cst_0 130 k V hk (by decide +kernel)).trans
    ((pre_nullary theOps 129 V main_call5_call0_cst_0 ((constant S_ .f32 0x46000000#32 : (⟨S_, .f32⟩ : BufTy).Contents (Elt F))) _ rfl).trans (by rfl))
theorem at_main_call5_call0_v2 (V : Valuation τ sig (Elt F)) (k : ℕ) (hk : 130 < k) :
    pre k theOps V (Proc.devRef .tc main_call5_call0_v2) = res_main_call5_call0_v2 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v2 131 k V hk (by decide +kernel)).trans
    ((pre_unary theOps 130 V main_call5_call0_cst_0 main_call5_call0_v2 ((broadcastInDim S8192x1 ![] bcast_S_S8192x1 : (⟨S_, .f32⟩ : BufTy).Contents (Elt F) → (⟨S8192x1, .f32⟩ : BufTy).Contents (Elt F))) _ _ rfl).trans (by rw [at_main_call5_call0_cst_0 V 130 (by decide)]; rfl))
theorem at_main_call5_call0_v3 (V : Valuation τ sig (Elt F)) (k : ℕ) (hk : 131 < k) :
    pre k theOps V (Proc.devRef .tc main_call5_call0_v3) = res_main_call5_call0_v3 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v3 132 k V hk (by decide +kernel)).trans
    ((pre_binary theOps 131 V main_call5_call0_v1 main_call5_call0_v2 main_call5_call0_v3 ((Host.divf : (⟨S8192x1, .f32⟩ : BufTy).Contents (Elt F) → (⟨S8192x1, .f32⟩ : BufTy).Contents (Elt F) → (⟨S8192x1, .f32⟩ : BufTy).Contents (Elt F))) _ _ _ rfl).trans (by rw [at_main_call5_call0_v1 V 131 (by decide), at_main_call5_call0_v2 V 131 (by decide)]; rfl))
theorem at_main_call5_call0_v4 (V : Valuation τ sig (Elt F)) (k : ℕ) (hk : 132 < k) :
    pre k theOps V (Proc.devRef .tc main_call5_call0_v4) = res_main_call5_call0_v4 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v4 133 k V hk (by decide +kernel)).trans
    ((pre_unary theOps 132 V main_call5_call0_v3 main_call5_call0_v4 ((broadcastInDim S8192x8192 ![0, 1] bcast_S8192x1_S8192x8192_0_1 : (⟨S8192x1, .f32⟩ : BufTy).Contents (Elt F) → (⟨S8192x8192, .f32⟩ : BufTy).Contents (Elt F))) _ _ rfl).trans (by rw [at_main_call5_call0_v3 V 132 (by decide)]; rfl))
theorem at_main_call5_call0_v5 (V : Valuation τ sig (Elt F)) (k : ℕ) (hk : 133 < k) :
    pre k theOps V (Proc.devRef .tc main_call5_call0_v5) = res_main_call5_call0_v5 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v5 134 k V hk (by decide +kernel)).trans
    ((pre_binary theOps 133 V main_v69 main_call5_call0_v4 main_call5_call0_v5 ((subf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v69 V 133 (by decide), at_main_call5_call0_v4 V 133 (by decide)]; rfl))
theorem at_main_call5_call0_v6 (V : Valuation τ sig (Elt F)) (k : ℕ) (hk : 134 < k) :
    pre k theOps V (Proc.devRef .tc main_call5_call0_v6) = res_main_call5_call0_v6 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v6 135 k V hk (by decide +kernel)).trans
    ((pre_binary theOps 134 V main_call5_call0_v5 main_call5_call0_v5 main_call5_call0_v6 ((mulf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_call5_call0_v5 V 134 (by decide)]; rfl))
theorem at_main_call5_call0_v7 (V : Valuation τ sig (Elt F)) (k : ℕ) (hk : 135 < k) :
    pre k theOps V (Proc.devRef .tc main_call5_call0_v7) = res_main_call5_call0_v7 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v7 136 k V hk (by decide +kernel)).trans
    ((pre_unary theOps 135 V main_c_14 main_call5_call0_v7 ((sitofp .f32 : (⟨S_, .i32⟩ : BufTy).Contents (Elt F) → (⟨S_, .f32⟩ : BufTy).Contents (Elt F))) _ _ rfl).trans (by rw [at_main_c_14 V 135 (by decide)]; rfl))
theorem at_main_call5_call0_cst_1 (V : Valuation τ sig (Elt F)) (k : ℕ) (hk : 136 < k) :
    pre k theOps V (Proc.devRef .tc main_call5_call0_cst_1) = res_main_call5_call0_cst_1 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_cst_1 137 k V hk (by decide +kernel)).trans
    ((pre_nullary theOps 136 V main_call5_call0_cst_1 ((constant S_ .f32 0x46000000#32 : (⟨S_, .f32⟩ : BufTy).Contents (Elt F))) _ rfl).trans (by rfl))
theorem at_main_call5_call0_v8 (V : Valuation τ sig (Elt F)) (k : ℕ) (hk : 137 < k) :
    pre k theOps V (Proc.devRef .tc main_call5_call0_v8) = res_main_call5_call0_v8 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v8 138 k V hk (by decide +kernel)).trans
    ((pre_binary theOps 137 V main_call5_call0_cst_1 main_call5_call0_v7 main_call5_call0_v8 ((subf : (⟨S_, .f32⟩ : BufTy).Contents (Elt F) → (⟨S_, .f32⟩ : BufTy).Contents (Elt F) → (⟨S_, .f32⟩ : BufTy).Contents (Elt F))) _ _ _ rfl).trans (by rw [at_main_call5_call0_cst_1 V 137 (by decide), at_main_call5_call0_v7 V 137 (by decide)]; rfl))
theorem at_main_call5_call0_cst_2 (V : Valuation τ sig (Elt F)) (k : ℕ) (hk : 138 < k) :
    pre k theOps V (Proc.devRef .tc main_call5_call0_cst_2) = res_main_call5_call0_cst_2 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_cst_2 139 k V hk (by decide +kernel)).trans
    ((pre_nullary theOps 138 V main_call5_call0_cst_2 ((constant S_ .f32 0x00000000#32 : (⟨S_, .f32⟩ : BufTy).Contents (Elt F))) _ rfl).trans (by rfl))
theorem at_main_call5_call0_v9 (V : Valuation τ sig (Elt F)) (k : ℕ) (hk : 139 < k) :
    pre k theOps V (Proc.devRef .tc main_call5_call0_v9) = res_main_call5_call0_v9 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v9 140 k V hk (by decide +kernel)).trans
    ((pre_binary theOps 139 V main_call5_call0_v6 main_call5_call0_cst_2 main_call5_call0_v9 ((fun x v => Host.reduceAdd x v reducesTo_S8192x8192_S8192_d1 h_S_ : (⟨S8192x8192, .f32⟩ : BufTy).Contents (Elt F) → (⟨S_, .f32⟩ : BufTy).Contents (Elt F) → (⟨S8192, .f32⟩ : BufTy).Contents (Elt F))) _ _ _ rfl).trans (by rw [at_main_call5_call0_v6 V 139 (by decide), at_main_call5_call0_cst_2 V 139 (by decide)]; rfl))
theorem at_main_call5_call0_v10 (V : Valuation τ sig (Elt F)) (k : ℕ) (hk : 140 < k) :
    pre k theOps V (Proc.devRef .tc main_call5_call0_v10) = res_main_call5_call0_v10 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v10 141 k V hk (by decide +kernel)).trans
    ((pre_unary theOps 140 V main_call5_call0_v8 main_call5_call0_v10 ((broadcastInDim S8192 ![] bcast_S_S8192 : (⟨S_, .f32⟩ : BufTy).Contents (Elt F) → (⟨S8192, .f32⟩ : BufTy).Contents (Elt F))) _ _ rfl).trans (by rw [at_main_call5_call0_v8 V 140 (by decide)]; rfl))
theorem at_main_call5_call0_v11 (V : Valuation τ sig (Elt F)) (k : ℕ) (hk : 141 < k) :
    pre k theOps V (Proc.devRef .tc main_call5_call0_v11) = res_main_call5_call0_v11 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v11 142 k V hk (by decide +kernel)).trans
    ((pre_binary theOps 141 V main_call5_call0_v9 main_call5_call0_v10 main_call5_call0_v11 ((Host.divf : (⟨S8192, .f32⟩ : BufTy).Contents (Elt F) → (⟨S8192, .f32⟩ : BufTy).Contents (Elt F) → (⟨S8192, .f32⟩ : BufTy).Contents (Elt F))) _ _ _ rfl).trans (by rw [at_main_call5_call0_v9 V 141 (by decide), at_main_call5_call0_v10 V 141 (by decide)]; rfl))
theorem at_main_call5_call0_cst_3 (V : Valuation τ sig (Elt F)) (k : ℕ) (hk : 142 < k) :
    pre k theOps V (Proc.devRef .tc main_call5_call0_cst_3) = res_main_call5_call0_cst_3 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_cst_3 143 k V hk (by decide +kernel)).trans
    ((pre_nullary theOps 142 V main_call5_call0_cst_3 ((constant S_ .f32 0x00000000#32 : (⟨S_, .f32⟩ : BufTy).Contents (Elt F))) _ rfl).trans (by rfl))
theorem at_main_call5_call0_v12 (V : Valuation τ sig (Elt F)) (k : ℕ) (hk : 143 < k) :
    pre k theOps V (Proc.devRef .tc main_call5_call0_v12) = res_main_call5_call0_v12 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_v12 144 k V hk (by decide +kernel)).trans
    ((pre_binary theOps 143 V main_call5_call0_v8 main_call5_call0_cst_3 main_call5_call0_v12 ((cmpf .ogt : (⟨S_, .f32⟩ : BufTy).Contents (Elt F) → (⟨S_, .f32⟩ : BufTy).Contents (Elt F) → (⟨S_, .i1⟩ : BufTy).Contents (Elt F))) _ _ _ rfl).trans (by rw [at_main_call5_call0_v8 V 143 (by decide), at_main_call5_call0_cst_3 V 143 (by decide)]; rfl))
theorem at_main_call5_call0_cst_4 (V : Valuation τ sig (Elt F)) (k : ℕ) (hk : 144 < k) :
    pre k theOps V (Proc.devRef .tc main_call5_call0_cst_4) = res_main_call5_call0_cst_4 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_cst_4 145 k V hk (by decide +kernel)).trans
    ((pre_nullary theOps 144 V main_call5_call0_cst_4 ((constant S_ .f32 0x7FC00000#32 : (⟨S_, .f32⟩ : BufTy).Contents (Elt F))) _ rfl).trans (by rfl))
theorem at_main_call5_call0_call0_v0 (V : Valuation τ sig (Elt F)) (k : ℕ) (hk : 145 < k) :
    pre k theOps V (Proc.devRef .tc main_call5_call0_call0_v0) = res_main_call5_call0_call0_v0 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_call0_v0 146 k V hk (by decide +kernel)).trans
    ((pre_unary theOps 145 V main_call5_call0_cst_4 main_call5_call0_call0_v0 ((id : (⟨S_, .f32⟩ : BufTy).Contents (Elt F) → (⟨S_, .f32⟩ : BufTy).Contents (Elt F))) _ _ rfl).trans (by rw [at_main_call5_call0_cst_4 V 145 (by decide)]; rfl))
theorem at_main_call5_call0_call0_v1 (V : Valuation τ sig (Elt F)) (k : ℕ) (hk : 146 < k) :
    pre k theOps V (Proc.devRef .tc main_call5_call0_call0_v1) = res_main_call5_call0_call0_v1 (V (Proc.devRef .tc main_arg0)) (V (Proc.devRef .tc main_arg1)) (V (Proc.devRef .tc main_arg2)) (V (Proc.devRef .tc main_arg3)) (V (Proc.devRef .tc main_arg4)) :=
  (pre_keep theOps_writes main_call5_call0_call0_v1 147 k V hk (by decide +kernel)).trans
    ((pre_unary theOps 146 V main_call5_call0_call0_v0 main_call5_call0_call0_v1 ((broadcastInDim S8192 ![] bcast_S_S8192 : (⟨S_, .f32⟩ : BufTy).Contents (Elt F) → (⟨S8192, .f32⟩ : BufTy).Contents (Elt F))) _ _ rfl).trans (by rw [at_main_call5_call0_call0_v0 V 146 (by decide)]; rfl))
theorem at_main_call5_v0 (V : Valuation τ sig (Elt F)) (k : ℕ) (hk : 147 < k) :
    pre k theOps V (Proc.devRef .tc main_call5_v0) = res_main_call5_v0 (V (Proc.devRef .tc main_arg0)) (V (Proc.devRef .tc main_arg1)) (V (Proc.devRef .tc main_arg2)) (V (Proc.devRef .tc main_arg3)) (V (Proc.devRef .tc main_arg4)) :=
  (pre_keep theOps_writes main_call5_v0 148 k V hk (by decide +kernel)).trans
    ((pre_ternary theOps 147 V main_call5_call0_v12 main_call5_call0_v11 main_call5_call0_call0_v1 main_call5_v0 ((fun p a b => select (broadcastInDim S8192 ![] bcast_S_S8192 p) a b : (⟨S_, .i1⟩ : BufTy).Contents (Elt F) → (⟨S8192, .f32⟩ : BufTy).Contents (Elt F) → (⟨S8192, .f32⟩ : BufTy).Contents (Elt F) → (⟨S8192, .f32⟩ : BufTy).Contents (Elt F))) _ _ _ _ rfl).trans (by rw [at_main_call5_call0_v12 V 147 (by decide), at_main_call5_call0_v11 V 147 (by decide), at_main_call5_call0_call0_v1 V 147 (by decide)]; rfl))
theorem at_main_v73 (V : Valuation τ sig (Elt F)) (k : ℕ) (hk : 148 < k) :
    pre k theOps V (Proc.devRef .tc main_v73) = res_main_v73 (V (Proc.devRef .tc main_arg0)) (V (Proc.devRef .tc main_arg1)) (V (Proc.devRef .tc main_arg2)) (V (Proc.devRef .tc main_arg3)) (V (Proc.devRef .tc main_arg4)) :=
  (pre_keep theOps_writes main_v73 149 k V hk (by decide +kernel)).trans
    ((pre_unary theOps 148 V main_call5_v0 main_v73 ((Host.sqrt : (⟨S8192, .f32⟩ : BufTy).Contents (Elt F) → (⟨S8192, .f32⟩ : BufTy).Contents (Elt F))) _ _ rfl).trans (by rw [at_main_call5_v0 V 148 (by decide)]; rfl))
theorem at_main_v74 (V : Valuation τ sig (Elt F)) (k : ℕ) (hk : 149 < k) :
    pre k theOps V (Proc.devRef .tc main_v74) = res_main_v74 (V (Proc.devRef .tc main_arg0)) (V (Proc.devRef .tc main_arg1)) (V (Proc.devRef .tc main_arg2)) (V (Proc.devRef .tc main_arg3)) (V (Proc.devRef .tc main_arg4)) :=
  (pre_keep theOps_writes main_v74 150 k V hk (by decide +kernel)).trans
    ((pre_unary theOps 149 V main_v72 main_v74 ((broadcastInDim S1x8192 ![1] bcast_S8192_S1x8192_1 : (⟨S8192, .f32⟩ : BufTy).Contents (Elt F) → (⟨S1x8192, .f32⟩ : BufTy).Contents (Elt F))) _ _ rfl).trans (by rw [at_main_v72 V 149 (by decide)]; rfl))
theorem at_main_v75 (V : Valuation τ sig (Elt F)) (k : ℕ) (hk : 150 < k) :
    pre k theOps V (Proc.devRef .tc main_v75) = res_main_v75 (V (Proc.devRef .tc main_arg0)) (V (Proc.devRef .tc main_arg1)) (V (Proc.devRef .tc main_arg2)) (V (Proc.devRef .tc main_arg3)) (V (Proc.devRef .tc main_arg4)) :=
  (pre_keep theOps_writes main_v75 151 k V hk (by decide +kernel)).trans
    ((pre_unary theOps 150 V main_v74 main_v75 ((broadcastInDim S8192x8192 ![0, 1] bcast_S1x8192_S8192x8192_0_1 : (⟨S1x8192, .f32⟩ : BufTy).Contents (Elt F) → (⟨S8192x8192, .f32⟩ : BufTy).Contents (Elt F))) _ _ rfl).trans (by rw [at_main_v74 V 150 (by decide)]; rfl))
theorem at_main_v76 (V : Valuation τ sig (Elt F)) (k : ℕ) (hk : 151 < k) :
    pre k theOps V (Proc.devRef .tc main_v76) = res_main_v76 (V (Proc.devRef .tc main_arg0)) (V (Proc.devRef .tc main_arg1)) (V (Proc.devRef .tc main_arg2)) (V (Proc.devRef .tc main_arg3)) (V (Proc.devRef .tc main_arg4)) :=
  (pre_keep theOps_writes main_v76 152 k V hk (by decide +kernel)).trans
    ((pre_binary theOps 151 V main_v69 main_v75 main_v76 ((subf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v69 V 151 (by decide), at_main_v75 V 151 (by decide)]; rfl))
theorem at_main_v77 (V : Valuation τ sig (Elt F)) (k : ℕ) (hk : 152 < k) :
    pre k theOps V (Proc.devRef .tc main_v77) = res_main_v77 (V (Proc.devRef .tc main_arg0)) (V (Proc.devRef .tc main_arg1)) (V (Proc.devRef .tc main_arg2)) (V (Proc.devRef .tc main_arg3)) (V (Proc.devRef .tc main_arg4)) :=
  (pre_keep theOps_writes main_v77 153 k V hk (by decide +kernel)).trans
    ((pre_binary theOps 152 V main_v76 main_v76 main_v77 ((mulf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v76 V 152 (by decide)]; rfl))
theorem at_main_v78 (V : Valuation τ sig (Elt F)) (k : ℕ) (hk : 153 < k) :
    pre k theOps V (Proc.devRef .tc main_v78) = res_main_v78 (V (Proc.devRef .tc main_arg0)) (V (Proc.devRef .tc main_arg1)) (V (Proc.devRef .tc main_arg2)) (V (Proc.devRef .tc main_arg3)) (V (Proc.devRef .tc main_arg4)) :=
  (pre_keep theOps_writes main_v78 154 k V hk (by decide +kernel)).trans
    ((pre_unary theOps 153 V main_v73 main_v78 ((broadcastInDim S1x8192 ![1] bcast_S8192_S1x8192_1 : (⟨S8192, .f32⟩ : BufTy).Contents (Elt F) → (⟨S1x8192, .f32⟩ : BufTy).Contents (Elt F))) _ _ rfl).trans (by rw [at_main_v73 V 153 (by decide)]; rfl))
theorem at_main_v79 (V : Valuation τ sig (Elt F)) (k : ℕ) (hk : 154 < k) :
    pre k theOps V (Proc.devRef .tc main_v79) = res_main_v79 (V (Proc.devRef .tc main_arg0)) (V (Proc.devRef .tc main_arg1)) (V (Proc.devRef .tc main_arg2)) (V (Proc.devRef .tc main_arg3)) (V (Proc.devRef .tc main_arg4)) :=
  (pre_keep theOps_writes main_v79 155 k V hk (by decide +kernel)).trans
    ((pre_binary theOps 154 V main_v78 main_v78 main_v79 ((mulf : (⟨S1x8192, .f32⟩ : BufTy).Contents (Elt F) → (⟨S1x8192, .f32⟩ : BufTy).Contents (Elt F) → (⟨S1x8192, .f32⟩ : BufTy).Contents (Elt F))) _ _ _ rfl).trans (by rw [at_main_v78 V 154 (by decide)]; rfl))
theorem at_main_cst_15 (V : Valuation τ sig (Elt F)) (k : ℕ) (hk : 155 < k) :
    pre k theOps V (Proc.devRef .tc main_cst_15) = res_main_cst_15 (V (Proc.devRef .tc main_arg0)) (V (Proc.devRef .tc main_arg1)) (V (Proc.devRef .tc main_arg2)) (V (Proc.devRef .tc main_arg3)) (V (Proc.devRef .tc main_arg4)) :=
  (pre_keep theOps_writes main_cst_15 156 k V hk (by decide +kernel)).trans
    ((pre_nullary theOps 155 V main_cst_15 ((constant S_ .f32 0x40000000#32 : (⟨S_, .f32⟩ : BufTy).Contents (Elt F))) _ rfl).trans (by rfl))
theorem at_main_v80 (V : Valuation τ sig (Elt F)) (k : ℕ) (hk : 156 < k) :
    pre k theOps V (Proc.devRef .tc main_v80) = res_main_v80 (V (Proc.devRef .tc main_arg0)) (V (Proc.devRef .tc main_arg1)) (V (Proc.devRef .tc main_arg2)) (V (Proc.devRef .tc main_arg3)) (V (Proc.devRef .tc main_arg4)) :=
  (pre_keep theOps_writes main_v80 157 k V hk (by decide +kernel)).trans
    ((pre_unary theOps 156 V main_cst_15 main_v80 ((broadcastInDim S1x8192 ![] bcast_S_S1x8192 : (⟨S_, .f32⟩ : BufTy).Contents (Elt F) → (⟨S1x8192, .f32⟩ : BufTy).Contents (Elt F))) _ _ rfl).trans (by rw [at_main_cst_15 V 156 (by decide)]; rfl))
theorem at_main_v81 (V : Valuation τ sig (Elt F)) (k : ℕ) (hk : 157 < k) :
    pre k theOps V (Proc.devRef .tc main_v81) = res_main_v81 (V (Proc.devRef .tc main_arg0)) (V (Proc.devRef .tc main_arg1)) (V (Proc.devRef .tc main_arg2)) (V (Proc.devRef .tc main_arg3)) (V (Proc.devRef .tc main_arg4)) :=
  (pre_keep theOps_writes main_v81 158 k V hk (by decide +kernel)).trans
    ((pre_binary theOps 157 V main_v80 main_v79 main_v81 ((mulf : (⟨S1x8192, .f32⟩ : BufTy).Contents (Elt F) → (⟨S1x8192, .f32⟩ : BufTy).Contents (Elt F) → (⟨S1x8192, .f32⟩ : BufTy).Contents (Elt F))) _ _ _ rfl).trans (by rw [at_main_v80 V 157 (by decide), at_main_v79 V 157 (by decide)]; rfl))
theorem at_main_v82 (V : Valuation τ sig (Elt F)) (k : ℕ) (hk : 158 < k) :
    pre k theOps V (Proc.devRef .tc main_v82) = res_main_v82 (V (Proc.devRef .tc main_arg0)) (V (Proc.devRef .tc main_arg1)) (V (Proc.devRef .tc main_arg2)) (V (Proc.devRef .tc main_arg3)) (V (Proc.devRef .tc main_arg4)) :=
  (pre_keep theOps_writes main_v82 159 k V hk (by decide +kernel)).trans
    ((pre_unary theOps 158 V main_v81 main_v82 ((broadcastInDim S8192x8192 ![0, 1] bcast_S1x8192_S8192x8192_0_1 : (⟨S1x8192, .f32⟩ : BufTy).Contents (Elt F) → (⟨S8192x8192, .f32⟩ : BufTy).Contents (Elt F))) _ _ rfl).trans (by rw [at_main_v81 V 158 (by decide)]; rfl))
theorem at_main_v83 (V : Valuation τ sig (Elt F)) (k : ℕ) (hk : 159 < k) :
    pre k theOps V (Proc.devRef .tc main_v83) = res_main_v83 (V (Proc.devRef .tc main_arg0)) (V (Proc.devRef .tc main_arg1)) (V (Proc.devRef .tc main_arg2)) (V (Proc.devRef .tc main_arg3)) (V (Proc.devRef .tc main_arg4)) :=
  (pre_keep theOps_writes main_v83 160 k V hk (by decide +kernel)).trans
    ((pre_binary theOps 159 V main_v77 main_v82 main_v83 ((Host.divf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v77 V 159 (by decide), at_main_v82 V 159 (by decide)]; rfl))
theorem at_main_v84 (V : Valuation τ sig (Elt F)) (k : ℕ) (hk : 160 < k) :
    pre k theOps V (Proc.devRef .tc main_v84) = res_main_v84 (V (Proc.devRef .tc main_arg0)) (V (Proc.devRef .tc main_arg1)) (V (Proc.devRef .tc main_arg2)) (V (Proc.devRef .tc main_arg3)) (V (Proc.devRef .tc main_arg4)) :=
  (pre_keep theOps_writes main_v84 161 k V hk (by decide +kernel)).trans
    ((pre_unary theOps 160 V main_v83 main_v84 ((Host.exp : (⟨S8192x8192, .f32⟩ : BufTy).Contents (Elt F) → (⟨S8192x8192, .f32⟩ : BufTy).Contents (Elt F))) _ _ rfl).trans (by rw [at_main_v83 V 160 (by decide)]; rfl))
theorem at_main_v85 (V : Valuation τ sig (Elt F)) (k : ℕ) (hk : 161 < k) :
    pre k theOps V (Proc.devRef .tc main_v85) = res_main_v85 (V (Proc.devRef .tc main_arg0)) (V (Proc.devRef .tc main_arg1)) (V (Proc.devRef .tc main_arg2)) (V (Proc.devRef .tc main_arg3)) (V (Proc.devRef .tc main_arg4)) :=
  (pre_keep theOps_writes main_v85 162 k V hk (by decide +kernel)).trans
    ((pre_binary theOps 161 V main_v15 main_v84 main_v85 ((mulf : (⟨S8192x8192, .f32⟩ : BufTy).Contents (Elt F) → (⟨S8192x8192, .f32⟩ : BufTy).Contents (Elt F) → (⟨S8192x8192, .f32⟩ : BufTy).Contents (Elt F))) _ _ _ rfl).trans (by rw [at_main_v15 V 161 (by decide), at_main_v84 V 161 (by decide)]; rfl))
theorem at_main_v86 (V : Valuation τ sig (Elt F)) (k : ℕ) (hk : 162 < k) :
    pre k theOps V (Proc.devRef .tc main_v86) = res_main_v86 (V (Proc.devRef .tc main_arg0)) (V (Proc.devRef .tc main_arg1)) (V (Proc.devRef .tc main_arg2)) (V (Proc.devRef .tc main_arg3)) (V (Proc.devRef .tc main_arg4)) :=
  (pre_keep theOps_writes main_v86 163 k V hk (by decide +kernel)).trans
    ((pre_binary theOps 162 V main_v4 main_v9 main_v86 ((mulf : (⟨S4096x256, .f32⟩ : BufTy).Contents (Elt F) → (⟨S4096x256, .f32⟩ : BufTy).Contents (Elt F) → (⟨S4096x256, .f32⟩ : BufTy).Contents (Elt F))) _ _ _ rfl).trans (by rw [at_main_v4 V 162 (by decide), at_main_v9 V 162 (by decide)]; rfl))
theorem at_main_cst_16 (V : Valuation τ sig (Elt F)) (k : ℕ) (hk : 163 < k) :
    pre k theOps V (Proc.devRef .tc main_cst_16) = res_main_cst_16 (V (Proc.devRef .tc main_arg0)) (V (Proc.devRef .tc main_arg1)) (V (Proc.devRef .tc main_arg2)) (V (Proc.devRef .tc main_arg3)) (V (Proc.devRef .tc main_arg4)) :=
  (pre_keep theOps_writes main_cst_16 164 k V hk (by decide +kernel)).trans
    ((pre_nullary theOps 163 V main_cst_16 ((constant S_ .f32 0x00000000#32 : (⟨S_, .f32⟩ : BufTy).Contents (Elt F))) _ rfl).trans (by rfl))
theorem at_main_v87 (V : Valuation τ sig (Elt F)) (k : ℕ) (hk : 164 < k) :
    pre k theOps V (Proc.devRef .tc main_v87) = res_main_v87 (V (Proc.devRef .tc main_arg0)) (V (Proc.devRef .tc main_arg1)) (V (Proc.devRef .tc main_arg2)) (V (Proc.devRef .tc main_arg3)) (V (Proc.devRef .tc main_arg4)) :=
  (pre_keep theOps_writes main_v87 165 k V hk (by decide +kernel)).trans
    ((pre_binary theOps 164 V main_v86 main_cst_16 main_v87 (((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F))) _ _ _ rfl).trans (by rw [at_main_v86 V 164 (by decide), at_main_cst_16 V 164 (by decide)]; rfl))
theorem at_main_cst_17 (V : Valuation τ sig (Elt F)) (k : ℕ) (hk : 165 < k) :
    pre k theOps V (Proc.devRef .tc main_cst_17) = res_main_cst_17 (V (Proc.devRef .tc main_arg0)) (V (Proc.devRef .tc main_arg1)) (V (Proc.devRef .tc main_arg2)) (V (Proc.devRef .tc main_arg3)) (V (Proc.devRef .tc main_arg4)) :=
  (pre_keep theOps_writes main_cst_17 166 k V hk (by decide +kernel)).trans
    ((pre_nullary theOps 165 V main_cst_17 ((constant S_ .f32 0x3E4CCCCD#32 : (⟨S_, .f32⟩ : BufTy).Contents (Elt F))) _ rfl).trans (by rfl))
theorem at_main_v88 (V : Valuation τ sig (Elt F)) (k : ℕ) (hk : 166 < k) :
    pre k theOps V (Proc.devRef .tc main_v88) = res_main_v88 (V (Proc.devRef .tc main_arg0)) (V (Proc.devRef .tc main_arg1)) (V (Proc.devRef .tc main_arg2)) (V (Proc.devRef .tc main_arg3)) (V (Proc.devRef .tc main_arg4)) :=
  (pre_keep theOps_writes main_v88 167 k V hk (by decide +kernel)).trans
    ((pre_unary theOps 166 V main_cst_17 main_v88 ((broadcastInDim S4096 ![] bcast_S_S4096 : (⟨S_, .f32⟩ : BufTy).Contents (Elt F) → (⟨S4096, .f32⟩ : BufTy).Contents (Elt F))) _ _ rfl).trans (by rw [at_main_cst_17 V 166 (by decide)]; rfl))
theorem at_main_v89 (V : Valuation τ sig (Elt F)) (k : ℕ) (hk : 167 < k) :
    pre k theOps V (Proc.devRef .tc main_v89) = res_main_v89 (V (Proc.devRef .tc main_arg0)) (V (Proc.devRef .tc main_arg1)) (V (Proc.devRef .tc main_arg2)) (V (Proc.devRef .tc main_arg3)) (V (Proc.devRef .tc main_arg4)) :=
  (pre_keep theOps_writes main_v89 168 k V hk (by decide +kernel)).trans
    ((pre_binary theOps 167 V main_v87 main_v88 main_v89 ((Host.divf : (⟨S4096, .f32⟩ : BufTy).Contents (Elt F) → (⟨S4096, .f32⟩ : BufTy).Contents (Elt F) → (⟨S4096, .f32⟩ : BufTy).Contents (Elt F))) _ _ _ rfl).trans (by rw [at_main_v87 V 167 (by decide), at_main_v88 V 167 (by decide)]; rfl))
theorem at_main_v90 (V : Valuation τ sig (Elt F)) (k : ℕ) (hk : 168 < k) :
    pre k theOps V (Proc.devRef .tc main_v90) = res_main_v90 (V (Proc.devRef .tc main_arg0)) (V (Proc.devRef .tc main_arg1)) (V (Proc.devRef .tc main_arg2)) (V (Proc.devRef .tc main_arg3)) (V (Proc.devRef .tc main_arg4)) :=
  (pre_keep theOps_writes main_v90 169 k V hk (by decide +kernel)).trans
    ((pre_unary theOps 168 V main_v89 main_v90 ((Host.exp : (⟨S4096, .f32⟩ : BufTy).Contents (Elt F) → (⟨S4096, .f32⟩ : BufTy).Contents (Elt F))) _ _ rfl).trans (by rw [at_main_v89 V 168 (by decide)]; rfl))
theorem at_main_v91 (V : Valuation τ sig (Elt F)) (k : ℕ) (hk : 169 < k) :
    pre k theOps V (Proc.devRef .tc main_v91) = res_main_v91 (V (Proc.devRef .tc main_arg0)) (V (Proc.devRef .tc main_arg1)) (V (Proc.devRef .tc main_arg2)) (V (Proc.devRef .tc main_arg3)) (V (Proc.devRef .tc main_arg4)) :=
  (pre_keep theOps_writes main_v91 170 k V hk (by decide +kernel)).trans
    ((pre_binary theOps 169 V main_v90 main_v90 main_v91 (((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F))) _ _ _ rfl).trans (by rw [at_main_v90 V 169 (by decide)]; rfl))
theorem at_main_cst_18 (V : Valuation τ sig (Elt F)) (k : ℕ) (hk : 170 < k) :
    pre k theOps V (Proc.devRef .tc main_cst_18) = res_main_cst_18 (V (Proc.devRef .tc main_arg0)) (V (Proc.devRef .tc main_arg1)) (V (Proc.devRef .tc main_arg2)) (V (Proc.devRef .tc main_arg3)) (V (Proc.devRef .tc main_arg4)) :=
  (pre_keep theOps_writes main_cst_18 171 k V hk (by decide +kernel)).trans
    ((pre_nullary theOps 170 V main_cst_18 ((constant S_ .f32 0x00000000#32 : (⟨S_, .f32⟩ : BufTy).Contents (Elt F))) _ rfl).trans (by rfl))
theorem at_main_call6_v0 (V : Valuation τ sig (Elt F)) (k : ℕ) (hk : 171 < k) :
    pre k theOps V (Proc.devRef .tc main_call6_v0) = res_main_call6_v0 (V (Proc.devRef .tc main_arg0)) (V (Proc.devRef .tc main_arg1)) (V (Proc.devRef .tc main_arg2)) (V (Proc.devRef .tc main_arg3)) (V (Proc.devRef .tc main_arg4)) :=
  (pre_keep theOps_writes main_call6_v0 172 k V hk (by decide +kernel)).trans
    ((pre_unary theOps 171 V main_cst_18 main_call6_v0 ((id : (⟨S_, .f32⟩ : BufTy).Contents (Elt F) → (⟨S_, .f32⟩ : BufTy).Contents (Elt F))) _ _ rfl).trans (by rw [at_main_cst_18 V 171 (by decide)]; rfl))
theorem at_main_call6_v1 (V : Valuation τ sig (Elt F)) (k : ℕ) (hk : 172 < k) :
    pre k theOps V (Proc.devRef .tc main_call6_v1) = res_main_call6_v1 (V (Proc.devRef .tc main_arg0)) (V (Proc.devRef .tc main_arg1)) (V (Proc.devRef .tc main_arg2)) (V (Proc.devRef .tc main_arg3)) (V (Proc.devRef .tc main_arg4)) :=
  (pre_keep theOps_writes main_call6_v1 173 k V hk (by decide +kernel)).trans
    ((pre_unary theOps 172 V main_call6_v0 main_call6_v1 ((broadcastInDim S8192x8192 ![] bcast_S_S8192x8192 : (⟨S_, .f32⟩ : BufTy).Contents (Elt F) → (⟨S8192x8192, .f32⟩ : BufTy).Contents (Elt F))) _ _ rfl).trans (by rw [at_main_call6_v0 V 172 (by decide)]; rfl))
theorem at_main_v92 (V : Valuation τ sig (Elt F)) (k : ℕ) (hk : 173 < k) :
    pre k theOps V (Proc.devRef .tc main_v92) = res_main_v92 (V (Proc.devRef .tc main_arg0)) (V (Proc.devRef .tc main_arg1)) (V (Proc.devRef .tc main_arg2)) (V (Proc.devRef .tc main_arg3)) (V (Proc.devRef .tc main_arg4)) :=
  (pre_keep theOps_writes main_v92 174 k V hk (by decide +kernel)).trans
    ((pre_ternary theOps 173 V main_v32 main_v85 main_call6_v1 main_v92 ((select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F))) _ _ _ _ rfl).trans (by rw [at_main_v32 V 173 (by decide), at_main_v85 V 173 (by decide), at_main_call6_v1 V 173 (by decide)]; rfl))
theorem at_main_cst_19 (V : Valuation τ sig (Elt F)) (k : ℕ) (hk : 174 < k) :
    pre k theOps V (Proc.devRef .tc main_cst_19) = res_main_cst_19 (V (Proc.devRef .tc main_arg0)) (V (Proc.devRef .tc main_arg1)) (V (Proc.devRef .tc main_arg2)) (V (Proc.devRef .tc main_arg3)) (V (Proc.devRef .tc main_arg4)) :=
  (pre_keep theOps_writes main_cst_19 175 k V hk (by decide +kernel)).trans
    ((pre_nullary theOps 174 V main_cst_19 ((constant S_ .f32 0x00000000#32 : (⟨S_, .f32⟩ : BufTy).Contents (Elt F))) _ rfl).trans (by rfl))
theorem at_main_v93 (V : Valuation τ sig (Elt F)) (k : ℕ) (hk : 175 < k) :
    pre k theOps V (Proc.devRef .tc main_v93) = res_main_v93 (V (Proc.devRef .tc main_arg0)) (V (Proc.devRef .tc main_arg1)) (V (Proc.devRef .tc main_arg2)) (V (Proc.devRef .tc main_arg3)) (V (Proc.devRef .tc main_arg4)) :=
  (pre_keep theOps_writes main_v93 176 k V hk (by decide +kernel)).trans
    ((pre_binary theOps 175 V main_v92 main_cst_19 main_v93 (((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F))) _ _ _ rfl).trans (by rw [at_main_v92 V 175 (by decide), at_main_cst_19 V 175 (by decide)]; rfl))
theorem at_main_v94 (V : Valuation τ sig (Elt F)) (k : ℕ) (hk : 176 < k) :
    pre k theOps V (Proc.devRef .tc main_v94) = res_main_v94 (V (Proc.devRef .tc main_arg0)) (V (Proc.devRef .tc main_arg1)) (V (Proc.devRef .tc main_arg2)) (V (Proc.devRef .tc main_arg3)) (V (Proc.devRef .tc main_arg4)) :=
  (pre_keep theOps_writes main_v94 177 k V hk (by decide +kernel)).trans
    ((pre_unary theOps 176 V main_v93 main_v94 ((broadcastInDim S8192 ![] bcast_S_S8192 : (⟨S_, .f32⟩ : BufTy).Contents (Elt F) → (⟨S8192, .f32⟩ : BufTy).Contents (Elt F))) _ _ rfl).trans (by rw [at_main_v93 V 176 (by decide)]; rfl))
theorem at_main_v95 (V : Valuation τ sig (Elt F)) (k : ℕ) (hk : 177 < k) :
    pre k theOps V (Proc.devRef .tc main_v95) = res_main_v95 (V (Proc.devRef .tc main_arg0)) (V (Proc.devRef .tc main_arg1)) (V (Proc.devRef .tc main_arg2)) (V (Proc.devRef .tc main_arg3)) (V (Proc.devRef .tc main_arg4)) :=
  (pre_keep theOps_writes main_v95 178 k V hk (by decide +kernel)).trans
    ((pre_binary theOps 177 V main_v91 main_v94 main_v95 ((Host.divf : (⟨S8192, .f32⟩ : BufTy).Contents (Elt F) → (⟨S8192, .f32⟩ : BufTy).Contents (Elt F) → (⟨S8192, .f32⟩ : BufTy).Contents (Elt F))) _ _ _ rfl).trans (by rw [at_main_v91 V 177 (by decide), at_main_v94 V 177 (by decide)]; rfl))
theorem at_main_v96 (V : Valuation τ sig (Elt F)) (k : ℕ) (hk : 178 < k) :
    pre k theOps V (Proc.devRef .tc main_v96) = res_main_v96 (V (Proc.devRef .tc main_arg0)) (V (Proc.devRef .tc main_arg1)) (V (Proc.devRef .tc main_arg2)) (V (Proc.devRef .tc main_arg3)) (V (Proc.devRef .tc main_arg4)) :=
  (pre_keep theOps_writes main_v96 179 k V hk (by decide +kernel)).trans
    ((pre_unary theOps 178 V main_v95 main_v96 ((Host.log : (⟨S8192, .f32⟩ : BufTy).Contents (Elt F) → (⟨S8192, .f32⟩ : BufTy).Contents (Elt F))) _ _ rfl).trans (by rw [at_main_v95 V 178 (by decide)]; rfl))
theorem at_main_v97 (V : Valuation τ sig (Elt F)) (k : ℕ) (hk : 179 < k) :
    pre k theOps V (Proc.devRef .tc main_v97) = res_main_v97 (V (Proc.devRef .tc main_arg0)) (V (Proc.devRef .tc main_arg1)) (V (Proc.devRef .tc main_arg2)) (V (Proc.devRef .tc main_arg3)) (V (Proc.devRef .tc main_arg4)) :=
  (pre_keep theOps_writes main_v97 180 k V hk (by decide +kernel)).trans
    ((pre_unary theOps 179 V main_v96 main_v97 ((Host.negf : (⟨S8192, .f32⟩ : BufTy).Contents (Elt F) → (⟨S8192, .f32⟩ : BufTy).Contents (Elt F))) _ _ rfl).trans (by rw [at_main_v96 V 179 (by decide)]; rfl))
theorem at_main_cst_20 (V : Valuation τ sig (Elt F)) (k : ℕ) (hk : 180 < k) :
    pre k theOps V (Proc.devRef .tc main_cst_20) = res_main_cst_20 (V (Proc.devRef .tc main_arg0)) (V (Proc.devRef .tc main_arg1)) (V (Proc.devRef .tc main_arg2)) (V (Proc.devRef .tc main_arg3)) (V (Proc.devRef .tc main_arg4)) :=
  (pre_keep theOps_writes main_cst_20 181 k V hk (by decide +kernel)).trans
    ((pre_nullary theOps 180 V main_cst_20 ((constant S_ .f32 0x00000000#32 : (⟨S_, .f32⟩ : BufTy).Contents (Elt F))) _ rfl).trans (by rfl))
theorem at_main_v98 (V : Valuation τ sig (Elt F)) (k : ℕ) (hk : 181 < k) :
    pre k theOps V (Proc.devRef .tc main_v98) = res_main_v98 (V (Proc.devRef .tc main_arg0)) (V (Proc.devRef .tc main_arg1)) (V (Proc.devRef .tc main_arg2)) (V (Proc.devRef .tc main_arg3)) (V (Proc.devRef .tc main_arg4)) :=
  (pre_keep theOps_writes main_v98 182 k V hk (by decide +kernel)).trans
    ((pre_binary theOps 181 V main_v97 main_cst_20 main_v98 (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))) _ _ _ rfl).trans (by rw [at_main_v97 V 181 (by decide), at_main_cst_20 V 181 (by decide)]; rfl))
theorem at_main_cst_21 (V : Valuation τ sig (Elt F)) (k : ℕ) (hk : 182 < k) :
    pre k theOps V (Proc.devRef .tc main_cst_21) = res_main_cst_21 (V (Proc.devRef .tc main_arg0)) (V (Proc.devRef .tc main_arg1)) (V (Proc.devRef .tc main_arg2)) (V (Proc.devRef .tc main_arg3)) (V (Proc.devRef .tc main_arg4)) :=
  (pre_keep theOps_writes main_cst_21 183 k V hk (by decide +kernel)).trans
    ((pre_nullary theOps 182 V main_cst_21 ((constant S_ .f32 0x46000000#32 : (⟨S_, .f32⟩ : BufTy).Contents (Elt F))) _ rfl).trans (by rfl))
theorem at_main_v99 (V : Valuation τ sig (Elt F)) (k : ℕ) (hk : 183 < k) :
    pre k theOps V (Proc.devRef .tc main_v99) = res_main_v99 (V (Proc.devRef .tc main_arg0)) (V (Proc.devRef .tc main_arg1)) (V (Proc.devRef .tc main_arg2)) (V (Proc.devRef .tc main_arg3)) (V (Proc.devRef .tc main_arg4)) :=
  (pre_keep theOps_writes main_v99 184 k V hk (by decide +kernel)).trans
    ((pre_binary theOps 183 V main_v98 main_cst_21 main_v99 ((Host.divf : (⟨S_, .f32⟩ : BufTy).Contents (Elt F) → (⟨S_, .f32⟩ : BufTy).Contents (Elt F) → (⟨S_, .f32⟩ : BufTy).Contents (Elt F))) _ _ _ rfl).trans (by rw [at_main_v98 V 183 (by decide), at_main_cst_21 V 183 (by decide)]; rfl))

end Cert.ReferenceIdeal.Hand

end
-- ==== Proof.RefRun.lean ====
/-
  The reference program's run, over the stage table: @main is the straight line of its 184 host operations (the three parts in
  order, each outlined function's body at its call), the line scopes no buffer and no semaphore, touches TensorCore buffers only
  and determines every result; so every weakly fair execution terminates with each buffer at the line's fold over the launch
  contents, and that fold is, at the result buffer, its stage of the five arguments' contents (the line read one operation at a
  time: every buffer is written once) and, at an argument, what the launch put there (no operation writes an argument).
-/
import proofs.«427632_j79637283602625_3_alg».proof.Proof.RefRunTable
import proofs.«427632_j79637283602625_3_alg».proof.Proof.RefStages
import proofs.«427632_j79637283602625_3_alg».proof.Proof.Gen.ReferenceIdeal
import Idealize.ShloMosaic.Lib.StableHlo.Run

noncomputable section

namespace Cert.ReferenceIdeal.Hand

open Cert.ReferenceIdeal Cert.ReferenceIdeal.Stages Idealize.ShloMosaic Idealize.ShloMosaic.TcCoe Idealize.SL.Sem Idealize.ShloMosaic.StableHlo

variable {F : FTy → Type} [FloatOps F]

/-- The whole line at the result buffer: the prefix of all 184 operations, read at the last written buffer. -/
theorem after_main_v99 (V : Valuation τ sig (Elt F)) :
    after (opsPre (F := F)) V (Proc.devRef .tc main_v99) = res_main_v99 (V (Proc.devRef .tc main_arg0)) (V (Proc.devRef .tc main_arg1)) (V (Proc.devRef .tc main_arg2)) (V (Proc.devRef .tc main_arg3)) (V (Proc.devRef .tc main_arg4)) := by
  rw [← theOps_eq, ← pre_all theOps V 184 (Nat.le_of_eq theOps_length)]
  exact at_main_v99 V 184 (by decide)

/-! The whole line at an argument: no operation writes it. -/
theorem after_main_arg0 (V : Valuation τ sig (Elt F)) : after (opsPre (F := F)) V (Proc.devRef .tc main_arg0) = V (Proc.devRef .tc main_arg0) := by
  rw [← theOps_eq, ← pre_all theOps V 184 (Nat.le_of_eq theOps_length)]
  exact at_main_arg0 V 184
theorem after_main_arg1 (V : Valuation τ sig (Elt F)) : after (opsPre (F := F)) V (Proc.devRef .tc main_arg1) = V (Proc.devRef .tc main_arg1) := by
  rw [← theOps_eq, ← pre_all theOps V 184 (Nat.le_of_eq theOps_length)]
  exact at_main_arg1 V 184
theorem after_main_arg2 (V : Valuation τ sig (Elt F)) : after (opsPre (F := F)) V (Proc.devRef .tc main_arg2) = V (Proc.devRef .tc main_arg2) := by
  rw [← theOps_eq, ← pre_all theOps V 184 (Nat.le_of_eq theOps_length)]
  exact at_main_arg2 V 184
theorem after_main_arg3 (V : Valuation τ sig (Elt F)) : after (opsPre (F := F)) V (Proc.devRef .tc main_arg3) = V (Proc.devRef .tc main_arg3) := by
  rw [← theOps_eq, ← pre_all theOps V 184 (Nat.le_of_eq theOps_length)]
  exact at_main_arg3 V 184
theorem after_main_arg4 (V : Valuation τ sig (Elt F)) : after (opsPre (F := F)) V (Proc.devRef .tc main_arg4) = V (Proc.devRef .tc main_arg4) := by
  rw [← theOps_eq, ← pre_all theOps V 184 (Nat.le_of_eq theOps_length)]
  exact at_main_arg4 V 184

theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
set_option maxHeartbeats 4000000 in
/-- @main is the straight line of its operations: both sides are one chain of host steps once the parts, the outlined
    functions' bodies and the sequencing are unfolded. -/
theorem main_eq (c : Dev nD) : main (F := F) c = seq opsPre := rfl

/-- On every device, for any float values, from any memory with zero counters: every weakly fair execution of @main terminates
    with the result buffer at its stage of the arguments' launch contents, and the five arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v99) = res_main_v99 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v99).trans (after_main_v99 _), (h c main_arg0).trans (after_main_arg0 _), (h c main_arg1).trans (after_main_arg1 _), (h c main_arg2).trans (after_main_arg2 _), (h c main_arg3).trans (after_main_arg3 _), (h c main_arg4).trans (after_main_arg4 _)⟩)
    (run_seq scopedRefs_eq scopedSems_eq defs main (fun _ => opsPre) main_eq (fun _ => ops_sub) m ρ
      (fun _ => List.forall_iff_forall_mem.1 ops_fresh))

end Cert.ReferenceIdeal.Hand

end
-- ==== Proof.Spec.lean ====
/-
  The mathematics of the two programs as plain functions over finite index types, on the extended reals.
  Both programs normalise the rows of the two views, stack them into 8192 unit rows, and compare every pair of rows:
  a pair (i, j), i ≠ j, counts when row j's hard prototype is among row i's negatives, with weight
  exp(⟨o_i, o_j⟩ / τ) times a Gaussian-like reweighting of the prototype distance of the two rows' hard prototypes.
  The reference computes the reweighting from 8192 × 8192 row statistics (minimum, maximum, mean, unbiased deviation of each
  row of prototype distances, the diagonal forced to 0); the kernel computes the same statistics per PROTOTYPE from the
  prototypes' multiplicities, tabulates the reweighting over pairs of prototypes, sums over all pairs blockwise and removes
  the diagonal afterwards. Everything below is a definition; nothing is proved here.
-/
import Idealize.ShloMosaic.PureOps.Ideal

noncomputable section

open scoped BigOperators

namespace Cert.Spec

open Idealize.ShloMosaic

/-- The norm floor, the temperature (the binary value of the f32 literal 0.2) and its exact reciprocal. -/
abbrev eps : EReal := Ideal.ofBits .f32 0x2B8CBCCC#32
abbrev tau : EReal := Ideal.ofBits .f32 0x3E4CCCCD#32
abbrev kappa : EReal := ((67108864 / 13421773 : ℝ) : EReal)

/-- A row's Euclidean norm, floored. -/
def rowNorm {n : ℕ} (x : Fin n → Fin 256 → EReal) (i : Fin n) : EReal :=
  max (Ideal.sqrt (∑ k, x i k * x i k)) eps
/-- The row divided by its floored norm. -/
def unit {n : ℕ} (x : Fin n → Fin 256 → EReal) (i : Fin n) (k : Fin 256) : EReal :=
  Ideal.div (x i k) (rowNorm x i)
/-- The two views' unit rows stacked: rows 0 … 4095 the first view's, 4096 … 8191 the second's. -/
def out (x xa : Fin 4096 → Fin 256 → EReal) (i : Fin 8192) (k : Fin 256) : EReal :=
  if h : i.val < 4096 then unit x ⟨i.val, h⟩ k else unit xa ⟨i.val - 4096, by omega⟩ k
/-- Inner products of the stacked rows. -/
def gram (o : Fin 8192 → Fin 256 → EReal) (i j : Fin 8192) : EReal := ∑ k, o i k * o j k
/-- Prototype distance: one minus the inner product of two unit prototypes. -/
def pdist (w : Fin 100 → Fin 256 → EReal) (p q : Fin 100) : EReal := 1 - ∑ k, w p k * w q k
/-- The positive pair's similarity, the same for a row of either view. -/
def pos (x xa : Fin 4096 → Fin 256 → EReal) (i : Fin 8192) : EReal :=
  Ideal.exp (Ideal.div (∑ k, unit x ⟨i.val % 4096, Nat.mod_lt _ (by norm_num)⟩ k * unit xa ⟨i.val % 4096, Nat.mod_lt _ (by norm_num)⟩ k) tau)
/-- The loss from the positives and the one denominator. -/
def loss (ps : Fin 8192 → EReal) (den : EReal) : EReal :=
  Ideal.div (∑ i, -(Ideal.log (Ideal.div (ps i) den))) 8192

/-! ## The reference: row statistics over all 8192 columns -/

section Ref
variable (G : Fin 8192 → Fin 8192 → EReal) (pd : Fin 100 → Fin 100 → EReal) (hq : Fin 8192 → Fin 100) (mem : Fin 8192 → Fin 100 → Bool)

/-- Row i's prototype distances to every column, the diagonal forced to zero. -/
def R (i j : Fin 8192) : EReal := if i = j then 0 else pd (hq i) (hq j)
def rmin (i : Fin 8192) : EReal := Finset.univ.inf fun j => R pd hq i j
def rmax (i : Fin 8192) : EReal := Finset.univ.sup fun j => R pd hq i j
/-- Row i rescaled to [0, 1]. -/
def Rn (i j : Fin 8192) : EReal := Ideal.div (R pd hq i j - rmin pd hq i) (rmax pd hq i - rmin pd hq i)
def mu (i : Fin 8192) : EReal := Ideal.div (∑ j, Rn pd hq i j) 8192
/-- Unbiased deviation of the rescaled row (around its own mean). -/
def sd (i : Fin 8192) : EReal :=
  Ideal.sqrt (Ideal.div (∑ j, (Rn pd hq i j - mu pd hq i) * (Rn pd hq i j - mu pd hq i)) 8191)
/-- The reweighting of pair (i, j): row i's rescaled distance against COLUMN j's mean and deviation. -/
def E (i j : Fin 8192) : EReal :=
  Ideal.exp (Ideal.div ((Rn pd hq i j - mu pd hq j) * (Rn pd hq i j - mu pd hq j)) (2 * (sd pd hq j * sd pd hq j)))
def refDenom : EReal :=
  ∑ i, ∑ j, if (i ≠ j ∧ mem i (hq j) = true) then Ideal.exp (Ideal.div (G i j) tau) * E pd hq i j else 0

end Ref

/-! ## The kernel: the same statistics per prototype, from multiplicities -/

section Ker
variable (G : Fin 8192 → Fin 8192 → EReal) (pd : Fin 100 → Fin 100 → EReal) (hq : Fin 8192 → Fin 100) (mem : Fin 8192 → Fin 100 → Bool)

/-- Row j has hard prototype q, as 1 or 0. -/
def oh (j : Fin 8192) (q : Fin 100) : EReal := if hq j = q then 1 else 0
/-- How many rows have hard prototype q. -/
def cnt (q : Fin 100) : EReal := ∑ j, oh hq j q
/-- For a row of prototype p: how many OTHER rows have prototype q. -/
def cadj (p q : Fin 100) : EReal := cnt hq q - (if p = q then 1 else 0)
def minval (p : Fin 100) : EReal := min (Finset.univ.inf fun q => if 0 < cadj hq p q then pd p q else ⊤) 0
def maxval (p : Fin 100) : EReal := max (Finset.univ.sup fun q => if 0 < cadj hq p q then pd p q else ⊥) 0
def mean (p : Fin 100) : EReal := Ideal.div (∑ q, cadj hq p q * pd p q) 8192
def var (p : Fin 100) : EReal :=
  max (Ideal.div ((∑ q, cadj hq p q * ((pd p q - mean pd hq p) * (pd p q - mean pd hq p))) + mean pd hq p * mean pd hq p) 8191) 0
def stdk (p : Fin 100) : EReal := Ideal.sqrt (var pd hq p)
def ka (p : Fin 100) : EReal := Ideal.div 1 (maxval pd hq p - minval pd hq p)
def kb (p : Fin 100) : EReal := (-(minval pd hq p)) * ka pd hq p
def muk (p : Fin 100) : EReal := (mean pd hq p - minval pd hq p) * ka pd hq p
def s1 (p : Fin 100) : EReal := stdk pd hq p * ka pd hq p
def inv2 (p : Fin 100) : EReal := Ideal.div 1 (2 * s1 pd hq p * s1 pd hq p)
/-- The reweighting table over pairs of prototypes. -/
def W (p q : Fin 100) : EReal :=
  Ideal.exp (((ka pd hq p * pd p q + kb pd hq p) - muk pd hq q) * ((ka pd hq p * pd p q + kb pd hq p) - muk pd hq q) * inv2 pd hq q)
/-- Row i's table row, masked by its negatives. -/
def vtab (i : Fin 8192) (q : Fin 100) : EReal := (if mem i q = true then 1 else 0) * W pd hq (hq i) q
/-- Row r of block b. -/
def row (b : Fin 8) (r : Fin 1024) : Fin 8192 := ⟨b.val * 1024 + r.val, by omega⟩
/-- What grid point (bi, bj) adds to block bi's accumulator. -/
def tile (bi bj : Fin 8) : EReal :=
  ∑ r : Fin 1024, ∑ q : Fin 100, vtab pd hq mem (row bi r) q * ∑ s : Fin 1024, Ideal.exp (G (row bi r) (row bj s) * kappa) * oh hq (row bj s) q
def kerAcc : EReal := ∑ bi : Fin 8, ∑ bj : Fin 8, tile G pd hq mem bi bj
def kerDiag : EReal := ∑ i, Ideal.exp (Ideal.div (G i i) tau) * ∑ q, vtab pd hq mem i q * oh hq i q
def kerDenom : EReal := kerAcc G pd hq mem - kerDiag G pd hq mem

end Ker

end Cert.Spec

end
-- ==== Proof.Conv.lean ====
/-
  Argument arrays as the plain functions the specification is written over: a rank-2 float array as a matrix; the
  [2, 4096] words of hard prototype ids, row-major, as 8192 ids in [0, 100) (the word modulo 100: under the precondition
  the word itself); the [2, 4096, 10] negative ids as the membership "prototype q is among row i's ten negatives".
-/
import Idealize.ShloMosaic.Lib.ValueIdx
import proofs.«427632_j79637283602625_3_alg».proof.Proof.Spec

noncomputable section

namespace Cert.Conv

open Idealize.ShloMosaic Idealize.ShloMosaic.ValueIdx

def mat {a b : ℕ} (v : (⟨2, ![a, b]⟩ : Shape).Idx → EReal) (i : Fin a) (k : Fin b) : EReal := v (ix2 i k)

def hqOf (h : IVec (⟨2, ![2, 4096]⟩ : Shape) 32) (j : Fin 8192) : Fin 100 :=
  ⟨(h (ix2 (⟨j.val / 4096, by omega⟩ : Fin 2) (⟨j.val % 4096, Nat.mod_lt _ (by norm_num)⟩ : Fin 4096))).toNat % 100, Nat.mod_lt _ (by norm_num)⟩

def memOf (nq : IVec (⟨3, ![2, 4096, 10]⟩ : Shape) 32) (i : Fin 8192) (q : Fin 100) : Bool :=
  decide (∃ k : Fin 10, nq (ix3 (⟨i.val / 4096, by omega⟩ : Fin 2) (⟨i.val % 4096, Nat.mod_lt _ (by norm_num)⟩ : Fin 4096) k) = BitVec.ofNat 32 q.val)

end Cert.Conv

end
-- ==== Proof.ReadLib.lean ====
/-
  Host operations read at an index at the ideal values, over literal shapes: row sums, keepdims broadcasts, the row divided by
  its floored norm, stacked blocks, a transposed matrix, reshapes of the two views' id arrays, a one-bit word as a number,
  and an "or" reduction as an existence.
-/
import Idealize.ShloMosaic.Lib.ValueIdx
import Idealize.ShloMosaic.Lib.IdealHost
import Idealize.ShloMosaic.Lib.Pipeline.Value
import Idealize.ShloMosaic.Lib.Affine
import Idealize.ShloMosaic.PureOps.Ideal.Laws
import Idealize.ShloMosaic.PureOps.Reduce

noncomputable section

open Idealize.ShloMosaic Idealize.ShloMosaic.ValueIdx
open scoped BigOperators

namespace Cert.ReadLib

/-- The host's square root and exponential at an index are the extended reals' functions of the element. -/
theorem hostSqrt_apply {s : Shape} {φ : FTy} (a : FVec Ideal s φ) (j : s.Idx) : Host.sqrt (F := Ideal) a j = Ideal.sqrt (a j) := rfl
theorem hostExp_apply {s : Shape} {φ : FTy} (a : FVec Ideal s φ) (j : s.Idx) : Host.exp (F := Ideal) a j = Ideal.exp (a j) := rfl

/-- A row sum: the reduction of a matrix over its second axis from a zero initial value, read at a row. -/
theorem reduceAdd_row {n m : ℕ} (x : FVec Ideal ⟨2, ![n, m]⟩ .f32) (init : FVec Ideal ⟨0, ![]⟩ .f32)
    (h0 : init ix0 = 0) (hR : (⟨2, ![n, m]⟩ : Shape).ReducesTo [1] ⟨1, ![n]⟩) (hu : 0 < (⟨0, ![]⟩ : Shape).numel) (i : Fin n) :
    Host.reduceAdd (F := Ideal) x init hR hu (ix1 i) = ∑ k : Fin m, x (ix2 i k) := by
  have hR' : (⟨2, ![n, m]⟩ : Shape).Reduces [1] ⟨1, ![n]⟩ := by
    obtain ⟨h, h2⟩ := hR
    exact ⟨h, Nat.one_pos, h2⟩
  have hi : init (Shape.Idx.first hu) = 0 := by
    rw [← h0]; exact congrArg init (funext fun a => a.elim0)
  rw [hostReduceAdd_apply, Ideal.hostReduceAdd_single hR hR', hi, zero_add]
  refine Finset.sum_congr rfl fun k _ => congrArg x ?_
  funext c
  apply Fin.ext
  match c with
  | ⟨0, _⟩ => rfl
  | ⟨1, _⟩ => rfl

/-- A vector made a column (keepdims), read at a row. -/
theorem bcast_vec_col {α : Type} {n : ℕ} (h : (⟨1, ![n]⟩ : Shape).BroadcastsInDim ⟨2, ![n, 1]⟩ ![0])
    (x : (⟨1, ![n]⟩ : Shape).Idx → α) (i : Fin n) (z : Fin 1) :
    broadcastInDim ⟨2, ![n, 1]⟩ ![0] h x (ix2 i z) = x (ix1 i) := by
  refine broadcastInDim_apply ![0] h x (ix2 i z) (ix1 i) (fun a => ?_)
  match a with
  | ⟨0, _⟩ =>
    show i.val = if n = 1 then 0 else i.val
    have := i.isLt
    split <;> omega

/-- A column broadcast along the rows' entries, read at an entry. -/
theorem bcast_col_mat {α : Type} {n m : ℕ} (h : (⟨2, ![n, 1]⟩ : Shape).BroadcastsInDim ⟨2, ![n, m]⟩ ![0, 1])
    (x : (⟨2, ![n, 1]⟩ : Shape).Idx → α) (i : Fin n) (k : Fin m) :
    broadcastInDim ⟨2, ![n, m]⟩ ![0, 1] h x (ix2 i k) = x (ix2 i (0 : Fin 1)) := by
  refine broadcastInDim_apply ![0, 1] h x (ix2 i k) (ix2 i (0 : Fin 1)) (fun a => ?_)
  match a with
  | ⟨0, _⟩ =>
    show i.val = if n = 1 then 0 else i.val
    have := i.isLt
    split <;> omega
  | ⟨1, _⟩ => rfl

/-- A row divided by its floored norm, as the programs spell it, read at an entry. -/
theorem unit_read {n : ℕ} (x : FVec Ideal ⟨2, ![n, 256]⟩ .f32)
    (hR : (⟨2, ![n, 256]⟩ : Shape).ReducesTo [1] ⟨1, ![n]⟩) (hu : 0 < (⟨0, ![]⟩ : Shape).numel)
    (hb1 : (⟨1, ![n]⟩ : Shape).BroadcastsInDim ⟨2, ![n, 1]⟩ ![0])
    (hb0 : (⟨0, ![]⟩ : Shape).BroadcastsInDim ⟨2, ![n, 1]⟩ ![])
    (hb2 : (⟨2, ![n, 1]⟩ : Shape).BroadcastsInDim ⟨2, ![n, 256]⟩ ![0, 1]) (i : Fin n) (k : Fin 256) :
    Host.divf (F := Ideal) x (broadcastInDim ⟨2, ![n, 256]⟩ ![0, 1] hb2
      (maximumf (F := Ideal) (Host.sqrt (F := Ideal) (broadcastInDim ⟨2, ![n, 1]⟩ ![0] hb1
          (Host.reduceAdd (F := Ideal) (mulf x x) (constant (F := Ideal) ⟨0, ![]⟩ .f32 0x00000000#32) hR hu)))
        (broadcastInDim ⟨2, ![n, 1]⟩ ![] hb0 (constant (F := Ideal) ⟨0, ![]⟩ .f32 0x2B8CBCCC#32)))) (ix2 i k)
      = Ideal.div (x (ix2 i k)) (max (Ideal.sqrt (∑ k', x (ix2 i k') * x (ix2 i k'))) (Ideal.ofBits .f32 0x2B8CBCCC#32)) := by
  rw [hostDivf_apply, bcast_col_mat, maximumf_apply, hostSqrt_apply, bcast_vec_col, broadcastInDim_scalar_apply,
    reduceAdd_row _ _ Ideal.ofBits_zero_f32]
  rfl

/-- Two stacked blocks of rows read at a row of the first block … -/
theorem concat_rows_left {α : Type} {n m N : ℕ}
    (h : Shape.Concatenates [(⟨2, ![n, m]⟩ : Shape), ⟨2, ![n, m]⟩] ⟨2, ![N, m]⟩ 0)
    (x₁ x₂ : (⟨2, ![n, m]⟩ : Shape).Idx → α) (i : Fin N) (k : Fin m) (hi : i.val < n) :
    concatenate ⟨2, ![N, m]⟩ 0 [⟨⟨2, ![n, m]⟩, x₁⟩, ⟨⟨2, ![n, m]⟩, x₂⟩] h (ix2 i k) = x₁ (ix2 ⟨i.val, hi⟩ k) := by
  refine concatenate_pair_apply_left 0 x₁ x₂ h (ix2 i k) rfl (ix2 ⟨i.val, hi⟩ k) (fun b => ?_)
  match b with
  | ⟨0, _⟩ => rfl
  | ⟨1, _⟩ => rfl

/-- … and at a row of the second. -/
theorem concat_rows_right {α : Type} {n m N : ℕ}
    (h : Shape.Concatenates [(⟨2, ![n, m]⟩ : Shape), ⟨2, ![n, m]⟩] ⟨2, ![N, m]⟩ 0)
    (x₁ x₂ : (⟨2, ![n, m]⟩ : Shape).Idx → α) (i : Fin N) (k : Fin m) (hi : n ≤ i.val) (hlt : i.val - n < n) :
    concatenate ⟨2, ![N, m]⟩ 0 [⟨⟨2, ![n, m]⟩, x₁⟩, ⟨⟨2, ![n, m]⟩, x₂⟩] h (ix2 i k) = x₂ (ix2 ⟨i.val - n, hlt⟩ k) := by
  refine concatenate_pair_apply_right 0 x₁ x₂ h (ix2 i k) rfl rfl (ix2 ⟨i.val - n, hlt⟩ k) (fun b hb => ?_) ?_
  · match b with
    | ⟨0, _⟩ => exact absurd rfl hb
    | ⟨1, _⟩ => rfl
  · show (i.val - n) + n = i.val
    omega

/-- Two stacked vectors read in the first … -/
theorem concat_vec_left {α : Type} {n N : ℕ}
    (h : Shape.Concatenates [(⟨1, ![n]⟩ : Shape), ⟨1, ![n]⟩] ⟨1, ![N]⟩ 0)
    (x₁ x₂ : (⟨1, ![n]⟩ : Shape).Idx → α) (i : Fin N) (hi : i.val < n) :
    concatenate ⟨1, ![N]⟩ 0 [⟨⟨1, ![n]⟩, x₁⟩, ⟨⟨1, ![n]⟩, x₂⟩] h (ix1 i) = x₁ (ix1 ⟨i.val, hi⟩) := by
  refine concatenate_pair_apply_left 0 x₁ x₂ h (ix1 i) rfl (ix1 ⟨i.val, hi⟩) (fun b => ?_)
  match b with
  | ⟨0, _⟩ => rfl

/-- … and in the second. -/
theorem concat_vec_right {α : Type} {n N : ℕ}
    (h : Shape.Concatenates [(⟨1, ![n]⟩ : Shape), ⟨1, ![n]⟩] ⟨1, ![N]⟩ 0)
    (x₁ x₂ : (⟨1, ![n]⟩ : Shape).Idx → α) (i : Fin N) (hi : n ≤ i.val) (hlt : i.val - n < n) :
    concatenate ⟨1, ![N]⟩ 0 [⟨⟨1, ![n]⟩, x₁⟩, ⟨⟨1, ![n]⟩, x₂⟩] h (ix1 i) = x₂ (ix1 ⟨i.val - n, hlt⟩) := by
  refine concatenate_pair_apply_right 0 x₁ x₂ h (ix1 i) rfl rfl (ix1 ⟨i.val - n, hlt⟩) (fun b hb => ?_) ?_
  · match b with
    | ⟨0, _⟩ => exact absurd rfl hb
  · show (i.val - n) + n = i.val
    omega

/-- A transposed matrix read at an entry. -/
theorem transpose_mat {α : Type} {n m : ℕ} (h : (⟨2, ![n, m]⟩ : Shape).Transposes [1, 0] ⟨2, ![m, n]⟩)
    (x : (⟨2, ![n, m]⟩ : Shape).Idx → α) (k : Fin m) (q : Fin n) :
    transpose ⟨2, ![m, n]⟩ [1, 0] x h (ix2 k q) = x (ix2 q k) := by
  refine transpose_apply [1, 0] x h (ix2 k q) (ix2 q k) (fun b => ?_)
  match b with
  | ⟨0, _⟩ => rfl
  | ⟨1, _⟩ => rfl

/-- The two views' ids, [2, 4096] row-major, as 8192 ids. -/
theorem shapeCast_pair_flat {α : Type} (h : (⟨2, ![2, 4096]⟩ : Shape).ShapeCasts ⟨1, ![8192]⟩)
    (x : (⟨2, ![2, 4096]⟩ : Shape).Idx → α) (j : Fin 8192) :
    shapeCast ⟨1, ![8192]⟩ x h (ix1 j)
      = x (ix2 (⟨j.val / 4096, by have := j.isLt; omega⟩ : Fin 2) (⟨j.val % 4096, Nat.mod_lt _ (by norm_num)⟩ : Fin 4096)) := by
  refine shapeCast_apply x h (ix1 j) _ ?_
  rw [Shape.rowMajor_val_two, Shape.rowMajor_val_one]
  show j.val / 4096 * 4096 + j.val % 4096 = j.val
  omega

/-- The two views' negatives, [2, 4096, 10] row-major, as 8192 rows of ten. -/
theorem shapeCast_triple_flat {α : Type} (h : (⟨3, ![2, 4096, 10]⟩ : Shape).ShapeCasts ⟨2, ![8192, 10]⟩)
    (x : (⟨3, ![2, 4096, 10]⟩ : Shape).Idx → α) (i : Fin 8192) (t : Fin 10) :
    shapeCast ⟨2, ![8192, 10]⟩ x h (ix2 i t)
      = x (ix3 (⟨i.val / 4096, by have := i.isLt; omega⟩ : Fin 2) (⟨i.val % 4096, Nat.mod_lt _ (by norm_num)⟩ : Fin 4096) t) := by
  refine shapeCast_apply x h (ix2 i t) _ ?_
  rw [Shape.rowMajor_val_three, Shape.rowMajor_val_two]
  show (i.val / 4096 * 4096 + i.val % 4096) * 10 + t.val = i.val * 10 + t.val
  omega

/-- A vector made a one-row matrix, read at an entry. -/
theorem bcast_vec_row {α : Type} {m : ℕ} (h : (⟨1, ![m]⟩ : Shape).BroadcastsInDim ⟨2, ![1, m]⟩ ![1])
    (x : (⟨1, ![m]⟩ : Shape).Idx → α) (z : Fin 1) (q : Fin m) :
    broadcastInDim ⟨2, ![1, m]⟩ ![1] h x (ix2 z q) = x (ix1 q) := by
  refine broadcastInDim_apply ![1] h x (ix2 z q) (ix1 q) (fun a => ?_)
  match a with
  | ⟨0, _⟩ =>
    show q.val = if m = 1 then 0 else q.val
    have := q.isLt
    split <;> omega

/-- A one-row matrix broadcast down the rows, read at an entry. -/
theorem bcast_row_mat {α : Type} {n m : ℕ} (h : (⟨2, ![1, m]⟩ : Shape).BroadcastsInDim ⟨2, ![n, m]⟩ ![0, 1])
    (x : (⟨2, ![1, m]⟩ : Shape).Idx → α) (i : Fin n) (q : Fin m) :
    broadcastInDim ⟨2, ![n, m]⟩ ![0, 1] h x (ix2 i q) = x (ix2 (0 : Fin 1) q) := by
  refine broadcastInDim_apply ![0, 1] h x (ix2 i q) (ix2 (0 : Fin 1) q) (fun a => ?_)
  match a with
  | ⟨0, _⟩ => rfl
  | ⟨1, _⟩ =>
    show q.val = if m = 1 then 0 else q.val
    have := q.isLt
    split <;> omega

/-- A matrix given a trailing unit axis, read at an entry. -/
theorem bcast_mat_unit {α : Type} {n m : ℕ} (h : (⟨2, ![n, m]⟩ : Shape).BroadcastsInDim ⟨3, ![n, m, 1]⟩ ![0, 1])
    (x : (⟨2, ![n, m]⟩ : Shape).Idx → α) (i : Fin n) (t : Fin m) (z : Fin 1) :
    broadcastInDim ⟨3, ![n, m, 1]⟩ ![0, 1] h x (ix3 i t z) = x (ix2 i t) := by
  refine broadcastInDim_apply ![0, 1] h x (ix3 i t z) (ix2 i t) (fun a => ?_)
  match a with
  | ⟨0, _⟩ =>
    show i.val = if n = 1 then 0 else i.val
    have := i.isLt
    split <;> omega
  | ⟨1, _⟩ =>
    show t.val = if m = 1 then 0 else t.val
    have := t.isLt
    split <;> omega

/-- A vector placed on the last of three axes, read at an entry. -/
theorem bcast_vec_last {α : Type} {r : ℕ} (h : (⟨1, ![r]⟩ : Shape).BroadcastsInDim ⟨3, ![1, 1, r]⟩ ![2])
    (x : (⟨1, ![r]⟩ : Shape).Idx → α) (z z' : Fin 1) (q : Fin r) :
    broadcastInDim ⟨3, ![1, 1, r]⟩ ![2] h x (ix3 z z' q) = x (ix1 q) := by
  refine broadcastInDim_apply ![2] h x (ix3 z z' q) (ix1 q) (fun a => ?_)
  match a with
  | ⟨0, _⟩ =>
    show q.val = if r = 1 then 0 else q.val
    have := q.isLt
    split <;> omega

/-- A trailing unit axis broadcast to r entries, read at an entry. -/
theorem bcast_unit_last {α : Type} {n m r : ℕ} (h : (⟨3, ![n, m, 1]⟩ : Shape).BroadcastsInDim ⟨3, ![n, m, r]⟩ ![0, 1, 2])
    (x : (⟨3, ![n, m, 1]⟩ : Shape).Idx → α) (i : Fin n) (t : Fin m) (q : Fin r) :
    broadcastInDim ⟨3, ![n, m, r]⟩ ![0, 1, 2] h x (ix3 i t q) = x (ix3 i t (0 : Fin 1)) := by
  refine broadcastInDim_apply ![0, 1, 2] h x (ix3 i t q) (ix3 i t (0 : Fin 1)) (fun a => ?_)
  match a with
  | ⟨0, _⟩ =>
    show i.val = if n = 1 then 0 else i.val
    have := i.isLt
    split <;> omega
  | ⟨1, _⟩ =>
    show t.val = if m = 1 then 0 else t.val
    have := t.isLt
    split <;> omega
  | ⟨2, _⟩ => rfl

/-- Two leading unit axes broadcast to n and m entries, read at an entry. -/
theorem bcast_unit_lead {α : Type} {n m r : ℕ} (h : (⟨3, ![1, 1, r]⟩ : Shape).BroadcastsInDim ⟨3, ![n, m, r]⟩ ![0, 1, 2])
    (x : (⟨3, ![1, 1, r]⟩ : Shape).Idx → α) (i : Fin n) (t : Fin m) (q : Fin r) :
    broadcastInDim ⟨3, ![n, m, r]⟩ ![0, 1, 2] h x (ix3 i t q) = x (ix3 (0 : Fin 1) (0 : Fin 1) q) := by
  refine broadcastInDim_apply ![0, 1, 2] h x (ix3 i t q) (ix3 (0 : Fin 1) (0 : Fin 1) q) (fun a => ?_)
  match a with
  | ⟨0, _⟩ => rfl
  | ⟨1, _⟩ => rfl
  | ⟨2, _⟩ =>
    show q.val = if r = 1 then 0 else q.val
    have := q.isLt
    split <;> omega

/-- An integer comparison and an unsigned conversion at an index act on the element. -/
theorem cmpi_apply {s : Shape} {w : ℕ} (p : CmpIPredicate) (x y : IVec s w) (j : s.Idx) :
    cmpi p x y j = IntOp.cmpi p (x j) (y j) := rfl
theorem uitofp_apply {s : Shape} {w : ℕ} (x : IVec s w) (j : s.Idx) :
    (uitofp .f32 x : FVec Ideal s .f32) j = FloatOps.uitofp (F := Ideal) .f32 (x j) := rfl

/-- A one-bit word as a number is 1 or 0. -/
theorem uitofp_bit (b : BitVec 1) : (FloatOps.uitofp (F := Ideal) .f32 b : EReal) = if b = 1#1 then 1 else 0 := by
  rcases BitVec.eq_zero_or_eq_one b with h | h
  · subst h
    show (((0#1 : BitVec 1).toNat : ℝ) : EReal) = _
    simp
  · subst h
    show (((1#1 : BitVec 1).toNat : ℝ) : EReal) = _
    simp

/-- A fold by "or" from 0 is 1 exactly when some term is 1. -/
theorem fold_ori_eq_one {ι : Type} [DecidableEq ι] (s : Finset ι) (f : ι → BitVec 1) :
    s.fold IntOp.ori 0#1 f = 1#1 ↔ ∃ t ∈ s, f t = 1#1 := by
  induction s using Finset.induction_on with
  | empty => simp
  | insert a s ha ih =>
    rw [Finset.fold_insert ha, IntOp.ori_eq_one, ih]
    constructor
    · rintro (h | ⟨t, ht, h⟩)
      · exact ⟨a, Finset.mem_insert_self _ _, h⟩
      · exact ⟨t, Finset.mem_insert_of_mem ht, h⟩
    · rintro ⟨t, ht, h⟩
      rcases Finset.mem_insert.1 ht with rfl | ht
      · exact Or.inl h
      · exact Or.inr ⟨t, ht, h⟩

/-- An "or" reduction over the middle of three axes from 0 is 1 exactly when some entry along that axis is 1. -/
theorem reduceOr_mid {n m r : ℕ} (x : IVec ⟨3, ![n, m, r]⟩ 1) (init : IVec ⟨0, ![]⟩ 1) (h0 : init ix0 = 0#1)
    (hR : (⟨3, ![n, m, r]⟩ : Shape).ReducesTo [1] ⟨2, ![n, r]⟩) (hu : 0 < (⟨0, ![]⟩ : Shape).numel) (i : Fin n) (q : Fin r) :
    Host.reduce IntOp.ori x init hR hu (ix2 i q) = 1#1 ↔ ∃ t : Fin m, x (ix3 i t q) = 1#1 := by
  have hR' : (⟨3, ![n, m, r]⟩ : Shape).Reduces [1] ⟨2, ![n, r]⟩ := by
    obtain ⟨h, h2⟩ := hR
    exact ⟨h, Nat.two_pos, h2⟩
  have hi : init (Shape.Idx.first hu) = 0#1 := by
    rw [← h0]; exact congrArg init (funext fun a => a.elim0)
  have hl : ∀ t : Fin m, hR'.lift (ix2 i q) t = ix3 i t q := by
    intro t
    funext c
    apply Fin.ext
    match c with
    | ⟨0, _⟩ => rfl
    | ⟨1, _⟩ => rfl
    | ⟨2, _⟩ => rfl
  rw [Host.reduce_eq_fold_single IntOp.ori x init hR hR' hu, hi, fold_ori_eq_one]
  constructor
  · rintro ⟨t, _, ht⟩
    exact ⟨t, by rw [← hl t]; exact ht⟩
  · rintro ⟨t, ht⟩
    exact ⟨t, Finset.mem_univ _, by rw [← hl t] at ht; exact ht⟩

end Cert.ReadLib

end
-- ==== Proof.KIReadA.lean ====
/-
  Stages of the kernel-side program read at an index at the ideal values: the stacked unit rows, the positive pairs'
  similarities, the prototype distances, the one-hot matrix of hard prototypes (in both its formats), and the membership
  of a prototype among a row's negatives as 1 or 0.
-/
import proofs.«427632_j79637283602625_3_alg».proof.Proof.KIStages
import proofs.«427632_j79637283602625_3_alg».proof.Proof.Conv
import proofs.«427632_j79637283602625_3_alg».proof.Proof.Gen.KernelIdeal
import proofs.«427632_j79637283602625_3_alg».proof.Proof.ReadLib
import Idealize.ShloMosaic.Lib.ValueIdx
import Idealize.ShloMosaic.Lib.IdealHost
import Idealize.ShloMosaic.Lib.StackMember
import Idealize.ShloMosaic.Lib.Affine

noncomputable section

open Cert.KernelIdeal Cert.KernelIdeal.Stages Idealize.ShloMosaic Idealize.ShloMosaic.ValueIdx Cert
open scoped BigOperators

namespace Cert.KernelIdeal.Read

open Cert.ReadLib
open Cert.KernelIdeal.Facts₀ Cert.KernelIdeal.Facts

variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal))

/-- The first view's unit rows, the second view's, and the unit prototypes. -/
theorem v4_read (i : Fin 4096) (k : Fin 256) :
    res_main_v4 (F := Ideal) a0 a1 a2 a3 a4 (ix2 i k) = Spec.unit (Conv.mat a0) i k :=
  unit_read a0 _ _ _ _ _ i k

theorem v9_read (i : Fin 4096) (k : Fin 256) :
    res_main_v9 (F := Ideal) a0 a1 a2 a3 a4 (ix2 i k) = Spec.unit (Conv.mat a1) i k :=
  unit_read a1 _ _ _ _ _ i k

theorem v31_read (p : Fin 100) (k : Fin 256) :
    res_main_v31 (F := Ideal) a0 a1 a2 a3 a4 (ix2 p k) = Spec.unit (Conv.mat a2) p k :=
  unit_read a2 _ _ _ _ _ p k

theorem out_read (i : Fin 8192) (k : Fin 256) : res_main_v109 (F := Ideal) a0 a1 a2 a3 a4 (ix2 i k) = Spec.out (Conv.mat a0) (Conv.mat a1) i k := by
  have hi8 := i.isLt
  show concatenate S8192x256 0 [⟨S4096x256, res_main_v4 (F := Ideal) a0 a1 a2 a3 a4⟩, ⟨S4096x256, res_main_v9 (F := Ideal) a0 a1 a2 a3 a4⟩]
      concatenates_S4096x256_S4096x256_S8192x256_d0 (ix2 i k) = _
  unfold Spec.out
  split
  · next hi => rw [concat_rows_left _ _ _ i k hi, v4_read]
  · next hi => rw [concat_rows_right _ _ _ i k (by omega) (by omega), v9_read]

/-- The positive pair's similarity before the stacking: the exponential of the two views' row product over the temperature. -/
theorem v114_read (j : Fin 4096) :
    res_main_v114 (F := Ideal) a0 a1 a2 a3 a4 (ix1 j)
      = Ideal.exp (Ideal.div (∑ k, Spec.unit (Conv.mat a0) j k * Spec.unit (Conv.mat a1) j k) Spec.tau) := by
  simp only [res_main_v114, res_main_v113, res_main_v112, res_main_v111, res_main_v110, res_main_cst_22, res_main_cst_23]
  rw [hostExp_apply, hostDivf_apply, reduceAdd_row _ _ Ideal.ofBits_zero_f32, broadcastInDim_scalar_apply]
  simp only [mulf_apply, v4_read, v9_read]
  rfl

theorem pos_read (i : Fin 8192) : res_main_v115 (F := Ideal) a0 a1 a2 a3 a4 (ix1 i) = Spec.pos (Conv.mat a0) (Conv.mat a1) i := by
  have hi8 := i.isLt
  have key : ∀ j : Fin 4096, j.val = i.val % 4096 →
      res_main_v114 (F := Ideal) a0 a1 a2 a3 a4 (ix1 j) = Spec.pos (Conv.mat a0) (Conv.mat a1) i := by
    intro j hj
    have hj' : j = ⟨i.val % 4096, Nat.mod_lt _ (by norm_num)⟩ := Fin.ext hj
    rw [v114_read, hj']
    rfl
  show concatenate S8192 0 [⟨S4096, res_main_v114 (F := Ideal) a0 a1 a2 a3 a4⟩, ⟨S4096, res_main_v114 (F := Ideal) a0 a1 a2 a3 a4⟩]
      concatenates_S4096_S4096_S8192_d0 (ix1 i) = _
  by_cases hi : i.val < 4096
  · rw [concat_vec_left _ _ _ i hi]
    exact key _ (by show i.val = i.val % 4096; omega)
  · rw [concat_vec_right _ _ _ i (by omega) (by omega)]
    exact key _ (by show i.val - 4096 = i.val % 4096; omega)

theorem pd_read (p q : Fin 100) : res_main_v35 (F := Ideal) a0 a1 a2 a3 a4 (ix2 p q) = Spec.pdist (Spec.unit (Conv.mat a2)) p q := by
  simp only [res_main_v35, res_main_v34, res_main_cst_2, res_main_v33, res_main_v32]
  rw [subf_apply, broadcastInDim_scalar_apply, constant_apply, Ideal.ofBits_one_f32]
  have hdot : Host.dotGeneral (F := Ideal) (φ₁ := .f32) (φ₂ := .f32) dot_S100x256_S256x100_S100x100_1_0_0_1_n_n (some .fp32)
        (res_main_v31 (F := Ideal) a0 a1 a2 a3 a4)
        (transpose S256x100 [1, 0] (res_main_v31 (F := Ideal) a0 a1 a2 a3 a4) transposes_S100x256_S256x100_1_0) (ix2 p q)
      = ∑ c : Fin 256, res_main_v31 (F := Ideal) a0 a1 a2 a3 a4 (ix2 p c)
          * transpose S256x100 [1, 0] (res_main_v31 (F := Ideal) a0 a1 a2 a3 a4) transposes_S100x256_S256x100_1_0 (ix2 c q) :=
    StackMember.dotGeneral_plain_apply (φ₁ := .f32) (φ₂ := .f32) (some .fp32) (res_main_v31 (F := Ideal) a0 a1 a2 a3 a4)
      (transpose S256x100 [1, 0] (res_main_v31 (F := Ideal) a0 a1 a2 a3 a4) transposes_S100x256_S256x100_1_0) p q
  rw [hdot]
  unfold Spec.pdist
  congr 1
  refine Finset.sum_congr rfl fun c _ => ?_
  rw [transpose_mat, v31_read, v31_read]

/-- Row j's hard-prototype word (the reshaped input, broadcast along the prototypes) and the prototype's number. -/
theorem v23_read (j : Fin 8192) (q : Fin 100) :
    res_main_v23 (F := Ideal) a0 a1 a2 a3 a4 (ix2 j q)
      = a3 (ix2 (⟨j.val / 4096, by have := j.isLt; omega⟩ : Fin 2) (⟨j.val % 4096, Nat.mod_lt _ (by norm_num)⟩ : Fin 4096)) := by
  simp only [res_main_v23, res_main_v21, res_main_v11]
  rw [bcast_col_mat, bcast_vec_col, shapeCast_pair_flat]

theorem v24_read (j : Fin 8192) (q : Fin 100) :
    res_main_v24 (F := Ideal) a0 a1 a2 a3 a4 (ix2 j q) = BitVec.ofNat 32 q.val := by
  simp only [res_main_v24, res_main_v22, res_main_v13]
  rw [bcast_row_mat, bcast_vec_row]
  rfl

/-- The one-hot matrix: 1 where the row's word is the prototype's number. -/
theorem v26_read (j : Fin 8192) (q : Fin 100) :
    res_main_v26 (F := Ideal) a0 a1 a2 a3 a4 (ix2 j q)
      = if a3 (ix2 (⟨j.val / 4096, by have := j.isLt; omega⟩ : Fin 2) (⟨j.val % 4096, Nat.mod_lt _ (by norm_num)⟩ : Fin 4096))
          = BitVec.ofNat 32 q.val then 1 else 0 := by
  simp only [res_main_v26, res_main_v25]
  rw [uitofp_apply, uitofp_bit, cmpi_apply, v23_read, v24_read]
  simp only [IntOp.cmpi_eq]

/-- Under the range hypothesis the id modulo 100 is the word itself. -/
theorem hq_iff (hr : ∀ i, (a3 i).toNat < 100) (j : Fin 8192) (q : Fin 100) :
    Conv.hqOf a3 j = q ↔
      a3 (ix2 (⟨j.val / 4096, by have := j.isLt; omega⟩ : Fin 2) (⟨j.val % 4096, Nat.mod_lt _ (by norm_num)⟩ : Fin 4096))
        = BitVec.ofNat 32 q.val := by
  have hlt := hr (ix2 (⟨j.val / 4096, by have := j.isLt; omega⟩ : Fin 2) (⟨j.val % 4096, Nat.mod_lt _ (by norm_num)⟩ : Fin 4096))
  have hq := q.isLt
  constructor
  · intro h
    have hv : (a3 (ix2 (⟨j.val / 4096, by have := j.isLt; omega⟩ : Fin 2) (⟨j.val % 4096, Nat.mod_lt _ (by norm_num)⟩ : Fin 4096))).toNat % 100
        = q.val := congrArg Fin.val h
    apply BitVec.eq_of_toNat_eq
    rw [BitVec.toNat_ofNat]
    omega
  · intro h
    apply Fin.ext
    show (a3 (ix2 (⟨j.val / 4096, by have := j.isLt; omega⟩ : Fin 2) (⟨j.val % 4096, Nat.mod_lt _ (by norm_num)⟩ : Fin 4096))).toNat % 100 = q.val
    rw [h, BitVec.toNat_ofNat]
    omega

theorem oh_read (hr : ∀ i, (a3 i).toNat < 100) (j : Fin 8192) (q : Fin 100) : res_main_v26 (F := Ideal) a0 a1 a2 a3 a4 (ix2 j q) = Spec.oh (Conv.hqOf a3) j q := by
  rw [v26_read]
  unfold Spec.oh
  by_cases h : Conv.hqOf a3 j = q
  · rw [if_pos h, if_pos ((hq_iff a3 hr j q).1 h)]
  · rw [if_neg h, if_neg (fun h' => h ((hq_iff a3 hr j q).2 h'))]

theorem ohb_read (hr : ∀ i, (a3 i).toNat < 100) (j : Fin 8192) (q : Fin 100) : res_main_v108 (F := Ideal) a0 a1 a2 a3 a4 (ix2 j q) = Spec.oh (Conv.hqOf a3) j q :=
  (show res_main_v108 (F := Ideal) a0 a1 a2 a3 a4 (ix2 j q) = res_main_v26 (F := Ideal) a0 a1 a2 a3 a4 (ix2 j q) from rfl).trans
    (oh_read a0 a1 a2 a3 a4 hr j q)

/-- A decision is true exactly when its proposition holds, whichever decision procedure it was made with. -/
theorem decide_true_iff_of (p : Prop) (inst : Decidable p) : @decide p inst = true ↔ p := @decide_eq_true_iff p inst

/-- Row i's t-th negative against prototype q: 1 exactly when the word is the prototype's number. -/
theorem v18_read (i : Fin 8192) (t : Fin 10) (q : Fin 100) :
    res_main_v18 (F := Ideal) a0 a1 a2 a3 a4 (ix3 i t q) = 1#1 ↔
      a4 (ix3 (⟨i.val / 4096, by have := i.isLt; omega⟩ : Fin 2) (⟨i.val % 4096, Nat.mod_lt _ (by norm_num)⟩ : Fin 4096) t)
        = BitVec.ofNat 32 q.val := by
  simp only [res_main_v18, res_main_v16, res_main_v17, res_main_v14, res_main_v15, res_main_v12, res_main_v13]
  rw [cmpi_apply, IntOp.cmpi_eq, bcast_unit_last, bcast_mat_unit, shapeCast_triple_flat, bcast_unit_lead, bcast_vec_last]
  exact Iff.rfl

theorem mem_read (i : Fin 8192) (q : Fin 100) : res_main_v20 (F := Ideal) a0 a1 a2 a3 a4 (ix2 i q) = if Conv.memOf a4 i q = true then 1 else 0 := by
  simp only [res_main_v20, res_main_v19, res_main_c]
  rw [uitofp_apply, uitofp_bit]
  have key : Host.reduce IntOp.ori (res_main_v18 (F := Ideal) a0 a1 a2 a3 a4) (constantI S_ 1 0#1) reducesTo_S8192x10x100_S8192x100_d1 h_S_ (ix2 i q) = 1#1
      ↔ Conv.memOf a4 i q = true := by
    rw [reduceOr_mid (res_main_v18 (F := Ideal) a0 a1 a2 a3 a4) (constantI S_ 1 0#1) rfl]
    unfold Conv.memOf
    rw [decide_true_iff_of]
    exact exists_congr fun t => v18_read a0 a1 a2 a3 a4 i t q
  by_cases h : Conv.memOf a4 i q = true
  · rw [if_pos h, if_pos (key.2 h)]
  · rw [if_neg h, if_neg (fun h' => h (key.1 h'))]

end Cert.KernelIdeal.Read

end
-- ==== Proof.KIReadB.lean ====
/-
  The prototype statistics of the kernel's host program, read entry by entry.
  From the matrix of prototype distances pd and the one-hot matrix of the rows' hard prototypes, the program counts how many
  rows carry each prototype, subtracts the identity (a row does not count itself), and from these multiplicities computes, for
  every prototype p, the minimum, maximum, mean and unbiased deviation of the distances pd p q weighted by how many other rows
  carry q; it rescales them to the unit interval and tabulates, over pairs of prototypes, the exponential of the squared
  rescaled deviation over twice the variance. Each table is shown to be the specification's function of the same name.
-/
import proofs.«427632_j79637283602625_3_alg».proof.Proof.KIStages
import proofs.«427632_j79637283602625_3_alg».proof.Proof.Conv
import proofs.«427632_j79637283602625_3_alg».proof.Proof.Gen.KernelIdeal
import proofs.«427632_j79637283602625_3_alg».proof.Proof.ReadLib
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open Cert.KernelIdeal Cert.KernelIdeal.Stages Idealize.ShloMosaic Idealize.ShloMosaic.ValueIdx Cert
open scoped BigOperators

namespace Cert.KernelIdeal.Read

/-! ## Constants -/

private theorem c_two : Ideal.ofBits .f32 0x40000000#32 = (2 : EReal) := by
  rw [show (2 : EReal) = ((2 : ℝ) : EReal) by norm_cast]
  simp [Ideal.ofBits, Ideal.ieee, -EReal.coe_mul]; norm_num

private theorem c_8192 : Ideal.ofBits .f32 0x46000000#32 = (8192 : EReal) := by
  rw [show (8192 : EReal) = ((8192 : ℝ) : EReal) by norm_cast]
  simp [Ideal.ofBits, Ideal.ieee, -EReal.coe_mul]; norm_num

private theorem c_8191 : Ideal.ofBits .f32 0x45FFF800#32 = (8191 : EReal) := by
  rw [show (8191 : EReal) = ((8191 : ℝ) : EReal) by norm_cast]
  simp [Ideal.ofBits, Ideal.ieee, -EReal.coe_mul]; norm_num

private theorem c_top : Ideal.ofBits .f32 0x7F800000#32 = (⊤ : EReal) := by
  simp [Ideal.ofBits, Ideal.ieee]

private theorem c_bot : Ideal.ofBits .f32 0xFF800000#32 = (⊥ : EReal) := by
  simp [Ideal.ofBits, Ideal.ieee]

/-! ## One-bit words -/

private theorem uitofp_ofBool (P : Prop) [Decidable P] :
    (FloatOps.uitofp (F := Ideal) .f32 (BitVec.ofBool (decide P)) : EReal) = if P then 1 else 0 := by
  by_cases h : P
  · rw [if_pos h, decide_eq_true h]; show (((1 : ℕ) : ℝ) : EReal) = 1; norm_cast
  · rw [if_neg h, decide_eq_false h]; show (((0 : ℕ) : ℝ) : EReal) = 0; norm_cast

private theorem cmpi_eq_ofNat (p q : Fin 100) :
    IntOp.cmpi .eq (IntOp.addi (BitVec.ofNat 32 p.val) 0#32) (BitVec.ofNat 32 q.val) = BitVec.ofBool (decide (p = q)) := by
  have hp := p.isLt; have hq := q.isLt
  unfold IntOp.cmpi IntOp.addi
  congr 1
  by_cases h : p = q
  · subst h; simp
  · rw [decide_eq_false h]
    simp only [BitVec.add_zero, beq_eq_false_iff_ne, ne_eq]
    intro e
    apply h
    have := congrArg BitVec.toNat e
    simp only [BitVec.toNat_ofNat] at this
    exact Fin.ext (by omega)

/-- A select on "x is positive". -/
private theorem select_cmp_ogt {α : Type} (x : EReal) [Decidable (0 < x)] (a b : α) :
    Scalar.select (Ideal.cmp .ogt x 0) a b = if 0 < x then a else b := by
  by_cases h : 0 < x
  · rw [if_pos h]
    have e : Ideal.cmp .ogt x 0 = 1#1 := by unfold Ideal.cmp; simp [h]
    rw [e]; rfl
  · rw [if_neg h]
    have e : Ideal.cmp .ogt x 0 = 0#1 := by unfold Ideal.cmp; simp [h]
    rw [e]; rfl

/-! ## Reductions of a matrix along one axis -/

private theorem reduces_of_reducesTo {s t : Shape} {axes : List (Fin s.rank)} (h' : s.ReducesTo axes t) (hp : 0 < t.rank) :
    s.Reduces axes t := by
  obtain ⟨h1, h2⟩ := h'; exact ⟨h1, hp, h2⟩

private theorem lift0_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

private theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A column sum: the initial value plus the sum down the column. -/
private theorem reduceAdd_ax0 {m n : Nat} (h' : (⟨2, ![m, n]⟩ : Shape).ReducesTo [0] (⟨1, ![n]⟩ : Shape))
    (hu : 0 < (⟨0, ![]⟩ : Shape).numel) (x : FVec Ideal ⟨2, ![m, n]⟩ .f32) (init : FVec Ideal ⟨0, ![]⟩ .f32) (t : Fin n) :
    Host.reduceAdd x init h' hu (ix1 t) = init (Shape.Idx.first hu) + ∑ k : Fin m, x (ix2 k t) := by
  have h := reduces_of_reducesTo h' Nat.one_pos
  rw [hostReduceAdd_apply, Ideal.hostReduceAdd_single h' h]
  refine congrArg (init (Shape.Idx.first hu) + ·) ?_
  exact Finset.sum_congr rfl fun k _ => congrArg x (lift0_ix2 h t k)

private theorem fold_min_eq {ι : Type} [DecidableEq ι] (s : Finset ι) (b : EReal) (f : ι → EReal) :
    s.fold min b f = min b (s.inf f) := by
  induction s using Finset.induction_on with
  | empty => simp
  | insert a s ha ih => rw [Finset.fold_insert ha, Finset.inf_insert, ih]; exact min_left_comm _ _ _

private theorem fold_max_eq {ι : Type} [DecidableEq ι] (s : Finset ι) (b : EReal) (f : ι → EReal) :
    s.fold max b f = max b (s.sup f) := by
  induction s using Finset.induction_on with
  | empty => simp
  | insert a s ha ih => rw [Finset.fold_insert ha, Finset.sup_insert, ih]; exact max_left_comm _ _ _

/-- A row minimum from an initial value. -/
private theorem reduceMin_ax1 {m n : Nat} (h' : (⟨2, ![m, n]⟩ : Shape).ReducesTo [1] (⟨1, ![m]⟩ : Shape))
    (hu : 0 < (⟨0, ![]⟩ : Shape).numel) (x : FVec Ideal ⟨2, ![m, n]⟩ .f32) (init : FVec Ideal ⟨0, ![]⟩ .f32) (r : Fin m) :
    Host.reduce FloatOps.minimumf x init h' hu (ix1 r)
      = min (init (Shape.Idx.first hu)) (Finset.univ.inf fun k : Fin n => x (ix2 r k)) := by
  have h := reduces_of_reducesTo h' Nat.one_pos
  rw [Host.reduce_eq_fold_single FloatOps.minimumf x _ h' h hu]
  have hf : (x ∘ h.lift (ix1 r)) = fun k : Fin n => x (ix2 r k) := funext fun k => congrArg x (lift1_ix2 h r k)
  refine Eq.trans ?_ (fold_min_eq (Finset.univ : Finset (Fin n)) (init (Shape.Idx.first hu)) fun k : Fin n => x (ix2 r k))
  exact congrArg (fun f => Finset.fold min (init (Shape.Idx.first hu)) f (Finset.univ : Finset (Fin n))) hf

/-- A row maximum from an initial value. -/
private theorem reduceMax_ax1 {m n : Nat} (h' : (⟨2, ![m, n]⟩ : Shape).ReducesTo [1] (⟨1, ![m]⟩ : Shape))
    (hu : 0 < (⟨0, ![]⟩ : Shape).numel) (x : FVec Ideal ⟨2, ![m, n]⟩ .f32) (init : FVec Ideal ⟨0, ![]⟩ .f32) (r : Fin m) :
    Host.reduce FloatOps.maximumf x init h' hu (ix1 r)
      = max (init (Shape.Idx.first hu)) (Finset.univ.sup fun k : Fin n => x (ix2 r k)) := by
  have h := reduces_of_reducesTo h' Nat.one_pos
  rw [Host.reduce_eq_fold_single FloatOps.maximumf x _ h' h hu]
  have hf : (x ∘ h.lift (ix1 r)) = fun k : Fin n => x (ix2 r k) := funext fun k => congrArg x (lift1_ix2 h r k)
  refine Eq.trans ?_ (fold_max_eq (Finset.univ : Finset (Fin n)) (init (Shape.Idx.first hu)) fun k : Fin n => x (ix2 r k))
  exact congrArg (fun f => Finset.fold max (init (Shape.Idx.first hu)) f (Finset.univ : Finset (Fin n))) hf

/-! ## The stages -/

section Stages
variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal)) (pd : Fin 100 → Fin 100 → EReal) (hq : Fin 8192 → Fin 100)

/-- How many rows carry prototype q: the column sum of the one-hot matrix. -/
theorem v36_eq (hoh : ∀ (j : Fin 8192) (q : Fin 100), res_main_v26 (F := Ideal) a0 a1 a2 a3 a4 (ix2 j q) = Spec.oh hq j q) (q : Fin 100) : res_main_v36 (F := Ideal) a0 a1 a2 a3 a4 (ix1 q) = Spec.cnt hq q := by
  refine (reduceAdd_ax0 (m := 8192) (n := 100) _ _ (res_main_v26 (F := Ideal) a0 a1 a2 a3 a4) (res_main_cst_3 (F := Ideal) a0 a1 a2 a3 a4) q).trans ?_
  show Ideal.ofBits .f32 0x00000000#32 + ∑ k : Fin 8192, (res_main_v26 (F := Ideal) a0 a1 a2 a3 a4 (ix2 k q) : EReal) = _
  rw [Ideal.ofBits_zero_f32, zero_add]
  unfold Spec.cnt
  exact Finset.sum_congr rfl fun j _ => hoh j q

/-- The identity matrix as 0/1: row number equals column number. -/
theorem v42_eq (p q : Fin 100) : res_main_v42 (F := Ideal) a0 a1 a2 a3 a4 (ix2 p q) = if p = q then 1 else 0 := by
  show FloatOps.uitofp (F := Ideal) .f32 (IntOp.cmpi .eq (IntOp.addi (BitVec.ofNat 32 p.val) 0#32) (BitVec.ofNat 32 q.val)) = _
  rw [cmpi_eq_ofNat, uitofp_ofBool]

/-- The counts repeated down the rows. -/
theorem v44_eq (hoh : ∀ (j : Fin 8192) (q : Fin 100), res_main_v26 (F := Ideal) a0 a1 a2 a3 a4 (ix2 j q) = Spec.oh hq j q) (p q : Fin 100) : res_main_v44 (F := Ideal) a0 a1 a2 a3 a4 (ix2 p q) = Spec.cnt hq q :=
  ((ReadLib.bcast_row_mat (n := 100) (m := 100) _ (res_main_v43 (F := Ideal) a0 a1 a2 a3 a4) p q).trans (ReadLib.bcast_vec_row (m := 100) _ (res_main_v36 (F := Ideal) a0 a1 a2 a3 a4) 0 q)).trans (v36_eq a0 a1 a2 a3 a4 hq hoh q)

/-- For a row of prototype p, how many other rows carry q. -/
theorem v45_eq (hoh : ∀ (j : Fin 8192) (q : Fin 100), res_main_v26 (F := Ideal) a0 a1 a2 a3 a4 (ix2 j q) = Spec.oh hq j q) (p q : Fin 100) : res_main_v45 (F := Ideal) a0 a1 a2 a3 a4 (ix2 p q) = Spec.cadj hq p q := by
  show (res_main_v44 (F := Ideal) a0 a1 a2 a3 a4 (ix2 p q) : EReal) - (res_main_v42 (F := Ideal) a0 a1 a2 a3 a4 (ix2 p q) : EReal) = _
  rw [v44_eq a0 a1 a2 a3 a4 hq hoh p q, v42_eq a0 a1 a2 a3 a4 p q]
  rfl

/-- The distances kept where some other row carries q, the rest at plus infinity. -/
theorem v48_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p q : Fin 100) :
    res_main_v48 (F := Ideal) a0 a1 a2 a3 a4 (ix2 p q) = if 0 < Spec.cadj hq p q then pd p q else ⊤ := by
  show Scalar.select (Ideal.cmp .ogt (res_main_v45 (F := Ideal) a0 a1 a2 a3 a4 (ix2 p q) : EReal) (Ideal.ofBits .f32 0x00000000#32)) (res_main_v35 (F := Ideal) a0 a1 a2 a3 a4 (ix2 p q) : EReal) (Ideal.ofBits .f32 0x7F800000#32) = _
  rw [v45_eq a0 a1 a2 a3 a4 hq hoh p q, hpd p q, Ideal.ofBits_zero_f32, c_top]
  exact select_cmp_ogt _ _ _

/-- The same, the rest at minus infinity. -/
theorem v49_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p q : Fin 100) :
    res_main_v49 (F := Ideal) a0 a1 a2 a3 a4 (ix2 p q) = if 0 < Spec.cadj hq p q then pd p q else ⊥ := by
  show Scalar.select (Ideal.cmp .ogt (res_main_v45 (F := Ideal) a0 a1 a2 a3 a4 (ix2 p q) : EReal) (Ideal.ofBits .f32 0x00000000#32)) (res_main_v35 (F := Ideal) a0 a1 a2 a3 a4 (ix2 p q) : EReal) (Ideal.ofBits .f32 0xFF800000#32) = _
  rw [v45_eq a0 a1 a2 a3 a4 hq hoh p q, hpd p q, Ideal.ofBits_zero_f32, c_bot]
  exact select_cmp_ogt _ _ _

/-- The least kept distance of row p, capped at 0. -/
theorem v52_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v52 (F := Ideal) a0 a1 a2 a3 a4 (ix1 p) = Spec.minval pd hq p := by
  have e50 : (res_main_v50 (F := Ideal) a0 a1 a2 a3 a4 (ix1 p) : EReal) = Finset.univ.inf fun q : Fin 100 => if 0 < Spec.cadj hq p q then pd p q else ⊤ := by
    refine (reduceMin_ax1 (m := 100) (n := 100) _ _ (res_main_v48 (F := Ideal) a0 a1 a2 a3 a4) (res_main_cst_8 (F := Ideal) a0 a1 a2 a3 a4) p).trans ?_
    show min (Ideal.ofBits .f32 0x7F800000#32) (Finset.univ.inf fun q : Fin 100 => (res_main_v48 (F := Ideal) a0 a1 a2 a3 a4 (ix2 p q) : EReal)) = _
    rw [c_top, min_top_left]
    exact Finset.inf_congr rfl fun q _ => v48_eq a0 a1 a2 a3 a4 pd hq hpd hoh p q
  show min (res_main_v50 (F := Ideal) a0 a1 a2 a3 a4 (ix1 p) : EReal) (Ideal.ofBits .f32 0x00000000#32) = _
  rw [e50, Ideal.ofBits_zero_f32]
  rfl

/-- The greatest kept distance of row p, floored at 0. -/
theorem v55_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v55 (F := Ideal) a0 a1 a2 a3 a4 (ix1 p) = Spec.maxval pd hq p := by
  have e53 : (res_main_v53 (F := Ideal) a0 a1 a2 a3 a4 (ix1 p) : EReal) = Finset.univ.sup fun q : Fin 100 => if 0 < Spec.cadj hq p q then pd p q else ⊥ := by
    refine (reduceMax_ax1 (m := 100) (n := 100) _ _ (res_main_v49 (F := Ideal) a0 a1 a2 a3 a4) (res_main_cst_10 (F := Ideal) a0 a1 a2 a3 a4) p).trans ?_
    show max (Ideal.ofBits .f32 0xFF800000#32) (Finset.univ.sup fun q : Fin 100 => (res_main_v49 (F := Ideal) a0 a1 a2 a3 a4 (ix2 p q) : EReal)) = _
    rw [c_bot, max_bot_left]
    exact Finset.sup_congr rfl fun q _ => v49_eq a0 a1 a2 a3 a4 pd hq hpd hoh p q
  show max (res_main_v53 (F := Ideal) a0 a1 a2 a3 a4 (ix1 p) : EReal) (Ideal.ofBits .f32 0x00000000#32) = _
  rw [e53, Ideal.ofBits_zero_f32]
  rfl

/-- The weighted mean of row p over all 8192 columns. -/
theorem v59_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v59 (F := Ideal) a0 a1 a2 a3 a4 (ix1 p) = Spec.mean pd hq p := by
  have e57 : (res_main_v57 (F := Ideal) a0 a1 a2 a3 a4 (ix1 p) : EReal) = ∑ q : Fin 100, Spec.cadj hq p q * pd p q := by
    refine (ReadLib.reduceAdd_row (n := 100) (m := 100) (res_main_v56 (F := Ideal) a0 a1 a2 a3 a4) (res_main_cst_12 (F := Ideal) a0 a1 a2 a3 a4) Ideal.ofBits_zero_f32 _ _ p).trans ?_
    refine Finset.sum_congr rfl fun q _ => ?_
    show (res_main_v45 (F := Ideal) a0 a1 a2 a3 a4 (ix2 p q) : EReal) * (res_main_v35 (F := Ideal) a0 a1 a2 a3 a4 (ix2 p q) : EReal) = _
    rw [v45_eq a0 a1 a2 a3 a4 hq hoh p q, hpd p q]
  show Ideal.div (res_main_v57 (F := Ideal) a0 a1 a2 a3 a4 (ix1 p) : EReal) (Ideal.ofBits .f32 0x46000000#32) = _
  rw [e57, c_8192]
  rfl

/-- The mean repeated along the row. -/
theorem v61_eq (p q : Fin 100) : res_main_v61 (F := Ideal) a0 a1 a2 a3 a4 (ix2 p q) = res_main_v59 (F := Ideal) a0 a1 a2 a3 a4 (ix1 p) :=
  (ReadLib.bcast_col_mat (n := 100) (m := 100) _ (res_main_v60 (F := Ideal) a0 a1 a2 a3 a4) p q).trans (ReadLib.bcast_vec_col (n := 100) _ (res_main_v59 (F := Ideal) a0 a1 a2 a3 a4) p 0)

/-- The unbiased variance of row p, floored at 0. -/
theorem v71_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v71 (F := Ideal) a0 a1 a2 a3 a4 (ix1 p) = Spec.var pd hq p := by
  have e65 : (res_main_v65 (F := Ideal) a0 a1 a2 a3 a4 (ix1 p) : EReal)
      = ∑ q : Fin 100, Spec.cadj hq p q * ((pd p q - Spec.mean pd hq p) * (pd p q - Spec.mean pd hq p)) := by
    refine (ReadLib.reduceAdd_row (n := 100) (m := 100) (res_main_v64 (F := Ideal) a0 a1 a2 a3 a4) (res_main_cst_14 (F := Ideal) a0 a1 a2 a3 a4) Ideal.ofBits_zero_f32 _ _ p).trans ?_
    refine Finset.sum_congr rfl fun q _ => ?_
    show (res_main_v45 (F := Ideal) a0 a1 a2 a3 a4 (ix2 p q) : EReal) * (((res_main_v35 (F := Ideal) a0 a1 a2 a3 a4 (ix2 p q) : EReal) - (res_main_v61 (F := Ideal) a0 a1 a2 a3 a4 (ix2 p q) : EReal)) * ((res_main_v35 (F := Ideal) a0 a1 a2 a3 a4 (ix2 p q) : EReal) - (res_main_v61 (F := Ideal) a0 a1 a2 a3 a4 (ix2 p q) : EReal))) = _
    rw [v45_eq a0 a1 a2 a3 a4 hq hoh p q, hpd p q, v61_eq a0 a1 a2 a3 a4 p q, v59_eq a0 a1 a2 a3 a4 pd hq hpd hoh p]
  show max (Ideal.div ((res_main_v65 (F := Ideal) a0 a1 a2 a3 a4 (ix1 p) : EReal) + (res_main_v59 (F := Ideal) a0 a1 a2 a3 a4 (ix1 p) : EReal) * (res_main_v59 (F := Ideal) a0 a1 a2 a3 a4 (ix1 p) : EReal)) (Ideal.ofBits .f32 0x45FFF800#32)) (Ideal.ofBits .f32 0x00000000#32) = _
  rw [e65, v59_eq a0 a1 a2 a3 a4 pd hq hpd hoh p, c_8191, Ideal.ofBits_zero_f32]
  rfl

/-- The deviation of row p. -/
theorem v72_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v72 (F := Ideal) a0 a1 a2 a3 a4 (ix1 p) = Spec.stdk pd hq p := by
  show Ideal.sqrt (res_main_v71 (F := Ideal) a0 a1 a2 a3 a4 (ix1 p) : EReal) = _
  rw [v71_eq a0 a1 a2 a3 a4 pd hq hpd hoh p]
  rfl

/-- The rescaling's slope: one over the range of row p. -/
theorem v75_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v75 (F := Ideal) a0 a1 a2 a3 a4 (ix1 p) = Spec.ka pd hq p := by
  show Ideal.div (Ideal.ofBits .f32 0x3F800000#32) ((res_main_v55 (F := Ideal) a0 a1 a2 a3 a4 (ix1 p) : EReal) - (res_main_v52 (F := Ideal) a0 a1 a2 a3 a4 (ix1 p) : EReal)) = _
  rw [v55_eq a0 a1 a2 a3 a4 pd hq hpd hoh p, v52_eq a0 a1 a2 a3 a4 pd hq hpd hoh p, Ideal.ofBits_one_f32]
  rfl

/-- The rescaling's offset. -/
theorem v77_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v77 (F := Ideal) a0 a1 a2 a3 a4 (ix1 p) = Spec.kb pd hq p := by
  show (-(res_main_v52 (F := Ideal) a0 a1 a2 a3 a4 (ix1 p) : EReal)) * (res_main_v75 (F := Ideal) a0 a1 a2 a3 a4 (ix1 p) : EReal) = _
  rw [v52_eq a0 a1 a2 a3 a4 pd hq hpd hoh p, v75_eq a0 a1 a2 a3 a4 pd hq hpd hoh p]
  rfl

/-- The rescaled mean. -/
theorem v79_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v79 (F := Ideal) a0 a1 a2 a3 a4 (ix1 p) = Spec.muk pd hq p := by
  show ((res_main_v59 (F := Ideal) a0 a1 a2 a3 a4 (ix1 p) : EReal) - (res_main_v52 (F := Ideal) a0 a1 a2 a3 a4 (ix1 p) : EReal)) * (res_main_v75 (F := Ideal) a0 a1 a2 a3 a4 (ix1 p) : EReal) = _
  rw [v59_eq a0 a1 a2 a3 a4 pd hq hpd hoh p, v52_eq a0 a1 a2 a3 a4 pd hq hpd hoh p, v75_eq a0 a1 a2 a3 a4 pd hq hpd hoh p]
  rfl

/-- The rescaled deviation. -/
theorem v80_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v80 (F := Ideal) a0 a1 a2 a3 a4 (ix1 p) = Spec.s1 pd hq p := by
  show (res_main_v72 (F := Ideal) a0 a1 a2 a3 a4 (ix1 p) : EReal) * (res_main_v75 (F := Ideal) a0 a1 a2 a3 a4 (ix1 p) : EReal) = _
  rw [v72_eq a0 a1 a2 a3 a4 pd hq hpd hoh p, v75_eq a0 a1 a2 a3 a4 pd hq hpd hoh p]
  rfl

/-- One over twice the rescaled variance. -/
theorem v85_eq (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p : Fin 100) : res_main_v85 (F := Ideal) a0 a1 a2 a3 a4 (ix1 p) = Spec.inv2 pd hq p := by
  show Ideal.div (Ideal.ofBits .f32 0x3F800000#32) (Ideal.ofBits .f32 0x40000000#32 * (res_main_v80 (F := Ideal) a0 a1 a2 a3 a4 (ix1 p) : EReal) * (res_main_v80 (F := Ideal) a0 a1 a2 a3 a4 (ix1 p) : EReal)) = _
  rw [v80_eq a0 a1 a2 a3 a4 pd hq hpd hoh p, Ideal.ofBits_one_f32, c_two]
  rfl

/-- The slope repeated along the row. -/
theorem v87_eq (p q : Fin 100) : res_main_v87 (F := Ideal) a0 a1 a2 a3 a4 (ix2 p q) = res_main_v75 (F := Ideal) a0 a1 a2 a3 a4 (ix1 p) :=
  (ReadLib.bcast_col_mat (n := 100) (m := 100) _ (res_main_v86 (F := Ideal) a0 a1 a2 a3 a4) p q).trans (ReadLib.bcast_vec_col (n := 100) _ (res_main_v75 (F := Ideal) a0 a1 a2 a3 a4) p 0)

/-- The offset repeated along the row. -/
theorem v90_eq (p q : Fin 100) : res_main_v90 (F := Ideal) a0 a1 a2 a3 a4 (ix2 p q) = res_main_v77 (F := Ideal) a0 a1 a2 a3 a4 (ix1 p) :=
  (ReadLib.bcast_col_mat (n := 100) (m := 100) _ (res_main_v89 (F := Ideal) a0 a1 a2 a3 a4) p q).trans (ReadLib.bcast_vec_col (n := 100) _ (res_main_v77 (F := Ideal) a0 a1 a2 a3 a4) p 0)

/-- The rescaled means repeated down the rows. -/
theorem v93_eq (p q : Fin 100) : res_main_v93 (F := Ideal) a0 a1 a2 a3 a4 (ix2 p q) = res_main_v79 (F := Ideal) a0 a1 a2 a3 a4 (ix1 q) :=
  (ReadLib.bcast_row_mat (n := 100) (m := 100) _ (res_main_v92 (F := Ideal) a0 a1 a2 a3 a4) p q).trans (ReadLib.bcast_vec_row (m := 100) _ (res_main_v79 (F := Ideal) a0 a1 a2 a3 a4) 0 q)

/-- The inverse variances repeated down the rows. -/
theorem v97_eq (p q : Fin 100) : res_main_v97 (F := Ideal) a0 a1 a2 a3 a4 (ix2 p q) = res_main_v85 (F := Ideal) a0 a1 a2 a3 a4 (ix1 q) :=
  (ReadLib.bcast_row_mat (n := 100) (m := 100) _ (res_main_v96 (F := Ideal) a0 a1 a2 a3 a4) p q).trans (ReadLib.bcast_vec_row (m := 100) _ (res_main_v85 (F := Ideal) a0 a1 a2 a3 a4) 0 q)

/-- The reweighting table over pairs of prototypes. -/
theorem W_read (hpd : ∀ p q : Fin 100, res_main_v35 (F := Ideal) a0 a1 a2 a3 a4 (ix2 p q) = pd p q) (hoh : ∀ (j : Fin 8192) (q : Fin 100), res_main_v26 (F := Ideal) a0 a1 a2 a3 a4 (ix2 j q) = Spec.oh hq j q) (p q : Fin 100) : res_main_v99 (F := Ideal) a0 a1 a2 a3 a4 (ix2 p q) = Spec.W pd hq p q := by
  show Ideal.exp
      (((((res_main_v87 (F := Ideal) a0 a1 a2 a3 a4 (ix2 p q) : EReal) * (res_main_v35 (F := Ideal) a0 a1 a2 a3 a4 (ix2 p q) : EReal) + (res_main_v90 (F := Ideal) a0 a1 a2 a3 a4 (ix2 p q) : EReal)) - (res_main_v93 (F := Ideal) a0 a1 a2 a3 a4 (ix2 p q) : EReal))
        * (((res_main_v87 (F := Ideal) a0 a1 a2 a3 a4 (ix2 p q) : EReal) * (res_main_v35 (F := Ideal) a0 a1 a2 a3 a4 (ix2 p q) : EReal) + (res_main_v90 (F := Ideal) a0 a1 a2 a3 a4 (ix2 p q) : EReal)) - (res_main_v93 (F := Ideal) a0 a1 a2 a3 a4 (ix2 p q) : EReal)))
        * (res_main_v97 (F := Ideal) a0 a1 a2 a3 a4 (ix2 p q) : EReal)) = _
  rw [v87_eq a0 a1 a2 a3 a4 p q, v90_eq a0 a1 a2 a3 a4 p q, v93_eq a0 a1 a2 a3 a4 p q, v97_eq a0 a1 a2 a3 a4 p q, hpd p q,
    v75_eq a0 a1 a2 a3 a4 pd hq hpd hoh p, v77_eq a0 a1 a2 a3 a4 pd hq hpd hoh p, v79_eq a0 a1 a2 a3 a4 pd hq hpd hoh q, v85_eq a0 a1 a2 a3 a4 pd hq hpd hoh q]
  rfl

end Stages

end Cert.KernelIdeal.Read

end
-- ==== Proof.KIReadC.lean ====
/-
  Stages of the kernel's host program read at an index, at the ideal values: the masked reweighting table
  v[i, q] = mem[i, q] · W[hq_i, q] (rows of the prototype table taken at each row's hard prototype, the membership first),
  and the end of the program: the blocks' accumulators summed, the diagonal ∑ᵢ exp(⟨oᵢ, oᵢ⟩ / τ) · ∑_q v[i, q] · oh[i, q]
  removed, and the loss −(1/8192) ∑ᵢ log(posᵢ / denominator). Under the precondition every prototype id is below 100, so
  the wrap of a negative id is not taken and the gather's clamp leaves the id.
-/
import proofs.«427632_j79637283602625_3_alg».proof.Proof.KIStages
import proofs.«427632_j79637283602625_3_alg».proof.Proof.Conv
import proofs.«427632_j79637283602625_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.Affine

noncomputable section

open Cert.KernelIdeal Cert.KernelIdeal.Stages Idealize.ShloMosaic Idealize.ShloMosaic.ValueIdx Cert
open Cert.KernelIdeal.Facts₀ Cert.KernelIdeal.Facts
open scoped BigOperators

namespace Cert.KernelIdeal.Read

/-! ## Operations on literal shapes, read at an index -/

section Ops

/-- The host's exponential, logarithm and negation at an index. -/
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl
theorem hostNegf_apply {s : Shape} {φ : FTy} (a : FVec Ideal s φ) (i : s.Idx) : Host.negf a i = -(a i) := rfl

/-- A row sum of an [8192, 256] array. -/
theorem rowsum_8192x256 (h : S8192x256.ReducesTo [1] S8192) (hu : 0 < S_.numel) (y : FVec Ideal S8192x256 .f32)
    (c : FVec Ideal S_ .f32) (i : Fin 8192) :
    Host.reduceAdd y c h hu (ix1 i) = c ix0 + ∑ k : Fin 256, y (ix2 i k) := by
  simp only [Host.reduceAdd, Ideal.hostReduceAdd_def]
  rw [Ideal.hostReduceAdd_single h (by decide)]
  refine congr (congrArg _ (congrArg c (funext fun a => a.elim0))) (Finset.sum_congr rfl fun k _ => ?_)
  exact congrArg y (funext fun a => Fin.ext (by match a with | ⟨0, _⟩ => rfl | ⟨1, _⟩ => rfl))

/-- A row sum of an [8192, 100] array. -/
theorem rowsum_8192x100 (h : S8192x100.ReducesTo [1] S8192) (hu : 0 < S_.numel) (y : FVec Ideal S8192x100 .f32)
    (c : FVec Ideal S_ .f32) (i : Fin 8192) :
    Host.reduceAdd y c h hu (ix1 i) = c ix0 + ∑ k : Fin 100, y (ix2 i k) := by
  simp only [Host.reduceAdd, Ideal.hostReduceAdd_def]
  rw [Ideal.hostReduceAdd_single h (by decide)]
  refine congr (congrArg _ (congrArg c (funext fun a => a.elim0))) (Finset.sum_congr rfl fun k _ => ?_)
  exact congrArg y (funext fun a => Fin.ext (by match a with | ⟨0, _⟩ => rfl | ⟨1, _⟩ => rfl))

/-- The indices of a rank-1 shape are its one coordinate. -/
def idxEquiv1 {n : Nat} : Fin n ≃ (⟨1, ![n]⟩ : Shape).Idx where
  toFun := ix1
  invFun j := j 0
  left_inv _ := rfl
  right_inv j := (eq_ix1 j).symm

theorem sum_idx1 {n : Nat} (f : (⟨1, ![n]⟩ : Shape).Idx → EReal) : ∑ j, f j = ∑ i : Fin n, f (ix1 i) :=
  (Equiv.sum_comp idxEquiv1 f).symm

/-- The sum of all of an [8192] array, and of an [8] one. -/
theorem sum_8192 (h : S8192.ReducesTo [0] S_) (hu : 0 < S_.numel) (y : FVec Ideal S8192 .f32) (c : FVec Ideal S_ .f32) :
    Host.reduceAdd y c h hu ix0 = c ix0 + ∑ i : Fin 8192, y (ix1 i) := by
  simp only [Host.reduceAdd, Ideal.hostReduceAdd_def]
  rw [Ideal.hostReduceAdd_total h (fun b => b.elim0), sum_idx1]
  exact congrArg (· + _) (congrArg c (funext fun a => a.elim0))

theorem sum_8 (h : S8.ReducesTo [0] S_) (hu : 0 < S_.numel) (y : FVec Ideal S8 .f32) (c : FVec Ideal S_ .f32) :
    Host.reduceAdd y c h hu ix0 = c ix0 + ∑ i : Fin 8, y (ix1 i) := by
  simp only [Host.reduceAdd, Ideal.hostReduceAdd_def]
  rw [Ideal.hostReduceAdd_total h (fun b => b.elim0), sum_idx1]
  exact congrArg (· + _) (congrArg c (funext fun a => a.elim0))

/-- The f32 word of 8192. -/
theorem ofBits_8192 : Ideal.ofBits .f32 0x46000000#32 = 8192 := by
  rw [show (8192 : EReal) = ((8192 : ℝ) : EReal) by norm_cast]
  simp [Ideal.ofBits, Ideal.ieee, -EReal.coe_mul]; norm_num

/-- The first lane of the first row of each block of an [8, 8, 128] array, as an [8, 1, 1] slice and then as [8]. -/
theorem slice_read {α : Type} (h : S8x8x128.Slices ![0, 0, 0] S8x1x1) (x : S8x8x128.Idx → α) (b : Fin 8) :
    extractStridedSlice S8x1x1 ![0, 0, 0] x h (ix3 b (0 : Fin 1) (0 : Fin 1)) = x (ix3 b (0 : Fin 8) (0 : Fin 128)) := by
  refine extractStridedSlice_apply _ x h _ _ (fun a => ?_)
  match a with
  | ⟨0, _⟩ => show b.val = 0 + b.val; omega
  | ⟨1, _⟩ => rfl
  | ⟨2, _⟩ => rfl

theorem squeeze_read {α : Type} (h : S8x1x1.ShapeCasts S8) (x : S8x1x1.Idx → α) (b : Fin 8) :
    shapeCast S8 x h (ix1 b) = x (ix3 b (0 : Fin 1) (0 : Fin 1)) := by
  refine shapeCast_apply x h (ix1 b) _ ?_
  rw [Shape.rowMajor_val_three, Shape.rowMajor_val_one]
  show (b.val * 1 + 0) * 1 + 0 = b.val
  omega

/-- The [2, 4096] words flattened to [8192]. -/
theorem flat_read (h : S2x4096.ShapeCasts S8192) (x : IVec S2x4096 32) (i : Fin 8192) :
    shapeCast S8192 x h (ix1 i)
      = x (ix2 (⟨i.val / 4096, by omega⟩ : Fin 2) (⟨i.val % 4096, Nat.mod_lt _ (by norm_num)⟩ : Fin 4096)) := by
  refine shapeCast_apply x h (ix1 i) _ ?_
  rw [Shape.rowMajor_val_two, Shape.rowMajor_val_one]
  show (i.val / 4096) * 4096 + i.val % 4096 = i.val
  omega

/-- An [8192] array kept as an [8192, 1] column. -/
theorem col_read {α : Type} (h : S8192.BroadcastsInDim S8192x1 ![0]) (x : S8192.Idx → α) (i : Fin 8192) :
    broadcastInDim S8192x1 ![0] h x (ix2 i (0 : Fin 1)) = x (ix1 i) := by
  refine broadcastInDim_apply _ h x _ _ (fun a => ?_)
  match a with
  | ⟨0, _⟩ => rfl

/-- A word below 100 is not negative read signed, so the wrap of a negative index is not taken, -/
theorem wrap_id (w : BitVec 32) (hw : w.toNat < 100) :
    Scalar.select (IntOp.cmpi .slt w 0#32) (IntOp.addi w 100#32) w = w := by
  refine if_neg fun h => ?_
  have h' := (IntOp.cmpi_slt (x := w) (y := 0#32)).1 h
  rw [BitVec.toInt_eq_toNat_cond, if_pos (by omega)] at h'
  have h0 : (0#32 : BitVec 32).toInt = 0 := by decide
  rw [h0] at h'; omega

/-- and its signed value clamped into 0 … 99 is the word. -/
theorem clamp_id (w : BitVec 32) (hw : w.toNat < 100) : min w.toInt.toNat 99 = w.toNat := by
  rw [BitVec.toInt_eq_toNat_cond, if_pos (by omega), Int.toNat_natCast]; omega

/-- The index normalisation `select (x < 0) (x + 100) x` at an element below 100 leaves it. -/
theorem norm_read (h : S_.BroadcastsInDim S8192 ![]) (x : IVec S8192 32) (j : S8192.Idx) (hx : (x j).toNat < 100) :
    select (cmpi .slt x (broadcastInDim S8192 ![] h (constantI S_ 32 0#32)))
      (addi x (broadcastInDim S8192 ![] h (constantI S_ 32 100#32))) x j = x j := by
  show Scalar.select (IntOp.cmpi .slt (x j) (broadcastInDim S8192 ![] h (constantI S_ 32 0#32) j))
      (IntOp.addi (x j) (broadcastInDim S8192 ![] h (constantI S_ 32 100#32) j)) (x j) = x j
  rw [broadcastInDim_scalar_apply, broadcastInDim_scalar_apply, constantI_apply, constantI_apply]
  exact wrap_id _ hx

end Ops

/-! ## The table gather -/

section Gather
variable [Cert.KernelIdeal.Facts]

/-- The printed gather: rows of a [100, 100] table taken at an [8192, 1] column of start words. -/
abbrev GD := gather_S100x100_S8192x1_S8192x100_1_0_n_n_0_1_1100

theorem gd_siIdx (i : Fin 8192) (q : Fin 100) (h : List.idxOf (0 : Fin 2) GD.startIndexMap < GD.startIndexMap.length) :
    GD.siIdx (ix2 i q) ⟨List.idxOf (0 : Fin 2) GD.startIndexMap, h⟩ = ix2 i (0 : Fin 1) := by
  funext b; refine Fin.ext ?_
  match b with
  | ⟨0, _⟩ => rfl
  | ⟨1, _⟩ => rfl

/-- Element (i, q) of the gather is the table at (the i-th start word read signed and clamped into 0 … 99, q). -/
theorem gather_rows {α : Type} (x : S100x100.Idx → α) (idx : IVec S8192x1 32) (i : Fin 8192) (q : Fin 100) :
    Host.gather GD x idx (ix2 i q)
      = x (ix2 (⟨min (idx (ix2 i (0 : Fin 1))).toInt.toNat 99, Nat.lt_succ_of_le (Nat.min_le_right _ _)⟩ : Fin 100) q) := by
  unfold Host.gather
  refine congrArg x (funext fun a => Fin.ext ?_)
  have hb0 : (0 : Fin 2) ∉ GD.operandBatchingDims := by decide
  have hb1 : (1 : Fin 2) ∉ GD.operandBatchingDims := by decide
  have hk0 : (0 : Fin 2) ∉ GD.sKept := by decide
  have hm0 : (0 : Fin 2) ∈ GD.startIndexMap := by decide
  have hm1 : (1 : Fin 2) ∉ GD.startIndexMap := by decide
  match a with
  | ⟨0, _⟩ =>
    show GD.start (ix2 i q) idx (0 : Fin 2) + GD.batchCoord (ix2 i q) (0 : Fin 2) + GD.offCoord (ix2 i q) (0 : Fin 2)
      = min (idx (ix2 i (0 : Fin 1))).toInt.toNat 99
    rw [GatherDims.batchCoord_eq_zero _ _ _ hb0, GatherDims.offCoord_eq_zero _ _ _ hk0]
    simp only [Nat.add_zero]
    unfold GatherDims.start
    rw [dif_pos hm0, gd_siIdx]
    rfl
  | ⟨1, _⟩ =>
    show GD.start (ix2 i q) idx (1 : Fin 2) + GD.batchCoord (ix2 i q) (1 : Fin 2) + GD.offCoord (ix2 i q) (1 : Fin 2) = q.val
    rw [GatherDims.batchCoord_eq_zero _ _ _ hb1]
    unfold GatherDims.start
    rw [dif_neg hm1]
    simp only [Nat.add_zero, Nat.zero_add]
    rfl

end Gather

/-! ## The stages -/

section Stages
variable (a0 a1 : (⟨S4096x256, .f32⟩ : BufTy).Contents (Elt Ideal)) (a2 : (⟨S100x256, .f32⟩ : BufTy).Contents (Elt Ideal))
  (a3 : (⟨S2x4096, .i32⟩ : BufTy).Contents (Elt Ideal)) (a4 : (⟨S2x4096x10, .i32⟩ : BufTy).Contents (Elt Ideal))

/-- Row i's word of the [2, 4096] prototype ids. -/
abbrev word (i : Fin 8192) : BitVec 32 :=
  a3 (ix2 (⟨i.val / 4096, by omega⟩ : Fin 2) (⟨i.val % 4096, Nat.mod_lt _ (by norm_num)⟩ : Fin 4096))

theorem v11_read (i : Fin 8192) : res_main_v11 (F := Ideal) a0 a1 a2 a3 a4 (ix1 i) = word a3 i := by
  unfold res_main_v11
  exact flat_read _ a3 i

theorem v104_read (hr : ∀ i, (a3 i).toNat < 100) (i : Fin 8192) :
    res_main_v104 (F := Ideal) a0 a1 a2 a3 a4 (ix1 i) = word a3 i := by
  unfold res_main_v104 res_main_v101 res_main_v103 res_main_v100 res_main_v102 res_main_c_20 res_main_c_21
  refine (norm_read _ _ (ix1 i) ?_).trans (v11_read a0 a1 a2 a3 a4 i)
  rw [v11_read]; exact hr _

theorem v105_read (hr : ∀ i, (a3 i).toNat < 100) (i : Fin 8192) :
    res_main_v105 (F := Ideal) a0 a1 a2 a3 a4 (ix2 i (0 : Fin 1)) = word a3 i := by
  unfold res_main_v105
  exact (col_read _ _ i).trans (v104_read a0 a1 a2 a3 a4 hr i)

/-- THE MASKED TABLE: the membership times the table's row at the row's hard prototype. -/
theorem vtab_read (hr : ∀ i, (a3 i).toNat < 100) (pd : Fin 100 → Fin 100 → EReal) (mem : Fin 8192 → Fin 100 → Bool) (hW : ∀ p q : Fin 100, res_main_v99 (F := Ideal) a0 a1 a2 a3 a4 (ix2 p q) = Spec.W pd (Conv.hqOf a3) p q) (hmem : ∀ (i : Fin 8192) (q : Fin 100), res_main_v20 (F := Ideal) a0 a1 a2 a3 a4 (ix2 i q) = if mem i q = true then 1 else 0) (i : Fin 8192) (q : Fin 100) : res_main_v107 (F := Ideal) a0 a1 a2 a3 a4 (ix2 i q) = Spec.vtab pd (Conv.hqOf a3) mem i q := by
  have hrow : ∀ hlt, (⟨min (res_main_v105 (F := Ideal) a0 a1 a2 a3 a4 (ix2 i (0 : Fin 1))).toInt.toNat 99, hlt⟩ : Fin 100) = Conv.hqOf a3 i := by
    intro hlt
    refine Fin.ext ?_
    show min (res_main_v105 (F := Ideal) a0 a1 a2 a3 a4 (ix2 i (0 : Fin 1))).toInt.toNat 99 = (word a3 i).toNat % 100
    rw [v105_read a0 a1 a2 a3 a4 hr i, clamp_id _ (hr _), Nat.mod_eq_of_lt (hr _)]
  unfold res_main_v107
  rw [mulf_apply, hmem]
  unfold res_main_v106
  refine congrArg _ ((gather_rows _ _ i q).trans ?_)
  rw [hrow, hW]

end Stages

/-! ## After the launch: the diagonal, the denominator, the loss -/

section Final
variable (a0 a1 : (⟨S4096x256, .f32⟩ : BufTy).Contents (Elt Ideal)) (a2 : (⟨S100x256, .f32⟩ : BufTy).Contents (Elt Ideal))
  (a3 : (⟨S2x4096, .i32⟩ : BufTy).Contents (Elt Ideal)) (a4 : (⟨S2x4096x10, .i32⟩ : BufTy).Contents (Elt Ideal))
  (r : (⟨S8x8x128, .f32⟩ : BufTy).Contents (Elt Ideal))

/-- The zero word as a rank-0 array. -/
theorem zero_read (j : S_.Idx) : constant (F := Ideal) S_ .f32 0x00000000#32 j = 0 := by
  rw [constant_apply, Ideal.ofBits_zero_f32]

/-- The blocks' accumulators: lane 0 of row 0 of each, summed. -/
theorem v119_read :
    res_main_v119 (F := Ideal) a0 a1 a2 a3 a4 r ix0 = ∑ bi : Fin 8, r (ix3 bi (0 : Fin 8) (0 : Fin 128)) := by
  unfold res_main_v119
  refine (sum_8 _ _ _ _).trans ?_
  unfold res_main_cst_24
  rw [zero_read, zero_add]
  refine Finset.sum_congr rfl fun bi _ => ?_
  unfold res_main_v118 res_main_v117
  exact (squeeze_read _ _ bi).trans (slice_read _ r bi)

/-- A row's inner product with itself. -/
theorem v122_read (o : Fin 8192 → Fin 256 → EReal)
    (hout : ∀ (i : Fin 8192) (k : Fin 256), res_main_v109 (F := Ideal) a0 a1 a2 a3 a4 (ix2 i k) = o i k) (i : Fin 8192) :
    res_main_v122 (F := Ideal) a0 a1 a2 a3 a4 r (ix1 i) = Spec.gram o i i := by
  unfold res_main_v122
  refine (rowsum_8192x256 _ _ _ _ i).trans ?_
  unfold res_main_cst_25
  rw [zero_read, zero_add]
  unfold Spec.gram
  refine Finset.sum_congr rfl fun k _ => ?_
  unfold res_main_v121 res_main_v120
  simp only [mulf_apply, extf_apply, hout]

/-- Its exponential at the temperature. -/
theorem v125_read (o : Fin 8192 → Fin 256 → EReal)
    (hout : ∀ (i : Fin 8192) (k : Fin 256), res_main_v109 (F := Ideal) a0 a1 a2 a3 a4 (ix2 i k) = o i k) (i : Fin 8192) :
    res_main_v125 (F := Ideal) a0 a1 a2 a3 a4 r (ix1 i) = Ideal.exp (Ideal.div (Spec.gram o i i) Spec.tau) := by
  unfold res_main_v125 res_main_v124 res_main_v123 res_main_cst_26
  rw [hostExp_apply, hostDivf_apply, broadcastInDim_scalar_apply, constant_apply, v122_read a0 a1 a2 a3 a4 r o hout i]

/-- The masked table row against the row's own prototype. -/
theorem v127_read (pd : Fin 100 → Fin 100 → EReal) (hq : Fin 8192 → Fin 100) (mem : Fin 8192 → Fin 100 → Bool)
    (hv : ∀ (i : Fin 8192) (q : Fin 100), res_main_v107 (F := Ideal) a0 a1 a2 a3 a4 (ix2 i q) = Spec.vtab pd hq mem i q)
    (hoh : ∀ (j : Fin 8192) (q : Fin 100), res_main_v26 (F := Ideal) a0 a1 a2 a3 a4 (ix2 j q) = Spec.oh hq j q) (i : Fin 8192) :
    res_main_v127 (F := Ideal) a0 a1 a2 a3 a4 r (ix1 i) = ∑ q, Spec.vtab pd hq mem i q * Spec.oh hq i q := by
  unfold res_main_v127
  refine (rowsum_8192x100 _ _ _ _ i).trans ?_
  unfold res_main_cst_27
  rw [zero_read, zero_add]
  refine Finset.sum_congr rfl fun q _ => ?_
  unfold res_main_v126
  rw [mulf_apply, hv, hoh]

/-- The diagonal's sum. -/
theorem v129_read (o : Fin 8192 → Fin 256 → EReal) (pd : Fin 100 → Fin 100 → EReal) (hq : Fin 8192 → Fin 100)
    (mem : Fin 8192 → Fin 100 → Bool)
    (hout : ∀ (i : Fin 8192) (k : Fin 256), res_main_v109 (F := Ideal) a0 a1 a2 a3 a4 (ix2 i k) = o i k)
    (hv : ∀ (i : Fin 8192) (q : Fin 100), res_main_v107 (F := Ideal) a0 a1 a2 a3 a4 (ix2 i q) = Spec.vtab pd hq mem i q)
    (hoh : ∀ (j : Fin 8192) (q : Fin 100), res_main_v26 (F := Ideal) a0 a1 a2 a3 a4 (ix2 j q) = Spec.oh hq j q) :
    res_main_v129 (F := Ideal) a0 a1 a2 a3 a4 r ix0 = Spec.kerDiag (Spec.gram o) pd hq mem := by
  unfold res_main_v129
  refine (sum_8192 _ _ _ _).trans ?_
  unfold res_main_cst_28
  rw [zero_read, zero_add]
  unfold Spec.kerDiag
  refine Finset.sum_congr rfl fun i _ => ?_
  unfold res_main_v128
  rw [mulf_apply, v125_read a0 a1 a2 a3 a4 r o hout i, v127_read a0 a1 a2 a3 a4 r pd hq mem hv hoh i]

end Final

section Loss
variable (a0 a1 : (⟨S4096x256, .f32⟩ : BufTy).Contents (Elt Ideal)) (a2 : (⟨S100x256, .f32⟩ : BufTy).Contents (Elt Ideal))
  (a3 : (⟨S2x4096, .i32⟩ : BufTy).Contents (Elt Ideal)) (a4 : (⟨S2x4096x10, .i32⟩ : BufTy).Contents (Elt Ideal))

/-- THE END OF THE PROGRAM: the loss of the positives against the blocks' sum less the diagonal. -/
theorem final_read (r : (⟨S8x8x128, .f32⟩ : BufTy).Contents (Elt Ideal)) (o : Fin 8192 → Fin 256 → EReal) (pd : Fin 100 → Fin 100 → EReal) (hq : Fin 8192 → Fin 100) (mem : Fin 8192 → Fin 100 → Bool) (ps : Fin 8192 → EReal)
    (hout : ∀ (i : Fin 8192) (k : Fin 256), res_main_v109 (F := Ideal) a0 a1 a2 a3 a4 (ix2 i k) = o i k) (hv : ∀ (i : Fin 8192) (q : Fin 100), res_main_v107 (F := Ideal) a0 a1 a2 a3 a4 (ix2 i q) = Spec.vtab pd hq mem i q)
    (hoh : ∀ (j : Fin 8192) (q : Fin 100), res_main_v26 (F := Ideal) a0 a1 a2 a3 a4 (ix2 j q) = Spec.oh hq j q) (hpos : ∀ i : Fin 8192, res_main_v115 (F := Ideal) a0 a1 a2 a3 a4 (ix1 i) = ps i) :
    res_main_v136 (F := Ideal) a0 a1 a2 a3 a4 r ix0 = Spec.loss ps ((∑ bi : Fin 8, r (ix3 bi (0 : Fin 8) (0 : Fin 128))) - Spec.kerDiag (Spec.gram o) pd hq mem) := by
  unfold res_main_v136 res_main_cst_30 Spec.loss
  rw [hostDivf_apply, constant_apply, ofBits_8192]
  refine congrArg (Ideal.div · 8192) ?_
  unfold res_main_v135
  refine (sum_8192 _ _ _ _).trans ?_
  unfold res_main_cst_29
  rw [zero_read, zero_add]
  refine Finset.sum_congr rfl fun i _ => ?_
  unfold res_main_v134 res_main_v133 res_main_v132 res_main_v131 res_main_v130
  rw [hostNegf_apply, hostLog_apply, hostDivf_apply, broadcastInDim_scalar_apply, subf_apply, hpos,
    v119_read a0 a1 a2 a3 a4 r, v129_read a0 a1 a2 a3 a4 r o pd hq mem hout hv hoh]

end Loss

end Cert.KernelIdeal.Read

end
-- ==== Proof.KIRegion.lean ====
/-
  The value the kernel launch leaves in its output, at the extended reals, as plain sums.
  One grid point (bi, bj) adds to block bi's accumulator the scalar
    ∑ r ∑ q v[bi·1024 + r, q] · ∑ s exp(⟨o[bi·1024 + r], o[bj·1024 + s]⟩ · κ) · oh[bj·1024 + s, q],
  the same at every position of the 8 × 128 tile; the accumulator starts at zero, so after the eight column steps
  block bi holds the sum over bj of these scalars.
-/
import proofs.«427632_j79637283602625_3_alg».proof.Proof.KIRegionDef
import proofs.«427632_j79637283602625_3_alg».proof.Proof.Spec
import proofs.«427632_j79637283602625_3_alg».proof.Proof.Gen.KernelIdeal
import Idealize.ShloMosaic.Lib.ValueLayout
import Idealize.ShloMosaic.PureOps.Ideal.Laws
import Idealize.ShloMosaic.PureOps.IdealRules

noncomputable section

open scoped BigOperators

namespace Cert.KernelIdeal.Hand

open Cert.KernelIdeal Cert.KernelIdeal.Gen Idealize.ShloMosaic Idealize.ShloMosaic.ValueIdx Cert

/-! ## The non-pointwise operations read at an index -/

/-- A plain product of an m×k by a k×n matrix accumulated into the zero tile, read at an index: the sum over the
    contracted coordinate of the products of the entries. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum along the rows of an a×b matrix, read at a row. -/
theorem rowsum_apply {a b : Nat} {φ : FTy} (V : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ V acc h hφ hacc (ix1 r) = ∑ q : Fin b, V (ix2 r q) := by
  rw [Ideal.multiReduction_add_single]
  refine Finset.sum_congr rfl fun q _ => congrArg V ?_
  funext ax; apply Fin.ext
  match ax with
  | ⟨0, _⟩ => rfl
  | ⟨1, _⟩ => rfl

/-- The sum down the one column of an a×1 matrix. -/
theorem colsum_apply {a : Nat} {φ : FTy} (V : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction (F := Ideal) .add [0] ⟨1, ![1]⟩ V acc h hφ hacc (ix1 u) = ∑ r : Fin a, V (ix2 r (0 : Fin 1)) := by
  rw [Ideal.multiReduction_add_single]
  refine Finset.sum_congr rfl fun q _ => congrArg V ?_
  funext ax; apply Fin.ext
  match ax with
  | ⟨0, _⟩ => rfl
  | ⟨1, _⟩ => show (u : ℕ) = 0; omega

variable {α : Type}

/-- A vector of length a viewed as an a×1 column reads, at (r, u), the vector at r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The one entry of a 1×1×1 tile spread over a 1×a×b tile reads that entry everywhere. -/
theorem broadcastTo_111_1ab_apply {a b : ℕ} (v : (⟨3, ![1, 1, 1]⟩ : Shape).Idx → α)
    (h : (⟨3, ![1, 1, 1]⟩ : Shape).Broadcasts ⟨3, ![1, a, b]⟩) (u : Fin 1) (p : Fin a) (c : Fin b) :
    broadcastTo ⟨3, ![1, a, b]⟩ v h (ix3 u p c) = v (ix3 (0 : Fin 1) (0 : Fin 1) (0 : Fin 1)) := by
  refine broadcastTo_apply v h (ix3 u p c) (ix3 (0 : Fin 1) (0 : Fin 1) (0 : Fin 1)) fun ax => ?_
  match ax with
  | ⟨0, _⟩ => rfl
  | ⟨1, _⟩ => rfl
  | ⟨2, _⟩ => rfl

/-! ## The body's arithmetic at an index -/

/-- The named constant is the exact reciprocal of the temperature. -/
theorem inv_temperature_eq :
    Named.named (F := Ideal) Cert.KernelIdeal.κ "inv_temperature" (φ := .f32) 0x40A00000#32 = Spec.kappa :=
  IdealRules.named_const.ideal_named_scalar _ _ _ _ rfl

/-- The similarity tile: inner products of the rows of the two blocks. -/
theorem sim_apply (X Y : FVec Ideal S1024x256 .bf16) (r s : Fin 1024) :
    matmul dot_S1024x256_S256x1024_S1024x1024_1_0_0_1_n_n none X
        (transpose S256x1024 [1, 0] Y transposes_S1024x256_p1_0_S256x1024) (constant (F := Ideal) S1024x1024 .f32 0x00000000#32) (ix2 r s)
      = ∑ k : Fin 256, X (ix2 r k) * Y (ix2 s k) := by
  refine (matmul_plain_zero_apply dot_S1024x256_S256x1024_S1024x1024_1_0_0_1_n_n_wf none X _ r s).trans ?_
  refine Finset.sum_congr rfl fun k _ => ?_
  rw [transpose_ix2_apply]

/-- The selection product: the tile against the one-hot block. -/
theorem sel_apply (E : FVec Ideal S1024x1024 .bf16) (Z : FVec Ideal S1024x100 .bf16) (r : Fin 1024) (q : Fin 100) :
    matmul dot_S1024x1024_S1024x100_S1024x100_1_0_0_1_n_n none E Z (constant (F := Ideal) S1024x100 .f32 0x00000000#32) (ix2 r q)
      = ∑ s : Fin 1024, E (ix2 r s) * Z (ix2 s q) :=
  matmul_plain_zero_apply dot_S1024x1024_S1024x100_S1024x100_1_0_0_1_n_n_wf none E Z r q

/-- The exponential of a tile at an index. -/
theorem vexp_apply {s : Shape} {φ : FTy} (a : FVec Ideal s φ) (i : s.Idx) : exp a i = Ideal.exp (a i) := rfl

/-- What one grid point adds: the accumulator plus the weighted, selected, exponentiated similarities, summed over the tile. -/
theorem pay2_apply (x y : FVec Ideal S1024x256 .bf16) (z : FVec Ideal S1024x100 .bf16) (w : FVec Ideal S1024x100 .f32)
    (acc : FVec Ideal S1x8x128 .f32) (a : Fin 8) (b : Fin 128) :
    k0_pay2 (F := Ideal) x y z w acc (ix3 (0 : Fin 1) a b)
      = acc (ix3 (0 : Fin 1) a b) + ∑ r : Fin 1024, ∑ q : Fin 100, w (ix2 r q) *
          ∑ s : Fin 1024, Ideal.exp ((∑ k : Fin 256, x (ix2 r k) * y (ix2 s k)) * Spec.kappa) * z (ix2 s q) := by
  unfold k0_pay2
  simp only [shapeCast_self]
  rw [addf_apply]
  refine congrArg (acc (ix3 (0 : Fin 1) a b) + ·) ?_
  rw [broadcastTo_111_1ab_apply, shapeCast_ab_1ab_apply, shapeCast_a_1a_apply]
  refine (colsum_apply _ _ _ _ _ _).trans ?_
  refine Finset.sum_congr rfl fun r _ => ?_
  rw [shapeCast_a_a1_apply]
  refine (rowsum_apply _ _ _ _ _ _).trans ?_
  refine Finset.sum_congr rfl fun q _ => ?_
  rw [mulf_apply, sel_apply]
  refine congrArg (w (ix2 r q) * ·) ?_
  refine Finset.sum_congr rfl fun s _ => ?_
  rw [truncf_apply, vexp_apply, mulf_apply, sim_apply, broadcast_apply, inv_temperature_eq]

/-- The cleared tile is zero everywhere. -/
theorem pay1_apply (idx : S1x8x128.Idx) : k0_pay1 (F := Ideal) idx = 0 := by
  show Ideal.ofBits .f32 0x00000000#32 = 0
  exact Ideal.ofBits_zero_f32

/-- A row block at an index is the array at the block's row. -/
theorem rowBlock_apply {n : ℕ} {φ : EltTy} (A : (⟨2, ![8192, n]⟩ : Shape).Idx → Elt Ideal φ) (b : Fin 8) (r : Fin 1024) (k : Fin n) :
    rowBlock (F := Ideal) A b (ix2 r k) = A (ix2 (Spec.row b r) k) := rfl

/-! ## The eight column steps of one row block -/

section Launch

variable (o : (⟨S8192x256, .bf16⟩ : BufTy).Contents (Elt Ideal)) (v : (⟨S8192x100, .f32⟩ : BufTy).Contents (Elt Ideal))
  (oh : (⟨S8192x100, .bf16⟩ : BufTy).Contents (Elt Ideal))
  (O : Fin 8192 → Fin 256 → EReal) (pd : Fin 100 → Fin 100 → EReal) (hq : Fin 8192 → Fin 100) (mem : Fin 8192 → Fin 100 → Bool)
  (ho : ∀ (i : Fin 8192) (k : Fin 256), o (ix2 i k) = O i k)
  (hv : ∀ (i : Fin 8192) (q : Fin 100), v (ix2 i q) = Spec.vtab pd hq mem i q)
  (hoh : ∀ (j : Fin 8192) (q : Fin 100), oh (ix2 j q) = Spec.oh hq j q)

include ho hv hoh

/-- Grid point (bi, bj) adds the specification's tile (bi, bj) to the accumulator. -/
theorem step_apply (bi bj : Fin 8) (acc : FVec Ideal S1x8x128 .f32) (a : Fin 8) (b : Fin 128) :
    k0_pay2 (F := Ideal) (rowBlock o bi) (rowBlock o bj) (rowBlock oh bj) (rowBlock v bi) acc (ix3 (0 : Fin 1) a b)
      = acc (ix3 (0 : Fin 1) a b) + Spec.tile (Spec.gram O) pd hq mem bi bj := by
  refine (pay2_apply _ _ _ _ acc a b).trans ?_
  refine congrArg (acc (ix3 (0 : Fin 1) a b) + ·) ?_
  unfold Spec.tile Spec.gram
  refine Finset.sum_congr rfl fun r _ => Finset.sum_congr rfl fun q _ => ?_
  rw [rowBlock_apply, hv]
  refine congrArg (Spec.vtab pd hq mem (Spec.row bi r) q * ·) (Finset.sum_congr rfl fun s _ => ?_)
  rw [rowBlock_apply, hoh]
  refine congrArg (fun t => Ideal.exp (t * Spec.kappa) * Spec.oh hq (Spec.row bj s) q) (Finset.sum_congr rfl fun k _ => ?_)
  rw [rowBlock_apply, rowBlock_apply, ho, ho]

/-- After the column steps 0 … n block bi's accumulator holds the sum of the tiles (bi, 0) … (bi, n). -/
theorem accAt_apply (bi : Fin 8) (n : ℕ) (h : n < 8) (a : Fin 8) (b : Fin 128) :
    accAt (F := Ideal) o v oh bi n h (ix3 (0 : Fin 1) a b)
      = ∑ j : Fin (n + 1), Spec.tile (Spec.gram O) pd hq mem bi ⟨j.val, Nat.lt_of_lt_of_le j.isLt h⟩ := by
  induction n with
  | zero =>
    show k0_pay2 (F := Ideal) (rowBlock o bi) (rowBlock o 0) (rowBlock oh 0) (rowBlock v bi) (k0_pay1 (F := Ideal)) (ix3 (0 : Fin 1) a b) = _
    rw [step_apply o v oh O pd hq mem ho hv hoh, pay1_apply, zero_add, Fin.sum_univ_one]
    rfl
  | succ n ih =>
    show k0_pay2 (F := Ideal) (rowBlock o bi) (rowBlock o ⟨n + 1, h⟩) (rowBlock oh ⟨n + 1, h⟩) (rowBlock v bi)
        (accAt (F := Ideal) o v oh bi n (by omega)) (ix3 (0 : Fin 1) a b) = _
    rw [step_apply o v oh O pd hq mem ho hv hoh, ih]
    exact (Fin.sum_univ_castSucc
      (fun j : Fin (n + 1 + 1) => Spec.tile (Spec.gram O) pd hq mem bi ⟨j.val, Nat.lt_of_lt_of_le j.isLt h⟩)).symm

end Launch

/-- The launch leaves in block bi of the output the sum over bj of the specification's tiles (bi, bj). -/
theorem region_value (o : (⟨S8192x256, .bf16⟩ : BufTy).Contents (Elt Ideal)) (v : (⟨S8192x100, .f32⟩ : BufTy).Contents (Elt Ideal)) (oh : (⟨S8192x100, .bf16⟩ : BufTy).Contents (Elt Ideal))
    (O : Fin 8192 → Fin 256 → EReal) (pd : Fin 100 → Fin 100 → EReal) (hq : Fin 8192 → Fin 100) (mem : Fin 8192 → Fin 100 → Bool)
    (ho : ∀ (i : Fin 8192) (k : Fin 256), o (ix2 i k) = O i k) (hv : ∀ (i : Fin 8192) (q : Fin 100), v (ix2 i q) = Spec.vtab pd hq mem i q) (hoh : ∀ (j : Fin 8192) (q : Fin 100), oh (ix2 j q) = Spec.oh hq j q) (bi : Fin 8) :
    regionOut (F := Ideal) o v oh (ix3 bi (0 : Fin 8) (0 : Fin 128)) = ∑ bj : Fin 8, Spec.tile (Spec.gram O) pd hq mem bi bj := by
  show accAt (F := Ideal) o v oh bi 7 (by norm_num) (ix3 (0 : Fin 1) (0 : Fin 8) (0 : Fin 128)) = _
  rw [accAt_apply o v oh O pd hq mem ho hv hoh]

end Cert.KernelIdeal.Hand

end
-- ==== Proof.RefReadA.lean ====
/-
  The reference's first stages read entry by entry on the extended reals: each view's rows divided by their floored Euclidean
  norms and stacked (8192 unit rows), the table of their inner products, its entrywise exponential at temperature τ, the
  positive pair's similarity of every row, and the prototype distances 1 − ⟨w_p, w_q⟩ of the unit prototypes.
-/
import proofs.«427632_j79637283602625_3_alg».proof.Proof.RefStages
import proofs.«427632_j79637283602625_3_alg».proof.Proof.Conv
import proofs.«427632_j79637283602625_3_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open Cert.ReferenceIdeal Cert.ReferenceIdeal.Stages Idealize.ShloMosaic Idealize.ShloMosaic.ValueIdx Cert
open Cert.ReferenceIdeal.Facts₀ Cert.ReferenceIdeal.Facts
open scoped BigOperators

namespace Cert.ReferenceIdeal.Read

/-! ## Square root and exponential at an entry -/

theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl

/-! ## Rows of an [n, 256] array -/

section Rows
variable {n : ℕ}

/-- The sum along a row: the initial value plus the row's 256 entries. -/
theorem rowsum (h' : (⟨2, ![n, 256]⟩ : Shape).ReducesTo [1] ⟨1, ![n]⟩) (h : (⟨2, ![n, 256]⟩ : Shape).Reduces [1] ⟨1, ![n]⟩)
    (hu : 0 < (⟨0, ![]⟩ : Shape).numel) (y : FVec Ideal ⟨2, ![n, 256]⟩ .f32) (c : FVec Ideal ⟨0, ![]⟩ .f32) (i : Fin n) :
    Host.reduceAdd y c h' hu (ix1 i) = c ix0 + ∑ k : Fin 256, y (ix2 i k) := by
  simp only [Host.reduceAdd, Ideal.hostReduceAdd_def]
  rw [Ideal.hostReduceAdd_single h' h]
  refine congr (congrArg _ (congrArg c (funext fun a => a.elim0))) (Finset.sum_congr rfl fun k _ => ?_)
  exact congrArg y (funext fun a => Fin.ext (by match a with | ⟨0, _⟩ => rfl | ⟨1, _⟩ => rfl))

/-- A vector of n entries as an [n, 1] column. -/
theorem col {α : Type} (hb : (⟨1, ![n]⟩ : Shape).BroadcastsInDim ⟨2, ![n, 1]⟩ ![0]) (y : (⟨1, ![n]⟩ : Shape).Idx → α)
    (i : Fin n) (z : Fin 1) : broadcastInDim ⟨2, ![n, 1]⟩ ![0] hb y (ix2 i z) = y (ix1 i) :=
  broadcastInDim_apply _ _ y _ _ fun a => match a with
    | ⟨0, _⟩ => by
      show i.val = if n = 1 then 0 else i.val
      split_ifs with h1
      · have := i.isLt; omega
      · rfl

/-- An [n, 1] column repeated along 256 columns. -/
theorem spread {α : Type} (hb : (⟨2, ![n, 1]⟩ : Shape).BroadcastsInDim ⟨2, ![n, 256]⟩ ![0, 1]) (y : (⟨2, ![n, 1]⟩ : Shape).Idx → α)
    (i : Fin n) (k : Fin 256) : broadcastInDim ⟨2, ![n, 256]⟩ ![0, 1] hb y (ix2 i k) = y (ix2 i 0) :=
  broadcastInDim_apply _ _ y _ _ fun a => match a with
    | ⟨0, _⟩ => by
      show i.val = if n = 1 then 0 else i.val
      split_ifs with h1
      · have := i.isLt; omega
      · rfl
    | ⟨1, _⟩ => rfl

/-- Every row divided by its floored Euclidean norm, at an entry. -/
theorem unitRows (h' : (⟨2, ![n, 256]⟩ : Shape).ReducesTo [1] ⟨1, ![n]⟩) (h : (⟨2, ![n, 256]⟩ : Shape).Reduces [1] ⟨1, ![n]⟩)
    (hu : 0 < (⟨0, ![]⟩ : Shape).numel) (hc : (⟨1, ![n]⟩ : Shape).BroadcastsInDim ⟨2, ![n, 1]⟩ ![0])
    (he : (⟨0, ![]⟩ : Shape).BroadcastsInDim ⟨2, ![n, 1]⟩ ![]) (hs : (⟨2, ![n, 1]⟩ : Shape).BroadcastsInDim ⟨2, ![n, 256]⟩ ![0, 1])
    (x : FVec Ideal ⟨2, ![n, 256]⟩ .f32) (i : Fin n) (k : Fin 256) :
    Host.divf x (broadcastInDim ⟨2, ![n, 256]⟩ ![0, 1] hs
      (maximumf (Host.sqrt (broadcastInDim ⟨2, ![n, 1]⟩ ![0] hc
          (Host.reduceAdd (mulf x x) (constant (F := Ideal) ⟨0, ![]⟩ .f32 0x00000000#32) h' hu)))
        (broadcastInDim ⟨2, ![n, 1]⟩ ![] he (constant (F := Ideal) ⟨0, ![]⟩ .f32 0x2B8CBCCC#32)))) (ix2 i k)
      = Spec.unit (Conv.mat x) i k := by
  rw [hostDivf_apply, spread, maximumf_apply, hostSqrt_apply, col, rowsum h' h, broadcastInDim_scalar_apply,
    constant_apply, constant_apply, Ideal.ofBits_zero_f32, zero_add]
  rfl

end Rows

/-! ## The two inner-product tables

Each entry of a product of an [m, 256] array with a [256, m] array is the sum over the one contracted coordinate; the
operand indices at an output index and a contraction index are read axis by axis. -/

theorem lhs_gram_0 (i : S8192x8192.Idx) (q : dot_S8192x256_S256x8192_S8192x8192_1_0_0_1_n_n.contr.Idx) :
    (dot_S8192x256_S256x8192_S8192x8192_1_0_0_1_n_n.lhsIdx i q 0).val = (i 0).val := by
  unfold DotDims.lhsIdx
  rw [dif_neg (show ¬(0 : Fin S8192x256.rank) ∈ dot_S8192x256_S256x8192_S8192x8192_1_0_0_1_n_n.lhsBatch by decide),
    dif_pos (show (0 : Fin S8192x256.rank) ∈ dot_S8192x256_S256x8192_S8192x8192_1_0_0_1_n_n.lhsNonContracting by decide)]
  rfl
theorem lhs_gram_1 (i : S8192x8192.Idx) (q : dot_S8192x256_S256x8192_S8192x8192_1_0_0_1_n_n.contr.Idx) :
    (dot_S8192x256_S256x8192_S8192x8192_1_0_0_1_n_n.lhsIdx i q 1).val = (q ⟨0, by decide⟩).val :=
  dot_S8192x256_S256x8192_S8192x8192_1_0_0_1_n_n.lhsIdx_val_of_single rfl i q
theorem rhs_gram_0 (i : S8192x8192.Idx) (q : dot_S8192x256_S256x8192_S8192x8192_1_0_0_1_n_n.contr.Idx) :
    (dot_S8192x256_S256x8192_S8192x8192_1_0_0_1_n_n.rhsIdx i q 0).val = (q ⟨0, by decide⟩).val :=
  dot_S8192x256_S256x8192_S8192x8192_1_0_0_1_n_n.rhsIdx_val_of_single rfl i q
theorem rhs_gram_1 (i : S8192x8192.Idx) (q : dot_S8192x256_S256x8192_S8192x8192_1_0_0_1_n_n.contr.Idx) :
    (dot_S8192x256_S256x8192_S8192x8192_1_0_0_1_n_n.rhsIdx i q 1).val = (i 1).val := by
  unfold DotDims.rhsIdx
  rw [dif_neg (show ¬(1 : Fin S256x8192.rank) ∈ dot_S8192x256_S256x8192_S8192x8192_1_0_0_1_n_n.rhsBatch by decide),
    dif_pos (show (1 : Fin S256x8192.rank) ∈ dot_S8192x256_S256x8192_S8192x8192_1_0_0_1_n_n.rhsNonContracting by decide)]
  rfl

/-- The table of inner products of 8192 rows, at an entry. -/
theorem dot_gram (l : FVec Ideal S8192x256 .f32) (r : FVec Ideal S256x8192 .f32) (i j : Fin 8192) :
    Host.dotGeneral dot_S8192x256_S256x8192_S8192x8192_1_0_0_1_n_n none l r (ix2 i j) = ∑ k : Fin 256, l (ix2 i k) * r (ix2 k j) := by
  simp only [Host.dotGeneral]
  rw [Ideal.dotGeneral_apply, ← Equiv.sum_comp (ValueIdx.contrEquiv1 dot_S8192x256_S256x8192_S8192x8192_1_0_0_1_n_n 256 rfl rfl).symm]
  refine Finset.sum_congr rfl fun k _ => ?_
  have hk := ValueIdx.contrEquiv1_symm_val dot_S8192x256_S256x8192_S8192x8192_1_0_0_1_n_n 256 rfl rfl k
  have el : dot_S8192x256_S256x8192_S8192x8192_1_0_0_1_n_n.lhsIdx (ix2 i j)
      ((ValueIdx.contrEquiv1 dot_S8192x256_S256x8192_S8192x8192_1_0_0_1_n_n 256 rfl rfl).symm k) = ix2 i k := funext fun a => Fin.ext (by
    match a with
    | ⟨0, _⟩ => exact lhs_gram_0 _ _
    | ⟨1, _⟩ => exact (lhs_gram_1 _ _).trans hk)
  have er : dot_S8192x256_S256x8192_S8192x8192_1_0_0_1_n_n.rhsIdx (ix2 i j)
      ((ValueIdx.contrEquiv1 dot_S8192x256_S256x8192_S8192x8192_1_0_0_1_n_n 256 rfl rfl).symm k) = ix2 k j := funext fun a => Fin.ext (by
    match a with
    | ⟨0, _⟩ => exact (rhs_gram_0 _ _).trans hk
    | ⟨1, _⟩ => exact rhs_gram_1 _ _)
  rw [el, er]

theorem lhs_proto_0 (i : S100x100.Idx) (q : dot_S100x256_S256x100_S100x100_1_0_0_1_n_n.contr.Idx) :
    (dot_S100x256_S256x100_S100x100_1_0_0_1_n_n.lhsIdx i q 0).val = (i 0).val := by
  unfold DotDims.lhsIdx
  rw [dif_neg (show ¬(0 : Fin S100x256.rank) ∈ dot_S100x256_S256x100_S100x100_1_0_0_1_n_n.lhsBatch by decide),
    dif_pos (show (0 : Fin S100x256.rank) ∈ dot_S100x256_S256x100_S100x100_1_0_0_1_n_n.lhsNonContracting by decide)]
  rfl
theorem lhs_proto_1 (i : S100x100.Idx) (q : dot_S100x256_S256x100_S100x100_1_0_0_1_n_n.contr.Idx) :
    (dot_S100x256_S256x100_S100x100_1_0_0_1_n_n.lhsIdx i q 1).val = (q ⟨0, by decide⟩).val :=
  dot_S100x256_S256x100_S100x100_1_0_0_1_n_n.lhsIdx_val_of_single rfl i q
theorem rhs_proto_0 (i : S100x100.Idx) (q : dot_S100x256_S256x100_S100x100_1_0_0_1_n_n.contr.Idx) :
    (dot_S100x256_S256x100_S100x100_1_0_0_1_n_n.rhsIdx i q 0).val = (q ⟨0, by decide⟩).val :=
  dot_S100x256_S256x100_S100x100_1_0_0_1_n_n.rhsIdx_val_of_single rfl i q
theorem rhs_proto_1 (i : S100x100.Idx) (q : dot_S100x256_S256x100_S100x100_1_0_0_1_n_n.contr.Idx) :
    (dot_S100x256_S256x100_S100x100_1_0_0_1_n_n.rhsIdx i q 1).val = (i 1).val := by
  unfold DotDims.rhsIdx
  rw [dif_neg (show ¬(1 : Fin S256x100.rank) ∈ dot_S100x256_S256x100_S100x100_1_0_0_1_n_n.rhsBatch by decide),
    dif_pos (show (1 : Fin S256x100.rank) ∈ dot_S100x256_S256x100_S100x100_1_0_0_1_n_n.rhsNonContracting by decide)]
  rfl

/-- The table of inner products of the 100 prototypes, at an entry. -/
theorem dot_proto (l : FVec Ideal S100x256 .f32) (r : FVec Ideal S256x100 .f32) (i j : Fin 100) :
    Host.dotGeneral dot_S100x256_S256x100_S100x100_1_0_0_1_n_n none l r (ix2 i j) = ∑ k : Fin 256, l (ix2 i k) * r (ix2 k j) := by
  simp only [Host.dotGeneral]
  rw [Ideal.dotGeneral_apply, ← Equiv.sum_comp (ValueIdx.contrEquiv1 dot_S100x256_S256x100_S100x100_1_0_0_1_n_n 256 rfl rfl).symm]
  refine Finset.sum_congr rfl fun k _ => ?_
  have hk := ValueIdx.contrEquiv1_symm_val dot_S100x256_S256x100_S100x100_1_0_0_1_n_n 256 rfl rfl k
  have el : dot_S100x256_S256x100_S100x100_1_0_0_1_n_n.lhsIdx (ix2 i j)
      ((ValueIdx.contrEquiv1 dot_S100x256_S256x100_S100x100_1_0_0_1_n_n 256 rfl rfl).symm k) = ix2 i k := funext fun a => Fin.ext (by
    match a with
    | ⟨0, _⟩ => exact lhs_proto_0 _ _
    | ⟨1, _⟩ => exact (lhs_proto_1 _ _).trans hk)
  have er : dot_S100x256_S256x100_S100x100_1_0_0_1_n_n.rhsIdx (ix2 i j)
      ((ValueIdx.contrEquiv1 dot_S100x256_S256x100_S100x100_1_0_0_1_n_n 256 rfl rfl).symm k) = ix2 k j := funext fun a => Fin.ext (by
    match a with
    | ⟨0, _⟩ => exact (rhs_proto_0 _ _).trans hk
    | ⟨1, _⟩ => exact rhs_proto_1 _ _)
  rw [el, er]

/-! ## The stages -/

section
variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal))

/-- The first view's unit rows. -/
theorem unit0_read (i : Fin 4096) (k : Fin 256) :
    res_main_v4 (F := Ideal) a0 a1 a2 a3 a4 (ix2 i k) = Spec.unit (Conv.mat a0) i k :=
  unitRows reducesTo_S4096x256_S4096_d1 (by decide) h_S_ bcast_S4096_S4096x1_0 bcast_S_S4096x1 bcast_S4096x1_S4096x256_0_1 a0 i k
/-- The second view's unit rows. -/
theorem unit1_read (i : Fin 4096) (k : Fin 256) :
    res_main_v9 (F := Ideal) a0 a1 a2 a3 a4 (ix2 i k) = Spec.unit (Conv.mat a1) i k :=
  unitRows reducesTo_S4096x256_S4096_d1 (by decide) h_S_ bcast_S4096_S4096x1_0 bcast_S_S4096x1 bcast_S4096x1_S4096x256_0_1 a1 i k
/-- The unit prototypes. -/
theorem unitp_read (p : Fin 100) (k : Fin 256) :
    res_main_v37 (F := Ideal) a0 a1 a2 a3 a4 (ix2 p k) = Spec.unit (Conv.mat a2) p k :=
  unitRows reducesTo_S100x256_S100_d1 (by decide) h_S_ bcast_S100_S100x1_0 bcast_S_S100x1 bcast_S100x1_S100x256_0_1 a2 p k

/-- Two [4096, 256] arrays stacked: below row 4096 the first, from there on the second. -/
theorem stack_rows (x y : FVec Ideal S4096x256 .f32) (i : Fin 8192) (k : Fin 256) :
    concatenate S8192x256 0 [⟨S4096x256, x⟩, ⟨S4096x256, y⟩] concatenates_S4096x256_S4096x256_S8192x256_d0 (ix2 i k)
      = if h : i.val < 4096 then x (ix2 (⟨i.val, h⟩ : Fin 4096) k) else y (ix2 (⟨i.val - 4096, by omega⟩ : Fin 4096) k) := by
  by_cases h : i.val < 4096
  · rw [dif_pos h]
    exact concatenate_pair_apply_left (α := EReal) (t := S8192x256) (s₁ := S4096x256) (s₂ := S4096x256) 0 x y
      concatenates_S4096x256_S4096x256_S8192x256_d0 (ix2 i k) rfl (ix2 (⟨i.val, h⟩ : Fin 4096) k)
      (fun b => match b with | ⟨0, _⟩ => rfl | ⟨1, _⟩ => rfl)
  · rw [dif_neg h]
    have h2 : i.val - 4096 < 4096 := by omega
    have ha : (i.val - 4096) + 4096 = i.val := by omega
    exact concatenate_pair_apply_right (α := EReal) (t := S8192x256) (s₁ := S4096x256) (s₂ := S4096x256) 0 x y
      concatenates_S4096x256_S4096x256_S8192x256_d0 (ix2 i k) rfl rfl (ix2 (⟨i.val - 4096, h2⟩ : Fin 4096) k)
      (Fin.forall_fin_two.2 ⟨fun hb => (hb rfl).elim, fun _ => rfl⟩) ha

/-- Two vectors of 4096 entries stacked. -/
theorem stack_vec (x y : FVec Ideal S4096 .f32) (i : Fin 8192) :
    concatenate S8192 0 [⟨S4096, x⟩, ⟨S4096, y⟩] concatenates_S4096_S4096_S8192_d0 (ix1 i)
      = if h : i.val < 4096 then x (ix1 (⟨i.val, h⟩ : Fin 4096)) else y (ix1 (⟨i.val - 4096, by omega⟩ : Fin 4096)) := by
  by_cases h : i.val < 4096
  · rw [dif_pos h]
    exact concatenate_pair_apply_left (α := EReal) (t := S8192) (s₁ := S4096) (s₂ := S4096) 0 x y
      concatenates_S4096_S4096_S8192_d0 (ix1 i) rfl (ix1 (⟨i.val, h⟩ : Fin 4096))
      (fun b => match b with | ⟨0, _⟩ => rfl)
  · rw [dif_neg h]
    have h2 : i.val - 4096 < 4096 := by omega
    have ha : (i.val - 4096) + 4096 = i.val := by omega
    exact concatenate_pair_apply_right (α := EReal) (t := S8192) (s₁ := S4096) (s₂ := S4096) 0 x y
      concatenates_S4096_S4096_S8192_d0 (ix1 i) rfl rfl (ix1 (⟨i.val - 4096, h2⟩ : Fin 4096))
      (Fin.forall_fin_one.2 fun hb => (hb rfl).elim) ha

theorem out_read (i : Fin 8192) (k : Fin 256) : res_main_v10 (F := Ideal) a0 a1 a2 a3 a4 (ix2 i k) = Spec.out (Conv.mat a0) (Conv.mat a1) i k := by
  unfold Spec.out
  refine (stack_rows (res_main_v4 (F := Ideal) a0 a1 a2 a3 a4) (res_main_v9 (F := Ideal) a0 a1 a2 a3 a4) i k).trans ?_
  by_cases h : i.val < 4096
  · rw [dif_pos h, dif_pos h, unit0_read]
  · rw [dif_neg h, dif_neg h, unit1_read]

theorem gram_read (i j : Fin 8192) : res_main_v12 (F := Ideal) a0 a1 a2 a3 a4 (ix2 i j) = Spec.gram (Spec.out (Conv.mat a0) (Conv.mat a1)) i j := by
  unfold Spec.gram
  refine (dot_gram (res_main_v10 (F := Ideal) a0 a1 a2 a3 a4) (res_main_v11 (F := Ideal) a0 a1 a2 a3 a4) i j).trans ?_
  refine Finset.sum_congr rfl fun k _ => ?_
  have ht : res_main_v11 (F := Ideal) a0 a1 a2 a3 a4 (ix2 k j) = res_main_v10 (F := Ideal) a0 a1 a2 a3 a4 (ix2 j k) :=
    transpose_ix2_apply (α := EReal) (res_main_v10 (F := Ideal) a0 a1 a2 a3 a4) transposes_S8192x256_S256x8192_1_0 k j
  rw [ht, out_read, out_read]

theorem sim_read (i j : Fin 8192) : res_main_v15 (F := Ideal) a0 a1 a2 a3 a4 (ix2 i j) = Ideal.exp (Ideal.div (Spec.gram (Spec.out (Conv.mat a0) (Conv.mat a1)) i j) Spec.tau) := by
  rw [← gram_read a0 a1 a2 a3 a4]
  show Ideal.exp (Ideal.div (res_main_v12 (F := Ideal) a0 a1 a2 a3 a4 (ix2 i j))
    (broadcastInDim S8192x8192 ![] bcast_S_S8192x8192 (constant (F := Ideal) S_ .f32 0x3E4CCCCD#32) (ix2 i j))) = _
  rw [broadcastInDim_scalar_apply]
  rfl

theorem pos_read (i : Fin 8192) : res_main_v91 (F := Ideal) a0 a1 a2 a3 a4 (ix1 i) = Spec.pos (Conv.mat a0) (Conv.mat a1) i := by
  have h90 : ∀ r : Fin 4096, res_main_v90 (F := Ideal) a0 a1 a2 a3 a4 (ix1 r)
      = Ideal.exp (Ideal.div (∑ k, Spec.unit (Conv.mat a0) r k * Spec.unit (Conv.mat a1) r k) Spec.tau) := by
    intro r
    show Ideal.exp (Ideal.div (Host.reduceAdd (mulf (res_main_v4 (F := Ideal) a0 a1 a2 a3 a4) (res_main_v9 (F := Ideal) a0 a1 a2 a3 a4))
        (constant (F := Ideal) S_ .f32 0x00000000#32) reducesTo_S4096x256_S4096_d1 h_S_ (ix1 r))
      (broadcastInDim S4096 ![] bcast_S_S4096 (constant (F := Ideal) S_ .f32 0x3E4CCCCD#32) (ix1 r))) = _
    rw [rowsum reducesTo_S4096x256_S4096_d1 (by decide), broadcastInDim_scalar_apply, constant_apply, Ideal.ofBits_zero_f32, zero_add]
    refine congrArg Ideal.exp (congrArg₂ Ideal.div (Finset.sum_congr rfl fun k _ => ?_) rfl)
    rw [mulf_apply, unit0_read, unit1_read]
  unfold Spec.pos
  refine (stack_vec (res_main_v90 (F := Ideal) a0 a1 a2 a3 a4) (res_main_v90 (F := Ideal) a0 a1 a2 a3 a4) i).trans ?_
  by_cases h : i.val < 4096
  · have e : (⟨i.val % 4096, Nat.mod_lt _ (by norm_num)⟩ : Fin 4096) = ⟨i.val, h⟩ := Fin.ext (Nat.mod_eq_of_lt h)
    rw [dif_pos h, e, h90]
  · have h2 : i.val - 4096 < 4096 := by omega
    have e : (⟨i.val % 4096, Nat.mod_lt _ (by norm_num)⟩ : Fin 4096) = ⟨i.val - 4096, h2⟩ := Fin.ext (by show i.val % 4096 = i.val - 4096; omega)
    rw [dif_neg h, e, h90]

theorem pd_read (p q : Fin 100) : res_main_v41 (F := Ideal) a0 a1 a2 a3 a4 (ix2 p q) = Spec.pdist (Spec.unit (Conv.mat a2)) p q := by
  unfold Spec.pdist
  have h40 : res_main_v40 (F := Ideal) a0 a1 a2 a3 a4 (ix2 p q) = 1 := by
    show broadcastInDim S100x100 ![] bcast_S_S100x100 (constant (F := Ideal) S_ .f32 0x3F800000#32) (ix2 p q) = 1
    rw [broadcastInDim_scalar_apply, constant_apply, Ideal.ofBits_one_f32]
  have h39 : res_main_v39 (F := Ideal) a0 a1 a2 a3 a4 (ix2 p q)
      = ∑ k, Spec.unit (Conv.mat a2) p k * Spec.unit (Conv.mat a2) q k := by
    refine (dot_proto (res_main_v37 (F := Ideal) a0 a1 a2 a3 a4) (res_main_v38 (F := Ideal) a0 a1 a2 a3 a4) p q).trans ?_
    refine Finset.sum_congr rfl fun k _ => ?_
    have ht : res_main_v38 (F := Ideal) a0 a1 a2 a3 a4 (ix2 k q) = res_main_v37 (F := Ideal) a0 a1 a2 a3 a4 (ix2 q k) :=
      transpose_ix2_apply (α := EReal) (res_main_v37 (F := Ideal) a0 a1 a2 a3 a4) transposes_S100x256_S256x100_1_0 k q
    rw [ht, unitp_read, unitp_read]
  show res_main_v40 (F := Ideal) a0 a1 a2 a3 a4 (ix2 p q) - res_main_v39 (F := Ideal) a0 a1 a2 a3 a4 (ix2 p q) = _
  rw [h40, h39]

end

end Cert.ReferenceIdeal.Read
end
-- ==== Proof.RefReadB.lean ====
/-
  The reference's integer stages, read at an index, are the specification's index functions: the reshaped hard prototype
  ids (row j of the two stacked views is row j % 4096 of view j / 4096), the identity mask (two iotas compared), the
  membership "prototype q is among row i's ten negatives" (an OR over the negatives of a comparison with an iota), its
  columns taken at the hard prototype ids, the mask "another row whose hard prototype is among this row's negatives",
  and the row of prototype distances with the diagonal forced to zero (a gather of the distance matrix at the pair of ids).
  Under the precondition every id is a word in [0, 100): index normalisation leaves it alone, the in-range test is true,
  and the gathers' clamps are the identity.
-/
import proofs.«427632_j79637283602625_3_alg».proof.Proof.RefStages
import proofs.«427632_j79637283602625_3_alg».proof.Proof.Conv
import proofs.«427632_j79637283602625_3_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.ReduceAll

noncomputable section

open Cert.ReferenceIdeal Cert.ReferenceIdeal.Stages Idealize.ShloMosaic Idealize.ShloMosaic.ValueIdx Cert
open scoped BigOperators

namespace Cert.ReferenceIdeal.Read

open Idealize.ShloMosaic.StableHlo.Predicate

/-! ### Words -/

/-- A word below 100 is the word of its value modulo 100. -/
theorem rb_word_of_lt (x : BitVec 32) (h : x.toNat < 100) : BitVec.ofNat 32 (x.toNat % 100) = x := by
  apply BitVec.eq_of_toNat_eq
  rw [BitVec.toNat_ofNat, Nat.mod_eq_of_lt h]
  exact Nat.mod_eq_of_lt x.isLt

/-- Two small numbers' words are equal exactly when the numbers are. -/
theorem rb_cmpi_eq_ofNat (a b : ℕ) (ha : a < 2 ^ 32) (hb : b < 2 ^ 32) :
    IntOp.cmpi .eq (BitVec.ofNat 32 a) (BitVec.ofNat 32 b) = if a = b then 1#1 else 0#1 := by
  by_cases h : a = b
  · subst h; rw [if_pos rfl]; exact cmpi_eq_iff.2 rfl
  · rw [if_neg h]
    apply eq_zero_of_ne_one
    intro e
    have e2 := congrArg BitVec.toNat (cmpi_eq_iff.1 e)
    simp only [BitVec.toNat_ofNat] at e2
    rw [Nat.mod_eq_of_lt ha, Nat.mod_eq_of_lt hb] at e2
    exact h e2

/-- Whichever decision procedure decides it, "decided true" is the proposition. -/
theorem rb_decide_iff_of_inst (p : Prop) (inst : Decidable p) : @decide p inst = true ↔ p := by
  cases inst with
  | isTrue h => exact ⟨fun _ => h, fun _ => rfl⟩
  | isFalse h => exact ⟨fun e => absurd e Bool.false_ne_true, fun hp => absurd hp h⟩

/-- Equivalent conditions choose alike, whichever decision procedures decide them. -/
theorem rb_ite_congr_of_inst {α : Type} (p q : Prop) (ip : Decidable p) (iq : Decidable q) (h : p ↔ q) (x y : α) :
    @ite α p ip x y = @ite α q iq x y := by
  cases ip with
  | isTrue hp =>
    cases iq with
    | isTrue hq => rfl
    | isFalse hq => exact absurd (h.1 hp) hq
  | isFalse hp =>
    cases iq with
    | isTrue hq => exact absurd (h.2 hq) hp
    | isFalse hq => rfl

theorem rb_bit_cases (x : BitVec 1) : x = 0#1 ∨ x = 1#1 := by
  by_cases h : x = 1#1
  · exact Or.inr h
  · exact Or.inl (eq_zero_of_ne_one h)

/-- An OR over a finite family of bits is 1 exactly when some bit is. -/
theorem rb_fold_ori_exists {ι : Type} [DecidableEq ι] (s : Finset ι) (f : ι → BitVec 1) :
    s.fold IntOp.ori 0#1 f = if ∃ k ∈ s, f k = 1#1 then 1#1 else 0#1 := by
  induction s using Finset.induction_on with
  | empty => simp
  | insert a s ha ih =>
    rw [Finset.fold_insert ha, ih]
    rcases rb_bit_cases (f a) with h0 | h1
    · rw [h0]
      have e : (∃ k ∈ insert a s, f k = 1#1) ↔ ∃ k ∈ s, f k = 1#1 := by
        constructor
        · rintro ⟨k, hk, hk1⟩
          rcases Finset.mem_insert.1 hk with rfl | hk
          · rw [h0] at hk1; exact absurd hk1 (by decide)
          · exact ⟨k, hk, hk1⟩
        · rintro ⟨k, hk, hk1⟩; exact ⟨k, Finset.mem_insert_of_mem hk, hk1⟩
      by_cases hs : ∃ k ∈ s, f k = 1#1
      · rw [if_pos hs, if_pos (e.2 hs)]; decide
      · rw [if_neg hs, if_neg (fun h => hs (e.1 h))]; decide
    · have hex : ∃ k ∈ insert a s, f k = 1#1 := ⟨a, Finset.mem_insert_self a s, h1⟩
      rw [h1, if_pos hex]
      by_cases hs : ∃ k ∈ s, f k = 1#1
      · rw [if_pos hs]; decide
      · rw [if_neg hs]; decide

/-- The word of a number below 100 has that value. -/
theorem rb_toNat_ofNat_small (n : ℕ) (hn : n < 100) : (BitVec.ofNat 32 n).toNat = n := by
  rw [BitVec.toNat_ofNat]; exact Nat.mod_eq_of_lt (by omega)

/-- Index normalisation (add 100 to a negative index) leaves a prototype id alone: it is not negative. -/
theorem rb_norm_small (n : ℕ) (hn : n < 100) :
    Scalar.select (IntOp.cmpi .slt (BitVec.ofNat 32 n) 0#32) (IntOp.addi (BitVec.ofNat 32 n) 100#32) (BitVec.ofNat 32 n)
      = BitVec.ofNat 32 n := by
  have h0 : IntOp.cmpi .slt (BitVec.ofNat 32 n) 0#32 = 0#1 := by
    apply eq_zero_of_ne_one
    intro e
    have h := (slt_iff_toNat (by rw [rb_toNat_ofNat_small n hn]; omega) (by decide)).1 e
    exact Nat.not_lt_zero _ h
  rw [h0, select_zero]

/-- A prototype id lies in [0, 99]. -/
theorem rb_inrange_small (n : ℕ) (hn : n < 100) :
    IntOp.andi (IntOp.cmpi .sge (BitVec.ofNat 32 n) 0#32) (IntOp.cmpi .sle (BitVec.ofNat 32 n) 99#32) = 1#1 := by
  have h1 : IntOp.cmpi .sge (BitVec.ofNat 32 n) 0#32 = 1#1 :=
    (sge_iff_toNat (by rw [rb_toNat_ofNat_small n hn]; omega) (by decide)).2 (Nat.zero_le _)
  have h2 : IntOp.cmpi .sle (BitVec.ofNat 32 n) 99#32 = 1#1 :=
    (sle_iff_toNat (by rw [rb_toNat_ofNat_small n hn]; omega) (by decide)).2
      (by rw [rb_toNat_ofNat_small n hn]; show n ≤ 99; omega)
  rw [h1, h2]; decide

/-- A prototype id read signed and clamped into [0, 99] is the id. -/
theorem rb_clamp_small (n : ℕ) (hn : n < 100) : min (BitVec.ofNat 32 n).toInt.toNat 99 = n := by
  rw [toInt_ofNat_small n (by omega), Int.toNat_natCast]; omega

/-- An AND over a finite family of bits that are all 1 is 1. -/
theorem rb_fold_andi_all {ι : Type} [DecidableEq ι] (s : Finset ι) (f : ι → BitVec 1) (h : ∀ k ∈ s, f k = 1#1) :
    s.fold IntOp.andi 1#1 f = 1#1 := by
  induction s using Finset.induction_on with
  | empty => simp
  | insert a s ha ih =>
    rw [Finset.fold_insert ha, ih (fun k hk => h k (Finset.mem_insert_of_mem hk)), h a (Finset.mem_insert_self a s)]
    decide

variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal))

/-! ### The identity mask -/

theorem eye_read (i j : Fin 8192) : res_main_v20 (F := Ideal) a0 a1 a2 a3 a4 (ix2 i j) = if i = j then 1#1 else 0#1 := by
  unfold res_main_v20 res_main_v19 res_main_v18 res_main_v17 res_main_v16 res_main_c
  show IntOp.cmpi .eq (IntOp.addi (BitVec.ofNat 32 i.val) 0#32) (BitVec.ofNat 32 j.val) = _
  have h0 : IntOp.addi (BitVec.ofNat 32 i.val) 0#32 = BitVec.ofNat 32 i.val := by simp [IntOp.addi]
  rw [h0, rb_cmpi_eq_ofNat _ _ (by omega) (by omega)]
  simp only [Fin.val_inj]

/-! ### Membership: prototype q among row i's ten negatives -/

/-- Row i of the two stacked views is row i % 4096 of view i / 4096. -/
theorem rb_v22_read (i : Fin 8192) (k : Fin 10) : res_main_v22 (F := Ideal) a0 a1 a2 a3 a4 (ix2 i k)
    = a4 (ix3 (⟨i.val / 4096, by omega⟩ : Fin 2) (⟨i.val % 4096, Nat.mod_lt _ (by norm_num)⟩ : Fin 4096) k) := by
  unfold res_main_v22
  show shapeCast S8192x10 a4 _ (ix2 i k) = _
  exact shapeCast_apply a4 _ (ix2 i k) _
    (by rw [Shape.rowMajor_val_three, Shape.rowMajor_val_two]
        show (i.val / 4096 * 4096 + i.val % 4096) * 10 + k.val = i.val * 10 + k.val
        omega)

theorem rb_v26_read (i : Fin 8192) (k : Fin 10) (q : Fin 100) : res_main_v26 (F := Ideal) a0 a1 a2 a3 a4 (ix3 i k q)
    = res_main_v22 (F := Ideal) a0 a1 a2 a3 a4 (ix2 i k) := by
  unfold res_main_v26
  rw [broadcastInDim_apply _ _ _ (ix3 i k q) (ix3 i k (0 : Fin 1))
    (fun a => match a with | ⟨0, _⟩ => rfl | ⟨1, _⟩ => rfl | ⟨2, _⟩ => rfl)]
  unfold res_main_v23
  exact broadcastInDim_apply _ _ _ (ix3 i k (0 : Fin 1)) (ix2 i k)
    (fun a => match a with | ⟨0, _⟩ => rfl | ⟨1, _⟩ => rfl)

theorem rb_v27_read (i : Fin 8192) (k : Fin 10) (q : Fin 100) : res_main_v27 (F := Ideal) a0 a1 a2 a3 a4 (ix3 i k q)
    = BitVec.ofNat 32 q.val := by
  unfold res_main_v27
  rw [broadcastInDim_apply _ _ _ (ix3 i k q) (ix3 (0 : Fin 1) (0 : Fin 1) q)
    (fun a => match a with | ⟨0, _⟩ => rfl | ⟨1, _⟩ => rfl | ⟨2, _⟩ => rfl)]
  unfold res_main_v25
  rw [broadcastInDim_apply _ _ _ (ix3 (0 : Fin 1) (0 : Fin 1) q) (ix1 q)
    (fun a => match a with | ⟨0, _⟩ => rfl)]
  rfl

theorem rb_v28_read (i : Fin 8192) (k : Fin 10) (q : Fin 100) : res_main_v28 (F := Ideal) a0 a1 a2 a3 a4 (ix3 i k q)
    = IntOp.cmpi .eq (a4 (ix3 (⟨i.val / 4096, by omega⟩ : Fin 2) (⟨i.val % 4096, Nat.mod_lt _ (by norm_num)⟩ : Fin 4096) k))
        (BitVec.ofNat 32 q.val) := by
  unfold res_main_v28
  show IntOp.cmpi .eq (res_main_v26 (F := Ideal) a0 a1 a2 a3 a4 (ix3 i k q)) (res_main_v27 (F := Ideal) a0 a1 a2 a3 a4 (ix3 i k q)) = _
  rw [rb_v26_read, rb_v27_read, rb_v22_read]

/-- Dropping the axis of the ten negatives from [8192, 10, 100] leaves [8192, 100]. -/
theorem rb_reduces_neg : S8192x10x100.Reduces [1] S8192x100 := by decide

theorem mem_read (i : Fin 8192) (q : Fin 100) : res_main_v29 (F := Ideal) a0 a1 a2 a3 a4 (ix2 i q) = if Conv.memOf a4 i q = true then 1#1 else 0#1 := by
  unfold res_main_v29
  show Host.reduce IntOp.ori (res_main_v28 (F := Ideal) a0 a1 a2 a3 a4) (res_main_c_2 (F := Ideal) a0 a1 a2 a3 a4) _ _ (ix2 i q) = _
  rw [Host.reduce_eq_fold_single IntOp.ori _ _ _ rb_reduces_neg]
  -- the fold runs over the ten negatives k, from the constant 0, of the comparison at (i, k, q)
  show (Finset.univ : Finset (Fin 10)).fold IntOp.ori 0#1
    (fun k : Fin 10 => res_main_v28 (F := Ideal) a0 a1 a2 a3 a4 (rb_reduces_neg.lift (ix2 i q) k)) = _
  have hl : ∀ k : Fin 10, rb_reduces_neg.lift (ix2 i q) k = ix3 i k q := by
    intro k; funext c
    match c with
    | ⟨0, _⟩ => rfl
    | ⟨1, _⟩ => rfl
    | ⟨2, _⟩ => rfl
  have hfun : (fun k : Fin 10 => res_main_v28 (F := Ideal) a0 a1 a2 a3 a4 (rb_reduces_neg.lift (ix2 i q) k))
      = fun k : Fin 10 => IntOp.cmpi .eq
          (a4 (ix3 (⟨i.val / 4096, by omega⟩ : Fin 2) (⟨i.val % 4096, Nat.mod_lt _ (by norm_num)⟩ : Fin 4096) k))
          (BitVec.ofNat 32 q.val) := by
    funext k; rw [hl k]; exact rb_v28_read a0 a1 a2 a3 a4 i k q
  rw [hfun, rb_fold_ori_exists]
  have hiff : (∃ k ∈ (Finset.univ : Finset (Fin 10)), IntOp.cmpi .eq
          (a4 (ix3 (⟨i.val / 4096, by omega⟩ : Fin 2) (⟨i.val % 4096, Nat.mod_lt _ (by norm_num)⟩ : Fin 4096) k))
          (BitVec.ofNat 32 q.val) = 1#1) ↔ Conv.memOf a4 i q = true := by
    have hdec : Conv.memOf a4 i q = true ↔ ∃ k : Fin 10,
        a4 (ix3 (⟨i.val / 4096, by omega⟩ : Fin 2) (⟨i.val % 4096, Nat.mod_lt _ (by norm_num)⟩ : Fin 4096) k) = BitVec.ofNat 32 q.val := by
      unfold Conv.memOf; exact rb_decide_iff_of_inst _ _
    rw [hdec]
    constructor
    · rintro ⟨k, -, hk⟩; exact ⟨k, cmpi_eq_iff.1 hk⟩
    · rintro ⟨k, hk⟩; exact ⟨k, Finset.mem_univ _, cmpi_eq_iff.2 hk⟩
  exact rb_ite_congr_of_inst _ _ _ _ hiff _ _

/-! ### The hard prototype ids, and the take of the membership matrix's columns at them -/

theorem hq_read (hr : ∀ i, (a3 i).toNat < 100) (j : Fin 8192) : res_main_v21 (F := Ideal) a0 a1 a2 a3 a4 (ix1 j) = BitVec.ofNat 32 (Conv.hqOf a3 j).val := by
  unfold res_main_v21
  show shapeCast S8192 a3 _ (ix1 j) = _
  rw [shapeCast_apply a3 _ (ix1 j) (ix2 (⟨j.val / 4096, by omega⟩ : Fin 2) (⟨j.val % 4096, Nat.mod_lt _ (by norm_num)⟩ : Fin 4096))
    (by rw [Shape.rowMajor_val_two, Shape.rowMajor_val_one]; show (j.val / 4096) * 4096 + j.val % 4096 = j.val; omega)]
  unfold Conv.hqOf
  exact (rb_word_of_lt _ (hr _)).symm

theorem rb_c2v4_read (hr : ∀ i, (a3 i).toNat < 100) (j : Fin 8192) :
    res_main_call2_v4 (F := Ideal) a0 a1 a2 a3 a4 (ix1 j) = BitVec.ofNat 32 (Conv.hqOf a3 j).val := by
  unfold res_main_call2_v4 res_main_call2_v1 res_main_call2_v3 res_main_call2_v0 res_main_call2_v2 res_main_call2_c res_main_call2_c_0
  show Scalar.select (IntOp.cmpi .slt (res_main_v21 (F := Ideal) a0 a1 a2 a3 a4 (ix1 j)) 0#32)
      (IntOp.addi (res_main_v21 (F := Ideal) a0 a1 a2 a3 a4 (ix1 j)) 100#32) (res_main_v21 (F := Ideal) a0 a1 a2 a3 a4 (ix1 j)) = _
  rw [hq_read a0 a1 a2 a3 a4 hr j]
  exact rb_norm_small _ (Conv.hqOf a3 j).isLt

theorem rb_c2v5_read (hr : ∀ i, (a3 i).toNat < 100) (j : Fin 8192) :
    res_main_call2_v5 (F := Ideal) a0 a1 a2 a3 a4 (ix2 j (0 : Fin 1)) = BitVec.ofNat 32 (Conv.hqOf a3 j).val := by
  unfold res_main_call2_v5
  rw [broadcastInDim_apply _ _ _ (ix2 j (0 : Fin 1)) (ix1 j) (fun a => match a with | ⟨0, _⟩ => rfl)]
  exact rb_c2v4_read a0 a1 a2 a3 a4 hr j

theorem rb_c2v9_read (j : Fin 8192) : res_main_call2_v9 (F := Ideal) a0 a1 a2 a3 a4 (ix2 j (0 : Fin 1)) = 99#32 := by
  unfold res_main_call2_v9
  rw [broadcastInDim_apply _ _ _ (ix2 j (0 : Fin 1)) (ix2 (0 : Fin 1) (0 : Fin 1))
    (fun a => match a with | ⟨0, _⟩ => rfl | ⟨1, _⟩ => rfl)]
  unfold res_main_call2_v8
  rw [broadcastInDim_apply _ _ _ (ix2 (0 : Fin 1) (0 : Fin 1)) (ix1 (0 : Fin 1)) (fun a => match a with | ⟨0, _⟩ => rfl)]
  rfl

/-- Under the precondition every index is in range. -/
theorem rb_c2v11_read (hr : ∀ i, (a3 i).toNat < 100) (j : Fin 8192) :
    res_main_call2_v11 (F := Ideal) a0 a1 a2 a3 a4 (ix2 j (0 : Fin 1)) = 1#1 := by
  unfold res_main_call2_v11 res_main_call2_v7 res_main_call2_v10 res_main_call2_v6 res_main_call2_c_2
  show IntOp.andi (IntOp.cmpi .sge (res_main_call2_v5 (F := Ideal) a0 a1 a2 a3 a4 (ix2 j (0 : Fin 1))) 0#32)
      (IntOp.cmpi .sle (res_main_call2_v5 (F := Ideal) a0 a1 a2 a3 a4 (ix2 j (0 : Fin 1)))
        (res_main_call2_v9 (F := Ideal) a0 a1 a2 a3 a4 (ix2 j (0 : Fin 1)))) = 1#1
  rw [rb_c2v9_read, rb_c2v5_read a0 a1 a2 a3 a4 hr j]
  exact rb_inrange_small _ (Conv.hqOf a3 j).isLt

/-- Dropping the unit axis from [8192, 1] leaves [8192]. -/
theorem rb_reduces_one : S8192x1.Reduces [1] S8192 := by decide

theorem rb_c2v12_read (hr : ∀ i, (a3 i).toNat < 100) (j : Fin 8192) :
    res_main_call2_v12 (F := Ideal) a0 a1 a2 a3 a4 (ix1 j) = 1#1 := by
  unfold res_main_call2_v12
  show Host.reduce IntOp.andi (res_main_call2_v11 (F := Ideal) a0 a1 a2 a3 a4) (res_main_call2_c_3 (F := Ideal) a0 a1 a2 a3 a4) _ _ (ix1 j) = _
  rw [Host.reduce_eq_fold_single IntOp.andi _ _ _ rb_reduces_one]
  show (Finset.univ : Finset (Fin 1)).fold IntOp.andi 1#1
    (fun k : Fin 1 => res_main_call2_v11 (F := Ideal) a0 a1 a2 a3 a4 (rb_reduces_one.lift (ix1 j) k)) = _
  apply rb_fold_andi_all
  intro k _
  have hl : rb_reduces_one.lift (ix1 j) k = ix2 j (0 : Fin 1) := by
    funext c
    match c with
    | ⟨0, _⟩ => rfl
    | ⟨1, _⟩ => exact Fin.ext (by show k.val = 0; have := k.isLt; omega)
  show res_main_call2_v11 (F := Ideal) a0 a1 a2 a3 a4 (rb_reduces_one.lift (ix1 j) k) = 1#1
  rw [hl]; exact rb_c2v11_read a0 a1 a2 a3 a4 hr j

/-- The take of columns: result (i, j) is the matrix at row i and at the column the j-th start index names (read signed and
    clamped into [0, 99]). Operand axis 0 is an offset axis read at the result's coordinate i; operand axis 1 is collapsed
    and is the clamped start index. -/
theorem rb_gatherA_apply {α : Type} (x : S8192x100.Idx → α) (idx : IVec S8192x1 32) (i j : Fin 8192) (n : ℕ) (hn : n < 100)
    (hidx : idx (ix2 j (0 : Fin 1)) = BitVec.ofNat 32 n) :
    Host.gather gather_S8192x100_S8192x1_S8192x8192_0_1_n_n_1_1_81921 x idx (ix2 i j) = x (ix2 i ⟨n, hn⟩) := by
  unfold Host.gather
  congr 1
  funext a
  refine Fin.ext ?_
  -- the start indices' index that result (i, j) reads: (j, 0)
  have hsi : ∀ c, GatherDims.siIdx gather_S8192x100_S8192x1_S8192x8192_0_1_n_n_1_1_81921 (ix2 i j) c = ix2 j (0 : Fin 1) := by
    intro c; funext b; refine Fin.ext ?_
    match b with
    | ⟨0, _⟩ => rfl
    | ⟨1, _⟩ =>
      show c.val = 0
      have hc : c.val < 1 := c.isLt
      omega
  match a with
  | ⟨0, _⟩ =>
    show GatherDims.start gather_S8192x100_S8192x1_S8192x8192_0_1_n_n_1_1_81921 (ix2 i j) idx 0 + GatherDims.batchCoord gather_S8192x100_S8192x1_S8192x8192_0_1_n_n_1_1_81921 (ix2 i j) 0
      + GatherDims.offCoord gather_S8192x100_S8192x1_S8192x8192_0_1_n_n_1_1_81921 (ix2 i j) 0 = i.val
    have hs : GatherDims.start gather_S8192x100_S8192x1_S8192x8192_0_1_n_n_1_1_81921 (ix2 i j) idx 0 = 0 := by
      unfold GatherDims.start; exact dif_neg (by decide)
    have hb : GatherDims.batchCoord gather_S8192x100_S8192x1_S8192x8192_0_1_n_n_1_1_81921 (ix2 i j) 0 = 0 :=
      GatherDims.batchCoord_eq_zero _ _ _ List.not_mem_nil
    have ho : GatherDims.offCoord gather_S8192x100_S8192x1_S8192x8192_0_1_n_n_1_1_81921 (ix2 i j) 0 = i.val := by
      unfold GatherDims.offCoord
      split
      · rfl
      · next h => exact absurd (by decide) h
    omega
  | ⟨1, _⟩ =>
    show GatherDims.start gather_S8192x100_S8192x1_S8192x8192_0_1_n_n_1_1_81921 (ix2 i j) idx 1 + GatherDims.batchCoord gather_S8192x100_S8192x1_S8192x8192_0_1_n_n_1_1_81921 (ix2 i j) 1
      + GatherDims.offCoord gather_S8192x100_S8192x1_S8192x8192_0_1_n_n_1_1_81921 (ix2 i j) 1 = n
    have hb : GatherDims.batchCoord gather_S8192x100_S8192x1_S8192x8192_0_1_n_n_1_1_81921 (ix2 i j) 1 = 0 :=
      GatherDims.batchCoord_eq_zero _ _ _ List.not_mem_nil
    have ho : GatherDims.offCoord gather_S8192x100_S8192x1_S8192x8192_0_1_n_n_1_1_81921 (ix2 i j) 1 = 0 :=
      GatherDims.offCoord_eq_zero _ _ _ (by decide)
    have hs : GatherDims.start gather_S8192x100_S8192x1_S8192x8192_0_1_n_n_1_1_81921 (ix2 i j) idx 1 = n := by
      unfold GatherDims.start
      split
      · rw [hsi]
        show min (idx (ix2 j (0 : Fin 1))).toInt.toNat 99 = n
        rw [hidx]; exact rb_clamp_small n hn
      · next h => exact absurd (by decide) h
    omega

theorem rb_v30_read (hr : ∀ i, (a3 i).toNat < 100) (i j : Fin 8192) :
    res_main_v30 (F := Ideal) a0 a1 a2 a3 a4 (ix2 i j) = if Conv.memOf a4 i (Conv.hqOf a3 j) = true then 1#1 else 0#1 := by
  unfold res_main_v30
  show Scalar.select (res_main_call2_v14 (F := Ideal) a0 a1 a2 a3 a4 (ix2 i j))
      (res_main_call2_v13 (F := Ideal) a0 a1 a2 a3 a4 (ix2 i j)) (res_main_call2_v15 (F := Ideal) a0 a1 a2 a3 a4 (ix2 i j)) = _
  -- every index is in range, so the take's own value is chosen
  have h14 : res_main_call2_v14 (F := Ideal) a0 a1 a2 a3 a4 (ix2 i j) = 1#1 := by
    unfold res_main_call2_v14
    rw [broadcastInDim_apply _ _ _ (ix2 i j) (ix1 j) (fun a => match a with | ⟨0, _⟩ => rfl)]
    exact rb_c2v12_read a0 a1 a2 a3 a4 hr j
  rw [h14, select_one]
  unfold res_main_call2_v13
  show Host.gather gather_S8192x100_S8192x1_S8192x8192_0_1_n_n_1_1_81921 (res_main_v29 (F := Ideal) a0 a1 a2 a3 a4)
      (res_main_call2_v5 (F := Ideal) a0 a1 a2 a3 a4) (ix2 i j) = _
  rw [rb_gatherA_apply _ _ i j _ (Conv.hqOf a3 j).isLt (rb_c2v5_read a0 a1 a2 a3 a4 hr j)]
  exact mem_read a0 a1 a2 a3 a4 i (Conv.hqOf a3 j)

/-! ### The mask: another row, whose hard prototype is among this row's negatives -/

theorem mask_read (hr : ∀ i, (a3 i).toNat < 100) (i j : Fin 8192) : res_main_v32 (F := Ideal) a0 a1 a2 a3 a4 (ix2 i j) = if (i ≠ j ∧ Conv.memOf a4 i (Conv.hqOf a3 j) = true) then 1#1 else 0#1 := by
  unfold res_main_v32 res_main_v31
  show IntOp.andi (~~~ (res_main_v20 (F := Ideal) a0 a1 a2 a3 a4 (ix2 i j))) (res_main_v30 (F := Ideal) a0 a1 a2 a3 a4 (ix2 i j)) = _
  rw [eye_read, rb_v30_read a0 a1 a2 a3 a4 hr]
  by_cases hij : i = j
  · have hn : ¬ (i ≠ j ∧ Conv.memOf a4 i (Conv.hqOf a3 j) = true) := fun h => h.1 hij
    rw [if_pos hij, if_neg hn]
    by_cases hm : Conv.memOf a4 i (Conv.hqOf a3 j) = true
    · rw [if_pos hm]; decide
    · rw [if_neg hm]; decide
  · by_cases hm : Conv.memOf a4 i (Conv.hqOf a3 j) = true
    · rw [if_neg hij, if_pos hm, if_pos ⟨hij, hm⟩]; decide
    · have hn : ¬ (i ≠ j ∧ Conv.memOf a4 i (Conv.hqOf a3 j) = true) := fun h => hm h.2
      rw [if_neg hij, if_neg hm, if_neg hn]; decide

/-! ### The rows of prototype distances -/

/-- Row index i's normalised prototype id, down a column. -/
theorem rb_v48_read (hr : ∀ i, (a3 i).toNat < 100) (i : Fin 8192) :
    res_main_v48 (F := Ideal) a0 a1 a2 a3 a4 (ix2 i (0 : Fin 1)) = BitVec.ofNat 32 (Conv.hqOf a3 i).val := by
  have h42 : res_main_v42 (F := Ideal) a0 a1 a2 a3 a4 (ix2 i (0 : Fin 1)) = BitVec.ofNat 32 (Conv.hqOf a3 i).val := by
    unfold res_main_v42
    rw [broadcastInDim_apply _ _ _ (ix2 i (0 : Fin 1)) (ix1 i) (fun a => match a with | ⟨0, _⟩ => rfl)]
    exact hq_read a0 a1 a2 a3 a4 hr i
  unfold res_main_v48 res_main_v45 res_main_v47 res_main_v44 res_main_v46 res_main_c_5 res_main_c_6
  show Scalar.select (IntOp.cmpi .slt (res_main_v42 (F := Ideal) a0 a1 a2 a3 a4 (ix2 i (0 : Fin 1))) 0#32)
      (IntOp.addi (res_main_v42 (F := Ideal) a0 a1 a2 a3 a4 (ix2 i (0 : Fin 1))) 100#32)
      (res_main_v42 (F := Ideal) a0 a1 a2 a3 a4 (ix2 i (0 : Fin 1))) = _
  rw [h42]
  exact rb_norm_small _ (Conv.hqOf a3 i).isLt

/-- Column index j's normalised prototype id, along a row. -/
theorem rb_v53_read (hr : ∀ i, (a3 i).toNat < 100) (j : Fin 8192) :
    res_main_v53 (F := Ideal) a0 a1 a2 a3 a4 (ix2 (0 : Fin 1) j) = BitVec.ofNat 32 (Conv.hqOf a3 j).val := by
  have h43 : res_main_v43 (F := Ideal) a0 a1 a2 a3 a4 (ix2 (0 : Fin 1) j) = BitVec.ofNat 32 (Conv.hqOf a3 j).val := by
    unfold res_main_v43
    rw [broadcastInDim_apply _ _ _ (ix2 (0 : Fin 1) j) (ix1 j) (fun a => match a with | ⟨0, _⟩ => rfl)]
    exact hq_read a0 a1 a2 a3 a4 hr j
  unfold res_main_v53 res_main_v50 res_main_v52 res_main_v49 res_main_v51 res_main_c_7 res_main_c_8
  show Scalar.select (IntOp.cmpi .slt (res_main_v43 (F := Ideal) a0 a1 a2 a3 a4 (ix2 (0 : Fin 1) j)) 0#32)
      (IntOp.addi (res_main_v43 (F := Ideal) a0 a1 a2 a3 a4 (ix2 (0 : Fin 1) j)) 100#32)
      (res_main_v43 (F := Ideal) a0 a1 a2 a3 a4 (ix2 (0 : Fin 1) j)) = _
  rw [h43]
  exact rb_norm_small _ (Conv.hqOf a3 j).isLt

/-- The pair of start indices at (i, j): component 0 is row i's prototype id, component 1 column j's. -/
theorem rb_v58_read0 (hr : ∀ i, (a3 i).toNat < 100) (i j : Fin 8192) :
    res_main_v58 (F := Ideal) a0 a1 a2 a3 a4 (ix3 i j (0 : Fin 2)) = BitVec.ofNat 32 (Conv.hqOf a3 i).val := by
  unfold res_main_v58
  show concatenate S8192x8192x2 2 [⟨S8192x8192x1, res_main_v56 (F := Ideal) a0 a1 a2 a3 a4⟩, ⟨S8192x8192x1, res_main_v57 (F := Ideal) a0 a1 a2 a3 a4⟩] _ (ix3 i j (0 : Fin 2)) = _
  rw [concatenate_pair_apply_left (t := S8192x8192x2) (s₁ := S8192x8192x1) (s₂ := S8192x8192x1) (2 : Fin 3) _ _ _ (ix3 i j (0 : Fin 2)) rfl (ix3 i j (0 : Fin 1))
    (fun b => match b with | ⟨0, _⟩ => rfl | ⟨1, _⟩ => rfl | ⟨2, _⟩ => rfl)]
  unfold res_main_v56
  rw [broadcastInDim_apply _ _ _ (ix3 i j (0 : Fin 1)) (ix2 i j) (fun a => match a with | ⟨0, _⟩ => rfl | ⟨1, _⟩ => rfl)]
  unfold res_main_v54
  rw [broadcastInDim_apply _ _ _ (ix2 i j) (ix2 i (0 : Fin 1)) (fun a => match a with | ⟨0, _⟩ => rfl | ⟨1, _⟩ => rfl)]
  exact rb_v48_read a0 a1 a2 a3 a4 hr i

theorem rb_v58_read1 (hr : ∀ i, (a3 i).toNat < 100) (i j : Fin 8192) :
    res_main_v58 (F := Ideal) a0 a1 a2 a3 a4 (ix3 i j (1 : Fin 2)) = BitVec.ofNat 32 (Conv.hqOf a3 j).val := by
  unfold res_main_v58
  show concatenate S8192x8192x2 2 [⟨S8192x8192x1, res_main_v56 (F := Ideal) a0 a1 a2 a3 a4⟩, ⟨S8192x8192x1, res_main_v57 (F := Ideal) a0 a1 a2 a3 a4⟩] _ (ix3 i j (1 : Fin 2)) = _
  rw [concatenate_pair_apply_right (t := S8192x8192x2) (s₁ := S8192x8192x1) (s₂ := S8192x8192x1) (2 : Fin 3) _ _ _ (ix3 i j (1 : Fin 2)) rfl rfl (ix3 i j (0 : Fin 1))
    (fun b hb => match b, hb with
      | ⟨0, _⟩, _ => rfl
      | ⟨1, _⟩, _ => rfl
      | ⟨2, _⟩, hb => absurd (Fin.ext rfl) hb)
    rfl]
  unfold res_main_v57
  rw [broadcastInDim_apply _ _ _ (ix3 i j (0 : Fin 1)) (ix2 i j) (fun a => match a with | ⟨0, _⟩ => rfl | ⟨1, _⟩ => rfl)]
  unfold res_main_v55
  rw [broadcastInDim_apply _ _ _ (ix2 i j) (ix2 (0 : Fin 1) j) (fun a => match a with | ⟨0, _⟩ => rfl | ⟨1, _⟩ => rfl)]
  exact rb_v53_read a0 a1 a2 a3 a4 hr j

/-- The gather of one matrix entry per pair: result (i, j) is the matrix at the two start indices of (i, j), each read signed
    and clamped into [0, 99]. Both operand axes are collapsed; there is no offset or batching axis. -/
theorem rb_gatherB_apply {α : Type} (x : S100x100.Idx → α) (idx : IVec S8192x8192x2 32) (i j : Fin 8192) (p q : ℕ) (hp : p < 100) (hq : q < 100)
    (h0 : idx (ix3 i j (0 : Fin 2)) = BitVec.ofNat 32 p) (h1 : idx (ix3 i j (1 : Fin 2)) = BitVec.ofNat 32 q) :
    Host.gather gather_S100x100_S8192x8192x2_S8192x8192_n_01_n_n_01_2_11 x idx (ix2 i j) = x (ix2 ⟨p, hp⟩ ⟨q, hq⟩) := by
  unfold Host.gather
  congr 1
  funext a
  refine Fin.ext ?_
  -- the start indices' index that result (i, j) reads for component c: (i, j, c)
  have hsi : ∀ c : Fin (GatherDims.startIndexMap gather_S100x100_S8192x8192x2_S8192x8192_n_01_n_n_01_2_11).length,
      GatherDims.siIdx gather_S100x100_S8192x8192x2_S8192x8192_n_01_n_n_01_2_11 (ix2 i j) c = ix3 i j (⟨c.val, c.isLt⟩ : Fin 2) := by
    intro c; funext b; refine Fin.ext ?_
    match b with
    | ⟨0, _⟩ => rfl
    | ⟨1, _⟩ => rfl
    | ⟨2, _⟩ => rfl
  match a with
  | ⟨0, _⟩ =>
    show GatherDims.start gather_S100x100_S8192x8192x2_S8192x8192_n_01_n_n_01_2_11 (ix2 i j) idx 0 + GatherDims.batchCoord gather_S100x100_S8192x8192x2_S8192x8192_n_01_n_n_01_2_11 (ix2 i j) 0
      + GatherDims.offCoord gather_S100x100_S8192x8192x2_S8192x8192_n_01_n_n_01_2_11 (ix2 i j) 0 = p
    have hb : GatherDims.batchCoord gather_S100x100_S8192x8192x2_S8192x8192_n_01_n_n_01_2_11 (ix2 i j) 0 = 0 :=
      GatherDims.batchCoord_eq_zero _ _ _ List.not_mem_nil
    have ho : GatherDims.offCoord gather_S100x100_S8192x8192x2_S8192x8192_n_01_n_n_01_2_11 (ix2 i j) 0 = 0 :=
      GatherDims.offCoord_eq_zero _ _ _ (by decide)
    have hs : GatherDims.start gather_S100x100_S8192x8192x2_S8192x8192_n_01_n_n_01_2_11 (ix2 i j) idx 0 = p := by
      unfold GatherDims.start
      split
      · rw [hsi]
        show min (idx (ix3 i j (0 : Fin 2))).toInt.toNat 99 = p
        rw [h0]; exact rb_clamp_small p hp
      · next h => exact absurd (by decide) h
    omega
  | ⟨1, _⟩ =>
    show GatherDims.start gather_S100x100_S8192x8192x2_S8192x8192_n_01_n_n_01_2_11 (ix2 i j) idx 1 + GatherDims.batchCoord gather_S100x100_S8192x8192x2_S8192x8192_n_01_n_n_01_2_11 (ix2 i j) 1
      + GatherDims.offCoord gather_S100x100_S8192x8192x2_S8192x8192_n_01_n_n_01_2_11 (ix2 i j) 1 = q
    have hb : GatherDims.batchCoord gather_S100x100_S8192x8192x2_S8192x8192_n_01_n_n_01_2_11 (ix2 i j) 1 = 0 :=
      GatherDims.batchCoord_eq_zero _ _ _ List.not_mem_nil
    have ho : GatherDims.offCoord gather_S100x100_S8192x8192x2_S8192x8192_n_01_n_n_01_2_11 (ix2 i j) 1 = 0 :=
      GatherDims.offCoord_eq_zero _ _ _ (by decide)
    have hs : GatherDims.start gather_S100x100_S8192x8192x2_S8192x8192_n_01_n_n_01_2_11 (ix2 i j) idx 1 = q := by
      unfold GatherDims.start
      split
      · rw [hsi]
        show min (idx (ix3 i j (1 : Fin 2))).toInt.toNat 99 = q
        rw [h1]; exact rb_clamp_small q hq
      · next h => exact absurd (by decide) h
    omega

/-- The float word 0 is the extended real 0. -/
theorem rb_zero_word : Ideal.ofBits .f32 0x00000000#32 = 0 := Ideal.ofBits_zero_f32

theorem R_read (hr : ∀ i, (a3 i).toNat < 100) (pd : Fin 100 → Fin 100 → EReal) (hpd : ∀ p q, res_main_v41 (F := Ideal) a0 a1 a2 a3 a4 (ix2 p q) = pd p q) (i j : Fin 8192) : res_main_v60 (F := Ideal) a0 a1 a2 a3 a4 (ix2 i j) = Spec.R pd (Conv.hqOf a3) i j := by
  unfold res_main_v60
  show Scalar.select (res_main_v20 (F := Ideal) a0 a1 a2 a3 a4 (ix2 i j)) (res_main_call4_v1 (F := Ideal) a0 a1 a2 a3 a4 (ix2 i j))
      (res_main_v59 (F := Ideal) a0 a1 a2 a3 a4 (ix2 i j)) = _
  have h0 : res_main_call4_v1 (F := Ideal) a0 a1 a2 a3 a4 (ix2 i j) = (0 : EReal) := by
    unfold res_main_call4_v1 res_main_call4_v0 res_main_cst_9
    show Ideal.ofBits .f32 0x00000000#32 = (0 : EReal)
    exact rb_zero_word
  have h59 : res_main_v59 (F := Ideal) a0 a1 a2 a3 a4 (ix2 i j) = pd (Conv.hqOf a3 i) (Conv.hqOf a3 j) := by
    unfold res_main_v59
    show Host.gather gather_S100x100_S8192x8192x2_S8192x8192_n_01_n_n_01_2_11 (res_main_v41 (F := Ideal) a0 a1 a2 a3 a4)
        (res_main_v58 (F := Ideal) a0 a1 a2 a3 a4) (ix2 i j) = _
    rw [rb_gatherB_apply _ _ i j _ _ (Conv.hqOf a3 i).isLt (Conv.hqOf a3 j).isLt (rb_v58_read0 a0 a1 a2 a3 a4 hr i j) (rb_v58_read1 a0 a1 a2 a3 a4 hr i j)]
    exact hpd (Conv.hqOf a3 i) (Conv.hqOf a3 j)
  rw [eye_read, h0, h59]
  unfold Spec.R
  by_cases hij : i = j
  · rw [if_pos hij, if_pos hij, select_one]
  · rw [if_neg hij, if_neg hij, select_zero]

end Cert.ReferenceIdeal.Read

end
-- ==== Proof.RefReadC.lean ====
/-
  The reference's row statistics read at an index: the minimum and maximum of a row of prototype distances, the row rescaled
  to [0, 1], its mean and unbiased deviation, and the reweighting of a pair from the row's rescaled entry against the
  column's mean and deviation; then the denominator as the double sum over masked pairs, and the loss as the mean of the
  negated logarithms of the positives over that one denominator.
-/
import proofs.«427632_j79637283602625_3_alg».proof.Proof.RefStages
import proofs.«427632_j79637283602625_3_alg».proof.Proof.Conv
import proofs.«427632_j79637283602625_3_alg».proof.Proof.Gen.ReferenceIdeal
import Idealize.ShloMosaic.Lib.ValueIdx
import Idealize.ShloMosaic.Lib.ValueIdxRank1
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open Cert.ReferenceIdeal Cert.ReferenceIdeal.Stages Idealize.ShloMosaic Idealize.ShloMosaic.ValueIdx Cert
open Cert.ReferenceIdeal.Facts₀ Cert.ReferenceIdeal.Facts
open scoped BigOperators

namespace Cert.ReferenceIdeal.Read

namespace C

/-! ### Literals -/

theorem lit_top : Ideal.ofBits .f32 0x7F800000#32 = (⊤ : EReal) := by simp [Ideal.ofBits, Ideal.ieee]
theorem lit_bot : Ideal.ofBits .f32 0xFF800000#32 = (⊥ : EReal) := by simp [Ideal.ofBits, Ideal.ieee]
theorem lit_two : Ideal.ofBits .f32 0x40000000#32 = (2 : EReal) := by
  rw [show (2 : EReal) = ((2 : ℝ) : EReal) by norm_cast]
  simp [Ideal.ofBits, Ideal.ieee, -EReal.coe_mul]; norm_num
theorem lit_8192 : Ideal.ofBits .f32 0x46000000#32 = (8192 : EReal) := by
  rw [show (8192 : EReal) = ((8192 : ℝ) : EReal) by norm_cast]
  simp [Ideal.ofBits, Ideal.ieee, -EReal.coe_mul]; norm_num

/-! ### Layout operations read at explicit coordinates -/

section Layout
variable {α : Type}

/-- A vector as a column: entry (i, 0) is entry i. -/
theorem bc_col (h : S8192.BroadcastsInDim S8192x1 (![0] : Fin 1 → Fin S8192x1.rank)) (x : S8192.Idx → α) (i : Fin 8192) (z : Fin 1) :
    broadcastInDim S8192x1 ![0] h x (ix2 i z) = x (ix1 i) :=
  broadcastInDim_apply _ h x _ _ (fun a => match a with | ⟨0, _⟩ => rfl)

/-- A column stretched along the rows: entry (i, j) is the column's entry (i, 0). -/
theorem bc_col_full (h : S8192x1.BroadcastsInDim S8192x8192 (![0, 1] : Fin 2 → Fin S8192x8192.rank)) (x : S8192x1.Idx → α) (i j : Fin 8192) :
    broadcastInDim S8192x8192 ![0, 1] h x (ix2 i j) = x (ix2 i (0 : Fin 1)) :=
  broadcastInDim_apply _ h x _ _ (fun a => match a with | ⟨0, _⟩ => rfl | ⟨1, _⟩ => rfl)

/-- A vector as a row: entry (0, j) is entry j. -/
theorem bc_row (h : S8192.BroadcastsInDim S1x8192 (![1] : Fin 1 → Fin S1x8192.rank)) (x : S8192.Idx → α) (z : Fin 1) (j : Fin 8192) :
    broadcastInDim S1x8192 ![1] h x (ix2 z j) = x (ix1 j) :=
  broadcastInDim_apply _ h x _ _ (fun a => match a with | ⟨0, _⟩ => rfl)

/-- A row stretched down the columns: entry (i, j) is the row's entry (0, j). -/
theorem bc_row_full (h : S1x8192.BroadcastsInDim S8192x8192 (![0, 1] : Fin 2 → Fin S8192x8192.rank)) (x : S1x8192.Idx → α) (i j : Fin 8192) :
    broadcastInDim S8192x8192 ![0, 1] h x (ix2 i j) = x (ix2 (0 : Fin 1) j) :=
  broadcastInDim_apply _ h x _ _ (fun a => match a with | ⟨0, _⟩ => rfl | ⟨1, _⟩ => rfl)

end Layout

/-- The index of row i with k inserted on the column axis is (i, k). -/
theorem lift_row (h : S8192x8192.Reduces [1] S8192) (i k : Fin 8192) : h.lift (ix1 i) k = ix2 i k := by
  funext c
  match c with
  | ⟨0, _⟩ => rfl
  | ⟨1, _⟩ => rfl

theorem red_row : S8192x8192.Reduces [1] S8192 := by decide

/-- A row sum: the initial value plus the sum of the row's entries. -/
theorem rowsum_apply (x : S8192x8192.Idx → EReal) (init : S_.Idx → EReal) (i : Fin 8192) :
    Host.reduceAdd (F := Ideal) (φ := .f32) x init reducesTo_S8192x8192_S8192_d1 h_S_ (ix1 i) = init ix0 + ∑ k : Fin 8192, x (ix2 i k) := by
  refine (hostReduceAdd_apply x init _ _ _).trans ?_
  refine (Ideal.hostReduceAdd_single _ red_row x _ (ix1 i)).trans ?_
  rw [show Shape.Idx.first h_S_ = ix0 from eq_ix0 _]
  congr 1
  exact Finset.sum_congr rfl fun k _ => congrArg x (lift_row red_row i k)

/-- A row minimum from +∞ is the infimum of the row's entries. -/
theorem rowmin_apply (x : S8192x8192.Idx → EReal) (init : S_.Idx → EReal) (hinit : init ix0 = ⊤) (i : Fin 8192) :
    Host.reduce (FloatOps.minimumf (F := Ideal) (φ := .f32)) x init reducesTo_S8192x8192_S8192_d1 h_S_ (ix1 i)
      = Finset.univ.inf fun k : Fin 8192 => x (ix2 i k) := by
  refine (Host.reduce_eq_fold_single _ x init _ red_row h_S_ (ix1 i)).trans ?_
  rw [show Shape.Idx.first h_S_ = ix0 from eq_ix0 _, hinit]
  have hf : (x ∘ red_row.lift (ix1 i)) = fun k : Fin 8192 => x (ix2 i k) := funext fun k => congrArg x (lift_row red_row i k)
  rw [hf]
  rfl

/-- A row maximum from −∞ is the supremum of the row's entries. -/
theorem rowmax_apply (x : S8192x8192.Idx → EReal) (init : S_.Idx → EReal) (hinit : init ix0 = ⊥) (i : Fin 8192) :
    Host.reduce (FloatOps.maximumf (F := Ideal) (φ := .f32)) x init reducesTo_S8192x8192_S8192_d1 h_S_ (ix1 i)
      = Finset.univ.sup fun k : Fin 8192 => x (ix2 i k) := by
  refine (Host.reduce_eq_fold_single _ x init _ red_row h_S_ (ix1 i)).trans ?_
  rw [show Shape.Idx.first h_S_ = ix0 from eq_ix0 _, hinit]
  have hf : (x ∘ red_row.lift (ix1 i)) = fun k : Fin 8192 => x (ix2 i k) := funext fun k => congrArg x (lift_row red_row i k)
  rw [hf]
  rfl

/-- The host's exponential, square root, logarithm and negation at an index are the extended reals' own. -/
theorem hostExp_at {s : Shape} (x : FVec Ideal s .f32) (i : s.Idx) : Host.exp x i = Ideal.exp (x i) := rfl
theorem hostSqrt_at {s : Shape} (x : FVec Ideal s .f32) (i : s.Idx) : Host.sqrt x i = Ideal.sqrt (x i) := rfl
theorem hostLog_at {s : Shape} (x : FVec Ideal s .f32) (i : s.Idx) : Host.log x i = Ideal.log (x i) := rfl
theorem hostNegf_at {s : Shape} (x : FVec Ideal s .f32) (i : s.Idx) : Host.negf x i = -(x i) := rfl

/-- The sum over every entry of a matrix, as a double sum. -/
theorem total2_apply (x : S8192x8192.Idx → EReal) (init : S_.Idx → EReal) :
    Host.reduceAdd (F := Ideal) (φ := .f32) x init reducesTo_S8192x8192_S_d0_1 h_S_ ix0
      = init ix0 + ∑ i : Fin 8192, ∑ j : Fin 8192, x (ix2 i j) := by
  refine (hostReduceAdd_apply x init _ _ _).trans ?_
  refine (Ideal.hostReduceAdd_total _ (fun b => b.elim0) x _ ix0).trans ?_
  rw [show Shape.Idx.first h_S_ = ix0 from eq_ix0 _]
  exact congrArg _ (sum_idx2 x)

/-- The sum over every entry of a vector. -/
theorem total1_apply (x : S8192.Idx → EReal) (init : S_.Idx → EReal) :
    Host.reduceAdd (F := Ideal) (φ := .f32) x init reducesTo_S8192_S_d0 h_S_ ix0 = init ix0 + ∑ i : Fin 8192, x (ix1 i) := by
  refine (hostReduceAdd_apply x init _ _ _).trans ?_
  refine (Ideal.hostReduceAdd_total _ (fun b => b.elim0) x _ ix0).trans ?_
  rw [show Shape.Idx.first h_S_ = ix0 from eq_ix0 _]
  exact congrArg _ (Equiv.sum_comp (idxEquiv1 (n := 8192)).symm x).symm

section
variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal)) (pd : Fin 100 → Fin 100 → EReal) (hq : Fin 8192 → Fin 100)

theorem v61_apply (hR : ∀ i j : Fin 8192, res_main_v60 (F := Ideal) a0 a1 a2 a3 a4 (ix2 i j) = Spec.R pd hq i j) (i : Fin 8192) :
    res_main_v61 (F := Ideal) a0 a1 a2 a3 a4 (ix1 i) = Spec.rmin pd hq i := by
  refine (rowmin_apply _ _ lit_top i).trans ?_
  unfold Spec.rmin
  exact congrArg _ (funext fun k => hR i k)

theorem v63_apply (hR : ∀ i j : Fin 8192, res_main_v60 (F := Ideal) a0 a1 a2 a3 a4 (ix2 i j) = Spec.R pd hq i j) (i : Fin 8192) :
    res_main_v63 (F := Ideal) a0 a1 a2 a3 a4 (ix1 i) = Spec.rmax pd hq i := by
  refine (rowmax_apply _ _ lit_bot i).trans ?_
  unfold Spec.rmax
  exact congrArg _ (funext fun k => hR i k)

theorem v62_apply (hR : ∀ i j : Fin 8192, res_main_v60 (F := Ideal) a0 a1 a2 a3 a4 (ix2 i j) = Spec.R pd hq i j) (i : Fin 8192) (z : Fin 1) :
    res_main_v62 (F := Ideal) a0 a1 a2 a3 a4 (ix2 i z) = Spec.rmin pd hq i :=
  (bc_col _ _ i z).trans (v61_apply a0 a1 a2 a3 a4 pd hq hR i)

theorem v64_apply (hR : ∀ i j : Fin 8192, res_main_v60 (F := Ideal) a0 a1 a2 a3 a4 (ix2 i j) = Spec.R pd hq i j) (i : Fin 8192) (z : Fin 1) :
    res_main_v64 (F := Ideal) a0 a1 a2 a3 a4 (ix2 i z) = Spec.rmax pd hq i :=
  (bc_col _ _ i z).trans (v63_apply a0 a1 a2 a3 a4 pd hq hR i)

theorem v69_apply (hR : ∀ i j : Fin 8192, res_main_v60 (F := Ideal) a0 a1 a2 a3 a4 (ix2 i j) = Spec.R pd hq i j) (i j : Fin 8192) :
    res_main_v69 (F := Ideal) a0 a1 a2 a3 a4 (ix2 i j) = Spec.Rn pd hq i j := by
  have e65 : res_main_v65 (F := Ideal) a0 a1 a2 a3 a4 (ix2 i j) = Spec.rmin pd hq i :=
    (bc_col_full _ _ i j).trans (v62_apply a0 a1 a2 a3 a4 pd hq hR i 0)
  have e66 : res_main_v66 (F := Ideal) a0 a1 a2 a3 a4 (ix2 i j) = Spec.R pd hq i j - Spec.rmin pd hq i := by
    refine (subf_apply _ _ _).trans ?_
    rw [hR, e65]
  have e67 : res_main_v67 (F := Ideal) a0 a1 a2 a3 a4 (ix2 i (0 : Fin 1)) = Spec.rmax pd hq i - Spec.rmin pd hq i := by
    refine (subf_apply _ _ _).trans ?_
    rw [v64_apply a0 a1 a2 a3 a4 pd hq hR, v62_apply a0 a1 a2 a3 a4 pd hq hR]
  have e68 : res_main_v68 (F := Ideal) a0 a1 a2 a3 a4 (ix2 i j) = Spec.rmax pd hq i - Spec.rmin pd hq i :=
    (bc_col_full _ _ i j).trans e67
  refine (hostDivf_apply _ _ _).trans ?_
  rw [e66, e68]
  rfl

theorem v72_apply (hR : ∀ i j : Fin 8192, res_main_v60 (F := Ideal) a0 a1 a2 a3 a4 (ix2 i j) = Spec.R pd hq i j) (i : Fin 8192) :
    res_main_v72 (F := Ideal) a0 a1 a2 a3 a4 (ix1 i) = Spec.mu pd hq i := by
  have e70 : res_main_v70 (F := Ideal) a0 a1 a2 a3 a4 (ix1 i) = ∑ k : Fin 8192, Spec.Rn pd hq i k := by
    refine (rowsum_apply _ _ i).trans ?_
    rw [show res_main_cst_12 (F := Ideal) a0 a1 a2 a3 a4 ix0 = 0 from Ideal.ofBits_zero_f32, zero_add]
    exact Finset.sum_congr rfl fun k _ => v69_apply a0 a1 a2 a3 a4 pd hq hR i k
  have e71 : res_main_v71 (F := Ideal) a0 a1 a2 a3 a4 (ix1 i) = 8192 :=
    (broadcastInDim_scalar_apply _ _ _).trans lit_8192
  refine (hostDivf_apply _ _ _).trans ?_
  rw [e70, e71]
  rfl

/-! ### The unbiased deviation of the rescaled row -/

theorem lit_8191 : (8192 : EReal) - 1 = 8191 := by
  rw [show (8192 : EReal) = ((8192 : ℝ) : EReal) by norm_cast, show (1 : EReal) = ((1 : ℝ) : EReal) by norm_cast,
    show (8191 : EReal) = ((8191 : ℝ) : EReal) by norm_cast, ← EReal.coe_sub]
  norm_num

theorem std_v8 : res_main_call5_call0_v8 (F := Ideal) a0 a1 a2 a3 a4 ix0 = 8191 := by
  refine (subf_apply _ _ _).trans ?_
  rw [show res_main_call5_call0_cst_1 (F := Ideal) a0 a1 a2 a3 a4 ix0 = 8192 from lit_8192,
    show res_main_call5_call0_v7 (F := Ideal) a0 a1 a2 a3 a4 ix0 = 1 from by
      show (((1#32 : BitVec 32).toInt : ℝ) : EReal) = 1
      norm_num]
  exact lit_8191

theorem std_v12 : res_main_call5_call0_v12 (F := Ideal) a0 a1 a2 a3 a4 ix0 = 1#1 := by
  refine (cmpf_apply _ _ _ _).trans ?_
  rw [std_v8 a0 a1 a2 a3 a4, show res_main_call5_call0_cst_3 (F := Ideal) a0 a1 a2 a3 a4 ix0 = 0 from Ideal.ofBits_zero_f32]
  show Ideal.cmp .ogt (8191 : EReal) 0 = 1#1
  have h : (0 : EReal) < 8191 := by
    rw [show (8191 : EReal) = ((8191 : ℝ) : EReal) by norm_cast]; exact EReal.coe_pos.mpr (by norm_num)
  simp [Ideal.cmp, h]

theorem v73_apply (hR : ∀ i j : Fin 8192, res_main_v60 (F := Ideal) a0 a1 a2 a3 a4 (ix2 i j) = Spec.R pd hq i j) (i : Fin 8192) :
    res_main_v73 (F := Ideal) a0 a1 a2 a3 a4 (ix1 i) = Spec.sd pd hq i := by
  have e0 : res_main_call5_call0_v0 (F := Ideal) a0 a1 a2 a3 a4 (ix1 i) = ∑ k : Fin 8192, Spec.Rn pd hq i k := by
    refine (rowsum_apply _ _ i).trans ?_
    rw [show res_main_call5_call0_cst (F := Ideal) a0 a1 a2 a3 a4 ix0 = 0 from Ideal.ofBits_zero_f32, zero_add]
    exact Finset.sum_congr rfl fun k _ => v69_apply a0 a1 a2 a3 a4 pd hq hR i k
  have e3 : res_main_call5_call0_v3 (F := Ideal) a0 a1 a2 a3 a4 (ix2 i (0 : Fin 1)) = Spec.mu pd hq i := by
    refine (hostDivf_apply _ _ _).trans ?_
    rw [show res_main_call5_call0_v1 (F := Ideal) a0 a1 a2 a3 a4 (ix2 i (0 : Fin 1)) = _ from (bc_col _ _ i 0).trans e0,
      show res_main_call5_call0_v2 (F := Ideal) a0 a1 a2 a3 a4 (ix2 i (0 : Fin 1)) = 8192 from
        (broadcastInDim_scalar_apply _ _ _).trans lit_8192]
    rfl
  have e6 : ∀ k : Fin 8192, res_main_call5_call0_v6 (F := Ideal) a0 a1 a2 a3 a4 (ix2 i k)
      = (Spec.Rn pd hq i k - Spec.mu pd hq i) * (Spec.Rn pd hq i k - Spec.mu pd hq i) := by
    intro k
    have e5 : res_main_call5_call0_v5 (F := Ideal) a0 a1 a2 a3 a4 (ix2 i k) = Spec.Rn pd hq i k - Spec.mu pd hq i := by
      refine (subf_apply _ _ _).trans ?_
      rw [v69_apply a0 a1 a2 a3 a4 pd hq hR, show res_main_call5_call0_v4 (F := Ideal) a0 a1 a2 a3 a4 (ix2 i k) = _ from (bc_col_full _ _ i k).trans e3]
    refine (mulf_apply _ _ _).trans ?_
    rw [e5]
  have e9 : res_main_call5_call0_v9 (F := Ideal) a0 a1 a2 a3 a4 (ix1 i)
      = ∑ k : Fin 8192, (Spec.Rn pd hq i k - Spec.mu pd hq i) * (Spec.Rn pd hq i k - Spec.mu pd hq i) := by
    refine (rowsum_apply _ _ i).trans ?_
    rw [show res_main_call5_call0_cst_2 (F := Ideal) a0 a1 a2 a3 a4 ix0 = 0 from Ideal.ofBits_zero_f32, zero_add]
    exact Finset.sum_congr rfl fun k _ => e6 k
  have e11 : res_main_call5_call0_v11 (F := Ideal) a0 a1 a2 a3 a4 (ix1 i)
      = Ideal.div (∑ k : Fin 8192, (Spec.Rn pd hq i k - Spec.mu pd hq i) * (Spec.Rn pd hq i k - Spec.mu pd hq i)) 8191 := by
    refine (hostDivf_apply _ _ _).trans ?_
    rw [e9, show res_main_call5_call0_v10 (F := Ideal) a0 a1 a2 a3 a4 (ix1 i) = 8191 from
      (broadcastInDim_scalar_apply _ _ _).trans (std_v8 a0 a1 a2 a3 a4)]
  have e : res_main_call5_v0 (F := Ideal) a0 a1 a2 a3 a4 (ix1 i)
      = Ideal.div (∑ k : Fin 8192, (Spec.Rn pd hq i k - Spec.mu pd hq i) * (Spec.Rn pd hq i k - Spec.mu pd hq i)) 8191 := by
    refine (select_apply _ _ _ _).trans ?_
    rw [show broadcastInDim S8192 ![] bcast_S_S8192 (res_main_call5_call0_v12 (F := Ideal) a0 a1 a2 a3 a4) (ix1 i) = 1#1 from
      (broadcastInDim_scalar_apply _ _ _).trans (std_v12 a0 a1 a2 a3 a4), select_one]
    exact e11
  refine (hostSqrt_at _ _).trans ?_
  rw [e]
  rfl

end

end C

open C

section
variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal)) (pd : Fin 100 → Fin 100 → EReal) (hq : Fin 8192 → Fin 100)
/-! ### The reweighting of a pair -/

theorem E_read (hR : ∀ i j : Fin 8192, res_main_v60 (F := Ideal) a0 a1 a2 a3 a4 (ix2 i j) = Spec.R pd hq i j) (i j : Fin 8192) :
    res_main_v84 (F := Ideal) a0 a1 a2 a3 a4 (ix2 i j) = Spec.E pd hq i j := by
  have e75 : res_main_v75 (F := Ideal) a0 a1 a2 a3 a4 (ix2 i j) = Spec.mu pd hq j :=
    ((bc_row_full _ _ i j).trans (bc_row _ _ 0 j)).trans (v72_apply a0 a1 a2 a3 a4 pd hq hR j)
  have e76 : res_main_v76 (F := Ideal) a0 a1 a2 a3 a4 (ix2 i j) = Spec.Rn pd hq i j - Spec.mu pd hq j := by
    refine (subf_apply _ _ _).trans ?_
    rw [v69_apply a0 a1 a2 a3 a4 pd hq hR, e75]
  have e77 : res_main_v77 (F := Ideal) a0 a1 a2 a3 a4 (ix2 i j)
      = (Spec.Rn pd hq i j - Spec.mu pd hq j) * (Spec.Rn pd hq i j - Spec.mu pd hq j) := by
    refine (mulf_apply _ _ _).trans ?_
    rw [e76]
  have e78 : res_main_v78 (F := Ideal) a0 a1 a2 a3 a4 (ix2 (0 : Fin 1) j) = Spec.sd pd hq j :=
    (bc_row _ _ 0 j).trans (v73_apply a0 a1 a2 a3 a4 pd hq hR j)
  have e79 : res_main_v79 (F := Ideal) a0 a1 a2 a3 a4 (ix2 (0 : Fin 1) j) = Spec.sd pd hq j * Spec.sd pd hq j := by
    refine (mulf_apply _ _ _).trans ?_
    rw [e78]
  have e81 : res_main_v81 (F := Ideal) a0 a1 a2 a3 a4 (ix2 (0 : Fin 1) j) = 2 * (Spec.sd pd hq j * Spec.sd pd hq j) := by
    refine (mulf_apply _ _ _).trans ?_
    rw [e79, show res_main_v80 (F := Ideal) a0 a1 a2 a3 a4 (ix2 (0 : Fin 1) j) = 2 from
      (broadcastInDim_scalar_apply _ _ _).trans lit_two]
  have e82 : res_main_v82 (F := Ideal) a0 a1 a2 a3 a4 (ix2 i j) = 2 * (Spec.sd pd hq j * Spec.sd pd hq j) :=
    (bc_row_full _ _ i j).trans e81
  have e83 : res_main_v83 (F := Ideal) a0 a1 a2 a3 a4 (ix2 i j)
      = Ideal.div ((Spec.Rn pd hq i j - Spec.mu pd hq j) * (Spec.Rn pd hq i j - Spec.mu pd hq j)) (2 * (Spec.sd pd hq j * Spec.sd pd hq j)) := by
    refine (hostDivf_apply _ _ _).trans ?_
    rw [e77, e82]
  refine (hostExp_at _ _).trans ?_
  rw [e83]
  rfl

/-! ### The denominator and the loss -/

theorem denom_read (G : Fin 8192 → Fin 8192 → EReal) (mem : Fin 8192 → Fin 100 → Bool) (hsim : ∀ i j : Fin 8192, res_main_v15 (F := Ideal) a0 a1 a2 a3 a4 (ix2 i j) = Ideal.exp (Ideal.div (G i j) Spec.tau)) (hmask : ∀ i j : Fin 8192, res_main_v32 (F := Ideal) a0 a1 a2 a3 a4 (ix2 i j) = if (i ≠ j ∧ mem i (hq j) = true) then 1#1 else 0#1) (hR : ∀ i j : Fin 8192, res_main_v60 (F := Ideal) a0 a1 a2 a3 a4 (ix2 i j) = Spec.R pd hq i j) : res_main_v93 (F := Ideal) a0 a1 a2 a3 a4 ix0 = Spec.refDenom G pd hq mem := by
  have e92 : ∀ i j : Fin 8192, res_main_v92 (F := Ideal) a0 a1 a2 a3 a4 (ix2 i j)
      = if (i ≠ j ∧ mem i (hq j) = true) then Ideal.exp (Ideal.div (G i j) Spec.tau) * Spec.E pd hq i j else 0 := by
    intro i j
    have e85 : res_main_v85 (F := Ideal) a0 a1 a2 a3 a4 (ix2 i j) = Ideal.exp (Ideal.div (G i j) Spec.tau) * Spec.E pd hq i j := by
      refine (mulf_apply _ _ _).trans ?_
      rw [hsim, E_read a0 a1 a2 a3 a4 pd hq hR]
    have e0 : res_main_call6_v1 (F := Ideal) a0 a1 a2 a3 a4 (ix2 i j) = 0 :=
      (broadcastInDim_scalar_apply _ _ _).trans Ideal.ofBits_zero_f32
    refine (select_apply _ _ _ _).trans ?_
    rw [hmask, e85, e0]
    split_ifs with h
    · exact select_one _ _
    · exact select_zero _ _
  refine (C.total2_apply _ _).trans ?_
  rw [show res_main_cst_19 (F := Ideal) a0 a1 a2 a3 a4 ix0 = 0 from Ideal.ofBits_zero_f32, zero_add]
  unfold Spec.refDenom
  exact Finset.sum_congr rfl fun i _ => Finset.sum_congr rfl fun j _ => e92 i j

theorem loss_read (ps : Fin 8192 → EReal) (hpos : ∀ i : Fin 8192, res_main_v91 (F := Ideal) a0 a1 a2 a3 a4 (ix1 i) = ps i) : res_main_v99 (F := Ideal) a0 a1 a2 a3 a4 ix0 = Spec.loss ps (res_main_v93 (F := Ideal) a0 a1 a2 a3 a4 ix0) := by
  have e97 : ∀ i : Fin 8192, res_main_v97 (F := Ideal) a0 a1 a2 a3 a4 (ix1 i)
      = -(Ideal.log (Ideal.div (ps i) (res_main_v93 (F := Ideal) a0 a1 a2 a3 a4 ix0))) := by
    intro i
    have e95 : res_main_v95 (F := Ideal) a0 a1 a2 a3 a4 (ix1 i) = Ideal.div (ps i) (res_main_v93 (F := Ideal) a0 a1 a2 a3 a4 ix0) := by
      refine (hostDivf_apply _ _ _).trans ?_
      rw [hpos, show res_main_v94 (F := Ideal) a0 a1 a2 a3 a4 (ix1 i) = res_main_v93 (F := Ideal) a0 a1 a2 a3 a4 ix0 from
        broadcastInDim_scalar_apply _ _ _]
    have e96 : res_main_v96 (F := Ideal) a0 a1 a2 a3 a4 (ix1 i) = Ideal.log (Ideal.div (ps i) (res_main_v93 (F := Ideal) a0 a1 a2 a3 a4 ix0)) := by
      refine (hostLog_at _ _).trans ?_
      rw [e95]
    refine (hostNegf_at _ _).trans ?_
    rw [e96]
  have e98 : res_main_v98 (F := Ideal) a0 a1 a2 a3 a4 ix0
      = ∑ i : Fin 8192, -(Ideal.log (Ideal.div (ps i) (res_main_v93 (F := Ideal) a0 a1 a2 a3 a4 ix0))) := by
    refine (C.total1_apply _ _).trans ?_
    rw [show res_main_cst_20 (F := Ideal) a0 a1 a2 a3 a4 ix0 = 0 from Ideal.ofBits_zero_f32, zero_add]
    exact Finset.sum_congr rfl fun i _ => e97 i
  refine (hostDivf_apply _ _ _).trans ?_
  rw [e98, show res_main_cst_21 (F := Ideal) a0 a1 a2 a3 a4 ix0 = 8192 from C.lit_8192]
  rfl

end

end Cert.ReferenceIdeal.Read

end
-- ==== Proof.MathUnit.lean ====
/-
  Unit rows are real and of squared length at most one; inner products and prototype distances of real rows are real;
  the prototype distance is symmetric, and a zero distance between two rows of length at most one makes the rows equal
  (|u − v|² = |u|² + |v|² − 2⟨u, v⟩ ≤ 0), hence their distances to every third row.
-/
import proofs.«427632_j79637283602625_3_alg».proof.Proof.Spec

noncomputable section

open scoped BigOperators

namespace Cert.Spec

open Idealize.ShloMosaic

/-- A finite sum of real-valued extended reals is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of real-valued rows is the coercion of the real sum of products. -/
theorem sum_mul_coe {ι : Type*} (s : Finset ι) (u v : ι → EReal) (a b : ι → ℝ)
    (hu : ∀ k, u k = (a k : EReal)) (hv : ∀ k, v k = (b k : EReal)) :
    (∑ k ∈ s, u k * v k) = ((∑ k ∈ s, a k * b k : ℝ) : EReal) := by
  rw [← sum_coe]
  refine Finset.sum_congr rfl (fun k _ => ?_)
  rw [hu, hv, EReal.coe_mul]

/-- The norm floor is a positive real: (2²³ + 834764) · 2⁻⁶³. -/
theorem eps_pos_real : ∃ e : ℝ, 0 < e ∧ eps = (e : EReal) := by
  refine ⟨9223372 * (2 : ℝ) ^ (-63 : Int), by positivity, ?_⟩
  simp [eps, Ideal.ofBits, Ideal.ieee, -EReal.coe_mul]

/-- The floored norm of a real row is a positive real, at least the root of the sum of squares. -/
theorem rowNorm_real {n : ℕ} (x : Fin n → Fin 256 → EReal) (a : Fin n → Fin 256 → ℝ)
    (ha : ∀ i k, x i k = (a i k : EReal)) (i : Fin n) :
    ∃ d : ℝ, 0 < d ∧ Real.sqrt (∑ k, a i k * a i k) ≤ d ∧ rowNorm x i = (d : EReal) := by
  obtain ⟨e, he, hee⟩ := eps_pos_real
  refine ⟨max (Real.sqrt (∑ k, a i k * a i k)) e, lt_max_of_lt_right he, le_max_left _ _, ?_⟩
  have hs : (∑ k, x i k * x i k) = ((∑ k, a i k * a i k : ℝ) : EReal) :=
    sum_mul_coe _ _ _ _ _ (ha i) (ha i)
  have hnn : ¬ (∑ k, a i k * a i k) < 0 :=
    not_lt.mpr (Finset.sum_nonneg (fun k _ => mul_self_nonneg _))
  have hmono : Monotone (fun r : ℝ => (r : EReal)) := fun _ _ h => EReal.coe_le_coe_iff.mpr h
  rw [rowNorm, hs, Ideal.sqrt_coe, if_neg hnn, hee]
  exact (hmono.map_max).symm

/-- Each entry of a unit row is the real entry over the real floored norm. -/
theorem unit_eq {n : ℕ} (x : Fin n → Fin 256 → EReal) (a : Fin n → Fin 256 → ℝ)
    (ha : ∀ i k, x i k = (a i k : EReal)) (i : Fin n) :
    ∃ d : ℝ, 0 < d ∧ Real.sqrt (∑ k, a i k * a i k) ≤ d ∧ ∀ k, unit x i k = ((a i k / d : ℝ) : EReal) := by
  obtain ⟨d, hd, hle, hdn⟩ := rowNorm_real x a ha i
  refine ⟨d, hd, hle, fun k => ?_⟩
  rw [unit, hdn, Ideal.div_coe hd.ne', ha, ← EReal.coe_mul, mul_one_div]

theorem unit_real {n : ℕ} (x : Fin n → Fin 256 → EReal) (hx : ∀ i k, ∃ r : ℝ, x i k = (r : EReal)) (i : Fin n) (k : Fin 256) :
    ∃ r : ℝ, unit x i k = (r : EReal) := by
  choose a ha using hx
  obtain ⟨d, _, _, hu⟩ := unit_eq x a ha i
  exact ⟨_, hu k⟩

theorem unit_sq_le_one {n : ℕ} (x : Fin n → Fin 256 → EReal) (hx : ∀ i k, ∃ r : ℝ, x i k = (r : EReal)) (i : Fin n) :
    ∃ r : ℝ, (∑ k, unit x i k * unit x i k) = (r : EReal) ∧ r ≤ 1 := by
  choose a ha using hx
  obtain ⟨d, hd, hle, hu⟩ := unit_eq x a ha i
  refine ⟨∑ k, (a i k / d) * (a i k / d), sum_mul_coe _ _ _ _ _ hu hu, ?_⟩
  -- Σ (a/d)² = (Σ a²)/d², and Σ a² = (√Σ a²)² ≤ d².
  have hs0 : 0 ≤ ∑ k, a i k * a i k := Finset.sum_nonneg (fun k _ => mul_self_nonneg _)
  have hsd : (∑ k, a i k * a i k) ≤ d * d := by
    calc (∑ k, a i k * a i k) = Real.sqrt (∑ k, a i k * a i k) * Real.sqrt (∑ k, a i k * a i k) :=
          (Real.mul_self_sqrt hs0).symm
      _ ≤ d * d := mul_le_mul hle hle (Real.sqrt_nonneg _) hd.le
  have hrew : (∑ k, (a i k / d) * (a i k / d)) = (∑ k, a i k * a i k) / (d * d) := by
    rw [Finset.sum_div]
    refine Finset.sum_congr rfl (fun k _ => ?_)
    rw [div_mul_div_comm]
  rw [hrew]
  exact (div_le_one (mul_pos hd hd)).mpr hsd

theorem out_real (x xa : Fin 4096 → Fin 256 → EReal) (hx : ∀ i k, ∃ r : ℝ, x i k = (r : EReal)) (hxa : ∀ i k, ∃ r : ℝ, xa i k = (r : EReal))
    (i : Fin 8192) (k : Fin 256) : ∃ r : ℝ, out x xa i k = (r : EReal) := by
  unfold out
  split
  · exact unit_real x hx _ k
  · exact unit_real xa hxa _ k

theorem gram_real (o : Fin 8192 → Fin 256 → EReal) (ho : ∀ i k, ∃ r : ℝ, o i k = (r : EReal)) (i j : Fin 8192) :
    ∃ r : ℝ, gram o i j = (r : EReal) := by
  choose a ha using ho
  exact ⟨_, sum_mul_coe _ _ _ _ _ (ha i) (ha j)⟩

/-- The prototype distance of real rows, computed in the reals. -/
theorem pdist_eq (w : Fin 100 → Fin 256 → EReal) (b : Fin 100 → Fin 256 → ℝ)
    (hb : ∀ p k, w p k = (b p k : EReal)) (p q : Fin 100) :
    pdist w p q = ((1 - ∑ k, b p k * b q k : ℝ) : EReal) := by
  rw [pdist, sum_mul_coe _ _ _ _ _ (hb p) (hb q), EReal.coe_sub, EReal.coe_one]

theorem pdist_real (w : Fin 100 → Fin 256 → EReal) (hw : ∀ p k, ∃ r : ℝ, w p k = (r : EReal)) (p q : Fin 100) :
    ∃ r : ℝ, pdist w p q = (r : EReal) := by
  choose b hb using hw
  exact ⟨_, pdist_eq w b hb p q⟩

theorem pdist_symm (w : Fin 100 → Fin 256 → EReal) (p q : Fin 100) : pdist w p q = pdist w q p := by
  unfold pdist
  congr 1
  exact Finset.sum_congr rfl (fun k _ => mul_comm _ _)

theorem pdist_zero_rows (w : Fin 100 → Fin 256 → EReal) (hw : ∀ p k, ∃ r : ℝ, w p k = (r : EReal))
    (hn : ∀ p, ∃ r : ℝ, (∑ k, w p k * w p k) = (r : EReal) ∧ r ≤ 1) (p q : Fin 100) (h : pdist w p q = 0) (r : Fin 100) :
    pdist w p r = pdist w q r := by
  choose b hb using hw
  -- the squared lengths are at most one, in the reals
  have hlen : ∀ t, (∑ k, b t k * b t k) ≤ 1 := by
    intro t
    obtain ⟨c, hc, hc1⟩ := hn t
    rw [sum_mul_coe _ _ _ _ _ (hb t) (hb t)] at hc
    rw [EReal.coe_eq_coe_iff.mp hc]
    exact hc1
  -- the inner product is one, in the reals
  have hip : (∑ k, b p k * b q k) = 1 := by
    rw [pdist_eq w b hb p q, ← EReal.coe_zero, EReal.coe_eq_coe_iff] at h
    linarith
  -- |u − v|² = |u|² + |v|² − 2⟨u, v⟩ ≤ 0
  have hsq : (∑ k, (b p k - b q k) * (b p k - b q k)) ≤ 0 := by
    have hexp : (∑ k, (b p k - b q k) * (b p k - b q k))
        = (∑ k, b p k * b p k) + (∑ k, b q k * b q k) - 2 * (∑ k, b p k * b q k) := by
      rw [Finset.mul_sum, ← Finset.sum_add_distrib, ← Finset.sum_sub_distrib]
      exact Finset.sum_congr rfl (fun k _ => by ring)
    rw [hexp, hip]
    linarith [hlen p, hlen q]
  -- a sum of squares that is not positive has every term zero
  have hterm : ∀ k, b p k = b q k := by
    intro k
    have h0 : (∑ k, (b p k - b q k) * (b p k - b q k)) = 0 :=
      le_antisymm hsq (Finset.sum_nonneg (fun k _ => mul_self_nonneg _))
    have hk := (Finset.sum_eq_zero_iff_of_nonneg (fun k _ => mul_self_nonneg (b p k - b q k))).mp h0 k (Finset.mem_univ k)
    exact sub_eq_zero.mp (mul_self_eq_zero.mp hk)
  rw [pdist_eq w b hb p r, pdist_eq w b hb q r]
  congr 2
  exact Finset.sum_congr rfl (fun k _ => by rw [hterm k])

end Cert.Spec

end
-- ==== Proof.MathRows.lean ====
/-
  A row of the 8192 × 8192 distance matrix holds, besides the forced zero on the diagonal, the value pd p q once for every
  OTHER row whose hard prototype is q (p the row's own prototype). So its minimum and maximum are those of the prototypes
  that occur among the other rows, together with 0, and a sum of any real-valued function over the row is the function at 0
  plus the multiplicity-weighted sum over prototypes.
-/
import proofs.«427632_j79637283602625_3_alg».proof.Proof.Spec

noncomputable section

open scoped BigOperators

namespace Cert.Spec

open Idealize.ShloMosaic

/-- A finite sum of real numbers, read in the extended reals, is the sum of the readings. -/
theorem coe_sum_real {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- In the reals: a sum over a row that is a at the diagonal and f (hq j) elsewhere is a plus, for each value q,
  f q as many times as there are other rows j with hq j = q. -/
theorem sum_row_real (hq : Fin 8192 → Fin 100) (i : Fin 8192) (a : ℝ) (f : Fin 100 → ℝ) :
    ∑ j, (if i = j then a else f (hq j))
      = a + ∑ q, (((Finset.univ.filter fun j : Fin 8192 => j ≠ i ∧ hq j = q).card : ℕ) : ℝ) * f q := by
  rw [← Finset.add_sum_erase Finset.univ _ (Finset.mem_univ i), if_pos rfl]
  congr 1
  rw [← Finset.sum_fiberwise (Finset.univ.erase i) hq]
  apply Finset.sum_congr rfl
  intro q _
  have hset : (Finset.univ.erase i).filter (fun j => hq j = q)
      = Finset.univ.filter fun j : Fin 8192 => j ≠ i ∧ hq j = q := by
    ext j; simp
  rw [hset, ← nsmul_eq_mul, ← Finset.sum_const]
  apply Finset.sum_congr rfl
  intro j hj
  have hj' := (Finset.mem_filter.1 hj).2
  rw [if_neg (Ne.symm hj'.1), hj'.2]

section
variable (pd : Fin 100 → Fin 100 → EReal) (hq : Fin 8192 → Fin 100)

theorem cnt_eq (q : Fin 100) : cnt hq q = (((Finset.univ.filter fun j : Fin 8192 => hq j = q).card : ℕ) : EReal) := by
  unfold cnt oh
  exact Finset.sum_boole _ _

theorem cadj_eq (i : Fin 8192) (q : Fin 100) :
    cadj hq (hq i) q = (((Finset.univ.filter fun j : Fin 8192 => j ≠ i ∧ hq j = q).card : ℕ) : EReal) := by
  unfold cadj
  rw [cnt_eq]
  by_cases h : hq i = q
  · -- the fibre of q is the other rows of the fibre together with i itself
    rw [if_pos h]
    have hins : (Finset.univ.filter fun j : Fin 8192 => hq j = q)
        = insert i (Finset.univ.filter fun j : Fin 8192 => j ≠ i ∧ hq j = q) := by
      ext j
      simp only [Finset.mem_filter, Finset.mem_univ, true_and, Finset.mem_insert]
      constructor
      · intro hj
        by_cases hji : j = i
        · exact Or.inl hji
        · exact Or.inr ⟨hji, hj⟩
      · rintro (rfl | ⟨_, hj⟩)
        · exact h
        · exact hj
    have hni : i ∉ (Finset.univ.filter fun j : Fin 8192 => j ≠ i ∧ hq j = q) := by
      simp
    rw [hins, Finset.card_insert_of_notMem hni]
    rw [← EReal.coe_coe_eq_natCast, ← EReal.coe_coe_eq_natCast, Nat.cast_add, Nat.cast_one]
    rw [← EReal.coe_one, ← EReal.coe_sub]
    congr 1
    ring
  · -- i is not in the fibre of q, so nothing is removed
    rw [if_neg h, sub_zero]
    congr 2
    ext j
    simp only [Finset.mem_filter, Finset.mem_univ, true_and]
    constructor
    · intro hj
      refine ⟨?_, hj⟩
      rintro rfl
      exact h hj
    · exact fun hj => hj.2

theorem cadj_pos_iff (i : Fin 8192) (q : Fin 100) : 0 < cadj hq (hq i) q ↔ ∃ j : Fin 8192, j ≠ i ∧ hq j = q := by
  have h0 : (0 : EReal) = ((0 : ℕ) : EReal) := by simp
  rw [cadj_eq, h0, EReal.natCast_lt_iff, Finset.card_pos]
  constructor
  · rintro ⟨j, hj⟩
    exact ⟨j, (Finset.mem_filter.1 hj).2⟩
  · rintro ⟨j, hj⟩
    exact ⟨j, Finset.mem_filter.2 ⟨Finset.mem_univ j, hj⟩⟩

theorem rmin_eq (i : Fin 8192) : rmin pd hq i = minval pd hq (hq i) := by
  unfold rmin minval
  apply le_antisymm
  · apply le_min
    · apply Finset.le_inf
      intro q _
      by_cases hpos : 0 < cadj hq (hq i) q
      · rw [if_pos hpos]
        obtain ⟨j, hji, hjq⟩ := (cadj_pos_iff hq i q).1 hpos
        have hRj : R pd hq i j = pd (hq i) q := by
          unfold R
          rw [if_neg (Ne.symm hji), hjq]
        have h1 : (Finset.univ.inf fun j => R pd hq i j) ≤ R pd hq i j := Finset.inf_le (Finset.mem_univ j)
        exact h1.trans (le_of_eq hRj)
      · rw [if_neg hpos]
        exact le_top
    · have hRi : R pd hq i i = 0 := by unfold R; rw [if_pos rfl]
      have h1 : (Finset.univ.inf fun j => R pd hq i j) ≤ R pd hq i i := Finset.inf_le (Finset.mem_univ i)
      exact h1.trans (le_of_eq hRi)
  · apply Finset.le_inf
    intro j _
    by_cases hij : i = j
    · have hRj : R pd hq i j = 0 := by unfold R; rw [if_pos hij]
      rw [hRj]
      exact min_le_right _ _
    · have hRj : R pd hq i j = pd (hq i) (hq j) := by unfold R; rw [if_neg hij]
      rw [hRj]
      have hpos : 0 < cadj hq (hq i) (hq j) := (cadj_pos_iff hq i (hq j)).2 ⟨j, Ne.symm hij, rfl⟩
      have h1 : (Finset.univ.inf fun q => if 0 < cadj hq (hq i) q then pd (hq i) q else ⊤)
          ≤ (if 0 < cadj hq (hq i) (hq j) then pd (hq i) (hq j) else ⊤) :=
        Finset.inf_le (f := fun q => if 0 < cadj hq (hq i) q then pd (hq i) q else ⊤) (Finset.mem_univ (hq j))
      rw [if_pos hpos] at h1
      exact (min_le_left _ _).trans h1

theorem rmax_eq (i : Fin 8192) : rmax pd hq i = maxval pd hq (hq i) := by
  unfold rmax maxval
  apply le_antisymm
  · apply Finset.sup_le
    intro j _
    by_cases hij : i = j
    · have hRj : R pd hq i j = 0 := by unfold R; rw [if_pos hij]
      rw [hRj]
      exact le_max_right _ _
    · have hRj : R pd hq i j = pd (hq i) (hq j) := by unfold R; rw [if_neg hij]
      rw [hRj]
      have hpos : 0 < cadj hq (hq i) (hq j) := (cadj_pos_iff hq i (hq j)).2 ⟨j, Ne.symm hij, rfl⟩
      have h1 : (if 0 < cadj hq (hq i) (hq j) then pd (hq i) (hq j) else ⊥)
          ≤ (Finset.univ.sup fun q => if 0 < cadj hq (hq i) q then pd (hq i) q else ⊥) :=
        Finset.le_sup (f := fun q => if 0 < cadj hq (hq i) q then pd (hq i) q else ⊥) (Finset.mem_univ (hq j))
      rw [if_pos hpos] at h1
      exact h1.trans (le_max_left _ _)
  · apply max_le
    · apply Finset.sup_le
      intro q _
      by_cases hpos : 0 < cadj hq (hq i) q
      · rw [if_pos hpos]
        obtain ⟨j, hji, hjq⟩ := (cadj_pos_iff hq i q).1 hpos
        have hRj : R pd hq i j = pd (hq i) q := by
          unfold R
          rw [if_neg (Ne.symm hji), hjq]
        have h1 : R pd hq i j ≤ (Finset.univ.sup fun j => R pd hq i j) := Finset.le_sup (f := fun j => R pd hq i j) (Finset.mem_univ j)
        exact (le_of_eq hRj.symm).trans h1
      · rw [if_neg hpos]
        exact bot_le
    · have hRi : R pd hq i i = 0 := by unfold R; rw [if_pos rfl]
      have h1 : R pd hq i i ≤ (Finset.univ.sup fun j => R pd hq i j) := Finset.le_sup (f := fun j => R pd hq i j) (Finset.mem_univ i)
      exact (le_of_eq hRi.symm).trans h1

theorem sum_row (hpd : ∀ p q, ∃ r : ℝ, pd p q = (r : EReal)) (φ : EReal → EReal) (hφ : ∀ r : ℝ, ∃ s : ℝ, φ (r : EReal) = (s : EReal)) (i : Fin 8192) :
    ∑ j, φ (R pd hq i j) = φ 0 + ∑ q, cadj hq (hq i) q * φ (pd (hq i) q) := by
  choose pdr hpdr using hpd
  choose φr hφr using hφ
  -- every term on either side is a real number
  have h0 : φ 0 = ((φr 0 : ℝ) : EReal) := by rw [← EReal.coe_zero, hφr]
  have hL : ∀ j, φ (R pd hq i j) = ((if i = j then φr 0 else φr (pdr (hq i) (hq j)) : ℝ) : EReal) := by
    intro j
    unfold R
    by_cases hij : i = j
    · rw [if_pos hij, if_pos hij, h0]
    · rw [if_neg hij, if_neg hij, hpdr, hφr]
  have hR : ∀ q, cadj hq (hq i) q * φ (pd (hq i) q)
      = (((((Finset.univ.filter fun j : Fin 8192 => j ≠ i ∧ hq j = q).card : ℕ) : ℝ) * φr (pdr (hq i) q) : ℝ) : EReal) := by
    intro q
    rw [cadj_eq, hpdr, hφr, EReal.coe_mul, EReal.coe_coe_eq_natCast]
  rw [Finset.sum_congr rfl (fun j _ => hL j), Finset.sum_congr rfl (fun q _ => hR q), h0,
    ← coe_sum_real, ← coe_sum_real, ← EReal.coe_add]
  congr 1
  exact sum_row_real hq i (φr 0) (fun q => φr (pdr (hq i) q))

end

end Cert.Spec

end
-- ==== Proof.MathDeg.lean ====
/-
  Either every row's prototype distances are all zero, or every row has a real minimum strictly below a real maximum:
  a row whose distances all vanish identifies its prototype's distances with those of every prototype that occurs, so every
  row's vanish. In the all-zero case both the reference's reweighting (through 0/0 = ⊥, ⊥ − ⊥ = ⊥, ⊥·⊥ = ⊤, ⊤/⊤ = 0) and the
  kernel's table entry (through 1/0 = ⊤, ⊤·0 = 0) are exp 0 = 1.
-/
import proofs.«427632_j79637283602625_3_alg».proof.Proof.Spec
import proofs.«427632_j79637283602625_3_alg».proof.Proof.MathRows

noncomputable section

open scoped BigOperators

namespace Cert.Spec

open Idealize.ShloMosaic

/-! ### Values of the operations at the corners that occur -/

theorem deg_div_zero_zero : Ideal.div 0 0 = ⊥ := by simp [Ideal.div]
theorem deg_div_one_zero : Ideal.div 1 0 = ⊤ := by simp [Ideal.div]
theorem deg_div_top_top : Ideal.div ⊤ ⊤ = 0 := by simp [Ideal.div]
theorem deg_coe_8192 : (8192 : EReal) = ((8192 : ℝ) : EReal) := by norm_cast
theorem deg_coe_8191 : (8191 : EReal) = ((8191 : ℝ) : EReal) := by norm_cast
theorem deg_div_bot_8192 : Ideal.div ⊥ 8192 = ⊥ := by
  rw [deg_coe_8192, Ideal.div_coe (by norm_num)]
  exact EReal.bot_mul_coe_of_pos (by norm_num)
theorem deg_div_top_8191 : Ideal.div ⊤ 8191 = ⊤ := by
  rw [deg_coe_8191, Ideal.div_coe (by norm_num)]
  exact EReal.top_mul_coe_of_pos (by norm_num)
theorem deg_div_zero_8192 : Ideal.div 0 8192 = 0 := by
  rw [deg_coe_8192, Ideal.div_coe (by norm_num), zero_mul]
theorem deg_div_zero_8191 : Ideal.div 0 8191 = 0 := by
  rw [deg_coe_8191, Ideal.div_coe (by norm_num), zero_mul]
theorem deg_sqrt_zero : Ideal.sqrt 0 = 0 := by
  have h : (0 : EReal) = ((0 : ℝ) : EReal) := rfl
  rw [h, Ideal.sqrt_coe]; simp
theorem deg_exp_zero : Ideal.exp 0 = 1 := by
  have h : (0 : EReal) = ((0 : ℝ) : EReal) := rfl
  rw [h, Ideal.exp_coe]; simp
theorem deg_bot_sub_bot : (⊥ : EReal) - ⊥ = ⊥ := by simp
theorem deg_two_top_top : (2 : EReal) * (⊤ * ⊤) = ⊤ := by
  rw [EReal.top_mul_top]; exact EReal.mul_top_of_pos (by norm_num)
theorem deg_zero_sub_zero : (0 : EReal) - 0 = 0 := by simp

/-- A sum with a term −∞ is −∞. -/
theorem deg_sum_bot {ι : Type} (s : Finset ι) (f : ι → EReal) (a : ι) (ha : a ∈ s) (hf : f a = ⊥) :
    ∑ x ∈ s, f x = ⊥ := by
  classical
  rw [← Finset.add_sum_erase s f ha, hf, EReal.bot_add]

/-- A nonempty sum of +∞ is +∞. -/
theorem deg_sum_top {ι : Type} (s : Finset ι) (hs : s.Nonempty) : ∑ _x ∈ s, (⊤ : EReal) = ⊤ := by
  classical
  induction hs using Finset.Nonempty.cons_induction with
  | singleton a => simp
  | cons a s ha hs ih => rw [Finset.sum_cons, ih, EReal.top_add_top]

/-- A count that is not positive is zero. -/
theorem deg_natCast_zero (n : ℕ) (h : ¬ (0 : EReal) < (n : EReal)) : (n : EReal) = 0 := by
  rcases Nat.eq_zero_or_pos n with h0 | hp
  · rw [h0]; simp
  · exfalso; apply h
    have e : (n : EReal) = ((n : ℝ) : EReal) := rfl
    rw [e]; exact EReal.coe_pos.2 (Nat.cast_pos.2 hp)

section
variable (pd : Fin 100 → Fin 100 → EReal) (hq : Fin 8192 → Fin 100)

/-! ### One vanishing row makes every row vanish -/

theorem deg_R_ne {i j : Fin 8192} (h : i ≠ j) : R pd hq i j = pd (hq i) (hq j) := by
  simp [R, h]

theorem deg_R_self (i : Fin 8192) : R pd hq i i = 0 := by simp [R]

/-- If row i₀ is all zero, each other row j has pd (hq i₀) (hq j) = 0, hence the same distance row as i₀; so a distance
    between two other rows is a distance from i₀, and a distance to i₀ is one from i₀ by symmetry. -/
theorem deg_spread (hsymm : ∀ p q, pd p q = pd q p) (hzero : ∀ p q, pd p q = 0 → ∀ r, pd p r = pd q r)
    (i₀ : Fin 8192) (h0 : ∀ j, R pd hq i₀ j = 0) : ∀ i j, R pd hq i j = 0 := by
  have hz : ∀ j, j ≠ i₀ → pd (hq i₀) (hq j) = 0 := by
    intro j hj
    have h := h0 j
    rwa [deg_R_ne pd hq (Ne.symm hj)] at h
  intro i j
  by_cases hij : i = j
  · subst hij; exact deg_R_self pd hq i
  · rw [deg_R_ne pd hq hij]
    by_cases hi : i = i₀
    · subst hi; exact hz j (Ne.symm hij)
    · by_cases hj : j = i₀
      · subst hj; rw [hsymm]; exact hz i hi
      · have hrow := hzero _ _ (hz i hi)
        rw [← hrow (hq j)]; exact hz j hj

theorem deg_dichotomy (hpd : ∀ p q, ∃ r : ℝ, pd p q = (r : EReal)) (hsymm : ∀ p q, pd p q = pd q p)
    (hzero : ∀ p q, pd p q = 0 → ∀ r, pd p r = pd q r) :
    (∀ i j, R pd hq i j = 0) ∨ (∀ i, ∃ lo hi : ℝ, rmin pd hq i = (lo : EReal) ∧ rmax pd hq i = (hi : EReal) ∧ lo < hi) := by
  by_cases hall : ∀ i j, R pd hq i j = 0
  · exact Or.inl hall
  · right
    intro i
    -- every entry of the row is real; the minimum and the maximum are attained
    have hreal : ∀ j, ∃ r : ℝ, R pd hq i j = (r : EReal) := by
      intro j
      by_cases hij : i = j
      · subst hij; exact ⟨0, by rw [deg_R_self]; rfl⟩
      · rw [deg_R_ne pd hq hij]; exact hpd _ _
    obtain ⟨j₁, -, h₁⟩ := Finset.exists_mem_eq_inf Finset.univ Finset.univ_nonempty (fun j => R pd hq i j)
    obtain ⟨j₂, -, h₂⟩ := Finset.exists_mem_eq_sup Finset.univ Finset.univ_nonempty (fun j => R pd hq i j)
    obtain ⟨lo, hlo⟩ := hreal j₁
    obtain ⟨hi, hhi⟩ := hreal j₂
    have hmin : rmin pd hq i = (lo : EReal) := by
      show (Finset.univ.inf fun j => R pd hq i j) = _
      rw [h₁]; exact hlo
    have hmax : rmax pd hq i = (hi : EReal) := by
      show (Finset.univ.sup fun j => R pd hq i j) = _
      rw [h₂]; exact hhi
    refine ⟨lo, hi, hmin, hmax, ?_⟩
    -- the diagonal entry 0 lies between them; if they met, the whole row would be 0, and then every row
    by_contra hnot
    have hle : hi ≤ lo := not_lt.1 hnot
    apply hall
    apply deg_spread pd hq hsymm hzero i
    intro j
    have h1 : rmin pd hq i ≤ R pd hq i j := Finset.inf_le (f := fun j => R pd hq i j) (Finset.mem_univ j)
    have h2 : R pd hq i j ≤ rmax pd hq i := Finset.le_sup (f := fun j => R pd hq i j) (Finset.mem_univ j)
    have h3 : rmin pd hq i ≤ R pd hq i i := Finset.inf_le (f := fun j => R pd hq i j) (Finset.mem_univ i)
    have h4 : R pd hq i i ≤ rmax pd hq i := Finset.le_sup (f := fun j => R pd hq i j) (Finset.mem_univ i)
    rw [deg_R_self, hmin] at h3
    rw [deg_R_self, hmax] at h4
    rw [hmin] at h1
    rw [hmax] at h2
    have hlo0 : lo ≤ 0 := by exact_mod_cast h3
    have hhi0 : 0 ≤ hi := by exact_mod_cast h4
    have e1 : (lo : EReal) = 0 := by
      have : lo = 0 := by linarith
      rw [this]; rfl
    have e2 : (hi : EReal) = 0 := by
      have : hi = 0 := by linarith
      rw [this]; rfl
    rw [e1] at h1
    rw [e2] at h2
    exact le_antisymm h2 h1

/-- With every row zero the distance between the prototypes of any two rows is zero, also of a row and itself:
    a second row has distance 0 from the first, hence the same distance row. -/
theorem deg_pd_zero (hsymm : ∀ p q, pd p q = pd q p) (hzero : ∀ p q, pd p q = 0 → ∀ r, pd p r = pd q r)
    (hdeg : ∀ i j, R pd hq i j = 0) (i j : Fin 8192) : pd (hq i) (hq j) = 0 := by
  have hne : ∀ a b : Fin 8192, a ≠ b → pd (hq a) (hq b) = 0 := by
    intro a b hab
    have h := hdeg a b
    rwa [deg_R_ne pd hq hab] at h
  by_cases hij : i = j
  · subst hij
    obtain ⟨k, hk⟩ : ∃ k : Fin 8192, i ≠ k := by
      by_cases h0 : i = 0
      · subst h0; exact ⟨1, by decide⟩
      · exact ⟨0, h0⟩
    have hrow := hzero _ _ (hne i k hk)
    rw [hrow (hq i), hsymm]; exact hne i k hk
  · exact hne i j hij

/-! ### The reference's reweighting when every row is zero -/

theorem deg_rmin_zero (hdeg : ∀ i j, R pd hq i j = 0) (i : Fin 8192) : rmin pd hq i = 0 := by
  show (Finset.univ.inf fun j => R pd hq i j) = 0
  have h : (fun j => R pd hq i j) = fun _ => (0 : EReal) := funext (hdeg i)
  rw [h]; exact Finset.inf_const Finset.univ_nonempty 0

theorem deg_rmax_zero (hdeg : ∀ i j, R pd hq i j = 0) (i : Fin 8192) : rmax pd hq i = 0 := by
  show (Finset.univ.sup fun j => R pd hq i j) = 0
  have h : (fun j => R pd hq i j) = fun _ => (0 : EReal) := funext (hdeg i)
  rw [h]; exact Finset.sup_const Finset.univ_nonempty 0

/-- Every rescaled entry is 0/0 = ⊥. -/
theorem deg_Rn (hdeg : ∀ i j, R pd hq i j = 0) (i j : Fin 8192) : Rn pd hq i j = ⊥ := by
  unfold Rn
  rw [hdeg i j, deg_rmin_zero pd hq hdeg, deg_rmax_zero pd hq hdeg, deg_zero_sub_zero, deg_div_zero_zero]

/-- The mean of a row of ⊥ is ⊥. -/
theorem deg_mu (hdeg : ∀ i j, R pd hq i j = 0) (i : Fin 8192) : mu pd hq i = ⊥ := by
  unfold mu
  rw [deg_sum_bot Finset.univ (fun j => Rn pd hq i j) i (Finset.mem_univ i) (deg_Rn pd hq hdeg i i), deg_div_bot_8192]

/-- Each squared deviation is (⊥ − ⊥)·(⊥ − ⊥) = ⊤, so the deviation is √(⊤/8191) = ⊤. -/
theorem deg_sd (hdeg : ∀ i j, R pd hq i j = 0) (i : Fin 8192) : sd pd hq i = ⊤ := by
  unfold sd
  have hterm : ∀ j, (Rn pd hq i j - mu pd hq i) * (Rn pd hq i j - mu pd hq i) = ⊤ := by
    intro j
    rw [deg_Rn pd hq hdeg, deg_mu pd hq hdeg, deg_bot_sub_bot, EReal.bot_mul_bot]
  rw [Finset.sum_congr rfl (fun j _ => hterm j), deg_sum_top Finset.univ Finset.univ_nonempty, deg_div_top_8191,
    Ideal.sqrt_top]

theorem E_deg (hdeg : ∀ i j, R pd hq i j = 0) (i j : Fin 8192) : E pd hq i j = 1 := by
  unfold E
  rw [deg_Rn pd hq hdeg, deg_mu pd hq hdeg, deg_sd pd hq hdeg, deg_bot_sub_bot, EReal.bot_mul_bot, deg_two_top_top,
    deg_div_top_top, deg_exp_zero]

/-! ### The kernel's table entry when every row is zero -/

/-- A prototype either does not occur among the other rows (multiplicity 0) or is some row's prototype. -/
theorem deg_cadj_cases (i : Fin 8192) (q : Fin 100) : cadj hq (hq i) q = 0 ∨ ∃ j : Fin 8192, hq j = q := by
  by_cases h : 0 < cadj hq (hq i) q
  · obtain ⟨j, -, hj⟩ := (cadj_pos_iff hq i q).1 h
    exact Or.inr ⟨j, hj⟩
  · left
    rw [cadj_eq hq i q] at h ⊢
    exact deg_natCast_zero _ h

theorem deg_minval (hdeg : ∀ i j, R pd hq i j = 0) (i : Fin 8192) : minval pd hq (hq i) = 0 := by
  rw [← rmin_eq pd hq i]; exact deg_rmin_zero pd hq hdeg i

theorem deg_maxval (hdeg : ∀ i j, R pd hq i j = 0) (i : Fin 8192) : maxval pd hq (hq i) = 0 := by
  rw [← rmax_eq pd hq i]; exact deg_rmax_zero pd hq hdeg i

/-- The range is 0, so its reciprocal is 1/0 = ⊤. -/
theorem deg_ka (hdeg : ∀ i j, R pd hq i j = 0) (i : Fin 8192) : ka pd hq (hq i) = ⊤ := by
  unfold ka
  rw [deg_minval pd hq hdeg, deg_maxval pd hq hdeg, deg_zero_sub_zero, deg_div_one_zero]

theorem deg_kb (hdeg : ∀ i j, R pd hq i j = 0) (i : Fin 8192) : kb pd hq (hq i) = 0 := by
  unfold kb
  rw [deg_minval pd hq hdeg, neg_zero, zero_mul]

/-- Every term of the weighted sum is multiplicity 0 times something, or something times distance 0. -/
theorem deg_mean (hpdz : ∀ i j : Fin 8192, pd (hq i) (hq j) = 0) (i : Fin 8192) : mean pd hq (hq i) = 0 := by
  unfold mean
  have hterm : ∀ q, cadj hq (hq i) q * pd (hq i) q = 0 := by
    intro q
    rcases deg_cadj_cases hq i q with h | ⟨j, hj⟩
    · rw [h, zero_mul]
    · rw [← hj, hpdz, mul_zero]
  rw [Finset.sum_congr rfl (fun q _ => hterm q), Finset.sum_const_zero, deg_div_zero_8192]

theorem deg_var (hpdz : ∀ i j : Fin 8192, pd (hq i) (hq j) = 0) (i : Fin 8192) : var pd hq (hq i) = 0 := by
  unfold var
  rw [deg_mean pd hq hpdz i]
  have hterm : ∀ q, cadj hq (hq i) q * ((pd (hq i) q - 0) * (pd (hq i) q - 0)) = 0 := by
    intro q
    rcases deg_cadj_cases hq i q with h | ⟨j, hj⟩
    · rw [h, zero_mul]
    · rw [← hj, hpdz, deg_zero_sub_zero, mul_zero, mul_zero]
  rw [Finset.sum_congr rfl (fun q _ => hterm q), Finset.sum_const_zero, mul_zero, add_zero, deg_div_zero_8191, max_self]

theorem deg_muk (hdeg : ∀ i j, R pd hq i j = 0) (hpdz : ∀ i j : Fin 8192, pd (hq i) (hq j) = 0) (i : Fin 8192) :
    muk pd hq (hq i) = 0 := by
  unfold muk
  rw [deg_mean pd hq hpdz, deg_minval pd hq hdeg, deg_zero_sub_zero, zero_mul]

theorem deg_s1 (hpdz : ∀ i j : Fin 8192, pd (hq i) (hq j) = 0) (i : Fin 8192) : s1 pd hq (hq i) = 0 := by
  unfold s1 stdk
  rw [deg_var pd hq hpdz, deg_sqrt_zero, zero_mul]

/-- The deviation is 0, so 1/(2·0·0) = 1/0 = ⊤. -/
theorem deg_inv2 (hpdz : ∀ i j : Fin 8192, pd (hq i) (hq j) = 0) (i : Fin 8192) : inv2 pd hq (hq i) = ⊤ := by
  unfold inv2
  rw [deg_s1 pd hq hpdz, mul_zero, deg_div_one_zero]

theorem W_deg (hpd : ∀ p q, ∃ r : ℝ, pd p q = (r : EReal)) (hsymm : ∀ p q, pd p q = pd q p)
    (hzero : ∀ p q, pd p q = 0 → ∀ r, pd p r = pd q r) (hdeg : ∀ i j, R pd hq i j = 0) (i j : Fin 8192) :
    W pd hq (hq i) (hq j) = 1 := by
  have hpdz := deg_pd_zero pd hq hsymm hzero hdeg
  unfold W
  rw [deg_ka pd hq hdeg i, deg_kb pd hq hdeg i, deg_muk pd hq hdeg hpdz j, deg_inv2 pd hq hpdz j, hpdz i j,
    mul_zero, add_zero, deg_zero_sub_zero, mul_zero, zero_mul, deg_exp_zero]

end

end Cert.Spec

end
-- ==== Proof.MathNondeg.lean ====
/-
  When every row has a positive real range, rescaling a row by its range is affine, so the rescaled row's mean and unbiased
  deviation are the raw row's mean and deviation rescaled, and the raw row's moments are multiplicity-weighted sums over
  prototypes: the reference's reweighting of a pair of distinct rows is the kernel's table entry at their prototypes, a real number.
-/
import proofs.«427632_j79637283602625_3_alg».proof.Proof.Spec
import proofs.«427632_j79637283602625_3_alg».proof.Proof.MathRows

noncomputable section

open scoped BigOperators

namespace Cert.Spec

open Idealize.ShloMosaic

namespace Nondeg

/-- A finite sum of real numbers, taken in the extended reals, is the real sum. -/
theorem coe_real_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem lit_8192 : (8192 : EReal) = ((8192 : ℝ) : EReal) := by norm_cast
theorem lit_8191 : (8191 : EReal) = ((8191 : ℝ) : EReal) := by norm_cast
theorem lit_2 : (2 : EReal) = ((2 : ℝ) : EReal) := by norm_cast

/-- Division of a real by a nonzero real is the real quotient. -/
theorem div_real (a : ℝ) {y : ℝ} (hy : y ≠ 0) : Ideal.div (a : EReal) (y : EReal) = ((a / y : ℝ) : EReal) := by
  rw [Ideal.div_coe hy, ← EReal.coe_mul, mul_one_div]

/-- The root of a nonnegative real is the real root. -/
theorem sqrt_real {a : ℝ} (ha : 0 ≤ a) : Ideal.sqrt (a : EReal) = ((Real.sqrt a : ℝ) : EReal) := by
  rw [Ideal.sqrt_coe, if_neg (not_lt.mpr ha)]

/-- The real row: row i's real distances to every column, zero on the diagonal. -/
def rowR (g : Fin 100 → Fin 100 → ℝ) (hq : Fin 8192 → Fin 100) (i j : Fin 8192) : ℝ :=
  if i = j then 0 else g (hq i) (hq j)
/-- The real row's mean. -/
def meanR (g : Fin 100 → Fin 100 → ℝ) (hq : Fin 8192 → Fin 100) (i : Fin 8192) : ℝ := (∑ j, rowR g hq i j) / 8192
/-- The real row's unbiased variance. -/
def varR (g : Fin 100 → Fin 100 → ℝ) (hq : Fin 8192 → Fin 100) (i : Fin 8192) : ℝ :=
  (∑ j, (rowR g hq i j - meanR g hq i) * (rowR g hq i j - meanR g hq i)) / 8191

theorem varR_nonneg (g : Fin 100 → Fin 100 → ℝ) (hq : Fin 8192 → Fin 100) (i : Fin 8192) : 0 ≤ varR g hq i :=
  div_nonneg (Finset.sum_nonneg fun j _ => mul_self_nonneg _) (by norm_num)

section
variable (pd : Fin 100 → Fin 100 → EReal) (hq : Fin 8192 → Fin 100) (g : Fin 100 → Fin 100 → ℝ)

theorem R_coe (hg : ∀ p q, pd p q = (g p q : EReal)) (i j : Fin 8192) : R pd hq i j = (rowR g hq i j : EReal) := by
  unfold R rowR
  split_ifs
  · exact EReal.coe_zero.symm
  · exact hg _ _

/-- The kernel's mean at a row's prototype is the row's mean. -/
theorem mean_coe (hg : ∀ p q, pd p q = (g p q : EReal)) (i : Fin 8192) : mean pd hq (hq i) = (meanR g hq i : EReal) := by
  have hs := sum_row pd hq (fun p q => ⟨g p q, hg p q⟩) (fun x => x) (fun r => ⟨r, rfl⟩) i
  simp only [zero_add] at hs
  unfold mean meanR
  rw [← hs]
  simp only [R_coe pd hq g hg]
  rw [coe_real_sum, lit_8192, div_real _ (by norm_num)]

/-- The kernel's variance at a row's prototype is the row's unbiased variance. -/
theorem var_coe (hg : ∀ p q, pd p q = (g p q : EReal)) (i : Fin 8192) : var pd hq (hq i) = (varR g hq i : EReal) := by
  have hm := mean_coe pd hq g hg i
  have hs := sum_row pd hq (fun p q => ⟨g p q, hg p q⟩)
    (fun x => (x - mean pd hq (hq i)) * (x - mean pd hq (hq i)))
    (fun r => ⟨(r - meanR g hq i) * (r - meanR g hq i), by rw [hm, ← EReal.coe_sub, ← EReal.coe_mul]⟩) i
  have h0 : (0 - mean pd hq (hq i)) * (0 - mean pd hq (hq i)) = mean pd hq (hq i) * mean pd hq (hq i) := by
    rw [hm, ← EReal.coe_zero, ← EReal.coe_sub, ← EReal.coe_mul, ← EReal.coe_mul]
    congr 1; ring
  unfold var
  rw [add_comm, ← h0, ← hs]
  simp only [R_coe pd hq g hg, hm, ← EReal.coe_sub, ← EReal.coe_mul]
  rw [coe_real_sum, lit_8191, div_real _ (by norm_num)]
  exact max_eq_left (EReal.coe_nonneg.mpr (varR_nonneg g hq i))

end

/-! ### Two real identities: the mean and the deviation of an affinely rescaled row -/

theorem mean_rescaled (f : Fin 8192 → ℝ) (l ρ : ℝ) :
    (∑ j, (f j - l) / ρ) / 8192 = ((∑ j, f j) / 8192 - l) * (1 / ρ) := by
  rw [← Finset.sum_div, Finset.sum_sub_distrib, Finset.sum_const, Finset.card_univ, Fintype.card_fin, nsmul_eq_mul]
  push_cast
  ring

theorem dev_rescaled (f : Fin 8192 → ℝ) (l m ρ : ℝ) (hρ : 0 < ρ) :
    Real.sqrt ((∑ j, ((f j - l) / ρ - (m - l) * (1 / ρ)) * ((f j - l) / ρ - (m - l) * (1 / ρ))) / 8191)
      = Real.sqrt ((∑ j, (f j - m) * (f j - m)) / 8191) * (1 / ρ) := by
  have h1 : ∀ j, ((f j - l) / ρ - (m - l) * (1 / ρ)) * ((f j - l) / ρ - (m - l) * (1 / ρ))
      = (f j - m) * (f j - m) * ((1 / ρ) ^ 2) := fun j => by ring
  simp only [h1]
  rw [← Finset.sum_mul, mul_div_right_comm, Real.sqrt_mul (div_nonneg (Finset.sum_nonneg fun j _ => mul_self_nonneg _) (by norm_num)),
    Real.sqrt_sq (by positivity)]

section
variable (pd : Fin 100 → Fin 100 → EReal) (hq : Fin 8192 → Fin 100) (g : Fin 100 → Fin 100 → ℝ) (lo hi : Fin 8192 → ℝ)

/-- A row whose minimum lies strictly below its maximum is not constant, so its variance is positive. -/
theorem varR_pos (hg : ∀ p q, pd p q = (g p q : EReal)) (hlo : ∀ i, rmin pd hq i = (lo i : EReal))
    (hhi : ∀ i, rmax pd hq i = (hi i : EReal)) (hlt : ∀ i, lo i < hi i) (i : Fin 8192) : 0 < varR g hq i := by
  rcases (varR_nonneg g hq i).lt_or_eq with h | h
  · exact h
  · exfalso
    have hsum : ∑ j, (rowR g hq i j - meanR g hq i) * (rowR g hq i j - meanR g hq i) = 0 := by
      unfold varR at h
      rcases div_eq_zero_iff.mp h.symm with h1 | h1
      · exact h1
      · norm_num at h1
    have hall : ∀ j, rowR g hq i j = meanR g hq i := by
      intro j
      have := (Finset.sum_eq_zero_iff_of_nonneg (fun j _ => mul_self_nonneg _)).mp hsum j (Finset.mem_univ j)
      exact sub_eq_zero.mp (mul_self_eq_zero.mp this)
    have hfun : (fun j => R pd hq i j) = fun _ => (meanR g hq i : EReal) := by
      funext j; rw [R_coe pd hq g hg, hall]
    have hne : (Finset.univ : Finset (Fin 8192)).Nonempty := ⟨i, Finset.mem_univ i⟩
    have hmin : rmin pd hq i = (meanR g hq i : EReal) := by
      unfold rmin; rw [hfun, Finset.inf_const hne]
    have hmax : rmax pd hq i = (meanR g hq i : EReal) := by
      unfold rmax; rw [hfun, Finset.sup_const hne]
    have e : (lo i : EReal) = (hi i : EReal) := ((hlo i).symm.trans hmin).trans (hmax.symm.trans (hhi i))
    exact (hlt i).ne (EReal.coe_eq_coe_iff.mp e)

variable (hg : ∀ p q, pd p q = (g p q : EReal)) (hlo : ∀ i, rmin pd hq i = (lo i : EReal))
    (hhi : ∀ i, rmax pd hq i = (hi i : EReal)) (hlt : ∀ i, lo i < hi i)
include hg hlo hhi hlt

theorem ka_coe (i : Fin 8192) : ka pd hq (hq i) = ((1 / (hi i - lo i) : ℝ) : EReal) := by
  unfold ka
  rw [← rmax_eq, ← rmin_eq, hhi, hlo, ← EReal.coe_sub, ← EReal.coe_one, div_real _ (sub_ne_zero.mpr (hlt i).ne')]

theorem kb_coe (i : Fin 8192) : kb pd hq (hq i) = ((-lo i * (1 / (hi i - lo i)) : ℝ) : EReal) := by
  unfold kb
  rw [ka_coe pd hq g lo hi hg hlo hhi hlt, ← rmin_eq, hlo, ← EReal.coe_neg, ← EReal.coe_mul]

theorem muk_coe (i : Fin 8192) : muk pd hq (hq i) = (((meanR g hq i - lo i) * (1 / (hi i - lo i)) : ℝ) : EReal) := by
  unfold muk
  rw [ka_coe pd hq g lo hi hg hlo hhi hlt, mean_coe pd hq g hg, ← rmin_eq, hlo, ← EReal.coe_sub, ← EReal.coe_mul]

theorem s1_coe (i : Fin 8192) : s1 pd hq (hq i) = ((Real.sqrt (varR g hq i) * (1 / (hi i - lo i)) : ℝ) : EReal) := by
  unfold s1 stdk
  rw [ka_coe pd hq g lo hi hg hlo hhi hlt, var_coe pd hq g hg, sqrt_real (varR_nonneg g hq i), ← EReal.coe_mul]

theorem s1R_pos (i : Fin 8192) : 0 < Real.sqrt (varR g hq i) * (1 / (hi i - lo i)) :=
  mul_pos (Real.sqrt_pos.mpr (varR_pos pd hq g lo hi hg hlo hhi hlt i)) (one_div_pos.mpr (sub_pos.mpr (hlt i)))

theorem inv2_coe (i : Fin 8192) : inv2 pd hq (hq i)
    = ((1 / (2 * (Real.sqrt (varR g hq i) * (1 / (hi i - lo i))) * (Real.sqrt (varR g hq i) * (1 / (hi i - lo i)))) : ℝ) : EReal) := by
  have hp := s1R_pos pd hq g lo hi hg hlo hhi hlt i
  unfold inv2
  rw [s1_coe pd hq g lo hi hg hlo hhi hlt, lit_2, ← EReal.coe_mul, ← EReal.coe_mul, ← EReal.coe_one,
    div_real _ (by positivity)]

theorem Rn_coe (i j : Fin 8192) : Rn pd hq i j = (((rowR g hq i j - lo i) / (hi i - lo i) : ℝ) : EReal) := by
  unfold Rn
  rw [R_coe pd hq g hg, hlo, hhi, ← EReal.coe_sub, ← EReal.coe_sub, div_real _ (sub_ne_zero.mpr (hlt i).ne')]

theorem mu_coe (i : Fin 8192) : mu pd hq i = (((meanR g hq i - lo i) * (1 / (hi i - lo i)) : ℝ) : EReal) := by
  unfold mu
  simp only [Rn_coe pd hq g lo hi hg hlo hhi hlt]
  rw [coe_real_sum, lit_8192, div_real _ (by norm_num), mean_rescaled]
  rfl

theorem sd_coe (i : Fin 8192) : sd pd hq i = ((Real.sqrt (varR g hq i) * (1 / (hi i - lo i)) : ℝ) : EReal) := by
  unfold sd
  simp only [Rn_coe pd hq g lo hi hg hlo hhi hlt, mu_coe pd hq g lo hi hg hlo hhi hlt, ← EReal.coe_sub, ← EReal.coe_mul]
  rw [coe_real_sum, lit_8191, div_real _ (by norm_num),
    sqrt_real (div_nonneg (Finset.sum_nonneg fun j _ => mul_self_nonneg _) (by norm_num)),
    dev_rescaled _ _ _ _ (sub_pos.mpr (hlt i))]
  rfl

theorem W_coe (i j : Fin 8192) : W pd hq (hq i) (hq j) = ((Real.exp
    ((((1 / (hi i - lo i)) * g (hq i) (hq j) + -lo i * (1 / (hi i - lo i))) - (meanR g hq j - lo j) * (1 / (hi j - lo j)))
      * (((1 / (hi i - lo i)) * g (hq i) (hq j) + -lo i * (1 / (hi i - lo i))) - (meanR g hq j - lo j) * (1 / (hi j - lo j)))
      * (1 / (2 * (Real.sqrt (varR g hq j) * (1 / (hi j - lo j))) * (Real.sqrt (varR g hq j) * (1 / (hi j - lo j)))))) : ℝ) : EReal) := by
  unfold W
  rw [ka_coe pd hq g lo hi hg hlo hhi hlt, kb_coe pd hq g lo hi hg hlo hhi hlt, muk_coe pd hq g lo hi hg hlo hhi hlt,
    inv2_coe pd hq g lo hi hg hlo hhi hlt, hg, ← EReal.coe_mul, ← EReal.coe_add, ← EReal.coe_sub, ← EReal.coe_mul, ← EReal.coe_mul,
    Ideal.exp_coe]

theorem E_coe (i j : Fin 8192) : E pd hq i j = ((Real.exp
    ((((rowR g hq i j - lo i) / (hi i - lo i)) - (meanR g hq j - lo j) * (1 / (hi j - lo j)))
      * (((rowR g hq i j - lo i) / (hi i - lo i)) - (meanR g hq j - lo j) * (1 / (hi j - lo j)))
      / (2 * ((Real.sqrt (varR g hq j) * (1 / (hi j - lo j))) * (Real.sqrt (varR g hq j) * (1 / (hi j - lo j)))))) : ℝ) : EReal) := by
  have hp := s1R_pos pd hq g lo hi hg hlo hhi hlt j
  unfold E
  rw [Rn_coe pd hq g lo hi hg hlo hhi hlt, mu_coe pd hq g lo hi hg hlo hhi hlt, sd_coe pd hq g lo hi hg hlo hhi hlt, lit_2,
    ← EReal.coe_sub, ← EReal.coe_mul, ← EReal.coe_mul, ← EReal.coe_mul, div_real _ (by positivity), Ideal.exp_coe]

end

end Nondeg

section
open Nondeg
variable (pd : Fin 100 → Fin 100 → EReal) (hq : Fin 8192 → Fin 100)

theorem E_nondeg (hpd : ∀ p q, ∃ r : ℝ, pd p q = (r : EReal))
    (h : ∀ i, ∃ lo hi : ℝ, rmin pd hq i = (lo : EReal) ∧ rmax pd hq i = (hi : EReal) ∧ lo < hi) (i j : Fin 8192) (hij : i ≠ j) :
    E pd hq i j = W pd hq (hq i) (hq j) := by
  choose g hg using hpd
  choose lo hi hlo hhi hlt using h
  rw [E_coe pd hq g lo hi hg hlo hhi hlt, W_coe pd hq g lo hi hg hlo hhi hlt]
  congr 2
  rw [rowR, if_neg hij]
  ring

theorem W_nondeg_real (hpd : ∀ p q, ∃ r : ℝ, pd p q = (r : EReal))
    (h : ∀ i, ∃ lo hi : ℝ, rmin pd hq i = (lo : EReal) ∧ rmax pd hq i = (hi : EReal) ∧ lo < hi) (i j : Fin 8192) :
    ∃ r : ℝ, W pd hq (hq i) (hq j) = (r : EReal) := by
  choose g hg using hpd
  choose lo hi hlo hhi hlt using h
  exact ⟨_, W_coe pd hq g lo hi hg hlo hhi hlt i j⟩

end

end Cert.Spec

end
-- ==== Proof.MathWeights.lean ====
/-
  The reweighting of a pair of rows depends only on the two rows' prototypes, and equals the kernel's table entry.
  When some row's distances are not all zero, no row's are (a zero distance identifies two prototypes' rows of the distance
  matrix), every range max − min is positive and real, and the identity is affine rescaling of mean and deviation over the reals.
  When all are zero both sides evaluate, through the conventions for 0/0 and 1/0 on the extended reals, to exp 0 = 1.
-/
import proofs.«427632_j79637283602625_3_alg».proof.Proof.Spec
import proofs.«427632_j79637283602625_3_alg».proof.Proof.MathRows
import proofs.«427632_j79637283602625_3_alg».proof.Proof.MathDeg
import proofs.«427632_j79637283602625_3_alg».proof.Proof.MathNondeg

noncomputable section

open scoped BigOperators

namespace Cert.Spec

open Idealize.ShloMosaic

/-- The exponential is nowhere negative: 0 at −∞, +∞ at +∞, positive on the reals. -/
theorem weights_exp_nonneg (x : EReal) : 0 ≤ Ideal.exp x := by
  induction x using EReal.rec with
  | bot => simp
  | coe r => rw [Ideal.exp_coe]; exact EReal.coe_nonneg.2 (Real.exp_pos r).le
  | top => simp

section
variable (pd : Fin 100 → Fin 100 → EReal) (hq : Fin 8192 → Fin 100)

/-- A table entry is an exponential. -/
theorem W_nonneg (p q : Fin 100) : 0 ≤ W pd hq p q := by
  unfold W; exact weights_exp_nonneg _

/-- All rows zero: the entry is 1. Otherwise every row has a positive real range and the entry is real. -/
theorem W_present_real (hpd : ∀ p q, ∃ r : ℝ, pd p q = (r : EReal)) (hsymm : ∀ p q, pd p q = pd q p)
    (hzero : ∀ p q, pd p q = 0 → ∀ r, pd p r = pd q r) (i j : Fin 8192) : ∃ r : ℝ, W pd hq (hq i) (hq j) = (r : EReal) := by
  rcases deg_dichotomy pd hq hpd hsymm hzero with hdeg | h
  · exact ⟨1, by rw [W_deg pd hq hpd hsymm hzero hdeg i j]; rfl⟩
  · exact W_nondeg_real pd hq hpd h i j

/-- All rows zero: both sides are 1. Otherwise the affine-rescaling identity over the reals. -/
theorem E_eq_W (hpd : ∀ p q, ∃ r : ℝ, pd p q = (r : EReal)) (hsymm : ∀ p q, pd p q = pd q p)
    (hzero : ∀ p q, pd p q = 0 → ∀ r, pd p r = pd q r) (i j : Fin 8192) (hij : i ≠ j) :
    E pd hq i j = W pd hq (hq i) (hq j) := by
  rcases deg_dichotomy pd hq hpd hsymm hzero with hdeg | h
  · rw [E_deg pd hq hdeg i j, W_deg pd hq hpd hsymm hzero hdeg i j]
  · exact E_nondeg pd hq hpd h i j hij

end

end Cert.Spec

end
-- ==== Proof.MathSum.lean ====
/-
  The kernel's blockwise double sum over all pairs of rows, bucketed by the column's prototype, is the plain double sum of
  similarity times the masked table entry at the column's prototype (all terms are nonnegative, so the extended reals'
  product distributes); multiplying by the exact reciprocal of the temperature is dividing by it; removing the (real) diagonal
  leaves the reference's sum over off-diagonal pairs.
-/
import proofs.«427632_j79637283602625_3_alg».proof.Proof.Spec
import proofs.«427632_j79637283602625_3_alg».proof.Proof.MathUnit
import proofs.«427632_j79637283602625_3_alg».proof.Proof.MathRows
import proofs.«427632_j79637283602625_3_alg».proof.Proof.MathWeights

noncomputable section

open scoped BigOperators

namespace Cert.Spec

open Idealize.ShloMosaic

/-! ## Generalities on the extended reals -/

/-- The exponential is nonnegative everywhere on the extended reals. -/
theorem ideal_exp_nonneg (x : EReal) : 0 ≤ Ideal.exp x := by
  induction x using EReal.rec with
  | bot => simp
  | top => simp
  | coe r => rw [Ideal.exp_coe]; exact_mod_cast (Real.exp_pos r).le

/-- A factor distributes over a finite sum of nonnegative terms. -/
theorem mul_sum_of_nonneg {ι : Type*} (s : Finset ι) (a : EReal) (f : ι → EReal) (hf : ∀ i ∈ s, 0 ≤ f i) :
    a * ∑ i ∈ s, f i = ∑ i ∈ s, a * f i := by
  classical
  revert hf
  refine Finset.induction_on s (by simp) ?_
  intro x s hx ih hf
  rw [Finset.sum_insert hx, Finset.sum_insert hx,
    EReal.left_distrib_of_nonneg (hf _ (Finset.mem_insert_self _ _))
      (Finset.sum_nonneg fun i hi => hf i (Finset.mem_insert_of_mem hi)),
    ih (fun i hi => hf i (Finset.mem_insert_of_mem hi))]

/-- The inclusion of the reals commutes with finite sums. -/
theorem coe_finsum {ι : Type*} (s : Finset ι) (f : ι → ℝ) :
    ((∑ i ∈ s, f i : ℝ) : EReal) = ∑ i ∈ s, ((f i : ℝ) : EReal) := by
  classical
  refine Finset.induction_on s (by simp) ?_
  intro x s hx ih
  rw [Finset.sum_insert hx, Finset.sum_insert hx, EReal.coe_add, ih]

/-- The temperature is the real 13421773 / 2²⁶. -/
theorem tau_eq : tau = ((13421773 / 67108864 : ℝ) : EReal) := by
  simp [tau, Ideal.ofBits, Ideal.ieee, -EReal.coe_mul]; norm_num

/-! ## Blocks of 1024 rows enumerate all 8192 rows -/

/-- (block, row in block) ↦ row, a bijection. -/
def rowEquiv : Fin 8 × Fin 1024 ≃ Fin 8192 where
  toFun p := row p.1 p.2
  invFun i := (⟨i.val / 1024, by omega⟩, ⟨i.val % 1024, by omega⟩)
  left_inv := by
    rintro ⟨b, r⟩
    simp only [row]
    ext <;> simp <;> omega
  right_inv := by
    intro i
    simp only [row]
    ext; simp; omega

theorem sum_rows (f : Fin 8192 → EReal) : ∑ b : Fin 8, ∑ r : Fin 1024, f (row b r) = ∑ i, f i := by
  rw [← Fintype.sum_equiv rowEquiv (fun p => f (row p.1 p.2)) f (fun _ => rfl)]
  exact (Fintype.sum_prod_type' (fun b r => f (row b r))).symm

section
variable (G : Fin 8192 → Fin 8192 → EReal) (pd : Fin 100 → Fin 100 → EReal) (hq : Fin 8192 → Fin 100) (mem : Fin 8192 → Fin 100 → Bool)

theorem oh_nonneg (j : Fin 8192) (q : Fin 100) : 0 ≤ oh hq j q := by
  unfold oh; split_ifs <;> norm_num

/-- Summing a table row against one-hot bucketed weights picks the table entry at each column's bucket. -/
theorem bucket {ι : Type*} [Fintype ι] (v : Fin 100 → EReal) (e : ι → EReal) (he : ∀ s, 0 ≤ e s) (c : ι → Fin 8192) :
    ∑ q, v q * ∑ s, e s * oh hq (c s) q = ∑ s, e s * v (hq (c s)) := by
  calc ∑ q, v q * ∑ s, e s * oh hq (c s) q
      = ∑ q, ∑ s, v q * (e s * oh hq (c s) q) := by
        refine Finset.sum_congr rfl fun q _ => ?_
        exact mul_sum_of_nonneg _ _ _ fun s _ => mul_nonneg (he s) (oh_nonneg hq _ _)
    _ = ∑ s, ∑ q, v q * (e s * oh hq (c s) q) := Finset.sum_comm
    _ = ∑ s, e s * v (hq (c s)) := by
        refine Finset.sum_congr rfl fun s _ => ?_
        rw [Finset.sum_eq_single (hq (c s))]
        · simp [oh, mul_comm]
        · intro q _ hne; simp [oh, Ne.symm hne]
        · intro h; exact absurd (Finset.mem_univ _) h

theorem exp_mul_kappa (g : ℝ) : Ideal.exp ((g : EReal) * kappa) = Ideal.exp (Ideal.div (g : EReal) tau) := by
  rw [tau_eq, Ideal.div_coe (by norm_num)]
  congr 2
  norm_num

theorem kerAcc_eq (hG : ∀ i j, ∃ r : ℝ, G i j = (r : EReal)) :
    kerAcc G pd hq mem = ∑ i, ∑ j, Ideal.exp (Ideal.div (G i j) tau) * vtab pd hq mem i (hq j) := by
  have hsim : ∀ i j, Ideal.exp (G i j * kappa) = Ideal.exp (Ideal.div (G i j) tau) := by
    intro i j; obtain ⟨g, hg⟩ := hG i j; rw [hg]; exact exp_mul_kappa g
  have htile : ∀ bi bj, tile G pd hq mem bi bj = ∑ r : Fin 1024, ∑ s : Fin 1024,
      Ideal.exp (Ideal.div (G (row bi r) (row bj s)) tau) * vtab pd hq mem (row bi r) (hq (row bj s)) := by
    intro bi bj
    unfold tile
    refine Finset.sum_congr rfl fun r _ => ?_
    rw [bucket hq (fun q => vtab pd hq mem (row bi r) q) (fun s => Ideal.exp (G (row bi r) (row bj s) * kappa))
      (fun s => ideal_exp_nonneg _) (row bj)]
    refine Finset.sum_congr rfl fun s _ => ?_
    rw [hsim]
  unfold kerAcc
  simp_rw [htile]
  calc ∑ bi : Fin 8, ∑ bj : Fin 8, ∑ r : Fin 1024, ∑ s : Fin 1024,
        Ideal.exp (Ideal.div (G (row bi r) (row bj s)) tau) * vtab pd hq mem (row bi r) (hq (row bj s))
      = ∑ bi : Fin 8, ∑ r : Fin 1024, ∑ bj : Fin 8, ∑ s : Fin 1024,
        Ideal.exp (Ideal.div (G (row bi r) (row bj s)) tau) * vtab pd hq mem (row bi r) (hq (row bj s)) := by
        refine Finset.sum_congr rfl fun bi _ => Finset.sum_comm
    _ = ∑ bi : Fin 8, ∑ r : Fin 1024, ∑ j, Ideal.exp (Ideal.div (G (row bi r) j) tau) * vtab pd hq mem (row bi r) (hq j) := by
        refine Finset.sum_congr rfl fun bi _ => Finset.sum_congr rfl fun r _ => ?_
        exact sum_rows (fun j => Ideal.exp (Ideal.div (G (row bi r) j) tau) * vtab pd hq mem (row bi r) (hq j))
    _ = ∑ i, ∑ j, Ideal.exp (Ideal.div (G i j) tau) * vtab pd hq mem i (hq j) :=
        sum_rows (fun i => ∑ j, Ideal.exp (Ideal.div (G i j) tau) * vtab pd hq mem i (hq j))

theorem kerDiag_eq : kerDiag G pd hq mem = ∑ i, Ideal.exp (Ideal.div (G i i) tau) * vtab pd hq mem i (hq i) := by
  unfold kerDiag
  refine Finset.sum_congr rfl fun i _ => ?_
  congr 1
  rw [Finset.sum_eq_single (hq i)]
  · simp [oh]
  · intro q _ hne; simp [oh, Ne.symm hne]
  · intro h; exact absurd (Finset.mem_univ _) h

theorem denom_eq (hG : ∀ i j, ∃ r : ℝ, G i j = (r : EReal)) (hpd : ∀ p q, ∃ r : ℝ, pd p q = (r : EReal))
    (hsymm : ∀ p q, pd p q = pd q p) (hzero : ∀ p q, pd p q = 0 → ∀ r, pd p r = pd q r) :
    kerDenom G pd hq mem = refDenom G pd hq mem := by
  -- every term of the plain double sum is real
  have hterm : ∀ i j, ∃ a : ℝ, Ideal.exp (Ideal.div (G i j) tau) * vtab pd hq mem i (hq j) = (a : EReal) := by
    intro i j
    obtain ⟨g, hg⟩ := hG i j
    obtain ⟨w, hw⟩ := W_present_real pd hq hpd hsymm hzero i j
    rw [hg, tau_eq, Ideal.div_coe (by norm_num), ← EReal.coe_mul, Ideal.exp_coe]
    unfold vtab
    rw [hw]
    split_ifs
    · exact ⟨Real.exp (g * (1 / (13421773 / 67108864))) * (1 * w), by push_cast; rfl⟩
    · exact ⟨0, by simp⟩
  choose a ha using hterm
  have href : refDenom G pd hq mem = ∑ i, ∑ j, if i ≠ j then ((a i j : ℝ) : EReal) else 0 := by
    unfold refDenom
    refine Finset.sum_congr rfl fun i _ => Finset.sum_congr rfl fun j _ => ?_
    by_cases hij : i = j
    · simp [hij]
    · rw [if_pos hij, ← ha i j, E_eq_W pd hq hpd hsymm hzero i j hij]
      unfold vtab
      by_cases hm : mem i (hq j) = true
      · simp [hij, hm]
      · simp [hij, hm]
  rw [href]
  unfold kerDenom
  rw [kerAcc_eq G pd hq mem hG, kerDiag_eq]
  simp_rw [ha]
  have h1 : (∑ i, ∑ j, ((a i j : ℝ) : EReal)) = ((∑ i, ∑ j, a i j : ℝ) : EReal) := by
    simp_rw [coe_finsum]
  have h2 : (∑ i, ((a i i : ℝ) : EReal)) = ((∑ i, a i i : ℝ) : EReal) := by
    rw [coe_finsum]
  have h3 : (∑ i, ∑ j, if i ≠ j then ((a i j : ℝ) : EReal) else 0)
      = ((∑ i, ∑ j, (if i ≠ j then a i j else 0) : ℝ) : EReal) := by
    simp_rw [coe_finsum]
    refine Finset.sum_congr rfl fun i _ => Finset.sum_congr rfl fun j _ => ?_
    split_ifs <;> simp
  rw [h1, h2, h3, ← EReal.coe_sub]
  refine congrArg (fun r : ℝ => (r : EReal)) ?_
  rw [← Finset.sum_sub_distrib]
  refine Finset.sum_congr rfl fun i _ => ?_
  have hsplit : ∀ j, (if i ≠ j then a i j else 0) = a i j - (if i = j then a i j else 0) := by
    intro j; by_cases h : i = j <;> simp [h]
  simp_rw [hsplit]
  rw [Finset.sum_sub_distrib, Finset.sum_ite_eq]
  simp

end

/-- The two programs' losses agree on real inputs. -/
theorem loss_eq (x xa : Fin 4096 → Fin 256 → EReal) (pw : Fin 100 → Fin 256 → EReal) (hq : Fin 8192 → Fin 100) (mem : Fin 8192 → Fin 100 → Bool)
    (hx : ∀ i k, ∃ r : ℝ, x i k = (r : EReal)) (hxa : ∀ i k, ∃ r : ℝ, xa i k = (r : EReal)) (hpw : ∀ p k, ∃ r : ℝ, pw p k = (r : EReal)) :
    loss (pos x xa) (kerDenom (gram (out x xa)) (pdist (unit pw)) hq mem)
      = loss (pos x xa) (refDenom (gram (out x xa)) (pdist (unit pw)) hq mem) := by
  rw [denom_eq (gram (out x xa)) (pdist (unit pw)) hq mem
    (fun i j => gram_real _ (out_real x xa hx hxa) i j)
    (fun p q => pdist_real _ (unit_real pw hpw) p q)
    (fun p q => pdist_symm _ p q)
    (fun p q h r => pdist_zero_rows _ (unit_real pw hpw) (unit_sq_le_one pw hpw) p q h r)]

end Cert.Spec

end
-- ==== Proof.Value.lean ====
/-
  The two programs' results as the specification's two losses, by chaining the stage-by-stage readings.
  Kernel: the masked table is the gather of the prototype table at each row's prototype times the membership; the launch leaves in
  block bi of its output the sum over bj of the tile sums; the host adds the eight blocks, removes the diagonal and forms the loss.
  Reference: the masked, reweighted similarity matrix summed over all pairs, then the same loss.
-/
import proofs.«427632_j79637283602625_3_alg».proof.Proof.KIReadA
import proofs.«427632_j79637283602625_3_alg».proof.Proof.KIReadB
import proofs.«427632_j79637283602625_3_alg».proof.Proof.KIReadC
import proofs.«427632_j79637283602625_3_alg».proof.Proof.KIRegion
import proofs.«427632_j79637283602625_3_alg».proof.Proof.RefReadA
import proofs.«427632_j79637283602625_3_alg».proof.Proof.RefReadB
import proofs.«427632_j79637283602625_3_alg».proof.Proof.RefReadC
import proofs.«427632_j79637283602625_3_alg».proof.Proof.MathSum

noncomputable section

open scoped BigOperators

namespace Cert.Proof.Value

open Idealize.ShloMosaic Idealize.ShloMosaic.ValueIdx Cert

section Kernel
open Cert.KernelIdeal Cert.KernelIdeal.Stages Cert.KernelIdeal.Hand

variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal))

/-- The kernel program's result is the loss over the blockwise sum less the diagonal. -/
theorem ki_value (hr : ∀ i, (a3 i).toNat < 100) :
    res_main_v136 (F := Ideal) a0 a1 a2 a3 a4 (regionOut (res_main_v109 (F := Ideal) a0 a1 a2 a3 a4) (res_main_v107 (F := Ideal) a0 a1 a2 a3 a4) (res_main_v108 (F := Ideal) a0 a1 a2 a3 a4)) ix0
      = Spec.loss (Spec.pos (Conv.mat a0) (Conv.mat a1))
          (Spec.kerDenom (Spec.gram (Spec.out (Conv.mat a0) (Conv.mat a1))) (Spec.pdist (Spec.unit (Conv.mat a2))) (Conv.hqOf a3) (Conv.memOf a4)) := by
  have hW := Cert.KernelIdeal.Read.W_read a0 a1 a2 a3 a4 (Spec.pdist (Spec.unit (Conv.mat a2))) (Conv.hqOf a3)
    (Cert.KernelIdeal.Read.pd_read a0 a1 a2 a3 a4) (Cert.KernelIdeal.Read.oh_read a0 a1 a2 a3 a4 hr)
  have hv := Cert.KernelIdeal.Read.vtab_read a0 a1 a2 a3 a4 hr (Spec.pdist (Spec.unit (Conv.mat a2))) (Conv.memOf a4) hW
    (Cert.KernelIdeal.Read.mem_read a0 a1 a2 a3 a4)
  rw [Cert.KernelIdeal.Read.final_read a0 a1 a2 a3 a4 _ (Spec.out (Conv.mat a0) (Conv.mat a1)) (Spec.pdist (Spec.unit (Conv.mat a2))) (Conv.hqOf a3) (Conv.memOf a4)
    (Spec.pos (Conv.mat a0) (Conv.mat a1)) (Cert.KernelIdeal.Read.out_read a0 a1 a2 a3 a4) hv (Cert.KernelIdeal.Read.oh_read a0 a1 a2 a3 a4 hr)
    (Cert.KernelIdeal.Read.pos_read a0 a1 a2 a3 a4)]
  have hacc : (∑ bi : Fin 8, regionOut (F := Ideal) (res_main_v109 (F := Ideal) a0 a1 a2 a3 a4) (res_main_v107 (F := Ideal) a0 a1 a2 a3 a4) (res_main_v108 (F := Ideal) a0 a1 a2 a3 a4) (ix3 bi (0 : Fin 8) (0 : Fin 128)))
      = Spec.kerAcc (Spec.gram (Spec.out (Conv.mat a0) (Conv.mat a1))) (Spec.pdist (Spec.unit (Conv.mat a2))) (Conv.hqOf a3) (Conv.memOf a4) := by
    unfold Spec.kerAcc
    exact Finset.sum_congr rfl fun bi _ => region_value _ _ _ (Spec.out (Conv.mat a0) (Conv.mat a1)) _ _ _
      (Cert.KernelIdeal.Read.out_read a0 a1 a2 a3 a4) hv (Cert.KernelIdeal.Read.ohb_read a0 a1 a2 a3 a4 hr) bi
  rw [hacc]; rfl

end Kernel

section Reference
open Cert.ReferenceIdeal Cert.ReferenceIdeal.Stages

variable (a0 a1 : (⟨S4096x256, .f32⟩ : BufTy).Contents (Elt Ideal)) (a2 : (⟨S100x256, .f32⟩ : BufTy).Contents (Elt Ideal)) (a3 : (⟨S2x4096, .i32⟩ : BufTy).Contents (Elt Ideal)) (a4 : (⟨S2x4096x10, .i32⟩ : BufTy).Contents (Elt Ideal))

/-- The reference program's result is the loss over the masked, reweighted sum over all pairs of distinct rows. -/
theorem ref_value (hr : ∀ i, (a3 i).toNat < 100) :
    res_main_v99 (F := Ideal) a0 a1 a2 a3 a4 ix0
      = Spec.loss (Spec.pos (Conv.mat a0) (Conv.mat a1))
          (Spec.refDenom (Spec.gram (Spec.out (Conv.mat a0) (Conv.mat a1))) (Spec.pdist (Spec.unit (Conv.mat a2))) (Conv.hqOf a3) (Conv.memOf a4)) := by
  rw [Cert.ReferenceIdeal.Read.loss_read a0 a1 a2 a3 a4 (Spec.pos (Conv.mat a0) (Conv.mat a1)) (Cert.ReferenceIdeal.Read.pos_read a0 a1 a2 a3 a4),
    Cert.ReferenceIdeal.Read.denom_read a0 a1 a2 a3 a4 (Spec.pdist (Spec.unit (Conv.mat a2))) (Conv.hqOf a3) (Spec.gram (Spec.out (Conv.mat a0) (Conv.mat a1))) (Conv.memOf a4)
      (Cert.ReferenceIdeal.Read.sim_read a0 a1 a2 a3 a4) (Cert.ReferenceIdeal.Read.mask_read a0 a1 a2 a3 a4 hr)
      (Cert.ReferenceIdeal.Read.R_read a0 a1 a2 a3 a4 hr (Spec.pdist (Spec.unit (Conv.mat a2))) (Cert.ReferenceIdeal.Read.pd_read a0 a1 a2 a3 a4))]

end Reference

end Cert.Proof.Value

end
-- ==== Proof.PreDecode.lean ====
/-
  The precondition read back: when the printed predicate holds, every entry of the three real-valued inputs is a real
  number (|x| < +∞ excludes both infinities) and every entry of the hard-prototype array is a number below 100
  (0 ≤ v and v < 100 as signed words).
-/
import proofs.«427632_j79637283602625_3_alg».proof.Proof.Gen.Pre_finite_inputs
import Idealize.ShloMosaic.Lib.ReduceAll
import Idealize.ShloMosaic.Lib.ValueIdx

namespace Cert.PreDecode

open Cert.Pre_finite_inputs Idealize.ShloMosaic

/-- The scalar shape has one index. -/
instance subsingleton_S_ : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hc
    simp [hc] at h
  rw [max_lt_iff] at hlt
  induction x using EReal.rec with
  | bot => simp at hlt
  | coe r => exact ⟨r, rfl⟩
  | top => simp at hlt

/-- A 32-bit word that is at least 0 and below 100 as a signed number is below 100 as a natural number. -/
theorem lt_hundred (v : BitVec 32) (h0 : IntOp.cmpi .sge v 0#32 = 1#1) (h1 : IntOp.cmpi .slt v 100#32 = 1#1) :
    v.toNat < 100 := by
  rw [IntOp.cmpi_sge] at h0
  rw [IntOp.cmpi_slt] at h1
  have e0 : (0#32 : BitVec 32).toInt = 0 := by decide
  have e1 : (100#32 : BitVec 32).toInt = 100 := by decide
  rw [e0] at h0
  rw [e1] at h1
  have hv := v.isLt
  rw [BitVec.toInt_eq_toNat_cond] at h0 h1
  split at h0 <;> omega

theorem decode (a0 a1 : FVec Ideal S4096x256 .f32) (a2 : FVec Ideal S100x256 .f32) (a3 : IVec S2x4096 32) (a4 : IVec S2x4096x10 32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, (a3 i).toNat < 100) := by
  have h0 := congrFun h ValueIdx.ix0
  dsimp only [fn, fn_part1] at h0
  obtain ⟨h012, h3⟩ := IntOp.andi_eq_one.1 (show IntOp.andi _ _ = 1#1 from h0)
  obtain ⟨h01, h2⟩ := IntOp.andi_eq_one.1 (show IntOp.andi _ _ = 1#1 from h012)
  obtain ⟨h0', h1⟩ := IntOp.andi_eq_one.1 (show IntOp.andi _ _ = 1#1 from h01)
  refine ⟨fun i => ?_, fun i => ?_, fun i => ?_, fun i => ?_⟩
  · exact real_of_abs_lt_top (a0 i) (Host.reduce_andi_all _ _ _ _ _ h0' i)
  · exact real_of_abs_lt_top (a1 i) (Host.reduce_andi_all _ _ _ _ _ h1 i)
  · exact real_of_abs_lt_top (a2 i) (Host.reduce_andi_all _ _ _ _ _ h2 i)
  · have hi := Host.reduce_andi_all _ _ _ _ _ h3 i
    obtain ⟨hge, hlt⟩ := IntOp.andi_eq_one.1 (show IntOp.andi _ _ = 1#1 from hi)
    exact lt_hundred (a3 i) hge hlt

end Cert.PreDecode
-- ==== Proof.lean ====
/-
  The certificate of the hard-negative, prototype-reweighted contrastive loss.

  Both programs stack the two views' unit rows o_1 … o_8192 and compare all pairs. A pair (i, j), i ≠ j, counts when row j's hard
  prototype is one of row i's ten negatives, with weight exp(⟨o_i, o_j⟩ / τ) · E(i, j); E rescales the prototype distance
  pd(hq_i, hq_j) = 1 − ⟨w_{hq_i}, w_{hq_j}⟩ by row i's range and compares it with the mean and unbiased deviation of COLUMN j's
  own rescaled row, E = exp((rw − μ_j)² / (2 σ_j²)). The reference takes the statistics over the 8192 × 8192 matrix of distances
  (diagonal forced to zero). The kernel observes that a row's distances depend only on its prototype p and take the value
  pd(p, q) once for every OTHER row of prototype q, so minimum, maximum, mean and deviation are functions of p computed from
  the multiplicities cnt(q) − [p = q]; it tabulates E over pairs of prototypes, masks the table row by the negatives, sums
  similarity × table over all pairs blockwise (a one-hot product buckets a tile's columns by prototype), and removes the diagonal
  afterwards. The kernel's factor 5 is read as the exact reciprocal 1/τ of the reference's temperature τ = f32(0.2).
  Over the extended reals the two agree: when some row's distances are not all zero none are (a zero distance makes two unit
  prototypes equal), every range is a positive real and the identity is affine rescaling of mean and deviation; when all are zero
  both sides pass through the conventions 0/0 = ⊥, 1/0 = ⊤ to exp 0 = 1. The hard prototype ids are assumed in [0, 100): outside
  it the reference's gathers fill and clamp where the kernel's one-hot rows vanish.

  Frames: each program's run (a straight-line host program for the reference; host operations, one pipelined launch whose
  two row windows read one array, host operations for the kernel) ends with the arguments unchanged.
-/
import proofs.«427632_j79637283602625_3_alg».proof.Defs
import proofs.«427632_j79637283602625_3_alg».proof.Proof.KIRun
import proofs.«427632_j79637283602625_3_alg».proof.Proof.KRun
import proofs.«427632_j79637283602625_3_alg».proof.Proof.RefRun
import proofs.«427632_j79637283602625_3_alg».proof.Proof.Value
import proofs.«427632_j79637283602625_3_alg».proof.Proof.PreDecode
import proofs.«427632_j79637283602625_3_alg».proof.Proof.Gen.Kernel
import proofs.«427632_j79637283602625_3_alg».proof.Proof.Gen.KernelIdeal
import proofs.«427632_j79637283602625_3_alg».proof.Proof.Gen.ReferenceIdeal
import proofs.«427632_j79637283602625_3_alg».proof.Proof.Gen.Pre_finite_inputs
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ =>
  (θ_run (Cert.Kernel.defs (F := Bits)) _ _).mono (fun _ h c => (h c).2) (Cert.Kernel.Hand.run (F := Bits) m ρ)

theorem frame_ki : Cert.frame_KernelIdeal := fun m ρ _ =>
  (θ_run (Cert.KernelIdeal.defs (F := Ideal)) _ _).mono (fun _ h c => (h c).2) (Cert.KernelIdeal.Hand.run (F := Ideal) m ρ)

theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- The one rewrite of the idealization: the literal 5 is the named reciprocal of the temperature. -/
theorem preserves : Cert.preserves_Kernel_KernelIdeal :=
  IdealRules.named_const.statement Cert.KernelIdeal.κ "inv_temperature" .f32 0x40A00000#32 ((67108864 / 13421773 : ℝ) : EReal) rfl

/-- Both runs end; the kernel's scalar is the loss over the blockwise sum less the diagonal, the reference's the loss over the
    masked pair sum, and the two denominators are equal on finite inputs with hard prototypes in range. -/
theorem algebraic : Cert.algebraic_KernelIdeal_ReferenceIdeal := by
  intro m ρ m' ρ' hpre hagree
  refine ⟨_, Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.Hand.run (F := Ideal) m' ρ')
  obtain ⟨h0, h1, h2, h3, h4⟩ := hagree c
  rw [h0, h1, h2, h3, h4]
  obtain ⟨f0, f1, f2, hr⟩ := Cert.PreDecode.decode _ _ _ _ _ (hpre c)
  funext idx
  rw [eq_ix0 idx, Value.ref_value _ _ _ _ _ hr, Value.ki_value _ _ _ _ _ hr]
  exact (Cert.Spec.loss_eq _ _ _ _ _ (fun i k => f0 (ix2 i k)) (fun i k => f1 (ix2 i k)) (fun p k => f2 (ix2 p k))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
